-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v618)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v618) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v909) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S3x400000 : Shape := ⟨2, ![3, 400000]⟩
abbrev S3x50000 : Shape := ⟨2, ![3, 50000]⟩
abbrev S257x64 : Shape := ⟨2, ![257, 64]⟩
abbrev S3x64x128 : Shape := ⟨3, ![3, 64, 128]⟩
abbrev S3x128 : Shape := ⟨2, ![3, 128]⟩
abbrev S3x3x128x128 : Shape := ⟨4, ![3, 3, 128, 128]⟩
abbrev S3x3x128 : Shape := ⟨3, ![3, 3, 128]⟩
abbrev S_ : Shape := ⟨0, ![]⟩

class Facts : Prop where
  bcast_S_S257x64 : S_.BroadcastsInDim S257x64 (![] : Fin 0 → Fin S257x64.rank)
  reducesTo_S257x64_S_d0_1 : S257x64.ReducesTo [0, 1] S_
  h_S_ : 0 < S_.numel
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128 : S_.BroadcastsInDim S3x3x128 (![] : Fin 0 → Fin S3x3x128.rank)
  reducesTo_S3x3x128_S_d0_1_2 : S3x3x128.ReducesTo [0, 1, 2] S_

variable [Facts]

def fn_part4 {F : FTy → Type} [FloatOps F] (main_arg20 : FVec F S3x3x128 .f32) (main_v63 : IVec S_ 1) (main_v67 : IVec S_ 1) : IVec S_ 1 :=
  let main_v68 : IVec S_ 1 := andi main_v63 main_v67
  let main_v69 : FVec F S3x3x128 .f32 := Host.absf main_arg20
  let main_cst_26 : FVec F S_ .f32 := constant S_ .f32 0x7F800000#32
  let main_v70 : FVec F S3x3x128 .f32 := broadcastInDim S3x3x128 ![] bcast_S_S3x3x128 main_cst_26
  let main_v71 : IVec S3x3x128 1 := cmpf .olt main_v69 main_v70
  let main_c_27 : IVec S_ 1 := constantI S_ 1 1#1
  let main_v72 : IVec S_ 1 := (fun x v => Host.reduce IntOp.andi x v reducesTo_S3x3x128_S_d0_1_2 h_S_) main_v71 main_c_27
  let main_v73 : IVec S_ 1 := andi main_v68 main_v72
  main_v73

def fn_part3 {F : FTy → Type} [FloatOps F] (main_arg17 : FVec F S3x3x128 .f32) (main_arg18 : FVec F S3x3x128 .f32) (main_arg19 : FVec F S3x3x128 .f32) (main_arg20 : FVec F S3x3x128 .f32) (main_v48 : IVec S_ 1) (main_v49 : FVec F S3x3x128x128 .f32) (main_v50 : FVec F S3x3x128x128 .f32) : IVec S_ 1 :=
  let main_v51 : IVec S3x3x128x128 1 := cmpf .olt main_v49 main_v50
  let main_c_19 : IVec S_ 1 := constantI S_ 1 1#1
  let main_v52 : IVec S_ 1 := (fun x v => Host.reduce IntOp.andi x v reducesTo_S3x3x128x128_S_d0_1_2_3 h_S_) main_v51 main_c_19
  let main_v53 : IVec S_ 1 := andi main_v48 main_v52
  let main_v54 : FVec F S3x3x128 .f32 := Host.absf main_arg17
  let main_cst_20 : FVec F S_ .f32 := constant S_ .f32 0x7F800000#32
  let main_v55 : FVec F S3x3x128 .f32 := broadcastInDim S3x3x128 ![] bcast_S_S3x3x128 main_cst_20
  let main_v56 : IVec S3x3x128 1 := cmpf .olt main_v54 main_v55
  let main_c_21 : IVec S_ 1 := constantI S_ 1 1#1
  let main_v57 : IVec S_ 1 := (fun x v => Host.reduce IntOp.andi x v reducesTo_S3x3x128_S_d0_1_2 h_S_) main_v56 main_c_21
  let main_v58 : IVec S_ 1 := andi main_v53 main_v57
  let main_v59 : FVec F S3x3x128 .f32 := Host.absf main_arg18
  let main_cst_22 : FVec F S_ .f32 := constant S_ .f32 0x7F800000#32
  let main_v60 : FVec F S3x3x128 .f32 := broadcastInDim S3x3x128 ![] bcast_S_S3x3x128 main_cst_22
  let main_v61 : IVec S3x3x128 1 := cmpf .olt main_v59 main_v60
  let main_c_23 : IVec S_ 1 := constantI S_ 1 1#1
  let main_v62 : IVec S_ 1 := (fun x v => Host.reduce IntOp.andi x v reducesTo_S3x3x128_S_d0_1_2 h_S_) main_v61 main_c_23
  let main_v63 : IVec S_ 1 := andi main_v58 main_v62
  let main_v64 : FVec F S3x3x128 .f32 := Host.absf main_arg19
  let main_cst_24 : FVec F S_ .f32 := constant S_ .f32 0x7F800000#32
  let main_v65 : FVec F S3x3x128 .f32 := broadcastInDim S3x3x128 ![] bcast_S_S3x3x128 main_cst_24
  let main_v66 : IVec S3x3x128 1 := cmpf .olt main_v64 main_v65
  let main_c_25 : IVec S_ 1 := constantI S_ 1 1#1
  let main_v67 : IVec S_ 1 := (fun x v => Host.reduce IntOp.andi x v reducesTo_S3x3x128_S_d0_1_2 h_S_) main_v66 main_c_25
  fn_part4 (F := F) main_arg20 main_v63 main_v67

def fn_part2 {F : FTy → Type} [FloatOps F] (main_arg13 : FVec F S3x128 .f32) (main_arg14 : FVec F S3x128 .f32) (main_arg15 : FVec F S3x3x128x128 .f32) (main_arg16 : FVec F S3x3x128x128 .f32) (main_arg17 : FVec F S3x3x128 .f32) (main_arg18 : FVec F S3x3x128 .f32) (main_arg19 : FVec F S3x3x128 .f32) (main_arg20 : FVec F S3x3x128 .f32) (main_v33 : IVec S_ 1) : IVec S_ 1 :=
  let main_v34 : FVec F S3x128 .f32 := Host.absf main_arg13
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg14
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x3x128x128 .f32 := Host.absf main_arg15
  let main_cst_16 : FVec F S_ .f32 := constant S_ .f32 0x7F800000#32
  let main_v45 : FVec F S3x3x128x128 .f32 := broadcastInDim S3x3x128x128 ![] bcast_S_S3x3x128x128 main_cst_16
  let main_v46 : IVec S3x3x128x128 1 := cmpf .olt main_v44 main_v45
  let main_c_17 : IVec S_ 1 := constantI S_ 1 1#1
  let main_v47 : IVec S_ 1 := (fun x v => Host.reduce IntOp.andi x v reducesTo_S3x3x128x128_S_d0_1_2_3 h_S_) main_v46 main_c_17
  let main_v48 : IVec S_ 1 := andi main_v43 main_v47
  let main_v49 : FVec F S3x3x128x128 .f32 := Host.absf main_arg16
  let main_cst_18 : FVec F S_ .f32 := constant S_ .f32 0x7F800000#32
  let main_v50 : FVec F S3x3x128x128 .f32 := broadcastInDim S3x3x128x128 ![] bcast_S_S3x3x128x128 main_cst_18
  fn_part3 (F := F) main_arg17 main_arg18 main_arg19 main_arg20 main_v48 main_v49 main_v50

def fn_part1 {F : FTy → Type} [FloatOps F] (main_arg10 : FVec F S3x64x128 .f32) (main_arg11 : FVec F S3x128 .f32) (main_arg12 : FVec F S3x128 .f32) (main_arg13 : FVec F S3x128 .f32) (main_arg14 : FVec F S3x128 .f32) (main_arg15 : FVec F S3x3x128x128 .f32) (main_arg16 : FVec F S3x3x128x128 .f32) (main_arg17 : FVec F S3x3x128 .f32) (main_arg18 : FVec F S3x3x128 .f32) (main_arg19 : FVec F S3x3x128 .f32) (main_arg20 : FVec F S3x3x128 .f32) (main_v13 : IVec S_ 1) (main_v16 : IVec S3x64x128 1) : IVec S_ 1 :=
  let main_c_5 : IVec S_ 1 := constantI S_ 1 1#1
  let main_v17 : IVec S_ 1 := (fun x v => Host.reduce IntOp.andi x v reducesTo_S3x64x128_S_d0_1_2 h_S_) main_v16 main_c_5
  let main_v18 : IVec S_ 1 := andi main_v13 main_v17
  let main_v19 : FVec F S3x64x128 .f32 := Host.absf main_arg10
  let main_cst_6 : FVec F S_ .f32 := constant S_ .f32 0x7F800000#32
  let main_v20 : FVec F S3x64x128 .f32 := broadcastInDim S3x64x128 ![] bcast_S_S3x64x128 main_cst_6
  let main_v21 : IVec S3x64x128 1 := cmpf .olt main_v19 main_v20
  let main_c_7 : IVec S_ 1 := constantI S_ 1 1#1
  let main_v22 : IVec S_ 1 := (fun x v => Host.reduce IntOp.andi x v reducesTo_S3x64x128_S_d0_1_2 h_S_) main_v21 main_c_7
  let main_v23 : IVec S_ 1 := andi main_v18 main_v22
  let main_v24 : FVec F S3x128 .f32 := Host.absf main_arg11
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg12
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg13 main_arg14 main_arg15 main_arg16 main_arg17 main_arg18 main_arg19 main_arg20 main_v33

def fn {F : FTy → Type} [FloatOps F] (main_arg0 : IVec S50000 32) (main_arg1 : IVec S50000 32) (main_arg2 : IVec S50000 32) (main_arg3 : IVec S3x400000 32) (main_arg4 : IVec S3x400000 32) (main_arg5 : IVec S3x50000 32) (main_arg6 : FVec F S257x64 .f32) (main_arg7 : FVec F S257x64 .f32) (main_arg8 : FVec F S257x64 .f32) (main_arg9 : FVec F S3x64x128 .f32) (main_arg10 : FVec F S3x64x128 .f32) (main_arg11 : FVec F S3x128 .f32) (main_arg12 : FVec F S3x128 .f32) (main_arg13 : FVec F S3x128 .f32) (main_arg14 : FVec F S3x128 .f32) (main_arg15 : FVec F S3x3x128x128 .f32) (main_arg16 : FVec F S3x3x128x128 .f32) (main_arg17 : FVec F S3x3x128 .f32) (main_arg18 : FVec F S3x3x128 .f32) (main_arg19 : FVec F S3x3x128 .f32) (main_arg20 : FVec F S3x3x128 .f32) : IVec S_ 1 :=
  let main_v0 : FVec F S257x64 .f32 := Host.absf main_arg6
  let main_cst : FVec F S_ .f32 := constant S_ .f32 0x7F800000#32
  let main_v1 : FVec F S257x64 .f32 := broadcastInDim S257x64 ![] bcast_S_S257x64 main_cst
  let main_v2 : IVec S257x64 1 := cmpf .olt main_v0 main_v1
  let main_c : IVec S_ 1 := constantI S_ 1 1#1
  let main_v3 : IVec S_ 1 := (fun x v => Host.reduce IntOp.andi x v reducesTo_S257x64_S_d0_1 h_S_) main_v2 main_c
  let main_v4 : FVec F S257x64 .f32 := Host.absf main_arg7
  let main_cst_0 : FVec F S_ .f32 := constant S_ .f32 0x7F800000#32
  let main_v5 : FVec F S257x64 .f32 := broadcastInDim S257x64 ![] bcast_S_S257x64 main_cst_0
  let main_v6 : IVec S257x64 1 := cmpf .olt main_v4 main_v5
  let main_c_1 : IVec S_ 1 := constantI S_ 1 1#1
  let main_v7 : IVec S_ 1 := (fun x v => Host.reduce IntOp.andi x v reducesTo_S257x64_S_d0_1 h_S_) main_v6 main_c_1
  let main_v8 : IVec S_ 1 := andi main_v3 main_v7
  let main_v9 : FVec F S257x64 .f32 := Host.absf main_arg8
  let main_cst_2 : FVec F S_ .f32 := constant S_ .f32 0x7F800000#32
  let main_v10 : FVec F S257x64 .f32 := broadcastInDim S257x64 ![] bcast_S_S257x64 main_cst_2
  let main_v11 : IVec S257x64 1 := cmpf .olt main_v9 main_v10
  let main_c_3 : IVec S_ 1 := constantI S_ 1 1#1
  let main_v12 : IVec S_ 1 := (fun x v => Host.reduce IntOp.andi x v reducesTo_S257x64_S_d0_1 h_S_) main_v11 main_c_3
  let main_v13 : IVec S_ 1 := andi main_v8 main_v12
  let main_v14 : FVec F S3x64x128 .f32 := Host.absf main_arg9
  let main_cst_4 : FVec F S_ .f32 := constant S_ .f32 0x7F800000#32
  let main_v15 : FVec F S3x64x128 .f32 := broadcastInDim S3x64x128 ![] bcast_S_S3x64x128 main_cst_4
  let main_v16 : IVec S3x64x128 1 := cmpf .olt main_v14 main_v15
  fn_part1 (F := F) main_arg10 main_arg11 main_arg12 main_arg13 main_arg14 main_arg15 main_arg16 main_arg17 main_arg18 main_arg19 main_arg20 main_v13 main_v16
-- ==== Kernel.lean ====
abbrev S50000 : Shape := ⟨1, ![50000]⟩
abbrev S3x400000 : Shape := ⟨2, ![3, 400000]⟩
abbrev S3x50000 : Shape := ⟨2, ![3, 50000]⟩
abbrev S257x64 : Shape := ⟨2, ![257, 64]⟩
abbrev S3x64x128 : Shape := ⟨3, ![3, 64, 128]⟩
abbrev S3x128 : Shape := ⟨2, ![3, 128]⟩
abbrev S3x3x128x128 : Shape := ⟨4, ![3, 3, 128, 128]⟩
abbrev S3x3x128 : Shape := ⟨3, ![3, 3, 128]⟩
abbrev S_ : Shape := ⟨0, ![]⟩
abbrev S50000x1 : Shape := ⟨2, ![50000, 1]⟩
abbrev S50000x64 : Shape := ⟨2, ![50000, 64]⟩
abbrev S400000x1 : Shape := ⟨2, ![400000, 1]⟩
abbrev S1x400000 : Shape := ⟨2, ![1, 400000]⟩
abbrev S400000 : Shape := ⟨1, ![400000]⟩
abbrev S400000x64 : Shape := ⟨2, ![400000, 64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S50000x128 : Shape := ⟨2, ![50000, 128]⟩
abbrev S5000x64 : Shape := ⟨2, ![5000, 64]⟩
abbrev S5000x128 : Shape := ⟨2, ![5000, 128]⟩
abbrev S1x3x128x128 : Shape := ⟨4, ![1, 3, 128, 128]⟩
abbrev S3x128x128 : Shape := ⟨3, ![3, 128, 128]⟩
abbrev S1x3x128 : Shape := ⟨3, ![1, 3, 128]⟩
abbrev S400000x128 : Shape := ⟨2, ![400000, 128]⟩
abbrev S1x128x128 : Shape := ⟨3, ![1, 128, 128]⟩
abbrev S128x128 : Shape := ⟨2, ![128, 128]⟩
abbrev S1x50000 : Shape := ⟨2, ![1, 50000]⟩
abbrev S64x1 : Shape := ⟨2, ![64, 1]⟩
abbrev S5000x1 : Shape := ⟨2, ![5000, 1]⟩
abbrev S64x512 : Shape := ⟨2, ![64, 512]⟩
abbrev S64x1536 : Shape := ⟨2, ![64, 1536]⟩

abbrev nBuf : Space → Nat
  | .hbm => 760
  | .vmem => 324
  | .smem => 0
  | _ => 0

abbrev hbmTy0_0 (i : Nat) : BufTy := match i % 128 with
  | 0 => ⟨S50000, .i32⟩
  | 1 => ⟨S50000, .i32⟩
  | 2 => ⟨S50000, .i32⟩
  | 3 => ⟨S3x400000, .i32⟩
  | 4 => ⟨S3x400000, .i32⟩
  | 5 => ⟨S3x50000, .i32⟩
  | 6 => ⟨S257x64, .f32⟩
  | 7 => ⟨S257x64, .f32⟩
  | 8 => ⟨S257x64, .f32⟩
  | 9 => ⟨S3x64x128, .f32⟩
  | 10 => ⟨S3x64x128, .f32⟩
  | 11 => ⟨S3x128, .f32⟩
  | 12 => ⟨S3x128, .f32⟩
  | 13 => ⟨S3x128, .f32⟩
  | 14 => ⟨S3x128, .f32⟩
  | 15 => ⟨S3x3x128x128, .f32⟩
  | 16 => ⟨S3x3x128x128, .f32⟩
  | 17 => ⟨S3x3x128, .f32⟩
  | 18 => ⟨S3x3x128, .f32⟩
  | 19 => ⟨S3x3x128, .f32⟩
  | 20 => ⟨S3x3x128, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x64, .f32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x64, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x64, .f32⟩
  | 48 => ⟨S_, .f32⟩
  | 49 => ⟨S400000x1, .f32⟩
  | 50 => ⟨S1x400000, .i32⟩
  | 51 => ⟨S400000, .i32⟩
  | 52 => ⟨S_, .f32⟩
  | 53 => ⟨S50000x1, .f32⟩
  | 54 => ⟨S400000x1, .i32⟩
  | 55 => ⟨S50000x1, .f32⟩
  | 56 => ⟨S_, .f32⟩
  | 57 => ⟨S50000x1, .f32⟩
  | 58 => ⟨S50000x1, .f32⟩
  | 59 => ⟨S_, .f32⟩
  | 60 => ⟨S50000x1, .f32⟩
  | 61 => ⟨S50000x1, .f32⟩
  | 62 => ⟨S_, .f32⟩
  | 63 => ⟨S400000x1, .f32⟩
  | 64 => ⟨S1x400000, .i32⟩
  | 65 => ⟨S400000, .i32⟩
  | 66 => ⟨S_, .f32⟩
  | 67 => ⟨S50000x1, .f32⟩
  | 68 => ⟨S400000x1, .i32⟩
  | 69 => ⟨S50000x1, .f32⟩
  | 70 => ⟨S_, .f32⟩
  | 71 => ⟨S50000x1, .f32⟩
  | 72 => ⟨S50000x1, .f32⟩
  | 73 => ⟨S_, .f32⟩
  | 74 => ⟨S50000x1, .f32⟩
  | 75 => ⟨S50000x1, .f32⟩
  | 76 => ⟨S_, .f32⟩
  | 77 => ⟨S400000x1, .f32⟩
  | 78 => ⟨S1x400000, .i32⟩
  | 79 => ⟨S400000, .i32⟩
  | 80 => ⟨S_, .f32⟩
  | 81 => ⟨S50000x1, .f32⟩
  | 82 => ⟨S400000x1, .i32⟩
  | 83 => ⟨S50000x1, .f32⟩
  | 84 => ⟨S_, .f32⟩
  | 85 => ⟨S50000x1, .f32⟩
  | 86 => ⟨S50000x1, .f32⟩
  | 87 => ⟨S_, .f32⟩
  | 88 => ⟨S50000x1, .f32⟩
  | 89 => ⟨S50000x1, .f32⟩
  | 90 => ⟨S1x400000, .i32⟩
  | 91 => ⟨S400000, .i32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x64, .f32⟩
  | 101 => ⟨S1x400000, .i32⟩
  | 102 => ⟨S400000, .i32⟩
  | 103 => ⟨S_, .f32⟩
  | 104 => ⟨S50000x64, .f32⟩
  | 105 => ⟨S400000x1, .i32⟩
  | 106 => ⟨S50000x64, .f32⟩
  | 107 => ⟨S50000x64, .f32⟩
  | 108 => ⟨S50000x64, .f32⟩
  | 109 => ⟨S1x64x128, .f32⟩
  | 110 => ⟨S64x128, .f32⟩
  | 111 => ⟨S1x64x128, .f32⟩
  | 112 => ⟨S64x128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S1x128, .f32⟩
  | 125 => ⟨S50000x128, .f32⟩
  | 126 => ⟨S1x128, .f32⟩
  | 127 => ⟨S1x128, .f32⟩
  | _ => ⟨S50000, .i32⟩

abbrev hbmTy0_1 (i : Nat) : BufTy := match i % 128 with
  | 0 => ⟨S_, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S50000x128, .f32⟩
  | 9 => ⟨S1x400000, .i32⟩
  | 10 => ⟨S400000, .i32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S400000x64, .f32⟩
  | 20 => ⟨S1x400000, .i32⟩
  | 21 => ⟨S400000, .i32⟩
  | 22 => ⟨S_, .f32⟩
  | 23 => ⟨S50000x64, .f32⟩
  | 24 => ⟨S400000x1, .i32⟩
  | 25 => ⟨S50000x64, .f32⟩
  | 26 => ⟨S50000x64, .f32⟩
  | 27 => ⟨S50000x64, .f32⟩
  | 28 => ⟨S1x64x128, .f32⟩
  | 29 => ⟨S64x128, .f32⟩
  | 30 => ⟨S1x64x128, .f32⟩
  | 31 => ⟨S64x128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S1x128, .f32⟩
  | 42 => ⟨S1x128, .f32⟩
  | 43 => ⟨S1x128, .f32⟩
  | 44 => ⟨S50000x128, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S1x128, .f32⟩
  | 55 => ⟨S50000x128, .f32⟩
  | 56 => ⟨S1x400000, .i32⟩
  | 57 => ⟨S400000, .i32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x64, .f32⟩
  | 67 => ⟨S1x400000, .i32⟩
  | 68 => ⟨S400000, .i32⟩
  | 69 => ⟨S_, .f32⟩
  | 70 => ⟨S50000x64, .f32⟩
  | 71 => ⟨S400000x1, .i32⟩
  | 72 => ⟨S50000x64, .f32⟩
  | 73 => ⟨S50000x64, .f32⟩
  | 74 => ⟨S50000x64, .f32⟩
  | 75 => ⟨S1x64x128, .f32⟩
  | 76 => ⟨S64x128, .f32⟩
  | 77 => ⟨S1x64x128, .f32⟩
  | 78 => ⟨S64x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S1x128, .f32⟩
  | 89 => ⟨S1x128, .f32⟩
  | 90 => ⟨S1x128, .f32⟩
  | 91 => ⟨S50000x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S50000x128, .f32⟩
  | 103 => ⟨S1x3x128x128, .f32⟩
  | 104 => ⟨S3x128x128, .f32⟩
  | 105 => ⟨S1x3x128x128, .f32⟩
  | 106 => ⟨S3x128x128, .f32⟩
  | 107 => ⟨S1x3x128, .f32⟩
  | 108 => ⟨S3x128, .f32⟩
  | 109 => ⟨S1x3x128, .f32⟩
  | 110 => ⟨S3x128, .f32⟩
  | 111 => ⟨S1x3x128, .f32⟩
  | 112 => ⟨S3x128, .f32⟩
  | 113 => ⟨S1x3x128, .f32⟩
  | 114 => ⟨S3x128, .f32⟩
  | 115 => ⟨S1x400000, .i32⟩
  | 116 => ⟨S400000, .i32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S1x400000, .i32⟩
  | 127 => ⟨S400000, .i32⟩
  | _ => ⟨S50000, .i32⟩

abbrev hbmTy0_2 (i : Nat) : BufTy := match i % 128 with
  | 0 => ⟨S_, .f32⟩
  | 1 => ⟨S50000x128, .f32⟩
  | 2 => ⟨S400000x1, .i32⟩
  | 3 => ⟨S50000x128, .f32⟩
  | 4 => ⟨S50000x128, .f32⟩
  | 5 => ⟨S50000x128, .f32⟩
  | 6 => ⟨S1x128x128, .f32⟩
  | 7 => ⟨S128x128, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S1x128, .f32⟩
  | 20 => ⟨S1x128, .f32⟩
  | 21 => ⟨S1x128, .f32⟩
  | 22 => ⟨S50000x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S1x128, .f32⟩
  | 33 => ⟨S50000x128, .f32⟩
  | 34 => ⟨S1x400000, .i32⟩
  | 35 => ⟨S400000, .i32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x128, .f32⟩
  | 45 => ⟨S1x400000, .i32⟩
  | 46 => ⟨S400000, .i32⟩
  | 47 => ⟨S_, .f32⟩
  | 48 => ⟨S50000x128, .f32⟩
  | 49 => ⟨S400000x1, .i32⟩
  | 50 => ⟨S50000x128, .f32⟩
  | 51 => ⟨S50000x128, .f32⟩
  | 52 => ⟨S50000x128, .f32⟩
  | 53 => ⟨S1x128x128, .f32⟩
  | 54 => ⟨S128x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S1x128, .f32⟩
  | 67 => ⟨S1x128, .f32⟩
  | 68 => ⟨S1x128, .f32⟩
  | 69 => ⟨S50000x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S50000x128, .f32⟩
  | 81 => ⟨S1x400000, .i32⟩
  | 82 => ⟨S400000, .i32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x128, .f32⟩
  | 92 => ⟨S1x400000, .i32⟩
  | 93 => ⟨S400000, .i32⟩
  | 94 => ⟨S_, .f32⟩
  | 95 => ⟨S50000x128, .f32⟩
  | 96 => ⟨S400000x1, .i32⟩
  | 97 => ⟨S50000x128, .f32⟩
  | 98 => ⟨S50000x128, .f32⟩
  | 99 => ⟨S50000x128, .f32⟩
  | 100 => ⟨S1x128x128, .f32⟩
  | 101 => ⟨S128x128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S1x128, .f32⟩
  | 114 => ⟨S1x128, .f32⟩
  | 115 => ⟨S1x128, .f32⟩
  | 116 => ⟨S50000x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S50000x128, .f32⟩
  | _ => ⟨S50000, .i32⟩

abbrev hbmTy0_3 (i : Nat) : BufTy := match i % 128 with
  | 0 => ⟨S1x3x128x128, .f32⟩
  | 1 => ⟨S3x128x128, .f32⟩
  | 2 => ⟨S1x3x128x128, .f32⟩
  | 3 => ⟨S3x128x128, .f32⟩
  | 4 => ⟨S1x3x128, .f32⟩
  | 5 => ⟨S3x128, .f32⟩
  | 6 => ⟨S1x3x128, .f32⟩
  | 7 => ⟨S3x128, .f32⟩
  | 8 => ⟨S1x3x128, .f32⟩
  | 9 => ⟨S3x128, .f32⟩
  | 10 => ⟨S1x3x128, .f32⟩
  | 11 => ⟨S3x128, .f32⟩
  | 12 => ⟨S1x400000, .i32⟩
  | 13 => ⟨S400000, .i32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x128, .f32⟩
  | 23 => ⟨S1x400000, .i32⟩
  | 24 => ⟨S400000, .i32⟩
  | 25 => ⟨S_, .f32⟩
  | 26 => ⟨S50000x128, .f32⟩
  | 27 => ⟨S400000x1, .i32⟩
  | 28 => ⟨S50000x128, .f32⟩
  | 29 => ⟨S50000x128, .f32⟩
  | 30 => ⟨S50000x128, .f32⟩
  | 31 => ⟨S1x128x128, .f32⟩
  | 32 => ⟨S128x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S1x128, .f32⟩
  | 45 => ⟨S1x128, .f32⟩
  | 46 => ⟨S1x128, .f32⟩
  | 47 => ⟨S50000x128, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S1x128, .f32⟩
  | 58 => ⟨S50000x128, .f32⟩
  | 59 => ⟨S1x400000, .i32⟩
  | 60 => ⟨S400000, .i32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x128, .f32⟩
  | 70 => ⟨S1x400000, .i32⟩
  | 71 => ⟨S400000, .i32⟩
  | 72 => ⟨S_, .f32⟩
  | 73 => ⟨S50000x128, .f32⟩
  | 74 => ⟨S400000x1, .i32⟩
  | 75 => ⟨S50000x128, .f32⟩
  | 76 => ⟨S50000x128, .f32⟩
  | 77 => ⟨S50000x128, .f32⟩
  | 78 => ⟨S1x128x128, .f32⟩
  | 79 => ⟨S128x128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S1x128, .f32⟩
  | 92 => ⟨S1x128, .f32⟩
  | 93 => ⟨S1x128, .f32⟩
  | 94 => ⟨S50000x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S50000x128, .f32⟩
  | 106 => ⟨S1x400000, .i32⟩
  | 107 => ⟨S400000, .i32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x128, .f32⟩
  | 117 => ⟨S1x400000, .i32⟩
  | 118 => ⟨S400000, .i32⟩
  | 119 => ⟨S_, .f32⟩
  | 120 => ⟨S50000x128, .f32⟩
  | 121 => ⟨S400000x1, .i32⟩
  | 122 => ⟨S50000x128, .f32⟩
  | 123 => ⟨S50000x128, .f32⟩
  | 124 => ⟨S50000x128, .f32⟩
  | 125 => ⟨S1x128x128, .f32⟩
  | 126 => ⟨S128x128, .f32⟩
  | 127 => ⟨S1x128x128, .f32⟩
  | _ => ⟨S50000, .i32⟩

abbrev hbmTy0_4 (i : Nat) : BufTy := match i % 128 with
  | 0 => ⟨S128x128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S1x128, .f32⟩
  | 11 => ⟨S1x128, .f32⟩
  | 12 => ⟨S1x128, .f32⟩
  | 13 => ⟨S50000x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S1x128, .f32⟩
  | 24 => ⟨S50000x128, .f32⟩
  | 25 => ⟨S1x3x128x128, .f32⟩
  | 26 => ⟨S3x128x128, .f32⟩
  | 27 => ⟨S1x3x128x128, .f32⟩
  | 28 => ⟨S3x128x128, .f32⟩
  | 29 => ⟨S1x3x128, .f32⟩
  | 30 => ⟨S3x128, .f32⟩
  | 31 => ⟨S1x3x128, .f32⟩
  | 32 => ⟨S3x128, .f32⟩
  | 33 => ⟨S1x3x128, .f32⟩
  | 34 => ⟨S3x128, .f32⟩
  | 35 => ⟨S1x3x128, .f32⟩
  | 36 => ⟨S3x128, .f32⟩
  | 37 => ⟨S1x400000, .i32⟩
  | 38 => ⟨S400000, .i32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000x128, .f32⟩
  | 48 => ⟨S1x400000, .i32⟩
  | 49 => ⟨S400000, .i32⟩
  | 50 => ⟨S_, .f32⟩
  | 51 => ⟨S50000x128, .f32⟩
  | 52 => ⟨S400000x1, .i32⟩
  | 53 => ⟨S50000x128, .f32⟩
  | 54 => ⟨S50000x128, .f32⟩
  | 55 => ⟨S50000x128, .f32⟩
  | 56 => ⟨S1x128x128, .f32⟩
  | 57 => ⟨S128x128, .f32⟩
  | 58 => ⟨S1x128x128, .f32⟩
  | 59 => ⟨S128x128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S1x128, .f32⟩
  | 70 => ⟨S1x128, .f32⟩
  | 71 => ⟨S1x128, .f32⟩
  | 72 => ⟨S50000x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S50000x128, .f32⟩
  | 84 => ⟨S1x400000, .i32⟩
  | 85 => ⟨S400000, .i32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x128, .f32⟩
  | 95 => ⟨S1x400000, .i32⟩
  | 96 => ⟨S400000, .i32⟩
  | 97 => ⟨S_, .f32⟩
  | 98 => ⟨S50000x128, .f32⟩
  | 99 => ⟨S400000x1, .i32⟩
  | 100 => ⟨S50000x128, .f32⟩
  | 101 => ⟨S50000x128, .f32⟩
  | 102 => ⟨S50000x128, .f32⟩
  | 103 => ⟨S1x128x128, .f32⟩
  | 104 => ⟨S128x128, .f32⟩
  | 105 => ⟨S1x128x128, .f32⟩
  | 106 => ⟨S128x128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S1x128, .f32⟩
  | 117 => ⟨S1x128, .f32⟩
  | 118 => ⟨S1x128, .f32⟩
  | 119 => ⟨S50000x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S50000, .i32⟩

abbrev hbmTy0_5 (i : Nat) : BufTy := match i % 128 with
  | 0 => ⟨S1x128, .f32⟩
  | 1 => ⟨S1x128, .f32⟩
  | 2 => ⟨S50000x128, .f32⟩
  | 3 => ⟨S1x400000, .i32⟩
  | 4 => ⟨S400000, .i32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000x128, .f32⟩
  | 14 => ⟨S1x400000, .i32⟩
  | 15 => ⟨S400000, .i32⟩
  | 16 => ⟨S_, .f32⟩
  | 17 => ⟨S50000x128, .f32⟩
  | 18 => ⟨S400000x1, .i32⟩
  | 19 => ⟨S50000x128, .f32⟩
  | 20 => ⟨S50000x128, .f32⟩
  | 21 => ⟨S50000x128, .f32⟩
  | 22 => ⟨S1x128x128, .f32⟩
  | 23 => ⟨S128x128, .f32⟩
  | 24 => ⟨S1x128x128, .f32⟩
  | 25 => ⟨S128x128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S1x128, .f32⟩
  | 36 => ⟨S1x128, .f32⟩
  | 37 => ⟨S1x128, .f32⟩
  | 38 => ⟨S50000x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S1x128, .f32⟩
  | 48 => ⟨S1x128, .f32⟩
  | 49 => ⟨S50000x128, .f32⟩
  | 50 => ⟨S1x50000, .i32⟩
  | 51 => ⟨S50000, .i32⟩
  | 52 => ⟨S50000x1, .i32⟩
  | 53 => ⟨S64x128, .f32⟩
  | 54 => ⟨S64x128, .f32⟩
  | 55 => ⟨S64x128, .f32⟩
  | 56 => ⟨S64x128, .f32⟩
  | 57 => ⟨S64x1, .f32⟩
  | 58 => ⟨S_, .f32⟩
  | 59 => ⟨S64x1, .f32⟩
  | 60 => ⟨S64x1, .f32⟩
  | 61 => ⟨S_, .f32⟩
  | 62 => ⟨S64x1, .f32⟩
  | 63 => ⟨S64x1, .f32⟩
  | 64 => ⟨S64x128, .f32⟩
  | 65 => ⟨S64x128, .f32⟩
  | 66 => ⟨S64x128, .f32⟩
  | 67 => ⟨S64x128, .f32⟩
  | 68 => ⟨S64x128, .f32⟩
  | 69 => ⟨S64x128, .f32⟩
  | 70 => ⟨S64x128, .f32⟩
  | 71 => ⟨S64x128, .f32⟩
  | 72 => ⟨S64x512, .f32⟩
  | 73 => ⟨S1x50000, .i32⟩
  | 74 => ⟨S50000, .i32⟩
  | 75 => ⟨S50000x1, .i32⟩
  | 76 => ⟨S64x128, .f32⟩
  | 77 => ⟨S64x128, .f32⟩
  | 78 => ⟨S64x128, .f32⟩
  | 79 => ⟨S64x128, .f32⟩
  | 80 => ⟨S64x1, .f32⟩
  | 81 => ⟨S_, .f32⟩
  | 82 => ⟨S64x1, .f32⟩
  | 83 => ⟨S64x1, .f32⟩
  | 84 => ⟨S_, .f32⟩
  | 85 => ⟨S64x1, .f32⟩
  | 86 => ⟨S64x1, .f32⟩
  | 87 => ⟨S64x128, .f32⟩
  | 88 => ⟨S64x128, .f32⟩
  | 89 => ⟨S64x128, .f32⟩
  | 90 => ⟨S64x128, .f32⟩
  | 91 => ⟨S64x128, .f32⟩
  | 92 => ⟨S64x128, .f32⟩
  | 93 => ⟨S64x128, .f32⟩
  | 94 => ⟨S64x128, .f32⟩
  | 95 => ⟨S64x512, .f32⟩
  | 96 => ⟨S1x50000, .i32⟩
  | 97 => ⟨S50000, .i32⟩
  | 98 => ⟨S50000x1, .i32⟩
  | 99 => ⟨S64x128, .f32⟩
  | 100 => ⟨S64x128, .f32⟩
  | 101 => ⟨S64x128, .f32⟩
  | 102 => ⟨S64x128, .f32⟩
  | 103 => ⟨S64x1, .f32⟩
  | 104 => ⟨S_, .f32⟩
  | 105 => ⟨S64x1, .f32⟩
  | 106 => ⟨S64x1, .f32⟩
  | 107 => ⟨S_, .f32⟩
  | 108 => ⟨S64x1, .f32⟩
  | 109 => ⟨S64x1, .f32⟩
  | 110 => ⟨S64x128, .f32⟩
  | 111 => ⟨S64x128, .f32⟩
  | 112 => ⟨S64x128, .f32⟩
  | 113 => ⟨S64x128, .f32⟩
  | 114 => ⟨S64x128, .f32⟩
  | 115 => ⟨S64x128, .f32⟩
  | 116 => ⟨S64x128, .f32⟩
  | 117 => ⟨S64x128, .f32⟩
  | 118 => ⟨S64x512, .f32⟩
  | 119 => ⟨S64x1536, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000, .i32⟩

abbrev vmemTy0_0 (i : Nat) : BufTy := match i % 128 with
  | 0 => ⟨S5000x64, .f32⟩
  | 1 => ⟨S5000x64, .f32⟩
  | 2 => ⟨S5000x64, .f32⟩
  | 3 => ⟨S5000x64, .f32⟩
  | 4 => ⟨S64x128, .f32⟩
  | 5 => ⟨S64x128, .f32⟩
  | 6 => ⟨S1x128, .f32⟩
  | 7 => ⟨S1x128, .f32⟩
  | 8 => ⟨S5000x128, .f32⟩
  | 9 => ⟨S5000x128, .f32⟩
  | 10 => ⟨S1x128, .f32⟩
  | 11 => ⟨S1x128, .f32⟩
  | 12 => ⟨S1x128, .f32⟩
  | 13 => ⟨S1x128, .f32⟩
  | 14 => ⟨S5000x128, .f32⟩
  | 15 => ⟨S5000x128, .f32⟩
  | 16 => ⟨S1x128, .f32⟩
  | 17 => ⟨S1x128, .f32⟩
  | 18 => ⟨S1x128, .f32⟩
  | 19 => ⟨S1x128, .f32⟩
  | 20 => ⟨S5000x128, .f32⟩
  | 21 => ⟨S5000x128, .f32⟩
  | 22 => ⟨S5000x64, .f32⟩
  | 23 => ⟨S5000x64, .f32⟩
  | 24 => ⟨S5000x64, .f32⟩
  | 25 => ⟨S5000x64, .f32⟩
  | 26 => ⟨S64x128, .f32⟩
  | 27 => ⟨S64x128, .f32⟩
  | 28 => ⟨S1x128, .f32⟩
  | 29 => ⟨S1x128, .f32⟩
  | 30 => ⟨S5000x128, .f32⟩
  | 31 => ⟨S5000x128, .f32⟩
  | 32 => ⟨S1x128, .f32⟩
  | 33 => ⟨S1x128, .f32⟩
  | 34 => ⟨S1x128, .f32⟩
  | 35 => ⟨S1x128, .f32⟩
  | 36 => ⟨S5000x128, .f32⟩
  | 37 => ⟨S5000x128, .f32⟩
  | 38 => ⟨S1x128, .f32⟩
  | 39 => ⟨S1x128, .f32⟩
  | 40 => ⟨S1x128, .f32⟩
  | 41 => ⟨S1x128, .f32⟩
  | 42 => ⟨S5000x128, .f32⟩
  | 43 => ⟨S5000x128, .f32⟩
  | 44 => ⟨S5000x64, .f32⟩
  | 45 => ⟨S5000x64, .f32⟩
  | 46 => ⟨S5000x64, .f32⟩
  | 47 => ⟨S5000x64, .f32⟩
  | 48 => ⟨S64x128, .f32⟩
  | 49 => ⟨S64x128, .f32⟩
  | 50 => ⟨S1x128, .f32⟩
  | 51 => ⟨S1x128, .f32⟩
  | 52 => ⟨S5000x128, .f32⟩
  | 53 => ⟨S5000x128, .f32⟩
  | 54 => ⟨S1x128, .f32⟩
  | 55 => ⟨S1x128, .f32⟩
  | 56 => ⟨S1x128, .f32⟩
  | 57 => ⟨S1x128, .f32⟩
  | 58 => ⟨S5000x128, .f32⟩
  | 59 => ⟨S5000x128, .f32⟩
  | 60 => ⟨S1x128, .f32⟩
  | 61 => ⟨S1x128, .f32⟩
  | 62 => ⟨S1x128, .f32⟩
  | 63 => ⟨S1x128, .f32⟩
  | 64 => ⟨S5000x128, .f32⟩
  | 65 => ⟨S5000x128, .f32⟩
  | 66 => ⟨S5000x128, .f32⟩
  | 67 => ⟨S5000x128, .f32⟩
  | 68 => ⟨S5000x128, .f32⟩
  | 69 => ⟨S5000x128, .f32⟩
  | 70 => ⟨S128x128, .f32⟩
  | 71 => ⟨S128x128, .f32⟩
  | 72 => ⟨S1x128, .f32⟩
  | 73 => ⟨S1x128, .f32⟩
  | 74 => ⟨S5000x128, .f32⟩
  | 75 => ⟨S5000x128, .f32⟩
  | 76 => ⟨S1x128, .f32⟩
  | 77 => ⟨S1x128, .f32⟩
  | 78 => ⟨S1x128, .f32⟩
  | 79 => ⟨S1x128, .f32⟩
  | 80 => ⟨S5000x128, .f32⟩
  | 81 => ⟨S5000x128, .f32⟩
  | 82 => ⟨S1x128, .f32⟩
  | 83 => ⟨S1x128, .f32⟩
  | 84 => ⟨S1x128, .f32⟩
  | 85 => ⟨S1x128, .f32⟩
  | 86 => ⟨S5000x128, .f32⟩
  | 87 => ⟨S5000x128, .f32⟩
  | 88 => ⟨S5000x128, .f32⟩
  | 89 => ⟨S5000x128, .f32⟩
  | 90 => ⟨S5000x128, .f32⟩
  | 91 => ⟨S5000x128, .f32⟩
  | 92 => ⟨S128x128, .f32⟩
  | 93 => ⟨S128x128, .f32⟩
  | 94 => ⟨S1x128, .f32⟩
  | 95 => ⟨S1x128, .f32⟩
  | 96 => ⟨S5000x128, .f32⟩
  | 97 => ⟨S5000x128, .f32⟩
  | 98 => ⟨S1x128, .f32⟩
  | 99 => ⟨S1x128, .f32⟩
  | 100 => ⟨S1x128, .f32⟩
  | 101 => ⟨S1x128, .f32⟩
  | 102 => ⟨S5000x128, .f32⟩
  | 103 => ⟨S5000x128, .f32⟩
  | 104 => ⟨S1x128, .f32⟩
  | 105 => ⟨S1x128, .f32⟩
  | 106 => ⟨S1x128, .f32⟩
  | 107 => ⟨S1x128, .f32⟩
  | 108 => ⟨S5000x128, .f32⟩
  | 109 => ⟨S5000x128, .f32⟩
  | 110 => ⟨S5000x128, .f32⟩
  | 111 => ⟨S5000x128, .f32⟩
  | 112 => ⟨S5000x128, .f32⟩
  | 113 => ⟨S5000x128, .f32⟩
  | 114 => ⟨S128x128, .f32⟩
  | 115 => ⟨S128x128, .f32⟩
  | 116 => ⟨S1x128, .f32⟩
  | 117 => ⟨S1x128, .f32⟩
  | 118 => ⟨S5000x128, .f32⟩
  | 119 => ⟨S5000x128, .f32⟩
  | 120 => ⟨S1x128, .f32⟩
  | 121 => ⟨S1x128, .f32⟩
  | 122 => ⟨S1x128, .f32⟩
  | 123 => ⟨S1x128, .f32⟩
  | 124 => ⟨S5000x128, .f32⟩
  | 125 => ⟨S5000x128, .f32⟩
  | 126 => ⟨S1x128, .f32⟩
  | 127 => ⟨S1x128, .f32⟩
  | _ => ⟨S50000, .i32⟩

abbrev vmemTy0_1 (i : Nat) : BufTy := match i % 128 with
  | 0 => ⟨S1x128, .f32⟩
  | 1 => ⟨S1x128, .f32⟩
  | 2 => ⟨S5000x128, .f32⟩
  | 3 => ⟨S5000x128, .f32⟩
  | 4 => ⟨S5000x128, .f32⟩
  | 5 => ⟨S5000x128, .f32⟩
  | 6 => ⟨S5000x128, .f32⟩
  | 7 => ⟨S5000x128, .f32⟩
  | 8 => ⟨S128x128, .f32⟩
  | 9 => ⟨S128x128, .f32⟩
  | 10 => ⟨S1x128, .f32⟩
  | 11 => ⟨S1x128, .f32⟩
  | 12 => ⟨S5000x128, .f32⟩
  | 13 => ⟨S5000x128, .f32⟩
  | 14 => ⟨S1x128, .f32⟩
  | 15 => ⟨S1x128, .f32⟩
  | 16 => ⟨S1x128, .f32⟩
  | 17 => ⟨S1x128, .f32⟩
  | 18 => ⟨S5000x128, .f32⟩
  | 19 => ⟨S5000x128, .f32⟩
  | 20 => ⟨S1x128, .f32⟩
  | 21 => ⟨S1x128, .f32⟩
  | 22 => ⟨S1x128, .f32⟩
  | 23 => ⟨S1x128, .f32⟩
  | 24 => ⟨S5000x128, .f32⟩
  | 25 => ⟨S5000x128, .f32⟩
  | 26 => ⟨S5000x128, .f32⟩
  | 27 => ⟨S5000x128, .f32⟩
  | 28 => ⟨S5000x128, .f32⟩
  | 29 => ⟨S5000x128, .f32⟩
  | 30 => ⟨S128x128, .f32⟩
  | 31 => ⟨S128x128, .f32⟩
  | 32 => ⟨S1x128, .f32⟩
  | 33 => ⟨S1x128, .f32⟩
  | 34 => ⟨S5000x128, .f32⟩
  | 35 => ⟨S5000x128, .f32⟩
  | 36 => ⟨S1x128, .f32⟩
  | 37 => ⟨S1x128, .f32⟩
  | 38 => ⟨S1x128, .f32⟩
  | 39 => ⟨S1x128, .f32⟩
  | 40 => ⟨S5000x128, .f32⟩
  | 41 => ⟨S5000x128, .f32⟩
  | 42 => ⟨S1x128, .f32⟩
  | 43 => ⟨S1x128, .f32⟩
  | 44 => ⟨S1x128, .f32⟩
  | 45 => ⟨S1x128, .f32⟩
  | 46 => ⟨S5000x128, .f32⟩
  | 47 => ⟨S5000x128, .f32⟩
  | 48 => ⟨S5000x128, .f32⟩
  | 49 => ⟨S5000x128, .f32⟩
  | 50 => ⟨S5000x128, .f32⟩
  | 51 => ⟨S5000x128, .f32⟩
  | 52 => ⟨S128x128, .f32⟩
  | 53 => ⟨S128x128, .f32⟩
  | 54 => ⟨S1x128, .f32⟩
  | 55 => ⟨S1x128, .f32⟩
  | 56 => ⟨S5000x128, .f32⟩
  | 57 => ⟨S5000x128, .f32⟩
  | 58 => ⟨S1x128, .f32⟩
  | 59 => ⟨S1x128, .f32⟩
  | 60 => ⟨S1x128, .f32⟩
  | 61 => ⟨S1x128, .f32⟩
  | 62 => ⟨S5000x128, .f32⟩
  | 63 => ⟨S5000x128, .f32⟩
  | 64 => ⟨S1x128, .f32⟩
  | 65 => ⟨S1x128, .f32⟩
  | 66 => ⟨S1x128, .f32⟩
  | 67 => ⟨S1x128, .f32⟩
  | 68 => ⟨S5000x128, .f32⟩
  | 69 => ⟨S5000x128, .f32⟩
  | 70 => ⟨S5000x128, .f32⟩
  | 71 => ⟨S5000x128, .f32⟩
  | 72 => ⟨S5000x128, .f32⟩
  | 73 => ⟨S5000x128, .f32⟩
  | 74 => ⟨S128x128, .f32⟩
  | 75 => ⟨S128x128, .f32⟩
  | 76 => ⟨S1x128, .f32⟩
  | 77 => ⟨S1x128, .f32⟩
  | 78 => ⟨S5000x128, .f32⟩
  | 79 => ⟨S5000x128, .f32⟩
  | 80 => ⟨S1x128, .f32⟩
  | 81 => ⟨S1x128, .f32⟩
  | 82 => ⟨S1x128, .f32⟩
  | 83 => ⟨S1x128, .f32⟩
  | 84 => ⟨S5000x128, .f32⟩
  | 85 => ⟨S5000x128, .f32⟩
  | 86 => ⟨S1x128, .f32⟩
  | 87 => ⟨S1x128, .f32⟩
  | 88 => ⟨S1x128, .f32⟩
  | 89 => ⟨S1x128, .f32⟩
  | 90 => ⟨S5000x128, .f32⟩
  | 91 => ⟨S5000x128, .f32⟩
  | 92 => ⟨S5000x128, .f32⟩
  | 93 => ⟨S5000x128, .f32⟩
  | 94 => ⟨S5000x128, .f32⟩
  | 95 => ⟨S5000x128, .f32⟩
  | 96 => ⟨S128x128, .f32⟩
  | 97 => ⟨S128x128, .f32⟩
  | 98 => ⟨S1x128, .f32⟩
  | 99 => ⟨S1x128, .f32⟩
  | 100 => ⟨S5000x128, .f32⟩
  | 101 => ⟨S5000x128, .f32⟩
  | 102 => ⟨S1x128, .f32⟩
  | 103 => ⟨S1x128, .f32⟩
  | 104 => ⟨S1x128, .f32⟩
  | 105 => ⟨S1x128, .f32⟩
  | 106 => ⟨S5000x128, .f32⟩
  | 107 => ⟨S5000x128, .f32⟩
  | 108 => ⟨S1x128, .f32⟩
  | 109 => ⟨S1x128, .f32⟩
  | 110 => ⟨S1x128, .f32⟩
  | 111 => ⟨S1x128, .f32⟩
  | 112 => ⟨S5000x128, .f32⟩
  | 113 => ⟨S5000x128, .f32⟩
  | 114 => ⟨S5000x128, .f32⟩
  | 115 => ⟨S5000x128, .f32⟩
  | 116 => ⟨S5000x128, .f32⟩
  | 117 => ⟨S5000x128, .f32⟩
  | 118 => ⟨S128x128, .f32⟩
  | 119 => ⟨S128x128, .f32⟩
  | 120 => ⟨S1x128, .f32⟩
  | 121 => ⟨S1x128, .f32⟩
  | 122 => ⟨S5000x128, .f32⟩
  | 123 => ⟨S5000x128, .f32⟩
  | 124 => ⟨S1x128, .f32⟩
  | 125 => ⟨S1x128, .f32⟩
  | 126 => ⟨S1x128, .f32⟩
  | 127 => ⟨S1x128, .f32⟩
  | _ => ⟨S50000, .i32⟩

abbrev vmemTy0_2 (i : Nat) : BufTy := match i % 128 with
  | 0 => ⟨S5000x128, .f32⟩
  | 1 => ⟨S5000x128, .f32⟩
  | 2 => ⟨S1x128, .f32⟩
  | 3 => ⟨S1x128, .f32⟩
  | 4 => ⟨S1x128, .f32⟩
  | 5 => ⟨S1x128, .f32⟩
  | 6 => ⟨S5000x128, .f32⟩
  | 7 => ⟨S5000x128, .f32⟩
  | 8 => ⟨S5000x1, .i32⟩
  | 9 => ⟨S5000x1, .i32⟩
  | 10 => ⟨S5000x128, .f32⟩
  | 11 => ⟨S5000x128, .f32⟩
  | 12 => ⟨S5000x128, .f32⟩
  | 13 => ⟨S5000x128, .f32⟩
  | 14 => ⟨S5000x128, .f32⟩
  | 15 => ⟨S5000x128, .f32⟩
  | 16 => ⟨S5000x128, .f32⟩
  | 17 => ⟨S5000x128, .f32⟩
  | 18 => ⟨S64x128, .f32⟩
  | 19 => ⟨S64x128, .f32⟩
  | 20 => ⟨S64x128, .f32⟩
  | 21 => ⟨S64x128, .f32⟩
  | 22 => ⟨S64x1, .f32⟩
  | 23 => ⟨S64x128, .f32⟩
  | 24 => ⟨S64x128, .f32⟩
  | 25 => ⟨S64x128, .f32⟩
  | 26 => ⟨S64x128, .f32⟩
  | 27 => ⟨S64x1, .f32⟩
  | 28 => ⟨S5000x1, .i32⟩
  | 29 => ⟨S5000x1, .i32⟩
  | 30 => ⟨S5000x128, .f32⟩
  | 31 => ⟨S5000x128, .f32⟩
  | 32 => ⟨S5000x128, .f32⟩
  | 33 => ⟨S5000x128, .f32⟩
  | 34 => ⟨S5000x128, .f32⟩
  | 35 => ⟨S5000x128, .f32⟩
  | 36 => ⟨S5000x128, .f32⟩
  | 37 => ⟨S5000x128, .f32⟩
  | 38 => ⟨S64x128, .f32⟩
  | 39 => ⟨S64x128, .f32⟩
  | 40 => ⟨S64x128, .f32⟩
  | 41 => ⟨S64x128, .f32⟩
  | 42 => ⟨S64x1, .f32⟩
  | 43 => ⟨S64x128, .f32⟩
  | 44 => ⟨S64x128, .f32⟩
  | 45 => ⟨S64x128, .f32⟩
  | 46 => ⟨S64x128, .f32⟩
  | 47 => ⟨S64x1, .f32⟩
  | 48 => ⟨S5000x1, .i32⟩
  | 49 => ⟨S5000x1, .i32⟩
  | 50 => ⟨S5000x128, .f32⟩
  | 51 => ⟨S5000x128, .f32⟩
  | 52 => ⟨S5000x128, .f32⟩
  | 53 => ⟨S5000x128, .f32⟩
  | 54 => ⟨S5000x128, .f32⟩
  | 55 => ⟨S5000x128, .f32⟩
  | 56 => ⟨S5000x128, .f32⟩
  | 57 => ⟨S5000x128, .f32⟩
  | 58 => ⟨S64x128, .f32⟩
  | 59 => ⟨S64x128, .f32⟩
  | 60 => ⟨S64x128, .f32⟩
  | 61 => ⟨S64x128, .f32⟩
  | 62 => ⟨S64x1, .f32⟩
  | 63 => ⟨S64x128, .f32⟩
  | 64 => ⟨S64x128, .f32⟩
  | 65 => ⟨S64x128, .f32⟩
  | 66 => ⟨S64x128, .f32⟩
  | 67 => ⟨S64x1, .f32⟩
  | _ => ⟨S50000, .i32⟩

abbrev vmemTy (i : Nat) : BufTy := match i / 128 with
  | 0 => vmemTy0_0 i
  | 1 => vmemTy0_1 i
  | 2 => vmemTy0_2 i
  | _ => ⟨S50000, .i32⟩

abbrev bufTy : (tb : Table) → Fin (tcTables nBuf tb) → BufTy
  | .hbm, ⟨i, _⟩ => hbmTy i
  | .local _ .vmem, ⟨i, _⟩ => vmemTy i
  | _, _ => ⟨S50000, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 285 → Bool
  | ⟨i, _⟩ => dmaSemScopedAt i

abbrev sig : RefSig :=
  ofTc nBuf bufTy 0 285 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_cst_7 : Ref sig .tc := ⟨.hbm, 59, rfl⟩
abbrev main_v29 : Ref sig .tc := ⟨.hbm, 60, rfl⟩
abbrev main_v30 : Ref sig .tc := ⟨.hbm, 61, rfl⟩
abbrev main_cst_8 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_9 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_10 : Ref sig .tc := ⟨.hbm, 70, rfl⟩
abbrev main_v37 : Ref sig .tc := ⟨.hbm, 71, rfl⟩
abbrev main_v38 : Ref sig .tc := ⟨.hbm, 72, rfl⟩
abbrev main_cst_11 : Ref sig .tc := ⟨.hbm, 73, rfl⟩
abbrev main_v39 : Ref sig .tc := ⟨.hbm, 74, rfl⟩
abbrev main_v40 : Ref sig .tc := ⟨.hbm, 75, rfl⟩
abbrev main_cst_12 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_13 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_14 : Ref sig .tc := ⟨.hbm, 84, rfl⟩
abbrev main_v47 : Ref sig .tc := ⟨.hbm, 85, rfl⟩
abbrev main_v48 : Ref sig .tc := ⟨.hbm, 86, rfl⟩
abbrev main_cst_15 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_16 : Ref sig .tc := ⟨.hbm, 92, rfl⟩
abbrev main_v53 : Ref sig .tc := ⟨.hbm, 93, rfl⟩
abbrev main_v54 : Ref sig .tc := ⟨.hbm, 94, rfl⟩
abbrev main_c_17 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_18 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83_0 : Ref sig .tc := ⟨.hbm, 125, rfl⟩
abbrev main_v83_1 : Ref sig .tc := ⟨.hbm, 126, rfl⟩
abbrev main_v83_2 : Ref sig .tc := ⟨.hbm, 127, rfl⟩
abbrev main_cst_19 : Ref sig .tc := ⟨.hbm, 128, rfl⟩
abbrev main_v84 : Ref sig .tc := ⟨.hbm, 129, rfl⟩
abbrev main_v85 : Ref sig .tc := ⟨.hbm, 130, rfl⟩
abbrev main_cst_20 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_c_21 : Ref sig .tc := ⟨.hbm, 139, rfl⟩
abbrev main_v93 : Ref sig .tc := ⟨.hbm, 140, rfl⟩
abbrev main_v94 : Ref sig .tc := ⟨.hbm, 141, rfl⟩
abbrev main_c_22 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_23 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123_0 : Ref sig .tc := ⟨.hbm, 172, rfl⟩
abbrev main_v123_1 : Ref sig .tc := ⟨.hbm, 173, rfl⟩
abbrev main_v123_2 : Ref sig .tc := ⟨.hbm, 174, rfl⟩
abbrev main_cst_24 : Ref sig .tc := ⟨.hbm, 175, rfl⟩
abbrev main_v124 : Ref sig .tc := ⟨.hbm, 176, rfl⟩
abbrev main_v125 : Ref sig .tc := ⟨.hbm, 177, rfl⟩
abbrev main_cst_25 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_c_26 : Ref sig .tc := ⟨.hbm, 186, rfl⟩
abbrev main_v133 : Ref sig .tc := ⟨.hbm, 187, rfl⟩
abbrev main_v134 : Ref sig .tc := ⟨.hbm, 188, rfl⟩
abbrev main_c_27 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_28 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163_0 : Ref sig .tc := ⟨.hbm, 219, rfl⟩
abbrev main_v163_1 : Ref sig .tc := ⟨.hbm, 220, rfl⟩
abbrev main_v163_2 : Ref sig .tc := ⟨.hbm, 221, rfl⟩
abbrev main_cst_29 : Ref sig .tc := ⟨.hbm, 222, rfl⟩
abbrev main_v164 : Ref sig .tc := ⟨.hbm, 223, rfl⟩
abbrev main_v165 : Ref sig .tc := ⟨.hbm, 224, rfl⟩
abbrev main_cst_30 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_c_31 : Ref sig .tc := ⟨.hbm, 245, rfl⟩
abbrev main_v185 : Ref sig .tc := ⟨.hbm, 246, rfl⟩
abbrev main_v186 : Ref sig .tc := ⟨.hbm, 247, rfl⟩
abbrev main_c_32 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_33 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215_0 : Ref sig .tc := ⟨.hbm, 278, rfl⟩
abbrev main_v215_1 : Ref sig .tc := ⟨.hbm, 279, rfl⟩
abbrev main_v215_2 : Ref sig .tc := ⟨.hbm, 280, rfl⟩
abbrev main_cst_34 : Ref sig .tc := ⟨.hbm, 281, rfl⟩
abbrev main_v216 : Ref sig .tc := ⟨.hbm, 282, rfl⟩
abbrev main_v217 : Ref sig .tc := ⟨.hbm, 283, rfl⟩
abbrev main_cst_35 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_c_36 : Ref sig .tc := ⟨.hbm, 292, rfl⟩
abbrev main_v225 : Ref sig .tc := ⟨.hbm, 293, rfl⟩
abbrev main_v226 : Ref sig .tc := ⟨.hbm, 294, rfl⟩
abbrev main_c_37 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_cst_38 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255_0 : Ref sig .tc := ⟨.hbm, 325, rfl⟩
abbrev main_v255_1 : Ref sig .tc := ⟨.hbm, 326, rfl⟩
abbrev main_v255_2 : Ref sig .tc := ⟨.hbm, 327, rfl⟩
abbrev main_cst_39 : Ref sig .tc := ⟨.hbm, 328, rfl⟩
abbrev main_v256 : Ref sig .tc := ⟨.hbm, 329, rfl⟩
abbrev main_v257 : Ref sig .tc := ⟨.hbm, 330, rfl⟩
abbrev main_cst_40 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_c_41 : Ref sig .tc := ⟨.hbm, 339, rfl⟩
abbrev main_v265 : Ref sig .tc := ⟨.hbm, 340, rfl⟩
abbrev main_v266 : Ref sig .tc := ⟨.hbm, 341, rfl⟩
abbrev main_c_42 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_cst_43 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_v295_0 : Ref sig .tc := ⟨.hbm, 372, rfl⟩
abbrev main_v295_1 : Ref sig .tc := ⟨.hbm, 373, rfl⟩
abbrev main_v295_2 : Ref sig .tc := ⟨.hbm, 374, rfl⟩
abbrev main_cst_44 : Ref sig .tc := ⟨.hbm, 375, rfl⟩
abbrev main_v296 : Ref sig .tc := ⟨.hbm, 376, rfl⟩
abbrev main_v297 : Ref sig .tc := ⟨.hbm, 377, rfl⟩
abbrev main_cst_45 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_c_46 : Ref sig .tc := ⟨.hbm, 398, rfl⟩
abbrev main_v317 : Ref sig .tc := ⟨.hbm, 399, rfl⟩
abbrev main_v318 : Ref sig .tc := ⟨.hbm, 400, rfl⟩
abbrev main_c_47 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_cst_48 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_v341 : Ref sig .tc := ⟨.hbm, 425, rfl⟩
abbrev main_v342 : Ref sig .tc := ⟨.hbm, 426, rfl⟩
abbrev main_v343 : Ref sig .tc := ⟨.hbm, 427, rfl⟩
abbrev main_v344 : Ref sig .tc := ⟨.hbm, 428, rfl⟩
abbrev main_v345 : Ref sig .tc := ⟨.hbm, 429, rfl⟩
abbrev main_v346 : Ref sig .tc := ⟨.hbm, 430, rfl⟩
abbrev main_v347_0 : Ref sig .tc := ⟨.hbm, 431, rfl⟩
abbrev main_v347_1 : Ref sig .tc := ⟨.hbm, 432, rfl⟩
abbrev main_v347_2 : Ref sig .tc := ⟨.hbm, 433, rfl⟩
abbrev main_cst_49 : Ref sig .tc := ⟨.hbm, 434, rfl⟩
abbrev main_v348 : Ref sig .tc := ⟨.hbm, 435, rfl⟩
abbrev main_v349 : Ref sig .tc := ⟨.hbm, 436, rfl⟩
abbrev main_cst_50 : Ref sig .tc := ⟨.hbm, 437, rfl⟩
abbrev main_v350 : Ref sig .tc := ⟨.hbm, 438, rfl⟩
abbrev main_v351 : Ref sig .tc := ⟨.hbm, 439, rfl⟩
abbrev main_v352 : Ref sig .tc := ⟨.hbm, 440, rfl⟩
abbrev main_v353 : Ref sig .tc := ⟨.hbm, 441, rfl⟩
abbrev main_v354 : Ref sig .tc := ⟨.hbm, 442, rfl⟩
abbrev main_v355 : Ref sig .tc := ⟨.hbm, 443, rfl⟩
abbrev main_v356 : Ref sig .tc := ⟨.hbm, 444, rfl⟩
abbrev main_c_51 : Ref sig .tc := ⟨.hbm, 445, rfl⟩
abbrev main_v357 : Ref sig .tc := ⟨.hbm, 446, rfl⟩
abbrev main_v358 : Ref sig .tc := ⟨.hbm, 447, rfl⟩
abbrev main_c_52 : Ref sig .tc := ⟨.hbm, 448, rfl⟩
abbrev main_v359 : Ref sig .tc := ⟨.hbm, 449, rfl⟩
abbrev main_v360 : Ref sig .tc := ⟨.hbm, 450, rfl⟩
abbrev main_v361 : Ref sig .tc := ⟨.hbm, 451, rfl⟩
abbrev main_v362 : Ref sig .tc := ⟨.hbm, 452, rfl⟩
abbrev main_v363 : Ref sig .tc := ⟨.hbm, 453, rfl⟩
abbrev main_v364 : Ref sig .tc := ⟨.hbm, 454, rfl⟩
abbrev main_v365 : Ref sig .tc := ⟨.hbm, 455, rfl⟩
abbrev main_cst_53 : Ref sig .tc := ⟨.hbm, 456, rfl⟩
abbrev main_v366 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩
abbrev main_v374 : Ref sig .tc := ⟨.hbm, 465, rfl⟩
abbrev main_v375 : Ref sig .tc := ⟨.hbm, 466, rfl⟩
abbrev main_v376 : Ref sig .tc := ⟨.hbm, 467, rfl⟩
abbrev main_v377 : Ref sig .tc := ⟨.hbm, 468, rfl⟩
abbrev main_v378 : Ref sig .tc := ⟨.hbm, 469, rfl⟩
abbrev main_v379 : Ref sig .tc := ⟨.hbm, 470, rfl⟩
abbrev main_v380 : Ref sig .tc := ⟨.hbm, 471, rfl⟩
abbrev main_v381 : Ref sig .tc := ⟨.hbm, 472, rfl⟩
abbrev main_v382 : Ref sig .tc := ⟨.hbm, 473, rfl⟩
abbrev main_v383 : Ref sig .tc := ⟨.hbm, 474, rfl⟩
abbrev main_v384 : Ref sig .tc := ⟨.hbm, 475, rfl⟩
abbrev main_v385 : Ref sig .tc := ⟨.hbm, 476, rfl⟩
abbrev main_v386 : Ref sig .tc := ⟨.hbm, 477, rfl⟩
abbrev main_v387_0 : Ref sig .tc := ⟨.hbm, 478, rfl⟩
abbrev main_v387_1 : Ref sig .tc := ⟨.hbm, 479, rfl⟩
abbrev main_v387_2 : Ref sig .tc := ⟨.hbm, 480, rfl⟩
abbrev main_cst_54 : Ref sig .tc := ⟨.hbm, 481, rfl⟩
abbrev main_v388 : Ref sig .tc := ⟨.hbm, 482, rfl⟩
abbrev main_v389 : Ref sig .tc := ⟨.hbm, 483, rfl⟩
abbrev main_cst_55 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_v394 : Ref sig .tc := ⟨.hbm, 489, rfl⟩
abbrev main_v395 : Ref sig .tc := ⟨.hbm, 490, rfl⟩
abbrev main_v396 : Ref sig .tc := ⟨.hbm, 491, rfl⟩
abbrev main_c_56 : Ref sig .tc := ⟨.hbm, 492, rfl⟩
abbrev main_v397 : Ref sig .tc := ⟨.hbm, 493, rfl⟩
abbrev main_v398 : Ref sig .tc := ⟨.hbm, 494, rfl⟩
abbrev main_c_57 : Ref sig .tc := ⟨.hbm, 495, rfl⟩
abbrev main_v399 : Ref sig .tc := ⟨.hbm, 496, rfl⟩
abbrev main_v400 : Ref sig .tc := ⟨.hbm, 497, rfl⟩
abbrev main_v401 : Ref sig .tc := ⟨.hbm, 498, rfl⟩
abbrev main_v402 : Ref sig .tc := ⟨.hbm, 499, rfl⟩
abbrev main_v403 : Ref sig .tc := ⟨.hbm, 500, rfl⟩
abbrev main_v404 : Ref sig .tc := ⟨.hbm, 501, rfl⟩
abbrev main_v405 : Ref sig .tc := ⟨.hbm, 502, rfl⟩
abbrev main_cst_58 : Ref sig .tc := ⟨.hbm, 503, rfl⟩
abbrev main_v406 : Ref sig .tc := ⟨.hbm, 504, rfl⟩
abbrev main_v407 : Ref sig .tc := ⟨.hbm, 505, rfl⟩
abbrev main_v408 : Ref sig .tc := ⟨.hbm, 506, rfl⟩
abbrev main_v409 : Ref sig .tc := ⟨.hbm, 507, rfl⟩
abbrev main_v410 : Ref sig .tc := ⟨.hbm, 508, rfl⟩
abbrev main_v411 : Ref sig .tc := ⟨.hbm, 509, rfl⟩
abbrev main_v412 : Ref sig .tc := ⟨.hbm, 510, rfl⟩
abbrev main_v413 : Ref sig .tc := ⟨.hbm, 511, rfl⟩
abbrev main_v414 : Ref sig .tc := ⟨.hbm, 512, rfl⟩
abbrev main_v415 : Ref sig .tc := ⟨.hbm, 513, rfl⟩
abbrev main_v416 : Ref sig .tc := ⟨.hbm, 514, rfl⟩
abbrev main_v417 : Ref sig .tc := ⟨.hbm, 515, rfl⟩
abbrev main_v418 : Ref sig .tc := ⟨.hbm, 516, rfl⟩
abbrev main_v419 : Ref sig .tc := ⟨.hbm, 517, rfl⟩
abbrev main_v420 : Ref sig .tc := ⟨.hbm, 518, rfl⟩
abbrev main_v421 : Ref sig .tc := ⟨.hbm, 519, rfl⟩
abbrev main_v422 : Ref sig .tc := ⟨.hbm, 520, rfl⟩
abbrev main_v423 : Ref sig .tc := ⟨.hbm, 521, rfl⟩
abbrev main_v424 : Ref sig .tc := ⟨.hbm, 522, rfl⟩
abbrev main_v425 : Ref sig .tc := ⟨.hbm, 523, rfl⟩
abbrev main_v426 : Ref sig .tc := ⟨.hbm, 524, rfl⟩
abbrev main_v427_0 : Ref sig .tc := ⟨.hbm, 525, rfl⟩
abbrev main_v427_1 : Ref sig .tc := ⟨.hbm, 526, rfl⟩
abbrev main_v427_2 : Ref sig .tc := ⟨.hbm, 527, rfl⟩
abbrev main_cst_59 : Ref sig .tc := ⟨.hbm, 528, rfl⟩
abbrev main_v428 : Ref sig .tc := ⟨.hbm, 529, rfl⟩
abbrev main_v429 : Ref sig .tc := ⟨.hbm, 530, rfl⟩
abbrev main_cst_60 : Ref sig .tc := ⟨.hbm, 531, rfl⟩
abbrev main_v430 : Ref sig .tc := ⟨.hbm, 532, rfl⟩
abbrev main_v431 : Ref sig .tc := ⟨.hbm, 533, rfl⟩
abbrev main_v432 : Ref sig .tc := ⟨.hbm, 534, rfl⟩
abbrev main_v433 : Ref sig .tc := ⟨.hbm, 535, rfl⟩
abbrev main_v434 : Ref sig .tc := ⟨.hbm, 536, rfl⟩
abbrev main_v435 : Ref sig .tc := ⟨.hbm, 537, rfl⟩
abbrev main_v436 : Ref sig .tc := ⟨.hbm, 538, rfl⟩
abbrev main_v437 : Ref sig .tc := ⟨.hbm, 539, rfl⟩
abbrev main_v438 : Ref sig .tc := ⟨.hbm, 540, rfl⟩
abbrev main_v439 : Ref sig .tc := ⟨.hbm, 541, rfl⟩
abbrev main_v440 : Ref sig .tc := ⟨.hbm, 542, rfl⟩
abbrev main_v441 : Ref sig .tc := ⟨.hbm, 543, rfl⟩
abbrev main_v442 : Ref sig .tc := ⟨.hbm, 544, rfl⟩
abbrev main_v443 : Ref sig .tc := ⟨.hbm, 545, rfl⟩
abbrev main_v444 : Ref sig .tc := ⟨.hbm, 546, rfl⟩
abbrev main_v445 : Ref sig .tc := ⟨.hbm, 547, rfl⟩
abbrev main_v446 : Ref sig .tc := ⟨.hbm, 548, rfl⟩
abbrev main_v447 : Ref sig .tc := ⟨.hbm, 549, rfl⟩
abbrev main_v448 : Ref sig .tc := ⟨.hbm, 550, rfl⟩
abbrev main_c_61 : Ref sig .tc := ⟨.hbm, 551, rfl⟩
abbrev main_v449 : Ref sig .tc := ⟨.hbm, 552, rfl⟩
abbrev main_v450 : Ref sig .tc := ⟨.hbm, 553, rfl⟩
abbrev main_c_62 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_v456 : Ref sig .tc := ⟨.hbm, 560, rfl⟩
abbrev main_v457 : Ref sig .tc := ⟨.hbm, 561, rfl⟩
abbrev main_cst_63 : Ref sig .tc := ⟨.hbm, 562, rfl⟩
abbrev main_v458 : Ref sig .tc := ⟨.hbm, 563, rfl⟩
abbrev main_v459 : Ref sig .tc := ⟨.hbm, 564, rfl⟩
abbrev main_v460 : Ref sig .tc := ⟨.hbm, 565, rfl⟩
abbrev main_v461 : Ref sig .tc := ⟨.hbm, 566, rfl⟩
abbrev main_v462 : Ref sig .tc := ⟨.hbm, 567, rfl⟩
abbrev main_v463 : Ref sig .tc := ⟨.hbm, 568, rfl⟩
abbrev main_v464 : Ref sig .tc := ⟨.hbm, 569, rfl⟩
abbrev main_v465 : Ref sig .tc := ⟨.hbm, 570, rfl⟩
abbrev main_v466 : Ref sig .tc := ⟨.hbm, 571, rfl⟩
abbrev main_v467 : Ref sig .tc := ⟨.hbm, 572, rfl⟩
abbrev main_v468 : Ref sig .tc := ⟨.hbm, 573, rfl⟩
abbrev main_v469 : Ref sig .tc := ⟨.hbm, 574, rfl⟩
abbrev main_v470 : Ref sig .tc := ⟨.hbm, 575, rfl⟩
abbrev main_v471 : Ref sig .tc := ⟨.hbm, 576, rfl⟩
abbrev main_v472 : Ref sig .tc := ⟨.hbm, 577, rfl⟩
abbrev main_v473 : Ref sig .tc := ⟨.hbm, 578, rfl⟩
abbrev main_v474 : Ref sig .tc := ⟨.hbm, 579, rfl⟩
abbrev main_v475 : Ref sig .tc := ⟨.hbm, 580, rfl⟩
abbrev main_v476 : Ref sig .tc := ⟨.hbm, 581, rfl⟩
abbrev main_v477 : Ref sig .tc := ⟨.hbm, 582, rfl⟩
abbrev main_v478 : Ref sig .tc := ⟨.hbm, 583, rfl⟩
abbrev main_v479_0 : Ref sig .tc := ⟨.hbm, 584, rfl⟩
abbrev main_v479_1 : Ref sig .tc := ⟨.hbm, 585, rfl⟩
abbrev main_v479_2 : Ref sig .tc := ⟨.hbm, 586, rfl⟩
abbrev main_cst_64 : Ref sig .tc := ⟨.hbm, 587, rfl⟩
abbrev main_v480 : Ref sig .tc := ⟨.hbm, 588, rfl⟩
abbrev main_v481 : Ref sig .tc := ⟨.hbm, 589, rfl⟩
abbrev main_cst_65 : Ref sig .tc := ⟨.hbm, 590, rfl⟩
abbrev main_v482 : Ref sig .tc := ⟨.hbm, 591, rfl⟩
abbrev main_v483 : Ref sig .tc := ⟨.hbm, 592, rfl⟩
abbrev main_v484 : Ref sig .tc := ⟨.hbm, 593, rfl⟩
abbrev main_v485 : Ref sig .tc := ⟨.hbm, 594, rfl⟩
abbrev main_v486 : Ref sig .tc := ⟨.hbm, 595, rfl⟩
abbrev main_v487 : Ref sig .tc := ⟨.hbm, 596, rfl⟩
abbrev main_v488 : Ref sig .tc := ⟨.hbm, 597, rfl⟩
abbrev main_c_66 : Ref sig .tc := ⟨.hbm, 598, rfl⟩
abbrev main_v489 : Ref sig .tc := ⟨.hbm, 599, rfl⟩
abbrev main_v490 : Ref sig .tc := ⟨.hbm, 600, rfl⟩
abbrev main_c_67 : Ref sig .tc := ⟨.hbm, 601, rfl⟩
abbrev main_v491 : Ref sig .tc := ⟨.hbm, 602, rfl⟩
abbrev main_v492 : Ref sig .tc := ⟨.hbm, 603, rfl⟩
abbrev main_v493 : Ref sig .tc := ⟨.hbm, 604, rfl⟩
abbrev main_v494 : Ref sig .tc := ⟨.hbm, 605, rfl⟩
abbrev main_v495 : Ref sig .tc := ⟨.hbm, 606, rfl⟩
abbrev main_v496 : Ref sig .tc := ⟨.hbm, 607, rfl⟩
abbrev main_v497 : Ref sig .tc := ⟨.hbm, 608, rfl⟩
abbrev main_cst_68 : Ref sig .tc := ⟨.hbm, 609, rfl⟩
abbrev main_v498 : Ref sig .tc := ⟨.hbm, 610, rfl⟩
abbrev main_v499 : Ref sig .tc := ⟨.hbm, 611, rfl⟩
abbrev main_v500 : Ref sig .tc := ⟨.hbm, 612, rfl⟩
abbrev main_v501 : Ref sig .tc := ⟨.hbm, 613, rfl⟩
abbrev main_v502 : Ref sig .tc := ⟨.hbm, 614, rfl⟩
abbrev main_v503 : Ref sig .tc := ⟨.hbm, 615, rfl⟩
abbrev main_v504 : Ref sig .tc := ⟨.hbm, 616, rfl⟩
abbrev main_v505 : Ref sig .tc := ⟨.hbm, 617, rfl⟩
abbrev main_v506 : Ref sig .tc := ⟨.hbm, 618, rfl⟩
abbrev main_v507 : Ref sig .tc := ⟨.hbm, 619, rfl⟩
abbrev main_v508 : Ref sig .tc := ⟨.hbm, 620, rfl⟩
abbrev main_v509 : Ref sig .tc := ⟨.hbm, 621, rfl⟩
abbrev main_v510 : Ref sig .tc := ⟨.hbm, 622, rfl⟩
abbrev main_v511 : Ref sig .tc := ⟨.hbm, 623, rfl⟩
abbrev main_v512 : Ref sig .tc := ⟨.hbm, 624, rfl⟩
abbrev main_v513 : Ref sig .tc := ⟨.hbm, 625, rfl⟩
abbrev main_v514 : Ref sig .tc := ⟨.hbm, 626, rfl⟩
abbrev main_v515 : Ref sig .tc := ⟨.hbm, 627, rfl⟩
abbrev main_v516 : Ref sig .tc := ⟨.hbm, 628, rfl⟩
abbrev main_v517 : Ref sig .tc := ⟨.hbm, 629, rfl⟩
abbrev main_v518 : Ref sig .tc := ⟨.hbm, 630, rfl⟩
abbrev main_v519_0 : Ref sig .tc := ⟨.hbm, 631, rfl⟩
abbrev main_v519_1 : Ref sig .tc := ⟨.hbm, 632, rfl⟩
abbrev main_v519_2 : Ref sig .tc := ⟨.hbm, 633, rfl⟩
abbrev main_cst_69 : Ref sig .tc := ⟨.hbm, 634, rfl⟩
abbrev main_v520 : Ref sig .tc := ⟨.hbm, 635, rfl⟩
abbrev main_v521 : Ref sig .tc := ⟨.hbm, 636, rfl⟩
abbrev main_cst_70 : Ref sig .tc := ⟨.hbm, 637, rfl⟩
abbrev main_v522 : Ref sig .tc := ⟨.hbm, 638, rfl⟩
abbrev main_v523 : Ref sig .tc := ⟨.hbm, 639, rfl⟩
abbrev main_v524 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_v528 : Ref sig .tc := ⟨.hbm, 644, rfl⟩
abbrev main_c_71 : Ref sig .tc := ⟨.hbm, 645, rfl⟩
abbrev main_v529 : Ref sig .tc := ⟨.hbm, 646, rfl⟩
abbrev main_v530 : Ref sig .tc := ⟨.hbm, 647, rfl⟩
abbrev main_c_72 : Ref sig .tc := ⟨.hbm, 648, rfl⟩
abbrev main_v531 : Ref sig .tc := ⟨.hbm, 649, rfl⟩
abbrev main_v532 : Ref sig .tc := ⟨.hbm, 650, rfl⟩
abbrev main_v533 : Ref sig .tc := ⟨.hbm, 651, rfl⟩
abbrev main_v534 : Ref sig .tc := ⟨.hbm, 652, rfl⟩
abbrev main_v535 : Ref sig .tc := ⟨.hbm, 653, rfl⟩
abbrev main_v536 : Ref sig .tc := ⟨.hbm, 654, rfl⟩
abbrev main_v537 : Ref sig .tc := ⟨.hbm, 655, rfl⟩
abbrev main_cst_73 : Ref sig .tc := ⟨.hbm, 656, rfl⟩
abbrev main_v538 : Ref sig .tc := ⟨.hbm, 657, rfl⟩
abbrev main_v539 : Ref sig .tc := ⟨.hbm, 658, rfl⟩
abbrev main_v540 : Ref sig .tc := ⟨.hbm, 659, rfl⟩
abbrev main_v541 : Ref sig .tc := ⟨.hbm, 660, rfl⟩
abbrev main_v542 : Ref sig .tc := ⟨.hbm, 661, rfl⟩
abbrev main_v543 : Ref sig .tc := ⟨.hbm, 662, rfl⟩
abbrev main_v544 : Ref sig .tc := ⟨.hbm, 663, rfl⟩
abbrev main_v545 : Ref sig .tc := ⟨.hbm, 664, rfl⟩
abbrev main_v546 : Ref sig .tc := ⟨.hbm, 665, rfl⟩
abbrev main_v547 : Ref sig .tc := ⟨.hbm, 666, rfl⟩
abbrev main_v548 : Ref sig .tc := ⟨.hbm, 667, rfl⟩
abbrev main_v549 : Ref sig .tc := ⟨.hbm, 668, rfl⟩
abbrev main_v550 : Ref sig .tc := ⟨.hbm, 669, rfl⟩
abbrev main_v551 : Ref sig .tc := ⟨.hbm, 670, rfl⟩
abbrev main_v552 : Ref sig .tc := ⟨.hbm, 671, rfl⟩
abbrev main_v553 : Ref sig .tc := ⟨.hbm, 672, rfl⟩
abbrev main_v554 : Ref sig .tc := ⟨.hbm, 673, rfl⟩
abbrev main_v555 : Ref sig .tc := ⟨.hbm, 674, rfl⟩
abbrev main_v556 : Ref sig .tc := ⟨.hbm, 675, rfl⟩
abbrev main_v557 : Ref sig .tc := ⟨.hbm, 676, rfl⟩
abbrev main_v558 : Ref sig .tc := ⟨.hbm, 677, rfl⟩
abbrev main_v559_0 : Ref sig .tc := ⟨.hbm, 678, rfl⟩
abbrev main_v559_1 : Ref sig .tc := ⟨.hbm, 679, rfl⟩
abbrev main_v559_2 : Ref sig .tc := ⟨.hbm, 680, rfl⟩
abbrev main_cst_74 : Ref sig .tc := ⟨.hbm, 681, rfl⟩
abbrev main_v560 : Ref sig .tc := ⟨.hbm, 682, rfl⟩
abbrev main_v561 : Ref sig .tc := ⟨.hbm, 683, rfl⟩
abbrev main_cst_75 : Ref sig .tc := ⟨.hbm, 684, rfl⟩
abbrev main_v562 : Ref sig .tc := ⟨.hbm, 685, rfl⟩
abbrev main_v563 : Ref sig .tc := ⟨.hbm, 686, rfl⟩
abbrev main_v564 : Ref sig .tc := ⟨.hbm, 687, rfl⟩
abbrev main_v565 : Ref sig .tc := ⟨.hbm, 688, rfl⟩
abbrev main_v566 : Ref sig .tc := ⟨.hbm, 689, rfl⟩
abbrev main_v567 : Ref sig .tc := ⟨.hbm, 690, rfl⟩
abbrev main_v568 : Ref sig .tc := ⟨.hbm, 691, rfl⟩
abbrev main_v569 : Ref sig .tc := ⟨.hbm, 692, rfl⟩
abbrev main_v570_0 : Ref sig .tc := ⟨.hbm, 693, rfl⟩
abbrev main_v570_1 : Ref sig .tc := ⟨.hbm, 694, rfl⟩
abbrev main_v570_2 : Ref sig .tc := ⟨.hbm, 695, rfl⟩
abbrev main_v570_3 : Ref sig .tc := ⟨.hbm, 696, rfl⟩
abbrev main_v570_4 : Ref sig .tc := ⟨.hbm, 697, rfl⟩
abbrev main_cst_76 : Ref sig .tc := ⟨.hbm, 698, rfl⟩
abbrev main_v571 : Ref sig .tc := ⟨.hbm, 699, rfl⟩
abbrev main_v572 : Ref sig .tc := ⟨.hbm, 700, rfl⟩
abbrev main_cst_77 : Ref sig .tc := ⟨.hbm, 701, rfl⟩
abbrev main_v573 : Ref sig .tc := ⟨.hbm, 702, rfl⟩
abbrev main_v574 : Ref sig .tc := ⟨.hbm, 703, rfl⟩
abbrev main_v575 : Ref sig .tc := ⟨.hbm, 704, rfl⟩
abbrev main_v576 : Ref sig .tc := ⟨.hbm, 705, rfl⟩
abbrev main_v577 : Ref sig .tc := ⟨.hbm, 706, rfl⟩
abbrev main_v578 : Ref sig .tc := ⟨.hbm, 707, rfl⟩
abbrev main_v579 : Ref sig .tc := ⟨.hbm, 708, rfl⟩
abbrev main_v580 : Ref sig .tc := ⟨.hbm, 709, rfl⟩
abbrev main_v581 : Ref sig .tc := ⟨.hbm, 710, rfl⟩
abbrev main_v582 : Ref sig .tc := ⟨.hbm, 711, rfl⟩
abbrev main_v583 : Ref sig .tc := ⟨.hbm, 712, rfl⟩
abbrev main_v584 : Ref sig .tc := ⟨.hbm, 713, rfl⟩
abbrev main_v585 : Ref sig .tc := ⟨.hbm, 714, rfl⟩
abbrev main_v586 : Ref sig .tc := ⟨.hbm, 715, rfl⟩
abbrev main_v587_0 : Ref sig .tc := ⟨.hbm, 716, rfl⟩
abbrev main_v587_1 : Ref sig .tc := ⟨.hbm, 717, rfl⟩
abbrev main_v587_2 : Ref sig .tc := ⟨.hbm, 718, rfl⟩
abbrev main_v587_3 : Ref sig .tc := ⟨.hbm, 719, rfl⟩
abbrev main_v587_4 : Ref sig .tc := ⟨.hbm, 720, rfl⟩
abbrev main_cst_78 : Ref sig .tc := ⟨.hbm, 721, rfl⟩
abbrev main_v588 : Ref sig .tc := ⟨.hbm, 722, rfl⟩
abbrev main_v589 : Ref sig .tc := ⟨.hbm, 723, rfl⟩
abbrev main_cst_79 : Ref sig .tc := ⟨.hbm, 724, rfl⟩
abbrev main_v590 : Ref sig .tc := ⟨.hbm, 725, rfl⟩
abbrev main_v591 : Ref sig .tc := ⟨.hbm, 726, rfl⟩
abbrev main_v592 : Ref sig .tc := ⟨.hbm, 727, rfl⟩
abbrev main_v593 : Ref sig .tc := ⟨.hbm, 728, rfl⟩
abbrev main_v594 : Ref sig .tc := ⟨.hbm, 729, rfl⟩
abbrev main_v595 : Ref sig .tc := ⟨.hbm, 730, rfl⟩
abbrev main_v596 : Ref sig .tc := ⟨.hbm, 731, rfl⟩
abbrev main_v597 : Ref sig .tc := ⟨.hbm, 732, rfl⟩
abbrev main_v598 : Ref sig .tc := ⟨.hbm, 733, rfl⟩
abbrev main_v599 : Ref sig .tc := ⟨.hbm, 734, rfl⟩
abbrev main_v600 : Ref sig .tc := ⟨.hbm, 735, rfl⟩
abbrev main_v601 : Ref sig .tc := ⟨.hbm, 736, rfl⟩
abbrev main_v602 : Ref sig .tc := ⟨.hbm, 737, rfl⟩
abbrev main_v603 : Ref sig .tc := ⟨.hbm, 738, rfl⟩
abbrev main_v604_0 : Ref sig .tc := ⟨.hbm, 739, rfl⟩
abbrev main_v604_1 : Ref sig .tc := ⟨.hbm, 740, rfl⟩
abbrev main_v604_2 : Ref sig .tc := ⟨.hbm, 741, rfl⟩
abbrev main_v604_3 : Ref sig .tc := ⟨.hbm, 742, rfl⟩
abbrev main_v604_4 : Ref sig .tc := ⟨.hbm, 743, rfl⟩
abbrev main_cst_80 : Ref sig .tc := ⟨.hbm, 744, rfl⟩
abbrev main_v605 : Ref sig .tc := ⟨.hbm, 745, rfl⟩
abbrev main_v606 : Ref sig .tc := ⟨.hbm, 746, rfl⟩
abbrev main_cst_81 : Ref sig .tc := ⟨.hbm, 747, rfl⟩
abbrev main_v607 : Ref sig .tc := ⟨.hbm, 748, rfl⟩
abbrev main_v608 : Ref sig .tc := ⟨.hbm, 749, rfl⟩
abbrev main_v609 : Ref sig .tc := ⟨.hbm, 750, rfl⟩
abbrev main_v610 : Ref sig .tc := ⟨.hbm, 751, rfl⟩
abbrev main_v611 : Ref sig .tc := ⟨.hbm, 752, rfl⟩
abbrev main_v612 : Ref sig .tc := ⟨.hbm, 753, rfl⟩
abbrev main_v613 : Ref sig .tc := ⟨.hbm, 754, rfl⟩
abbrev main_v614 : Ref sig .tc := ⟨.hbm, 755, rfl⟩
abbrev main_v615 : Ref sig .tc := ⟨.hbm, 756, rfl⟩
abbrev main_v616 : Ref sig .tc := ⟨.hbm, 757, rfl⟩
abbrev main_v617 : Ref sig .tc := ⟨.hbm, 758, rfl⟩
abbrev main_v618 : Ref sig .tc := ⟨.hbm, 759, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg6_1 : Ref sig .tc := ⟨.vmem, 75, rfl⟩
abbrev cc6_stg7_0 : Ref sig .tc := ⟨.vmem, 76, rfl⟩
abbrev cc6_stg8_0 : Ref sig .tc := ⟨.vmem, 77, rfl⟩
abbrev cc6_scratch0 : Ref sig .tc := ⟨.vmem, 78, rfl⟩
abbrev cc6_scratch1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg3_0 : Ref sig .tc := ⟨.vmem, 93, rfl⟩
abbrev cc8_stg4_0 : Ref sig .tc := ⟨.vmem, 94, rfl⟩
abbrev cc8_stg5_0 : Ref sig .tc := ⟨.vmem, 95, rfl⟩
abbrev cc8_stg6_0 : Ref sig .tc := ⟨.vmem, 96, rfl⟩
abbrev cc8_stg6_1 : Ref sig .tc := ⟨.vmem, 97, rfl⟩
abbrev cc8_stg7_0 : Ref sig .tc := ⟨.vmem, 98, rfl⟩
abbrev cc8_stg8_0 : Ref sig .tc := ⟨.vmem, 99, rfl⟩
abbrev cc8_scratch0 : Ref sig .tc := ⟨.vmem, 100, rfl⟩
abbrev cc8_scratch1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg2_0 : Ref sig .tc := ⟨.vmem, 105, rfl⟩
abbrev cc9_stg3_0 : Ref sig .tc := ⟨.vmem, 106, rfl⟩
abbrev cc9_stg4_0 : Ref sig .tc := ⟨.vmem, 107, rfl⟩
abbrev cc9_stg5_0 : Ref sig .tc := ⟨.vmem, 108, rfl⟩
abbrev cc9_stg5_1 : Ref sig .tc := ⟨.vmem, 109, rfl⟩
abbrev cc10_stg0_0 : Ref sig .tc := ⟨.vmem, 110, rfl⟩
abbrev cc10_stg0_1 : Ref sig .tc := ⟨.vmem, 111, rfl⟩
abbrev cc10_stg1_0 : Ref sig .tc := ⟨.vmem, 112, rfl⟩
abbrev cc10_stg1_1 : Ref sig .tc := ⟨.vmem, 113, rfl⟩
abbrev cc10_stg2_0 : Ref sig .tc := ⟨.vmem, 114, rfl⟩
abbrev cc10_stg3_0 : Ref sig .tc := ⟨.vmem, 115, rfl⟩
abbrev cc10_stg4_0 : Ref sig .tc := ⟨.vmem, 116, rfl⟩
abbrev cc10_stg5_0 : Ref sig .tc := ⟨.vmem, 117, rfl⟩
abbrev cc10_stg6_0 : Ref sig .tc := ⟨.vmem, 118, rfl⟩
abbrev cc10_stg6_1 : Ref sig .tc := ⟨.vmem, 119, rfl⟩
abbrev cc10_stg7_0 : Ref sig .tc := ⟨.vmem, 120, rfl⟩
abbrev cc10_stg8_0 : Ref sig .tc := ⟨.vmem, 121, rfl⟩
abbrev cc10_scratch0 : Ref sig .tc := ⟨.vmem, 122, rfl⟩
abbrev cc10_scratch1 : Ref sig .tc := ⟨.vmem, 123, rfl⟩
abbrev cc11_stg0_0 : Ref sig .tc := ⟨.vmem, 124, rfl⟩
abbrev cc11_stg0_1 : Ref sig .tc := ⟨.vmem, 125, rfl⟩
abbrev cc11_stg1_0 : Ref sig .tc := ⟨.vmem, 126, rfl⟩
abbrev cc11_stg2_0 : Ref sig .tc := ⟨.vmem, 127, rfl⟩
abbrev cc11_stg3_0 : Ref sig .tc := ⟨.vmem, 128, rfl⟩
abbrev cc11_stg4_0 : Ref sig .tc := ⟨.vmem, 129, rfl⟩
abbrev cc11_stg5_0 : Ref sig .tc := ⟨.vmem, 130, rfl⟩
abbrev cc11_stg5_1 : Ref sig .tc := ⟨.vmem, 131, rfl⟩
abbrev cc12_stg0_0 : Ref sig .tc := ⟨.vmem, 132, rfl⟩
abbrev cc12_stg0_1 : Ref sig .tc := ⟨.vmem, 133, rfl⟩
abbrev cc12_stg1_0 : Ref sig .tc := ⟨.vmem, 134, rfl⟩
abbrev cc12_stg1_1 : Ref sig .tc := ⟨.vmem, 135, rfl⟩
abbrev cc12_stg2_0 : Ref sig .tc := ⟨.vmem, 136, rfl⟩
abbrev cc12_stg3_0 : Ref sig .tc := ⟨.vmem, 137, rfl⟩
abbrev cc12_stg4_0 : Ref sig .tc := ⟨.vmem, 138, rfl⟩
abbrev cc12_stg5_0 : Ref sig .tc := ⟨.vmem, 139, rfl⟩
abbrev cc12_stg6_0 : Ref sig .tc := ⟨.vmem, 140, rfl⟩
abbrev cc12_stg6_1 : Ref sig .tc := ⟨.vmem, 141, rfl⟩
abbrev cc12_stg7_0 : Ref sig .tc := ⟨.vmem, 142, rfl⟩
abbrev cc12_stg8_0 : Ref sig .tc := ⟨.vmem, 143, rfl⟩
abbrev cc12_scratch0 : Ref sig .tc := ⟨.vmem, 144, rfl⟩
abbrev cc12_scratch1 : Ref sig .tc := ⟨.vmem, 145, rfl⟩
abbrev cc13_stg0_0 : Ref sig .tc := ⟨.vmem, 146, rfl⟩
abbrev cc13_stg0_1 : Ref sig .tc := ⟨.vmem, 147, rfl⟩
abbrev cc13_stg1_0 : Ref sig .tc := ⟨.vmem, 148, rfl⟩
abbrev cc13_stg2_0 : Ref sig .tc := ⟨.vmem, 149, rfl⟩
abbrev cc13_stg3_0 : Ref sig .tc := ⟨.vmem, 150, rfl⟩
abbrev cc13_stg4_0 : Ref sig .tc := ⟨.vmem, 151, rfl⟩
abbrev cc13_stg5_0 : Ref sig .tc := ⟨.vmem, 152, rfl⟩
abbrev cc13_stg5_1 : Ref sig .tc := ⟨.vmem, 153, rfl⟩
abbrev cc14_stg0_0 : Ref sig .tc := ⟨.vmem, 154, rfl⟩
abbrev cc14_stg0_1 : Ref sig .tc := ⟨.vmem, 155, rfl⟩
abbrev cc14_stg1_0 : Ref sig .tc := ⟨.vmem, 156, rfl⟩
abbrev cc14_stg1_1 : Ref sig .tc := ⟨.vmem, 157, rfl⟩
abbrev cc14_stg2_0 : Ref sig .tc := ⟨.vmem, 158, rfl⟩
abbrev cc14_stg3_0 : Ref sig .tc := ⟨.vmem, 159, rfl⟩
abbrev cc14_stg4_0 : Ref sig .tc := ⟨.vmem, 160, rfl⟩
abbrev cc14_stg5_0 : Ref sig .tc := ⟨.vmem, 161, rfl⟩
abbrev cc14_stg6_0 : Ref sig .tc := ⟨.vmem, 162, rfl⟩
abbrev cc14_stg6_1 : Ref sig .tc := ⟨.vmem, 163, rfl⟩
abbrev cc14_stg7_0 : Ref sig .tc := ⟨.vmem, 164, rfl⟩
abbrev cc14_stg8_0 : Ref sig .tc := ⟨.vmem, 165, rfl⟩
abbrev cc14_scratch0 : Ref sig .tc := ⟨.vmem, 166, rfl⟩
abbrev cc14_scratch1 : Ref sig .tc := ⟨.vmem, 167, rfl⟩
abbrev cc15_stg0_0 : Ref sig .tc := ⟨.vmem, 168, rfl⟩
abbrev cc15_stg0_1 : Ref sig .tc := ⟨.vmem, 169, rfl⟩
abbrev cc15_stg1_0 : Ref sig .tc := ⟨.vmem, 170, rfl⟩
abbrev cc15_stg2_0 : Ref sig .tc := ⟨.vmem, 171, rfl⟩
abbrev cc15_stg3_0 : Ref sig .tc := ⟨.vmem, 172, rfl⟩
abbrev cc15_stg4_0 : Ref sig .tc := ⟨.vmem, 173, rfl⟩
abbrev cc15_stg5_0 : Ref sig .tc := ⟨.vmem, 174, rfl⟩
abbrev cc15_stg5_1 : Ref sig .tc := ⟨.vmem, 175, rfl⟩
abbrev cc16_stg0_0 : Ref sig .tc := ⟨.vmem, 176, rfl⟩
abbrev cc16_stg0_1 : Ref sig .tc := ⟨.vmem, 177, rfl⟩
abbrev cc16_stg1_0 : Ref sig .tc := ⟨.vmem, 178, rfl⟩
abbrev cc16_stg1_1 : Ref sig .tc := ⟨.vmem, 179, rfl⟩
abbrev cc16_stg2_0 : Ref sig .tc := ⟨.vmem, 180, rfl⟩
abbrev cc16_stg3_0 : Ref sig .tc := ⟨.vmem, 181, rfl⟩
abbrev cc16_stg4_0 : Ref sig .tc := ⟨.vmem, 182, rfl⟩
abbrev cc16_stg5_0 : Ref sig .tc := ⟨.vmem, 183, rfl⟩
abbrev cc16_stg6_0 : Ref sig .tc := ⟨.vmem, 184, rfl⟩
abbrev cc16_stg6_1 : Ref sig .tc := ⟨.vmem, 185, rfl⟩
abbrev cc16_stg7_0 : Ref sig .tc := ⟨.vmem, 186, rfl⟩
abbrev cc16_stg8_0 : Ref sig .tc := ⟨.vmem, 187, rfl⟩
abbrev cc16_scratch0 : Ref sig .tc := ⟨.vmem, 188, rfl⟩
abbrev cc16_scratch1 : Ref sig .tc := ⟨.vmem, 189, rfl⟩
abbrev cc17_stg0_0 : Ref sig .tc := ⟨.vmem, 190, rfl⟩
abbrev cc17_stg0_1 : Ref sig .tc := ⟨.vmem, 191, rfl⟩
abbrev cc17_stg1_0 : Ref sig .tc := ⟨.vmem, 192, rfl⟩
abbrev cc17_stg2_0 : Ref sig .tc := ⟨.vmem, 193, rfl⟩
abbrev cc17_stg3_0 : Ref sig .tc := ⟨.vmem, 194, rfl⟩
abbrev cc17_stg4_0 : Ref sig .tc := ⟨.vmem, 195, rfl⟩
abbrev cc17_stg5_0 : Ref sig .tc := ⟨.vmem, 196, rfl⟩
abbrev cc17_stg5_1 : Ref sig .tc := ⟨.vmem, 197, rfl⟩
abbrev cc18_stg0_0 : Ref sig .tc := ⟨.vmem, 198, rfl⟩
abbrev cc18_stg0_1 : Ref sig .tc := ⟨.vmem, 199, rfl⟩
abbrev cc18_stg1_0 : Ref sig .tc := ⟨.vmem, 200, rfl⟩
abbrev cc18_stg1_1 : Ref sig .tc := ⟨.vmem, 201, rfl⟩
abbrev cc18_stg2_0 : Ref sig .tc := ⟨.vmem, 202, rfl⟩
abbrev cc18_stg3_0 : Ref sig .tc := ⟨.vmem, 203, rfl⟩
abbrev cc18_stg4_0 : Ref sig .tc := ⟨.vmem, 204, rfl⟩
abbrev cc18_stg5_0 : Ref sig .tc := ⟨.vmem, 205, rfl⟩
abbrev cc18_stg6_0 : Ref sig .tc := ⟨.vmem, 206, rfl⟩
abbrev cc18_stg6_1 : Ref sig .tc := ⟨.vmem, 207, rfl⟩
abbrev cc18_stg7_0 : Ref sig .tc := ⟨.vmem, 208, rfl⟩
abbrev cc18_stg8_0 : Ref sig .tc := ⟨.vmem, 209, rfl⟩
abbrev cc18_scratch0 : Ref sig .tc := ⟨.vmem, 210, rfl⟩
abbrev cc18_scratch1 : Ref sig .tc := ⟨.vmem, 211, rfl⟩
abbrev cc19_stg0_0 : Ref sig .tc := ⟨.vmem, 212, rfl⟩
abbrev cc19_stg0_1 : Ref sig .tc := ⟨.vmem, 213, rfl⟩
abbrev cc19_stg1_0 : Ref sig .tc := ⟨.vmem, 214, rfl⟩
abbrev cc19_stg2_0 : Ref sig .tc := ⟨.vmem, 215, rfl⟩
abbrev cc19_stg3_0 : Ref sig .tc := ⟨.vmem, 216, rfl⟩
abbrev cc19_stg4_0 : Ref sig .tc := ⟨.vmem, 217, rfl⟩
abbrev cc19_stg5_0 : Ref sig .tc := ⟨.vmem, 218, rfl⟩
abbrev cc19_stg5_1 : Ref sig .tc := ⟨.vmem, 219, rfl⟩
abbrev cc20_stg0_0 : Ref sig .tc := ⟨.vmem, 220, rfl⟩
abbrev cc20_stg0_1 : Ref sig .tc := ⟨.vmem, 221, rfl⟩
abbrev cc20_stg1_0 : Ref sig .tc := ⟨.vmem, 222, rfl⟩
abbrev cc20_stg1_1 : Ref sig .tc := ⟨.vmem, 223, rfl⟩
abbrev cc20_stg2_0 : Ref sig .tc := ⟨.vmem, 224, rfl⟩
abbrev cc20_stg3_0 : Ref sig .tc := ⟨.vmem, 225, rfl⟩
abbrev cc20_stg4_0 : Ref sig .tc := ⟨.vmem, 226, rfl⟩
abbrev cc20_stg5_0 : Ref sig .tc := ⟨.vmem, 227, rfl⟩
abbrev cc20_stg6_0 : Ref sig .tc := ⟨.vmem, 228, rfl⟩
abbrev cc20_stg6_1 : Ref sig .tc := ⟨.vmem, 229, rfl⟩
abbrev cc20_stg7_0 : Ref sig .tc := ⟨.vmem, 230, rfl⟩
abbrev cc20_stg8_0 : Ref sig .tc := ⟨.vmem, 231, rfl⟩
abbrev cc20_scratch0 : Ref sig .tc := ⟨.vmem, 232, rfl⟩
abbrev cc20_scratch1 : Ref sig .tc := ⟨.vmem, 233, rfl⟩
abbrev cc21_stg0_0 : Ref sig .tc := ⟨.vmem, 234, rfl⟩
abbrev cc21_stg0_1 : Ref sig .tc := ⟨.vmem, 235, rfl⟩
abbrev cc21_stg1_0 : Ref sig .tc := ⟨.vmem, 236, rfl⟩
abbrev cc21_stg2_0 : Ref sig .tc := ⟨.vmem, 237, rfl⟩
abbrev cc21_stg3_0 : Ref sig .tc := ⟨.vmem, 238, rfl⟩
abbrev cc21_stg4_0 : Ref sig .tc := ⟨.vmem, 239, rfl⟩
abbrev cc21_stg5_0 : Ref sig .tc := ⟨.vmem, 240, rfl⟩
abbrev cc21_stg5_1 : Ref sig .tc := ⟨.vmem, 241, rfl⟩
abbrev cc22_stg0_0 : Ref sig .tc := ⟨.vmem, 242, rfl⟩
abbrev cc22_stg0_1 : Ref sig .tc := ⟨.vmem, 243, rfl⟩
abbrev cc22_stg1_0 : Ref sig .tc := ⟨.vmem, 244, rfl⟩
abbrev cc22_stg1_1 : Ref sig .tc := ⟨.vmem, 245, rfl⟩
abbrev cc22_stg2_0 : Ref sig .tc := ⟨.vmem, 246, rfl⟩
abbrev cc22_stg3_0 : Ref sig .tc := ⟨.vmem, 247, rfl⟩
abbrev cc22_stg4_0 : Ref sig .tc := ⟨.vmem, 248, rfl⟩
abbrev cc22_stg5_0 : Ref sig .tc := ⟨.vmem, 249, rfl⟩
abbrev cc22_stg6_0 : Ref sig .tc := ⟨.vmem, 250, rfl⟩
abbrev cc22_stg6_1 : Ref sig .tc := ⟨.vmem, 251, rfl⟩
abbrev cc22_stg7_0 : Ref sig .tc := ⟨.vmem, 252, rfl⟩
abbrev cc22_stg8_0 : Ref sig .tc := ⟨.vmem, 253, rfl⟩
abbrev cc22_scratch0 : Ref sig .tc := ⟨.vmem, 254, rfl⟩
abbrev cc22_scratch1 : Ref sig .tc := ⟨.vmem, 255, rfl⟩
abbrev cc23_stg0_0 : Ref sig .tc := ⟨.vmem, 256, rfl⟩
abbrev cc23_stg0_1 : Ref sig .tc := ⟨.vmem, 257, rfl⟩
abbrev cc23_stg1_0 : Ref sig .tc := ⟨.vmem, 258, rfl⟩
abbrev cc23_stg2_0 : Ref sig .tc := ⟨.vmem, 259, rfl⟩
abbrev cc23_stg3_0 : Ref sig .tc := ⟨.vmem, 260, rfl⟩
abbrev cc23_stg4_0 : Ref sig .tc := ⟨.vmem, 261, rfl⟩
abbrev cc23_stg5_0 : Ref sig .tc := ⟨.vmem, 262, rfl⟩
abbrev cc23_stg5_1 : Ref sig .tc := ⟨.vmem, 263, rfl⟩
abbrev cc24_stg0_0 : Ref sig .tc := ⟨.vmem, 264, rfl⟩
abbrev cc24_stg0_1 : Ref sig .tc := ⟨.vmem, 265, rfl⟩
abbrev cc24_stg1_0 : Ref sig .tc := ⟨.vmem, 266, rfl⟩
abbrev cc24_stg1_1 : Ref sig .tc := ⟨.vmem, 267, rfl⟩
abbrev cc24_stg2_0 : Ref sig .tc := ⟨.vmem, 268, rfl⟩
abbrev cc24_stg2_1 : Ref sig .tc := ⟨.vmem, 269, rfl⟩
abbrev cc24_stg3_0 : Ref sig .tc := ⟨.vmem, 270, rfl⟩
abbrev cc24_stg3_1 : Ref sig .tc := ⟨.vmem, 271, rfl⟩
abbrev cc24_stg4_0 : Ref sig .tc := ⟨.vmem, 272, rfl⟩
abbrev cc24_stg4_1 : Ref sig .tc := ⟨.vmem, 273, rfl⟩
abbrev cc24_stg5_0 : Ref sig .tc := ⟨.vmem, 274, rfl⟩
abbrev cc24_stg6_0 : Ref sig .tc := ⟨.vmem, 275, rfl⟩
abbrev cc24_stg7_0 : Ref sig .tc := ⟨.vmem, 276, rfl⟩
abbrev cc24_stg8_0 : Ref sig .tc := ⟨.vmem, 277, rfl⟩
abbrev cc24_stg9_0 : Ref sig .tc := ⟨.vmem, 278, rfl⟩
abbrev cc24_scratch0 : Ref sig .tc := ⟨.vmem, 279, rfl⟩
abbrev cc24_scratch1 : Ref sig .tc := ⟨.vmem, 280, rfl⟩
abbrev cc24_scratch2 : Ref sig .tc := ⟨.vmem, 281, rfl⟩
abbrev cc24_scratch3 : Ref sig .tc := ⟨.vmem, 282, rfl⟩
abbrev cc24_scratch4 : Ref sig .tc := ⟨.vmem, 283, rfl⟩
abbrev cc25_stg0_0 : Ref sig .tc := ⟨.vmem, 284, rfl⟩
abbrev cc25_stg0_1 : Ref sig .tc := ⟨.vmem, 285, rfl⟩
abbrev cc25_stg1_0 : Ref sig .tc := ⟨.vmem, 286, rfl⟩
abbrev cc25_stg1_1 : Ref sig .tc := ⟨.vmem, 287, rfl⟩
abbrev cc25_stg2_0 : Ref sig .tc := ⟨.vmem, 288, rfl⟩
abbrev cc25_stg2_1 : Ref sig .tc := ⟨.vmem, 289, rfl⟩
abbrev cc25_stg3_0 : Ref sig .tc := ⟨.vmem, 290, rfl⟩
abbrev cc25_stg3_1 : Ref sig .tc := ⟨.vmem, 291, rfl⟩
abbrev cc25_stg4_0 : Ref sig .tc := ⟨.vmem, 292, rfl⟩
abbrev cc25_stg4_1 : Ref sig .tc := ⟨.vmem, 293, rfl⟩
abbrev cc25_stg5_0 : Ref sig .tc := ⟨.vmem, 294, rfl⟩
abbrev cc25_stg6_0 : Ref sig .tc := ⟨.vmem, 295, rfl⟩
abbrev cc25_stg7_0 : Ref sig .tc := ⟨.vmem, 296, rfl⟩
abbrev cc25_stg8_0 : Ref sig .tc := ⟨.vmem, 297, rfl⟩
abbrev cc25_stg9_0 : Ref sig .tc := ⟨.vmem, 298, rfl⟩
abbrev cc25_scratch0 : Ref sig .tc := ⟨.vmem, 299, rfl⟩
abbrev cc25_scratch1 : Ref sig .tc := ⟨.vmem, 300, rfl⟩
abbrev cc25_scratch2 : Ref sig .tc := ⟨.vmem, 301, rfl⟩
abbrev cc25_scratch3 : Ref sig .tc := ⟨.vmem, 302, rfl⟩
abbrev cc25_scratch4 : Ref sig .tc := ⟨.vmem, 303, rfl⟩
abbrev cc26_stg0_0 : Ref sig .tc := ⟨.vmem, 304, rfl⟩
abbrev cc26_stg0_1 : Ref sig .tc := ⟨.vmem, 305, rfl⟩
abbrev cc26_stg1_0 : Ref sig .tc := ⟨.vmem, 306, rfl⟩
abbrev cc26_stg1_1 : Ref sig .tc := ⟨.vmem, 307, rfl⟩
abbrev cc26_stg2_0 : Ref sig .tc := ⟨.vmem, 308, rfl⟩
abbrev cc26_stg2_1 : Ref sig .tc := ⟨.vmem, 309, rfl⟩
abbrev cc26_stg3_0 : Ref sig .tc := ⟨.vmem, 310, rfl⟩
abbrev cc26_stg3_1 : Ref sig .tc := ⟨.vmem, 311, rfl⟩
abbrev cc26_stg4_0 : Ref sig .tc := ⟨.vmem, 312, rfl⟩
abbrev cc26_stg4_1 : Ref sig .tc := ⟨.vmem, 313, rfl⟩
abbrev cc26_stg5_0 : Ref sig .tc := ⟨.vmem, 314, rfl⟩
abbrev cc26_stg6_0 : Ref sig .tc := ⟨.vmem, 315, rfl⟩
abbrev cc26_stg7_0 : Ref sig .tc := ⟨.vmem, 316, rfl⟩
abbrev cc26_stg8_0 : Ref sig .tc := ⟨.vmem, 317, rfl⟩
abbrev cc26_stg9_0 : Ref sig .tc := ⟨.vmem, 318, rfl⟩
abbrev cc26_scratch0 : Ref sig .tc := ⟨.vmem, 319, rfl⟩
abbrev cc26_scratch1 : Ref sig .tc := ⟨.vmem, 320, rfl⟩
abbrev cc26_scratch2 : Ref sig .tc := ⟨.vmem, 321, rfl⟩
abbrev cc26_scratch3 : Ref sig .tc := ⟨.vmem, 322, rfl⟩
abbrev cc26_scratch4 : Ref sig .tc := ⟨.vmem, 323, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88
abbrev cc8_sem6_1 : DmaSem sig := 89
abbrev cc8_sem7_0 : DmaSem sig := 90
abbrev cc8_sem8_0 : DmaSem sig := 91
abbrev cc9_sem0_0 : DmaSem sig := 92
abbrev cc9_sem0_1 : DmaSem sig := 93
abbrev cc9_sem1_0 : DmaSem sig := 94
abbrev cc9_sem2_0 : DmaSem sig := 95
abbrev cc9_sem3_0 : DmaSem sig := 96
abbrev cc9_sem4_0 : DmaSem sig := 97
abbrev cc9_sem5_0 : DmaSem sig := 98
abbrev cc9_sem5_1 : DmaSem sig := 99
abbrev cc10_sem0_0 : DmaSem sig := 100
abbrev cc10_sem0_1 : DmaSem sig := 101
abbrev cc10_sem1_0 : DmaSem sig := 102
abbrev cc10_sem1_1 : DmaSem sig := 103
abbrev cc10_sem2_0 : DmaSem sig := 104
abbrev cc10_sem3_0 : DmaSem sig := 105
abbrev cc10_sem4_0 : DmaSem sig := 106
abbrev cc10_sem5_0 : DmaSem sig := 107
abbrev cc10_sem6_0 : DmaSem sig := 108
abbrev cc10_sem6_1 : DmaSem sig := 109
abbrev cc10_sem7_0 : DmaSem sig := 110
abbrev cc10_sem8_0 : DmaSem sig := 111
abbrev cc11_sem0_0 : DmaSem sig := 112
abbrev cc11_sem0_1 : DmaSem sig := 113
abbrev cc11_sem1_0 : DmaSem sig := 114
abbrev cc11_sem2_0 : DmaSem sig := 115
abbrev cc11_sem3_0 : DmaSem sig := 116
abbrev cc11_sem4_0 : DmaSem sig := 117
abbrev cc11_sem5_0 : DmaSem sig := 118
abbrev cc11_sem5_1 : DmaSem sig := 119
abbrev cc12_sem0_0 : DmaSem sig := 120
abbrev cc12_sem0_1 : DmaSem sig := 121
abbrev cc12_sem1_0 : DmaSem sig := 122
abbrev cc12_sem1_1 : DmaSem sig := 123
abbrev cc12_sem2_0 : DmaSem sig := 124
abbrev cc12_sem3_0 : DmaSem sig := 125
abbrev cc12_sem4_0 : DmaSem sig := 126
abbrev cc12_sem5_0 : DmaSem sig := 127
abbrev cc12_sem6_0 : DmaSem sig := 128
abbrev cc12_sem6_1 : DmaSem sig := 129
abbrev cc12_sem7_0 : DmaSem sig := 130
abbrev cc12_sem8_0 : DmaSem sig := 131
abbrev cc13_sem0_0 : DmaSem sig := 132
abbrev cc13_sem0_1 : DmaSem sig := 133
abbrev cc13_sem1_0 : DmaSem sig := 134
abbrev cc13_sem2_0 : DmaSem sig := 135
abbrev cc13_sem3_0 : DmaSem sig := 136
abbrev cc13_sem4_0 : DmaSem sig := 137
abbrev cc13_sem5_0 : DmaSem sig := 138
abbrev cc13_sem5_1 : DmaSem sig := 139
abbrev cc14_sem0_0 : DmaSem sig := 140
abbrev cc14_sem0_1 : DmaSem sig := 141
abbrev cc14_sem1_0 : DmaSem sig := 142
abbrev cc14_sem1_1 : DmaSem sig := 143
abbrev cc14_sem2_0 : DmaSem sig := 144
abbrev cc14_sem3_0 : DmaSem sig := 145
abbrev cc14_sem4_0 : DmaSem sig := 146
abbrev cc14_sem5_0 : DmaSem sig := 147
abbrev cc14_sem6_0 : DmaSem sig := 148
abbrev cc14_sem6_1 : DmaSem sig := 149
abbrev cc14_sem7_0 : DmaSem sig := 150
abbrev cc14_sem8_0 : DmaSem sig := 151
abbrev cc15_sem0_0 : DmaSem sig := 152
abbrev cc15_sem0_1 : DmaSem sig := 153
abbrev cc15_sem1_0 : DmaSem sig := 154
abbrev cc15_sem2_0 : DmaSem sig := 155
abbrev cc15_sem3_0 : DmaSem sig := 156
abbrev cc15_sem4_0 : DmaSem sig := 157
abbrev cc15_sem5_0 : DmaSem sig := 158
abbrev cc15_sem5_1 : DmaSem sig := 159
abbrev cc16_sem0_0 : DmaSem sig := 160
abbrev cc16_sem0_1 : DmaSem sig := 161
abbrev cc16_sem1_0 : DmaSem sig := 162
abbrev cc16_sem1_1 : DmaSem sig := 163
abbrev cc16_sem2_0 : DmaSem sig := 164
abbrev cc16_sem3_0 : DmaSem sig := 165
abbrev cc16_sem4_0 : DmaSem sig := 166
abbrev cc16_sem5_0 : DmaSem sig := 167
abbrev cc16_sem6_0 : DmaSem sig := 168
abbrev cc16_sem6_1 : DmaSem sig := 169
abbrev cc16_sem7_0 : DmaSem sig := 170
abbrev cc16_sem8_0 : DmaSem sig := 171
abbrev cc17_sem0_0 : DmaSem sig := 172
abbrev cc17_sem0_1 : DmaSem sig := 173
abbrev cc17_sem1_0 : DmaSem sig := 174
abbrev cc17_sem2_0 : DmaSem sig := 175
abbrev cc17_sem3_0 : DmaSem sig := 176
abbrev cc17_sem4_0 : DmaSem sig := 177
abbrev cc17_sem5_0 : DmaSem sig := 178
abbrev cc17_sem5_1 : DmaSem sig := 179
abbrev cc18_sem0_0 : DmaSem sig := 180
abbrev cc18_sem0_1 : DmaSem sig := 181
abbrev cc18_sem1_0 : DmaSem sig := 182
abbrev cc18_sem1_1 : DmaSem sig := 183
abbrev cc18_sem2_0 : DmaSem sig := 184
abbrev cc18_sem3_0 : DmaSem sig := 185
abbrev cc18_sem4_0 : DmaSem sig := 186
abbrev cc18_sem5_0 : DmaSem sig := 187
abbrev cc18_sem6_0 : DmaSem sig := 188
abbrev cc18_sem6_1 : DmaSem sig := 189
abbrev cc18_sem7_0 : DmaSem sig := 190
abbrev cc18_sem8_0 : DmaSem sig := 191
abbrev cc19_sem0_0 : DmaSem sig := 192
abbrev cc19_sem0_1 : DmaSem sig := 193
abbrev cc19_sem1_0 : DmaSem sig := 194
abbrev cc19_sem2_0 : DmaSem sig := 195
abbrev cc19_sem3_0 : DmaSem sig := 196
abbrev cc19_sem4_0 : DmaSem sig := 197
abbrev cc19_sem5_0 : DmaSem sig := 198
abbrev cc19_sem5_1 : DmaSem sig := 199
abbrev cc20_sem0_0 : DmaSem sig := 200
abbrev cc20_sem0_1 : DmaSem sig := 201
abbrev cc20_sem1_0 : DmaSem sig := 202
abbrev cc20_sem1_1 : DmaSem sig := 203
abbrev cc20_sem2_0 : DmaSem sig := 204
abbrev cc20_sem3_0 : DmaSem sig := 205
abbrev cc20_sem4_0 : DmaSem sig := 206
abbrev cc20_sem5_0 : DmaSem sig := 207
abbrev cc20_sem6_0 : DmaSem sig := 208
abbrev cc20_sem6_1 : DmaSem sig := 209
abbrev cc20_sem7_0 : DmaSem sig := 210
abbrev cc20_sem8_0 : DmaSem sig := 211
abbrev cc21_sem0_0 : DmaSem sig := 212
abbrev cc21_sem0_1 : DmaSem sig := 213
abbrev cc21_sem1_0 : DmaSem sig := 214
abbrev cc21_sem2_0 : DmaSem sig := 215
abbrev cc21_sem3_0 : DmaSem sig := 216
abbrev cc21_sem4_0 : DmaSem sig := 217
abbrev cc21_sem5_0 : DmaSem sig := 218
abbrev cc21_sem5_1 : DmaSem sig := 219
abbrev cc22_sem0_0 : DmaSem sig := 220
abbrev cc22_sem0_1 : DmaSem sig := 221
abbrev cc22_sem1_0 : DmaSem sig := 222
abbrev cc22_sem1_1 : DmaSem sig := 223
abbrev cc22_sem2_0 : DmaSem sig := 224
abbrev cc22_sem3_0 : DmaSem sig := 225
abbrev cc22_sem4_0 : DmaSem sig := 226
abbrev cc22_sem5_0 : DmaSem sig := 227
abbrev cc22_sem6_0 : DmaSem sig := 228
abbrev cc22_sem6_1 : DmaSem sig := 229
abbrev cc22_sem7_0 : DmaSem sig := 230
abbrev cc22_sem8_0 : DmaSem sig := 231
abbrev cc23_sem0_0 : DmaSem sig := 232
abbrev cc23_sem0_1 : DmaSem sig := 233
abbrev cc23_sem1_0 : DmaSem sig := 234
abbrev cc23_sem2_0 : DmaSem sig := 235
abbrev cc23_sem3_0 : DmaSem sig := 236
abbrev cc23_sem4_0 : DmaSem sig := 237
abbrev cc23_sem5_0 : DmaSem sig := 238
abbrev cc23_sem5_1 : DmaSem sig := 239
abbrev cc24_sem0_0 : DmaSem sig := 240
abbrev cc24_sem0_1 : DmaSem sig := 241
abbrev cc24_sem1_0 : DmaSem sig := 242
abbrev cc24_sem1_1 : DmaSem sig := 243
abbrev cc24_sem2_0 : DmaSem sig := 244
abbrev cc24_sem2_1 : DmaSem sig := 245
abbrev cc24_sem3_0 : DmaSem sig := 246
abbrev cc24_sem3_1 : DmaSem sig := 247
abbrev cc24_sem4_0 : DmaSem sig := 248
abbrev cc24_sem4_1 : DmaSem sig := 249
abbrev cc24_sem5_0 : DmaSem sig := 250
abbrev cc24_sem6_0 : DmaSem sig := 251
abbrev cc24_sem7_0 : DmaSem sig := 252
abbrev cc24_sem8_0 : DmaSem sig := 253
abbrev cc24_sem9_0 : DmaSem sig := 254
abbrev cc25_sem0_0 : DmaSem sig := 255
abbrev cc25_sem0_1 : DmaSem sig := 256
abbrev cc25_sem1_0 : DmaSem sig := 257
abbrev cc25_sem1_1 : DmaSem sig := 258
abbrev cc25_sem2_0 : DmaSem sig := 259
abbrev cc25_sem2_1 : DmaSem sig := 260
abbrev cc25_sem3_0 : DmaSem sig := 261
abbrev cc25_sem3_1 : DmaSem sig := 262
abbrev cc25_sem4_0 : DmaSem sig := 263
abbrev cc25_sem4_1 : DmaSem sig := 264
abbrev cc25_sem5_0 : DmaSem sig := 265
abbrev cc25_sem6_0 : DmaSem sig := 266
abbrev cc25_sem7_0 : DmaSem sig := 267
abbrev cc25_sem8_0 : DmaSem sig := 268
abbrev cc25_sem9_0 : DmaSem sig := 269
abbrev cc26_sem0_0 : DmaSem sig := 270
abbrev cc26_sem0_1 : DmaSem sig := 271
abbrev cc26_sem1_0 : DmaSem sig := 272
abbrev cc26_sem1_1 : DmaSem sig := 273
abbrev cc26_sem2_0 : DmaSem sig := 274
abbrev cc26_sem2_1 : DmaSem sig := 275
abbrev cc26_sem3_0 : DmaSem sig := 276
abbrev cc26_sem3_1 : DmaSem sig := 277
abbrev cc26_sem4_0 : DmaSem sig := 278
abbrev cc26_sem4_1 : DmaSem sig := 279
abbrev cc26_sem5_0 : DmaSem sig := 280
abbrev cc26_sem6_0 : DmaSem sig := 281
abbrev cc26_sem7_0 : DmaSem sig := 282
abbrev cc26_sem8_0 : DmaSem sig := 283
abbrev cc26_sem9_0 : DmaSem sig := 284

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S5000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def k12_cond2 (i : grid12.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S5000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 1 → Memref sig .tc .vmem S1x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![10], ![false]⟩

def k14_cond2 (i : grid14.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_8 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S128x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S128x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S5000x128 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev stage14_7 : Fin 1 → Memref sig .tc .vmem S1x128 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev stage14_8 : Fin 1 → Memref sig .tc .vmem S1x128 .f32 := fun | 0 => Memref.whole cc14_stg8_0 | ⟨_ + 1, h⟩ => absurd h (Nat.not_lt.2 (Nat.le_add_left _ _))
abbrev sem14_8 : Fin 1 → DmaSem sig := fun | 0 => cc14_sem8_0 | ⟨_ + 1, h⟩ => absurd h (Nat.not_lt.2 (Nat.le_add_left _ _))
abbrev reads14_8 : Fin grid14.rank → Bool := ![false]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![10], ![false]⟩

def k16_cond2 (i : grid16.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_8 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S128x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S128x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 2 → Memref sig .tc .vmem S5000x128 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev stage16_7 : Fin 1 → Memref sig .tc .vmem S1x128 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

abbrev stage16_8 : Fin 1 → Memref sig .tc .vmem S1x128 .f32 := fun | 0 => Memref.whole cc16_stg8_0 | ⟨_ + 1, h⟩ => absurd h (Nat.not_lt.2 (Nat.le_add_left _ _))
abbrev sem16_8 : Fin 1 → DmaSem sig := fun | 0 => cc16_sem8_0 | ⟨_ + 1, h⟩ => absurd h (Nat.not_lt.2 (Nat.le_add_left _ _))
abbrev reads16_8 : Fin grid16.rank → Bool := ![false]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S5000x128 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev grid18 : Pipeline.Grid := ⟨1, ![10], ![false]⟩

def k18_cond2 (i : grid18.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_7 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_8 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S5000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S128x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S128x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S1x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 2 → Memref sig .tc .vmem S5000x128 .f32 := fun | 0 => Memref.whole cc18_stg6_0 | 1 => Memref.whole cc18_stg6_1 | ⟨_ + 2, h⟩ => absurd h (Nat.not_lt.2 (Nat.le_add_left _ _))
abbrev sem18_6 : Fin 2 → DmaSem sig := fun | 0 => cc18_sem6_0 | 1 => cc18_sem6_1 | ⟨_ + 2, h⟩ => absurd h (Nat.not_lt.2 (Nat.le_add_left _ _))
abbrev reads18_6 : Fin grid18.rank → Bool := ![true]

abbrev stage18_7 : Fin 1 → Memref sig .tc .vmem S1x128 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))
abbrev reads18_7 : Fin grid18.rank → Bool := ![false]

abbrev stage18_8 : Fin 1 → Memref sig .tc .vmem S1x128 .f32 := fun | 0 => Memref.whole cc18_stg8_0 | ⟨_ + 1, h⟩ => absurd h (Nat.not_lt.2 (Nat.le_add_left _ _))
abbrev sem18_8 : Fin 1 → DmaSem sig := fun | 0 => cc18_sem8_0 | ⟨_ + 1, h⟩ => absurd h (Nat.not_lt.2 (Nat.le_add_left _ _))
abbrev reads18_8 : Fin grid18.rank → Bool := ![false]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S5000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![10], ![false]⟩

def k20_cond2 (i : grid20.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_7 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_8 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S5000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S5000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S128x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S128x128 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x128 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 1 → Memref sig .tc .vmem S1x128 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 2 → Memref sig .tc .vmem S5000x128 .f32 := fun | 0 => Memref.whole cc20_stg6_0 | 1 => Memref.whole cc20_stg6_1 | ⟨_ + 2, h⟩ => absurd h (Nat.not_lt.2 (Nat.le_add_left _ _))
abbrev sem20_6 : Fin 2 → DmaSem sig := fun | 0 => cc20_sem6_0 | 1 => cc20_sem6_1 | ⟨_ + 2, h⟩ => absurd h (Nat.not_lt.2 (Nat.le_add_left _ _))
abbrev reads20_6 : Fin grid20.rank → Bool := ![true]

abbrev stage20_7 : Fin 1 → Memref sig .tc .vmem S1x128 .f32 := fun | 0 => Memref.whole cc20_stg7_0 | ⟨_ + 1, h⟩ => absurd h (Nat.not_lt.2 (Nat.le_add_left _ _))
abbrev sem20_7 : Fin 1 → DmaSem sig := fun | 0 => cc20_sem7_0 | ⟨_ + 1, h⟩ => absurd h (Nat.not_lt.2 (Nat.le_add_left _ _))
abbrev reads20_7 : Fin grid20.rank → Bool := ![false]

abbrev stage20_8 : Fin 1 → Memref sig .tc .vmem S1x128 .f32 := fun | 0 => Memref.whole cc20_stg8_0 | ⟨_ + 1, h⟩ => absurd h (Nat.not_lt.2 (Nat.le_add_left _ _))
abbrev sem20_8 : Fin 1 → DmaSem sig := fun | 0 => cc20_sem8_0 | ⟨_ + 1, h⟩ => absurd h (Nat.not_lt.2 (Nat.le_add_left _ _))
abbrev reads20_8 : Fin grid20.rank → Bool := ![false]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x128 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x128 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 2 → Memref sig .tc .vmem S5000x128 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true]

abbrev grid22 : Pipeline.Grid := ⟨1, ![10], ![false]⟩

def k22_cond2 (i : grid22.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_26 : BitVec 32 := 0#32
  let v47 : BitVec 1 := Scalar.cmpi .ne v46 c0_i32_26
  v47

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_7 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_8 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage22_0 : Fin 2 → Memref sig .tc .vmem S5000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S5000x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 1 → Memref sig .tc .vmem S128x128 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S128x128 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S1x128 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 1 → Memref sig .tc .vmem S1x128 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 2 → Memref sig .tc .vmem S5000x128 .f32 := fun | 0 => Memref.whole cc22_stg6_0 | 1 => Memref.whole cc22_stg6_1 | ⟨_ + 2, h⟩ => absurd h (Nat.not_lt.2 (Nat.le_add_left _ _))
abbrev sem22_6 : Fin 2 → DmaSem sig := fun | 0 => cc22_sem6_0 | 1 => cc22_sem6_1 | ⟨_ + 2, h⟩ => absurd h (Nat.not_lt.2 (Nat.le_add_left _ _))
abbrev reads22_6 : Fin grid22.rank → Bool := ![true]

abbrev stage22_7 : Fin 1 → Memref sig .tc .vmem S1x128 .f32 := fun | 0 => Memref.whole cc22_stg7_0 | ⟨_ + 1, h⟩ => absurd h (Nat.not_lt.2 (Nat.le_add_left _ _))
abbrev sem22_7 : Fin 1 → DmaSem sig := fun | 0 => cc22_sem7_0 | ⟨_ + 1, h⟩ => absurd h (Nat.not_lt.2 (Nat.le_add_left _ _))
abbrev reads22_7 : Fin grid22.rank → Bool := ![false]

abbrev stage22_8 : Fin 1 → Memref sig .tc .vmem S1x128 .f32 := fun | 0 => Memref.whole cc22_stg8_0 | ⟨_ + 1, h⟩ => absurd h (Nat.not_lt.2 (Nat.le_add_left _ _))
abbrev sem22_8 : Fin 1 → DmaSem sig := fun | 0 => cc22_sem8_0 | ⟨_ + 1, h⟩ => absurd h (Nat.not_lt.2 (Nat.le_add_left _ _))
abbrev reads22_8 : Fin grid22.rank → Bool := ![false]

abbrev grid23 : Pipeline.Grid := ⟨1, ![10], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_5 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S5000x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x128 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S1x128 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 1 → Memref sig .tc .vmem S1x128 .f32 := fun | 0 => Memref.whole cc23_stg4_0 | ⟨_ + 1, h⟩ => absurd h (Nat.not_lt.2 (Nat.le_add_left _ _))
abbrev sem23_4 : Fin 1 → DmaSem sig := fun | 0 => cc23_sem4_0 | ⟨_ + 1, h⟩ => absurd h (Nat.not_lt.2 (Nat.le_add_left _ _))
abbrev reads23_4 : Fin grid23.rank → Bool := ![false]

abbrev stage23_5 : Fin 2 → Memref sig .tc .vmem S5000x128 .f32 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![true]

abbrev grid24 : Pipeline.Grid := ⟨1, ![10], ![false]⟩

def k24_cond2 (i : grid24.Coords) : BitVec 1 :=
  let arg0 : BitVec 32 := BitVec.ofNat 32 (i 0).val
  let c9_i32 : BitVec 32 := 9#32
  let v54 : BitVec 1 := Scalar.cmpi .eq arg0 c9_i32
  let v55 : BitVec 32 := Scalar.extui v54
  let c0_i32_35 : BitVec 32 := 0#32
  let v56 : BitVec 1 := Scalar.cmpi .ne v55 c0_i32_35
  v56

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_3 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_4 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_5 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_6 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_7 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_8 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_9 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage24_0 : Fin 2 → Memref sig .tc .vmem S5000x1 .i32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S5000x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 2 → Memref sig .tc .vmem S5000x128 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev stage24_3 : Fin 2 → Memref sig .tc .vmem S5000x128 .f32 := fun | 0 => Memref.whole cc24_stg3_0 | 1 => Memref.whole cc24_stg3_1 | ⟨_ + 2, h⟩ => absurd h (Nat.not_lt.2 (Nat.le_add_left _ _))
abbrev sem24_3 : Fin 2 → DmaSem sig := fun | 0 => cc24_sem3_0 | 1 => cc24_sem3_1 | ⟨_ + 2, h⟩ => absurd h (Nat.not_lt.2 (Nat.le_add_left _ _))
abbrev reads24_3 : Fin grid24.rank → Bool := ![true]

abbrev stage24_4 : Fin 2 → Memref sig .tc .vmem S5000x128 .f32 := fun | 0 => Memref.whole cc24_stg4_0 | 1 => Memref.whole cc24_stg4_1 | ⟨_ + 2, h⟩ => absurd h (Nat.not_lt.2 (Nat.le_add_left _ _))
abbrev sem24_4 : Fin 2 → DmaSem sig := fun | 0 => cc24_sem4_0 | 1 => cc24_sem4_1 | ⟨_ + 2, h⟩ => absurd h (Nat.not_lt.2 (Nat.le_add_left _ _))
abbrev reads24_4 : Fin grid24.rank → Bool := ![true]

abbrev stage24_5 : Fin 1 → Memref sig .tc .vmem S64x128 .f32 := fun | 0 => Memref.whole cc24_stg5_0 | ⟨_ + 1, h⟩ => absurd h (Nat.not_lt.2 (Nat.le_add_left _ _))
abbrev sem24_5 : Fin 1 → DmaSem sig := fun | 0 => cc24_sem5_0 | ⟨_ + 1, h⟩ => absurd h (Nat.not_lt.2 (Nat.le_add_left _ _))
abbrev reads24_5 : Fin grid24.rank → Bool := ![false]

abbrev stage24_6 : Fin 1 → Memref sig .tc .vmem S64x128 .f32 := fun | 0 => Memref.whole cc24_stg6_0 | ⟨_ + 1, h⟩ => absurd h (Nat.not_lt.2 (Nat.le_add_left _ _))
abbrev sem24_6 : Fin 1 → DmaSem sig := fun | 0 => cc24_sem6_0 | ⟨_ + 1, h⟩ => absurd h (Nat.not_lt.2 (Nat.le_add_left _ _))
abbrev reads24_6 : Fin grid24.rank → Bool := ![false]

abbrev stage24_7 : Fin 1 → Memref sig .tc .vmem S64x128 .f32 := fun | 0 => Memref.whole cc24_stg7_0 | ⟨_ + 1, h⟩ => absurd h (Nat.not_lt.2 (Nat.le_add_left _ _))
abbrev sem24_7 : Fin 1 → DmaSem sig := fun | 0 => cc24_sem7_0 | ⟨_ + 1, h⟩ => absurd h (Nat.not_lt.2 (Nat.le_add_left _ _))
abbrev reads24_7 : Fin grid24.rank → Bool := ![false]

abbrev stage24_8 : Fin 1 → Memref sig .tc .vmem S64x128 .f32 := fun | 0 => Memref.whole cc24_stg8_0 | ⟨_ + 1, h⟩ => absurd h (Nat.not_lt.2 (Nat.le_add_left _ _))
abbrev sem24_8 : Fin 1 → DmaSem sig := fun | 0 => cc24_sem8_0 | ⟨_ + 1, h⟩ => absurd h (Nat.not_lt.2 (Nat.le_add_left _ _))
abbrev reads24_8 : Fin grid24.rank → Bool := ![false]

abbrev stage24_9 : Fin 1 → Memref sig .tc .vmem S64x1 .f32 := fun | 0 => Memref.whole cc24_stg9_0 | ⟨_ + 1, h⟩ => absurd h (Nat.not_lt.2 (Nat.le_add_left _ _))
abbrev sem24_9 : Fin 1 → DmaSem sig := fun | 0 => cc24_sem9_0 | ⟨_ + 1, h⟩ => absurd h (Nat.not_lt.2 (Nat.le_add_left _ _))
abbrev reads24_9 : Fin grid24.rank → Bool := ![false]

abbrev grid25 : Pipeline.Grid := ⟨1, ![10], ![false]⟩

def k25_cond2 (i : grid25.Coords) : BitVec 1 :=
  let arg0 : BitVec 32 := BitVec.ofNat 32 (i 0).val
  let c9_i32 : BitVec 32 := 9#32
  let v54 : BitVec 1 := Scalar.cmpi .eq arg0 c9_i32
  let v55 : BitVec 32 := Scalar.extui v54
  let c0_i32_35 : BitVec 32 := 0#32
  let v56 : BitVec 1 := Scalar.cmpi .ne v55 c0_i32_35
  v56

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_3 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_4 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_5 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_6 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_7 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_8 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_9 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage25_0 : Fin 2 → Memref sig .tc .vmem S5000x1 .i32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S5000x128 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev stage25_2 : Fin 2 → Memref sig .tc .vmem S5000x128 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev stage25_3 : Fin 2 → Memref sig .tc .vmem S5000x128 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

abbrev stage25_4 : Fin 2 → Memref sig .tc .vmem S5000x128 .f32 := fun | 0 => Memref.whole cc25_stg4_0 | 1 => Memref.whole cc25_stg4_1 | ⟨_ + 2, h⟩ => absurd h (Nat.not_lt.2 (Nat.le_add_left _ _))
abbrev sem25_4 : Fin 2 → DmaSem sig := fun | 0 => cc25_sem4_0 | 1 => cc25_sem4_1 | ⟨_ + 2, h⟩ => absurd h (Nat.not_lt.2 (Nat.le_add_left _ _))
abbrev reads25_4 : Fin grid25.rank → Bool := ![true]

abbrev stage25_5 : Fin 1 → Memref sig .tc .vmem S64x128 .f32 := fun | 0 => Memref.whole cc25_stg5_0 | ⟨_ + 1, h⟩ => absurd h (Nat.not_lt.2 (Nat.le_add_left _ _))
abbrev sem25_5 : Fin 1 → DmaSem sig := fun | 0 => cc25_sem5_0 | ⟨_ + 1, h⟩ => absurd h (Nat.not_lt.2 (Nat.le_add_left _ _))
abbrev reads25_5 : Fin grid25.rank → Bool := ![false]

abbrev stage25_6 : Fin 1 → Memref sig .tc .vmem S64x128 .f32 := fun | 0 => Memref.whole cc25_stg6_0 | ⟨_ + 1, h⟩ => absurd h (Nat.not_lt.2 (Nat.le_add_left _ _))
abbrev sem25_6 : Fin 1 → DmaSem sig := fun | 0 => cc25_sem6_0 | ⟨_ + 1, h⟩ => absurd h (Nat.not_lt.2 (Nat.le_add_left _ _))
abbrev reads25_6 : Fin grid25.rank → Bool := ![false]

abbrev stage25_7 : Fin 1 → Memref sig .tc .vmem S64x128 .f32 := fun | 0 => Memref.whole cc25_stg7_0 | ⟨_ + 1, h⟩ => absurd h (Nat.not_lt.2 (Nat.le_add_left _ _))
abbrev sem25_7 : Fin 1 → DmaSem sig := fun | 0 => cc25_sem7_0 | ⟨_ + 1, h⟩ => absurd h (Nat.not_lt.2 (Nat.le_add_left _ _))
abbrev reads25_7 : Fin grid25.rank → Bool := ![false]

abbrev stage25_8 : Fin 1 → Memref sig .tc .vmem S64x128 .f32 := fun | 0 => Memref.whole cc25_stg8_0 | ⟨_ + 1, h⟩ => absurd h (Nat.not_lt.2 (Nat.le_add_left _ _))
abbrev sem25_8 : Fin 1 → DmaSem sig := fun | 0 => cc25_sem8_0 | ⟨_ + 1, h⟩ => absurd h (Nat.not_lt.2 (Nat.le_add_left _ _))
abbrev reads25_8 : Fin grid25.rank → Bool := ![false]

abbrev stage25_9 : Fin 1 → Memref sig .tc .vmem S64x1 .f32 := fun | 0 => Memref.whole cc25_stg9_0 | ⟨_ + 1, h⟩ => absurd h (Nat.not_lt.2 (Nat.le_add_left _ _))
abbrev sem25_9 : Fin 1 → DmaSem sig := fun | 0 => cc25_sem9_0 | ⟨_ + 1, h⟩ => absurd h (Nat.not_lt.2 (Nat.le_add_left _ _))
abbrev reads25_9 : Fin grid25.rank → Bool := ![false]

abbrev grid26 : Pipeline.Grid := ⟨1, ![10], ![false]⟩

def k26_cond2 (i : grid26.Coords) : BitVec 1 :=
  let arg0 : BitVec 32 := BitVec.ofNat 32 (i 0).val
  let c9_i32 : BitVec 32 := 9#32
  let v54 : BitVec 1 := Scalar.cmpi .eq arg0 c9_i32
  let v55 : BitVec 32 := Scalar.extui v54
  let c0_i32_35 : BitVec 32 := 0#32
  let v56 : BitVec 1 := Scalar.cmpi .ne v55 c0_i32_35
  v56

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_3 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_4 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_5 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_6 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_7 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_8 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_9 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage26_0 : Fin 2 → Memref sig .tc .vmem S5000x1 .i32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 2 → Memref sig .tc .vmem S5000x128 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true]

abbrev stage26_2 : Fin 2 → Memref sig .tc .vmem S5000x128 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![true]

abbrev stage26_3 : Fin 2 → Memref sig .tc .vmem S5000x128 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev stage26_4 : Fin 2 → Memref sig .tc .vmem S5000x128 .f32 := fun | 0 => Memref.whole cc26_stg4_0 | 1 => Memref.whole cc26_stg4_1 | ⟨_ + 2, h⟩ => absurd h (Nat.not_lt.2 (Nat.le_add_left _ _))
abbrev sem26_4 : Fin 2 → DmaSem sig := fun | 0 => cc26_sem4_0 | 1 => cc26_sem4_1 | ⟨_ + 2, h⟩ => absurd h (Nat.not_lt.2 (Nat.le_add_left _ _))
abbrev reads26_4 : Fin grid26.rank → Bool := ![true]

abbrev stage26_5 : Fin 1 → Memref sig .tc .vmem S64x128 .f32 := fun | 0 => Memref.whole cc26_stg5_0 | ⟨_ + 1, h⟩ => absurd h (Nat.not_lt.2 (Nat.le_add_left _ _))
abbrev sem26_5 : Fin 1 → DmaSem sig := fun | 0 => cc26_sem5_0 | ⟨_ + 1, h⟩ => absurd h (Nat.not_lt.2 (Nat.le_add_left _ _))
abbrev reads26_5 : Fin grid26.rank → Bool := ![false]

abbrev stage26_6 : Fin 1 → Memref sig .tc .vmem S64x128 .f32 := fun | 0 => Memref.whole cc26_stg6_0 | ⟨_ + 1, h⟩ => absurd h (Nat.not_lt.2 (Nat.le_add_left _ _))
abbrev sem26_6 : Fin 1 → DmaSem sig := fun | 0 => cc26_sem6_0 | ⟨_ + 1, h⟩ => absurd h (Nat.not_lt.2 (Nat.le_add_left _ _))
abbrev reads26_6 : Fin grid26.rank → Bool := ![false]

abbrev stage26_7 : Fin 1 → Memref sig .tc .vmem S64x128 .f32 := fun | 0 => Memref.whole cc26_stg7_0 | ⟨_ + 1, h⟩ => absurd h (Nat.not_lt.2 (Nat.le_add_left _ _))
abbrev sem26_7 : Fin 1 → DmaSem sig := fun | 0 => cc26_sem7_0 | ⟨_ + 1, h⟩ => absurd h (Nat.not_lt.2 (Nat.le_add_left _ _))
abbrev reads26_7 : Fin grid26.rank → Bool := ![false]

abbrev stage26_8 : Fin 1 → Memref sig .tc .vmem S64x128 .f32 := fun | 0 => Memref.whole cc26_stg8_0 | ⟨_ + 1, h⟩ => absurd h (Nat.not_lt.2 (Nat.le_add_left _ _))
abbrev sem26_8 : Fin 1 → DmaSem sig := fun | 0 => cc26_sem8_0 | ⟨_ + 1, h⟩ => absurd h (Nat.not_lt.2 (Nat.le_add_left _ _))
abbrev reads26_8 : Fin grid26.rank → Bool := ![false]

abbrev stage26_9 : Fin 1 → Memref sig .tc .vmem S64x1 .f32 := fun | 0 => Memref.whole cc26_stg9_0 | ⟨_ + 1, h⟩ => absurd h (Nat.not_lt.2 (Nat.le_add_left _ _))
abbrev sem26_9 : Fin 1 → DmaSem sig := fun | 0 => cc26_sem9_0 | ⟨_ + 1, h⟩ => absurd h (Nat.not_lt.2 (Nat.le_add_left _ _))
abbrev reads26_9 : Fin grid26.rank → Bool := ![false]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x128.size a ≤ S50000x128.size a
  hwx10_6 : ∀ i : grid10.Coords, EltTy.bits .f32 = 32 ∨ (Rect.block (s := S50000x128) S5000x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S50000x128.size a
  hwx12_1 : ∀ i : grid12.Coords, EltTy.bits .f32 = 32 ∨ (Rect.block (s := S50000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x128.size a ≤ S128x128.size a
  hwx12_3 : ∀ i : grid12.Coords, EltTy.bits .f32 = 32 ∨ (Rect.block (s := S128x128) S128x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x128.size a ≤ S50000x128.size a
  hwx12_6 : ∀ i : grid12.Coords, EltTy.bits .f32 = 32 ∨ (Rect.block (s := S50000x128) S5000x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x128.size a ≤ S1x128.size a
  hwx12_7 : ∀ i : grid12.Coords, EltTy.bits .f32 = 32 ∨ (Rect.block (s := S1x128) S1x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x128.size a ≤ S1x128.size a
  hwx12_8 : ∀ i : grid12.Coords, EltTy.bits .f32 = 32 ∨ (Rect.block (s := S1x128) S1x128.size (cc12_transform_8 i) (hinb12_8 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S50000x128.size a
  hwx13_5 : ∀ i : grid13.Coords, EltTy.bits .f32 = 32 ∨ (Rect.block (s := S50000x128) S5000x128.size (cc13_transform_5 i) (hinb13_5 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S50000x128.size a
  hwx14_1 : ∀ i : grid14.Coords, EltTy.bits .f32 = 32 ∨ (Rect.block (s := S50000x128) S5000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x128.size a ≤ S128x128.size a
  hwx14_2 : ∀ i : grid14.Coords, EltTy.bits .f32 = 32 ∨ (Rect.block (s := S128x128) S128x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128x128.size a ≤ S128x128.size a
  hwx14_3 : ∀ i : grid14.Coords, EltTy.bits .f32 = 32 ∨ (Rect.block (s := S128x128) S128x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x128.size a ≤ S1x128.size a
  hwx14_5 : ∀ i : grid14.Coords, EltTy.bits .f32 = 32 ∨ (Rect.block (s := S1x128) S1x128.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S5000x128.size a ≤ S50000x128.size a
  hwx14_6 : ∀ i : grid14.Coords, EltTy.bits .f32 = 32 ∨ (Rect.block (s := S50000x128) S5000x128.size (cc14_transform_6 i) (hinb14_6 i)).WholeWords (EltTy.packing .f32)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S1x128.size a ≤ S1x128.size a
  hwx14_7 : ∀ i : grid14.Coords, EltTy.bits .f32 = 32 ∨ (Rect.block (s := S1x128) S1x128.size (cc14_transform_7 i) (hinb14_7 i)).WholeWords (EltTy.packing .f32)
  hstage14_8 : ∀ j, (stage14_8 j).IsWhole
  nbuf14_8 : grid14.bufCount reads14_8 true = 1
  hreads14_8 : ∀ i i' : grid14.Coords, (∀ a, reads14_8 a = true → i a = i' a) → cc14_transform_8 i = cc14_transform_8 i'
  hinb14_8 : ∀ (i : grid14.Coords) a, (cc14_transform_8 i a + 1) * S1x128.size a ≤ S1x128.size a
  hwx14_8 : ∀ i : grid14.Coords, EltTy.bits .f32 = 32 ∨ (Rect.block (s := S1x128) S1x128.size (cc14_transform_8 i) (hinb14_8 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x128.size a ≤ S50000x128.size a
  hwx15_5 : ∀ i : grid15.Coords, EltTy.bits .f32 = 32 ∨ (Rect.block (s := S50000x128) S5000x128.size (cc15_transform_5 i) (hinb15_5 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x128.size a ≤ S50000x128.size a
  hwx16_1 : ∀ i : grid16.Coords, EltTy.bits .f32 = 32 ∨ (Rect.block (s := S50000x128) S5000x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S128x128.size a ≤ S128x128.size a
  hwx16_2 : ∀ i : grid16.Coords, EltTy.bits .f32 = 32 ∨ (Rect.block (s := S128x128) S128x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x128.size a ≤ S128x128.size a
  hwx16_3 : ∀ i : grid16.Coords, EltTy.bits .f32 = 32 ∨ (Rect.block (s := S128x128) S128x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x128.size a ≤ S1x128.size a
  hwx16_5 : ∀ i : grid16.Coords, EltTy.bits .f32 = 32 ∨ (Rect.block (s := S1x128) S1x128.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S5000x128.size a ≤ S50000x128.size a
  hwx16_6 : ∀ i : grid16.Coords, EltTy.bits .f32 = 32 ∨ (Rect.block (s := S50000x128) S5000x128.size (cc16_transform_6 i) (hinb16_6 i)).WholeWords (EltTy.packing .f32)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S1x128.size a ≤ S1x128.size a
  hwx16_7 : ∀ i : grid16.Coords, EltTy.bits .f32 = 32 ∨ (Rect.block (s := S1x128) S1x128.size (cc16_transform_7 i) (hinb16_7 i)).WholeWords (EltTy.packing .f32)
  hstage16_8 : ∀ j, (stage16_8 j).IsWhole
  nbuf16_8 : grid16.bufCount reads16_8 true = 1
  hreads16_8 : ∀ i i' : grid16.Coords, (∀ a, reads16_8 a = true → i a = i' a) → cc16_transform_8 i = cc16_transform_8 i'
  hinb16_8 : ∀ (i : grid16.Coords) a, (cc16_transform_8 i a + 1) * S1x128.size a ≤ S1x128.size a
  hwx16_8 : ∀ i : grid16.Coords, EltTy.bits .f32 = 32 ∨ (Rect.block (s := S1x128) S1x128.size (cc16_transform_8 i) (hinb16_8 i)).WholeWords (EltTy.packing .f32)

class K17.Facts₀ : Prop where
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S50000x128.size a
  hwx17_0 : ∀ i : grid17.Coords, EltTy.bits .f32 = 32 ∨ (Rect.block (s := S50000x128) S5000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x128.size a ≤ S1x128.size a
  hwx17_4 : ∀ i : grid17.Coords, EltTy.bits .f32 = 32 ∨ (Rect.block (s := S1x128) S1x128.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S5000x128.size a ≤ S50000x128.size a
  hwx17_5 : ∀ i : grid17.Coords, EltTy.bits .f32 = 32 ∨ (Rect.block (s := S50000x128) S5000x128.size (cc17_transform_5 i) (hinb17_5 i)).WholeWords (EltTy.packing .f32)

class K18.Facts₀ : Prop where
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x128.size a ≤ S50000x128.size a
  hwx18_0 : ∀ i : grid18.Coords, EltTy.bits .f32 = 32 ∨ (Rect.block (s := S50000x128) S5000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x128.size a ≤ S50000x128.size a
  hwx18_1 : ∀ i : grid18.Coords, EltTy.bits .f32 = 32 ∨ (Rect.block (s := S50000x128) S5000x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128x128.size a ≤ S128x128.size a
  hwx18_2 : ∀ i : grid18.Coords, EltTy.bits .f32 = 32 ∨ (Rect.block (s := S128x128) S128x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S128x128.size a ≤ S128x128.size a
  hwx18_3 : ∀ i : grid18.Coords, EltTy.bits .f32 = 32 ∨ (Rect.block (s := S128x128) S128x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S1x128.size a ≤ S1x128.size a
  hwx18_5 : ∀ i : grid18.Coords, EltTy.bits .f32 = 32 ∨ (Rect.block (s := S1x128) S1x128.size (cc18_transform_5 i) (hinb18_5 i)).WholeWords (EltTy.packing .f32)
  hstage18_6 : ∀ j, (stage18_6 j).IsWhole
  nbuf18_6 : grid18.bufCount reads18_6 false = 2
  hreads18_6 : ∀ i i' : grid18.Coords, (∀ a, reads18_6 a = true → i a = i' a) → cc18_transform_6 i = cc18_transform_6 i'
  hinb18_6 : ∀ (i : grid18.Coords) a, (cc18_transform_6 i a + 1) * S5000x128.size a ≤ S50000x128.size a
  hwx18_6 : ∀ i : grid18.Coords, EltTy.bits .f32 = 32 ∨ (Rect.block (s := S50000x128) S5000x128.size (cc18_transform_6 i) (hinb18_6 i)).WholeWords (EltTy.packing .f32)
  hstage18_7 : ∀ j, (stage18_7 j).IsWhole
  nbuf18_7 : grid18.bufCount reads18_7 true = 1
  hreads18_7 : ∀ i i' : grid18.Coords, (∀ a, reads18_7 a = true → i a = i' a) → cc18_transform_7 i = cc18_transform_7 i'
  hinb18_7 : ∀ (i : grid18.Coords) a, (cc18_transform_7 i a + 1) * S1x128.size a ≤ S1x128.size a
  hwx18_7 : ∀ i : grid18.Coords, EltTy.bits .f32 = 32 ∨ (Rect.block (s := S1x128) S1x128.size (cc18_transform_7 i) (hinb18_7 i)).WholeWords (EltTy.packing .f32)
  hstage18_8 : ∀ j, (stage18_8 j).IsWhole
  nbuf18_8 : grid18.bufCount reads18_8 true = 1
  hreads18_8 : ∀ i i' : grid18.Coords, (∀ a, reads18_8 a = true → i a = i' a) → cc18_transform_8 i = cc18_transform_8 i'
  hinb18_8 : ∀ (i : grid18.Coords) a, (cc18_transform_8 i a + 1) * S1x128.size a ≤ S1x128.size a
  hwx18_8 : ∀ i : grid18.Coords, EltTy.bits .f32 = 32 ∨ (Rect.block (s := S1x128) S1x128.size (cc18_transform_8 i) (hinb18_8 i)).WholeWords (EltTy.packing .f32)

class K19.Facts₀ : Prop where
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S50000x128.size a
  hwx19_0 : ∀ i : grid19.Coords, EltTy.bits .f32 = 32 ∨ (Rect.block (s := S50000x128) S5000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128.size a ≤ S1x128.size a
  hwx19_1 : ∀ i : grid19.Coords, EltTy.bits .f32 = 32 ∨ (Rect.block (s := S1x128) S1x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x128.size a ≤ S1x128.size a
  hwx19_2 : ∀ i : grid19.Coords, EltTy.bits .f32 = 32 ∨ (Rect.block (s := S1x128) S1x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x128.size a ≤ S1x128.size a
  hwx19_3 : ∀ i : grid19.Coords, EltTy.bits .f32 = 32 ∨ (Rect.block (s := S1x128) S1x128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x128.size a ≤ S1x128.size a
  hwx19_4 : ∀ i : grid19.Coords, EltTy.bits .f32 = 32 ∨ (Rect.block (s := S1x128) S1x128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S5000x128.size a ≤ S50000x128.size a
  hwx19_5 : ∀ i : grid19.Coords, EltTy.bits .f32 = 32 ∨ (Rect.block (s := S50000x128) S5000x128.size (cc19_transform_5 i) (hinb19_5 i)).WholeWords (EltTy.packing .f32)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x128.size a ≤ S50000x128.size a
  hwx20_0 : ∀ i : grid20.Coords, EltTy.bits .f32 = 32 ∨ (Rect.block (s := S50000x128) S5000x128.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S5000x128.size a ≤ S50000x128.size a
  hwx20_1 : ∀ i : grid20.Coords, EltTy.bits .f32 = 32 ∨ (Rect.block (s := S50000x128) S5000x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S128x128.size a ≤ S128x128.size a
  hwx20_2 : ∀ i : grid20.Coords, EltTy.bits .f32 = 32 ∨ (Rect.block (s := S128x128) S128x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S128x128.size a ≤ S128x128.size a
  hwx20_3 : ∀ i : grid20.Coords, EltTy.bits .f32 = 32 ∨ (Rect.block (s := S128x128) S128x128.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x128.size a ≤ S1x128.size a
  hwx20_4 : ∀ i : grid20.Coords, EltTy.bits .f32 = 32 ∨ (Rect.block (s := S1x128) S1x128.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x128.size a ≤ S1x128.size a
  hwx20_5 : ∀ i : grid20.Coords, EltTy.bits .f32 = 32 ∨ (Rect.block (s := S1x128) S1x128.size (cc20_transform_5 i) (hinb20_5 i)).WholeWords (EltTy.packing .f32)
  hstage20_6 : ∀ j, (stage20_6 j).IsWhole
  nbuf20_6 : grid20.bufCount reads20_6 false = 2
  hreads20_6 : ∀ i i' : grid20.Coords, (∀ a, reads20_6 a = true → i a = i' a) → cc20_transform_6 i = cc20_transform_6 i'
  hinb20_6 : ∀ (i : grid20.Coords) a, (cc20_transform_6 i a + 1) * S5000x128.size a ≤ S50000x128.size a
  hwx20_6 : ∀ i : grid20.Coords, EltTy.bits .f32 = 32 ∨ (Rect.block (s := S50000x128) S5000x128.size (cc20_transform_6 i) (hinb20_6 i)).WholeWords (EltTy.packing .f32)
  hstage20_7 : ∀ j, (stage20_7 j).IsWhole
  nbuf20_7 : grid20.bufCount reads20_7 true = 1
  hreads20_7 : ∀ i i' : grid20.Coords, (∀ a, reads20_7 a = true → i a = i' a) → cc20_transform_7 i = cc20_transform_7 i'
  hinb20_7 : ∀ (i : grid20.Coords) a, (cc20_transform_7 i a + 1) * S1x128.size a ≤ S1x128.size a
  hwx20_7 : ∀ i : grid20.Coords, EltTy.bits .f32 = 32 ∨ (Rect.block (s := S1x128) S1x128.size (cc20_transform_7 i) (hinb20_7 i)).WholeWords (EltTy.packing .f32)
  hstage20_8 : ∀ j, (stage20_8 j).IsWhole
  nbuf20_8 : grid20.bufCount reads20_8 true = 1
  hreads20_8 : ∀ i i' : grid20.Coords, (∀ a, reads20_8 a = true → i a = i' a) → cc20_transform_8 i = cc20_transform_8 i'
  hinb20_8 : ∀ (i : grid20.Coords) a, (cc20_transform_8 i a + 1) * S1x128.size a ≤ S1x128.size a
  hwx20_8 : ∀ i : grid20.Coords, EltTy.bits .f32 = 32 ∨ (Rect.block (s := S1x128) S1x128.size (cc20_transform_8 i) (hinb20_8 i)).WholeWords (EltTy.packing .f32)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x128.size a ≤ S50000x128.size a
  hwx21_0 : ∀ i : grid21.Coords, EltTy.bits .f32 = 32 ∨ (Rect.block (s := S50000x128) S5000x128.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x128.size a ≤ S1x128.size a
  hwx21_1 : ∀ i : grid21.Coords, EltTy.bits .f32 = 32 ∨ (Rect.block (s := S1x128) S1x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x128.size a ≤ S1x128.size a
  hwx21_3 : ∀ i : grid21.Coords, EltTy.bits .f32 = 32 ∨ (Rect.block (s := S1x128) S1x128.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x128.size a ≤ S1x128.size a
  hwx21_4 : ∀ i : grid21.Coords, EltTy.bits .f32 = 32 ∨ (Rect.block (s := S1x128) S1x128.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S5000x128.size a ≤ S50000x128.size a
  hwx21_5 : ∀ i : grid21.Coords, EltTy.bits .f32 = 32 ∨ (Rect.block (s := S50000x128) S5000x128.size (cc21_transform_5 i) (hinb21_5 i)).WholeWords (EltTy.packing .f32)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x128.size a ≤ S50000x128.size a
  hwx22_0 : ∀ i : grid22.Coords, EltTy.bits .f32 = 32 ∨ (Rect.block (s := S50000x128) S5000x128.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S5000x128.size a ≤ S50000x128.size a
  hwx22_1 : ∀ i : grid22.Coords, EltTy.bits .f32 = 32 ∨ (Rect.block (s := S50000x128) S5000x128.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S128x128.size a ≤ S128x128.size a
  hwx22_2 : ∀ i : grid22.Coords, EltTy.bits .f32 = 32 ∨ (Rect.block (s := S128x128) S128x128.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S128x128.size a ≤ S128x128.size a
  hwx22_3 : ∀ i : grid22.Coords, EltTy.bits .f32 = 32 ∨ (Rect.block (s := S128x128) S128x128.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S1x128.size a ≤ S1x128.size a
  hwx22_4 : ∀ i : grid22.Coords, EltTy.bits .f32 = 32 ∨ (Rect.block (s := S1x128) S1x128.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S1x128.size a ≤ S1x128.size a
  hwx22_5 : ∀ i : grid22.Coords, EltTy.bits .f32 = 32 ∨ (Rect.block (s := S1x128) S1x128.size (cc22_transform_5 i) (hinb22_5 i)).WholeWords (EltTy.packing .f32)
  hstage22_6 : ∀ j, (stage22_6 j).IsWhole
  nbuf22_6 : grid22.bufCount reads22_6 false = 2
  hreads22_6 : ∀ i i' : grid22.Coords, (∀ a, reads22_6 a = true → i a = i' a) → cc22_transform_6 i = cc22_transform_6 i'
  hinb22_6 : ∀ (i : grid22.Coords) a, (cc22_transform_6 i a + 1) * S5000x128.size a ≤ S50000x128.size a
  hwx22_6 : ∀ i : grid22.Coords, EltTy.bits .f32 = 32 ∨ (Rect.block (s := S50000x128) S5000x128.size (cc22_transform_6 i) (hinb22_6 i)).WholeWords (EltTy.packing .f32)
  hstage22_7 : ∀ j, (stage22_7 j).IsWhole
  nbuf22_7 : grid22.bufCount reads22_7 true = 1
  hreads22_7 : ∀ i i' : grid22.Coords, (∀ a, reads22_7 a = true → i a = i' a) → cc22_transform_7 i = cc22_transform_7 i'
  hinb22_7 : ∀ (i : grid22.Coords) a, (cc22_transform_7 i a + 1) * S1x128.size a ≤ S1x128.size a
  hwx22_7 : ∀ i : grid22.Coords, EltTy.bits .f32 = 32 ∨ (Rect.block (s := S1x128) S1x128.size (cc22_transform_7 i) (hinb22_7 i)).WholeWords (EltTy.packing .f32)
  hstage22_8 : ∀ j, (stage22_8 j).IsWhole
  nbuf22_8 : grid22.bufCount reads22_8 true = 1
  hreads22_8 : ∀ i i' : grid22.Coords, (∀ a, reads22_8 a = true → i a = i' a) → cc22_transform_8 i = cc22_transform_8 i'
  hinb22_8 : ∀ (i : grid22.Coords) a, (cc22_transform_8 i a + 1) * S1x128.size a ≤ S1x128.size a
  hwx22_8 : ∀ i : grid22.Coords, EltTy.bits .f32 = 32 ∨ (Rect.block (s := S1x128) S1x128.size (cc22_transform_8 i) (hinb22_8 i)).WholeWords (EltTy.packing .f32)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S5000x128.size a ≤ S50000x128.size a
  hwx23_0 : ∀ i : grid23.Coords, EltTy.bits .f32 = 32 ∨ (Rect.block (s := S50000x128) S5000x128.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x128.size a ≤ S1x128.size a
  hwx23_1 : ∀ i : grid23.Coords, EltTy.bits .f32 = 32 ∨ (Rect.block (s := S1x128) S1x128.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x128.size a ≤ S1x128.size a
  hwx23_2 : ∀ i : grid23.Coords, EltTy.bits .f32 = 32 ∨ (Rect.block (s := S1x128) S1x128.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S1x128.size a ≤ S1x128.size a
  hwx23_3 : ∀ i : grid23.Coords, EltTy.bits .f32 = 32 ∨ (Rect.block (s := S1x128) S1x128.size (cc23_transform_3 i) (hinb23_3 i)).WholeWords (EltTy.packing .f32)
  hstage23_4 : ∀ j, (stage23_4 j).IsWhole
  nbuf23_4 : grid23.bufCount reads23_4 true = 1
  hreads23_4 : ∀ i i' : grid23.Coords, (∀ a, reads23_4 a = true → i a = i' a) → cc23_transform_4 i = cc23_transform_4 i'
  hinb23_4 : ∀ (i : grid23.Coords) a, (cc23_transform_4 i a + 1) * S1x128.size a ≤ S1x128.size a
  hwx23_4 : ∀ i : grid23.Coords, EltTy.bits .f32 = 32 ∨ (Rect.block (s := S1x128) S1x128.size (cc23_transform_4 i) (hinb23_4 i)).WholeWords (EltTy.packing .f32)
  hstage23_5 : ∀ j, (stage23_5 j).IsWhole
  nbuf23_5 : grid23.bufCount reads23_5 false = 2
  hreads23_5 : ∀ i i' : grid23.Coords, (∀ a, reads23_5 a = true → i a = i' a) → cc23_transform_5 i = cc23_transform_5 i'
  hinb23_5 : ∀ (i : grid23.Coords) a, (cc23_transform_5 i a + 1) * S5000x128.size a ≤ S50000x128.size a
  hwx23_5 : ∀ i : grid23.Coords, EltTy.bits .f32 = 32 ∨ (Rect.block (s := S50000x128) S5000x128.size (cc23_transform_5 i) (hinb23_5 i)).WholeWords (EltTy.packing .f32)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S5000x1.size a ≤ S50000x1.size a
  hwx24_0 : ∀ i : grid24.Coords, EltTy.bits .i32 = 32 ∨ (Rect.block (s := S50000x1) S5000x1.size (cc24_transform_0 i) (hinb24_0 i)).WholeWords (EltTy.packing .i32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S5000x128.size a ≤ S50000x128.size a
  hwx24_1 : ∀ i : grid24.Coords, EltTy.bits .f32 = 32 ∨ (Rect.block (s := S50000x128) S5000x128.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S5000x128.size a ≤ S50000x128.size a
  hwx24_2 : ∀ i : grid24.Coords, EltTy.bits .f32 = 32 ∨ (Rect.block (s := S50000x128) S5000x128.size (cc24_transform_2 i) (hinb24_2 i)).WholeWords (EltTy.packing .f32)
  hstage24_3 : ∀ j, (stage24_3 j).IsWhole
  nbuf24_3 : grid24.bufCount reads24_3 false = 2
  hreads24_3 : ∀ i i' : grid24.Coords, (∀ a, reads24_3 a = true → i a = i' a) → cc24_transform_3 i = cc24_transform_3 i'
  hinb24_3 : ∀ (i : grid24.Coords) a, (cc24_transform_3 i a + 1) * S5000x128.size a ≤ S50000x128.size a
  hwx24_3 : ∀ i : grid24.Coords, EltTy.bits .f32 = 32 ∨ (Rect.block (s := S50000x128) S5000x128.size (cc24_transform_3 i) (hinb24_3 i)).WholeWords (EltTy.packing .f32)
  hstage24_4 : ∀ j, (stage24_4 j).IsWhole
  nbuf24_4 : grid24.bufCount reads24_4 false = 2
  hreads24_4 : ∀ i i' : grid24.Coords, (∀ a, reads24_4 a = true → i a = i' a) → cc24_transform_4 i = cc24_transform_4 i'
  hinb24_4 : ∀ (i : grid24.Coords) a, (cc24_transform_4 i a + 1) * S5000x128.size a ≤ S50000x128.size a
  hwx24_4 : ∀ i : grid24.Coords, EltTy.bits .f32 = 32 ∨ (Rect.block (s := S50000x128) S5000x128.size (cc24_transform_4 i) (hinb24_4 i)).WholeWords (EltTy.packing .f32)
  hstage24_5 : ∀ j, (stage24_5 j).IsWhole
  nbuf24_5 : grid24.bufCount reads24_5 true = 1
  hreads24_5 : ∀ i i' : grid24.Coords, (∀ a, reads24_5 a = true → i a = i' a) → cc24_transform_5 i = cc24_transform_5 i'
  hinb24_5 : ∀ (i : grid24.Coords) a, (cc24_transform_5 i a + 1) * S64x128.size a ≤ S64x128.size a
  hwx24_5 : ∀ i : grid24.Coords, EltTy.bits .f32 = 32 ∨ (Rect.block (s := S64x128) S64x128.size (cc24_transform_5 i) (hinb24_5 i)).WholeWords (EltTy.packing .f32)
  hstage24_6 : ∀ j, (stage24_6 j).IsWhole
  nbuf24_6 : grid24.bufCount reads24_6 true = 1
  hreads24_6 : ∀ i i' : grid24.Coords, (∀ a, reads24_6 a = true → i a = i' a) → cc24_transform_6 i = cc24_transform_6 i'
  hinb24_6 : ∀ (i : grid24.Coords) a, (cc24_transform_6 i a + 1) * S64x128.size a ≤ S64x128.size a
  hwx24_6 : ∀ i : grid24.Coords, EltTy.bits .f32 = 32 ∨ (Rect.block (s := S64x128) S64x128.size (cc24_transform_6 i) (hinb24_6 i)).WholeWords (EltTy.packing .f32)
  hstage24_7 : ∀ j, (stage24_7 j).IsWhole
  nbuf24_7 : grid24.bufCount reads24_7 true = 1
  hreads24_7 : ∀ i i' : grid24.Coords, (∀ a, reads24_7 a = true → i a = i' a) → cc24_transform_7 i = cc24_transform_7 i'
  hinb24_7 : ∀ (i : grid24.Coords) a, (cc24_transform_7 i a + 1) * S64x128.size a ≤ S64x128.size a
  hwx24_7 : ∀ i : grid24.Coords, EltTy.bits .f32 = 32 ∨ (Rect.block (s := S64x128) S64x128.size (cc24_transform_7 i) (hinb24_7 i)).WholeWords (EltTy.packing .f32)
  hstage24_8 : ∀ j, (stage24_8 j).IsWhole
  nbuf24_8 : grid24.bufCount reads24_8 true = 1
  hreads24_8 : ∀ i i' : grid24.Coords, (∀ a, reads24_8 a = true → i a = i' a) → cc24_transform_8 i = cc24_transform_8 i'
  hinb24_8 : ∀ (i : grid24.Coords) a, (cc24_transform_8 i a + 1) * S64x128.size a ≤ S64x128.size a
  hwx24_8 : ∀ i : grid24.Coords, EltTy.bits .f32 = 32 ∨ (Rect.block (s := S64x128) S64x128.size (cc24_transform_8 i) (hinb24_8 i)).WholeWords (EltTy.packing .f32)
  hstage24_9 : ∀ j, (stage24_9 j).IsWhole
  nbuf24_9 : grid24.bufCount reads24_9 true = 1
  hreads24_9 : ∀ i i' : grid24.Coords, (∀ a, reads24_9 a = true → i a = i' a) → cc24_transform_9 i = cc24_transform_9 i'
  hinb24_9 : ∀ (i : grid24.Coords) a, (cc24_transform_9 i a + 1) * S64x1.size a ≤ S64x1.size a
  hwx24_9 : ∀ i : grid24.Coords, EltTy.bits .f32 = 32 ∨ (Rect.block (s := S64x1) S64x1.size (cc24_transform_9 i) (hinb24_9 i)).WholeWords (EltTy.packing .f32)

class K25.Facts₀ : Prop where
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S5000x1.size a ≤ S50000x1.size a
  hwx25_0 : ∀ i : grid25.Coords, EltTy.bits .i32 = 32 ∨ (Rect.block (s := S50000x1) S5000x1.size (cc25_transform_0 i) (hinb25_0 i)).WholeWords (EltTy.packing .i32)
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S5000x128.size a ≤ S50000x128.size a
  hwx25_1 : ∀ i : grid25.Coords, EltTy.bits .f32 = 32 ∨ (Rect.block (s := S50000x128) S5000x128.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S5000x128.size a ≤ S50000x128.size a
  hwx25_2 : ∀ i : grid25.Coords, EltTy.bits .f32 = 32 ∨ (Rect.block (s := S50000x128) S5000x128.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S5000x128.size a ≤ S50000x128.size a
  hwx25_3 : ∀ i : grid25.Coords, EltTy.bits .f32 = 32 ∨ (Rect.block (s := S50000x128) S5000x128.size (cc25_transform_3 i) (hinb25_3 i)).WholeWords (EltTy.packing .f32)
  hstage25_4 : ∀ j, (stage25_4 j).IsWhole
  nbuf25_4 : grid25.bufCount reads25_4 false = 2
  hreads25_4 : ∀ i i' : grid25.Coords, (∀ a, reads25_4 a = true → i a = i' a) → cc25_transform_4 i = cc25_transform_4 i'
  hinb25_4 : ∀ (i : grid25.Coords) a, (cc25_transform_4 i a + 1) * S5000x128.size a ≤ S50000x128.size a
  hwx25_4 : ∀ i : grid25.Coords, EltTy.bits .f32 = 32 ∨ (Rect.block (s := S50000x128) S5000x128.size (cc25_transform_4 i) (hinb25_4 i)).WholeWords (EltTy.packing .f32)
  hstage25_5 : ∀ j, (stage25_5 j).IsWhole
  nbuf25_5 : grid25.bufCount reads25_5 true = 1
  hreads25_5 : ∀ i i' : grid25.Coords, (∀ a, reads25_5 a = true → i a = i' a) → cc25_transform_5 i = cc25_transform_5 i'
  hinb25_5 : ∀ (i : grid25.Coords) a, (cc25_transform_5 i a + 1) * S64x128.size a ≤ S64x128.size a
  hwx25_5 : ∀ i : grid25.Coords, EltTy.bits .f32 = 32 ∨ (Rect.block (s := S64x128) S64x128.size (cc25_transform_5 i) (hinb25_5 i)).WholeWords (EltTy.packing .f32)
  hstage25_6 : ∀ j, (stage25_6 j).IsWhole
  nbuf25_6 : grid25.bufCount reads25_6 true = 1
  hreads25_6 : ∀ i i' : grid25.Coords, (∀ a, reads25_6 a = true → i a = i' a) → cc25_transform_6 i = cc25_transform_6 i'
  hinb25_6 : ∀ (i : grid25.Coords) a, (cc25_transform_6 i a + 1) * S64x128.size a ≤ S64x128.size a
  hwx25_6 : ∀ i : grid25.Coords, EltTy.bits .f32 = 32 ∨ (Rect.block (s := S64x128) S64x128.size (cc25_transform_6 i) (hinb25_6 i)).WholeWords (EltTy.packing .f32)
  hstage25_7 : ∀ j, (stage25_7 j).IsWhole
  nbuf25_7 : grid25.bufCount reads25_7 true = 1
  hreads25_7 : ∀ i i' : grid25.Coords, (∀ a, reads25_7 a = true → i a = i' a) → cc25_transform_7 i = cc25_transform_7 i'
  hinb25_7 : ∀ (i : grid25.Coords) a, (cc25_transform_7 i a + 1) * S64x128.size a ≤ S64x128.size a
  hwx25_7 : ∀ i : grid25.Coords, EltTy.bits .f32 = 32 ∨ (Rect.block (s := S64x128) S64x128.size (cc25_transform_7 i) (hinb25_7 i)).WholeWords (EltTy.packing .f32)
  hstage25_8 : ∀ j, (stage25_8 j).IsWhole
  nbuf25_8 : grid25.bufCount reads25_8 true = 1
  hreads25_8 : ∀ i i' : grid25.Coords, (∀ a, reads25_8 a = true → i a = i' a) → cc25_transform_8 i = cc25_transform_8 i'
  hinb25_8 : ∀ (i : grid25.Coords) a, (cc25_transform_8 i a + 1) * S64x128.size a ≤ S64x128.size a
  hwx25_8 : ∀ i : grid25.Coords, EltTy.bits .f32 = 32 ∨ (Rect.block (s := S64x128) S64x128.size (cc25_transform_8 i) (hinb25_8 i)).WholeWords (EltTy.packing .f32)
  hstage25_9 : ∀ j, (stage25_9 j).IsWhole
  nbuf25_9 : grid25.bufCount reads25_9 true = 1
  hreads25_9 : ∀ i i' : grid25.Coords, (∀ a, reads25_9 a = true → i a = i' a) → cc25_transform_9 i = cc25_transform_9 i'
  hinb25_9 : ∀ (i : grid25.Coords) a, (cc25_transform_9 i a + 1) * S64x1.size a ≤ S64x1.size a
  hwx25_9 : ∀ i : grid25.Coords, EltTy.bits .f32 = 32 ∨ (Rect.block (s := S64x1) S64x1.size (cc25_transform_9 i) (hinb25_9 i)).WholeWords (EltTy.packing .f32)

class K26.Facts₀ : Prop where
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S5000x1.size a ≤ S50000x1.size a
  hwx26_0 : ∀ i : grid26.Coords, EltTy.bits .i32 = 32 ∨ (Rect.block (s := S50000x1) S5000x1.size (cc26_transform_0 i) (hinb26_0 i)).WholeWords (EltTy.packing .i32)
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S5000x128.size a ≤ S50000x128.size a
  hwx26_1 : ∀ i : grid26.Coords, EltTy.bits .f32 = 32 ∨ (Rect.block (s := S50000x128) S5000x128.size (cc26_transform_1 i) (hinb26_1 i)).WholeWords (EltTy.packing .f32)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S5000x128.size a ≤ S50000x128.size a
  hwx26_2 : ∀ i : grid26.Coords, EltTy.bits .f32 = 32 ∨ (Rect.block (s := S50000x128) S5000x128.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S5000x128.size a ≤ S50000x128.size a
  hwx26_3 : ∀ i : grid26.Coords, EltTy.bits .f32 = 32 ∨ (Rect.block (s := S50000x128) S5000x128.size (cc26_transform_3 i) (hinb26_3 i)).WholeWords (EltTy.packing .f32)
  hstage26_4 : ∀ j, (stage26_4 j).IsWhole
  nbuf26_4 : grid26.bufCount reads26_4 false = 2
  hreads26_4 : ∀ i i' : grid26.Coords, (∀ a, reads26_4 a = true → i a = i' a) → cc26_transform_4 i = cc26_transform_4 i'
  hinb26_4 : ∀ (i : grid26.Coords) a, (cc26_transform_4 i a + 1) * S5000x128.size a ≤ S50000x128.size a
  hwx26_4 : ∀ i : grid26.Coords, EltTy.bits .f32 = 32 ∨ (Rect.block (s := S50000x128) S5000x128.size (cc26_transform_4 i) (hinb26_4 i)).WholeWords (EltTy.packing .f32)
  hstage26_5 : ∀ j, (stage26_5 j).IsWhole
  nbuf26_5 : grid26.bufCount reads26_5 true = 1
  hreads26_5 : ∀ i i' : grid26.Coords, (∀ a, reads26_5 a = true → i a = i' a) → cc26_transform_5 i = cc26_transform_5 i'
  hinb26_5 : ∀ (i : grid26.Coords) a, (cc26_transform_5 i a + 1) * S64x128.size a ≤ S64x128.size a
  hwx26_5 : ∀ i : grid26.Coords, EltTy.bits .f32 = 32 ∨ (Rect.block (s := S64x128) S64x128.size (cc26_transform_5 i) (hinb26_5 i)).WholeWords (EltTy.packing .f32)
  hstage26_6 : ∀ j, (stage26_6 j).IsWhole
  nbuf26_6 : grid26.bufCount reads26_6 true = 1
  hreads26_6 : ∀ i i' : grid26.Coords, (∀ a, reads26_6 a = true → i a = i' a) → cc26_transform_6 i = cc26_transform_6 i'
  hinb26_6 : ∀ (i : grid26.Coords) a, (cc26_transform_6 i a + 1) * S64x128.size a ≤ S64x128.size a
  hwx26_6 : ∀ i : grid26.Coords, EltTy.bits .f32 = 32 ∨ (Rect.block (s := S64x128) S64x128.size (cc26_transform_6 i) (hinb26_6 i)).WholeWords (EltTy.packing .f32)
  hstage26_7 : ∀ j, (stage26_7 j).IsWhole
  nbuf26_7 : grid26.bufCount reads26_7 true = 1
  hreads26_7 : ∀ i i' : grid26.Coords, (∀ a, reads26_7 a = true → i a = i' a) → cc26_transform_7 i = cc26_transform_7 i'
  hinb26_7 : ∀ (i : grid26.Coords) a, (cc26_transform_7 i a + 1) * S64x128.size a ≤ S64x128.size a
  hwx26_7 : ∀ i : grid26.Coords, EltTy.bits .f32 = 32 ∨ (Rect.block (s := S64x128) S64x128.size (cc26_transform_7 i) (hinb26_7 i)).WholeWords (EltTy.packing .f32)
  hstage26_8 : ∀ j, (stage26_8 j).IsWhole
  nbuf26_8 : grid26.bufCount reads26_8 true = 1
  hreads26_8 : ∀ i i' : grid26.Coords, (∀ a, reads26_8 a = true → i a = i' a) → cc26_transform_8 i = cc26_transform_8 i'
  hinb26_8 : ∀ (i : grid26.Coords) a, (cc26_transform_8 i a + 1) * S64x128.size a ≤ S64x128.size a
  hwx26_8 : ∀ i : grid26.Coords, EltTy.bits .f32 = 32 ∨ (Rect.block (s := S64x128) S64x128.size (cc26_transform_8 i) (hinb26_8 i)).WholeWords (EltTy.packing .f32)
  hstage26_9 : ∀ j, (stage26_9 j).IsWhole
  nbuf26_9 : grid26.bufCount reads26_9 true = 1
  hreads26_9 : ∀ i i' : grid26.Coords, (∀ a, reads26_9 a = true → i a = i' a) → cc26_transform_9 i = cc26_transform_9 i'
  hinb26_9 : ∀ (i : grid26.Coords) a, (cc26_transform_9 i a + 1) * S64x1.size a ≤ S64x1.size a
  hwx26_9 : ∀ i : grid26.Coords, EltTy.bits .f32 = 32 ∨ (Rect.block (s := S64x1) S64x1.size (cc26_transform_9 i) (hinb26_9 i)).WholeWords (EltTy.packing .f32)

class Shapes1.Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S400000x1 : S_.BroadcastsInDim S400000x1 (![] : Fin 0 → Fin S400000x1.rank)
  slices_S3x400000_S1x400000_0_0 : S3x400000.Slices ![0, 0] S1x400000
  shapeCasts_S1x400000_S400000 : S1x400000.ShapeCasts S400000
  bcast_S_S50000x1 : S_.BroadcastsInDim S50000x1 (![] : Fin 0 → Fin S50000x1.rank)
  bcast_S400000_S400000x1_0 : S400000.BroadcastsInDim S400000x1 (![0] : Fin 1 → Fin S400000x1.rank)
  slices_S3x400000_S1x400000_1_0 : S3x400000.Slices ![1, 0] S1x400000
  slices_S3x400000_S1x400000_2_0 : S3x400000.Slices ![2, 0] S1x400000
  bcast_S_S400000 : S_.BroadcastsInDim S400000 (![] : Fin 0 → Fin S400000.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  slices_S3x64x128_S1x64x128_1_0_0 : S3x64x128.Slices ![1, 0, 0] S1x64x128
  slices_S3x128_S1x128_1_0 : S3x128.Slices ![1, 0] S1x128
  slices_S3x64x128_S1x64x128_2_0_0 : S3x64x128.Slices ![2, 0, 0] S1x64x128
  slices_S3x128_S1x128_2_0 : S3x128.Slices ![2, 0] S1x128
  slices_S3x3x128x128_S1x3x128x128_0_0_0_0 : S3x3x128x128.Slices ![0, 0, 0, 0] S1x3x128x128
  shapeCasts_S1x3x128x128_S3x128x128 : S1x3x128x128.ShapeCasts S3x128x128
  slices_S3x3x128_S1x3x128_0_0_0 : S3x3x128.Slices ![0, 0, 0] S1x3x128
  shapeCasts_S1x3x128_S3x128 : S1x3x128.ShapeCasts S3x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128x128_S1x128x128_2_0_0 : S3x128x128.Slices ![2, 0, 0] S1x128x128
  slices_S3x3x128x128_S1x3x128x128_1_0_0_0 : S3x3x128x128.Slices ![1, 0, 0, 0] S1x3x128x128
  slices_S3x3x128_S1x3x128_1_0_0 : S3x3x128.Slices ![1, 0, 0] S1x3x128
  slices_S3x3x128x128_S1x3x128x128_2_0_0_0 : S3x3x128x128.Slices ![2, 0, 0, 0] S1x3x128x128
  slices_S3x3x128_S1x3x128_2_0_0 : S3x3x128.Slices ![2, 0, 0] S1x3x128
  slices_S3x50000_S1x50000_0_0 : S3x50000.Slices ![0, 0] S1x50000
  shapeCasts_S1x50000_S50000 : S1x50000.ShapeCasts S50000
  shapeCasts_S50000_S50000x1 : S50000.ShapeCasts S50000x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  bcast_S_S64x1 : S_.BroadcastsInDim S64x1 (![] : Fin 0 → Fin S64x1.rank)
  bcast_S64x1_S64x128_0_1 : S64x1.BroadcastsInDim S64x128 (![0, 1] : Fin 2 → Fin S64x128.rank)
  concatenates_S64x128_S64x128_S64x128_S64x128_S64x512_d1 : Shape.Concatenates [S64x128, S64x128, S64x128, S64x128] S64x512 1
  slices_S3x50000_S1x50000_1_0 : S3x50000.Slices ![1, 0] S1x50000
  slices_S3x50000_S1x50000_2_0 : S3x50000.Slices ![2, 0] S1x50000
  concatenates_S64x512_S64x512_S64x512_S64x1536_d1 : Shape.Concatenates [S64x512, S64x512, S64x512] S64x1536 1
  gather_S257x64_S50000x1_S50000x64_1_0_n_n_0_1_164_wf : GatherDims.WF S257x64 S50000x1 S50000x64 [1] [0] [] [0] [] 1 ![1, 64]
  scatter_S50000x1_S400000x1_S400000x1_1_0_0_1_wf : ScatterDims.WF S50000x1 S400000x1 S400000x1 [1] [0] [0] 1
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  dot_S5000x64_S64x128_S5000x128_1_0_0_1_n_n_wf : DotDims.WF S5000x64 S64x128 S5000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.shapes1

variable [Facts₀]

def gather_S257x64_S50000x1_S50000x64_1_0_n_n_0_1_164 : GatherDims S257x64 S50000x1 S50000x64 where
  offsetDims := [1]
  collapsedSliceDims := [0]
  operandBatchingDims := []
  startIndicesBatchingDims := []
  startIndexMap := [0]
  indexVectorDim := 1
  sliceSizes := ![1, 64]
  wf := gather_S257x64_S50000x1_S50000x64_1_0_n_n_0_1_164_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v70) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v79) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v80) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v83_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v83_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v83_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v83_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v89) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v82) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v90) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v13) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v106) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v108) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v110) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v119) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v120) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v123_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v123_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v123_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v123_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v125) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v129) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v121) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v122) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v130) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v20) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v146) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v148) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v150) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v159) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v160) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v163_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v163_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v163_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v163_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v165) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v169) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v161) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v162) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v170) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v90) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v198) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v200) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v202) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v211) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v212) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v215_0) S5000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v215_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v215_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun i => !(k6_cond2 i == 1#1) | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v215_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v217) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v221) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v213) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v214) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v222) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v130) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v238) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v240) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v242) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v251) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v252) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v255_0) S5000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v255_1) S1x128.size cc8_transform_7 reads8_7 true true 1 stage8_7 sem8_7
    hrank8 hreads8_7 hinb8_7 nbuf8_7 (Memref.isWhole_whole _) hwx8_7 hstage8_7

abbrev win8_8 : Pipeline.Window sig grid8 :=
  Pipeline.Window.ofSpec (Memref.whole main_v255_2) S1x128.size cc8_transform_8 reads8_8 true true 1 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev idle8 : Fin 9 → grid8.Coords → Bool := fun | 0 => fun _ => false | 1 => fun _ => false | 2 => fun _ => false | 3 => fun _ => false | 4 => fun _ => false | 5 => fun _ => false | 6 => fun _ => false | 7 => fun i => !(k8_cond2 i == 1#1) | 8 => fun i => !(k8_cond2 i == 1#1) | ⟨_ + 9, h⟩ => absurd h (Nat.not_lt.2 (Nat.le_add_left _ _))

abbrev win9_0 : Pipeline.Window sig grid9 :=
  Pipeline.Window.ofSpec (Memref.whole main_v255_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v257) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v261) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v253) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v254) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v262) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v170) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v278) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v280) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v282) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v291) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v292) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v295_0) S5000x128.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v295_1) S1x128.size cc10_transform_7 reads10_7 true true 1 stage10_7 sem10_7
    hrank10 hreads10_7 hinb10_7 nbuf10_7 (Memref.isWhole_whole _) hwx10_7 hstage10_7

abbrev win10_8 : Pipeline.Window sig grid10 :=
  Pipeline.Window.ofSpec (Memref.whole main_v295_2) S1x128.size cc10_transform_8 reads10_8 true true 1 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev idle10 : Fin 9 → grid10.Coords → Bool := fun | 0 => fun _ => false | 1 => fun _ => false | 2 => fun _ => false | 3 => fun _ => false | 4 => fun _ => false | 5 => fun _ => false | 6 => fun _ => false | 7 => fun i => !(k10_cond2 i == 1#1) | 8 => fun i => !(k10_cond2 i == 1#1) | ⟨_ + 9, h⟩ => absurd h (Nat.not_lt.2 (Nat.le_add_left _ _))

abbrev win11_0 : Pipeline.Window sig grid11 :=
  Pipeline.Window.ofSpec (Memref.whole main_v295_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v297) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v301) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v293) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v294) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v302) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v222) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v330) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v332) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v334) S128x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v343) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v344) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v347_0) S5000x128.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v347_1) S1x128.size cc12_transform_7 reads12_7 true true 1 stage12_7 sem12_7
    hrank12 hreads12_7 hinb12_7 nbuf12_7 (Memref.isWhole_whole _) hwx12_7 hstage12_7

abbrev win12_8 : Pipeline.Window sig grid12 :=
  Pipeline.Window.ofSpec (Memref.whole main_v347_2) S1x128.size cc12_transform_8 reads12_8 true true 1 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev idle12 : Fin 9 → grid12.Coords → Bool := fun | 0 => fun _ => false | 1 => fun _ => false | 2 => fun _ => false | 3 => fun _ => false | 4 => fun _ => false | 5 => fun _ => false | 6 => fun _ => false | 7 => fun i => !(k12_cond2 i == 1#1) | 8 => fun i => !(k12_cond2 i == 1#1) | ⟨_ + 9, h⟩ => absurd h (Nat.not_lt.2 (Nat.le_add_left _ _))

abbrev win13_0 : Pipeline.Window sig grid13 :=
  Pipeline.Window.ofSpec (Memref.whole main_v347_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v349) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v353) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v345) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v346) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v354) S5000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v262) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v370) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v372) S128x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v374) S128x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v383) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v384) S1x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v387_0) S5000x128.size cc14_transform_6 reads14_6 true false 2 stage14_6 sem14_6
    hrank14 hreads14_6 hinb14_6 nbuf14_6 (Memref.isWhole_whole _) hwx14_6 hstage14_6

abbrev win14_7 : Pipeline.Window sig grid14 :=
  Pipeline.Window.ofSpec (Memref.whole main_v387_1) S1x128.size cc14_transform_7 reads14_7 true true 1 stage14_7 sem14_7
    hrank14 hreads14_7 hinb14_7 nbuf14_7 (Memref.isWhole_whole _) hwx14_7 hstage14_7

abbrev win14_8 : Pipeline.Window sig grid14 :=
  Pipeline.Window.ofSpec (Memref.whole main_v387_2) S1x128.size cc14_transform_8 reads14_8 true true 1 stage14_8 sem14_8
    hrank14 hreads14_8 hinb14_8 nbuf14_8 (Memref.isWhole_whole _) hwx14_8 hstage14_8

abbrev win14 : Fin 9 → Pipeline.Window sig grid14 := fun | 0 => win14_0 | 1 => win14_1 | 2 => win14_2 | 3 => win14_3 | 4 => win14_4 | 5 => win14_5 | 6 => win14_6 | 7 => win14_7 | 8 => win14_8 | ⟨_ + 9, h⟩ => absurd h (Nat.not_lt.2 (Nat.le_add_left _ _))
abbrev spec14 : Fin 9 → Pipeline.WinSpec sig grid14.rank := fun w => (win14 w).toWinSpec

abbrev idle14 : Fin 9 → grid14.Coords → Bool := fun | 0 => fun _ => false | 1 => fun _ => false | 2 => fun _ => false | 3 => fun _ => false | 4 => fun _ => false | 5 => fun _ => false | 6 => fun _ => false | 7 => fun i => !(k14_cond2 i == 1#1) | 8 => fun i => !(k14_cond2 i == 1#1) | ⟨_ + 9, h⟩ => absurd h (Nat.not_lt.2 (Nat.le_add_left _ _))

abbrev win15_0 : Pipeline.Window sig grid15 :=
  Pipeline.Window.ofSpec (Memref.whole main_v387_0) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v389) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v393) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v385) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v386) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v394) S5000x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v302) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v410) S5000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v412) S128x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v414) S128x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v423) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v424) S1x128.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v427_0) S5000x128.size cc16_transform_6 reads16_6 true false 2 stage16_6 sem16_6
    hrank16 hreads16_6 hinb16_6 nbuf16_6 (Memref.isWhole_whole _) hwx16_6 hstage16_6

abbrev win16_7 : Pipeline.Window sig grid16 :=
  Pipeline.Window.ofSpec (Memref.whole main_v427_1) S1x128.size cc16_transform_7 reads16_7 true true 1 stage16_7 sem16_7
    hrank16 hreads16_7 hinb16_7 nbuf16_7 (Memref.isWhole_whole _) hwx16_7 hstage16_7

abbrev win16_8 : Pipeline.Window sig grid16 :=
  Pipeline.Window.ofSpec (Memref.whole main_v427_2) S1x128.size cc16_transform_8 reads16_8 true true 1 stage16_8 sem16_8
    hrank16 hreads16_8 hinb16_8 nbuf16_8 (Memref.isWhole_whole _) hwx16_8 hstage16_8

abbrev win16 : Fin 9 → Pipeline.Window sig grid16 := fun | 0 => win16_0 | 1 => win16_1 | 2 => win16_2 | 3 => win16_3 | 4 => win16_4 | 5 => win16_5 | 6 => win16_6 | 7 => win16_7 | 8 => win16_8 | ⟨_ + 9, h⟩ => absurd h (Nat.not_lt.2 (Nat.le_add_left _ _))
abbrev spec16 : Fin 9 → Pipeline.WinSpec sig grid16.rank := fun w => (win16 w).toWinSpec

abbrev idle16 : Fin 9 → grid16.Coords → Bool := fun | 0 => fun _ => false | 1 => fun _ => false | 2 => fun _ => false | 3 => fun _ => false | 4 => fun _ => false | 5 => fun _ => false | 6 => fun _ => false | 7 => fun i => !(k16_cond2 i == 1#1) | 8 => fun i => !(k16_cond2 i == 1#1) | ⟨_ + 9, h⟩ => absurd h (Nat.not_lt.2 (Nat.le_add_left _ _))

abbrev win17_0 : Pipeline.Window sig grid17 :=
  Pipeline.Window.ofSpec (Memref.whole main_v427_0) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v429) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v433) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v425) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v426) S1x128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v434) S5000x128.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev win18_0 : Pipeline.Window sig grid18 :=
  Pipeline.Window.ofSpec (Memref.whole main_v354) S5000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v462) S5000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v464) S128x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v466) S128x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v475) S1x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v476) S1x128.size cc18_transform_5 reads18_5 false true 1 stage18_5 sem18_5
    hrank18 hreads18_5 hinb18_5 nbuf18_5 (Memref.isWhole_whole _) hwx18_5 hstage18_5

abbrev win18_6 : Pipeline.Window sig grid18 :=
  Pipeline.Window.ofSpec (Memref.whole main_v479_0) S5000x128.size cc18_transform_6 reads18_6 true false 2 stage18_6 sem18_6
    hrank18 hreads18_6 hinb18_6 nbuf18_6 (Memref.isWhole_whole _) hwx18_6 hstage18_6

abbrev win18_7 : Pipeline.Window sig grid18 :=
  Pipeline.Window.ofSpec (Memref.whole main_v479_1) S1x128.size cc18_transform_7 reads18_7 true true 1 stage18_7 sem18_7
    hrank18 hreads18_7 hinb18_7 nbuf18_7 (Memref.isWhole_whole _) hwx18_7 hstage18_7

abbrev win18_8 : Pipeline.Window sig grid18 :=
  Pipeline.Window.ofSpec (Memref.whole main_v479_2) S1x128.size cc18_transform_8 reads18_8 true true 1 stage18_8 sem18_8
    hrank18 hreads18_8 hinb18_8 nbuf18_8 (Memref.isWhole_whole _) hwx18_8 hstage18_8

abbrev win18 : Fin 9 → Pipeline.Window sig grid18 := fun | 0 => win18_0 | 1 => win18_1 | 2 => win18_2 | 3 => win18_3 | 4 => win18_4 | 5 => win18_5 | 6 => win18_6 | 7 => win18_7 | 8 => win18_8 | ⟨_ + 9, h⟩ => absurd h (Nat.not_lt.2 (Nat.le_add_left _ _))
abbrev spec18 : Fin 9 → Pipeline.WinSpec sig grid18.rank := fun w => (win18 w).toWinSpec

abbrev idle18 : Fin 9 → grid18.Coords → Bool := fun | 0 => fun _ => false | 1 => fun _ => false | 2 => fun _ => false | 3 => fun _ => false | 4 => fun _ => false | 5 => fun _ => false | 6 => fun _ => false | 7 => fun i => !(k18_cond2 i == 1#1) | 8 => fun i => !(k18_cond2 i == 1#1) | ⟨_ + 9, h⟩ => absurd h (Nat.not_lt.2 (Nat.le_add_left _ _))

abbrev win19_0 : Pipeline.Window sig grid19 :=
  Pipeline.Window.ofSpec (Memref.whole main_v479_0) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v481) S1x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v485) S1x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v477) S1x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v478) S1x128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v486) S5000x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_v394) S5000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v502) S5000x128.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v504) S128x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v506) S128x128.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v515) S1x128.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v516) S1x128.size cc20_transform_5 reads20_5 false true 1 stage20_5 sem20_5
    hrank20 hreads20_5 hinb20_5 nbuf20_5 (Memref.isWhole_whole _) hwx20_5 hstage20_5

abbrev win20_6 : Pipeline.Window sig grid20 :=
  Pipeline.Window.ofSpec (Memref.whole main_v519_0) S5000x128.size cc20_transform_6 reads20_6 true false 2 stage20_6 sem20_6
    hrank20 hreads20_6 hinb20_6 nbuf20_6 (Memref.isWhole_whole _) hwx20_6 hstage20_6

abbrev win20_7 : Pipeline.Window sig grid20 :=
  Pipeline.Window.ofSpec (Memref.whole main_v519_1) S1x128.size cc20_transform_7 reads20_7 true true 1 stage20_7 sem20_7
    hrank20 hreads20_7 hinb20_7 nbuf20_7 (Memref.isWhole_whole _) hwx20_7 hstage20_7

abbrev win20_8 : Pipeline.Window sig grid20 :=
  Pipeline.Window.ofSpec (Memref.whole main_v519_2) S1x128.size cc20_transform_8 reads20_8 true true 1 stage20_8 sem20_8
    hrank20 hreads20_8 hinb20_8 nbuf20_8 (Memref.isWhole_whole _) hwx20_8 hstage20_8

abbrev win20 : Fin 9 → Pipeline.Window sig grid20 := fun | 0 => win20_0 | 1 => win20_1 | 2 => win20_2 | 3 => win20_3 | 4 => win20_4 | 5 => win20_5 | 6 => win20_6 | 7 => win20_7 | 8 => win20_8 | ⟨_ + 9, h⟩ => absurd h (Nat.not_lt.2 (Nat.le_add_left _ _))
abbrev spec20 : Fin 9 → Pipeline.WinSpec sig grid20.rank := fun w => (win20 w).toWinSpec

abbrev idle20 : Fin 9 → grid20.Coords → Bool := fun | 0 => fun _ => false | 1 => fun _ => false | 2 => fun _ => false | 3 => fun _ => false | 4 => fun _ => false | 5 => fun _ => false | 6 => fun _ => false | 7 => fun i => !(k20_cond2 i == 1#1) | 8 => fun i => !(k20_cond2 i == 1#1) | ⟨_ + 9, h⟩ => absurd h (Nat.not_lt.2 (Nat.le_add_left _ _))

abbrev win21_0 : Pipeline.Window sig grid21 :=
  Pipeline.Window.ofSpec (Memref.whole main_v519_0) S5000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v521) S1x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v525) S1x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v517) S1x128.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v518) S1x128.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v526) S5000x128.size cc21_transform_5 reads21_5 true false 2 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

abbrev win22_0 : Pipeline.Window sig grid22 :=
  Pipeline.Window.ofSpec (Memref.whole main_v434) S5000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v542) S5000x128.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v544) S128x128.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v546) S128x128.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v555) S1x128.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_v556) S1x128.size cc22_transform_5 reads22_5 false true 1 stage22_5 sem22_5
    hrank22 hreads22_5 hinb22_5 nbuf22_5 (Memref.isWhole_whole _) hwx22_5 hstage22_5

abbrev win22_6 : Pipeline.Window sig grid22 :=
  Pipeline.Window.ofSpec (Memref.whole main_v559_0) S5000x128.size cc22_transform_6 reads22_6 true false 2 stage22_6 sem22_6
    hrank22 hreads22_6 hinb22_6 nbuf22_6 (Memref.isWhole_whole _) hwx22_6 hstage22_6

abbrev win22_7 : Pipeline.Window sig grid22 :=
  Pipeline.Window.ofSpec (Memref.whole main_v559_1) S1x128.size cc22_transform_7 reads22_7 true true 1 stage22_7 sem22_7
    hrank22 hreads22_7 hinb22_7 nbuf22_7 (Memref.isWhole_whole _) hwx22_7 hstage22_7

abbrev win22_8 : Pipeline.Window sig grid22 :=
  Pipeline.Window.ofSpec (Memref.whole main_v559_2) S1x128.size cc22_transform_8 reads22_8 true true 1 stage22_8 sem22_8
    hrank22 hreads22_8 hinb22_8 nbuf22_8 (Memref.isWhole_whole _) hwx22_8 hstage22_8

abbrev win22 : Fin 9 → Pipeline.Window sig grid22 := fun | 0 => win22_0 | 1 => win22_1 | 2 => win22_2 | 3 => win22_3 | 4 => win22_4 | 5 => win22_5 | 6 => win22_6 | 7 => win22_7 | 8 => win22_8 | ⟨_ + 9, h⟩ => absurd h (Nat.not_lt.2 (Nat.le_add_left _ _))
abbrev spec22 : Fin 9 → Pipeline.WinSpec sig grid22.rank := fun w => (win22 w).toWinSpec

abbrev idle22 : Fin 9 → grid22.Coords → Bool := fun | 0 => fun _ => false | 1 => fun _ => false | 2 => fun _ => false | 3 => fun _ => false | 4 => fun _ => false | 5 => fun _ => false | 6 => fun _ => false | 7 => fun i => !(k22_cond2 i == 1#1) | 8 => fun i => !(k22_cond2 i == 1#1) | ⟨_ + 9, h⟩ => absurd h (Nat.not_lt.2 (Nat.le_add_left _ _))

abbrev win23_0 : Pipeline.Window sig grid23 :=
  Pipeline.Window.ofSpec (Memref.whole main_v559_0) S5000x128.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v561) S1x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v565) S1x128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v557) S1x128.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v558) S1x128.size cc23_transform_4 reads23_4 false true 1 stage23_4 sem23_4
    hrank23 hreads23_4 hinb23_4 nbuf23_4 (Memref.isWhole_whole _) hwx23_4 hstage23_4

abbrev win23_5 : Pipeline.Window sig grid23 :=
  Pipeline.Window.ofSpec (Memref.whole main_v566) S5000x128.size cc23_transform_5 reads23_5 true false 2 stage23_5 sem23_5
    hrank23 hreads23_5 hinb23_5 nbuf23_5 (Memref.isWhole_whole _) hwx23_5 hstage23_5

abbrev win23 : Fin 6 → Pipeline.Window sig grid23 := fun | 0 => win23_0 | 1 => win23_1 | 2 => win23_2 | 3 => win23_3 | 4 => win23_4 | 5 => win23_5 | ⟨_ + 6, h⟩ => absurd h (Nat.not_lt.2 (Nat.le_add_left _ _))
abbrev spec23 : Fin 6 → Pipeline.WinSpec sig grid23.rank := fun w => (win23 w).toWinSpec

abbrev win24_0 : Pipeline.Window sig grid24 :=
  Pipeline.Window.ofSpec (Memref.whole main_v569) S5000x1.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v90) S5000x128.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v222) S5000x128.size cc24_transform_2 reads24_2 false false 2 stage24_2 sem24_2
    hrank24 hreads24_2 hinb24_2 nbuf24_2 (Memref.isWhole_whole _) hwx24_2 hstage24_2

abbrev win24_3 : Pipeline.Window sig grid24 :=
  Pipeline.Window.ofSpec (Memref.whole main_v354) S5000x128.size cc24_transform_3 reads24_3 false false 2 stage24_3 sem24_3
    hrank24 hreads24_3 hinb24_3 nbuf24_3 (Memref.isWhole_whole _) hwx24_3 hstage24_3

abbrev win24_4 : Pipeline.Window sig grid24 :=
  Pipeline.Window.ofSpec (Memref.whole main_v486) S5000x128.size cc24_transform_4 reads24_4 false false 2 stage24_4 sem24_4
    hrank24 hreads24_4 hinb24_4 nbuf24_4 (Memref.isWhole_whole _) hwx24_4 hstage24_4

abbrev win24_5 : Pipeline.Window sig grid24 :=
  Pipeline.Window.ofSpec (Memref.whole main_v570_0) S64x128.size cc24_transform_5 reads24_5 true true 1 stage24_5 sem24_5
    hrank24 hreads24_5 hinb24_5 nbuf24_5 (Memref.isWhole_whole _) hwx24_5 hstage24_5

abbrev win24_6 : Pipeline.Window sig grid24 :=
  Pipeline.Window.ofSpec (Memref.whole main_v570_1) S64x128.size cc24_transform_6 reads24_6 true true 1 stage24_6 sem24_6
    hrank24 hreads24_6 hinb24_6 nbuf24_6 (Memref.isWhole_whole _) hwx24_6 hstage24_6

abbrev win24_7 : Pipeline.Window sig grid24 :=
  Pipeline.Window.ofSpec (Memref.whole main_v570_2) S64x128.size cc24_transform_7 reads24_7 true true 1 stage24_7 sem24_7
    hrank24 hreads24_7 hinb24_7 nbuf24_7 (Memref.isWhole_whole _) hwx24_7 hstage24_7

abbrev win24_8 : Pipeline.Window sig grid24 :=
  Pipeline.Window.ofSpec (Memref.whole main_v570_3) S64x128.size cc24_transform_8 reads24_8 true true 1 stage24_8 sem24_8
    hrank24 hreads24_8 hinb24_8 nbuf24_8 (Memref.isWhole_whole _) hwx24_8 hstage24_8

abbrev win24_9 : Pipeline.Window sig grid24 :=
  Pipeline.Window.ofSpec (Memref.whole main_v570_4) S64x1.size cc24_transform_9 reads24_9 true true 1 stage24_9 sem24_9
    hrank24 hreads24_9 hinb24_9 nbuf24_9 (Memref.isWhole_whole _) hwx24_9 hstage24_9

abbrev win24 : Fin 10 → Pipeline.Window sig grid24 := fun | 0 => win24_0 | 1 => win24_1 | 2 => win24_2 | 3 => win24_3 | 4 => win24_4 | 5 => win24_5 | 6 => win24_6 | 7 => win24_7 | 8 => win24_8 | 9 => win24_9 | ⟨_ + 10, h⟩ => absurd h (Nat.not_lt.2 (Nat.le_add_left _ _))
abbrev spec24 : Fin 10 → Pipeline.WinSpec sig grid24.rank := fun w => (win24 w).toWinSpec

abbrev idle24 : Fin 10 → grid24.Coords → Bool := fun | 0 => fun _ => false | 1 => fun _ => false | 2 => fun _ => false | 3 => fun _ => false | 4 => fun _ => false | 5 => fun i => !(k24_cond2 i == 1#1) | 6 => fun i => !(k24_cond2 i == 1#1) | 7 => fun i => !(k24_cond2 i == 1#1) | 8 => fun i => !(k24_cond2 i == 1#1) | 9 => fun i => !(k24_cond2 i == 1#1) | ⟨_ + 10, h⟩ => absurd h (Nat.not_lt.2 (Nat.le_add_left _ _))

abbrev win25_0 : Pipeline.Window sig grid25 :=
  Pipeline.Window.ofSpec (Memref.whole main_v586) S5000x1.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v130) S5000x128.size cc25_transform_1 reads25_1 false false 2 stage25_1 sem25_1
    hrank25 hreads25_1 hinb25_1 nbuf25_1 (Memref.isWhole_whole _) hwx25_1 hstage25_1

abbrev win25_2 : Pipeline.Window sig grid25 :=
  Pipeline.Window.ofSpec (Memref.whole main_v262) S5000x128.size cc25_transform_2 reads25_2 false false 2 stage25_2 sem25_2
    hrank25 hreads25_2 hinb25_2 nbuf25_2 (Memref.isWhole_whole _) hwx25_2 hstage25_2

abbrev win25_3 : Pipeline.Window sig grid25 :=
  Pipeline.Window.ofSpec (Memref.whole main_v394) S5000x128.size cc25_transform_3 reads25_3 false false 2 stage25_3 sem25_3
    hrank25 hreads25_3 hinb25_3 nbuf25_3 (Memref.isWhole_whole _) hwx25_3 hstage25_3

abbrev win25_4 : Pipeline.Window sig grid25 :=
  Pipeline.Window.ofSpec (Memref.whole main_v526) S5000x128.size cc25_transform_4 reads25_4 false false 2 stage25_4 sem25_4
    hrank25 hreads25_4 hinb25_4 nbuf25_4 (Memref.isWhole_whole _) hwx25_4 hstage25_4

abbrev win25_5 : Pipeline.Window sig grid25 :=
  Pipeline.Window.ofSpec (Memref.whole main_v587_0) S64x128.size cc25_transform_5 reads25_5 true true 1 stage25_5 sem25_5
    hrank25 hreads25_5 hinb25_5 nbuf25_5 (Memref.isWhole_whole _) hwx25_5 hstage25_5

abbrev win25_6 : Pipeline.Window sig grid25 :=
  Pipeline.Window.ofSpec (Memref.whole main_v587_1) S64x128.size cc25_transform_6 reads25_6 true true 1 stage25_6 sem25_6
    hrank25 hreads25_6 hinb25_6 nbuf25_6 (Memref.isWhole_whole _) hwx25_6 hstage25_6

abbrev win25_7 : Pipeline.Window sig grid25 :=
  Pipeline.Window.ofSpec (Memref.whole main_v587_2) S64x128.size cc25_transform_7 reads25_7 true true 1 stage25_7 sem25_7
    hrank25 hreads25_7 hinb25_7 nbuf25_7 (Memref.isWhole_whole _) hwx25_7 hstage25_7

abbrev win25_8 : Pipeline.Window sig grid25 :=
  Pipeline.Window.ofSpec (Memref.whole main_v587_3) S64x128.size cc25_transform_8 reads25_8 true true 1 stage25_8 sem25_8
    hrank25 hreads25_8 hinb25_8 nbuf25_8 (Memref.isWhole_whole _) hwx25_8 hstage25_8

abbrev win25_9 : Pipeline.Window sig grid25 :=
  Pipeline.Window.ofSpec (Memref.whole main_v587_4) S64x1.size cc25_transform_9 reads25_9 true true 1 stage25_9 sem25_9
    hrank25 hreads25_9 hinb25_9 nbuf25_9 (Memref.isWhole_whole _) hwx25_9 hstage25_9

abbrev win25 : Fin 10 → Pipeline.Window sig grid25 := fun | 0 => win25_0 | 1 => win25_1 | 2 => win25_2 | 3 => win25_3 | 4 => win25_4 | 5 => win25_5 | 6 => win25_6 | 7 => win25_7 | 8 => win25_8 | 9 => win25_9 | ⟨_ + 10, h⟩ => absurd h (Nat.not_lt.2 (Nat.le_add_left _ _))
abbrev spec25 : Fin 10 → Pipeline.WinSpec sig grid25.rank := fun w => (win25 w).toWinSpec

abbrev idle25 : Fin 10 → grid25.Coords → Bool := fun | 0 => fun _ => false | 1 => fun _ => false | 2 => fun _ => false | 3 => fun _ => false | 4 => fun _ => false | 5 => fun i => !(k25_cond2 i == 1#1) | 6 => fun i => !(k25_cond2 i == 1#1) | 7 => fun i => !(k25_cond2 i == 1#1) | 8 => fun i => !(k25_cond2 i == 1#1) | 9 => fun i => !(k25_cond2 i == 1#1) | ⟨_ + 10, h⟩ => absurd h (Nat.not_lt.2 (Nat.le_add_left _ _))

abbrev win26_0 : Pipeline.Window sig grid26 :=
  Pipeline.Window.ofSpec (Memref.whole main_v603) S5000x1.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v170) S5000x128.size cc26_transform_1 reads26_1 false false 2 stage26_1 sem26_1
    hrank26 hreads26_1 hinb26_1 nbuf26_1 (Memref.isWhole_whole _) hwx26_1 hstage26_1

abbrev win26_2 : Pipeline.Window sig grid26 :=
  Pipeline.Window.ofSpec (Memref.whole main_v302) S5000x128.size cc26_transform_2 reads26_2 false false 2 stage26_2 sem26_2
    hrank26 hreads26_2 hinb26_2 nbuf26_2 (Memref.isWhole_whole _) hwx26_2 hstage26_2

abbrev win26_3 : Pipeline.Window sig grid26 :=
  Pipeline.Window.ofSpec (Memref.whole main_v434) S5000x128.size cc26_transform_3 reads26_3 false false 2 stage26_3 sem26_3
    hrank26 hreads26_3 hinb26_3 nbuf26_3 (Memref.isWhole_whole _) hwx26_3 hstage26_3

abbrev win26_4 : Pipeline.Window sig grid26 :=
  Pipeline.Window.ofSpec (Memref.whole main_v566) S5000x128.size cc26_transform_4 reads26_4 false false 2 stage26_4 sem26_4
    hrank26 hreads26_4 hinb26_4 nbuf26_4 (Memref.isWhole_whole _) hwx26_4 hstage26_4

abbrev win26_5 : Pipeline.Window sig grid26 :=
  Pipeline.Window.ofSpec (Memref.whole main_v604_0) S64x128.size cc26_transform_5 reads26_5 true true 1 stage26_5 sem26_5
    hrank26 hreads26_5 hinb26_5 nbuf26_5 (Memref.isWhole_whole _) hwx26_5 hstage26_5

abbrev win26_6 : Pipeline.Window sig grid26 :=
  Pipeline.Window.ofSpec (Memref.whole main_v604_1) S64x128.size cc26_transform_6 reads26_6 true true 1 stage26_6 sem26_6
    hrank26 hreads26_6 hinb26_6 nbuf26_6 (Memref.isWhole_whole _) hwx26_6 hstage26_6

abbrev win26_7 : Pipeline.Window sig grid26 :=
  Pipeline.Window.ofSpec (Memref.whole main_v604_2) S64x128.size cc26_transform_7 reads26_7 true true 1 stage26_7 sem26_7
    hrank26 hreads26_7 hinb26_7 nbuf26_7 (Memref.isWhole_whole _) hwx26_7 hstage26_7

abbrev win26_8 : Pipeline.Window sig grid26 :=
  Pipeline.Window.ofSpec (Memref.whole main_v604_3) S64x128.size cc26_transform_8 reads26_8 true true 1 stage26_8 sem26_8
    hrank26 hreads26_8 hinb26_8 nbuf26_8 (Memref.isWhole_whole _) hwx26_8 hstage26_8

abbrev win26_9 : Pipeline.Window sig grid26 :=
  Pipeline.Window.ofSpec (Memref.whole main_v604_4) S64x1.size cc26_transform_9 reads26_9 true true 1 stage26_9 sem26_9
    hrank26 hreads26_9 hinb26_9 nbuf26_9 (Memref.isWhole_whole _) hwx26_9 hstage26_9

abbrev win26 : Fin 10 → Pipeline.Window sig grid26 := fun | 0 => win26_0 | 1 => win26_1 | 2 => win26_2 | 3 => win26_3 | 4 => win26_4 | 5 => win26_5 | 6 => win26_6 | 7 => win26_7 | 8 => win26_8 | 9 => win26_9 | ⟨_ + 10, h⟩ => absurd h (Nat.not_lt.2 (Nat.le_add_left _ _))
abbrev spec26 : Fin 10 → Pipeline.WinSpec sig grid26.rank := fun w => (win26 w).toWinSpec

abbrev idle26 : Fin 10 → grid26.Coords → Bool := fun | 0 => fun _ => false | 1 => fun _ => false | 2 => fun _ => false | 3 => fun _ => false | 4 => fun _ => false | 5 => fun i => !(k26_cond2 i == 1#1) | 6 => fun i => !(k26_cond2 i == 1#1) | 7 => fun i => !(k26_cond2 i == 1#1) | 8 => fun i => !(k26_cond2 i == 1#1) | 9 => fun i => !(k26_cond2 i == 1#1) | ⟨_ + 10, h⟩ => absurd h (Nat.not_lt.2 (Nat.le_add_left _ _))

class Facts : Prop extends Facts₀ where

variable [Facts]
-- ==== ReferenceIdeal.lean ====
abbrev S50000 : Shape := ⟨1, ![50000]⟩
abbrev S3x400000 : Shape := ⟨2, ![3, 400000]⟩
abbrev S3x50000 : Shape := ⟨2, ![3, 50000]⟩
abbrev S257x64 : Shape := ⟨2, ![257, 64]⟩
abbrev S3x64x128 : Shape := ⟨3, ![3, 64, 128]⟩
abbrev S3x128 : Shape := ⟨2, ![3, 128]⟩
abbrev S3x3x128x128 : Shape := ⟨4, ![3, 3, 128, 128]⟩
abbrev S3x3x128 : Shape := ⟨3, ![3, 3, 128]⟩
abbrev S_ : Shape := ⟨0, ![]⟩
abbrev S50000x1 : Shape := ⟨2, ![50000, 1]⟩
abbrev S50000x64 : Shape := ⟨2, ![50000, 64]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S1x64x128 : Shape := ⟨3, ![1, 64, 128]⟩
abbrev S64x128 : Shape := ⟨2, ![64, 128]⟩
abbrev S50000x128 : Shape := ⟨2, ![50000, 128]⟩
abbrev S1x128 : Shape := ⟨2, ![1, 128]⟩
abbrev S128 : Shape := ⟨1, ![128]⟩
abbrev S1x3x128x128 : Shape := ⟨4, ![1, 3, 128, 128]⟩
abbrev S3x128x128 : Shape := ⟨3, ![3, 128, 128]⟩
abbrev S1x3x128 : Shape := ⟨3, ![1, 3, 128]⟩
abbrev S400000x128 : Shape := ⟨2, ![400000, 128]⟩
abbrev S1x128x128 : Shape := ⟨3, ![1, 128, 128]⟩
abbrev S128x128 : Shape := ⟨2, ![128, 128]⟩
abbrev S50000x512 : Shape := ⟨2, ![50000, 512]⟩
abbrev S1x50000 : Shape := ⟨2, ![1, 50000]⟩
abbrev S64x512 : Shape := ⟨2, ![64, 512]⟩
abbrev S64x1 : Shape := ⟨2, ![64, 1]⟩
abbrev S64x1536 : Shape := ⟨2, ![64, 1536]⟩

abbrev nBuf : Space → Nat
  | .hbm => 1333
  | .vmem => 0
  | .smem => 0
  | _ => 0

abbrev hbmTy0_0 (i : Nat) : BufTy := match i % 128 with
  | 0 => ⟨S50000, .i32⟩
  | 1 => ⟨S50000, .i32⟩
  | 2 => ⟨S50000, .i32⟩
  | 3 => ⟨S3x400000, .i32⟩
  | 4 => ⟨S3x400000, .i32⟩
  | 5 => ⟨S3x50000, .i32⟩
  | 6 => ⟨S257x64, .f32⟩
  | 7 => ⟨S257x64, .f32⟩
  | 8 => ⟨S257x64, .f32⟩
  | 9 => ⟨S3x64x128, .f32⟩
  | 10 => ⟨S3x64x128, .f32⟩
  | 11 => ⟨S3x128, .f32⟩
  | 12 => ⟨S3x128, .f32⟩
  | 13 => ⟨S3x128, .f32⟩
  | 14 => ⟨S3x128, .f32⟩
  | 15 => ⟨S3x3x128x128, .f32⟩
  | 16 => ⟨S3x3x128x128, .f32⟩
  | 17 => ⟨S3x3x128, .f32⟩
  | 18 => ⟨S3x3x128, .f32⟩
  | 19 => ⟨S3x3x128, .f32⟩
  | 20 => ⟨S3x3x128, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x64, .f32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x64, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x64, .f32⟩
  | 48 => ⟨S1x400000, .i32⟩
  | 49 => ⟨S400000, .i32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x64, .f32⟩
  | 59 => ⟨S1x400000, .i32⟩
  | 60 => ⟨S400000, .i32⟩
  | 61 => ⟨S_, .f32⟩
  | 62 => ⟨S50000x64, .f32⟩
  | 63 => ⟨S400000x1, .i32⟩
  | 64 => ⟨S50000x64, .f32⟩
  | 65 => ⟨S_, .f32⟩
  | 66 => ⟨S400000x1, .f32⟩
  | 67 => ⟨S1x400000, .i32⟩
  | 68 => ⟨S400000, .i32⟩
  | 69 => ⟨S_, .f32⟩
  | 70 => ⟨S50000x1, .f32⟩
  | 71 => ⟨S400000x1, .i32⟩
  | 72 => ⟨S50000x1, .f32⟩
  | 73 => ⟨S_, .f32⟩
  | 74 => ⟨S50000x1, .f32⟩
  | 75 => ⟨S50000x1, .f32⟩
  | 76 => ⟨S50000x64, .f32⟩
  | 77 => ⟨S50000x64, .f32⟩
  | 78 => ⟨S1x64x128, .f32⟩
  | 79 => ⟨S64x128, .f32⟩
  | 80 => ⟨S50000x128, .f32⟩
  | 81 => ⟨S1x64x128, .f32⟩
  | 82 => ⟨S64x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S128, .f32⟩
  | 92 => ⟨S_, .f32⟩
  | 93 => ⟨S50000x128, .f32⟩
  | 94 => ⟨S50000x128, .i1⟩
  | 95 => ⟨S1x128, .f32⟩
  | 96 => ⟨S50000x128, .f32⟩
  | 97 => ⟨S50000x128, .f32⟩
  | 98 => ⟨S50000x128, .f32⟩
  | 99 => ⟨S1x128, .f32⟩
  | 100 => ⟨S128, .f32⟩
  | 101 => ⟨S1x128, .f32⟩
  | 102 => ⟨S128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000, .i32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S1x400000, .i32⟩
  | 20 => ⟨S400000, .i32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x64, .f32⟩
  | 30 => ⟨S1x400000, .i32⟩
  | 31 => ⟨S400000, .i32⟩
  | 32 => ⟨S_, .f32⟩
  | 33 => ⟨S50000x64, .f32⟩
  | 34 => ⟨S400000x1, .i32⟩
  | 35 => ⟨S50000x64, .f32⟩
  | 36 => ⟨S_, .f32⟩
  | 37 => ⟨S400000x1, .f32⟩
  | 38 => ⟨S1x400000, .i32⟩
  | 39 => ⟨S400000, .i32⟩
  | 40 => ⟨S_, .f32⟩
  | 41 => ⟨S50000x1, .f32⟩
  | 42 => ⟨S400000x1, .i32⟩
  | 43 => ⟨S50000x1, .f32⟩
  | 44 => ⟨S_, .f32⟩
  | 45 => ⟨S50000x1, .f32⟩
  | 46 => ⟨S50000x1, .f32⟩
  | 47 => ⟨S50000x64, .f32⟩
  | 48 => ⟨S50000x64, .f32⟩
  | 49 => ⟨S1x64x128, .f32⟩
  | 50 => ⟨S64x128, .f32⟩
  | 51 => ⟨S50000x128, .f32⟩
  | 52 => ⟨S1x64x128, .f32⟩
  | 53 => ⟨S64x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S128, .f32⟩
  | 63 => ⟨S_, .f32⟩
  | 64 => ⟨S50000x128, .f32⟩
  | 65 => ⟨S50000x128, .i1⟩
  | 66 => ⟨S1x128, .f32⟩
  | 67 => ⟨S50000x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S1x400000, .i32⟩
  | 119 => ⟨S400000, .i32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S50000, .i32⟩

abbrev hbmTy0_2 (i : Nat) : BufTy := match i % 128 with
  | 0 => ⟨S400000x64, .f32⟩
  | 1 => ⟨S1x400000, .i32⟩
  | 2 => ⟨S400000, .i32⟩
  | 3 => ⟨S_, .f32⟩
  | 4 => ⟨S50000x64, .f32⟩
  | 5 => ⟨S400000x1, .i32⟩
  | 6 => ⟨S50000x64, .f32⟩
  | 7 => ⟨S_, .f32⟩
  | 8 => ⟨S400000x1, .f32⟩
  | 9 => ⟨S1x400000, .i32⟩
  | 10 => ⟨S400000, .i32⟩
  | 11 => ⟨S_, .f32⟩
  | 12 => ⟨S50000x1, .f32⟩
  | 13 => ⟨S400000x1, .i32⟩
  | 14 => ⟨S50000x1, .f32⟩
  | 15 => ⟨S_, .f32⟩
  | 16 => ⟨S50000x1, .f32⟩
  | 17 => ⟨S50000x1, .f32⟩
  | 18 => ⟨S50000x64, .f32⟩
  | 19 => ⟨S50000x64, .f32⟩
  | 20 => ⟨S1x64x128, .f32⟩
  | 21 => ⟨S64x128, .f32⟩
  | 22 => ⟨S50000x128, .f32⟩
  | 23 => ⟨S1x64x128, .f32⟩
  | 24 => ⟨S64x128, .f32⟩
  | 25 => ⟨S50000x128, .f32⟩
  | 26 => ⟨S50000x128, .f32⟩
  | 27 => ⟨S1x128, .f32⟩
  | 28 => ⟨S128, .f32⟩
  | 29 => ⟨S1x128, .f32⟩
  | 30 => ⟨S50000x128, .f32⟩
  | 31 => ⟨S50000x128, .f32⟩
  | 32 => ⟨S1x128, .f32⟩
  | 33 => ⟨S128, .f32⟩
  | 34 => ⟨S_, .f32⟩
  | 35 => ⟨S50000x128, .f32⟩
  | 36 => ⟨S50000x128, .i1⟩
  | 37 => ⟨S1x128, .f32⟩
  | 38 => ⟨S50000x128, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x3x128x128, .f32⟩
  | 90 => ⟨S3x128x128, .f32⟩
  | 91 => ⟨S1x3x128x128, .f32⟩
  | 92 => ⟨S3x128x128, .f32⟩
  | 93 => ⟨S1x3x128, .f32⟩
  | 94 => ⟨S3x128, .f32⟩
  | 95 => ⟨S1x3x128, .f32⟩
  | 96 => ⟨S3x128, .f32⟩
  | 97 => ⟨S1x3x128, .f32⟩
  | 98 => ⟨S3x128, .f32⟩
  | 99 => ⟨S1x3x128, .f32⟩
  | 100 => ⟨S3x128, .f32⟩
  | 101 => ⟨S1x400000, .i32⟩
  | 102 => ⟨S400000, .i32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x128, .f32⟩
  | 112 => ⟨S1x400000, .i32⟩
  | 113 => ⟨S400000, .i32⟩
  | 114 => ⟨S_, .f32⟩
  | 115 => ⟨S50000x128, .f32⟩
  | 116 => ⟨S400000x1, .i32⟩
  | 117 => ⟨S50000x128, .f32⟩
  | 118 => ⟨S_, .f32⟩
  | 119 => ⟨S400000x1, .f32⟩
  | 120 => ⟨S1x400000, .i32⟩
  | 121 => ⟨S400000, .i32⟩
  | 122 => ⟨S_, .f32⟩
  | 123 => ⟨S50000x1, .f32⟩
  | 124 => ⟨S400000x1, .i32⟩
  | 125 => ⟨S50000x1, .f32⟩
  | 126 => ⟨S_, .f32⟩
  | 127 => ⟨S50000x1, .f32⟩
  | _ => ⟨S50000, .i32⟩

abbrev hbmTy0_3 (i : Nat) : BufTy := match i % 128 with
  | 0 => ⟨S50000x1, .f32⟩
  | 1 => ⟨S50000x128, .f32⟩
  | 2 => ⟨S50000x128, .f32⟩
  | 3 => ⟨S1x128x128, .f32⟩
  | 4 => ⟨S128x128, .f32⟩
  | 5 => ⟨S50000x128, .f32⟩
  | 6 => ⟨S1x128x128, .f32⟩
  | 7 => ⟨S128x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S128, .f32⟩
  | 17 => ⟨S_, .f32⟩
  | 18 => ⟨S50000x128, .f32⟩
  | 19 => ⟨S50000x128, .i1⟩
  | 20 => ⟨S1x128, .f32⟩
  | 21 => ⟨S50000x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1x400000, .i32⟩
  | 73 => ⟨S400000, .i32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x128, .f32⟩
  | 83 => ⟨S1x400000, .i32⟩
  | 84 => ⟨S400000, .i32⟩
  | 85 => ⟨S_, .f32⟩
  | 86 => ⟨S50000x128, .f32⟩
  | 87 => ⟨S400000x1, .i32⟩
  | 88 => ⟨S50000x128, .f32⟩
  | 89 => ⟨S_, .f32⟩
  | 90 => ⟨S400000x1, .f32⟩
  | 91 => ⟨S1x400000, .i32⟩
  | 92 => ⟨S400000, .i32⟩
  | 93 => ⟨S_, .f32⟩
  | 94 => ⟨S50000x1, .f32⟩
  | 95 => ⟨S400000x1, .i32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128x128, .f32⟩
  | 106 => ⟨S128x128, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S_, .f32⟩
  | 117 => ⟨S50000x128, .f32⟩
  | 118 => ⟨S50000x128, .i1⟩
  | 119 => ⟨S1x128, .f32⟩
  | 120 => ⟨S50000x128, .f32⟩
  | 121 => ⟨S50000x128, .f32⟩
  | 122 => ⟨S50000x128, .f32⟩
  | 123 => ⟨S1x128, .f32⟩
  | 124 => ⟨S128, .f32⟩
  | 125 => ⟨S1x128, .f32⟩
  | 126 => ⟨S128, .f32⟩
  | 127 => ⟨S_, .f32⟩
  | _ => ⟨S50000, .i32⟩

abbrev hbmTy0_4 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S1x400000, .i32⟩
  | 44 => ⟨S400000, .i32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x128, .f32⟩
  | 54 => ⟨S1x400000, .i32⟩
  | 55 => ⟨S400000, .i32⟩
  | 56 => ⟨S_, .f32⟩
  | 57 => ⟨S50000x128, .f32⟩
  | 58 => ⟨S400000x1, .i32⟩
  | 59 => ⟨S50000x128, .f32⟩
  | 60 => ⟨S_, .f32⟩
  | 61 => ⟨S400000x1, .f32⟩
  | 62 => ⟨S1x400000, .i32⟩
  | 63 => ⟨S400000, .i32⟩
  | 64 => ⟨S_, .f32⟩
  | 65 => ⟨S50000x1, .f32⟩
  | 66 => ⟨S400000x1, .i32⟩
  | 67 => ⟨S50000x1, .f32⟩
  | 68 => ⟨S_, .f32⟩
  | 69 => ⟨S50000x1, .f32⟩
  | 70 => ⟨S50000x1, .f32⟩
  | 71 => ⟨S50000x128, .f32⟩
  | 72 => ⟨S50000x128, .f32⟩
  | 73 => ⟨S1x128x128, .f32⟩
  | 74 => ⟨S128x128, .f32⟩
  | 75 => ⟨S50000x128, .f32⟩
  | 76 => ⟨S1x128x128, .f32⟩
  | 77 => ⟨S128x128, .f32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S128, .f32⟩
  | 87 => ⟨S_, .f32⟩
  | 88 => ⟨S50000x128, .f32⟩
  | 89 => ⟨S50000x128, .i1⟩
  | 90 => ⟨S1x128, .f32⟩
  | 91 => ⟨S50000x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S128, .f32⟩
  | 98 => ⟨S_, .f32⟩
  | 99 => ⟨S128, .f32⟩
  | 100 => ⟨S_, .f32⟩
  | 101 => ⟨S128, .f32⟩
  | 102 => ⟨S128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .i1⟩
  | 122 => ⟨S_, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000, .i32⟩

abbrev hbmTy0_5 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1x3x128x128, .f32⟩
  | 15 => ⟨S3x128x128, .f32⟩
  | 16 => ⟨S1x3x128x128, .f32⟩
  | 17 => ⟨S3x128x128, .f32⟩
  | 18 => ⟨S1x3x128, .f32⟩
  | 19 => ⟨S3x128, .f32⟩
  | 20 => ⟨S1x3x128, .f32⟩
  | 21 => ⟨S3x128, .f32⟩
  | 22 => ⟨S1x3x128, .f32⟩
  | 23 => ⟨S3x128, .f32⟩
  | 24 => ⟨S1x3x128, .f32⟩
  | 25 => ⟨S3x128, .f32⟩
  | 26 => ⟨S1x400000, .i32⟩
  | 27 => ⟨S400000, .i32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S1x400000, .i32⟩
  | 38 => ⟨S400000, .i32⟩
  | 39 => ⟨S_, .f32⟩
  | 40 => ⟨S50000x128, .f32⟩
  | 41 => ⟨S400000x1, .i32⟩
  | 42 => ⟨S50000x128, .f32⟩
  | 43 => ⟨S_, .f32⟩
  | 44 => ⟨S400000x1, .f32⟩
  | 45 => ⟨S1x400000, .i32⟩
  | 46 => ⟨S400000, .i32⟩
  | 47 => ⟨S_, .f32⟩
  | 48 => ⟨S50000x1, .f32⟩
  | 49 => ⟨S400000x1, .i32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S1x128x128, .f32⟩
  | 57 => ⟨S128x128, .f32⟩
  | 58 => ⟨S50000x128, .f32⟩
  | 59 => ⟨S1x128x128, .f32⟩
  | 60 => ⟨S128x128, .f32⟩
  | 61 => ⟨S50000x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S128, .f32⟩
  | 70 => ⟨S_, .f32⟩
  | 71 => ⟨S50000x128, .f32⟩
  | 72 => ⟨S50000x128, .i1⟩
  | 73 => ⟨S1x128, .f32⟩
  | 74 => ⟨S50000x128, .f32⟩
  | 75 => ⟨S50000x128, .f32⟩
  | 76 => ⟨S50000x128, .f32⟩
  | 77 => ⟨S1x128, .f32⟩
  | 78 => ⟨S128, .f32⟩
  | 79 => ⟨S1x128, .f32⟩
  | 80 => ⟨S128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S128, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S1x400000, .i32⟩
  | 126 => ⟨S400000, .i32⟩
  | 127 => ⟨S_, .i32⟩
  | _ => ⟨S50000, .i32⟩

abbrev hbmTy0_6 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x128, .f32⟩
  | 8 => ⟨S1x400000, .i32⟩
  | 9 => ⟨S400000, .i32⟩
  | 10 => ⟨S_, .f32⟩
  | 11 => ⟨S50000x128, .f32⟩
  | 12 => ⟨S400000x1, .i32⟩
  | 13 => ⟨S50000x128, .f32⟩
  | 14 => ⟨S_, .f32⟩
  | 15 => ⟨S400000x1, .f32⟩
  | 16 => ⟨S1x400000, .i32⟩
  | 17 => ⟨S400000, .i32⟩
  | 18 => ⟨S_, .f32⟩
  | 19 => ⟨S50000x1, .f32⟩
  | 20 => ⟨S400000x1, .i32⟩
  | 21 => ⟨S50000x1, .f32⟩
  | 22 => ⟨S_, .f32⟩
  | 23 => ⟨S50000x1, .f32⟩
  | 24 => ⟨S50000x1, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128x128, .f32⟩
  | 31 => ⟨S128x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S_, .f32⟩
  | 42 => ⟨S50000x128, .f32⟩
  | 43 => ⟨S50000x128, .i1⟩
  | 44 => ⟨S1x128, .f32⟩
  | 45 => ⟨S50000x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S128, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S1x400000, .i32⟩
  | 97 => ⟨S400000, .i32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x128, .f32⟩
  | 107 => ⟨S1x400000, .i32⟩
  | 108 => ⟨S400000, .i32⟩
  | 109 => ⟨S_, .f32⟩
  | 110 => ⟨S50000x128, .f32⟩
  | 111 => ⟨S400000x1, .i32⟩
  | 112 => ⟨S50000x128, .f32⟩
  | 113 => ⟨S_, .f32⟩
  | 114 => ⟨S400000x1, .f32⟩
  | 115 => ⟨S1x400000, .i32⟩
  | 116 => ⟨S400000, .i32⟩
  | 117 => ⟨S_, .f32⟩
  | 118 => ⟨S50000x1, .f32⟩
  | 119 => ⟨S400000x1, .i32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S1x128x128, .f32⟩
  | 127 => ⟨S128x128, .f32⟩
  | _ => ⟨S50000, .i32⟩

abbrev hbmTy0_7 (i : Nat) : BufTy := match i % 128 with
  | 0 => ⟨S50000x128, .f32⟩
  | 1 => ⟨S1x128x128, .f32⟩
  | 2 => ⟨S128x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S128, .f32⟩
  | 12 => ⟨S_, .f32⟩
  | 13 => ⟨S50000x128, .f32⟩
  | 14 => ⟨S50000x128, .i1⟩
  | 15 => ⟨S1x128, .f32⟩
  | 16 => ⟨S50000x128, .f32⟩
  | 17 => ⟨S50000x128, .f32⟩
  | 18 => ⟨S50000x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S50000x128, .f32⟩
  | 36 => ⟨S50000x128, .f32⟩
  | 37 => ⟨S50000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S1x3x128x128, .f32⟩
  | 68 => ⟨S3x128x128, .f32⟩
  | 69 => ⟨S1x3x128x128, .f32⟩
  | 70 => ⟨S3x128x128, .f32⟩
  | 71 => ⟨S1x3x128, .f32⟩
  | 72 => ⟨S3x128, .f32⟩
  | 73 => ⟨S1x3x128, .f32⟩
  | 74 => ⟨S3x128, .f32⟩
  | 75 => ⟨S1x3x128, .f32⟩
  | 76 => ⟨S3x128, .f32⟩
  | 77 => ⟨S1x3x128, .f32⟩
  | 78 => ⟨S3x128, .f32⟩
  | 79 => ⟨S1x400000, .i32⟩
  | 80 => ⟨S400000, .i32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x128, .f32⟩
  | 90 => ⟨S1x400000, .i32⟩
  | 91 => ⟨S400000, .i32⟩
  | 92 => ⟨S_, .f32⟩
  | 93 => ⟨S50000x128, .f32⟩
  | 94 => ⟨S400000x1, .i32⟩
  | 95 => ⟨S50000x128, .f32⟩
  | 96 => ⟨S_, .f32⟩
  | 97 => ⟨S400000x1, .f32⟩
  | 98 => ⟨S1x400000, .i32⟩
  | 99 => ⟨S400000, .i32⟩
  | 100 => ⟨S_, .f32⟩
  | 101 => ⟨S50000x1, .f32⟩
  | 102 => ⟨S400000x1, .i32⟩
  | 103 => ⟨S50000x1, .f32⟩
  | 104 => ⟨S_, .f32⟩
  | 105 => ⟨S50000x1, .f32⟩
  | 106 => ⟨S50000x1, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S1x128x128, .f32⟩
  | 113 => ⟨S128x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S128, .f32⟩
  | 123 => ⟨S_, .f32⟩
  | 124 => ⟨S50000x128, .f32⟩
  | 125 => ⟨S50000x128, .i1⟩
  | 126 => ⟨S1x128, .f32⟩
  | 127 => ⟨S50000x128, .f32⟩
  | _ => ⟨S50000, .i32⟩

abbrev hbmTy0_8 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S50000x128, .f32⟩
  | 19 => ⟨S50000x128, .f32⟩
  | 20 => ⟨S50000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S128, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S1x400000, .i32⟩
  | 51 => ⟨S400000, .i32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000x128, .f32⟩
  | 61 => ⟨S1x400000, .i32⟩
  | 62 => ⟨S400000, .i32⟩
  | 63 => ⟨S_, .f32⟩
  | 64 => ⟨S50000x128, .f32⟩
  | 65 => ⟨S400000x1, .i32⟩
  | 66 => ⟨S50000x128, .f32⟩
  | 67 => ⟨S_, .f32⟩
  | 68 => ⟨S400000x1, .f32⟩
  | 69 => ⟨S1x400000, .i32⟩
  | 70 => ⟨S400000, .i32⟩
  | 71 => ⟨S_, .f32⟩
  | 72 => ⟨S50000x1, .f32⟩
  | 73 => ⟨S400000x1, .i32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128x128, .f32⟩
  | 84 => ⟨S128x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S128, .f32⟩
  | 94 => ⟨S_, .f32⟩
  | 95 => ⟨S50000x128, .f32⟩
  | 96 => ⟨S50000x128, .i1⟩
  | 97 => ⟨S1x128, .f32⟩
  | 98 => ⟨S50000x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S50000, .i32⟩

abbrev hbmTy0_9 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S1x400000, .i32⟩
  | 22 => ⟨S400000, .i32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x128, .f32⟩
  | 32 => ⟨S1x400000, .i32⟩
  | 33 => ⟨S400000, .i32⟩
  | 34 => ⟨S_, .f32⟩
  | 35 => ⟨S50000x128, .f32⟩
  | 36 => ⟨S400000x1, .i32⟩
  | 37 => ⟨S50000x128, .f32⟩
  | 38 => ⟨S_, .f32⟩
  | 39 => ⟨S400000x1, .f32⟩
  | 40 => ⟨S1x400000, .i32⟩
  | 41 => ⟨S400000, .i32⟩
  | 42 => ⟨S_, .f32⟩
  | 43 => ⟨S50000x1, .f32⟩
  | 44 => ⟨S400000x1, .i32⟩
  | 45 => ⟨S50000x1, .f32⟩
  | 46 => ⟨S_, .f32⟩
  | 47 => ⟨S50000x1, .f32⟩
  | 48 => ⟨S50000x1, .f32⟩
  | 49 => ⟨S50000x128, .f32⟩
  | 50 => ⟨S50000x128, .f32⟩
  | 51 => ⟨S1x128x128, .f32⟩
  | 52 => ⟨S128x128, .f32⟩
  | 53 => ⟨S50000x128, .f32⟩
  | 54 => ⟨S1x128x128, .f32⟩
  | 55 => ⟨S128x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S128, .f32⟩
  | 65 => ⟨S_, .f32⟩
  | 66 => ⟨S50000x128, .f32⟩
  | 67 => ⟨S50000x128, .i1⟩
  | 68 => ⟨S1x128, .f32⟩
  | 69 => ⟨S50000x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x512, .f32⟩
  | 121 => ⟨S1x50000, .i32⟩
  | 122 => ⟨S50000, .i32⟩
  | 123 => ⟨S_, .f32⟩
  | 124 => ⟨S64x512, .f32⟩
  | 125 => ⟨S50000x1, .i32⟩
  | 126 => ⟨S64x512, .f32⟩
  | 127 => ⟨S_, .f32⟩
  | _ => ⟨S50000, .i32⟩

abbrev hbmTy0_10 (i : Nat) : BufTy := match i % 128 with
  | 0 => ⟨S50000x1, .f32⟩
  | 1 => ⟨S1x50000, .i32⟩
  | 2 => ⟨S50000, .i32⟩
  | 3 => ⟨S_, .f32⟩
  | 4 => ⟨S64x1, .f32⟩
  | 5 => ⟨S50000x1, .i32⟩
  | 6 => ⟨S64x1, .f32⟩
  | 7 => ⟨S_, .f32⟩
  | 8 => ⟨S64x1, .f32⟩
  | 9 => ⟨S64x1, .f32⟩
  | 10 => ⟨S64x512, .f32⟩
  | 11 => ⟨S64x512, .f32⟩
  | 12 => ⟨S50000x512, .f32⟩
  | 13 => ⟨S1x50000, .i32⟩
  | 14 => ⟨S50000, .i32⟩
  | 15 => ⟨S_, .f32⟩
  | 16 => ⟨S64x512, .f32⟩
  | 17 => ⟨S50000x1, .i32⟩
  | 18 => ⟨S64x512, .f32⟩
  | 19 => ⟨S_, .f32⟩
  | 20 => ⟨S50000x1, .f32⟩
  | 21 => ⟨S1x50000, .i32⟩
  | 22 => ⟨S50000, .i32⟩
  | 23 => ⟨S_, .f32⟩
  | 24 => ⟨S64x1, .f32⟩
  | 25 => ⟨S50000x1, .i32⟩
  | 26 => ⟨S64x1, .f32⟩
  | 27 => ⟨S_, .f32⟩
  | 28 => ⟨S64x1, .f32⟩
  | 29 => ⟨S64x1, .f32⟩
  | 30 => ⟨S64x512, .f32⟩
  | 31 => ⟨S64x512, .f32⟩
  | 32 => ⟨S50000x512, .f32⟩
  | 33 => ⟨S1x50000, .i32⟩
  | 34 => ⟨S50000, .i32⟩
  | 35 => ⟨S_, .f32⟩
  | 36 => ⟨S64x512, .f32⟩
  | 37 => ⟨S50000x1, .i32⟩
  | 38 => ⟨S64x512, .f32⟩
  | 39 => ⟨S_, .f32⟩
  | 40 => ⟨S50000x1, .f32⟩
  | 41 => ⟨S1x50000, .i32⟩
  | 42 => ⟨S50000, .i32⟩
  | 43 => ⟨S_, .f32⟩
  | 44 => ⟨S64x1, .f32⟩
  | 45 => ⟨S50000x1, .i32⟩
  | 46 => ⟨S64x1, .f32⟩
  | 47 => ⟨S_, .f32⟩
  | 48 => ⟨S64x1, .f32⟩
  | 49 => ⟨S64x1, .f32⟩
  | 50 => ⟨S64x512, .f32⟩
  | 51 => ⟨S64x512, .f32⟩
  | 52 => ⟨S64x1536, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_v71 : Ref sig .tc := ⟨.hbm, 107, rfl⟩
abbrev main_c_13 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_cst_3 : Ref sig .tc := ⟨.hbm, 125, rfl⟩
abbrev main_call1_v12 : Ref sig .tc := ⟨.hbm, 126, rfl⟩
abbrev main_call1_cst_4 : Ref sig .tc := ⟨.hbm, 127, rfl⟩
abbrev main_call1_call0_v0 : Ref sig .tc := ⟨.hbm, 128, rfl⟩
abbrev main_call1_call0_v1 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_14 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_15 : Ref sig .tc := ⟨.hbm, 149, rfl⟩
abbrev main_v90 : Ref sig .tc := ⟨.hbm, 150, rfl⟩
abbrev main_v91 : Ref sig .tc := ⟨.hbm, 151, rfl⟩
abbrev main_c_16 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_17 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_18 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_19 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_20 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_cst_21 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_cst_22 : Ref sig .tc := ⟨.hbm, 202, rfl⟩
abbrev main_v136 : Ref sig .tc := ⟨.hbm, 203, rfl⟩
abbrev main_cst_23 : Ref sig .tc := ⟨.hbm, 204, rfl⟩
abbrev main_v137 : Ref sig .tc := ⟨.hbm, 205, rfl⟩
abbrev main_v138 : Ref sig .tc := ⟨.hbm, 206, rfl⟩
abbrev main_c_24 : Ref sig .tc := ⟨.hbm, 207, rfl⟩
abbrev main_call3_cst : Ref sig .tc := ⟨.hbm, 208, rfl⟩
abbrev main_call3_v0 : Ref sig .tc := ⟨.hbm, 209, rfl⟩
abbrev main_call3_v1 : Ref sig .tc := ⟨.hbm, 210, rfl⟩
abbrev main_call3_cst_0 : Ref sig .tc := ⟨.hbm, 211, rfl⟩
abbrev main_call3_v2 : Ref sig .tc := ⟨.hbm, 212, rfl⟩
abbrev main_call3_v3 : Ref sig .tc := ⟨.hbm, 213, rfl⟩
abbrev main_call3_v4 : Ref sig .tc := ⟨.hbm, 214, rfl⟩
abbrev main_call3_v5 : Ref sig .tc := ⟨.hbm, 215, rfl⟩
abbrev main_call3_v6 : Ref sig .tc := ⟨.hbm, 216, rfl⟩
abbrev main_call3_v7 : Ref sig .tc := ⟨.hbm, 217, rfl⟩
abbrev main_call3_cst_1 : Ref sig .tc := ⟨.hbm, 218, rfl⟩
abbrev main_call3_v8 : Ref sig .tc := ⟨.hbm, 219, rfl⟩
abbrev main_call3_cst_2 : Ref sig .tc := ⟨.hbm, 220, rfl⟩
abbrev main_call3_v9 : Ref sig .tc := ⟨.hbm, 221, rfl⟩
abbrev main_call3_v10 : Ref sig .tc := ⟨.hbm, 222, rfl⟩
abbrev main_call3_v11 : Ref sig .tc := ⟨.hbm, 223, rfl⟩
abbrev main_call3_cst_3 : Ref sig .tc := ⟨.hbm, 224, rfl⟩
abbrev main_call3_v12 : Ref sig .tc := ⟨.hbm, 225, rfl⟩
abbrev main_call3_cst_4 : Ref sig .tc := ⟨.hbm, 226, rfl⟩
abbrev main_call3_call0_v0 : Ref sig .tc := ⟨.hbm, 227, rfl⟩
abbrev main_call3_call0_v1 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_cst_25 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_c_26 : Ref sig .tc := ⟨.hbm, 248, rfl⟩
abbrev main_v157 : Ref sig .tc := ⟨.hbm, 249, rfl⟩
abbrev main_v158 : Ref sig .tc := ⟨.hbm, 250, rfl⟩
abbrev main_c_27 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_cst_28 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_cst_29 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_cst_30 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_cst_31 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_cst_32 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_cst_33 : Ref sig .tc := ⟨.hbm, 301, rfl⟩
abbrev main_v203 : Ref sig .tc := ⟨.hbm, 302, rfl⟩
abbrev main_cst_34 : Ref sig .tc := ⟨.hbm, 303, rfl⟩
abbrev main_v204 : Ref sig .tc := ⟨.hbm, 304, rfl⟩
abbrev main_v205 : Ref sig .tc := ⟨.hbm, 305, rfl⟩
abbrev main_c_35 : Ref sig .tc := ⟨.hbm, 306, rfl⟩
abbrev main_call5_cst : Ref sig .tc := ⟨.hbm, 307, rfl⟩
abbrev main_call5_v0 : Ref sig .tc := ⟨.hbm, 308, rfl⟩
abbrev main_call5_v1 : Ref sig .tc := ⟨.hbm, 309, rfl⟩
abbrev main_call5_cst_0 : Ref sig .tc := ⟨.hbm, 310, rfl⟩
abbrev main_call5_v2 : Ref sig .tc := ⟨.hbm, 311, rfl⟩
abbrev main_call5_v3 : Ref sig .tc := ⟨.hbm, 312, rfl⟩
abbrev main_call5_v4 : Ref sig .tc := ⟨.hbm, 313, rfl⟩
abbrev main_call5_v5 : Ref sig .tc := ⟨.hbm, 314, rfl⟩
abbrev main_call5_v6 : Ref sig .tc := ⟨.hbm, 315, rfl⟩
abbrev main_call5_v7 : Ref sig .tc := ⟨.hbm, 316, rfl⟩
abbrev main_call5_cst_1 : Ref sig .tc := ⟨.hbm, 317, rfl⟩
abbrev main_call5_v8 : Ref sig .tc := ⟨.hbm, 318, rfl⟩
abbrev main_call5_cst_2 : Ref sig .tc := ⟨.hbm, 319, rfl⟩
abbrev main_call5_v9 : Ref sig .tc := ⟨.hbm, 320, rfl⟩
abbrev main_call5_v10 : Ref sig .tc := ⟨.hbm, 321, rfl⟩
abbrev main_call5_v11 : Ref sig .tc := ⟨.hbm, 322, rfl⟩
abbrev main_call5_cst_3 : Ref sig .tc := ⟨.hbm, 323, rfl⟩
abbrev main_call5_v12 : Ref sig .tc := ⟨.hbm, 324, rfl⟩
abbrev main_call5_cst_4 : Ref sig .tc := ⟨.hbm, 325, rfl⟩
abbrev main_call5_call0_v0 : Ref sig .tc := ⟨.hbm, 326, rfl⟩
abbrev main_call5_call0_v1 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_cst_36 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_v221 : Ref sig .tc := ⟨.hbm, 344, rfl⟩
abbrev main_v222 : Ref sig .tc := ⟨.hbm, 345, rfl⟩
abbrev main_v223 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_c_37 : Ref sig .tc := ⟨.hbm, 359, rfl⟩
abbrev main_v236 : Ref sig .tc := ⟨.hbm, 360, rfl⟩
abbrev main_v237 : Ref sig .tc := ⟨.hbm, 361, rfl⟩
abbrev main_c_38 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_v242 : Ref sig .tc := ⟨.hbm, 367, rfl⟩
abbrev main_v243 : Ref sig .tc := ⟨.hbm, 368, rfl⟩
abbrev main_v244 : Ref sig .tc := ⟨.hbm, 369, rfl⟩
abbrev main_cst_39 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_cst_40 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_cst_41 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_cst_42 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_v260 : Ref sig .tc := ⟨.hbm, 389, rfl⟩
abbrev main_v261 : Ref sig .tc := ⟨.hbm, 390, rfl⟩
abbrev main_v262 : Ref sig .tc := ⟨.hbm, 391, rfl⟩
abbrev main_v263 : Ref sig .tc := ⟨.hbm, 392, rfl⟩
abbrev main_v264 : Ref sig .tc := ⟨.hbm, 393, rfl⟩
abbrev main_v265 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_cst_43 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_cst_44 : Ref sig .tc := ⟨.hbm, 412, rfl⟩
abbrev main_v282 : Ref sig .tc := ⟨.hbm, 413, rfl⟩
abbrev main_cst_45 : Ref sig .tc := ⟨.hbm, 414, rfl⟩
abbrev main_v283 : Ref sig .tc := ⟨.hbm, 415, rfl⟩
abbrev main_v284 : Ref sig .tc := ⟨.hbm, 416, rfl⟩
abbrev main_c_46 : Ref sig .tc := ⟨.hbm, 417, rfl⟩
abbrev main_call7_cst : Ref sig .tc := ⟨.hbm, 418, rfl⟩
abbrev main_call7_v0 : Ref sig .tc := ⟨.hbm, 419, rfl⟩
abbrev main_call7_v1 : Ref sig .tc := ⟨.hbm, 420, rfl⟩
abbrev main_call7_cst_0 : Ref sig .tc := ⟨.hbm, 421, rfl⟩
abbrev main_call7_v2 : Ref sig .tc := ⟨.hbm, 422, rfl⟩
abbrev main_call7_v3 : Ref sig .tc := ⟨.hbm, 423, rfl⟩
abbrev main_call7_v4 : Ref sig .tc := ⟨.hbm, 424, rfl⟩
abbrev main_call7_v5 : Ref sig .tc := ⟨.hbm, 425, rfl⟩
abbrev main_call7_v6 : Ref sig .tc := ⟨.hbm, 426, rfl⟩
abbrev main_call7_v7 : Ref sig .tc := ⟨.hbm, 427, rfl⟩
abbrev main_call7_cst_1 : Ref sig .tc := ⟨.hbm, 428, rfl⟩
abbrev main_call7_v8 : Ref sig .tc := ⟨.hbm, 429, rfl⟩
abbrev main_call7_cst_2 : Ref sig .tc := ⟨.hbm, 430, rfl⟩
abbrev main_call7_v9 : Ref sig .tc := ⟨.hbm, 431, rfl⟩
abbrev main_call7_v10 : Ref sig .tc := ⟨.hbm, 432, rfl⟩
abbrev main_call7_v11 : Ref sig .tc := ⟨.hbm, 433, rfl⟩
abbrev main_call7_cst_3 : Ref sig .tc := ⟨.hbm, 434, rfl⟩
abbrev main_call7_v12 : Ref sig .tc := ⟨.hbm, 435, rfl⟩
abbrev main_call7_cst_4 : Ref sig .tc := ⟨.hbm, 436, rfl⟩
abbrev main_call7_call0_v0 : Ref sig .tc := ⟨.hbm, 437, rfl⟩
abbrev main_call7_call0_v1 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_cst_47 : Ref sig .tc := ⟨.hbm, 446, rfl⟩
abbrev main_v292 : Ref sig .tc := ⟨.hbm, 447, rfl⟩
abbrev main_v293 : Ref sig .tc := ⟨.hbm, 448, rfl⟩
abbrev main_v294 : Ref sig .tc := ⟨.hbm, 449, rfl⟩
abbrev main_v295 : Ref sig .tc := ⟨.hbm, 450, rfl⟩
abbrev main_v296 : Ref sig .tc := ⟨.hbm, 451, rfl⟩
abbrev main_v297 : Ref sig .tc := ⟨.hbm, 452, rfl⟩
abbrev main_v298 : Ref sig .tc := ⟨.hbm, 453, rfl⟩
abbrev main_v299 : Ref sig .tc := ⟨.hbm, 454, rfl⟩
abbrev main_v300 : Ref sig .tc := ⟨.hbm, 455, rfl⟩
abbrev main_v301 : Ref sig .tc := ⟨.hbm, 456, rfl⟩
abbrev main_v302 : Ref sig .tc := ⟨.hbm, 457, rfl⟩
abbrev main_c_48 : Ref sig .tc := ⟨.hbm, 458, rfl⟩
abbrev main_v303 : Ref sig .tc := ⟨.hbm, 459, rfl⟩
abbrev main_v304 : Ref sig .tc := ⟨.hbm, 460, rfl⟩
abbrev main_c_49 : Ref sig .tc := ⟨.hbm, 461, rfl⟩
abbrev main_v305 : Ref sig .tc := ⟨.hbm, 462, rfl⟩
abbrev main_v306 : Ref sig .tc := ⟨.hbm, 463, rfl⟩
abbrev main_v307 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_v311 : Ref sig .tc := ⟨.hbm, 468, rfl⟩
abbrev main_cst_50 : Ref sig .tc := ⟨.hbm, 469, rfl⟩
abbrev main_v312 : Ref sig .tc := ⟨.hbm, 470, rfl⟩
abbrev main_v313 : Ref sig .tc := ⟨.hbm, 471, rfl⟩
abbrev main_v314 : Ref sig .tc := ⟨.hbm, 472, rfl⟩
abbrev main_cst_51 : Ref sig .tc := ⟨.hbm, 473, rfl⟩
abbrev main_v315 : Ref sig .tc := ⟨.hbm, 474, rfl⟩
abbrev main_v316 : Ref sig .tc := ⟨.hbm, 475, rfl⟩
abbrev main_v317 : Ref sig .tc := ⟨.hbm, 476, rfl⟩
abbrev main_cst_52 : Ref sig .tc := ⟨.hbm, 477, rfl⟩
abbrev main_v318 : Ref sig .tc := ⟨.hbm, 478, rfl⟩
abbrev main_v319 : Ref sig .tc := ⟨.hbm, 479, rfl⟩
abbrev main_v320 : Ref sig .tc := ⟨.hbm, 480, rfl⟩
abbrev main_cst_53 : Ref sig .tc := ⟨.hbm, 481, rfl⟩
abbrev main_v321 : Ref sig .tc := ⟨.hbm, 482, rfl⟩
abbrev main_v322 : Ref sig .tc := ⟨.hbm, 483, rfl⟩
abbrev main_v323 : Ref sig .tc := ⟨.hbm, 484, rfl⟩
abbrev main_v324 : Ref sig .tc := ⟨.hbm, 485, rfl⟩
abbrev main_v325 : Ref sig .tc := ⟨.hbm, 486, rfl⟩
abbrev main_v326 : Ref sig .tc := ⟨.hbm, 487, rfl⟩
abbrev main_v327 : Ref sig .tc := ⟨.hbm, 488, rfl⟩
abbrev main_v328 : Ref sig .tc := ⟨.hbm, 489, rfl⟩
abbrev main_v329 : Ref sig .tc := ⟨.hbm, 490, rfl⟩
abbrev main_v330 : Ref sig .tc := ⟨.hbm, 491, rfl⟩
abbrev main_v331 : Ref sig .tc := ⟨.hbm, 492, rfl⟩
abbrev main_v332 : Ref sig .tc := ⟨.hbm, 493, rfl⟩
abbrev main_v333 : Ref sig .tc := ⟨.hbm, 494, rfl⟩
abbrev main_v334 : Ref sig .tc := ⟨.hbm, 495, rfl⟩
abbrev main_v335 : Ref sig .tc := ⟨.hbm, 496, rfl⟩
abbrev main_v336 : Ref sig .tc := ⟨.hbm, 497, rfl⟩
abbrev main_v337 : Ref sig .tc := ⟨.hbm, 498, rfl⟩
abbrev main_v338 : Ref sig .tc := ⟨.hbm, 499, rfl⟩
abbrev main_cst_54 : Ref sig .tc := ⟨.hbm, 500, rfl⟩
abbrev main_v339 : Ref sig .tc := ⟨.hbm, 501, rfl⟩
abbrev main_v340 : Ref sig .tc := ⟨.hbm, 502, rfl⟩
abbrev main_v341 : Ref sig .tc := ⟨.hbm, 503, rfl⟩
abbrev main_v342 : Ref sig .tc := ⟨.hbm, 504, rfl⟩
abbrev main_v343 : Ref sig .tc := ⟨.hbm, 505, rfl⟩
abbrev main_v344 : Ref sig .tc := ⟨.hbm, 506, rfl⟩
abbrev main_v345 : Ref sig .tc := ⟨.hbm, 507, rfl⟩
abbrev main_v346 : Ref sig .tc := ⟨.hbm, 508, rfl⟩
abbrev main_v347 : Ref sig .tc := ⟨.hbm, 509, rfl⟩
abbrev main_v348 : Ref sig .tc := ⟨.hbm, 510, rfl⟩
abbrev main_cst_55 : Ref sig .tc := ⟨.hbm, 511, rfl⟩
abbrev main_v349 : Ref sig .tc := ⟨.hbm, 512, rfl⟩
abbrev main_cst_56 : Ref sig .tc := ⟨.hbm, 513, rfl⟩
abbrev main_v350 : Ref sig .tc := ⟨.hbm, 514, rfl⟩
abbrev main_v351 : Ref sig .tc := ⟨.hbm, 515, rfl⟩
abbrev main_c_57 : Ref sig .tc := ⟨.hbm, 516, rfl⟩
abbrev main_call9_cst : Ref sig .tc := ⟨.hbm, 517, rfl⟩
abbrev main_call9_v0 : Ref sig .tc := ⟨.hbm, 518, rfl⟩
abbrev main_call9_v1 : Ref sig .tc := ⟨.hbm, 519, rfl⟩
abbrev main_call9_cst_0 : Ref sig .tc := ⟨.hbm, 520, rfl⟩
abbrev main_call9_v2 : Ref sig .tc := ⟨.hbm, 521, rfl⟩
abbrev main_call9_v3 : Ref sig .tc := ⟨.hbm, 522, rfl⟩
abbrev main_call9_v4 : Ref sig .tc := ⟨.hbm, 523, rfl⟩
abbrev main_call9_v5 : Ref sig .tc := ⟨.hbm, 524, rfl⟩
abbrev main_call9_v6 : Ref sig .tc := ⟨.hbm, 525, rfl⟩
abbrev main_call9_v7 : Ref sig .tc := ⟨.hbm, 526, rfl⟩
abbrev main_call9_cst_1 : Ref sig .tc := ⟨.hbm, 527, rfl⟩
abbrev main_call9_v8 : Ref sig .tc := ⟨.hbm, 528, rfl⟩
abbrev main_call9_cst_2 : Ref sig .tc := ⟨.hbm, 529, rfl⟩
abbrev main_call9_v9 : Ref sig .tc := ⟨.hbm, 530, rfl⟩
abbrev main_call9_v10 : Ref sig .tc := ⟨.hbm, 531, rfl⟩
abbrev main_call9_v11 : Ref sig .tc := ⟨.hbm, 532, rfl⟩
abbrev main_call9_cst_3 : Ref sig .tc := ⟨.hbm, 533, rfl⟩
abbrev main_call9_v12 : Ref sig .tc := ⟨.hbm, 534, rfl⟩
abbrev main_call9_cst_4 : Ref sig .tc := ⟨.hbm, 535, rfl⟩
abbrev main_call9_call0_v0 : Ref sig .tc := ⟨.hbm, 536, rfl⟩
abbrev main_call9_call0_v1 : Ref sig .tc := ⟨.hbm, 537, rfl⟩
abbrev main_v352 : Ref sig .tc := ⟨.hbm, 538, rfl⟩
abbrev main_v353 : Ref sig .tc := ⟨.hbm, 539, rfl⟩
abbrev main_v354 : Ref sig .tc := ⟨.hbm, 540, rfl⟩
abbrev main_v355 : Ref sig .tc := ⟨.hbm, 541, rfl⟩
abbrev main_v356 : Ref sig .tc := ⟨.hbm, 542, rfl⟩
abbrev main_v357 : Ref sig .tc := ⟨.hbm, 543, rfl⟩
abbrev main_v358 : Ref sig .tc := ⟨.hbm, 544, rfl⟩
abbrev main_cst_58 : Ref sig .tc := ⟨.hbm, 545, rfl⟩
abbrev main_v359 : Ref sig .tc := ⟨.hbm, 546, rfl⟩
abbrev main_v360 : Ref sig .tc := ⟨.hbm, 547, rfl⟩
abbrev main_v361 : Ref sig .tc := ⟨.hbm, 548, rfl⟩
abbrev main_v362 : Ref sig .tc := ⟨.hbm, 549, rfl⟩
abbrev main_v363 : Ref sig .tc := ⟨.hbm, 550, rfl⟩
abbrev main_v364 : Ref sig .tc := ⟨.hbm, 551, rfl⟩
abbrev main_v365 : Ref sig .tc := ⟨.hbm, 552, rfl⟩
abbrev main_v366 : Ref sig .tc := ⟨.hbm, 553, rfl⟩
abbrev main_v367 : Ref sig .tc := ⟨.hbm, 554, rfl⟩
abbrev main_v368 : Ref sig .tc := ⟨.hbm, 555, rfl⟩
abbrev main_v369 : Ref sig .tc := ⟨.hbm, 556, rfl⟩
abbrev main_c_59 : Ref sig .tc := ⟨.hbm, 557, rfl⟩
abbrev main_v370 : Ref sig .tc := ⟨.hbm, 558, rfl⟩
abbrev main_v371 : Ref sig .tc := ⟨.hbm, 559, rfl⟩
abbrev main_c_60 : Ref sig .tc := ⟨.hbm, 560, rfl⟩
abbrev main_v372 : Ref sig .tc := ⟨.hbm, 561, rfl⟩
abbrev main_v373 : Ref sig .tc := ⟨.hbm, 562, rfl⟩
abbrev main_v374 : Ref sig .tc := ⟨.hbm, 563, rfl⟩
abbrev main_v375 : Ref sig .tc := ⟨.hbm, 564, rfl⟩
abbrev main_v376 : Ref sig .tc := ⟨.hbm, 565, rfl⟩
abbrev main_v377 : Ref sig .tc := ⟨.hbm, 566, rfl⟩
abbrev main_v378 : Ref sig .tc := ⟨.hbm, 567, rfl⟩
abbrev main_cst_61 : Ref sig .tc := ⟨.hbm, 568, rfl⟩
abbrev main_v379 : Ref sig .tc := ⟨.hbm, 569, rfl⟩
abbrev main_v380 : Ref sig .tc := ⟨.hbm, 570, rfl⟩
abbrev main_v381 : Ref sig .tc := ⟨.hbm, 571, rfl⟩
abbrev main_cst_62 : Ref sig .tc := ⟨.hbm, 572, rfl⟩
abbrev main_v382 : Ref sig .tc := ⟨.hbm, 573, rfl⟩
abbrev main_v383 : Ref sig .tc := ⟨.hbm, 574, rfl⟩
abbrev main_v384 : Ref sig .tc := ⟨.hbm, 575, rfl⟩
abbrev main_cst_63 : Ref sig .tc := ⟨.hbm, 576, rfl⟩
abbrev main_v385 : Ref sig .tc := ⟨.hbm, 577, rfl⟩
abbrev main_v386 : Ref sig .tc := ⟨.hbm, 578, rfl⟩
abbrev main_v387 : Ref sig .tc := ⟨.hbm, 579, rfl⟩
abbrev main_cst_64 : Ref sig .tc := ⟨.hbm, 580, rfl⟩
abbrev main_v388 : Ref sig .tc := ⟨.hbm, 581, rfl⟩
abbrev main_v389 : Ref sig .tc := ⟨.hbm, 582, rfl⟩
abbrev main_v390 : Ref sig .tc := ⟨.hbm, 583, rfl⟩
abbrev main_v391 : Ref sig .tc := ⟨.hbm, 584, rfl⟩
abbrev main_v392 : Ref sig .tc := ⟨.hbm, 585, rfl⟩
abbrev main_v393 : Ref sig .tc := ⟨.hbm, 586, rfl⟩
abbrev main_v394 : Ref sig .tc := ⟨.hbm, 587, rfl⟩
abbrev main_v395 : Ref sig .tc := ⟨.hbm, 588, rfl⟩
abbrev main_v396 : Ref sig .tc := ⟨.hbm, 589, rfl⟩
abbrev main_v397 : Ref sig .tc := ⟨.hbm, 590, rfl⟩
abbrev main_v398 : Ref sig .tc := ⟨.hbm, 591, rfl⟩
abbrev main_v399 : Ref sig .tc := ⟨.hbm, 592, rfl⟩
abbrev main_v400 : Ref sig .tc := ⟨.hbm, 593, rfl⟩
abbrev main_v401 : Ref sig .tc := ⟨.hbm, 594, rfl⟩
abbrev main_v402 : Ref sig .tc := ⟨.hbm, 595, rfl⟩
abbrev main_v403 : Ref sig .tc := ⟨.hbm, 596, rfl⟩
abbrev main_v404 : Ref sig .tc := ⟨.hbm, 597, rfl⟩
abbrev main_v405 : Ref sig .tc := ⟨.hbm, 598, rfl⟩
abbrev main_cst_65 : Ref sig .tc := ⟨.hbm, 599, rfl⟩
abbrev main_v406 : Ref sig .tc := ⟨.hbm, 600, rfl⟩
abbrev main_v407 : Ref sig .tc := ⟨.hbm, 601, rfl⟩
abbrev main_v408 : Ref sig .tc := ⟨.hbm, 602, rfl⟩
abbrev main_v409 : Ref sig .tc := ⟨.hbm, 603, rfl⟩
abbrev main_v410 : Ref sig .tc := ⟨.hbm, 604, rfl⟩
abbrev main_v411 : Ref sig .tc := ⟨.hbm, 605, rfl⟩
abbrev main_v412 : Ref sig .tc := ⟨.hbm, 606, rfl⟩
abbrev main_v413 : Ref sig .tc := ⟨.hbm, 607, rfl⟩
abbrev main_v414 : Ref sig .tc := ⟨.hbm, 608, rfl⟩
abbrev main_v415 : Ref sig .tc := ⟨.hbm, 609, rfl⟩
abbrev main_cst_66 : Ref sig .tc := ⟨.hbm, 610, rfl⟩
abbrev main_v416 : Ref sig .tc := ⟨.hbm, 611, rfl⟩
abbrev main_cst_67 : Ref sig .tc := ⟨.hbm, 612, rfl⟩
abbrev main_v417 : Ref sig .tc := ⟨.hbm, 613, rfl⟩
abbrev main_v418 : Ref sig .tc := ⟨.hbm, 614, rfl⟩
abbrev main_c_68 : Ref sig .tc := ⟨.hbm, 615, rfl⟩
abbrev main_call11_cst : Ref sig .tc := ⟨.hbm, 616, rfl⟩
abbrev main_call11_v0 : Ref sig .tc := ⟨.hbm, 617, rfl⟩
abbrev main_call11_v1 : Ref sig .tc := ⟨.hbm, 618, rfl⟩
abbrev main_call11_cst_0 : Ref sig .tc := ⟨.hbm, 619, rfl⟩
abbrev main_call11_v2 : Ref sig .tc := ⟨.hbm, 620, rfl⟩
abbrev main_call11_v3 : Ref sig .tc := ⟨.hbm, 621, rfl⟩
abbrev main_call11_v4 : Ref sig .tc := ⟨.hbm, 622, rfl⟩
abbrev main_call11_v5 : Ref sig .tc := ⟨.hbm, 623, rfl⟩
abbrev main_call11_v6 : Ref sig .tc := ⟨.hbm, 624, rfl⟩
abbrev main_call11_v7 : Ref sig .tc := ⟨.hbm, 625, rfl⟩
abbrev main_call11_cst_1 : Ref sig .tc := ⟨.hbm, 626, rfl⟩
abbrev main_call11_v8 : Ref sig .tc := ⟨.hbm, 627, rfl⟩
abbrev main_call11_cst_2 : Ref sig .tc := ⟨.hbm, 628, rfl⟩
abbrev main_call11_v9 : Ref sig .tc := ⟨.hbm, 629, rfl⟩
abbrev main_call11_v10 : Ref sig .tc := ⟨.hbm, 630, rfl⟩
abbrev main_call11_v11 : Ref sig .tc := ⟨.hbm, 631, rfl⟩
abbrev main_call11_cst_3 : Ref sig .tc := ⟨.hbm, 632, rfl⟩
abbrev main_call11_v12 : Ref sig .tc := ⟨.hbm, 633, rfl⟩
abbrev main_call11_cst_4 : Ref sig .tc := ⟨.hbm, 634, rfl⟩
abbrev main_call11_call0_v0 : Ref sig .tc := ⟨.hbm, 635, rfl⟩
abbrev main_call11_call0_v1 : Ref sig .tc := ⟨.hbm, 636, rfl⟩
abbrev main_v419 : Ref sig .tc := ⟨.hbm, 637, rfl⟩
abbrev main_v420 : Ref sig .tc := ⟨.hbm, 638, rfl⟩
abbrev main_v421 : Ref sig .tc := ⟨.hbm, 639, rfl⟩
abbrev main_v422 : Ref sig .tc := ⟨.hbm, 640, rfl⟩
abbrev main_v423 : Ref sig .tc := ⟨.hbm, 641, rfl⟩
abbrev main_v424 : Ref sig .tc := ⟨.hbm, 642, rfl⟩
abbrev main_v425 : Ref sig .tc := ⟨.hbm, 643, rfl⟩
abbrev main_cst_69 : Ref sig .tc := ⟨.hbm, 644, rfl⟩
abbrev main_v426 : Ref sig .tc := ⟨.hbm, 645, rfl⟩
abbrev main_v427 : Ref sig .tc := ⟨.hbm, 646, rfl⟩
abbrev main_v428 : Ref sig .tc := ⟨.hbm, 647, rfl⟩
abbrev main_v429 : Ref sig .tc := ⟨.hbm, 648, rfl⟩
abbrev main_v430 : Ref sig .tc := ⟨.hbm, 649, rfl⟩
abbrev main_v431 : Ref sig .tc := ⟨.hbm, 650, rfl⟩
abbrev main_v432 : Ref sig .tc := ⟨.hbm, 651, rfl⟩
abbrev main_v433 : Ref sig .tc := ⟨.hbm, 652, rfl⟩
abbrev main_v434 : Ref sig .tc := ⟨.hbm, 653, rfl⟩
abbrev main_v435 : Ref sig .tc := ⟨.hbm, 654, rfl⟩
abbrev main_v436 : Ref sig .tc := ⟨.hbm, 655, rfl⟩
abbrev main_v437 : Ref sig .tc := ⟨.hbm, 656, rfl⟩
abbrev main_v438 : Ref sig .tc := ⟨.hbm, 657, rfl⟩
abbrev main_v439 : Ref sig .tc := ⟨.hbm, 658, rfl⟩
abbrev main_v440 : Ref sig .tc := ⟨.hbm, 659, rfl⟩
abbrev main_v441 : Ref sig .tc := ⟨.hbm, 660, rfl⟩
abbrev main_v442 : Ref sig .tc := ⟨.hbm, 661, rfl⟩
abbrev main_v443 : Ref sig .tc := ⟨.hbm, 662, rfl⟩
abbrev main_v444 : Ref sig .tc := ⟨.hbm, 663, rfl⟩
abbrev main_v445 : Ref sig .tc := ⟨.hbm, 664, rfl⟩
abbrev main_v446 : Ref sig .tc := ⟨.hbm, 665, rfl⟩
abbrev main_v447 : Ref sig .tc := ⟨.hbm, 666, rfl⟩
abbrev main_v448 : Ref sig .tc := ⟨.hbm, 667, rfl⟩
abbrev main_c_70 : Ref sig .tc := ⟨.hbm, 668, rfl⟩
abbrev main_v449 : Ref sig .tc := ⟨.hbm, 669, rfl⟩
abbrev main_v450 : Ref sig .tc := ⟨.hbm, 670, rfl⟩
abbrev main_c_71 : Ref sig .tc := ⟨.hbm, 671, rfl⟩
abbrev main_v451 : Ref sig .tc := ⟨.hbm, 672, rfl⟩
abbrev main_v452 : Ref sig .tc := ⟨.hbm, 673, rfl⟩
abbrev main_v453 : Ref sig .tc := ⟨.hbm, 674, rfl⟩
abbrev main_v454 : Ref sig .tc := ⟨.hbm, 675, rfl⟩
abbrev main_v455 : Ref sig .tc := ⟨.hbm, 676, rfl⟩
abbrev main_v456 : Ref sig .tc := ⟨.hbm, 677, rfl⟩
abbrev main_v457 : Ref sig .tc := ⟨.hbm, 678, rfl⟩
abbrev main_cst_72 : Ref sig .tc := ⟨.hbm, 679, rfl⟩
abbrev main_v458 : Ref sig .tc := ⟨.hbm, 680, rfl⟩
abbrev main_v459 : Ref sig .tc := ⟨.hbm, 681, rfl⟩
abbrev main_v460 : Ref sig .tc := ⟨.hbm, 682, rfl⟩
abbrev main_cst_73 : Ref sig .tc := ⟨.hbm, 683, rfl⟩
abbrev main_v461 : Ref sig .tc := ⟨.hbm, 684, rfl⟩
abbrev main_v462 : Ref sig .tc := ⟨.hbm, 685, rfl⟩
abbrev main_v463 : Ref sig .tc := ⟨.hbm, 686, rfl⟩
abbrev main_cst_74 : Ref sig .tc := ⟨.hbm, 687, rfl⟩
abbrev main_v464 : Ref sig .tc := ⟨.hbm, 688, rfl⟩
abbrev main_v465 : Ref sig .tc := ⟨.hbm, 689, rfl⟩
abbrev main_v466 : Ref sig .tc := ⟨.hbm, 690, rfl⟩
abbrev main_cst_75 : Ref sig .tc := ⟨.hbm, 691, rfl⟩
abbrev main_v467 : Ref sig .tc := ⟨.hbm, 692, rfl⟩
abbrev main_v468 : Ref sig .tc := ⟨.hbm, 693, rfl⟩
abbrev main_v469 : Ref sig .tc := ⟨.hbm, 694, rfl⟩
abbrev main_v470 : Ref sig .tc := ⟨.hbm, 695, rfl⟩
abbrev main_v471 : Ref sig .tc := ⟨.hbm, 696, rfl⟩
abbrev main_v472 : Ref sig .tc := ⟨.hbm, 697, rfl⟩
abbrev main_v473 : Ref sig .tc := ⟨.hbm, 698, rfl⟩
abbrev main_v474 : Ref sig .tc := ⟨.hbm, 699, rfl⟩
abbrev main_v475 : Ref sig .tc := ⟨.hbm, 700, rfl⟩
abbrev main_v476 : Ref sig .tc := ⟨.hbm, 701, rfl⟩
abbrev main_v477 : Ref sig .tc := ⟨.hbm, 702, rfl⟩
abbrev main_v478 : Ref sig .tc := ⟨.hbm, 703, rfl⟩
abbrev main_v479 : Ref sig .tc := ⟨.hbm, 704, rfl⟩
abbrev main_v480 : Ref sig .tc := ⟨.hbm, 705, rfl⟩
abbrev main_v481 : Ref sig .tc := ⟨.hbm, 706, rfl⟩
abbrev main_v482 : Ref sig .tc := ⟨.hbm, 707, rfl⟩
abbrev main_v483 : Ref sig .tc := ⟨.hbm, 708, rfl⟩
abbrev main_v484 : Ref sig .tc := ⟨.hbm, 709, rfl⟩
abbrev main_cst_76 : Ref sig .tc := ⟨.hbm, 710, rfl⟩
abbrev main_v485 : Ref sig .tc := ⟨.hbm, 711, rfl⟩
abbrev main_v486 : Ref sig .tc := ⟨.hbm, 712, rfl⟩
abbrev main_v487 : Ref sig .tc := ⟨.hbm, 713, rfl⟩
abbrev main_v488 : Ref sig .tc := ⟨.hbm, 714, rfl⟩
abbrev main_v489 : Ref sig .tc := ⟨.hbm, 715, rfl⟩
abbrev main_v490 : Ref sig .tc := ⟨.hbm, 716, rfl⟩
abbrev main_v491 : Ref sig .tc := ⟨.hbm, 717, rfl⟩
abbrev main_v492 : Ref sig .tc := ⟨.hbm, 718, rfl⟩
abbrev main_v493 : Ref sig .tc := ⟨.hbm, 719, rfl⟩
abbrev main_v494 : Ref sig .tc := ⟨.hbm, 720, rfl⟩
abbrev main_cst_77 : Ref sig .tc := ⟨.hbm, 721, rfl⟩
abbrev main_v495 : Ref sig .tc := ⟨.hbm, 722, rfl⟩
abbrev main_cst_78 : Ref sig .tc := ⟨.hbm, 723, rfl⟩
abbrev main_v496 : Ref sig .tc := ⟨.hbm, 724, rfl⟩
abbrev main_v497 : Ref sig .tc := ⟨.hbm, 725, rfl⟩
abbrev main_c_79 : Ref sig .tc := ⟨.hbm, 726, rfl⟩
abbrev main_call13_cst : Ref sig .tc := ⟨.hbm, 727, rfl⟩
abbrev main_call13_v0 : Ref sig .tc := ⟨.hbm, 728, rfl⟩
abbrev main_call13_v1 : Ref sig .tc := ⟨.hbm, 729, rfl⟩
abbrev main_call13_cst_0 : Ref sig .tc := ⟨.hbm, 730, rfl⟩
abbrev main_call13_v2 : Ref sig .tc := ⟨.hbm, 731, rfl⟩
abbrev main_call13_v3 : Ref sig .tc := ⟨.hbm, 732, rfl⟩
abbrev main_call13_v4 : Ref sig .tc := ⟨.hbm, 733, rfl⟩
abbrev main_call13_v5 : Ref sig .tc := ⟨.hbm, 734, rfl⟩
abbrev main_call13_v6 : Ref sig .tc := ⟨.hbm, 735, rfl⟩
abbrev main_call13_v7 : Ref sig .tc := ⟨.hbm, 736, rfl⟩
abbrev main_call13_cst_1 : Ref sig .tc := ⟨.hbm, 737, rfl⟩
abbrev main_call13_v8 : Ref sig .tc := ⟨.hbm, 738, rfl⟩
abbrev main_call13_cst_2 : Ref sig .tc := ⟨.hbm, 739, rfl⟩
abbrev main_call13_v9 : Ref sig .tc := ⟨.hbm, 740, rfl⟩
abbrev main_call13_v10 : Ref sig .tc := ⟨.hbm, 741, rfl⟩
abbrev main_call13_v11 : Ref sig .tc := ⟨.hbm, 742, rfl⟩
abbrev main_call13_cst_3 : Ref sig .tc := ⟨.hbm, 743, rfl⟩
abbrev main_call13_v12 : Ref sig .tc := ⟨.hbm, 744, rfl⟩
abbrev main_call13_cst_4 : Ref sig .tc := ⟨.hbm, 745, rfl⟩
abbrev main_call13_call0_v0 : Ref sig .tc := ⟨.hbm, 746, rfl⟩
abbrev main_call13_call0_v1 : Ref sig .tc := ⟨.hbm, 747, rfl⟩
abbrev main_v498 : Ref sig .tc := ⟨.hbm, 748, rfl⟩
abbrev main_v499 : Ref sig .tc := ⟨.hbm, 749, rfl⟩
abbrev main_v500 : Ref sig .tc := ⟨.hbm, 750, rfl⟩
abbrev main_v501 : Ref sig .tc := ⟨.hbm, 751, rfl⟩
abbrev main_v502 : Ref sig .tc := ⟨.hbm, 752, rfl⟩
abbrev main_v503 : Ref sig .tc := ⟨.hbm, 753, rfl⟩
abbrev main_v504 : Ref sig .tc := ⟨.hbm, 754, rfl⟩
abbrev main_cst_80 : Ref sig .tc := ⟨.hbm, 755, rfl⟩
abbrev main_v505 : Ref sig .tc := ⟨.hbm, 756, rfl⟩
abbrev main_v506 : Ref sig .tc := ⟨.hbm, 757, rfl⟩
abbrev main_v507 : Ref sig .tc := ⟨.hbm, 758, rfl⟩
abbrev main_v508 : Ref sig .tc := ⟨.hbm, 759, rfl⟩
abbrev main_v509 : Ref sig .tc := ⟨.hbm, 760, rfl⟩
abbrev main_v510 : Ref sig .tc := ⟨.hbm, 761, rfl⟩
abbrev main_v511 : Ref sig .tc := ⟨.hbm, 762, rfl⟩
abbrev main_v512 : Ref sig .tc := ⟨.hbm, 763, rfl⟩
abbrev main_v513 : Ref sig .tc := ⟨.hbm, 764, rfl⟩
abbrev main_v514 : Ref sig .tc := ⟨.hbm, 765, rfl⟩
abbrev main_v515 : Ref sig .tc := ⟨.hbm, 766, rfl⟩
abbrev main_c_81 : Ref sig .tc := ⟨.hbm, 767, rfl⟩
abbrev main_v516 : Ref sig .tc := ⟨.hbm, 768, rfl⟩
abbrev main_v517 : Ref sig .tc := ⟨.hbm, 769, rfl⟩
abbrev main_c_82 : Ref sig .tc := ⟨.hbm, 770, rfl⟩
abbrev main_v518 : Ref sig .tc := ⟨.hbm, 771, rfl⟩
abbrev main_v519 : Ref sig .tc := ⟨.hbm, 772, rfl⟩
abbrev main_v520 : Ref sig .tc := ⟨.hbm, 773, rfl⟩
abbrev main_v521 : Ref sig .tc := ⟨.hbm, 774, rfl⟩
abbrev main_v522 : Ref sig .tc := ⟨.hbm, 775, rfl⟩
abbrev main_v523 : Ref sig .tc := ⟨.hbm, 776, rfl⟩
abbrev main_v524 : Ref sig .tc := ⟨.hbm, 777, rfl⟩
abbrev main_cst_83 : Ref sig .tc := ⟨.hbm, 778, rfl⟩
abbrev main_v525 : Ref sig .tc := ⟨.hbm, 779, rfl⟩
abbrev main_v526 : Ref sig .tc := ⟨.hbm, 780, rfl⟩
abbrev main_v527 : Ref sig .tc := ⟨.hbm, 781, rfl⟩
abbrev main_cst_84 : Ref sig .tc := ⟨.hbm, 782, rfl⟩
abbrev main_v528 : Ref sig .tc := ⟨.hbm, 783, rfl⟩
abbrev main_v529 : Ref sig .tc := ⟨.hbm, 784, rfl⟩
abbrev main_v530 : Ref sig .tc := ⟨.hbm, 785, rfl⟩
abbrev main_cst_85 : Ref sig .tc := ⟨.hbm, 786, rfl⟩
abbrev main_v531 : Ref sig .tc := ⟨.hbm, 787, rfl⟩
abbrev main_v532 : Ref sig .tc := ⟨.hbm, 788, rfl⟩
abbrev main_v533 : Ref sig .tc := ⟨.hbm, 789, rfl⟩
abbrev main_cst_86 : Ref sig .tc := ⟨.hbm, 790, rfl⟩
abbrev main_v534 : Ref sig .tc := ⟨.hbm, 791, rfl⟩
abbrev main_v535 : Ref sig .tc := ⟨.hbm, 792, rfl⟩
abbrev main_v536 : Ref sig .tc := ⟨.hbm, 793, rfl⟩
abbrev main_v537 : Ref sig .tc := ⟨.hbm, 794, rfl⟩
abbrev main_v538 : Ref sig .tc := ⟨.hbm, 795, rfl⟩
abbrev main_v539 : Ref sig .tc := ⟨.hbm, 796, rfl⟩
abbrev main_v540 : Ref sig .tc := ⟨.hbm, 797, rfl⟩
abbrev main_v541 : Ref sig .tc := ⟨.hbm, 798, rfl⟩
abbrev main_v542 : Ref sig .tc := ⟨.hbm, 799, rfl⟩
abbrev main_v543 : Ref sig .tc := ⟨.hbm, 800, rfl⟩
abbrev main_v544 : Ref sig .tc := ⟨.hbm, 801, rfl⟩
abbrev main_v545 : Ref sig .tc := ⟨.hbm, 802, rfl⟩
abbrev main_v546 : Ref sig .tc := ⟨.hbm, 803, rfl⟩
abbrev main_v547 : Ref sig .tc := ⟨.hbm, 804, rfl⟩
abbrev main_v548 : Ref sig .tc := ⟨.hbm, 805, rfl⟩
abbrev main_v549 : Ref sig .tc := ⟨.hbm, 806, rfl⟩
abbrev main_v550 : Ref sig .tc := ⟨.hbm, 807, rfl⟩
abbrev main_v551 : Ref sig .tc := ⟨.hbm, 808, rfl⟩
abbrev main_cst_87 : Ref sig .tc := ⟨.hbm, 809, rfl⟩
abbrev main_v552 : Ref sig .tc := ⟨.hbm, 810, rfl⟩
abbrev main_v553 : Ref sig .tc := ⟨.hbm, 811, rfl⟩
abbrev main_v554 : Ref sig .tc := ⟨.hbm, 812, rfl⟩
abbrev main_v555 : Ref sig .tc := ⟨.hbm, 813, rfl⟩
abbrev main_v556 : Ref sig .tc := ⟨.hbm, 814, rfl⟩
abbrev main_v557 : Ref sig .tc := ⟨.hbm, 815, rfl⟩
abbrev main_v558 : Ref sig .tc := ⟨.hbm, 816, rfl⟩
abbrev main_v559 : Ref sig .tc := ⟨.hbm, 817, rfl⟩
abbrev main_v560 : Ref sig .tc := ⟨.hbm, 818, rfl⟩
abbrev main_v561 : Ref sig .tc := ⟨.hbm, 819, rfl⟩
abbrev main_cst_88 : Ref sig .tc := ⟨.hbm, 820, rfl⟩
abbrev main_v562 : Ref sig .tc := ⟨.hbm, 821, rfl⟩
abbrev main_cst_89 : Ref sig .tc := ⟨.hbm, 822, rfl⟩
abbrev main_v563 : Ref sig .tc := ⟨.hbm, 823, rfl⟩
abbrev main_v564 : Ref sig .tc := ⟨.hbm, 824, rfl⟩
abbrev main_c_90 : Ref sig .tc := ⟨.hbm, 825, rfl⟩
abbrev main_call15_cst : Ref sig .tc := ⟨.hbm, 826, rfl⟩
abbrev main_call15_v0 : Ref sig .tc := ⟨.hbm, 827, rfl⟩
abbrev main_call15_v1 : Ref sig .tc := ⟨.hbm, 828, rfl⟩
abbrev main_call15_cst_0 : Ref sig .tc := ⟨.hbm, 829, rfl⟩
abbrev main_call15_v2 : Ref sig .tc := ⟨.hbm, 830, rfl⟩
abbrev main_call15_v3 : Ref sig .tc := ⟨.hbm, 831, rfl⟩
abbrev main_call15_v4 : Ref sig .tc := ⟨.hbm, 832, rfl⟩
abbrev main_call15_v5 : Ref sig .tc := ⟨.hbm, 833, rfl⟩
abbrev main_call15_v6 : Ref sig .tc := ⟨.hbm, 834, rfl⟩
abbrev main_call15_v7 : Ref sig .tc := ⟨.hbm, 835, rfl⟩
abbrev main_call15_cst_1 : Ref sig .tc := ⟨.hbm, 836, rfl⟩
abbrev main_call15_v8 : Ref sig .tc := ⟨.hbm, 837, rfl⟩
abbrev main_call15_cst_2 : Ref sig .tc := ⟨.hbm, 838, rfl⟩
abbrev main_call15_v9 : Ref sig .tc := ⟨.hbm, 839, rfl⟩
abbrev main_call15_v10 : Ref sig .tc := ⟨.hbm, 840, rfl⟩
abbrev main_call15_v11 : Ref sig .tc := ⟨.hbm, 841, rfl⟩
abbrev main_call15_cst_3 : Ref sig .tc := ⟨.hbm, 842, rfl⟩
abbrev main_call15_v12 : Ref sig .tc := ⟨.hbm, 843, rfl⟩
abbrev main_call15_cst_4 : Ref sig .tc := ⟨.hbm, 844, rfl⟩
abbrev main_call15_call0_v0 : Ref sig .tc := ⟨.hbm, 845, rfl⟩
abbrev main_call15_call0_v1 : Ref sig .tc := ⟨.hbm, 846, rfl⟩
abbrev main_v565 : Ref sig .tc := ⟨.hbm, 847, rfl⟩
abbrev main_v566 : Ref sig .tc := ⟨.hbm, 848, rfl⟩
abbrev main_v567 : Ref sig .tc := ⟨.hbm, 849, rfl⟩
abbrev main_v568 : Ref sig .tc := ⟨.hbm, 850, rfl⟩
abbrev main_v569 : Ref sig .tc := ⟨.hbm, 851, rfl⟩
abbrev main_v570 : Ref sig .tc := ⟨.hbm, 852, rfl⟩
abbrev main_v571 : Ref sig .tc := ⟨.hbm, 853, rfl⟩
abbrev main_cst_91 : Ref sig .tc := ⟨.hbm, 854, rfl⟩
abbrev main_v572 : Ref sig .tc := ⟨.hbm, 855, rfl⟩
abbrev main_v573 : Ref sig .tc := ⟨.hbm, 856, rfl⟩
abbrev main_v574 : Ref sig .tc := ⟨.hbm, 857, rfl⟩
abbrev main_v575 : Ref sig .tc := ⟨.hbm, 858, rfl⟩
abbrev main_v576 : Ref sig .tc := ⟨.hbm, 859, rfl⟩
abbrev main_v577 : Ref sig .tc := ⟨.hbm, 860, rfl⟩
abbrev main_v578 : Ref sig .tc := ⟨.hbm, 861, rfl⟩
abbrev main_v579 : Ref sig .tc := ⟨.hbm, 862, rfl⟩
abbrev main_v580 : Ref sig .tc := ⟨.hbm, 863, rfl⟩
abbrev main_v581 : Ref sig .tc := ⟨.hbm, 864, rfl⟩
abbrev main_v582 : Ref sig .tc := ⟨.hbm, 865, rfl⟩
abbrev main_c_92 : Ref sig .tc := ⟨.hbm, 866, rfl⟩
abbrev main_v583 : Ref sig .tc := ⟨.hbm, 867, rfl⟩
abbrev main_v584 : Ref sig .tc := ⟨.hbm, 868, rfl⟩
abbrev main_c_93 : Ref sig .tc := ⟨.hbm, 869, rfl⟩
abbrev main_v585 : Ref sig .tc := ⟨.hbm, 870, rfl⟩
abbrev main_v586 : Ref sig .tc := ⟨.hbm, 871, rfl⟩
abbrev main_v587 : Ref sig .tc := ⟨.hbm, 872, rfl⟩
abbrev main_v588 : Ref sig .tc := ⟨.hbm, 873, rfl⟩
abbrev main_v589 : Ref sig .tc := ⟨.hbm, 874, rfl⟩
abbrev main_v590 : Ref sig .tc := ⟨.hbm, 875, rfl⟩
abbrev main_v591 : Ref sig .tc := ⟨.hbm, 876, rfl⟩
abbrev main_cst_94 : Ref sig .tc := ⟨.hbm, 877, rfl⟩
abbrev main_v592 : Ref sig .tc := ⟨.hbm, 878, rfl⟩
abbrev main_v593 : Ref sig .tc := ⟨.hbm, 879, rfl⟩
abbrev main_v594 : Ref sig .tc := ⟨.hbm, 880, rfl⟩
abbrev main_cst_95 : Ref sig .tc := ⟨.hbm, 881, rfl⟩
abbrev main_v595 : Ref sig .tc := ⟨.hbm, 882, rfl⟩
abbrev main_v596 : Ref sig .tc := ⟨.hbm, 883, rfl⟩
abbrev main_v597 : Ref sig .tc := ⟨.hbm, 884, rfl⟩
abbrev main_cst_96 : Ref sig .tc := ⟨.hbm, 885, rfl⟩
abbrev main_v598 : Ref sig .tc := ⟨.hbm, 886, rfl⟩
abbrev main_v599 : Ref sig .tc := ⟨.hbm, 887, rfl⟩
abbrev main_v600 : Ref sig .tc := ⟨.hbm, 888, rfl⟩
abbrev main_cst_97 : Ref sig .tc := ⟨.hbm, 889, rfl⟩
abbrev main_v601 : Ref sig .tc := ⟨.hbm, 890, rfl⟩
abbrev main_v602 : Ref sig .tc := ⟨.hbm, 891, rfl⟩
abbrev main_v603 : Ref sig .tc := ⟨.hbm, 892, rfl⟩
abbrev main_v604 : Ref sig .tc := ⟨.hbm, 893, rfl⟩
abbrev main_v605 : Ref sig .tc := ⟨.hbm, 894, rfl⟩
abbrev main_v606 : Ref sig .tc := ⟨.hbm, 895, rfl⟩
abbrev main_v607 : Ref sig .tc := ⟨.hbm, 896, rfl⟩
abbrev main_v608 : Ref sig .tc := ⟨.hbm, 897, rfl⟩
abbrev main_v609 : Ref sig .tc := ⟨.hbm, 898, rfl⟩
abbrev main_v610 : Ref sig .tc := ⟨.hbm, 899, rfl⟩
abbrev main_v611 : Ref sig .tc := ⟨.hbm, 900, rfl⟩
abbrev main_v612 : Ref sig .tc := ⟨.hbm, 901, rfl⟩
abbrev main_v613 : Ref sig .tc := ⟨.hbm, 902, rfl⟩
abbrev main_v614 : Ref sig .tc := ⟨.hbm, 903, rfl⟩
abbrev main_v615 : Ref sig .tc := ⟨.hbm, 904, rfl⟩
abbrev main_v616 : Ref sig .tc := ⟨.hbm, 905, rfl⟩
abbrev main_v617 : Ref sig .tc := ⟨.hbm, 906, rfl⟩
abbrev main_v618 : Ref sig .tc := ⟨.hbm, 907, rfl⟩
abbrev main_cst_98 : Ref sig .tc := ⟨.hbm, 908, rfl⟩
abbrev main_v619 : Ref sig .tc := ⟨.hbm, 909, rfl⟩
abbrev main_v620 : Ref sig .tc := ⟨.hbm, 910, rfl⟩
abbrev main_v621 : Ref sig .tc := ⟨.hbm, 911, rfl⟩
abbrev main_v622 : Ref sig .tc := ⟨.hbm, 912, rfl⟩
abbrev main_v623 : Ref sig .tc := ⟨.hbm, 913, rfl⟩
abbrev main_v624 : Ref sig .tc := ⟨.hbm, 914, rfl⟩
abbrev main_v625 : Ref sig .tc := ⟨.hbm, 915, rfl⟩
abbrev main_v626 : Ref sig .tc := ⟨.hbm, 916, rfl⟩
abbrev main_v627 : Ref sig .tc := ⟨.hbm, 917, rfl⟩
abbrev main_v628 : Ref sig .tc := ⟨.hbm, 918, rfl⟩
abbrev main_cst_99 : Ref sig .tc := ⟨.hbm, 919, rfl⟩
abbrev main_v629 : Ref sig .tc := ⟨.hbm, 920, rfl⟩
abbrev main_cst_100 : Ref sig .tc := ⟨.hbm, 921, rfl⟩
abbrev main_v630 : Ref sig .tc := ⟨.hbm, 922, rfl⟩
abbrev main_v631 : Ref sig .tc := ⟨.hbm, 923, rfl⟩
abbrev main_c_101 : Ref sig .tc := ⟨.hbm, 924, rfl⟩
abbrev main_call17_cst : Ref sig .tc := ⟨.hbm, 925, rfl⟩
abbrev main_call17_v0 : Ref sig .tc := ⟨.hbm, 926, rfl⟩
abbrev main_call17_v1 : Ref sig .tc := ⟨.hbm, 927, rfl⟩
abbrev main_call17_cst_0 : Ref sig .tc := ⟨.hbm, 928, rfl⟩
abbrev main_call17_v2 : Ref sig .tc := ⟨.hbm, 929, rfl⟩
abbrev main_call17_v3 : Ref sig .tc := ⟨.hbm, 930, rfl⟩
abbrev main_call17_v4 : Ref sig .tc := ⟨.hbm, 931, rfl⟩
abbrev main_call17_v5 : Ref sig .tc := ⟨.hbm, 932, rfl⟩
abbrev main_call17_v6 : Ref sig .tc := ⟨.hbm, 933, rfl⟩
abbrev main_call17_v7 : Ref sig .tc := ⟨.hbm, 934, rfl⟩
abbrev main_call17_cst_1 : Ref sig .tc := ⟨.hbm, 935, rfl⟩
abbrev main_call17_v8 : Ref sig .tc := ⟨.hbm, 936, rfl⟩
abbrev main_call17_cst_2 : Ref sig .tc := ⟨.hbm, 937, rfl⟩
abbrev main_call17_v9 : Ref sig .tc := ⟨.hbm, 938, rfl⟩
abbrev main_call17_v10 : Ref sig .tc := ⟨.hbm, 939, rfl⟩
abbrev main_call17_v11 : Ref sig .tc := ⟨.hbm, 940, rfl⟩
abbrev main_call17_cst_3 : Ref sig .tc := ⟨.hbm, 941, rfl⟩
abbrev main_call17_v12 : Ref sig .tc := ⟨.hbm, 942, rfl⟩
abbrev main_call17_cst_4 : Ref sig .tc := ⟨.hbm, 943, rfl⟩
abbrev main_call17_call0_v0 : Ref sig .tc := ⟨.hbm, 944, rfl⟩
abbrev main_call17_call0_v1 : Ref sig .tc := ⟨.hbm, 945, rfl⟩
abbrev main_v632 : Ref sig .tc := ⟨.hbm, 946, rfl⟩
abbrev main_v633 : Ref sig .tc := ⟨.hbm, 947, rfl⟩
abbrev main_v634 : Ref sig .tc := ⟨.hbm, 948, rfl⟩
abbrev main_v635 : Ref sig .tc := ⟨.hbm, 949, rfl⟩
abbrev main_v636 : Ref sig .tc := ⟨.hbm, 950, rfl⟩
abbrev main_v637 : Ref sig .tc := ⟨.hbm, 951, rfl⟩
abbrev main_v638 : Ref sig .tc := ⟨.hbm, 952, rfl⟩
abbrev main_cst_102 : Ref sig .tc := ⟨.hbm, 953, rfl⟩
abbrev main_v639 : Ref sig .tc := ⟨.hbm, 954, rfl⟩
abbrev main_v640 : Ref sig .tc := ⟨.hbm, 955, rfl⟩
abbrev main_v641 : Ref sig .tc := ⟨.hbm, 956, rfl⟩
abbrev main_v642 : Ref sig .tc := ⟨.hbm, 957, rfl⟩
abbrev main_v643 : Ref sig .tc := ⟨.hbm, 958, rfl⟩
abbrev main_v644 : Ref sig .tc := ⟨.hbm, 959, rfl⟩
abbrev main_v645 : Ref sig .tc := ⟨.hbm, 960, rfl⟩
abbrev main_v646 : Ref sig .tc := ⟨.hbm, 961, rfl⟩
abbrev main_v647 : Ref sig .tc := ⟨.hbm, 962, rfl⟩
abbrev main_v648 : Ref sig .tc := ⟨.hbm, 963, rfl⟩
abbrev main_v649 : Ref sig .tc := ⟨.hbm, 964, rfl⟩
abbrev main_v650 : Ref sig .tc := ⟨.hbm, 965, rfl⟩
abbrev main_v651 : Ref sig .tc := ⟨.hbm, 966, rfl⟩
abbrev main_v652 : Ref sig .tc := ⟨.hbm, 967, rfl⟩
abbrev main_v653 : Ref sig .tc := ⟨.hbm, 968, rfl⟩
abbrev main_v654 : Ref sig .tc := ⟨.hbm, 969, rfl⟩
abbrev main_v655 : Ref sig .tc := ⟨.hbm, 970, rfl⟩
abbrev main_v656 : Ref sig .tc := ⟨.hbm, 971, rfl⟩
abbrev main_v657 : Ref sig .tc := ⟨.hbm, 972, rfl⟩
abbrev main_v658 : Ref sig .tc := ⟨.hbm, 973, rfl⟩
abbrev main_v659 : Ref sig .tc := ⟨.hbm, 974, rfl⟩
abbrev main_v660 : Ref sig .tc := ⟨.hbm, 975, rfl⟩
abbrev main_v661 : Ref sig .tc := ⟨.hbm, 976, rfl⟩
abbrev main_c_103 : Ref sig .tc := ⟨.hbm, 977, rfl⟩
abbrev main_v662 : Ref sig .tc := ⟨.hbm, 978, rfl⟩
abbrev main_v663 : Ref sig .tc := ⟨.hbm, 979, rfl⟩
abbrev main_c_104 : Ref sig .tc := ⟨.hbm, 980, rfl⟩
abbrev main_v664 : Ref sig .tc := ⟨.hbm, 981, rfl⟩
abbrev main_v665 : Ref sig .tc := ⟨.hbm, 982, rfl⟩
abbrev main_v666 : Ref sig .tc := ⟨.hbm, 983, rfl⟩
abbrev main_v667 : Ref sig .tc := ⟨.hbm, 984, rfl⟩
abbrev main_v668 : Ref sig .tc := ⟨.hbm, 985, rfl⟩
abbrev main_v669 : Ref sig .tc := ⟨.hbm, 986, rfl⟩
abbrev main_v670 : Ref sig .tc := ⟨.hbm, 987, rfl⟩
abbrev main_cst_105 : Ref sig .tc := ⟨.hbm, 988, rfl⟩
abbrev main_v671 : Ref sig .tc := ⟨.hbm, 989, rfl⟩
abbrev main_v672 : Ref sig .tc := ⟨.hbm, 990, rfl⟩
abbrev main_v673 : Ref sig .tc := ⟨.hbm, 991, rfl⟩
abbrev main_cst_106 : Ref sig .tc := ⟨.hbm, 992, rfl⟩
abbrev main_v674 : Ref sig .tc := ⟨.hbm, 993, rfl⟩
abbrev main_v675 : Ref sig .tc := ⟨.hbm, 994, rfl⟩
abbrev main_v676 : Ref sig .tc := ⟨.hbm, 995, rfl⟩
abbrev main_cst_107 : Ref sig .tc := ⟨.hbm, 996, rfl⟩
abbrev main_v677 : Ref sig .tc := ⟨.hbm, 997, rfl⟩
abbrev main_v678 : Ref sig .tc := ⟨.hbm, 998, rfl⟩
abbrev main_v679 : Ref sig .tc := ⟨.hbm, 999, rfl⟩
abbrev main_cst_108 : Ref sig .tc := ⟨.hbm, 1000, rfl⟩
abbrev main_v680 : Ref sig .tc := ⟨.hbm, 1001, rfl⟩
abbrev main_v681 : Ref sig .tc := ⟨.hbm, 1002, rfl⟩
abbrev main_v682 : Ref sig .tc := ⟨.hbm, 1003, rfl⟩
abbrev main_v683 : Ref sig .tc := ⟨.hbm, 1004, rfl⟩
abbrev main_v684 : Ref sig .tc := ⟨.hbm, 1005, rfl⟩
abbrev main_v685 : Ref sig .tc := ⟨.hbm, 1006, rfl⟩
abbrev main_v686 : Ref sig .tc := ⟨.hbm, 1007, rfl⟩
abbrev main_v687 : Ref sig .tc := ⟨.hbm, 1008, rfl⟩
abbrev main_v688 : Ref sig .tc := ⟨.hbm, 1009, rfl⟩
abbrev main_v689 : Ref sig .tc := ⟨.hbm, 1010, rfl⟩
abbrev main_v690 : Ref sig .tc := ⟨.hbm, 1011, rfl⟩
abbrev main_v691 : Ref sig .tc := ⟨.hbm, 1012, rfl⟩
abbrev main_v692 : Ref sig .tc := ⟨.hbm, 1013, rfl⟩
abbrev main_v693 : Ref sig .tc := ⟨.hbm, 1014, rfl⟩
abbrev main_v694 : Ref sig .tc := ⟨.hbm, 1015, rfl⟩
abbrev main_v695 : Ref sig .tc := ⟨.hbm, 1016, rfl⟩
abbrev main_v696 : Ref sig .tc := ⟨.hbm, 1017, rfl⟩
abbrev main_v697 : Ref sig .tc := ⟨.hbm, 1018, rfl⟩
abbrev main_cst_109 : Ref sig .tc := ⟨.hbm, 1019, rfl⟩
abbrev main_v698 : Ref sig .tc := ⟨.hbm, 1020, rfl⟩
abbrev main_v699 : Ref sig .tc := ⟨.hbm, 1021, rfl⟩
abbrev main_v700 : Ref sig .tc := ⟨.hbm, 1022, rfl⟩
abbrev main_v701 : Ref sig .tc := ⟨.hbm, 1023, rfl⟩
abbrev main_v702 : Ref sig .tc := ⟨.hbm, 1024, rfl⟩
abbrev main_v703 : Ref sig .tc := ⟨.hbm, 1025, rfl⟩
abbrev main_v704 : Ref sig .tc := ⟨.hbm, 1026, rfl⟩
abbrev main_v705 : Ref sig .tc := ⟨.hbm, 1027, rfl⟩
abbrev main_v706 : Ref sig .tc := ⟨.hbm, 1028, rfl⟩
abbrev main_v707 : Ref sig .tc := ⟨.hbm, 1029, rfl⟩
abbrev main_cst_110 : Ref sig .tc := ⟨.hbm, 1030, rfl⟩
abbrev main_v708 : Ref sig .tc := ⟨.hbm, 1031, rfl⟩
abbrev main_cst_111 : Ref sig .tc := ⟨.hbm, 1032, rfl⟩
abbrev main_v709 : Ref sig .tc := ⟨.hbm, 1033, rfl⟩
abbrev main_v710 : Ref sig .tc := ⟨.hbm, 1034, rfl⟩
abbrev main_c_112 : Ref sig .tc := ⟨.hbm, 1035, rfl⟩
abbrev main_call19_cst : Ref sig .tc := ⟨.hbm, 1036, rfl⟩
abbrev main_call19_v0 : Ref sig .tc := ⟨.hbm, 1037, rfl⟩
abbrev main_call19_v1 : Ref sig .tc := ⟨.hbm, 1038, rfl⟩
abbrev main_call19_cst_0 : Ref sig .tc := ⟨.hbm, 1039, rfl⟩
abbrev main_call19_v2 : Ref sig .tc := ⟨.hbm, 1040, rfl⟩
abbrev main_call19_v3 : Ref sig .tc := ⟨.hbm, 1041, rfl⟩
abbrev main_call19_v4 : Ref sig .tc := ⟨.hbm, 1042, rfl⟩
abbrev main_call19_v5 : Ref sig .tc := ⟨.hbm, 1043, rfl⟩
abbrev main_call19_v6 : Ref sig .tc := ⟨.hbm, 1044, rfl⟩
abbrev main_call19_v7 : Ref sig .tc := ⟨.hbm, 1045, rfl⟩
abbrev main_call19_cst_1 : Ref sig .tc := ⟨.hbm, 1046, rfl⟩
abbrev main_call19_v8 : Ref sig .tc := ⟨.hbm, 1047, rfl⟩
abbrev main_call19_cst_2 : Ref sig .tc := ⟨.hbm, 1048, rfl⟩
abbrev main_call19_v9 : Ref sig .tc := ⟨.hbm, 1049, rfl⟩
abbrev main_call19_v10 : Ref sig .tc := ⟨.hbm, 1050, rfl⟩
abbrev main_call19_v11 : Ref sig .tc := ⟨.hbm, 1051, rfl⟩
abbrev main_call19_cst_3 : Ref sig .tc := ⟨.hbm, 1052, rfl⟩
abbrev main_call19_v12 : Ref sig .tc := ⟨.hbm, 1053, rfl⟩
abbrev main_call19_cst_4 : Ref sig .tc := ⟨.hbm, 1054, rfl⟩
abbrev main_call19_call0_v0 : Ref sig .tc := ⟨.hbm, 1055, rfl⟩
abbrev main_call19_call0_v1 : Ref sig .tc := ⟨.hbm, 1056, rfl⟩
abbrev main_v711 : Ref sig .tc := ⟨.hbm, 1057, rfl⟩
abbrev main_v712 : Ref sig .tc := ⟨.hbm, 1058, rfl⟩
abbrev main_v713 : Ref sig .tc := ⟨.hbm, 1059, rfl⟩
abbrev main_v714 : Ref sig .tc := ⟨.hbm, 1060, rfl⟩
abbrev main_v715 : Ref sig .tc := ⟨.hbm, 1061, rfl⟩
abbrev main_v716 : Ref sig .tc := ⟨.hbm, 1062, rfl⟩
abbrev main_v717 : Ref sig .tc := ⟨.hbm, 1063, rfl⟩
abbrev main_cst_113 : Ref sig .tc := ⟨.hbm, 1064, rfl⟩
abbrev main_v718 : Ref sig .tc := ⟨.hbm, 1065, rfl⟩
abbrev main_v719 : Ref sig .tc := ⟨.hbm, 1066, rfl⟩
abbrev main_v720 : Ref sig .tc := ⟨.hbm, 1067, rfl⟩
abbrev main_v721 : Ref sig .tc := ⟨.hbm, 1068, rfl⟩
abbrev main_v722 : Ref sig .tc := ⟨.hbm, 1069, rfl⟩
abbrev main_v723 : Ref sig .tc := ⟨.hbm, 1070, rfl⟩
abbrev main_v724 : Ref sig .tc := ⟨.hbm, 1071, rfl⟩
abbrev main_v725 : Ref sig .tc := ⟨.hbm, 1072, rfl⟩
abbrev main_v726 : Ref sig .tc := ⟨.hbm, 1073, rfl⟩
abbrev main_v727 : Ref sig .tc := ⟨.hbm, 1074, rfl⟩
abbrev main_v728 : Ref sig .tc := ⟨.hbm, 1075, rfl⟩
abbrev main_c_114 : Ref sig .tc := ⟨.hbm, 1076, rfl⟩
abbrev main_v729 : Ref sig .tc := ⟨.hbm, 1077, rfl⟩
abbrev main_v730 : Ref sig .tc := ⟨.hbm, 1078, rfl⟩
abbrev main_c_115 : Ref sig .tc := ⟨.hbm, 1079, rfl⟩
abbrev main_v731 : Ref sig .tc := ⟨.hbm, 1080, rfl⟩
abbrev main_v732 : Ref sig .tc := ⟨.hbm, 1081, rfl⟩
abbrev main_v733 : Ref sig .tc := ⟨.hbm, 1082, rfl⟩
abbrev main_v734 : Ref sig .tc := ⟨.hbm, 1083, rfl⟩
abbrev main_v735 : Ref sig .tc := ⟨.hbm, 1084, rfl⟩
abbrev main_v736 : Ref sig .tc := ⟨.hbm, 1085, rfl⟩
abbrev main_v737 : Ref sig .tc := ⟨.hbm, 1086, rfl⟩
abbrev main_cst_116 : Ref sig .tc := ⟨.hbm, 1087, rfl⟩
abbrev main_v738 : Ref sig .tc := ⟨.hbm, 1088, rfl⟩
abbrev main_v739 : Ref sig .tc := ⟨.hbm, 1089, rfl⟩
abbrev main_v740 : Ref sig .tc := ⟨.hbm, 1090, rfl⟩
abbrev main_cst_117 : Ref sig .tc := ⟨.hbm, 1091, rfl⟩
abbrev main_v741 : Ref sig .tc := ⟨.hbm, 1092, rfl⟩
abbrev main_v742 : Ref sig .tc := ⟨.hbm, 1093, rfl⟩
abbrev main_v743 : Ref sig .tc := ⟨.hbm, 1094, rfl⟩
abbrev main_cst_118 : Ref sig .tc := ⟨.hbm, 1095, rfl⟩
abbrev main_v744 : Ref sig .tc := ⟨.hbm, 1096, rfl⟩
abbrev main_v745 : Ref sig .tc := ⟨.hbm, 1097, rfl⟩
abbrev main_v746 : Ref sig .tc := ⟨.hbm, 1098, rfl⟩
abbrev main_cst_119 : Ref sig .tc := ⟨.hbm, 1099, rfl⟩
abbrev main_v747 : Ref sig .tc := ⟨.hbm, 1100, rfl⟩
abbrev main_v748 : Ref sig .tc := ⟨.hbm, 1101, rfl⟩
abbrev main_v749 : Ref sig .tc := ⟨.hbm, 1102, rfl⟩
abbrev main_v750 : Ref sig .tc := ⟨.hbm, 1103, rfl⟩
abbrev main_v751 : Ref sig .tc := ⟨.hbm, 1104, rfl⟩
abbrev main_v752 : Ref sig .tc := ⟨.hbm, 1105, rfl⟩
abbrev main_v753 : Ref sig .tc := ⟨.hbm, 1106, rfl⟩
abbrev main_v754 : Ref sig .tc := ⟨.hbm, 1107, rfl⟩
abbrev main_v755 : Ref sig .tc := ⟨.hbm, 1108, rfl⟩
abbrev main_v756 : Ref sig .tc := ⟨.hbm, 1109, rfl⟩
abbrev main_v757 : Ref sig .tc := ⟨.hbm, 1110, rfl⟩
abbrev main_v758 : Ref sig .tc := ⟨.hbm, 1111, rfl⟩
abbrev main_v759 : Ref sig .tc := ⟨.hbm, 1112, rfl⟩
abbrev main_v760 : Ref sig .tc := ⟨.hbm, 1113, rfl⟩
abbrev main_v761 : Ref sig .tc := ⟨.hbm, 1114, rfl⟩
abbrev main_v762 : Ref sig .tc := ⟨.hbm, 1115, rfl⟩
abbrev main_v763 : Ref sig .tc := ⟨.hbm, 1116, rfl⟩
abbrev main_v764 : Ref sig .tc := ⟨.hbm, 1117, rfl⟩
abbrev main_cst_120 : Ref sig .tc := ⟨.hbm, 1118, rfl⟩
abbrev main_v765 : Ref sig .tc := ⟨.hbm, 1119, rfl⟩
abbrev main_v766 : Ref sig .tc := ⟨.hbm, 1120, rfl⟩
abbrev main_v767 : Ref sig .tc := ⟨.hbm, 1121, rfl⟩
abbrev main_v768 : Ref sig .tc := ⟨.hbm, 1122, rfl⟩
abbrev main_v769 : Ref sig .tc := ⟨.hbm, 1123, rfl⟩
abbrev main_v770 : Ref sig .tc := ⟨.hbm, 1124, rfl⟩
abbrev main_v771 : Ref sig .tc := ⟨.hbm, 1125, rfl⟩
abbrev main_v772 : Ref sig .tc := ⟨.hbm, 1126, rfl⟩
abbrev main_v773 : Ref sig .tc := ⟨.hbm, 1127, rfl⟩
abbrev main_v774 : Ref sig .tc := ⟨.hbm, 1128, rfl⟩
abbrev main_cst_121 : Ref sig .tc := ⟨.hbm, 1129, rfl⟩
abbrev main_v775 : Ref sig .tc := ⟨.hbm, 1130, rfl⟩
abbrev main_cst_122 : Ref sig .tc := ⟨.hbm, 1131, rfl⟩
abbrev main_v776 : Ref sig .tc := ⟨.hbm, 1132, rfl⟩
abbrev main_v777 : Ref sig .tc := ⟨.hbm, 1133, rfl⟩
abbrev main_c_123 : Ref sig .tc := ⟨.hbm, 1134, rfl⟩
abbrev main_call21_cst : Ref sig .tc := ⟨.hbm, 1135, rfl⟩
abbrev main_call21_v0 : Ref sig .tc := ⟨.hbm, 1136, rfl⟩
abbrev main_call21_v1 : Ref sig .tc := ⟨.hbm, 1137, rfl⟩
abbrev main_call21_cst_0 : Ref sig .tc := ⟨.hbm, 1138, rfl⟩
abbrev main_call21_v2 : Ref sig .tc := ⟨.hbm, 1139, rfl⟩
abbrev main_call21_v3 : Ref sig .tc := ⟨.hbm, 1140, rfl⟩
abbrev main_call21_v4 : Ref sig .tc := ⟨.hbm, 1141, rfl⟩
abbrev main_call21_v5 : Ref sig .tc := ⟨.hbm, 1142, rfl⟩
abbrev main_call21_v6 : Ref sig .tc := ⟨.hbm, 1143, rfl⟩
abbrev main_call21_v7 : Ref sig .tc := ⟨.hbm, 1144, rfl⟩
abbrev main_call21_cst_1 : Ref sig .tc := ⟨.hbm, 1145, rfl⟩
abbrev main_call21_v8 : Ref sig .tc := ⟨.hbm, 1146, rfl⟩
abbrev main_call21_cst_2 : Ref sig .tc := ⟨.hbm, 1147, rfl⟩
abbrev main_call21_v9 : Ref sig .tc := ⟨.hbm, 1148, rfl⟩
abbrev main_call21_v10 : Ref sig .tc := ⟨.hbm, 1149, rfl⟩
abbrev main_call21_v11 : Ref sig .tc := ⟨.hbm, 1150, rfl⟩
abbrev main_call21_cst_3 : Ref sig .tc := ⟨.hbm, 1151, rfl⟩
abbrev main_call21_v12 : Ref sig .tc := ⟨.hbm, 1152, rfl⟩
abbrev main_call21_cst_4 : Ref sig .tc := ⟨.hbm, 1153, rfl⟩
abbrev main_call21_call0_v0 : Ref sig .tc := ⟨.hbm, 1154, rfl⟩
abbrev main_call21_call0_v1 : Ref sig .tc := ⟨.hbm, 1155, rfl⟩
abbrev main_v778 : Ref sig .tc := ⟨.hbm, 1156, rfl⟩
abbrev main_v779 : Ref sig .tc := ⟨.hbm, 1157, rfl⟩
abbrev main_v780 : Ref sig .tc := ⟨.hbm, 1158, rfl⟩
abbrev main_v781 : Ref sig .tc := ⟨.hbm, 1159, rfl⟩
abbrev main_v782 : Ref sig .tc := ⟨.hbm, 1160, rfl⟩
abbrev main_v783 : Ref sig .tc := ⟨.hbm, 1161, rfl⟩
abbrev main_v784 : Ref sig .tc := ⟨.hbm, 1162, rfl⟩
abbrev main_cst_124 : Ref sig .tc := ⟨.hbm, 1163, rfl⟩
abbrev main_v785 : Ref sig .tc := ⟨.hbm, 1164, rfl⟩
abbrev main_v786 : Ref sig .tc := ⟨.hbm, 1165, rfl⟩
abbrev main_v787 : Ref sig .tc := ⟨.hbm, 1166, rfl⟩
abbrev main_v788 : Ref sig .tc := ⟨.hbm, 1167, rfl⟩
abbrev main_v789 : Ref sig .tc := ⟨.hbm, 1168, rfl⟩
abbrev main_v790 : Ref sig .tc := ⟨.hbm, 1169, rfl⟩
abbrev main_v791 : Ref sig .tc := ⟨.hbm, 1170, rfl⟩
abbrev main_v792 : Ref sig .tc := ⟨.hbm, 1171, rfl⟩
abbrev main_v793 : Ref sig .tc := ⟨.hbm, 1172, rfl⟩
abbrev main_v794 : Ref sig .tc := ⟨.hbm, 1173, rfl⟩
abbrev main_v795 : Ref sig .tc := ⟨.hbm, 1174, rfl⟩
abbrev main_c_125 : Ref sig .tc := ⟨.hbm, 1175, rfl⟩
abbrev main_v796 : Ref sig .tc := ⟨.hbm, 1176, rfl⟩
abbrev main_v797 : Ref sig .tc := ⟨.hbm, 1177, rfl⟩
abbrev main_c_126 : Ref sig .tc := ⟨.hbm, 1178, rfl⟩
abbrev main_v798 : Ref sig .tc := ⟨.hbm, 1179, rfl⟩
abbrev main_v799 : Ref sig .tc := ⟨.hbm, 1180, rfl⟩
abbrev main_v800 : Ref sig .tc := ⟨.hbm, 1181, rfl⟩
abbrev main_v801 : Ref sig .tc := ⟨.hbm, 1182, rfl⟩
abbrev main_v802 : Ref sig .tc := ⟨.hbm, 1183, rfl⟩
abbrev main_v803 : Ref sig .tc := ⟨.hbm, 1184, rfl⟩
abbrev main_v804 : Ref sig .tc := ⟨.hbm, 1185, rfl⟩
abbrev main_cst_127 : Ref sig .tc := ⟨.hbm, 1186, rfl⟩
abbrev main_v805 : Ref sig .tc := ⟨.hbm, 1187, rfl⟩
abbrev main_v806 : Ref sig .tc := ⟨.hbm, 1188, rfl⟩
abbrev main_v807 : Ref sig .tc := ⟨.hbm, 1189, rfl⟩
abbrev main_cst_128 : Ref sig .tc := ⟨.hbm, 1190, rfl⟩
abbrev main_v808 : Ref sig .tc := ⟨.hbm, 1191, rfl⟩
abbrev main_v809 : Ref sig .tc := ⟨.hbm, 1192, rfl⟩
abbrev main_v810 : Ref sig .tc := ⟨.hbm, 1193, rfl⟩
abbrev main_cst_129 : Ref sig .tc := ⟨.hbm, 1194, rfl⟩
abbrev main_v811 : Ref sig .tc := ⟨.hbm, 1195, rfl⟩
abbrev main_v812 : Ref sig .tc := ⟨.hbm, 1196, rfl⟩
abbrev main_v813 : Ref sig .tc := ⟨.hbm, 1197, rfl⟩
abbrev main_cst_130 : Ref sig .tc := ⟨.hbm, 1198, rfl⟩
abbrev main_v814 : Ref sig .tc := ⟨.hbm, 1199, rfl⟩
abbrev main_v815 : Ref sig .tc := ⟨.hbm, 1200, rfl⟩
abbrev main_v816 : Ref sig .tc := ⟨.hbm, 1201, rfl⟩
abbrev main_v817 : Ref sig .tc := ⟨.hbm, 1202, rfl⟩
abbrev main_v818 : Ref sig .tc := ⟨.hbm, 1203, rfl⟩
abbrev main_v819 : Ref sig .tc := ⟨.hbm, 1204, rfl⟩
abbrev main_v820 : Ref sig .tc := ⟨.hbm, 1205, rfl⟩
abbrev main_v821 : Ref sig .tc := ⟨.hbm, 1206, rfl⟩
abbrev main_v822 : Ref sig .tc := ⟨.hbm, 1207, rfl⟩
abbrev main_v823 : Ref sig .tc := ⟨.hbm, 1208, rfl⟩
abbrev main_v824 : Ref sig .tc := ⟨.hbm, 1209, rfl⟩
abbrev main_v825 : Ref sig .tc := ⟨.hbm, 1210, rfl⟩
abbrev main_v826 : Ref sig .tc := ⟨.hbm, 1211, rfl⟩
abbrev main_v827 : Ref sig .tc := ⟨.hbm, 1212, rfl⟩
abbrev main_v828 : Ref sig .tc := ⟨.hbm, 1213, rfl⟩
abbrev main_v829 : Ref sig .tc := ⟨.hbm, 1214, rfl⟩
abbrev main_v830 : Ref sig .tc := ⟨.hbm, 1215, rfl⟩
abbrev main_v831 : Ref sig .tc := ⟨.hbm, 1216, rfl⟩
abbrev main_cst_131 : Ref sig .tc := ⟨.hbm, 1217, rfl⟩
abbrev main_v832 : Ref sig .tc := ⟨.hbm, 1218, rfl⟩
abbrev main_v833 : Ref sig .tc := ⟨.hbm, 1219, rfl⟩
abbrev main_v834 : Ref sig .tc := ⟨.hbm, 1220, rfl⟩
abbrev main_v835 : Ref sig .tc := ⟨.hbm, 1221, rfl⟩
abbrev main_v836 : Ref sig .tc := ⟨.hbm, 1222, rfl⟩
abbrev main_v837 : Ref sig .tc := ⟨.hbm, 1223, rfl⟩
abbrev main_v838 : Ref sig .tc := ⟨.hbm, 1224, rfl⟩
abbrev main_v839 : Ref sig .tc := ⟨.hbm, 1225, rfl⟩
abbrev main_v840 : Ref sig .tc := ⟨.hbm, 1226, rfl⟩
abbrev main_v841 : Ref sig .tc := ⟨.hbm, 1227, rfl⟩
abbrev main_cst_132 : Ref sig .tc := ⟨.hbm, 1228, rfl⟩
abbrev main_v842 : Ref sig .tc := ⟨.hbm, 1229, rfl⟩
abbrev main_cst_133 : Ref sig .tc := ⟨.hbm, 1230, rfl⟩
abbrev main_v843 : Ref sig .tc := ⟨.hbm, 1231, rfl⟩
abbrev main_v844 : Ref sig .tc := ⟨.hbm, 1232, rfl⟩
abbrev main_c_134 : Ref sig .tc := ⟨.hbm, 1233, rfl⟩
abbrev main_call23_cst : Ref sig .tc := ⟨.hbm, 1234, rfl⟩
abbrev main_call23_v0 : Ref sig .tc := ⟨.hbm, 1235, rfl⟩
abbrev main_call23_v1 : Ref sig .tc := ⟨.hbm, 1236, rfl⟩
abbrev main_call23_cst_0 : Ref sig .tc := ⟨.hbm, 1237, rfl⟩
abbrev main_call23_v2 : Ref sig .tc := ⟨.hbm, 1238, rfl⟩
abbrev main_call23_v3 : Ref sig .tc := ⟨.hbm, 1239, rfl⟩
abbrev main_call23_v4 : Ref sig .tc := ⟨.hbm, 1240, rfl⟩
abbrev main_call23_v5 : Ref sig .tc := ⟨.hbm, 1241, rfl⟩
abbrev main_call23_v6 : Ref sig .tc := ⟨.hbm, 1242, rfl⟩
abbrev main_call23_v7 : Ref sig .tc := ⟨.hbm, 1243, rfl⟩
abbrev main_call23_cst_1 : Ref sig .tc := ⟨.hbm, 1244, rfl⟩
abbrev main_call23_v8 : Ref sig .tc := ⟨.hbm, 1245, rfl⟩
abbrev main_call23_cst_2 : Ref sig .tc := ⟨.hbm, 1246, rfl⟩
abbrev main_call23_v9 : Ref sig .tc := ⟨.hbm, 1247, rfl⟩
abbrev main_call23_v10 : Ref sig .tc := ⟨.hbm, 1248, rfl⟩
abbrev main_call23_v11 : Ref sig .tc := ⟨.hbm, 1249, rfl⟩
abbrev main_call23_cst_3 : Ref sig .tc := ⟨.hbm, 1250, rfl⟩
abbrev main_call23_v12 : Ref sig .tc := ⟨.hbm, 1251, rfl⟩
abbrev main_call23_cst_4 : Ref sig .tc := ⟨.hbm, 1252, rfl⟩
abbrev main_call23_call0_v0 : Ref sig .tc := ⟨.hbm, 1253, rfl⟩
abbrev main_call23_call0_v1 : Ref sig .tc := ⟨.hbm, 1254, rfl⟩
abbrev main_v845 : Ref sig .tc := ⟨.hbm, 1255, rfl⟩
abbrev main_v846 : Ref sig .tc := ⟨.hbm, 1256, rfl⟩
abbrev main_v847 : Ref sig .tc := ⟨.hbm, 1257, rfl⟩
abbrev main_v848 : Ref sig .tc := ⟨.hbm, 1258, rfl⟩
abbrev main_v849 : Ref sig .tc := ⟨.hbm, 1259, rfl⟩
abbrev main_v850 : Ref sig .tc := ⟨.hbm, 1260, rfl⟩
abbrev main_v851 : Ref sig .tc := ⟨.hbm, 1261, rfl⟩
abbrev main_cst_135 : Ref sig .tc := ⟨.hbm, 1262, rfl⟩
abbrev main_v852 : Ref sig .tc := ⟨.hbm, 1263, rfl⟩
abbrev main_v853 : Ref sig .tc := ⟨.hbm, 1264, rfl⟩
abbrev main_v854 : Ref sig .tc := ⟨.hbm, 1265, rfl⟩
abbrev main_v855 : Ref sig .tc := ⟨.hbm, 1266, rfl⟩
abbrev main_v856 : Ref sig .tc := ⟨.hbm, 1267, rfl⟩
abbrev main_v857 : Ref sig .tc := ⟨.hbm, 1268, rfl⟩
abbrev main_v858 : Ref sig .tc := ⟨.hbm, 1269, rfl⟩
abbrev main_v859 : Ref sig .tc := ⟨.hbm, 1270, rfl⟩
abbrev main_v860 : Ref sig .tc := ⟨.hbm, 1271, rfl⟩
abbrev main_v861 : Ref sig .tc := ⟨.hbm, 1272, rfl⟩
abbrev main_v862 : Ref sig .tc := ⟨.hbm, 1273, rfl⟩
abbrev main_v863 : Ref sig .tc := ⟨.hbm, 1274, rfl⟩
abbrev main_cst_136 : Ref sig .tc := ⟨.hbm, 1275, rfl⟩
abbrev main_v864 : Ref sig .tc := ⟨.hbm, 1276, rfl⟩
abbrev main_v865 : Ref sig .tc := ⟨.hbm, 1277, rfl⟩
abbrev main_v866 : Ref sig .tc := ⟨.hbm, 1278, rfl⟩
abbrev main_cst_137 : Ref sig .tc := ⟨.hbm, 1279, rfl⟩
abbrev main_v867 : Ref sig .tc := ⟨.hbm, 1280, rfl⟩
abbrev main_v868 : Ref sig .tc := ⟨.hbm, 1281, rfl⟩
abbrev main_v869 : Ref sig .tc := ⟨.hbm, 1282, rfl⟩
abbrev main_cst_138 : Ref sig .tc := ⟨.hbm, 1283, rfl⟩
abbrev main_v870 : Ref sig .tc := ⟨.hbm, 1284, rfl⟩
abbrev main_v871 : Ref sig .tc := ⟨.hbm, 1285, rfl⟩
abbrev main_v872 : Ref sig .tc := ⟨.hbm, 1286, rfl⟩
abbrev main_cst_139 : Ref sig .tc := ⟨.hbm, 1287, rfl⟩
abbrev main_v873 : Ref sig .tc := ⟨.hbm, 1288, rfl⟩
abbrev main_v874 : Ref sig .tc := ⟨.hbm, 1289, rfl⟩
abbrev main_v875 : Ref sig .tc := ⟨.hbm, 1290, rfl⟩
abbrev main_v876 : Ref sig .tc := ⟨.hbm, 1291, rfl⟩
abbrev main_v877 : Ref sig .tc := ⟨.hbm, 1292, rfl⟩
abbrev main_v878 : Ref sig .tc := ⟨.hbm, 1293, rfl⟩
abbrev main_v879 : Ref sig .tc := ⟨.hbm, 1294, rfl⟩
abbrev main_cst_140 : Ref sig .tc := ⟨.hbm, 1295, rfl⟩
abbrev main_v880 : Ref sig .tc := ⟨.hbm, 1296, rfl⟩
abbrev main_v881 : Ref sig .tc := ⟨.hbm, 1297, rfl⟩
abbrev main_v882 : Ref sig .tc := ⟨.hbm, 1298, rfl⟩
abbrev main_cst_141 : Ref sig .tc := ⟨.hbm, 1299, rfl⟩
abbrev main_v883 : Ref sig .tc := ⟨.hbm, 1300, rfl⟩
abbrev main_v884 : Ref sig .tc := ⟨.hbm, 1301, rfl⟩
abbrev main_v885 : Ref sig .tc := ⟨.hbm, 1302, rfl⟩
abbrev main_cst_142 : Ref sig .tc := ⟨.hbm, 1303, rfl⟩
abbrev main_v886 : Ref sig .tc := ⟨.hbm, 1304, rfl⟩
abbrev main_v887 : Ref sig .tc := ⟨.hbm, 1305, rfl⟩
abbrev main_v888 : Ref sig .tc := ⟨.hbm, 1306, rfl⟩
abbrev main_cst_143 : Ref sig .tc := ⟨.hbm, 1307, rfl⟩
abbrev main_v889 : Ref sig .tc := ⟨.hbm, 1308, rfl⟩
abbrev main_v890 : Ref sig .tc := ⟨.hbm, 1309, rfl⟩
abbrev main_v891 : Ref sig .tc := ⟨.hbm, 1310, rfl⟩
abbrev main_v892 : Ref sig .tc := ⟨.hbm, 1311, rfl⟩
abbrev main_v893 : Ref sig .tc := ⟨.hbm, 1312, rfl⟩
abbrev main_v894 : Ref sig .tc := ⟨.hbm, 1313, rfl⟩
abbrev main_v895 : Ref sig .tc := ⟨.hbm, 1314, rfl⟩
abbrev main_cst_144 : Ref sig .tc := ⟨.hbm, 1315, rfl⟩
abbrev main_v896 : Ref sig .tc := ⟨.hbm, 1316, rfl⟩
abbrev main_v897 : Ref sig .tc := ⟨.hbm, 1317, rfl⟩
abbrev main_v898 : Ref sig .tc := ⟨.hbm, 1318, rfl⟩
abbrev main_cst_145 : Ref sig .tc := ⟨.hbm, 1319, rfl⟩
abbrev main_v899 : Ref sig .tc := ⟨.hbm, 1320, rfl⟩
abbrev main_v900 : Ref sig .tc := ⟨.hbm, 1321, rfl⟩
abbrev main_v901 : Ref sig .tc := ⟨.hbm, 1322, rfl⟩
abbrev main_cst_146 : Ref sig .tc := ⟨.hbm, 1323, rfl⟩
abbrev main_v902 : Ref sig .tc := ⟨.hbm, 1324, rfl⟩
abbrev main_v903 : Ref sig .tc := ⟨.hbm, 1325, rfl⟩
abbrev main_v904 : Ref sig .tc := ⟨.hbm, 1326, rfl⟩
abbrev main_cst_147 : Ref sig .tc := ⟨.hbm, 1327, rfl⟩
abbrev main_v905 : Ref sig .tc := ⟨.hbm, 1328, rfl⟩
abbrev main_v906 : Ref sig .tc := ⟨.hbm, 1329, rfl⟩
abbrev main_v907 : Ref sig .tc := ⟨.hbm, 1330, rfl⟩
abbrev main_v908 : Ref sig .tc := ⟨.hbm, 1331, rfl⟩
abbrev main_v909 : Ref sig .tc := ⟨.hbm, 1332, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S3x400000_S1x400000_0_0 : S3x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x64 : S_.BroadcastsInDim S50000x64 (![] : Fin 0 → Fin S50000x64.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x400000_S1x400000_1_0 : S3x400000.Slices ![1, 0] S1x400000
  slices_S3x64x128_S1x64x128_1_0_0 : S3x64x128.Slices ![1, 0, 0] S1x64x128
  slices_S3x128_S1x128_1_0 : S3x128.Slices ![1, 0] S1x128
  slices_S3x400000_S1x400000_2_0 : S3x400000.Slices ![2, 0] S1x400000
  slices_S3x64x128_S1x64x128_2_0_0 : S3x64x128.Slices ![2, 0, 0] S1x64x128
  slices_S3x128_S1x128_2_0 : S3x128.Slices ![2, 0] S1x128
  slices_S3x3x128x128_S1x3x128x128_0_0_0_0 : S3x3x128x128.Slices ![0, 0, 0, 0] S1x3x128x128
  shapeCasts_S1x3x128x128_S3x128x128 : S1x3x128x128.ShapeCasts S3x128x128
  slices_S3x3x128_S1x3x128_0_0_0 : S3x3x128.Slices ![0, 0, 0] S1x3x128
  shapeCasts_S1x3x128_S3x128 : S1x3x128.ShapeCasts S3x128
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  slices_S3x3x128x128_S1x3x128x128_1_0_0_0 : S3x3x128x128.Slices ![1, 0, 0, 0] S1x3x128x128
  slices_S3x3x128_S1x3x128_1_0_0 : S3x3x128.Slices ![1, 0, 0] S1x3x128
  slices_S3x3x128x128_S1x3x128x128_2_0_0_0 : S3x3x128x128.Slices ![2, 0, 0, 0] S1x3x128x128
  slices_S3x3x128_S1x3x128_2_0_0 : S3x3x128.Slices ![2, 0, 0] S1x3x128
  concatenates_S50000x128_S50000x128_S50000x128_S50000x128_S50000x512_d1 : Shape.Concatenates [S50000x128, S50000x128, S50000x128, S50000x128] S50000x512 1
  slices_S3x50000_S1x50000_0_0 : S3x50000.Slices ![0, 0] S1x50000
  shapeCasts_S1x50000_S50000 : S1x50000.ShapeCasts S50000
  bcast_S_S64x512 : S_.BroadcastsInDim S64x512 (![] : Fin 0 → Fin S64x512.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  slices_S3x50000_S1x50000_1_0 : S3x50000.Slices ![1, 0] S1x50000
  slices_S3x50000_S1x50000_2_0 : S3x50000.Slices ![2, 0] S1x50000
  concatenates_S64x512_S64x512_S64x512_S64x1536_d1 : Shape.Concatenates [S64x512, S64x512, S64x512] S64x1536 1
  gather_S257x64_S50000x1_S50000x64_1_0_n_n_0_1_164_wf : GatherDims.WF S257x64 S50000x1 S50000x64 [1] [0] [] [0] [] 1 ![1, 64]
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  scatter_S50000x1_S400000x1_S400000x1_1_0_0_1_wf : ScatterDims.WF S50000x1 S400000x1 S400000x1 [1] [0] [0] 1
  dot_S50000x64_S64x128_S50000x128_1_0_0_1_n_n_wf : DotDims.WF S50000x64 S64x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S50000x128_S128x128_S50000x128_1_0_0_1_n_n_wf : DotDims.WF S50000x128 S128x128 S50000x128 [1] [0] [0] [1] [] []
  scatter_S64x512_S50000x1_S50000x512_1_0_0_1_wf : ScatterDims.WF S64x512 S50000x1 S50000x512 [1] [0] [0] 1
  scatter_S64x1_S50000x1_S50000x1_1_0_0_1_wf : ScatterDims.WF S64x1 S50000x1 S50000x1 [1] [0] [0] 1

variable [Facts₀]

def gather_S257x64_S50000x1_S50000x64_1_0_n_n_0_1_164 : GatherDims S257x64 S50000x1 S50000x64 where
  offsetDims := [1]
  collapsedSliceDims := [0]
  operandBatchingDims := []
  startIndicesBatchingDims := []
  startIndexMap := [0]
  indexVectorDim := 1
  sliceSizes := ![1, 64]
  wf := gather_S257x64_S50000x1_S50000x64_1_0_n_n_0_1_164_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x512_S50000x1_S50000x512_1_0_0_1 : ScatterDims S64x512 S50000x1 S50000x512 where
  updateWindowDims := [1]
  insertedWindowDims := [0]
  scatterDimsToOperandDims := [0]
  indexVectorDim := 1
  wf := scatter_S64x512_S50000x1_S50000x512_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.KI.RunLib.lean ====
import proofs.«421328_j30846455120312_1_alg».proof.Proof.Gen.KernelIdeal.Launch
import Idealize.ShloMosaic.Lib.Pipeline.FrameBody
import Idealize.ShloMosaic.Lib.Pipeline.RegionsLoop
import Idealize.ShloMosaic.Lib.Pipeline.FrameSuffix

/-! The run of @main, the part that does not depend on which region is which: what the run takes of a kernel region
    (`RegionHalf`), the thread state carried between @main's items, a host stretch and a kernel region as segments over
    that state, and the small facts the tables of the run cite. -/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the run takes of a region -/

/-- One kernel region entered at the buffer contents `V`: proof data whose arrays are read off `V`, the body
    obligation at every point, the class invariant (the scoped rest and the generator register) into the data's
    invariant at the first point and out of it at the last, every input array held whole, nothing owed to another
    core, no bound kept on the recorded waits at entry. -/
structure RegionHalf (cfg : Pipeline.Cfg sig Λ₀)
    (V : (c : Dev nD) → (b : Ref sig .tc) → Buf (Elt F) ((c : Thread nD τ).loc b)) where
  dat : (c : Dev nD) → Dat τ (Elt F) Unit ℕ (UR sig nD τ) ℕ cfg c
  A_eq : ∀ c (w : Fin cfg.W), (dat c).A w = V c (Pipeline.arrRef cfg.spec w)
  body : ∀ c, BodyObligation (dat c) (defs₀ (F := F)) Variants.none () Set.univ
  hin : ∀ c, Pipeline.ΦA cfg.spec c ⊢ (dat c).Φ 0
  hout : ∀ c, (dat c).Φ (Fin.last cfg.N) ⊢ Pipeline.ΦA cfg.spec c
  hq : ∀ c w, (dat c).q w = fullShare
  howed : ∀ c t, (dat c).owed t = 0
  hrec : ∀ c x, x ∈ (dat c).recorded 0

/-- The 27 regions of @main, each at any entry contents. -/
class Halves where
  h0 : ∀ V, RegionHalf (F := F) cfg0 V
  h1 : ∀ V, RegionHalf (F := F) cfg1 V
  h2 : ∀ V, RegionHalf (F := F) cfg2 V
  h3 : ∀ V, RegionHalf (F := F) cfg3 V
  h4 : ∀ V, RegionHalf (F := F) cfg4 V
  h5 : ∀ V, RegionHalf (F := F) cfg5 V
  h6 : ∀ V, RegionHalf (F := F) cfg6 V
  h7 : ∀ V, RegionHalf (F := F) cfg7 V
  h8 : ∀ V, RegionHalf (F := F) cfg8 V
  h9 : ∀ V, RegionHalf (F := F) cfg9 V
  h10 : ∀ V, RegionHalf (F := F) cfg10 V
  h11 : ∀ V, RegionHalf (F := F) cfg11 V
  h12 : ∀ V, RegionHalf (F := F) cfg12 V
  h13 : ∀ V, RegionHalf (F := F) cfg13 V
  h14 : ∀ V, RegionHalf (F := F) cfg14 V
  h15 : ∀ V, RegionHalf (F := F) cfg15 V
  h16 : ∀ V, RegionHalf (F := F) cfg16 V
  h17 : ∀ V, RegionHalf (F := F) cfg17 V
  h18 : ∀ V, RegionHalf (F := F) cfg18 V
  h19 : ∀ V, RegionHalf (F := F) cfg19 V
  h20 : ∀ V, RegionHalf (F := F) cfg20 V
  h21 : ∀ V, RegionHalf (F := F) cfg21 V
  h22 : ∀ V, RegionHalf (F := F) cfg22 V
  h23 : ∀ V, RegionHalf (F := F) cfg23 V
  h24 : ∀ V, RegionHalf (F := F) cfg24 V
  h25 : ∀ V, RegionHalf (F := F) cfg25 V
  h26 : ∀ V, RegionHalf (F := F) cfg26 V

/-! # The thread state between @main's items -/

/-- The prefetched tables' admissible contents: no pipeline has a table. -/
noncomputable abbrev adm : (p : Fin 27) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
noncomputable abbrev R (c : Dev nD) : sProp 𝕄 := iprop((∃ r, prngReg c r) ∗ ∃ W, owes (c : Thread nD τ) (0 : CellTallies nD τ sig Unit) W)

/-- A host stretch as a segment: its operations over the unscoped references from the contents `W`, `R` riding along;
    it leaves those references at `StableHlo.after ops (W c)`. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An operation whose one result is a listed reference writes within the list. -/
theorem wsub {Wl : List (Ref sig .tc)} (y : Ref sig .tc) (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

/-- @main's argument arrays. -/
noncomputable abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- Whether a reference is one of @main's argument arrays: they are the first 21 buffers of HBM. -/
def isArg (r : Ref sig .tc) : Bool := decide (r.space = .hbm) && decide (r.idx.val < 21)

theorem isArg_argRefs : ∀ b ∈ (argRefs : List (Ref sig .tc)), isArg b = true := by decide +kernel

/-- An argument array is not among references none of which is one. -/
theorem not_mem_of_noarg {Wl : List (Ref sig .tc)} (hW : ∀ y ∈ Wl, isArg y = false) (b : Ref sig .tc)
    (hb : b ∈ (argRefs : List (Ref sig .tc))) : b ∉ Wl :=
  fun h => by have h1 := hW b h; rw [isArg_argRefs b hb] at h1; exact Bool.noConfusion h1

/-- A reference that is no argument array differs from every argument array. -/
theorem ne_of_noarg {y b : Ref sig .tc} (hy : isArg y = false) (hb : b ∈ (argRefs : List (Ref sig .tc))) : y ≠ b :=
  fun e => by subst e; rw [isArg_argRefs _ hb] at hy; exact Bool.noConfusion hy

/-- The last thread state regrouped: the buffers and the register on one side, the `owes` on the other. -/
theorem R_split (c : Dev nD) (W : Valuation τ sig (Elt F)) :
    iprop(StableHlo.held (c : Thread nD τ) (Pipeline.ucRefs τ sig) W ∗ R c)
      ⊢ (iprop(iprop(StableHlo.held (c : Thread nD τ) (Pipeline.ucRefs τ sig) W ∗ ∃ r, prngReg c r)
          ∗ ∃ W', owes (c : Thread nD τ) (0 : CellTallies nD τ sig Unit) W') : sProp 𝕄) := by
  iintro ⟨Hh, Hp, HO⟩
  isplitl [Hh Hp]
  · isplitl [Hh]; · iexact Hh
    iexact Hp
  iexact HO

/-! # A kernel region as a segment -/

section Generic
variable (pdats : (p : Fin 27) → (c : Dev nD) → Dat τ (Elt F) Unit ℕ (UR sig nD τ) ℕ (Pipeline.pin (pcfgs (F := F)) adm p) c)

-- a library lemma stated over `pin pcs a p` unifies with the configuration `cfgs p` only when unification may unfold
-- plain definitions in a metavariable's type
set_option backward.isDefEq.respectTransparency.types false in
/-- REGION `p` over the thread state: entered from every unscoped buffer at `Wpre`, left at `Wpost`, where `Wpost`
    has the region's arrays at what the pipeline leaves (`hF`) and every other buffer as entered (`hrest`). Its arrays
    are split out of the unscoped buffers at entry and put back at exit; the generator register goes into the class
    invariant and comes out; nothing is owed; the kernel has no semaphore of its own. -/
noncomputable def mkReg (p : Fin 27) (lf : Pipeline.LaunchFacts (nD := nD) (τ := τ) cfgs p)
    (Wpre Wpost : Dev nD → Valuation τ sig (Elt F))
    (hA : ∀ c w, (pdats p c).A w = Wpre c (Pipeline.arrRef (cfgs p).spec w))
    (hbody : ∀ c, BodyObligation (pdats p c) (defs₀ (F := F)) Variants.none () Set.univ)
    (hin : ∀ c, Pipeline.ΦA (cfgs p).spec c ⊢ (pdats p c).Φ 0)
    (hout : ∀ c, (pdats p c).Φ (Fin.last (cfgs p).N) ⊢ Pipeline.ΦA (cfgs p).spec c)
    (hq : ∀ c w, (pdats p c).q w = fullShare)
    (howed : ∀ c t, (pdats p c).owed t = 0)
    (hrec : ∀ c x, x ∈ (pdats p c).recorded 0)
    (hF : ∀ c w, (pdats p c).arrAt w (cfgs p).N = Wpost c (Pipeline.arrRef (cfgs p).spec w))
    (hrest : ∀ c (b : Ref sig .tc), b ∉ Finset.univ.image (Pipeline.arrRef (cfgs p).spec) → Wpost c b = Wpre c b) :
    Pipeline.RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wpre c b)
  hentry c := by
    rw [Pipeline.ownSems0_none]
    have hsplit := Pipeline.arrays_of_unscopedBufs (p := p) (pcfgs (F := F)) adm pdats lf.win lf.arr_whole c
      ((pdats p c).share_full (hq c)) (fun b => Wpre c b) (hA c)
    rw [Pipeline.unscopedBufs_held] at hsplit
    unfold Pipeline.Dat.owesAt Pipeline.owesWithin
    rw [howed c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Wpre c b) (fun b => Wpost c b) ((pdats p c).arrAt · (cfgs p).N) (hF c) (hrest c)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Generic

end Cert.KernelIdeal.Gen

end
-- ==== Proof.KI.Run.lean ====
import proofs.«421328_j30846455120312_1_alg».proof.Proof.KI.RunTable

/-! The run of @main: @main as the run of its segments, and the launch over them — every weakly fair execution ends,
    with the result buffer at the last contents of the fold and every argument array as launched. -/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [Halves (F := F)]
variable (m : (ℓ : Loc nD τ sig) → Buf (Elt F) ℓ) (ρ : Dev nD → PrngReg)

/-- @main IS the run of the segments: the generated equation of @main as the chain of its items, then the segments'
    run against that chain, by the kernel's definitional check. -/
theorem main_run (c : Dev nD) : main (F := F) c = Pipeline.Seg.run (segs m ρ) := (main_chain_windows c).trans (by chain_rfl)

/-- The last thread state without the `owes` (the chain ends at it BESIDE the core owing nothing): every unscoped buffer
    at the last boundary's contents, the generator register at some state. -/
abbrev Tₙ (c : Dev nD) : sProp 𝕄 := iprop(StableHlo.held (c : Thread nD τ) (Pipeline.ucRefs τ sig) (Wlast m ρ c) ∗ ∃ r, prngReg c r)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has the result buffer at the fold's last contents
    and the argument arrays as launched: the launch over the segments, the last thread state read against the final
    state, the result by name and each argument through the fold. -/
theorem run_main : θ_run defs (onTc (τ := τ) (main (F := F))) ⟨m, fun _ => 0, ρ⟩ (fun r => ∀ c : Dev nD,
      r.2.mem ((c.tc : Thread nD τ).loc main_v618) = Wlast m ρ c (Proc.devRef .tc main_v618)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl,
      fun c => R_split c _⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wlast m ρ c b)
    (hfin := fun c s' => by
      iintro ⟨⟨Hh, -⟩, HSI⟩
      unfold StableHlo.held
      imodintro
      iapply (pointsTo_read_all (Pipeline.ucRefs τ sig) (fun b => (((c : Thread nD τ)).1, b)) (Wlast m ρ c) s')
      isplitl [Hh] <;> iassumption)
    (hQ := fun s h c =>
      ⟨h c _ (mem_uc main_v618 (by decide +kernel)),
       (h c _ (mem_uc main_arg0 (by decide +kernel))).trans (Wlast_args m ρ c main_arg0 (by decide +kernel)),
       (h c _ (mem_uc main_arg1 (by decide +kernel))).trans (Wlast_args m ρ c main_arg1 (by decide +kernel)),
       (h c _ (mem_uc main_arg2 (by decide +kernel))).trans (Wlast_args m ρ c main_arg2 (by decide +kernel)),
       (h c _ (mem_uc main_arg3 (by decide +kernel))).trans (Wlast_args m ρ c main_arg3 (by decide +kernel)),
       (h c _ (mem_uc main_arg4 (by decide +kernel))).trans (Wlast_args m ρ c main_arg4 (by decide +kernel)),
       (h c _ (mem_uc main_arg5 (by decide +kernel))).trans (Wlast_args m ρ c main_arg5 (by decide +kernel)),
       (h c _ (mem_uc main_arg6 (by decide +kernel))).trans (Wlast_args m ρ c main_arg6 (by decide +kernel)),
       (h c _ (mem_uc main_arg7 (by decide +kernel))).trans (Wlast_args m ρ c main_arg7 (by decide +kernel)),
       (h c _ (mem_uc main_arg8 (by decide +kernel))).trans (Wlast_args m ρ c main_arg8 (by decide +kernel)),
       (h c _ (mem_uc main_arg9 (by decide +kernel))).trans (Wlast_args m ρ c main_arg9 (by decide +kernel)),
       (h c _ (mem_uc main_arg10 (by decide +kernel))).trans (Wlast_args m ρ c main_arg10 (by decide +kernel)),
       (h c _ (mem_uc main_arg11 (by decide +kernel))).trans (Wlast_args m ρ c main_arg11 (by decide +kernel)),
       (h c _ (mem_uc main_arg12 (by decide +kernel))).trans (Wlast_args m ρ c main_arg12 (by decide +kernel)),
       (h c _ (mem_uc main_arg13 (by decide +kernel))).trans (Wlast_args m ρ c main_arg13 (by decide +kernel)),
       (h c _ (mem_uc main_arg14 (by decide +kernel))).trans (Wlast_args m ρ c main_arg14 (by decide +kernel)),
       (h c _ (mem_uc main_arg15 (by decide +kernel))).trans (Wlast_args m ρ c main_arg15 (by decide +kernel)),
       (h c _ (mem_uc main_arg16 (by decide +kernel))).trans (Wlast_args m ρ c main_arg16 (by decide +kernel)),
       (h c _ (mem_uc main_arg17 (by decide +kernel))).trans (Wlast_args m ρ c main_arg17 (by decide +kernel)),
       (h c _ (mem_uc main_arg18 (by decide +kernel))).trans (Wlast_args m ρ c main_arg18 (by decide +kernel)),
       (h c _ (mem_uc main_arg19 (by decide +kernel))).trans (Wlast_args m ρ c main_arg19 (by decide +kernel)),
       (h c _ (mem_uc main_arg20 (by decide +kernel))).trans (Wlast_args m ρ c main_arg20 (by decide +kernel))⟩)

/-- info: 'Cert.KernelIdeal.Gen.run_main' depends on axioms: [propext, Classical.choice, Quot.sound] -/
#guard_msgs in #print axioms run_main

end Cert.KernelIdeal.Gen

end
-- ==== Proof.KI.R0Runs.lean ====
import proofs.«421328_j30846455120312_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
# The body of `cc0__dense_stats_kernel`: its runs

The body computes, on one tile of 5000 rows, the pre-activation
`pr = PReLU (bf16 x · bf16 Wself + bf16 nmean · bf16 Wneigh + b)` (the payload `k0_pay5`), stores it whole into
the tile's output block, and adds its column sums and column sums of squares to two accumulators held in scratch
(`k0_pay6`, `k0_pay1`, `k0_pay2`). Two conditionals on the grid coordinate `t` frame the accumulation: at `t = 0`
the accumulators are zeroed first (`k0_pay3`, `k0_pay4`), at `t = 9` they are copied to the two one-row outputs.

Three control cases over the ten grid points: A (`t = 0`: reset, no copy), B (`1 ≤ t ≤ 8`: neither),
C (`t = 9`: no reset, copy). Per case, the body's triple in continuation-passing form on WHOLE staging memrefs,
with what every buffer holds afterwards written as an explicit term over the payloads.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (`t = 0`: zero the accumulators), from the grid coordinates. -/
abbrev cond0_1 (i : grid0.Coords) : Prop :=
  (Scalar.cmpi .ne (Scalar.extui (Scalar.cmpi .eq (BitVec.ofNat 32 (i 0).val) 0#32)) 0#32) = 1#1
/-- It holds at the grid's first point only. -/
theorem hcond0_1 : ∀ t : Fin cfg0.N, cond0_1 (grid0.coords t) ↔ t.val % 10 = 0 :=
  (by decide +kernel : ∀ t : Fin grid0.N, cond0_1 (grid0.coords t) ↔ t.val % 10 = 0)

/-- The condition of the body's second conditional (`t = 9`: copy the accumulators out). -/
abbrev cond0_2 (i : grid0.Coords) : Prop := k0_cond2 i = 1#1
/-- It holds at the grid's last point only. -/
theorem hcond0_2 : ∀ t : Fin cfg0.N, cond0_2 (grid0.coords t) ↔ t.val % 10 = 9 :=
  (by decide +kernel : ∀ t : Fin grid0.N, cond0_2 (grid0.coords t) ↔ t.val % 10 = 9)

/-! ## Whole-block loads and stores

Every load and store of the body goes through the rectangle of the buffer's own sizes at zero offsets: a load through
it reads the contents, and a store through it, made last, leaves its payload whatever was stored before. -/

/-- The zero offsets of a rank-2 rectangle, as the body spells them. -/
private theorem off0_zero : (![0, 0] : Fin 2 → ℕ) = fun _ => 0 := by funext a; fin_cases a <;> rfl

section Whole
variable {Val : EltTy → Type} [∀ e, Nonempty (Val e)] {κ : Kind} {sp : Space} {S : Shape} {e : EltTy}

/-- A load through the whole-shape rectangle reads what the view reads. -/
private theorem readAt_whole_of (v : View sig κ sp S e) {off : Fin S.rank → ℕ} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

/-- After a last store through the whole-shape rectangle the view reads that store's payload. -/
private theorem read_writes_whole_of (v : View sig κ sp S e) {off : Fin S.rank → ℕ} (h : off = fun _ => 0)
    (inb : ∀ a, off a + S.size a ≤ S.size a) (f : v.ty.Contents Val) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load through the whole-shape rectangle after a last store through it reads that store's payload. -/
private theorem readCov_whole_of (v : View sig κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

end Whole

/-- The four block shapes of the body, each read whole: the row tile, the weight, the one-row vector, the output tile. -/
theorem rd0_x (v : View sig .tc .vmem S5000x64 .f32) (f : v.ty.Contents (Elt F)) :
    v.readAt (Elt F) (Rect.unit (s := S5000x64) ![0, 0] S5000x64.size inb_S5000x64_S5000x64_0_0).toLoadRect f = v.read (Elt F) f :=
  readAt_whole_of v off0_zero _ f
theorem rd0_w (v : View sig .tc .vmem S64x128 .f32) (f : v.ty.Contents (Elt F)) :
    v.readAt (Elt F) (Rect.unit (s := S64x128) ![0, 0] S64x128.size inb_S64x128_S64x128_0_0).toLoadRect f = v.read (Elt F) f :=
  readAt_whole_of v off0_zero _ f
theorem rd0_v (v : View sig .tc .vmem S1x128 .f32) (f : v.ty.Contents (Elt F)) :
    v.readAt (Elt F) (Rect.unit (s := S1x128) ![0, 0] S1x128.size inb_S1x128_S1x128_0_0).toLoadRect f = v.read (Elt F) f :=
  readAt_whole_of v off0_zero _ f
/-- and the two stored whole. -/
theorem wr0_o (v : View sig .tc .vmem S5000x128 .f32) (f : v.ty.Contents (Elt F)) (w : Vec F S5000x128 .f32)
    (L : List (View.Piece (Elt F) S5000x128 .f32)) :
    v.read (Elt F) (v.writes (Elt F) f (⟨Rect.unit (s := S5000x128) ![0, 0] S5000x128.size inb_S5000x128_S5000x128_0_0, w⟩ :: L)) = w :=
  read_writes_whole_of v off0_zero _ f w L
theorem wr0_v (v : View sig .tc .vmem S1x128 .f32) (f : v.ty.Contents (Elt F)) (w : Vec F S1x128 .f32)
    (L : List (View.Piece (Elt F) S1x128 .f32)) :
    v.read (Elt F) (v.writes (Elt F) f (⟨Rect.unit (s := S1x128) ![0, 0] S1x128.size inb_S1x128_S1x128_0_0, w⟩ :: L)) = w :=
  read_writes_whole_of v off0_zero _ f w L
/-- A one-row accumulator read back whole after a whole store holds that store's payload. -/
theorem rc0_v (v : View sig .tc .vmem S1x128 .f32) (w : Vec F S1x128 .f32) (L : List (View.Piece (Elt F) S1x128 .f32)) :
    v.readCov (⟨Rect.unit (s := S1x128) ![0, 0] S1x128.size inb_S1x128_S1x128_0_0, w⟩ :: L)
      (Rect.unit (s := S1x128) ![0, 0] S1x128.size inb_S1x128_S1x128_0_0).toLoadRect = w :=
  readCov_whole_of v off0_zero _ w L

/-! ## The runs

Each run opens the buffers' ownership, names the inputs' contents by what their views read, executes the body's
loads and stores in order (each conditional decided by the case's hypotheses), and hands every buffer to the
continuation: an input as it was, a stored buffer at the payload of its last whole store, a loaded accumulator at
what the store before it left. -/

set_option maxHeartbeats 1000000 in
/-- CASE A (the grid's first point): the accumulators are zeroed, then the tile's sums are added; nothing is copied out. -/
theorem kernelRun0_A (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : cond0_1 i) (hc2 : ¬cond0_2 i)
    (x0 : Vec F S5000x64 .f32) (x1 : Vec F S5000x64 .f32) (x2 : Vec F S64x128 .f32) (x3 : Vec F S64x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg10 fullShare (k0_pay1 (k0_pay6 x0 x1 x2 x3 x4 x5 (k0_pay3 (F := F))))
            ∗ owns (c : Thread nD τ) arg11 fullShare (k0_pay2 (k0_pay5 x0 x1 x2 x3 x4 x5) (k0_pay4 (F := F)))) -∗ K ⟨⟩))
      ⊢ wp frame (wpE (defs₀ (F := F)) Variants.none c none) E (cc0__dense_stats_kernel i arg1 harg1 arg2 harg2 arg3 harg3 arg4 harg4 arg5 harg5 arg6 harg6 arg7 harg7 arg8 harg8 arg9 harg9 arg10 harg10 arg11 harg11) K := by
  simp only [cc0__dense_stats_kernel_eq_skeleton]; unfold cc0__dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0 hf1 hf2 hf3 hf4 hf5
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [wr0_o, rd0_x arg1.view, rd0_x arg2.view, rd0_w arg3.view, rd0_w arg4.view, rd0_v arg5.view, rd0_v arg6.view]
  isplitl [HS0]
  · iexists _; isplitr
    swap; · iexact HS0
    ipureintro
    rw [wr0_v]; unfold kernelRun0_A.sl.r_1 kernelRun0_A.sl.v30 kernelRun0_A.sl.HS0_1
    rw [rc0_v]; rw [rd0_x arg1.view, rd0_x arg2.view, rd0_w arg3.view, rd0_w arg4.view, rd0_v arg5.view, rd0_v arg6.view]
  · iexists _; isplitr
    swap; · iexact HS1
    ipureintro
    rw [wr0_v]; unfold kernelRun0_A.sl.r kernelRun0_A.sl.v37 kernelRun0_A.sl.HS1_1
    rw [rc0_v]; rw [rd0_x arg1.view, rd0_x arg2.view, rd0_w arg3.view, rd0_w arg4.view, rd0_v arg5.view, rd0_v arg6.view]

set_option maxHeartbeats 1000000 in
/-- CASE B (an inner point): the tile's sums are added to what the accumulators held (`s0`, `s1`). -/
theorem kernelRun0_B (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬cond0_1 i) (hc2 : ¬cond0_2 i)
    (x0 : Vec F S5000x64 .f32) (x1 : Vec F S5000x64 .f32) (x2 : Vec F S64x128 .f32) (x3 : Vec F S64x128 .f32) (x4 : Vec F S1x128 .f32) (x5 : Vec F S1x128 .f32) (s0 : Vec F S1x128 .f32) (s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg10 fullShare (k0_pay1 (k0_pay6 x0 x1 x2 x3 x4 x5 s0))
            ∗ owns (c : Thread nD τ) arg11 fullShare (k0_pay2 (k0_pay5 x0 x1 x2 x3 x4 x5) s1)) -∗ K ⟨⟩))
      ⊢ wp frame (wpE (defs₀ (F := F)) Variants.none c none) E (cc0__dense_stats_kernel i arg1 harg1 arg2 harg2 arg3 harg3 arg4 harg4 arg5 harg5 arg6 harg6 arg7 harg7 arg8 harg8 arg9 harg9 arg10 harg10 arg11 harg11) K := by
  simp only [cc0__dense_stats_kernel_eq_skeleton]; unfold cc0__dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  subst hf0 hf1 hf2 hf3 hf4 hf5 hfs0 hfs1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [wr0_o, rd0_x arg1.view, rd0_x arg2.view, rd0_w arg3.view, rd0_w arg4.view, rd0_v arg5.view, rd0_v arg6.view]
  isplitl [HS0]
  · iexists _; isplitr
    swap; · iexact HS0
    ipureintro
    rw [wr0_v]; unfold kernelRun0_B.sl.r_1
    rw [rd0_x arg1.view, rd0_x arg2.view, rd0_w arg3.view, rd0_w arg4.view, rd0_v arg5.view, rd0_v arg6.view]; rw [rd0_v arg10.view]
  · iexists _; isplitr
    swap; · iexact HS1
    ipureintro
    rw [wr0_v]; unfold kernelRun0_B.sl.r
    rw [rd0_x arg1.view, rd0_x arg2.view, rd0_w arg3.view, rd0_w arg4.view, rd0_v arg5.view, rd0_v arg6.view]; rw [rd0_v arg11.view]

set_option maxHeartbeats 1000000 in
/-- CASE C (the grid's last point): as case B, and the two accumulators are copied to the one-row outputs. -/
theorem kernelRun0_C (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬cond0_1 i) (hc2 : cond0_2 i)
    (x0 : Vec F S5000x64 .f32) (x1 : Vec F S5000x64 .f32) (x2 : Vec F S64x128 .f32) (x3 : Vec F S64x128 .f32) (x4 : Vec F S1x128 .f32) (x5 : Vec F S1x128 .f32) (s0 : Vec F S1x128 .f32) (s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg8 fullShare (k0_pay1 (k0_pay6 x0 x1 x2 x3 x4 x5 s0))
            ∗ owns (c : Thread nD τ) arg9 fullShare (k0_pay2 (k0_pay5 x0 x1 x2 x3 x4 x5) s1)
            ∗ owns (c : Thread nD τ) arg10 fullShare (k0_pay1 (k0_pay6 x0 x1 x2 x3 x4 x5 s0))
            ∗ owns (c : Thread nD τ) arg11 fullShare (k0_pay2 (k0_pay5 x0 x1 x2 x3 x4 x5) s1)) -∗ K ⟨⟩))
      ⊢ wp frame (wpE (defs₀ (F := F)) Variants.none c none) E (cc0__dense_stats_kernel i arg1 harg1 arg2 harg2 arg3 harg3 arg4 harg4 arg5 harg5 arg6 harg6 arg7 harg7 arg8 harg8 arg9 harg9 arg10 harg10 arg11 harg11) K := by
  simp only [cc0__dense_stats_kernel_eq_skeleton]; unfold cc0__dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0 hf1 hf2 hf3 hf4 hf5 hfs0 hfs1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [wr0_o, rd0_x arg1.view, rd0_x arg2.view, rd0_w arg3.view, rd0_w arg4.view, rd0_v arg5.view, rd0_v arg6.view]
  isplitl [H7]
  · iexists _; isplitr
    swap; · iexact H7
    ipureintro
    rw [wr0_v]; unfold kernelRun0_C.sl.v48 kernelRun0_C.sl.HS0_1
    rw [rc0_v]; unfold kernelRun0_C.sl.r_1
    rw [rd0_x arg1.view, rd0_x arg2.view, rd0_w arg3.view, rd0_w arg4.view, rd0_v arg5.view, rd0_v arg6.view]; rw [rd0_v arg10.view]
  isplitl [H8]
  · iexists _; isplitr
    swap; · iexact H8
    ipureintro
    rw [wr0_v]; unfold kernelRun0_C.sl.v50 kernelRun0_C.sl.HS1_1
    rw [rc0_v]; unfold kernelRun0_C.sl.r
    rw [rd0_x arg1.view, rd0_x arg2.view, rd0_w arg3.view, rd0_w arg4.view, rd0_v arg5.view, rd0_v arg6.view]; rw [rd0_v arg11.view]
  isplitl [HS0]
  · iexists _; isplitr
    swap; · iexact HS0
    ipureintro
    unfold kernelRun0_C.sl.HS0_1
    rw [wr0_v]; unfold kernelRun0_C.sl.r_1
    rw [rd0_x arg1.view, rd0_x arg2.view, rd0_w arg3.view, rd0_w arg4.view, rd0_v arg5.view, rd0_v arg6.view]; rw [rd0_v arg10.view]
  · iexists _; isplitr
    swap; · iexact HS1
    ipureintro
    unfold kernelRun0_C.sl.HS1_1
    rw [wr0_v]; unfold kernelRun0_C.sl.r
    rw [rd0_x arg1.view, rd0_x arg2.view, rd0_w arg3.view, rd0_w arg4.view, rd0_v arg5.view, rd0_v arg6.view]; rw [rd0_v arg11.view]

end Cert.KernelIdeal.Gen

end
-- ==== Proof.KI.R0.lean ====
/- The dense-statistics kernel of region 0 of @main at a PARAMETER `V`, the buffer
   contents when the region is entered: each window's block at a point, what the three outputs' staging buffers
   and the two carried accumulators hold after each point (`outsAt0`), the region invariant (`PhiS0`), the proof
   data (`dat0`), the body obligation and the two ends of the invariant (`hin0`, `hout0`).
   The body has three control cases over the ten points: the first point zeroes the two accumulators, every
   point adds the block's column sums and column sums of squares to them, the last point copies them to the
   two small output windows, which are idle (handed back as found, not written back) at every other point. -/
import proofs.«421328_j30846455120312_1_alg».proof.Proof.KI.R0Runs
import proofs.«421328_j30846455120312_1_alg».proof.Proof.Gen.KernelIdeal.Launch
import proofs.«421328_j30846455120312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last point the printed configuration calls the column-sum window idle: the body stores nothing into it, -/
theorem idleAt0_7 : ∀ t : Fin cfg0.N, ¬cond0_2 (grid0.coords t) → cfg0.idle 7 (grid0.coords t) = true := by decide +kernel
/-- and the pipeline does not write its block back there. -/
theorem noFlush0_7 : ∀ t : Fin cfg0.N, ¬cond0_2 (grid0.coords t) → (cfg0.win 7).flush t = false := by decide +kernel
/-- At the last point it is live. -/
theorem liveAt0_7 : ∀ t : Fin cfg0.N, cond0_2 (grid0.coords t) → cfg0.idle 7 (grid0.coords t) = false := by decide +kernel
/-- The same of the window of the column sums of squares. -/
theorem idleAt0_8 : ∀ t : Fin cfg0.N, ¬cond0_2 (grid0.coords t) → cfg0.idle 8 (grid0.coords t) = true := by decide +kernel
theorem noFlush0_8 : ∀ t : Fin cfg0.N, ¬cond0_2 (grid0.coords t) → (cfg0.win 8).flush t = false := by decide +kernel
theorem liveAt0_8 : ∀ t : Fin cfg0.N, cond0_2 (grid0.coords t) → cfg0.idle 8 (grid0.coords t) = false := by decide +kernel

/-! ## The two carried accumulators -/

/-- The scratch operands: whole scoped buffers of the kernel's own, passed beside the windows. -/
noncomputable abbrev scM0_0 : Memref sig .tc .vmem S1x128 .f32 := Memref.whole cc0_scratch0
noncomputable abbrev scM0_1 : Memref sig .tc .vmem S1x128 .f32 := Memref.whole cc0_scratch1

/-- The class invariant with the two scratch operands as memrefs owned at some contents, the other scoped buffers
    unopened: what the body obligation hands the run at the first point and takes back at the end. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

/-! ## What the outputs and the accumulators hold after each point -/

/-- The six input blocks at point `t`, at their literal types. -/
noncomputable abbrev xb0_0 (c : Dev nD) (t : Fin cfg0.N) : Vec F S5000x64 .f32 := iblk0 V c 0 t
noncomputable abbrev xb0_1 (c : Dev nD) (t : Fin cfg0.N) : Vec F S5000x64 .f32 := iblk0 V c 1 t
noncomputable abbrev xb0_2 (c : Dev nD) (t : Fin cfg0.N) : Vec F S64x128 .f32 := iblk0 V c 2 t
noncomputable abbrev xb0_3 (c : Dev nD) (t : Fin cfg0.N) : Vec F S64x128 .f32 := iblk0 V c 3 t
noncomputable abbrev xb0_4 (c : Dev nD) (t : Fin cfg0.N) : Vec F S1x128 .f32 := iblk0 V c 4 t
noncomputable abbrev xb0_5 (c : Dev nD) (t : Fin cfg0.N) : Vec F S1x128 .f32 := iblk0 V c 5 t

/-- The block of pre-activations the body stores at point `t`: the payload of its one whole store, over the point's
    input blocks. -/
noncomputable def prAt0 (c : Dev nD) (t : Fin cfg0.N) : Vec F S5000x128 .f32 :=
  k0_pay5 (xb0_0 V c t) (xb0_1 V c t) (xb0_2 V c t) (xb0_3 V c t) (xb0_4 V c t) (xb0_5 V c t)

/-- The accumulator of column sums after the body at position `n`: the point's column sums added to what the
    point before left, at the first point to the reset value. -/
noncomputable def acc0_1 (c : Dev nD) : (n : ℕ) → n < cfg0.N → Vec F S1x128 .f32
  | 0, hn => k0_pay1 (k0_pay6 (xb0_0 V c ⟨0, hn⟩) (xb0_1 V c ⟨0, hn⟩) (xb0_2 V c ⟨0, hn⟩) (xb0_3 V c ⟨0, hn⟩) (xb0_4 V c ⟨0, hn⟩) (xb0_5 V c ⟨0, hn⟩) (k0_pay3 (F := F)))
  | n + 1, hn => k0_pay1 (k0_pay6 (xb0_0 V c ⟨n + 1, hn⟩) (xb0_1 V c ⟨n + 1, hn⟩) (xb0_2 V c ⟨n + 1, hn⟩) (xb0_3 V c ⟨n + 1, hn⟩) (xb0_4 V c ⟨n + 1, hn⟩) (xb0_5 V c ⟨n + 1, hn⟩) (acc0_1 c n (Nat.lt_of_succ_lt hn)))

/-- The accumulator of column sums of squares after the body at position `n`. -/
noncomputable def acc0_2 (c : Dev nD) : (n : ℕ) → n < cfg0.N → Vec F S1x128 .f32
  | 0, hn => k0_pay2 (prAt0 V c ⟨0, hn⟩) (k0_pay4 (F := F))
  | n + 1, hn => k0_pay2 (prAt0 V c ⟨n + 1, hn⟩) (acc0_2 c n (Nat.lt_of_succ_lt hn))

theorem acc0_1_zero (c : Dev nD) (t : Fin cfg0.N) (h : t.val = 0) :
    acc0_1 V c t.val t.isLt = k0_pay1 (k0_pay6 (xb0_0 V c t) (xb0_1 V c t) (xb0_2 V c t) (xb0_3 V c t) (xb0_4 V c t) (xb0_5 V c t) (k0_pay3 (F := F))) := by
  obtain ⟨n, hn⟩ := t
  cases n with
  | zero => rfl
  | succ n => exact absurd h (Nat.succ_ne_zero n)

theorem acc0_1_pos (c : Dev nD) (t : Fin cfg0.N) (h : t.val ≠ 0) :
    acc0_1 V c t.val t.isLt = k0_pay1 (k0_pay6 (xb0_0 V c t) (xb0_1 V c t) (xb0_2 V c t) (xb0_3 V c t) (xb0_4 V c t) (xb0_5 V c t)
      (acc0_1 V c (t.val - 1) (Nat.lt_of_le_of_lt (Nat.sub_le _ _) t.isLt))) := by
  obtain ⟨n, hn⟩ := t
  cases n with
  | zero => exact absurd rfl h
  | succ n => rfl

theorem acc0_2_zero (c : Dev nD) (t : Fin cfg0.N) (h : t.val = 0) :
    acc0_2 V c t.val t.isLt = k0_pay2 (prAt0 V c t) (k0_pay4 (F := F)) := by
  obtain ⟨n, hn⟩ := t
  cases n with
  | zero => rfl
  | succ n => exact absurd h (Nat.succ_ne_zero n)

theorem acc0_2_pos (c : Dev nD) (t : Fin cfg0.N) (h : t.val ≠ 0) :
    acc0_2 V c t.val t.isLt = k0_pay2 (prAt0 V c t) (acc0_2 V c (t.val - 1) (Nat.lt_of_le_of_lt (Nat.sub_le _ _) t.isLt)) := by
  obtain ⟨n, hn⟩ := t
  cases n with
  | zero => exact absurd rfl h
  | succ n => rfl

/-- What the three outputs' staging buffers and the two carried accumulators hold after the body at position `n`:
    the block of pre-activations; the two small output windows (consulted at the last point only, where the body
    copies the accumulators into them; a placeholder elsewhere, where they are idle); the two accumulators. -/
noncomputable def outsAt0 (c : Dev nD) (n : ℕ) (hn : n < cfg0.N) :
    Vec F S5000x128 .f32 × Vec F S1x128 .f32 × Vec F S1x128 .f32 × Vec F S1x128 .f32 × Vec F S1x128 .f32 :=
  (prAt0 V c ⟨n, hn⟩, acc0_1 V c n hn, acc0_2 V c n hn, acc0_1 V c n hn, acc0_2 V c n hn)

theorem outsAt0_pr (c : Dev nD) (t : Fin cfg0.N) : (outsAt0 V c t.val t.isLt).1 = prAt0 V c t := rfl
theorem outsAt0_w7 (c : Dev nD) (n : ℕ) (hn : n < cfg0.N) : (outsAt0 V c n hn).2.1 = acc0_1 V c n hn := rfl
theorem outsAt0_w8 (c : Dev nD) (n : ℕ) (hn : n < cfg0.N) : (outsAt0 V c n hn).2.2.1 = acc0_2 V c n hn := rfl
theorem outsAt0_sa (c : Dev nD) (n : ℕ) (hn : n < cfg0.N) : (outsAt0 V c n hn).2.2.2.1 = acc0_1 V c n hn := rfl
theorem outsAt0_sb (c : Dev nD) (n : ℕ) (hn : n < cfg0.N) : (outsAt0 V c n hn).2.2.2.2 = acc0_2 V c n hn := rfl

/-- `outsAt0` at the first point (case A): the accumulators over the reset values. -/
theorem outsAt0_A (c : Dev nD) (t : Fin cfg0.N) (hA : t.val % 10 = 0) :
    outsAt0 V c t.val t.isLt =
      (prAt0 V c t,
       k0_pay1 (k0_pay6 (xb0_0 V c t) (xb0_1 V c t) (xb0_2 V c t) (xb0_3 V c t) (xb0_4 V c t) (xb0_5 V c t) (k0_pay3 (F := F))),
       k0_pay2 (prAt0 V c t) (k0_pay4 (F := F)),
       k0_pay1 (k0_pay6 (xb0_0 V c t) (xb0_1 V c t) (xb0_2 V c t) (xb0_3 V c t) (xb0_4 V c t) (xb0_5 V c t) (k0_pay3 (F := F))),
       k0_pay2 (prAt0 V c t) (k0_pay4 (F := F))) := by
  have hN : t.val < 10 := lt_of_lt_of_eq t.isLt (show cfg0.N = 10 from N_0)
  have hz : t.val = 0 := by omega
  unfold outsAt0
  rw [acc0_1_zero V c t hz, acc0_2_zero V c t hz]

/-- `outsAt0` at a later point (cases B and C): the accumulators over what the point before left. -/
theorem outsAt0_pos (c : Dev nD) (t : Fin cfg0.N) (hA : ¬t.val % 10 = 0) :
    outsAt0 V c t.val t.isLt =
      (prAt0 V c t,
       k0_pay1 (k0_pay6 (xb0_0 V c t) (xb0_1 V c t) (xb0_2 V c t) (xb0_3 V c t) (xb0_4 V c t) (xb0_5 V c t) (outsAt0 V c (t.val - 1) (Nat.lt_of_le_of_lt (Nat.sub_le _ _) t.isLt)).2.2.2.1),
       k0_pay2 (prAt0 V c t) (outsAt0 V c (t.val - 1) (Nat.lt_of_le_of_lt (Nat.sub_le _ _) t.isLt)).2.2.2.2,
       k0_pay1 (k0_pay6 (xb0_0 V c t) (xb0_1 V c t) (xb0_2 V c t) (xb0_3 V c t) (xb0_4 V c t) (xb0_5 V c t) (outsAt0 V c (t.val - 1) (Nat.lt_of_le_of_lt (Nat.sub_le _ _) t.isLt)).2.2.2.1),
       k0_pay2 (prAt0 V c t) (outsAt0 V c (t.val - 1) (Nat.lt_of_le_of_lt (Nat.sub_le _ _) t.isLt)).2.2.2.2) := by
  have hz : t.val ≠ 0 := fun h => hA (by rw [h])
  unfold outsAt0
  rw [acc0_1_pos V c t hz, acc0_2_pos V c t hz]

theorem outsAt0_B (c : Dev nD) (t : Fin cfg0.N) (hA : ¬t.val % 10 = 0) (hp : ¬t.val % 10 = 9) :
    outsAt0 V c t.val t.isLt =
      (prAt0 V c t,
       k0_pay1 (k0_pay6 (xb0_0 V c t) (xb0_1 V c t) (xb0_2 V c t) (xb0_3 V c t) (xb0_4 V c t) (xb0_5 V c t) (outsAt0 V c (t.val - 1) (Nat.lt_of_le_of_lt (Nat.sub_le _ _) t.isLt)).2.2.2.1),
       k0_pay2 (prAt0 V c t) (outsAt0 V c (t.val - 1) (Nat.lt_of_le_of_lt (Nat.sub_le _ _) t.isLt)).2.2.2.2,
       k0_pay1 (k0_pay6 (xb0_0 V c t) (xb0_1 V c t) (xb0_2 V c t) (xb0_3 V c t) (xb0_4 V c t) (xb0_5 V c t) (outsAt0 V c (t.val - 1) (Nat.lt_of_le_of_lt (Nat.sub_le _ _) t.isLt)).2.2.2.1),
       k0_pay2 (prAt0 V c t) (outsAt0 V c (t.val - 1) (Nat.lt_of_le_of_lt (Nat.sub_le _ _) t.isLt)).2.2.2.2) :=
  outsAt0_pos V c t hA

theorem outsAt0_C (c : Dev nD) (t : Fin cfg0.N) (hA : ¬t.val % 10 = 0) (hp : t.val % 10 = 9) :
    outsAt0 V c t.val t.isLt =
      (prAt0 V c t,
       k0_pay1 (k0_pay6 (xb0_0 V c t) (xb0_1 V c t) (xb0_2 V c t) (xb0_3 V c t) (xb0_4 V c t) (xb0_5 V c t) (outsAt0 V c (t.val - 1) (Nat.lt_of_le_of_lt (Nat.sub_le _ _) t.isLt)).2.2.2.1),
       k0_pay2 (prAt0 V c t) (outsAt0 V c (t.val - 1) (Nat.lt_of_le_of_lt (Nat.sub_le _ _) t.isLt)).2.2.2.2,
       k0_pay1 (k0_pay6 (xb0_0 V c t) (xb0_1 V c t) (xb0_2 V c t) (xb0_3 V c t) (xb0_4 V c t) (xb0_5 V c t) (outsAt0 V c (t.val - 1) (Nat.lt_of_le_of_lt (Nat.sub_le _ _) t.isLt)).2.2.2.1),
       k0_pay2 (prAt0 V c t) (outsAt0 V c (t.val - 1) (Nat.lt_of_le_of_lt (Nat.sub_le _ _) t.isLt)).2.2.2.2) :=
  outsAt0_pos V c t hA

/-! ## The region invariant -/

/-- The region invariant before position `n`: before the first point the class's (every scratch at anything);
    afterwards the two accumulators at what the point before left in them, the other scoped buffers unopened, the
    generator register at some state. -/
noncomputable def PhiS0 (c : Dev nD) : (n : ℕ) → n ≤ cfg0.N → sProp 𝕄
  | 0, _ => Pipeline.ΦA spec0 c
  | n + 1, hn => iprop(iprop(iprop(owns (c : Thread nD τ) scM0_0 fullShare (acc0_1 V c n hn) ∗ owns (c : Thread nD τ) scM0_1 fullShare (acc0_2 V c n hn))
      ∗ Pipeline.scopedRestBut (Ix := Unit) (Name := ℕ) (U := UR sig nD τ) (Lvl := ℕ) (Val := Elt F) spec0 c [cc0_scratch0, cc0_scratch1])
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0_1 V c n hn) ∗ owns (c : Thread nD τ) scM0_1 fullShare (acc0_2 V c n hn))
      ∗ Pipeline.scopedRestBut (Ix := Unit) (Name := ℕ) (U := UR sig nD τ) (Lvl := ℕ) (Val := Elt F) spec0 c [cc0_scratch0, cc0_scratch1])
      ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0_1 V c (n - 1) (by omega)) ∗ owns (c : Thread nD τ) scM0_1 fullShare (acc0_2 V c (n - 1) (by omega)))
      ∗ Pipeline.scopedRestBut (Ix := Unit) (Name := ℕ) (U := UR sig nD τ) (Lvl := ℕ) (Val := Elt F) spec0 c [cc0_scratch0, cc0_scratch1])
      ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block, the outputs' at `outsAt0`'s components; the invariant `PhiS0`; nothing owed;
    full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
noncomputable def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

/-- A window live at `t` is left at the proof data's `after`. -/
theorem leavesExact0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in
/-- The body at any point: the inputs' memrefs hold their blocks; the closed forms of the two conditions say which
    case the point is in, and that case's run applies; the invariant hands the body the two accumulators at what
    the point before left (at anything at the first point) and takes them back at this point's contents; the two
    small output windows come back as found off the last point, and at the accumulators' contents at it; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leavesExact0_live V c 0 t (liveAt0_0 t), leavesExact0_live V c 1 t (liveAt0_1 t), leavesExact0_live V c 2 t (liveAt0_2 t),
    leavesExact0_live V c 3 t (liveAt0_3 t), leavesExact0_live V c 4 t (liveAt0_4 t), leavesExact0_live V c 5 t (liveAt0_5 t),
    leavesExact0_live V c 6 t (liveAt0_6 t)]
  rw [after0_0, after0_1, after0_2, after0_3, after0_4, after0_5, after0_6, outsAt0_pr]
  have hN : t.val < 10 := lt_of_lt_of_eq t.isLt (show cfg0.N = 10 from N_0)
  by_cases hp : t.val % 10 = 0
  · have hq : ¬t.val % 10 = 9 := by omega
    have hc1 : cond0_1 (grid0.coords t) := (hcond0_1 t).mpr hp
    have hc2 : ¬cond0_2 (grid0.coords t) := fun h => hq ((hcond0_2 t).mp h)
    have hz : t.val = 0 := by omega
    rw [Dat.leavesExact_idle (dat0 V c) 7 t (idleAt0_7 t hc2) (noFlush0_7 t hc2),
      Dat.leavesExact_idle (dat0 V c) 8 t (idleAt0_8 t hc2) (noFlush0_8 t hc2)]
    rw [acc0_1_zero V c t hz, acc0_2_zero V c t hz]
    rw [PhiS0_castSucc V c t, PhiS0_zero V c _ _ hz, PhiA0_eq]
    unfold prAt0
    iintro ⟨⟨⟨⟨Sa, Sb⟩, Hrest⟩, Hg⟩, Ho, ⟨%da, Wa⟩, ⟨%db, Wb⟩, ⟨%dc, Wc⟩, ⟨%dd, Wd⟩, ⟨%de, We⟩, ⟨%df, Wf⟩, ⟨%dg, Wg⟩, ⟨%dh, Wh⟩, ⟨%di, Wi⟩⟩
    iapply (kernelRun0_A c Set.univ (grid0.coords t) _ _ _ _ _ _ _ _ _ _ _ _ _ _ _ _ _ _ _ _ _ _ hc1 hc2
      (xb0_0 V c t) (xb0_1 V c t) (xb0_2 V c t) (xb0_3 V c t) (xb0_4 V c t) (xb0_5 V c t) _)
    isplitl [Wa]; · iexact Wa
    isplitl [Wb]; · iexact Wb
    isplitl [Wc]; · iexact Wc
    isplitl [Wd]; · iexact Wd
    isplitl [We]; · iexact We
    isplitl [Wf]; · iexact Wf
    isplitl [Wg]; · iexists _; iexact Wg
    isplitl [Sa]; · iexact Sa
    isplitl [Sb]; · iexact Sb
    iintro ⟨Wa, Wb, Wc, Wd, We, Wf, Wg, Sa, Sb⟩
    isplitl [Sa Sb Hrest Hg]
    · isplitl [Sa Sb Hrest]
      · isplitl [Sa Sb]
        · isplitl [Sa]; · iexact Sa
          iexact Sb
        iexact Hrest
      iexact Hg
    isplitl [Ho]; · iexact Ho
    isplitl [Wa]; · iexact Wa
    isplitl [Wb]; · iexact Wb
    isplitl [Wc]; · iexact Wc
    isplitl [Wd]; · iexact Wd
    isplitl [We]; · iexact We
    isplitl [Wf]; · iexact Wf
    isplitl [Wg]; · iexact Wg
    isplitl [Wh]; · iexists _; iexact Wh
    iexists _; iexact Wi
  · have hz : t.val ≠ 0 := fun h => hp (by rw [h])
    have hc1 : ¬cond0_1 (grid0.coords t) := fun h => hp ((hcond0_1 t).mp h)
    rw [acc0_1_pos V c t hz, acc0_2_pos V c t hz]
    rw [PhiS0_castSucc V c t, PhiS0_pos V c _ _ hz]
    by_cases hq : t.val % 10 = 9
    · have hc2 : cond0_2 (grid0.coords t) := (hcond0_2 t).mpr hq
      rw [leavesExact0_live V c 7 t (liveAt0_7 t hc2), leavesExact0_live V c 8 t (liveAt0_8 t hc2)]
      rw [after0_7, after0_8, outsAt0_w7, outsAt0_w8, acc0_1_pos V c t hz, acc0_2_pos V c t hz]
      unfold prAt0
      iintro ⟨⟨⟨⟨Sa, Sb⟩, Hrest⟩, Hg⟩, Ho, ⟨%da, Wa⟩, ⟨%db, Wb⟩, ⟨%dc, Wc⟩, ⟨%dd, Wd⟩, ⟨%de, We⟩, ⟨%df, Wf⟩, ⟨%dg, Wg⟩, ⟨%dh, Wh⟩, ⟨%di, Wi⟩⟩
      iapply (kernelRun0_C c Set.univ (grid0.coords t) _ _ _ _ _ _ _ _ _ _ _ _ _ _ _ _ _ _ _ _ _ _ hc1 hc2
        (xb0_0 V c t) (xb0_1 V c t) (xb0_2 V c t) (xb0_3 V c t) (xb0_4 V c t) (xb0_5 V c t)
        (acc0_1 V c (t.val - 1) (Nat.lt_of_le_of_lt (Nat.sub_le _ _) t.isLt)) (acc0_2 V c (t.val - 1) (Nat.lt_of_le_of_lt (Nat.sub_le _ _) t.isLt)) _)
      isplitl [Wa]; · iexact Wa
      isplitl [Wb]; · iexact Wb
      isplitl [Wc]; · iexact Wc
      isplitl [Wd]; · iexact Wd
      isplitl [We]; · iexact We
      isplitl [Wf]; · iexact Wf
      isplitl [Wg]; · iexists _; iexact Wg
      isplitl [Wh]; · iexists _; iexact Wh
      isplitl [Wi]; · iexists _; iexact Wi
      isplitl [Sa]; · iexact Sa
      isplitl [Sb]; · iexact Sb
      iintro ⟨Wa, Wb, Wc, Wd, We, Wf, Wg, Wh, Wi, Sa, Sb⟩
      isplitl [Sa Sb Hrest Hg]
      · isplitl [Sa Sb Hrest]
        · isplitl [Sa Sb]
          · isplitl [Sa]; · iexact Sa
            iexact Sb
          iexact Hrest
        iexact Hg
      isplitl [Ho]; · iexact Ho
      isplitl [Wa]; · iexact Wa
      isplitl [Wb]; · iexact Wb
      isplitl [Wc]; · iexact Wc
      isplitl [Wd]; · iexact Wd
      isplitl [We]; · iexact We
      isplitl [Wf]; · iexact Wf
      isplitl [Wg]; · iexact Wg
      isplitl [Wh]; · iexact Wh
      iexact Wi
    · have hc2 : ¬cond0_2 (grid0.coords t) := fun h => hq ((hcond0_2 t).mp h)
      rw [Dat.leavesExact_idle (dat0 V c) 7 t (idleAt0_7 t hc2) (noFlush0_7 t hc2),
        Dat.leavesExact_idle (dat0 V c) 8 t (idleAt0_8 t hc2) (noFlush0_8 t hc2)]
      unfold prAt0
      iintro ⟨⟨⟨⟨Sa, Sb⟩, Hrest⟩, Hg⟩, Ho, ⟨%da, Wa⟩, ⟨%db, Wb⟩, ⟨%dc, Wc⟩, ⟨%dd, Wd⟩, ⟨%de, We⟩, ⟨%df, Wf⟩, ⟨%dg, Wg⟩, ⟨%dh, Wh⟩, ⟨%di, Wi⟩⟩
      iapply (kernelRun0_B c Set.univ (grid0.coords t) _ _ _ _ _ _ _ _ _ _ _ _ _ _ _ _ _ _ _ _ _ _ hc1 hc2
        (xb0_0 V c t) (xb0_1 V c t) (xb0_2 V c t) (xb0_3 V c t) (xb0_4 V c t) (xb0_5 V c t)
        (acc0_1 V c (t.val - 1) (Nat.lt_of_le_of_lt (Nat.sub_le _ _) t.isLt)) (acc0_2 V c (t.val - 1) (Nat.lt_of_le_of_lt (Nat.sub_le _ _) t.isLt)) _)
      isplitl [Wa]; · iexact Wa
      isplitl [Wb]; · iexact Wb
      isplitl [Wc]; · iexact Wc
      isplitl [Wd]; · iexact Wd
      isplitl [We]; · iexact We
      isplitl [Wf]; · iexact Wf
      isplitl [Wg]; · iexists _; iexact Wg
      isplitl [Sa]; · iexact Sa
      isplitl [Sb]; · iexact Sb
      iintro ⟨Wa, Wb, Wc, Wd, We, Wf, Wg, Sa, Sb⟩
      isplitl [Sa Sb Hrest Hg]
      · isplitl [Sa Sb Hrest]
        · isplitl [Sa Sb]
          · isplitl [Sa]; · iexact Sa
            iexact Sb
          iexact Hrest
        iexact Hg
      isplitl [Ho]; · iexact Ho
      isplitl [Wa]; · iexact Wa
      isplitl [Wb]; · iexact Wb
      isplitl [Wc]; · iexact Wc
      isplitl [Wd]; · iexact Wd
      isplitl [We]; · iexact We
      isplitl [Wf]; · iexact Wf
      isplitl [Wg]; · iexact Wg
      isplitl [Wh]; · iexists _; iexact Wh
      iexists _; iexact Wi

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨Sa, Sb⟩, Hrest⟩, Hg⟩
  isplitl [Sa Sb Hrest]
  · isplitl [Sa Sb]
    · isplitl [Sa]; · iexists _; iexact Sa
      iexists _; iexact Sb
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Region0

end Cert.KernelIdeal.Gen

end
-- ==== Proof.KI.R1.lean ====
/- The batch-normalisation region (pipeline 1) of the idealized kernel program, at a PARAMETER V: the contents of
   the TensorCore's buffers when the region is entered. Over a grid of 10 row tiles of 5000 rows each, the body reads
   a [5000,128] tile of pre-activations and four [1,128] rows (mean, variance, scale, shift), and stores the
   normalised tile gamma * (x - mean) * rsqrt(var + eps) + beta over its whole output block, once per point.
   This module gives each window's block at a point, the output block the body leaves, the body's triple, the
   pipeline's proof data with nothing carried between points, and the body obligation the launch theorems take. -/
import proofs.«421328_j30846455120312_1_alg».proof.Proof.Gen.KernelIdeal.Launch
import proofs.«421328_j30846455120312_1_alg».proof.Proof.Gen.KernelIdeal.Skeleton
import proofs.«421328_j30846455120312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off the array as the region finds it. For window 0 this is row tile t of the
    pre-activations; for windows 1..4 the one [1,128] row, the same at every point. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at EVERY point, for any proof data whose array is V's
    and whose body leaves the block in place. Window 0 is fetched at every point. Windows 1..4 are fetched at the
    first point only; their block index never moves, so at a later point the buffer still holds what the first fetch
    put there, which is that point's block too. No window is cut and none is ever idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [5000,128] tile, -/
noncomputable abbrev r1_big : Rect S5000x128 := Rect.unit (s := S5000x128) ![0, 0] S5000x128.size inb_S5000x128_S5000x128_0_0
/-- and the whole [1,128] row. -/
noncomputable abbrev r1_row : Rect S1x128 := Rect.unit (s := S1x128) ![0, 0] S1x128.size inb_S1x128_S1x128_0_0

/-! ## What the body leaves in the output window's buffer -/

/-- Window 5's staging buffer after the body, from the five input blocks: its one store, over the whole tile, of the
    normalised values (the payload takes its operands in the order the body loads them: variance, scale, tile,
    mean, shift). -/
noncomputable def out1_5 (x0 : Vec F S5000x128 .f32) (x1 x2 x3 x4 : Vec F S1x128 .f32) : Vec F S5000x128 .f32 :=
  View.canon [⟨r1_big, k1_pay1 (View.ld x2 r1_row) (View.ld x3 r1_row) (View.ld x0 r1_big) (View.ld x1 r1_row) (View.ld x4 r1_row)⟩]

/-- The one store is over the whole tile, so it covers the buffer. -/
theorem cover1_5 (p0 : Vec F S5000x128 .f32) (y : S5000x128.Idx) :
    ∃ pc ∈ ([⟨r1_big, p0⟩] : List (View.Piece (Elt F) S5000x128 .f32)), y ∈ pc.1.set :=
  ⟨_, List.mem_singleton.mpr rfl, View.mem_set_unit_zero (funext fun a => by fin_cases a <;> rfl) inb_S5000x128_S5000x128_0_0 y⟩

/-! ## The body's triple -/

set_option maxHeartbeats 1000000 in
/-- The body on whole staging memrefs: the five inputs at contents x0..x4, the output at anything (the body loads the
    output buffer once before its store; the loaded value is not used). It runs to the continuation with the inputs as
    they were and the output at out1_5 of the inputs. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__dense_norm_kernel i arg1 harg1 arg2 harg2 arg3 harg3 arg4 harg4 arg5 harg5 arg6 harg6) K := by
  simp only [cc1__dense_norm_kernel_eq_skeleton]; unfold cc1__dense_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them; after the body at point t each
    input's buffer at its block and the output's at out1_5 of the input blocks; the invariant is the scoped rest and
    the generator register, untouched; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The invariant at the first point is the class invariant, -/
theorem hin1 (c : Dev nD) : Pipeline.ΦA spec1 c ⊢ (dat1 V c).Φ 0 := .rfl
/-- and so it is at the last. -/
theorem hout1 (c : Dev nD) : (dat1 V c).Φ (Fin.last cfg1.N) ⊢ Pipeline.ΦA spec1 c := .rfl

end Region1

end Cert.KernelIdeal.Gen

end
-- ==== Proof.KI.R24Runs.lean ====
import proofs.«421328_j30846455120312_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 whole-block access, as the constant function. -/
private theorem hz2 : (![0, 0] : Fin 2 → Nat) = fun _ => 0 := funext fun a => by fin_cases a <;> rfl

/-- Reading back a buffer whose LAST write covers the whole block gives that write's payload, whatever was written
    before it. -/
private theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self .., View.mem_set_unit_zero h inb y⟩),
    View.canon_cons_unit_zero h]

/-! ## The body's two conditionals, in closed form over the grid -/

/-- The first conditional (the accumulators are zeroed): the grid coordinate is 0. -/
abbrev cond24_1 (i : grid24.Coords) : Prop := (Scalar.cmpi .ne (Scalar.extui (Scalar.cmpi .eq (BitVec.ofNat 32 (i 0).val) 0#32)) 0#32) = 1#1
theorem hcond24_1 : ∀ t : Fin cfg24.N, cond24_1 (grid24.coords t) ↔ t.val % 10 = 0 :=
  (by decide +kernel : ∀ t : Fin grid24.N, cond24_1 (grid24.coords t) ↔ t.val % 10 = 0)
/-- The second conditional (the accumulators are copied to the output blocks): the grid coordinate is 9. -/
abbrev cond24_2 (i : grid24.Coords) : Prop := k24_cond2 i = 1#1
theorem hcond24_2 : ∀ t : Fin cfg24.N, cond24_2 (grid24.coords t) ↔ t.val % 10 = 9 :=
  (by decide +kernel : ∀ t : Fin grid24.N, cond24_2 (grid24.coords t) ↔ t.val % 10 = 9)

/-! ## The body's run in each of the three control cases

Inputs: the segment-id block `x0` and the four feature blocks `x1 … x4`. Five accumulators (four [64,128] sums, one
[64,1] count). Each point adds to every accumulator the one-hot product of the point's blocks; the first point starts
from the zero blocks, the last point also copies the accumulators into the five output blocks. -/

set_option maxHeartbeats 4000000 in
/-- The first point: the accumulators are zeroed, then each goes to the zero block plus the point's one-hot product;
    the output blocks are not touched. -/
theorem kernelRun24_A (c : Dev nD) (i : grid24.Coords) (arg1 : Memref sig .tc .vmem S5000x1 .i32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x1 .f32) (harg15 : arg15.IsWhole) (hc1 : cond24_1 i) (hc2 : ¬cond24_2 i)
    (x0 : Vec F S5000x1 .i32) (x1 x2 x3 x4 : Vec F S5000x128 .f32) (o5 o6 o7 o8 : Vec F S64x128 .f32) (o9 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare o5 ∗ owns (c : Thread nD τ) arg7 fullShare o6 ∗ owns (c : Thread nD τ) arg8 fullShare o7 ∗ owns (c : Thread nD τ) arg9 fullShare o8 ∗ owns (c : Thread nD τ) arg10 fullShare o9
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare o5 ∗ owns (c : Thread nD τ) arg7 fullShare o6 ∗ owns (c : Thread nD τ) arg8 fullShare o7 ∗ owns (c : Thread nD τ) arg9 fullShare o8 ∗ owns (c : Thread nD τ) arg10 fullShare o9
            ∗ owns (c : Thread nD τ) arg11 fullShare (k24_pay11 x0 (k24_pay4 (F := F)) x1) ∗ owns (c : Thread nD τ) arg12 fullShare (k24_pay12 x0 (k24_pay5 (F := F)) x2) ∗ owns (c : Thread nD τ) arg13 fullShare (k24_pay1 (k24_pay9 x0) (k24_pay6 (F := F)) (k24_pay13 x3)) ∗ owns (c : Thread nD τ) arg14 fullShare (k24_pay2 (k24_pay9 x0) (k24_pay7 (F := F)) x4) ∗ owns (c : Thread nD τ) arg15 fullShare (k24_pay3 (k24_pay9 x0) (k24_pay10 (F := F)) (k24_pay8 (F := F)))) -∗ K ⟨⟩))
      ⊢ wp frame (wpE (defs₀ (F := F)) Variants.none c none) E (cc24__readout_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc24__readout_kernel_eq_skeleton]; unfold cc24__readout_kernel_skel
  simp only [k24_part1_eq_skeleton]; unfold k24_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists _; isplitr
    swap; · iexact H11
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H12]
  · iexists _; isplitr
    swap; · iexact H12
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H13]
  · iexists _; isplitr
    swap; · iexact H13
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H14]
  · iexists _; isplitr
    swap; · iexact H14
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  iexists _; isplitr
  swap; · iexact H15
  ipureintro
  refine (read_writes_cons_whole _ _ hz2 _ _ _).trans ?_
  sl_unfold_run_names
  simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]

set_option maxHeartbeats 4000000 in
/-- A middle point (1 … 8): every accumulator goes from `s` to `s` plus the point's one-hot product; the output
    blocks are not touched. -/
theorem kernelRun24_B (c : Dev nD) (i : grid24.Coords) (arg1 : Memref sig .tc .vmem S5000x1 .i32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x1 .f32) (harg15 : arg15.IsWhole) (hc1 : ¬cond24_1 i) (hc2 : ¬cond24_2 i)
    (x0 : Vec F S5000x1 .i32) (x1 x2 x3 x4 : Vec F S5000x128 .f32) (s1 s2 s3 s4 : Vec F S64x128 .f32) (s5 : Vec F S64x1 .f32) (o5 o6 o7 o8 : Vec F S64x128 .f32) (o9 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare o5 ∗ owns (c : Thread nD τ) arg7 fullShare o6 ∗ owns (c : Thread nD τ) arg8 fullShare o7 ∗ owns (c : Thread nD τ) arg9 fullShare o8 ∗ owns (c : Thread nD τ) arg10 fullShare o9
        ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare o5 ∗ owns (c : Thread nD τ) arg7 fullShare o6 ∗ owns (c : Thread nD τ) arg8 fullShare o7 ∗ owns (c : Thread nD τ) arg9 fullShare o8 ∗ owns (c : Thread nD τ) arg10 fullShare o9
            ∗ owns (c : Thread nD τ) arg11 fullShare (k24_pay11 x0 s1 x1) ∗ owns (c : Thread nD τ) arg12 fullShare (k24_pay12 x0 s2 x2) ∗ owns (c : Thread nD τ) arg13 fullShare (k24_pay1 (k24_pay9 x0) s3 (k24_pay13 x3)) ∗ owns (c : Thread nD τ) arg14 fullShare (k24_pay2 (k24_pay9 x0) s4 x4) ∗ owns (c : Thread nD τ) arg15 fullShare (k24_pay3 (k24_pay9 x0) (k24_pay10 (F := F)) s5)) -∗ K ⟨⟩))
      ⊢ wp frame (wpE (defs₀ (F := F)) Variants.none c none) E (cc24__readout_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc24__readout_kernel_eq_skeleton]; unfold cc24__readout_kernel_skel
  simp only [k24_part1_eq_skeleton]; unfold k24_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg11.eq_unread hf11; obtain rfl := harg12.eq_unread hf12; obtain rfl := harg13.eq_unread hf13; obtain rfl := harg14.eq_unread hf14; obtain rfl := harg15.eq_unread hf15
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists _; isplitr
    swap; · iexact H11
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H12]
  · iexists _; isplitr
    swap; · iexact H12
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H13]
  · iexists _; isplitr
    swap; · iexact H13
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H14]
  · iexists _; isplitr
    swap; · iexact H14
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  iexists _; isplitr
  swap; · iexact H15
  ipureintro
  refine (read_writes_cons_whole _ _ hz2 _ _ _).trans ?_
  sl_unfold_run_names
  simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]

set_option maxHeartbeats 4000000 in
/-- The last point: the accumulators are updated as at a middle point, then copied into the five output blocks. -/
theorem kernelRun24_C (c : Dev nD) (i : grid24.Coords) (arg1 : Memref sig .tc .vmem S5000x1 .i32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S64x1 .f32) (harg15 : arg15.IsWhole) (hc1 : ¬cond24_1 i) (hc2 : cond24_2 i)
    (x0 : Vec F S5000x1 .i32) (x1 x2 x3 x4 : Vec F S5000x128 .f32) (s1 s2 s3 s4 : Vec F S64x128 .f32) (s5 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k24_pay11 x0 s1 x1) ∗ owns (c : Thread nD τ) arg7 fullShare (k24_pay12 x0 s2 x2) ∗ owns (c : Thread nD τ) arg8 fullShare (k24_pay1 (k24_pay9 x0) s3 (k24_pay13 x3)) ∗ owns (c : Thread nD τ) arg9 fullShare (k24_pay2 (k24_pay9 x0) s4 x4) ∗ owns (c : Thread nD τ) arg10 fullShare (k24_pay3 (k24_pay9 x0) (k24_pay10 (F := F)) s5)
            ∗ owns (c : Thread nD τ) arg11 fullShare (k24_pay11 x0 s1 x1) ∗ owns (c : Thread nD τ) arg12 fullShare (k24_pay12 x0 s2 x2) ∗ owns (c : Thread nD τ) arg13 fullShare (k24_pay1 (k24_pay9 x0) s3 (k24_pay13 x3)) ∗ owns (c : Thread nD τ) arg14 fullShare (k24_pay2 (k24_pay9 x0) s4 x4) ∗ owns (c : Thread nD τ) arg15 fullShare (k24_pay3 (k24_pay9 x0) (k24_pay10 (F := F)) s5)) -∗ K ⟨⟩))
      ⊢ wp frame (wpE (defs₀ (F := F)) Variants.none c none) E (cc24__readout_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc24__readout_kernel_eq_skeleton]; unfold cc24__readout_kernel_skel
  simp only [k24_part1_eq_skeleton]; unfold k24_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg11.eq_unread hf11; obtain rfl := harg12.eq_unread hf12; obtain rfl := harg13.eq_unread hf13; obtain rfl := harg14.eq_unread hf14; obtain rfl := harg15.eq_unread hf15
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H7]
  · iexists _; isplitr
    swap; · iexact H7
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H8]
  · iexists _; isplitr
    swap; · iexact H8
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H9]
  · iexists _; isplitr
    swap; · iexact H9
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H10]
  · iexists _; isplitr
    swap; · iexact H10
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H11]
  · iexists _; isplitr
    swap; · iexact H11
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H12]
  · iexists _; isplitr
    swap; · iexact H12
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H13]
  · iexists _; isplitr
    swap; · iexact H13
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  isplitl [H14]
  · iexists _; isplitr
    swap; · iexact H14
    ipureintro
    refine (read_writes_cons_whole _ _ hz2 _ _ _).trans ?_
    sl_unfold_run_names
    simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]
  iexists _; isplitr
  swap; · iexact H15
  ipureintro
  refine (read_writes_cons_whole _ _ hz2 _ _ _).trans ?_
  sl_unfold_run_names
  simp only [View.readAt_eq_ld, harg1.read_unread, harg2.read_unread, harg3.read_unread, harg4.read_unread, harg5.read_unread, harg11.read_unread, harg12.read_unread, harg13.read_unread, harg14.read_unread, harg15.read_unread, View.ld_unit_zero (S := S5000x1) hz2, View.ld_unit_zero (S := S5000x128) hz2, View.ld_unit_zero (S := S64x128) hz2, View.ld_unit_zero (S := S64x1) hz2, View.readCov_unit_zero (S := S64x128) _ hz2, View.readCov_unit_zero (S := S64x1) _ hz2]

end Cert.KernelIdeal.Gen

end
-- ==== Proof.KI.R24.lean ====
import proofs.«421328_j30846455120312_1_alg».proof.Proof.KI.R24Runs
import proofs.«421328_j30846455120312_1_alg».proof.Proof.Gen.KernelIdeal.Launch
import proofs.«421328_j30846455120312_1_alg».proof.Proof.Gen.KernelIdeal.Skeleton
import proofs.«421328_j30846455120312_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # The segment-sum region (pipeline 24), at the entry contents `V`

Windows: 0 the segment ids [5000,1], 1 … 4 the four feature blocks [5000,128] (fetched at every point); 5 … 8 the four
per-segment sums [64,128] and 9 the per-segment counts [64,1] (one block each, written back after the last point only).
Five accumulators live in scratch between points. -/

/-! ## The windows' blocks -/

/-- Window `w`'s block at point `t`, read off its array as the region finds it (`V`). -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- Each input window's current staging buffer holds its block at every point, for ANY proof data whose array is
    `V`'s and whose body leaves the block in place. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)
theorem before24_3_of {c : Dev nD} (dat : Dat τ (Elt F) Unit ℕ (UR sig nD τ) ℕ cfg24 c) (hA : dat.A 3 = V c (Pipeline.arrRef spec24 3))
    (hafter : ∀ t, dat.after 3 t = iblk24 V c 3 t) (t : Fin cfg24.N) (d) : dat.before 3 t d = iblk24 V c 3 t :=
  (dat.before_in_eq_fetched 3 rfl (fun _ => rfl) (fun _ _ _ => rfl) (fun t => by rw [hafter]; unfold Dat.blockOf iblk24; rw [hA]; try rfl) t d).trans
    (by unfold Dat.fetched Dat.blockOf iblk24; rw [hA]; try rfl)
theorem before24_4_of {c : Dev nD} (dat : Dat τ (Elt F) Unit ℕ (UR sig nD τ) ℕ cfg24 c) (hA : dat.A 4 = V c (Pipeline.arrRef spec24 4))
    (hafter : ∀ t, dat.after 4 t = iblk24 V c 4 t) (t : Fin cfg24.N) (d) : dat.before 4 t d = iblk24 V c 4 t :=
  (dat.before_in_eq_fetched 4 rfl (fun _ => rfl) (fun _ _ _ => rfl) (fun t => by rw [hafter]; unfold Dat.blockOf iblk24; rw [hA]; try rfl) t d).trans
    (by unfold Dat.fetched Dat.blockOf iblk24; rw [hA]; try rfl)

/-! ## Where the output windows are idle -/

theorem liveAt24_0 : ∀ t : Fin cfg24.N, cfg24.idle 0 (grid24.coords t) = false := by decide +kernel
theorem liveAt24_1 : ∀ t : Fin cfg24.N, cfg24.idle 1 (grid24.coords t) = false := by decide +kernel
theorem liveAt24_2 : ∀ t : Fin cfg24.N, cfg24.idle 2 (grid24.coords t) = false := by decide +kernel
theorem liveAt24_3 : ∀ t : Fin cfg24.N, cfg24.idle 3 (grid24.coords t) = false := by decide +kernel
theorem liveAt24_4 : ∀ t : Fin cfg24.N, cfg24.idle 4 (grid24.coords t) = false := by decide +kernel
theorem idleAt24_5 : ∀ t : Fin cfg24.N, ¬cond24_2 (grid24.coords t) → cfg24.idle 5 (grid24.coords t) = true := by decide +kernel
theorem noFlush24_5 : ∀ t : Fin cfg24.N, ¬cond24_2 (grid24.coords t) → (cfg24.win 5).flush t = false := by decide +kernel
theorem liveAt24_5_C : ∀ t : Fin cfg24.N, cond24_2 (grid24.coords t) → cfg24.idle 5 (grid24.coords t) = false := by decide +kernel
theorem idleAt24_6 : ∀ t : Fin cfg24.N, ¬cond24_2 (grid24.coords t) → cfg24.idle 6 (grid24.coords t) = true := by decide +kernel
theorem noFlush24_6 : ∀ t : Fin cfg24.N, ¬cond24_2 (grid24.coords t) → (cfg24.win 6).flush t = false := by decide +kernel
theorem liveAt24_6_C : ∀ t : Fin cfg24.N, cond24_2 (grid24.coords t) → cfg24.idle 6 (grid24.coords t) = false := by decide +kernel
theorem idleAt24_7 : ∀ t : Fin cfg24.N, ¬cond24_2 (grid24.coords t) → cfg24.idle 7 (grid24.coords t) = true := by decide +kernel
theorem noFlush24_7 : ∀ t : Fin cfg24.N, ¬cond24_2 (grid24.coords t) → (cfg24.win 7).flush t = false := by decide +kernel
theorem liveAt24_7_C : ∀ t : Fin cfg24.N, cond24_2 (grid24.coords t) → cfg24.idle 7 (grid24.coords t) = false := by decide +kernel
theorem idleAt24_8 : ∀ t : Fin cfg24.N, ¬cond24_2 (grid24.coords t) → cfg24.idle 8 (grid24.coords t) = true := by decide +kernel
theorem noFlush24_8 : ∀ t : Fin cfg24.N, ¬cond24_2 (grid24.coords t) → (cfg24.win 8).flush t = false := by decide +kernel
theorem liveAt24_8_C : ∀ t : Fin cfg24.N, cond24_2 (grid24.coords t) → cfg24.idle 8 (grid24.coords t) = false := by decide +kernel
theorem idleAt24_9 : ∀ t : Fin cfg24.N, ¬cond24_2 (grid24.coords t) → cfg24.idle 9 (grid24.coords t) = true := by decide +kernel
theorem noFlush24_9 : ∀ t : Fin cfg24.N, ¬cond24_2 (grid24.coords t) → (cfg24.win 9).flush t = false := by decide +kernel
theorem liveAt24_9_C : ∀ t : Fin cfg24.N, cond24_2 (grid24.coords t) → cfg24.idle 9 (grid24.coords t) = false := by decide +kernel

/-! ## The scratch accumulators -/

noncomputable abbrev scM24_0 : Memref sig .tc .vmem S64x128 .f32 := Memref.whole cc24_scratch0
noncomputable abbrev scM24_1 : Memref sig .tc .vmem S64x128 .f32 := Memref.whole cc24_scratch1
noncomputable abbrev scM24_2 : Memref sig .tc .vmem S64x128 .f32 := Memref.whole cc24_scratch2
noncomputable abbrev scM24_3 : Memref sig .tc .vmem S64x128 .f32 := Memref.whole cc24_scratch3
noncomputable abbrev scM24_4 : Memref sig .tc .vmem S64x1 .f32 := Memref.whole cc24_scratch4

/-- The region's other scoped buffers (every one that is neither a staging buffer of this pipeline nor one of its
    five accumulators), at some contents each. -/
noncomputable abbrev restBut24 (c : Dev nD) : sProp 𝕄 :=
  Pipeline.scopedRestBut (Ix := Unit) (Name := ℕ) (U := UR sig nD τ) (Lvl := ℕ) (Val := Elt F) spec24 c [cc24_scratch0, cc24_scratch1, cc24_scratch2, cc24_scratch3, cc24_scratch4]

/-- The class's invariant with the five accumulators as memrefs owned at some contents. -/
theorem PhiA24_eq (c : Dev nD) :
    (Pipeline.ΦA spec24 c : sProp 𝕄)
      = iprop(iprop(iprop((∃ d, owns (c : Thread nD τ) scM24_0 fullShare d) ∗ (∃ d, owns (c : Thread nD τ) scM24_1 fullShare d) ∗ (∃ d, owns (c : Thread nD τ) scM24_2 fullShare d) ∗ (∃ d, owns (c : Thread nD τ) scM24_3 fullShare d) ∗ (∃ d, owns (c : Thread nD τ) scM24_4 fullShare d)) ∗ restBut24 c) ∗ (∃ r, prngReg c r)) := by
  unfold Pipeline.ΦA; rw [scopedRest24_split]; simp only [scM24_0, scM24_1, scM24_2, scM24_3, scM24_4, owns_whole]; try rfl

/-! ## What the accumulators and the output blocks hold after each point -/

/-- THE ACCUMULATION, by recursion on the point. A tuple of ten: first what the five output windows' blocks are stated
    at (the four sums, the count: the same terms as the accumulators — the last point copies them, the other points
    leave those windows idle), then the five accumulators in scratch. At point 0 each accumulator is the zero block
    plus the point's one-hot product; afterwards the previous accumulator plus the point's. -/
noncomputable def outsAt24 (c : Dev nD) : (n : ℕ) → n < cfg24.N → Vec F S64x128 .f32 × Vec F S64x128 .f32 × Vec F S64x128 .f32 × Vec F S64x128 .f32 × Vec F S64x1 .f32 × Vec F S64x128 .f32 × Vec F S64x128 .f32 × Vec F S64x128 .f32 × Vec F S64x128 .f32 × Vec F S64x1 .f32
  | 0, hn => (k24_pay11 (iblk24 V c 0 ⟨0, hn⟩) (k24_pay4 (F := F)) (iblk24 V c 1 ⟨0, hn⟩),
      k24_pay12 (iblk24 V c 0 ⟨0, hn⟩) (k24_pay5 (F := F)) (iblk24 V c 2 ⟨0, hn⟩),
      k24_pay1 (k24_pay9 (iblk24 V c 0 ⟨0, hn⟩)) (k24_pay6 (F := F)) (k24_pay13 (iblk24 V c 3 ⟨0, hn⟩)),
      k24_pay2 (k24_pay9 (iblk24 V c 0 ⟨0, hn⟩)) (k24_pay7 (F := F)) (iblk24 V c 4 ⟨0, hn⟩),
      k24_pay3 (k24_pay9 (iblk24 V c 0 ⟨0, hn⟩)) (k24_pay10 (F := F)) (k24_pay8 (F := F)),
      k24_pay11 (iblk24 V c 0 ⟨0, hn⟩) (k24_pay4 (F := F)) (iblk24 V c 1 ⟨0, hn⟩),
      k24_pay12 (iblk24 V c 0 ⟨0, hn⟩) (k24_pay5 (F := F)) (iblk24 V c 2 ⟨0, hn⟩),
      k24_pay1 (k24_pay9 (iblk24 V c 0 ⟨0, hn⟩)) (k24_pay6 (F := F)) (k24_pay13 (iblk24 V c 3 ⟨0, hn⟩)),
      k24_pay2 (k24_pay9 (iblk24 V c 0 ⟨0, hn⟩)) (k24_pay7 (F := F)) (iblk24 V c 4 ⟨0, hn⟩),
      k24_pay3 (k24_pay9 (iblk24 V c 0 ⟨0, hn⟩)) (k24_pay10 (F := F)) (k24_pay8 (F := F)))
  | n + 1, hn => (k24_pay11 (iblk24 V c 0 ⟨n + 1, hn⟩) (outsAt24 c n (Nat.lt_of_succ_lt hn)).2.2.2.2.2.1 (iblk24 V c 1 ⟨n + 1, hn⟩),
      k24_pay12 (iblk24 V c 0 ⟨n + 1, hn⟩) (outsAt24 c n (Nat.lt_of_succ_lt hn)).2.2.2.2.2.2.1 (iblk24 V c 2 ⟨n + 1, hn⟩),
      k24_pay1 (k24_pay9 (iblk24 V c 0 ⟨n + 1, hn⟩)) (outsAt24 c n (Nat.lt_of_succ_lt hn)).2.2.2.2.2.2.2.1 (k24_pay13 (iblk24 V c 3 ⟨n + 1, hn⟩)),
      k24_pay2 (k24_pay9 (iblk24 V c 0 ⟨n + 1, hn⟩)) (outsAt24 c n (Nat.lt_of_succ_lt hn)).2.2.2.2.2.2.2.2.1 (iblk24 V c 4 ⟨n + 1, hn⟩),
      k24_pay3 (k24_pay9 (iblk24 V c 0 ⟨n + 1, hn⟩)) (k24_pay10 (F := F)) (outsAt24 c n (Nat.lt_of_succ_lt hn)).2.2.2.2.2.2.2.2.2,
      k24_pay11 (iblk24 V c 0 ⟨n + 1, hn⟩) (outsAt24 c n (Nat.lt_of_succ_lt hn)).2.2.2.2.2.1 (iblk24 V c 1 ⟨n + 1, hn⟩),
      k24_pay12 (iblk24 V c 0 ⟨n + 1, hn⟩) (outsAt24 c n (Nat.lt_of_succ_lt hn)).2.2.2.2.2.2.1 (iblk24 V c 2 ⟨n + 1, hn⟩),
      k24_pay1 (k24_pay9 (iblk24 V c 0 ⟨n + 1, hn⟩)) (outsAt24 c n (Nat.lt_of_succ_lt hn)).2.2.2.2.2.2.2.1 (k24_pay13 (iblk24 V c 3 ⟨n + 1, hn⟩)),
      k24_pay2 (k24_pay9 (iblk24 V c 0 ⟨n + 1, hn⟩)) (outsAt24 c n (Nat.lt_of_succ_lt hn)).2.2.2.2.2.2.2.2.1 (iblk24 V c 4 ⟨n + 1, hn⟩),
      k24_pay3 (k24_pay9 (iblk24 V c 0 ⟨n + 1, hn⟩)) (k24_pay10 (F := F)) (outsAt24 c n (Nat.lt_of_succ_lt hn)).2.2.2.2.2.2.2.2.2)

/-- `outsAt24` at the first point. -/
theorem outsAt24_zero (c : Dev nD) (t : Fin cfg24.N) (h0 : t.val = 0) :
    outsAt24 V c t.val t.isLt = (k24_pay11 (iblk24 V c 0 t) (k24_pay4 (F := F)) (iblk24 V c 1 t),
      k24_pay12 (iblk24 V c 0 t) (k24_pay5 (F := F)) (iblk24 V c 2 t),
      k24_pay1 (k24_pay9 (iblk24 V c 0 t)) (k24_pay6 (F := F)) (k24_pay13 (iblk24 V c 3 t)),
      k24_pay2 (k24_pay9 (iblk24 V c 0 t)) (k24_pay7 (F := F)) (iblk24 V c 4 t),
      k24_pay3 (k24_pay9 (iblk24 V c 0 t)) (k24_pay10 (F := F)) (k24_pay8 (F := F)),
      k24_pay11 (iblk24 V c 0 t) (k24_pay4 (F := F)) (iblk24 V c 1 t),
      k24_pay12 (iblk24 V c 0 t) (k24_pay5 (F := F)) (iblk24 V c 2 t),
      k24_pay1 (k24_pay9 (iblk24 V c 0 t)) (k24_pay6 (F := F)) (k24_pay13 (iblk24 V c 3 t)),
      k24_pay2 (k24_pay9 (iblk24 V c 0 t)) (k24_pay7 (F := F)) (iblk24 V c 4 t),
      k24_pay3 (k24_pay9 (iblk24 V c 0 t)) (k24_pay10 (F := F)) (k24_pay8 (F := F))) := by
  obtain ⟨n, hn⟩ := t
  cases n with
  | zero => rfl
  | succ n => exact absurd h0 (Nat.succ_ne_zero n)

/-- `outsAt24` at a later point, over what the point before left. -/
theorem outsAt24_pos (c : Dev nD) (t : Fin cfg24.N) (h0 : t.val ≠ 0) :
    outsAt24 V c t.val t.isLt = (k24_pay11 (iblk24 V c 0 t) (outsAt24 V c (t.val - 1) (Nat.lt_of_le_of_lt (Nat.sub_le _ _) t.isLt)).2.2.2.2.2.1 (iblk24 V c 1 t),
      k24_pay12 (iblk24 V c 0 t) (outsAt24 V c (t.val - 1) (Nat.lt_of_le_of_lt (Nat.sub_le _ _) t.isLt)).2.2.2.2.2.2.1 (iblk24 V c 2 t),
      k24_pay1 (k24_pay9 (iblk24 V c 0 t)) (outsAt24 V c (t.val - 1) (Nat.lt_of_le_of_lt (Nat.sub_le _ _) t.isLt)).2.2.2.2.2.2.2.1 (k24_pay13 (iblk24 V c 3 t)),
      k24_pay2 (k24_pay9 (iblk24 V c 0 t)) (outsAt24 V c (t.val - 1) (Nat.lt_of_le_of_lt (Nat.sub_le _ _) t.isLt)).2.2.2.2.2.2.2.2.1 (iblk24 V c 4 t),
      k24_pay3 (k24_pay9 (iblk24 V c 0 t)) (k24_pay10 (F := F)) (outsAt24 V c (t.val - 1) (Nat.lt_of_le_of_lt (Nat.sub_le _ _) t.isLt)).2.2.2.2.2.2.2.2.2,
      k24_pay11 (iblk24 V c 0 t) (outsAt24 V c (t.val - 1) (Nat.lt_of_le_of_lt (Nat.sub_le _ _) t.isLt)).2.2.2.2.2.1 (iblk24 V c 1 t),
      k24_pay12 (iblk24 V c 0 t) (outsAt24 V c (t.val - 1) (Nat.lt_of_le_of_lt (Nat.sub_le _ _) t.isLt)).2.2.2.2.2.2.1 (iblk24 V c 2 t),
      k24_pay1 (k24_pay9 (iblk24 V c 0 t)) (outsAt24 V c (t.val - 1) (Nat.lt_of_le_of_lt (Nat.sub_le _ _) t.isLt)).2.2.2.2.2.2.2.1 (k24_pay13 (iblk24 V c 3 t)),
      k24_pay2 (k24_pay9 (iblk24 V c 0 t)) (outsAt24 V c (t.val - 1) (Nat.lt_of_le_of_lt (Nat.sub_le _ _) t.isLt)).2.2.2.2.2.2.2.2.1 (iblk24 V c 4 t),
      k24_pay3 (k24_pay9 (iblk24 V c 0 t)) (k24_pay10 (F := F)) (outsAt24 V c (t.val - 1) (Nat.lt_of_le_of_lt (Nat.sub_le _ _) t.isLt)).2.2.2.2.2.2.2.2.2) := by
  obtain ⟨n, hn⟩ := t
  cases n with
  | zero => exact absurd rfl h0
  | succ n => rfl

/-- The five output components are the five accumulators. -/
theorem outsAt24_out_eq (c : Dev nD) (n : ℕ) (hn : n < cfg24.N) :
    (outsAt24 V c n hn).1 = (outsAt24 V c n hn).2.2.2.2.2.1 ∧ (outsAt24 V c n hn).2.1 = (outsAt24 V c n hn).2.2.2.2.2.2.1 ∧ (outsAt24 V c n hn).2.2.1 = (outsAt24 V c n hn).2.2.2.2.2.2.2.1 ∧ (outsAt24 V c n hn).2.2.2.1 = (outsAt24 V c n hn).2.2.2.2.2.2.2.2.1 ∧ (outsAt24 V c n hn).2.2.2.2.1 = (outsAt24 V c n hn).2.2.2.2.2.2.2.2.2 := by
  cases n with
  | zero => exact ⟨rfl, rfl, rfl, rfl, rfl⟩
  | succ n => exact ⟨rfl, rfl, rfl, rfl, rfl⟩

/-- The five accumulators, owned at given contents, beside the region's other scoped buffers and the generator
    register. -/
noncomputable def scrAt24 (c : Dev nD) (a0 a1 a2 a3 : Vec F S64x128 .f32) (a4 : Vec F S64x1 .f32) : sProp 𝕄 :=
  iprop(iprop(iprop(owns (c : Thread nD τ) scM24_0 fullShare a0 ∗ owns (c : Thread nD τ) scM24_1 fullShare a1 ∗ owns (c : Thread nD τ) scM24_2 fullShare a2 ∗ owns (c : Thread nD τ) scM24_3 fullShare a3 ∗ owns (c : Thread nD τ) scM24_4 fullShare a4) ∗ restBut24 c) ∗ (∃ r, prngReg c r))

/-- The region invariant before position `n`: before the first point the class's; afterwards the accumulators at what
    the point before left in them. -/
noncomputable def PhiS24 (c : Dev nD) : (n : ℕ) → n ≤ cfg24.N → sProp 𝕄
  | 0, _ => Pipeline.ΦA spec24 c
  | n + 1, hn => scrAt24 c (outsAt24 V c n hn).2.2.2.2.2.1 (outsAt24 V c n hn).2.2.2.2.2.2.1 (outsAt24 V c n hn).2.2.2.2.2.2.2.1 (outsAt24 V c n hn).2.2.2.2.2.2.2.2.1 (outsAt24 V c n hn).2.2.2.2.2.2.2.2.2

theorem PhiS24_zero (c : Dev nD) (n : ℕ) (h : n ≤ cfg24.N) (hz : n = 0) : PhiS24 V c n h = Pipeline.ΦA spec24 c := by
  subst hz; rfl

theorem PhiS24_succ (c : Dev nD) (n : ℕ) (hn : n < cfg24.N) :
    PhiS24 V c (n + 1) hn = scrAt24 c (outsAt24 V c n hn).2.2.2.2.2.1 (outsAt24 V c n hn).2.2.2.2.2.2.1 (outsAt24 V c n hn).2.2.2.2.2.2.2.1 (outsAt24 V c n hn).2.2.2.2.2.2.2.2.1 (outsAt24 V c n hn).2.2.2.2.2.2.2.2.2 := rfl

theorem PhiS24_pos (c : Dev nD) (n : ℕ) (h : n ≤ cfg24.N) (hz : n ≠ 0) :
    PhiS24 V c n h = scrAt24 c (outsAt24 V c (n - 1) (by omega)).2.2.2.2.2.1 (outsAt24 V c (n - 1) (by omega)).2.2.2.2.2.2.1 (outsAt24 V c (n - 1) (by omega)).2.2.2.2.2.2.2.1 (outsAt24 V c (n - 1) (by omega)).2.2.2.2.2.2.2.2.1 (outsAt24 V c (n - 1) (by omega)).2.2.2.2.2.2.2.2.2 := by
  cases n with
  | zero => exact absurd rfl hz
  | succ n => rfl

/-! ## The pipeline's proof data -/

/-- The proof data of pipeline 24 on core `c`: the arrays as the region finds them; after the body at point `t` each
    input's buffer at its block and each output's at `outsAt24`'s component; the invariant `PhiS24`; nothing owed. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => iblk24 V c 3 t
    | ⟨4, _⟩ => iblk24 V c 4 t
    | ⟨5, _⟩ => (outsAt24 V c t.val t.isLt).1
    | ⟨6, _⟩ => (outsAt24 V c t.val t.isLt).2.1
    | ⟨7, _⟩ => (outsAt24 V c t.val t.isLt).2.2.1
    | ⟨8, _⟩ => (outsAt24 V c t.val t.isLt).2.2.2.1
    | ⟨9, _⟩ => (outsAt24 V c t.val t.isLt).2.2.2.2.1
  Φ t := PhiS24 V c t.val (Nat.le_of_lt_succ t.isLt)
  q _ := fullShare
  owed _ := 0

theorem A_eq24 (c : Dev nD) (w : Fin cfg24.W) : (dat24 V c).A w = V c (Pipeline.arrRef spec24 w) := by
  dsimp only [dat24]

theorem PhiS24_castSucc (c : Dev nD) (t : Fin cfg24.N) :
    (dat24 V c).Φ t.castSucc = PhiS24 V c t.val (Nat.le_of_lt t.isLt) := by
  dsimp only [dat24]; simp only [Fin.coe_castSucc]

theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) : (dat24 V c).after 3 t = iblk24 V c 3 t := by dsimp only [dat24]
theorem after24_4 (c : Dev nD) (t : Fin cfg24.N) : (dat24 V c).after 4 t = iblk24 V c 4 t := by dsimp only [dat24]
theorem after24_5 (c : Dev nD) (t : Fin cfg24.N) : (dat24 V c).after 5 t = (outsAt24 V c t.val t.isLt).1 := by dsimp only [dat24]
theorem after24_6 (c : Dev nD) (t : Fin cfg24.N) : (dat24 V c).after 6 t = (outsAt24 V c t.val t.isLt).2.1 := by dsimp only [dat24]
theorem after24_7 (c : Dev nD) (t : Fin cfg24.N) : (dat24 V c).after 7 t = (outsAt24 V c t.val t.isLt).2.2.1 := by dsimp only [dat24]
theorem after24_8 (c : Dev nD) (t : Fin cfg24.N) : (dat24 V c).after 8 t = (outsAt24 V c t.val t.isLt).2.2.2.1 := by dsimp only [dat24]
theorem after24_9 (c : Dev nD) (t : Fin cfg24.N) : (dat24 V c).after 9 t = (outsAt24 V c t.val t.isLt).2.2.2.2.1 := by dsimp only [dat24]

theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d
theorem before24_3 (c : Dev nD) (t : Fin cfg24.N) (d) : (dat24 V c).before 3 t d = iblk24 V c 3 t :=
  before24_3_of V (dat24 V c) (A_eq24 V c 3) (after24_3 V c) t d
theorem before24_4 (c : Dev nD) (t : Fin cfg24.N) (d) : (dat24 V c).before 4 t d = iblk24 V c 4 t :=
  before24_4_of V (dat24 V c) (A_eq24 V c 4) (after24_4 V c) t d

/-! ## The body obligation, at a generic point -/

/-- What the body is called with at point `t`, the windows one by one, -/
noncomputable def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d))
    ∗ (∃ d, owns (c : Thread nD τ) (st24_4 t) fullShare ((dat24 V c).before 4 t d))
    ∗ (∃ d, owns (c : Thread nD τ) (st24_5 t) fullShare ((dat24 V c).before 5 t d))
    ∗ (∃ d, owns (c : Thread nD τ) (st24_6 t) fullShare ((dat24 V c).before 6 t d))
    ∗ (∃ d, owns (c : Thread nD τ) (st24_7 t) fullShare ((dat24 V c).before 7 t d))
    ∗ (∃ d, owns (c : Thread nD τ) (st24_8 t) fullShare ((dat24 V c).before 8 t d))
    ∗ (∃ d, owns (c : Thread nD τ) (st24_9 t) fullShare ((dat24 V c).before 9 t d)))

/-- and what it returns. -/
noncomputable def bodyPost24 (c : Dev nD) (t : Fin cfg24.N) : sProp 𝕄 :=
  iprop((dat24 V c).Φ t.succ ∗ (dat24 V c).owesAt () t.succ
    ∗ (dat24 V c).leavesExact 0 t
    ∗ (dat24 V c).leavesExact 1 t
    ∗ (dat24 V c).leavesExact 2 t
    ∗ (dat24 V c).leavesExact 3 t
    ∗ (dat24 V c).leavesExact 4 t
    ∗ (dat24 V c).leavesExact 5 t
    ∗ (dat24 V c).leavesExact 6 t
    ∗ (dat24 V c).leavesExact 7 t
    ∗ (dat24 V c).leavesExact 8 t
    ∗ (dat24 V c).leavesExact 9 t)

set_option maxHeartbeats 8000000 in
/-- The body at any point. The inputs' buffers hold their blocks; the closed forms of the two conditionals say which of
    the three control cases the point is in. At the first point the invariant hands the accumulators over at anything
    and the body zeroes them; later it hands them over at what the point before left. Before the last point the output
    windows are idle and handed back untouched; at the last point they receive the accumulators. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2, before24_3, before24_4]
  rw [show (dat24 V c).owesAt () t.succ = (dat24 V c).owesAt () t.castSucc from rfl]
  rw [show (dat24 V c).Φ t.succ = PhiS24 V c (t.val + 1) t.isLt from rfl, PhiS24_succ]
  have hN : t.val < 10 := lt_of_lt_of_eq t.isLt (show cfg24.N = 10 from N_24)
  rw [show (dat24 V c).leavesExact 0 t = owns (c : Thread nD τ) (st24_0 t) fullShare ((dat24 V c).after 0 t) from by
    unfold Dat.leavesExact; rw [liveAt24_0 t], after24_0]
  rw [show (dat24 V c).leavesExact 1 t = owns (c : Thread nD τ) (st24_1 t) fullShare ((dat24 V c).after 1 t) from by
    unfold Dat.leavesExact; rw [liveAt24_1 t], after24_1]
  rw [show (dat24 V c).leavesExact 2 t = owns (c : Thread nD τ) (st24_2 t) fullShare ((dat24 V c).after 2 t) from by
    unfold Dat.leavesExact; rw [liveAt24_2 t], after24_2]
  rw [show (dat24 V c).leavesExact 3 t = owns (c : Thread nD τ) (st24_3 t) fullShare ((dat24 V c).after 3 t) from by
    unfold Dat.leavesExact; rw [liveAt24_3 t], after24_3]
  rw [show (dat24 V c).leavesExact 4 t = owns (c : Thread nD τ) (st24_4 t) fullShare ((dat24 V c).after 4 t) from by
    unfold Dat.leavesExact; rw [liveAt24_4 t], after24_4]
  by_cases h0 : t.val % 10 = 0
  · have h9 : ¬t.val % 10 = 9 := by omega
    have hz : t.val = 0 := by omega
    rw [Dat.leavesExact_idle (dat24 V c) 5 t (idleAt24_5 t (fun h => h9 ((hcond24_2 t).mp h))) (noFlush24_5 t (fun h => h9 ((hcond24_2 t).mp h)))]
    rw [Dat.leavesExact_idle (dat24 V c) 6 t (idleAt24_6 t (fun h => h9 ((hcond24_2 t).mp h))) (noFlush24_6 t (fun h => h9 ((hcond24_2 t).mp h)))]
    rw [Dat.leavesExact_idle (dat24 V c) 7 t (idleAt24_7 t (fun h => h9 ((hcond24_2 t).mp h))) (noFlush24_7 t (fun h => h9 ((hcond24_2 t).mp h)))]
    rw [Dat.leavesExact_idle (dat24 V c) 8 t (idleAt24_8 t (fun h => h9 ((hcond24_2 t).mp h))) (noFlush24_8 t (fun h => h9 ((hcond24_2 t).mp h)))]
    rw [Dat.leavesExact_idle (dat24 V c) 9 t (idleAt24_9 t (fun h => h9 ((hcond24_2 t).mp h))) (noFlush24_9 t (fun h => h9 ((hcond24_2 t).mp h)))]
    rw [outsAt24_zero V c t hz]
    dsimp only
    rw [PhiS24_castSucc V c t, PhiS24_zero V c _ _ hz, PhiA24_eq]
    unfold scrAt24
    iintro ⟨⟨⟨⟨HS0, HS1, HS2, HS3, HS4⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernelRun24_A c (grid24.coords t) _ _ _ _ _ _ _ _ _ _ _ _ _ _ _ _ _ _ _ _ _ _ _ _ _ _ _ _ _ _ ((hcond24_1 t).mpr h0) (fun h => h9 ((hcond24_2 t).mp h)) (iblk24 V c 0 t) (iblk24 V c 1 t) (iblk24 V c 2 t) (iblk24 V c 3 t) (iblk24 V c 4 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 HR Hg]
    · isplitl [HS0 HS1 HS2 HS3 HS4 HR]
      · isplitl [HS0 HS1 HS2 HS3 HS4]
        · isplitl [HS0]; · iexact HS0
          isplitl [HS1]; · iexact HS1
          isplitl [HS2]; · iexact HS2
          isplitl [HS3]; · iexact HS3
          iexact HS4
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iexists _; iexact H9
  · by_cases h9 : t.val % 10 = 9
    · -- the last point
      have hz : t.val ≠ 0 := by omega
      rw [show (dat24 V c).leavesExact 5 t = owns (c : Thread nD τ) (st24_5 t) fullShare ((dat24 V c).after 5 t) from by
        unfold Dat.leavesExact; rw [liveAt24_5_C t ((hcond24_2 t).mpr h9)], after24_5]
      rw [show (dat24 V c).leavesExact 6 t = owns (c : Thread nD τ) (st24_6 t) fullShare ((dat24 V c).after 6 t) from by
        unfold Dat.leavesExact; rw [liveAt24_6_C t ((hcond24_2 t).mpr h9)], after24_6]
      rw [show (dat24 V c).leavesExact 7 t = owns (c : Thread nD τ) (st24_7 t) fullShare ((dat24 V c).after 7 t) from by
        unfold Dat.leavesExact; rw [liveAt24_7_C t ((hcond24_2 t).mpr h9)], after24_7]
      rw [show (dat24 V c).leavesExact 8 t = owns (c : Thread nD τ) (st24_8 t) fullShare ((dat24 V c).after 8 t) from by
        unfold Dat.leavesExact; rw [liveAt24_8_C t ((hcond24_2 t).mpr h9)], after24_8]
      rw [show (dat24 V c).leavesExact 9 t = owns (c : Thread nD τ) (st24_9 t) fullShare ((dat24 V c).after 9 t) from by
        unfold Dat.leavesExact; rw [liveAt24_9_C t ((hcond24_2 t).mpr h9)], after24_9]
      rw [outsAt24_pos V c t hz]
      dsimp only
      rw [PhiS24_castSucc V c t, PhiS24_pos V c _ _ hz]
      unfold scrAt24
      iintro ⟨⟨⟨⟨HS0, HS1, HS2, HS3, HS4⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (kernelRun24_C c (grid24.coords t) _ _ _ _ _ _ _ _ _ _ _ _ _ _ _ _ _ _ _ _ _ _ _ _ _ _ _ _ _ _ (fun h => h0 ((hcond24_1 t).mp h)) ((hcond24_2 t).mpr h9) (iblk24 V c 0 t) (iblk24 V c 1 t) (iblk24 V c 2 t) (iblk24 V c 3 t) (iblk24 V c 4 t) _ _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 HR Hg]
      · isplitl [HS0 HS1 HS2 HS3 HS4 HR]
        · isplitl [HS0 HS1 HS2 HS3 HS4]
          · isplitl [HS0]; · iexact HS0
            isplitl [HS1]; · iexact HS1
            isplitl [HS2]; · iexact HS2
            isplitl [HS3]; · iexact HS3
            iexact HS4
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hz : t.val ≠ 0 := by omega
      rw [Dat.leavesExact_idle (dat24 V c) 5 t (idleAt24_5 t (fun h => h9 ((hcond24_2 t).mp h))) (noFlush24_5 t (fun h => h9 ((hcond24_2 t).mp h)))]
      rw [Dat.leavesExact_idle (dat24 V c) 6 t (idleAt24_6 t (fun h => h9 ((hcond24_2 t).mp h))) (noFlush24_6 t (fun h => h9 ((hcond24_2 t).mp h)))]
      rw [Dat.leavesExact_idle (dat24 V c) 7 t (idleAt24_7 t (fun h => h9 ((hcond24_2 t).mp h))) (noFlush24_7 t (fun h => h9 ((hcond24_2 t).mp h)))]
      rw [Dat.leavesExact_idle (dat24 V c) 8 t (idleAt24_8 t (fun h => h9 ((hcond24_2 t).mp h))) (noFlush24_8 t (fun h => h9 ((hcond24_2 t).mp h)))]
      rw [Dat.leavesExact_idle (dat24 V c) 9 t (idleAt24_9 t (fun h => h9 ((hcond24_2 t).mp h))) (noFlush24_9 t (fun h => h9 ((hcond24_2 t).mp h)))]
      rw [outsAt24_pos V c t hz]
      dsimp only
      rw [PhiS24_castSucc V c t, PhiS24_pos V c _ _ hz]
      unfold scrAt24
      iintro ⟨⟨⟨⟨HS0, HS1, HS2, HS3, HS4⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (kernelRun24_B c (grid24.coords t) _ _ _ _ _ _ _ _ _ _ _ _ _ _ _ _ _ _ _ _ _ _ _ _ _ _ _ _ _ _ (fun h => h0 ((hcond24_1 t).mp h)) (fun h => h9 ((hcond24_2 t).mp h)) (iblk24 V c 0 t) (iblk24 V c 1 t) (iblk24 V c 2 t) (iblk24 V c 3 t) (iblk24 V c 4 t) _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 HR Hg]
      · isplitl [HS0 HS1 HS2 HS3 HS4 HR]
        · isplitl [HS0 HS1 HS2 HS3 HS4]
          · isplitl [HS0]; · iexact HS0
            isplitl [HS1]; · iexact HS1
            isplitl [HS2]; · iexact HS2
            isplitl [HS3]; · iexact HS3
            iexact HS4
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      iexists _; iexact H9

/-- The library's body obligation, at every point. -/
theorem body_obligation24 (c : Dev nD) : BodyObligation (dat24 (F := F) V c) (defs₀ (F := F)) Variants.none () Set.univ := fun t => by
  rw [bigSep_W24, bigSep_W24]
  exact sound_body24 V c t

/-- What the launch hands the region is the invariant before the first point. -/
theorem hin24 (c : Dev nD) : Pipeline.ΦA spec24 c ⊢ (dat24 V c).Φ 0 := by
  rw [show (dat24 V c).Φ 0 = PhiS24 V c 0 (Nat.zero_le _) from rfl, PhiS24_zero V c 0 _ rfl]
  try exact Idealize.SL.BI.Entails.refl _

/-- After any point the invariant gives the class's back: the accumulators' named contents are forgotten. -/
theorem Phi_out24 (c : Dev nD) (t : Fin (cfg24.N + 1)) (ht : t.val ≠ 0) : (dat24 V c).Φ t ⊢ Pipeline.ΦA spec24 c := by
  rw [show (dat24 V c).Φ t = PhiS24 V c t.val (Nat.le_of_lt_succ t.isLt) from rfl, PhiS24_pos V c _ _ ht, PhiA24_eq]
  unfold scrAt24
  iintro ⟨⟨⟨HS0, HS1, HS2, HS3, HS4⟩, HR⟩, Hg⟩
  isplitl [HS0 HS1 HS2 HS3 HS4 HR]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact HR
  iexact Hg

/-- The same after the last point. -/
theorem hout24 (c : Dev nD) : (dat24 V c).Φ (Fin.last cfg24.N) ⊢ Pipeline.ΦA spec24 c :=
  Phi_out24 V c _ (by rw [Fin.val_last]; have : cfg24.N = 10 := N_24; omega)

end Regions

end Cert.KernelIdeal.Gen

end
-- ==== Proof.KI.Halves.lean ====
import proofs.«421328_j30846455120312_1_alg».proof.Proof.KI.RunLib
import proofs.«421328_j30846455120312_1_alg».proof.Proof.KI.R0
import proofs.«421328_j30846455120312_1_alg».proof.Proof.KI.R1
import proofs.«421328_j30846455120312_1_alg».proof.Proof.KI.R2
import proofs.«421328_j30846455120312_1_alg».proof.Proof.KI.R3
import proofs.«421328_j30846455120312_1_alg».proof.Proof.KI.R4
import proofs.«421328_j30846455120312_1_alg».proof.Proof.KI.R5
import proofs.«421328_j30846455120312_1_alg».proof.Proof.KI.R6
import proofs.«421328_j30846455120312_1_alg».proof.Proof.KI.R7
import proofs.«421328_j30846455120312_1_alg».proof.Proof.KI.R8
import proofs.«421328_j30846455120312_1_alg».proof.Proof.KI.R9
import proofs.«421328_j30846455120312_1_alg».proof.Proof.KI.R10
import proofs.«421328_j30846455120312_1_alg».proof.Proof.KI.R11
import proofs.«421328_j30846455120312_1_alg».proof.Proof.KI.R12
import proofs.«421328_j30846455120312_1_alg».proof.Proof.KI.R13
import proofs.«421328_j30846455120312_1_alg».proof.Proof.KI.R14
import proofs.«421328_j30846455120312_1_alg».proof.Proof.KI.R15
import proofs.«421328_j30846455120312_1_alg».proof.Proof.KI.R16
import proofs.«421328_j30846455120312_1_alg».proof.Proof.KI.R17
import proofs.«421328_j30846455120312_1_alg».proof.Proof.KI.R18
import proofs.«421328_j30846455120312_1_alg».proof.Proof.KI.R19
import proofs.«421328_j30846455120312_1_alg».proof.Proof.KI.R20
import proofs.«421328_j30846455120312_1_alg».proof.Proof.KI.R21
import proofs.«421328_j30846455120312_1_alg».proof.Proof.KI.R22
import proofs.«421328_j30846455120312_1_alg».proof.Proof.KI.R23
import proofs.«421328_j30846455120312_1_alg».proof.Proof.KI.R24
import proofs.«421328_j30846455120312_1_alg».proof.Proof.KI.R25
import proofs.«421328_j30846455120312_1_alg».proof.Proof.KI.R26

/-! The 27 regions' halves, gathered for the run: each region's proof data at any entry contents with its five facts;
    every input array is held whole, nothing is owed, and no bound is kept on the recorded waits, by the data's
    definitions. -/

noncomputable section

namespace Cert.KernelIdeal.Gen

open Idealize.ShloMosaic Idealize.ShloMosaic.TcCoe
open Idealize.SL Idealize.SL.BI
open scoped Idealize.SL.BI
open Idealize.ShloMosaic.Pipeline (Dat Cfg Window BodyObligation cellOf)

variable {F : FTy → Type} [FloatOps F]

noncomputable instance halves : Halves (F := F) where
  h0 V := ⟨dat0 V, A_eq0 V, body_obligation0 V, hin0 V, hout0 V, fun _ _ => rfl, fun _ _ => rfl, fun _ _ => trivial⟩
  h1 V := ⟨dat1 V, A_eq1 V, body_obligation1 V, hin1 V, hout1 V, fun _ _ => rfl, fun _ _ => rfl, fun _ _ => trivial⟩
  h2 V := ⟨dat2 V, A_eq2 V, body_obligation2 V, hin2 V, hout2 V, fun _ _ => rfl, fun _ _ => rfl, fun _ _ => trivial⟩
  h3 V := ⟨dat3 V, A_eq3 V, body_obligation3 V, hin3 V, hout3 V, fun _ _ => rfl, fun _ _ => rfl, fun _ _ => trivial⟩
  h4 V := ⟨dat4 V, A_eq4 V, body_obligation4 V, hin4 V, hout4 V, fun _ _ => rfl, fun _ _ => rfl, fun _ _ => trivial⟩
  h5 V := ⟨dat5 V, A_eq5 V, body_obligation5 V, hin5 V, hout5 V, fun _ _ => rfl, fun _ _ => rfl, fun _ _ => trivial⟩
  h6 V := ⟨dat6 V, A_eq6 V, body_obligation6 V, hin6 V, hout6 V, fun _ _ => rfl, fun _ _ => rfl, fun _ _ => trivial⟩
  h7 V := ⟨dat7 V, A_eq7 V, body_obligation7 V, hin7 V, hout7 V, fun _ _ => rfl, fun _ _ => rfl, fun _ _ => trivial⟩
  h8 V := ⟨dat8 V, A_eq8 V, body_obligation8 V, hin8 V, hout8 V, fun _ _ => rfl, fun _ _ => rfl, fun _ _ => trivial⟩
  h9 V := ⟨dat9 V, A_eq9 V, body_obligation9 V, hin9 V, hout9 V, fun _ _ => rfl, fun _ _ => rfl, fun _ _ => trivial⟩
  h10 V := ⟨dat10 V, A_eq10 V, body_obligation10 V, hin10 V, hout10 V, fun _ _ => rfl, fun _ _ => rfl, fun _ _ => trivial⟩
  h11 V := ⟨dat11 V, A_eq11 V, body_obligation11 V, hin11 V, hout11 V, fun _ _ => rfl, fun _ _ => rfl, fun _ _ => trivial⟩
  h12 V := ⟨dat12 V, A_eq12 V, body_obligation12 V, hin12 V, hout12 V, fun _ _ => rfl, fun _ _ => rfl, fun _ _ => trivial⟩
  h13 V := ⟨dat13 V, A_eq13 V, body_obligation13 V, hin13 V, hout13 V, fun _ _ => rfl, fun _ _ => rfl, fun _ _ => trivial⟩
  h14 V := ⟨dat14 V, A_eq14 V, body_obligation14 V, hin14 V, hout14 V, fun _ _ => rfl, fun _ _ => rfl, fun _ _ => trivial⟩
  h15 V := ⟨dat15 V, A_eq15 V, body_obligation15 V, hin15 V, hout15 V, fun _ _ => rfl, fun _ _ => rfl, fun _ _ => trivial⟩
  h16 V := ⟨dat16 V, A_eq16 V, body_obligation16 V, hin16 V, hout16 V, fun _ _ => rfl, fun _ _ => rfl, fun _ _ => trivial⟩
  h17 V := ⟨dat17 V, A_eq17 V, body_obligation17 V, hin17 V, hout17 V, fun _ _ => rfl, fun _ _ => rfl, fun _ _ => trivial⟩
  h18 V := ⟨dat18 V, A_eq18 V, body_obligation18 V, hin18 V, hout18 V, fun _ _ => rfl, fun _ _ => rfl, fun _ _ => trivial⟩
  h19 V := ⟨dat19 V, A_eq19 V, body_obligation19 V, hin19 V, hout19 V, fun _ _ => rfl, fun _ _ => rfl, fun _ _ => trivial⟩
  h20 V := ⟨dat20 V, A_eq20 V, body_obligation20 V, hin20 V, hout20 V, fun _ _ => rfl, fun _ _ => rfl, fun _ _ => trivial⟩
  h21 V := ⟨dat21 V, A_eq21 V, body_obligation21 V, hin21 V, hout21 V, fun _ _ => rfl, fun _ _ => rfl, fun _ _ => trivial⟩
  h22 V := ⟨dat22 V, A_eq22 V, body_obligation22 V, hin22 V, hout22 V, fun _ _ => rfl, fun _ _ => rfl, fun _ _ => trivial⟩
  h23 V := ⟨dat23 V, A_eq23 V, body_obligation23 V, hin23 V, hout23 V, fun _ _ => rfl, fun _ _ => rfl, fun _ _ => trivial⟩
  h24 V := ⟨dat24 V, A_eq24 V, body_obligation24 V, hin24 V, hout24 V, fun _ _ => rfl, fun _ _ => rfl, fun _ _ => trivial⟩
  h25 V := ⟨dat25 V, A_eq25 V, body_obligation25 V, hin25 V, hout25 V, fun _ _ => rfl, fun _ _ => rfl, fun _ _ => trivial⟩
  h26 V := ⟨dat26 V, A_eq26 V, body_obligation26 V, hin26 V, hout26 V, fun _ _ => rfl, fun _ _ => rfl, fun _ _ => trivial⟩

end Cert.KernelIdeal.Gen

end
-- ==== Proof.KI.R0Pay.lean ====
/-
  The arithmetic of the dense-statistics body, at the extended reals. One grid point of the body takes a block of 5000
  rows of the node features `x` and of the neighbour means `nm` (64 columns each), the two 64 × 128 weight matrices, the
  bias row and the slope row, and computes the block `PReLU(x · Wself + nm · Wneigh + b)` (128 columns), adds its column
  sums onto one running row and the column sums of its squares onto another. Here each of those values is read at an
  index: a matrix product into zeros as the sum over the contracted coordinate, the broadcast rows at their column, the
  select on "greater than zero" as the `if`, a sum down the rows as a finite sum. The formats between f32 and bf16
  are the identity at the extended reals, so nothing of them is left.
-/
import proofs.«421328_j30846455120312_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Gen

open Idealize.ShloMosaic Idealize.ShloMosaic.ValueIdx

/-! ## The two matrix products of the pre-activation, read at an index -/

theorem lhs_pr0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
theorem lhs_pr0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_pr0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_pr0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- A block of rows times a weight matrix, accumulated into zeros, at row `r` and column `j`: the sum over the
    contracted coordinate of the products of the entries. -/
theorem matmul_pr0_apply {φ₁ φ₂ : FTy} (A : FVec Ideal S5000x64 φ₁) (B : FVec Ideal S64x128 φ₂) (r : Fin 5000) (j : Fin 128) :
    matmul dot_S5000x64_S64x128_S5000x128_1_0_0_1_n_n none A B (constant (F := Ideal) S5000x128 .f32 0x00000000#32) (ix2 r j)
      = ∑ k : Fin 64, A (ix2 r k) * B (ix2 k j) := by
  simp only [matmul]
  rw [Ideal.matmul_constant_zero_apply,
    ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 r j)
      ((contrEquiv1 dot_S5000x64_S64x128_S5000x128_1_0_0_1_n_n 64 rfl rfl).symm k) = ix2 r k := funext fun a => Fin.ext (by
    match a with
    | ⟨0, _⟩ => exact lhs_pr0_0 _ _
    | ⟨1, _⟩ => exact (lhs_pr0_1 _ _).trans hk)
  have er : dot_S5000x64_S64x128_S5000x128_1_0_0_1_n_n.rhsIdx (ix2 r j)
      ((contrEquiv1 dot_S5000x64_S64x128_S5000x128_1_0_0_1_n_n 64 rfl rfl).symm k) = ix2 k j := funext fun a => Fin.ext (by
    match a with
    | ⟨0, _⟩ => exact (rhs_pr0_0 _ _).trans hk
    | ⟨1, _⟩ => exact rhs_pr0_1 _ _)
  rw [el, er]

/-! ## The layout operations of the payloads, read at an index -/

/-- A row vector broadcast down the rows of a block reads its entry of the same column. -/
theorem bcast_pr0_apply {α : Type} (v : S1x128.Idx → α) (r : Fin 5000) (j : Fin 128) :
    broadcastTo S5000x128 v broadcasts_S1x128_S5000x128 (ix2 r j) = v (ix2 (0 : Fin 1) j) := by
  refine broadcastTo_apply v broadcasts_S1x128_S5000x128 (ix2 r j) (ix2 (0 : Fin 1) j) fun a => ?_
  match a with
  | ⟨0, _⟩ => rfl
  | ⟨1, _⟩ => rfl

/-- The sum down the rows of a block, stored as a row vector, at column `j`: the sum over the rows of the block's
    entries of that column. -/
theorem lanesum_pr0_apply (src : FVec Ideal S5000x128 .f32) (hacc : (0x00000000#32 : BitVec 32) = 0x00000000#32)
    (z : Fin 1) (j : Fin 128) :
    shapeCast S1x128 (multiReduction (F := Ideal) .add [0] S128 src 0x00000000#32 reduces_S5000x128_S128 (.inl rfl) hacc)
        shapeCasts_S128_S1x128 (ix2 z j)
      = ∑ r : Fin 5000, src (ix2 r j) := by
  refine (shapeCast_apply _ shapeCasts_S128_S1x128 (ix2 z j) (ix1 j) ?_).trans ?_
  · rw [Shape.rowMajor_val_one, Shape.rowMajor_val_two]
    have hz : z.val = 0 := by omega
    show j.val = z.val * 128 + j.val
    omega
  · refine (Ideal.multiReduction_add_single src 0x00000000#32 reduces_S5000x128_S128 (.inl rfl) hacc (ix1 j)).trans ?_
    show ∑ k : Fin 5000, src (reduces_S5000x128_S128.lift (ix1 j) k) = _
    refine Finset.sum_congr rfl fun r _ => congrArg src ?_
    funext a
    apply Fin.ext
    match a with
    | ⟨0, _⟩ => rfl
    | ⟨1, _⟩ => rfl

/-! ## The extended-real functions the payloads compute -/

/-- The pre-activation of one row: the row times the self weights, plus the row of neighbour means times the
    neighbour weights, plus the bias. -/
noncomputable def zS0 {R : Nat} (x nm : (⟨2, ![R, 64]⟩ : Shape).Idx → EReal) (ws wn : S64x128.Idx → EReal) (b : S1x128.Idx → EReal)
    (r : Fin R) (j : Fin 128) : EReal :=
  (∑ k : Fin 64, x (ix2 r k) * ws (ix2 k j)) + (∑ k : Fin 64, nm (ix2 r k) * wn (ix2 k j)) + b (ix2 (0 : Fin 1) j)

/-- The parametric rectifier of it: itself where positive, else the column's slope times it. -/
noncomputable def prS0 {R : Nat} (x nm : (⟨2, ![R, 64]⟩ : Shape).Idx → EReal) (ws wn : S64x128.Idx → EReal) (b a : S1x128.Idx → EReal)
    (r : Fin R) (j : Fin 128) : EReal :=
  if zS0 x nm ws wn b r j > 0 then zS0 x nm ws wn b r j else a (ix2 (0 : Fin 1) j) * zS0 x nm ws wn b r j

/-- A select on "greater than the zero word" is the `if` on "positive". -/
theorem select_ogt_pr0 (z w : EReal) :
    Scalar.select (FloatOps.cmpf (F := Ideal) (φ := .f32) .ogt z (Scalar.ofBits (F := Ideal) .f32 0x00000000#32)) z w
      = if z > 0 then z else w := by
  show (if BitVec.ofBool (decide (Ideal.ofBits .f32 0x00000000#32 < z)) = 1#1 then z else w) = _
  rw [Ideal.ofBits_zero_f32]
  by_cases h : (0 : EReal) < z
  · rw [if_pos (show z > 0 from h), if_pos (by rw [decide_eq_true h]; rfl)]
  · rw [if_neg (show ¬ z > 0 from h), if_neg (by rw [decide_eq_false h]; decide)]

/-! ## The payloads at an index -/

/-- The pre-activation block at row `r` and column `j`. -/
theorem preact_pr0_apply (x nm : Vec Ideal S5000x64 .f32) (ws wn : Vec Ideal S64x128 .f32) (b : Vec Ideal S1x128 .f32)
    (r : Fin 5000) (j : Fin 128) :
    addf (addf
        (matmul dot_S5000x64_S64x128_S5000x128_1_0_0_1_n_n none
          (truncf .bf16 x bitsLt_bf16_f32) (truncf .bf16 ws bitsLt_bf16_f32)
          (constant (F := Ideal) S5000x128 .f32 0x00000000#32))
        (matmul dot_S5000x64_S64x128_S5000x128_1_0_0_1_n_n none
          (truncf .bf16 nm bitsLt_bf16_f32) (truncf .bf16 wn bitsLt_bf16_f32)
          (constant (F := Ideal) S5000x128 .f32 0x00000000#32)))
      (broadcastTo S5000x128 b broadcasts_S1x128_S5000x128) (ix2 r j)
      = zS0 x nm ws wn b r j := by
  rw [addf_apply, addf_apply, matmul_pr0_apply, matmul_pr0_apply, bcast_pr0_apply]
  simp only [truncf_apply]
  rfl

/-- The block the body stores: at row `r` and column `j`, the rectified pre-activation of the block's row. -/
theorem pay5_0_apply (x nm : Vec Ideal S5000x64 .f32) (ws wn : Vec Ideal S64x128 .f32) (b a : Vec Ideal S1x128 .f32)
    (r : Fin 5000) (j : Fin 128) :
    k0_pay5 (F := Ideal) x nm ws wn b a (ix2 r j) = prS0 x nm ws wn b a r j := by
  unfold k0_pay5
  simp only [select_apply, cmpf_apply, broadcast_apply, mulf_apply, preact_pr0_apply, bcast_pr0_apply, shapeCast_self]
  exact select_ogt_pr0 _ _

/-- The running sum the body stores: the accumulator plus the column sums of the block it stores. -/
theorem pay6_0_apply (x nm : Vec Ideal S5000x64 .f32) (ws wn : Vec Ideal S64x128 .f32) (b a : Vec Ideal S1x128 .f32)
    (acc : Vec Ideal S1x128 .f32) (z : Fin 1) (j : Fin 128) :
    k0_pay6 (F := Ideal) x nm ws wn b a acc (ix2 z j) = acc (ix2 z j) + ∑ r : Fin 5000, prS0 x nm ws wn b a r j := by
  unfold k0_pay6
  refine congrArg (acc (ix2 z j) + ·) ((lanesum_pr0_apply _ rfl z j).trans (Finset.sum_congr rfl fun r _ => ?_))
  exact pay5_0_apply x nm ws wn b a r j

/-- The running sum of squares the body stores: the accumulator plus the column sums of the squares of a block. -/
theorem pay2_0_apply (v : FVec Ideal S5000x128 .f32) (acc : Vec Ideal S1x128 .f32) (z : Fin 1) (j : Fin 128) :
    k0_pay2 (F := Ideal) v acc (ix2 z j) = acc (ix2 z j) + ∑ r : Fin 5000, v (ix2 r j) * v (ix2 r j) := by
  unfold k0_pay2
  rw [shapeCast_self]
  exact congrArg (acc (ix2 z j) + ·) (lanesum_pr0_apply _ rfl z j)

/-- Storing the running sum changes nothing of it. -/
theorem pay1_0_eq (v : FVec Ideal S1x128 .f32) : k0_pay1 (F := Ideal) v = v := by
  unfold k0_pay1
  exact shapeCast_self _ _

/-- The reset values are zero. -/
theorem pay3_0_apply (i : S1x128.Idx) : k0_pay3 (F := Ideal) i = 0 := by
  unfold k0_pay3
  rw [shapeCast_self]
  exact Ideal.ofBits_zero_f32
theorem pay4_0_apply (i : S1x128.Idx) : k0_pay4 (F := Ideal) i = 0 := by
  unfold k0_pay4
  rw [shapeCast_self]
  exact Ideal.ofBits_zero_f32

/-! ## Rows of an array read through a block, and the sum over all rows by blocks -/

/-- The rectified pre-activation of a row depends on the row's entries only: two arrays that agree along a row of each
    give the same value there. -/
theorem prS0_congr {R R' : Nat} (x nm : (⟨2, ![R, 64]⟩ : Shape).Idx → EReal) (x' nm' : (⟨2, ![R', 64]⟩ : Shape).Idx → EReal)
    (ws wn : S64x128.Idx → EReal) (b a : S1x128.Idx → EReal) (r : Fin R) (r' : Fin R') (j : Fin 128)
    (hx : ∀ k : Fin 64, x (ix2 r k) = x' (ix2 r' k)) (hnm : ∀ k : Fin 64, nm (ix2 r k) = nm' (ix2 r' k)) :
    prS0 x nm ws wn b a r j = prS0 x' nm' ws wn b a r' j := by
  have hz : zS0 x nm ws wn b r j = zS0 x' nm' ws wn b r' j := by
    unfold zS0
    simp only [hx, hnm]
  unfold prS0
  rw [hz]

/-- A sum over the 50000 rows is the sum, over the ten row blocks, of the sums over each block's 5000 rows. -/
theorem sum_rows_pr0 {M : Type*} [AddCommMonoid M] (f : Fin 50000 → M) :
    ∑ i : Fin 50000, f i = ∑ t : Fin 10, ∑ r : Fin 5000, f ⟨5000 * t.val + r.val, by omega⟩ := by
  rw [← Equiv.sum_comp (finProdFinEquiv (m := 10) (n := 5000)) f, Fintype.sum_prod_type]
  refine Finset.sum_congr rfl fun t _ => Finset.sum_congr rfl fun r _ => congrArg f (Fin.ext ?_)
  show r.val + 5000 * t.val = 5000 * t.val + r.val
  omega

/-! ## The region's three output arrays as functions of its six input arrays -/

/-- The rectified pre-activations of all 50000 rows: what the [50000,128] output array ends holding. -/
noncomputable def prG0 (x nm : Vec Ideal S50000x64 .f32) (ws wn : Vec Ideal S64x128 .f32) (b a : Vec Ideal S1x128 .f32) :
    Vec Ideal S50000x128 .f32 :=
  fun i => prS0 x nm ws wn b a (⟨(i 0).val, (i 0).isLt⟩ : Fin 50000) (⟨(i 1).val, (i 1).isLt⟩ : Fin 128)

/-- Their column sums over all 50000 rows: what the first [1,128] output array ends holding. -/
noncomputable def sumG0 (x nm : Vec Ideal S50000x64 .f32) (ws wn : Vec Ideal S64x128 .f32) (b a : Vec Ideal S1x128 .f32) :
    Vec Ideal S1x128 .f32 :=
  fun i => ∑ r : Fin 50000, prS0 x nm ws wn b a r (⟨(i 1).val, (i 1).isLt⟩ : Fin 128)

/-- The column sums of their squares: what the second [1,128] output array ends holding. -/
noncomputable def sqG0 (x nm : Vec Ideal S50000x64 .f32) (ws wn : Vec Ideal S64x128 .f32) (b a : Vec Ideal S1x128 .f32) :
    Vec Ideal S1x128 .f32 :=
  fun i => ∑ r : Fin 50000, prS0 x nm ws wn b a r (⟨(i 1).val, (i 1).isLt⟩ : Fin 128)
    * prS0 x nm ws wn b a r (⟨(i 1).val, (i 1).isLt⟩ : Fin 128)

/-- The three functions at coordinates, and the rectified pre-activation spelt out. -/
theorem prG0_apply (x nm : Vec Ideal S50000x64 .f32) (ws wn : Vec Ideal S64x128 .f32) (b a : Vec Ideal S1x128 .f32)
    (r : Fin 50000) (j : Fin 128) : prG0 x nm ws wn b a (ix2 r j) = prS0 x nm ws wn b a r j := rfl
theorem sumG0_apply (x nm : Vec Ideal S50000x64 .f32) (ws wn : Vec Ideal S64x128 .f32) (b a : Vec Ideal S1x128 .f32)
    (z : Fin 1) (j : Fin 128) : sumG0 x nm ws wn b a (ix2 z j) = ∑ r : Fin 50000, prG0 x nm ws wn b a (ix2 r j) := rfl
theorem sqG0_apply (x nm : Vec Ideal S50000x64 .f32) (ws wn : Vec Ideal S64x128 .f32) (b a : Vec Ideal S1x128 .f32)
    (z : Fin 1) (j : Fin 128) :
    sqG0 x nm ws wn b a (ix2 z j) = ∑ r : Fin 50000, prG0 x nm ws wn b a (ix2 r j) * prG0 x nm ws wn b a (ix2 r j) := rfl
theorem prS0_eq {R : Nat} (x nm : (⟨2, ![R, 64]⟩ : Shape).Idx → EReal) (ws wn : S64x128.Idx → EReal) (b a : S1x128.Idx → EReal)
    (r : Fin R) (j : Fin 128) :
    prS0 x nm ws wn b a r j
      = (let z := (∑ k : Fin 64, x (ix2 r k) * ws (ix2 k j)) + (∑ k : Fin 64, nm (ix2 r k) * wn (ix2 k j)) + b (ix2 (0 : Fin 1) j)
         if z > 0 then z else a (ix2 (0 : Fin 1) j) * z) := rfl

end Cert.KernelIdeal.Gen
-- ==== Proof.KI.R0Value.lean ====
/-
  What the dense-statistics region (pipeline 0) leaves in its arrays, at the extended reals, as whole-array functions of
  the contents V the region is entered with: the six input arrays x, nm [50000,64], Wself, Wneigh [64,128], b, a [1,128].
    * The block output [50000,128] ends at prG0 x nm Wself Wneigh b a: at (r, j) the rectified pre-activation
        z = (∑ k, x(r,k) Wself(k,j)) + (∑ k, nm(r,k) Wneigh(k,j)) + b(0,j),   z if z > 0 else a(0,j) · z.
      Point t writes back rows 5000 t … 5000 t + 4999, which is block t of that one function, and the ten blocks cover
      the array (row r lies in block r / 5000).
    * The two statistics outputs [1,128] end at sumG0 and sqG0: at (0, j) the sum over all 50000 rows of prG0(r, j) and of
      its square. The body keeps two running rows: zero before the first point, and at every point the column sums of
      the point's block (of its squares) are added; so after point n they hold the sums over row blocks 0 … n (induction
      on the point; addition of extended reals needs no finiteness to be regrouped this way, the blocks are taken in
      order). The last point copies the running rows to the two windows, whose one block is the whole array, and only
      that point writes them back.
    * The six input arrays end as they were entered.
-/
import proofs.«421328_j30846455120312_1_alg».proof.Proof.KI.R0
import proofs.«421328_j30846455120312_1_alg».proof.Proof.KI.R0Pay
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

section Region0Value
variable (V : (c : Dev nD) → (b : Ref sig .tc) → Buf (Elt Ideal) ((c : Thread nD τ).loc b))

/-! ## The arrays and the blocks -/

/-- The six input arrays as the region finds them, at their literal types. -/
noncomputable abbrev xa0_0 (c : Dev nD) : Vec Ideal S50000x64 .f32 := V c (Pipeline.arrRef spec0 0)
noncomputable abbrev xa0_1 (c : Dev nD) : Vec Ideal S50000x64 .f32 := V c (Pipeline.arrRef spec0 1)
noncomputable abbrev xa0_2 (c : Dev nD) : Vec Ideal S64x128 .f32 := V c (Pipeline.arrRef spec0 2)
noncomputable abbrev xa0_3 (c : Dev nD) : Vec Ideal S64x128 .f32 := V c (Pipeline.arrRef spec0 3)
noncomputable abbrev xa0_4 (c : Dev nD) : Vec Ideal S1x128 .f32 := V c (Pipeline.arrRef spec0 4)
noncomputable abbrev xa0_5 (c : Dev nD) : Vec Ideal S1x128 .f32 := V c (Pipeline.arrRef spec0 5)

/-- The printed index maps over the grid: the row-block windows (0, 1 in; 6 out) are at row block t, column block 0;
    the weight, bias, slope and statistics windows stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `r` of the feature block at point `t` is row `5000 t + r` of the feature array. -/
theorem xb0_0_apply (c : Dev nD) (t : Fin cfg0.N) (r : Fin 5000) (k : Fin 64) (R : Fin 50000)
    (hR : R.val = 5000 * t.val + r.val) : xb0_0 V c t (ix2 r k) = xa0_0 V c (ix2 R k) := by
  obtain ⟨e0, e1, -⟩ := idx_facts0 t
  show iblk0 V c 0 t (ix2 r k) = V c (Pipeline.arrRef spec0 0) (ix2 R k)
  unfold iblk0
  rw [View.read_apply]
  refine congrArg (V c (Pipeline.arrRef spec0 0)) (funext fun a => Fin.ext ?_)
  match a with
  | ⟨0, _⟩ => show win0_0.index t (0 : Fin 2) * 5000 + 1 * r.val = R.val; rw [e0, hR]; omega
  | ⟨1, _⟩ => show win0_0.index t (1 : Fin 2) * 64 + 1 * k.val = k.val; rw [e1]; omega

/-- The same of the block of neighbour means. -/
theorem xb0_1_apply (c : Dev nD) (t : Fin cfg0.N) (r : Fin 5000) (k : Fin 64) (R : Fin 50000)
    (hR : R.val = 5000 * t.val + r.val) : xb0_1 V c t (ix2 r k) = xa0_1 V c (ix2 R k) := by
  obtain ⟨-, -, e0, e1, -⟩ := idx_facts0 t
  show iblk0 V c 1 t (ix2 r k) = V c (Pipeline.arrRef spec0 1) (ix2 R k)
  unfold iblk0
  rw [View.read_apply]
  refine congrArg (V c (Pipeline.arrRef spec0 1)) (funext fun a => Fin.ext ?_)
  match a with
  | ⟨0, _⟩ => show win0_1.index t (0 : Fin 2) * 5000 + 1 * r.val = R.val; rw [e0, hR]; omega
  | ⟨1, _⟩ => show win0_1.index t (1 : Fin 2) * 64 + 1 * k.val = k.val; rw [e1]; omega

/-- The weight, bias and slope windows' one block is the whole array, at every point. -/
theorem xb0_2_eq (c : Dev nD) (t : Fin cfg0.N) : xb0_2 V c t = xa0_2 V c := by
  obtain ⟨-, -, -, -, e0, e1, -⟩ := idx_facts0 t
  funext y
  show iblk0 V c 2 t y = V c (Pipeline.arrRef spec0 2) y
  unfold iblk0
  rw [View.read_apply]
  refine congrArg (V c (Pipeline.arrRef spec0 2)) (funext fun a => Fin.ext ?_)
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega
theorem xb0_3_eq (c : Dev nD) (t : Fin cfg0.N) : xb0_3 V c t = xa0_3 V c := by
  obtain ⟨-, -, -, -, -, -, e0, e1, -⟩ := idx_facts0 t
  funext y
  show iblk0 V c 3 t y = V c (Pipeline.arrRef spec0 3) y
  unfold iblk0
  rw [View.read_apply]
  refine congrArg (V c (Pipeline.arrRef spec0 3)) (funext fun a => Fin.ext ?_)
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega
theorem xb0_4_eq (c : Dev nD) (t : Fin cfg0.N) : xb0_4 V c t = xa0_4 V c := by
  obtain ⟨-, -, -, -, -, -, -, -, e0, e1, -⟩ := idx_facts0 t
  funext y
  show iblk0 V c 4 t y = V c (Pipeline.arrRef spec0 4) y
  unfold iblk0
  rw [View.read_apply]
  refine congrArg (V c (Pipeline.arrRef spec0 4)) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega
theorem xb0_5_eq (c : Dev nD) (t : Fin cfg0.N) : xb0_5 V c t = xa0_5 V c := by
  obtain ⟨-, -, -, -, -, -, -, -, -, -, e0, e1, -⟩ := idx_facts0 t
  funext y
  show iblk0 V c 5 t y = V c (Pipeline.arrRef spec0 5) y
  unfold iblk0
  rw [View.read_apply]
  refine congrArg (V c (Pipeline.arrRef spec0 5)) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The rectified pre-activation of row `r` of the blocks at point `t` is that of row `5000 t + r` of the arrays. -/
theorem blk_prS0 (c : Dev nD) (t : Fin cfg0.N) (r : Fin 5000) (j : Fin 128) (R : Fin 50000)
    (hR : R.val = 5000 * t.val + r.val) :
    prS0 (xb0_0 V c t) (xb0_1 V c t) (xb0_2 V c t) (xb0_3 V c t) (xb0_4 V c t) (xb0_5 V c t) r j
      = prS0 (xa0_0 V c) (xa0_1 V c) (xa0_2 V c) (xa0_3 V c) (xa0_4 V c) (xa0_5 V c) R j := by
  rw [xb0_2_eq V c t, xb0_3_eq V c t, xb0_4_eq V c t, xb0_5_eq V c t]
  exact prS0_congr (xb0_0 V c t) (xb0_1 V c t) (xa0_0 V c) (xa0_1 V c) (xa0_2 V c) (xa0_3 V c) (xa0_4 V c) (xa0_5 V c) r R j
    (fun k => xb0_0_apply V c t r k R hR) (fun k => xb0_1_apply V c t r k R hR)

/-- The block the body stores at point `t`, at row `r` and column `j`. -/
theorem prAt0_apply (c : Dev nD) (t : Fin cfg0.N) (r : Fin 5000) (j : Fin 128) (R : Fin 50000)
    (hR : R.val = 5000 * t.val + r.val) :
    prAt0 V c t (ix2 r j) = prS0 (xa0_0 V c) (xa0_1 V c) (xa0_2 V c) (xa0_3 V c) (xa0_4 V c) (xa0_5 V c) R j := by
  unfold prAt0
  exact (pay5_0_apply (xb0_0 V c t) (xb0_1 V c t) (xb0_2 V c t) (xb0_3 V c t) (xb0_4 V c t) (xb0_5 V c t) r j).trans
    (blk_prS0 V c t r j R hR)

/-! ## The block output: from the blocks to the array -/

/-- What point `t` writes back of the block output is block `t` of the rectified pre-activations of the arrays. -/
theorem flushed0_6_eq (c : Dev nD) (t : Fin cfg0.N) :
    (dat0 V c).flushed 6 t = ((cfg0.win 6).blk t).view.read (Elt Ideal)
      (prG0 (xa0_0 V c) (xa0_1 V c) (xa0_2 V c) (xa0_3 V c) (xa0_4 V c) (xa0_5 V c)) := by
  show (cfg0.win 6).cut (grid0.coords t) ((dat0 V c).after 6 t) = _
  rw [after0_6, outsAt0_pr]
  obtain ⟨-, -, -, -, -, -, -, -, -, -, -, -, e0, e1, -⟩ := idx_facts0 t
  have hN : cfg0.N = 10 := N_0
  have ht : t.val < 10 := hN ▸ t.isLt
  funext y
  have hy0 : (y 0).val < 5000 := (y 0).isLt
  have hy1 : (y 1).val < 128 := (y 1).isLt
  have hy : (cfg0.win 6).xinj (grid0.coords t) y = ix2 (⟨(y 0).val, hy0⟩ : Fin 5000) (⟨(y 1).val, hy1⟩ : Fin 128) :=
    funext fun a => match a with | ⟨0, _⟩ => rfl | ⟨1, _⟩ => rfl
  rw [View.read_apply]
  show prAt0 V c t ((cfg0.win 6).xinj (grid0.coords t) y) = _
  rw [hy]
  refine (prAt0_apply V c t ⟨(y 0).val, hy0⟩ ⟨(y 1).val, hy1⟩ ⟨5000 * t.val + (y 0).val, by omega⟩ rfl).trans ?_
  unfold prG0
  congr 1
  · apply Fin.ext
    show 5000 * t.val + (y 0).val = win0_6.index t (0 : Fin 2) * 5000 + 1 * (y 0).val
    rw [e0]; omega
  · apply Fin.ext
    show (y 1).val = win0_6.index t (1 : Fin 2) * 128 + 1 * (y 1).val
    rw [e1]; omega

/-- An index of the block output array is in point `t`'s block iff each coordinate is in the block's range. -/
theorem mem_blk0_6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- Every index of the block output array lies in the block of the point its row falls in: row r in block r / 5000. -/
theorem cover0_6_arr (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_6 _, ?_⟩
  rw [mem_blk0_6]
  obtain ⟨-, -, -, -, -, -, -, -, -, -, -, -, e0, e1, -⟩ := idx_facts0 ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- THE BLOCK OUTPUT ARRAY after the region: the rectified pre-activations of all rows of the arrays as the region
    finds them. -/
theorem arrAt0_6 (c : Dev nD) : (dat0 V c).arrAt 6 cfg0.N =
    prG0 (xa0_0 V c) (xa0_1 V c) (xa0_2 V c) (xa0_3 V c) (xa0_4 V c) (xa0_5 V c) :=
  (dat0 V c).arrAt_eq_of_cover 6 _ (fun t _ => flushed0_6_eq V c t) cover0_6_arr

/-! ## The two accumulators: after point n, the sums over the first n + 1 row blocks -/

/-- The column sum, at column `j`, of the rectified pre-activations of row block `t` (zero past the grid). -/
noncomputable def part0_1 (c : Dev nD) (j : Fin 128) (t : ℕ) : EReal :=
  if h : t < 10 then ∑ r : Fin 5000, prS0 (xa0_0 V c) (xa0_1 V c) (xa0_2 V c) (xa0_3 V c) (xa0_4 V c) (xa0_5 V c)
    (⟨5000 * t + r.val, by omega⟩ : Fin 50000) j else 0

/-- The column sum of their squares. -/
noncomputable def part0_2 (c : Dev nD) (j : Fin 128) (t : ℕ) : EReal :=
  if h : t < 10 then ∑ r : Fin 5000, prS0 (xa0_0 V c) (xa0_1 V c) (xa0_2 V c) (xa0_3 V c) (xa0_4 V c) (xa0_5 V c)
      (⟨5000 * t + r.val, by omega⟩ : Fin 50000) j
    * prS0 (xa0_0 V c) (xa0_1 V c) (xa0_2 V c) (xa0_3 V c) (xa0_4 V c) (xa0_5 V c)
      (⟨5000 * t + r.val, by omega⟩ : Fin 50000) j else 0

theorem acc0_1_congr (c : Dev nD) (m m' : ℕ) (hm : m < cfg0.N) (hm' : m' < cfg0.N) (e : m = m') :
    acc0_1 V c m hm = acc0_1 V c m' hm' := by subst e; rfl
theorem acc0_2_congr (c : Dev nD) (m m' : ℕ) (hm : m < cfg0.N) (hm' : m' < cfg0.N) (e : m = m') :
    acc0_2 V c m hm = acc0_2 V c m' hm' := by subst e; rfl

/-- The block's column sums at point `t`, over the arrays. -/
theorem blk_sum0_1 (c : Dev nD) (t : Fin cfg0.N) (j : Fin 128) :
    ∑ r : Fin 5000, prS0 (xb0_0 V c t) (xb0_1 V c t) (xb0_2 V c t) (xb0_3 V c t) (xb0_4 V c t) (xb0_5 V c t) r j
      = part0_1 V c j t.val := by
  have hN : cfg0.N = 10 := N_0
  have ht : t.val < 10 := hN ▸ t.isLt
  unfold part0_1
  rw [dif_pos ht]
  exact Finset.sum_congr rfl fun r _ => blk_prS0 V c t r j ⟨5000 * t.val + r.val, by omega⟩ rfl

theorem blk_sum0_2 (c : Dev nD) (t : Fin cfg0.N) (j : Fin 128) :
    ∑ r : Fin 5000, prAt0 V c t (ix2 r j) * prAt0 V c t (ix2 r j) = part0_2 V c j t.val := by
  have hN : cfg0.N = 10 := N_0
  have ht : t.val < 10 := hN ▸ t.isLt
  unfold part0_2
  rw [dif_pos ht]
  exact Finset.sum_congr rfl fun r _ => by rw [prAt0_apply V c t r j ⟨5000 * t.val + r.val, by omega⟩ rfl]

/-- After point `n` the first accumulator holds, at column `j`, the column sums of row blocks `0 … n`. -/
theorem acc0_1_apply (c : Dev nD) : ∀ (n : ℕ) (hn : n < cfg0.N) (z : Fin 1) (j : Fin 128),
    acc0_1 V c n hn (ix2 z j) = ∑ t ∈ Finset.range (n + 1), part0_1 V c j t
  | 0, hn, z, j => by
    refine (congrFun (acc0_1_zero V c ⟨0, hn⟩ rfl) (ix2 z j)).trans ?_
    rw [pay1_0_eq]
    refine (pay6_0_apply (xb0_0 V c ⟨0, hn⟩) (xb0_1 V c ⟨0, hn⟩) (xb0_2 V c ⟨0, hn⟩) (xb0_3 V c ⟨0, hn⟩)
      (xb0_4 V c ⟨0, hn⟩) (xb0_5 V c ⟨0, hn⟩) (k0_pay3 (F := Ideal)) z j).trans ?_
    rw [pay3_0_apply, zero_add, Finset.sum_range_one]
    exact blk_sum0_1 V c ⟨0, hn⟩ j
  | n + 1, hn, z, j => by
    refine (congrFun (acc0_1_pos V c ⟨n + 1, hn⟩ (Nat.succ_ne_zero n)) (ix2 z j)).trans ?_
    rw [pay1_0_eq]
    refine (pay6_0_apply (xb0_0 V c ⟨n + 1, hn⟩) (xb0_1 V c ⟨n + 1, hn⟩) (xb0_2 V c ⟨n + 1, hn⟩) (xb0_3 V c ⟨n + 1, hn⟩)
      (xb0_4 V c ⟨n + 1, hn⟩) (xb0_5 V c ⟨n + 1, hn⟩) _ z j).trans ?_
    rw [Finset.sum_range_succ _ (n + 1), blk_sum0_1 V c ⟨n + 1, hn⟩ j]
    refine congrArg (· + part0_1 V c j (n + 1)) ?_
    exact (congrFun (acc0_1_congr V c (n + 1 - 1) n _ (Nat.lt_of_succ_lt hn) (Nat.add_sub_cancel n 1)) (ix2 z j)).trans
      (acc0_1_apply c n (Nat.lt_of_succ_lt hn) z j)

/-- After point `n` the second accumulator holds the column sums of the squares of row blocks `0 … n`. -/
theorem acc0_2_apply (c : Dev nD) : ∀ (n : ℕ) (hn : n < cfg0.N) (z : Fin 1) (j : Fin 128),
    acc0_2 V c n hn (ix2 z j) = ∑ t ∈ Finset.range (n + 1), part0_2 V c j t
  | 0, hn, z, j => by
    refine (congrFun (acc0_2_zero V c ⟨0, hn⟩ rfl) (ix2 z j)).trans ?_
    refine (pay2_0_apply (prAt0 V c ⟨0, hn⟩) (k0_pay4 (F := Ideal)) z j).trans ?_
    rw [pay4_0_apply, zero_add, Finset.sum_range_one]
    exact blk_sum0_2 V c ⟨0, hn⟩ j
  | n + 1, hn, z, j => by
    refine (congrFun (acc0_2_pos V c ⟨n + 1, hn⟩ (Nat.succ_ne_zero n)) (ix2 z j)).trans ?_
    refine (pay2_0_apply (prAt0 V c ⟨n + 1, hn⟩) _ z j).trans ?_
    rw [Finset.sum_range_succ _ (n + 1), blk_sum0_2 V c ⟨n + 1, hn⟩ j]
    refine congrArg (· + part0_2 V c j (n + 1)) ?_
    exact (congrFun (acc0_2_congr V c (n + 1 - 1) n _ (Nat.lt_of_succ_lt hn) (Nat.add_sub_cancel n 1)) (ix2 z j)).trans
      (acc0_2_apply c n (Nat.lt_of_succ_lt hn) z j)

/-- After the last point the accumulators hold the sums over all 50000 rows. -/
theorem acc0_1_last (c : Dev nD) (t : Fin cfg0.N) (h9 : t.val = 9) (z : Fin 1) (j : Fin 128) :
    acc0_1 V c t.val t.isLt (ix2 z j)
      = ∑ R : Fin 50000, prS0 (xa0_0 V c) (xa0_1 V c) (xa0_2 V c) (xa0_3 V c) (xa0_4 V c) (xa0_5 V c) R j := by
  rw [acc0_1_apply V c t.val t.isLt z j, h9, sum_rows_pr0, Finset.sum_range]
  exact Finset.sum_congr rfl fun t' _ => by unfold part0_1; rw [dif_pos t'.isLt]
theorem acc0_2_last (c : Dev nD) (t : Fin cfg0.N) (h9 : t.val = 9) (z : Fin 1) (j : Fin 128) :
    acc0_2 V c t.val t.isLt (ix2 z j)
      = ∑ R : Fin 50000, prS0 (xa0_0 V c) (xa0_1 V c) (xa0_2 V c) (xa0_3 V c) (xa0_4 V c) (xa0_5 V c) R j
        * prS0 (xa0_0 V c) (xa0_1 V c) (xa0_2 V c) (xa0_3 V c) (xa0_4 V c) (xa0_5 V c) R j := by
  rw [acc0_2_apply V c t.val t.isLt z j, h9,
    sum_rows_pr0 (fun R : Fin 50000 => prS0 (xa0_0 V c) (xa0_1 V c) (xa0_2 V c) (xa0_3 V c) (xa0_4 V c) (xa0_5 V c) R j
      * prS0 (xa0_0 V c) (xa0_1 V c) (xa0_2 V c) (xa0_3 V c) (xa0_4 V c) (xa0_5 V c) R j), Finset.sum_range]
  exact Finset.sum_congr rfl fun t' _ => by unfold part0_2; rw [dif_pos t'.isLt]

/-! ## The two statistics outputs: written back once, after the last point -/

/-- The one write-back of the first statistics window, at the last point, writes the column sums over all rows. -/
theorem flushed0_7_eq (c : Dev nD) (t : Fin cfg0.N) (hf : (cfg0.win 7).flush t = true) :
    (dat0 V c).flushed 7 t = ((cfg0.win 7).blk t).view.read (Elt Ideal)
      (sumG0 (xa0_0 V c) (xa0_1 V c) (xa0_2 V c) (xa0_3 V c) (xa0_4 V c) (xa0_5 V c)) := by
  have hN : cfg0.N = 10 := N_0
  have h9 : t.val = 9 := by have := (flush0_7 t).mp hf; have := t.isLt; omega
  show (cfg0.win 7).cut (grid0.coords t) ((dat0 V c).after 7 t) = _
  rw [after0_7, outsAt0_w7]
  obtain ⟨-, -, -, -, -, -, -, -, -, -, -, -, -, -, e0, e1, -⟩ := idx_facts0 t
  funext y
  have hy0 : (y 0).val < 1 := (y 0).isLt
  have hy1 : (y 1).val < 128 := (y 1).isLt
  have hy : (cfg0.win 7).xinj (grid0.coords t) y = ix2 (⟨(y 0).val, hy0⟩ : Fin 1) (⟨(y 1).val, hy1⟩ : Fin 128) :=
    funext fun a => match a with | ⟨0, _⟩ => rfl | ⟨1, _⟩ => rfl
  rw [View.read_apply]
  show acc0_1 V c t.val t.isLt ((cfg0.win 7).xinj (grid0.coords t) y) = _
  rw [hy]
  refine (acc0_1_last V c t h9 ⟨(y 0).val, hy0⟩ ⟨(y 1).val, hy1⟩).trans (Eq.trans ?_ (cast_eq _ _).symm)
  unfold sumG0
  have hj : (⟨(y 1).val, hy1⟩ : Fin 128)
      = ⟨((((cfg0.win 7).blk t).view.emb y) 1).val, ((((cfg0.win 7).blk t).view.emb y) 1).isLt⟩ := by
    apply Fin.ext
    show (y 1).val = win0_7.index t (1 : Fin 2) * 128 + 1 * (y 1).val
    rw [e1]; omega
  rw [hj]

/-- The one write-back of the second statistics window writes the column sums of the squares. -/
theorem flushed0_8_eq (c : Dev nD) (t : Fin cfg0.N) (hf : (cfg0.win 8).flush t = true) :
    (dat0 V c).flushed 8 t = ((cfg0.win 8).blk t).view.read (Elt Ideal)
      (sqG0 (xa0_0 V c) (xa0_1 V c) (xa0_2 V c) (xa0_3 V c) (xa0_4 V c) (xa0_5 V c)) := by
  have hN : cfg0.N = 10 := N_0
  have h9 : t.val = 9 := by have := (flush0_8 t).mp hf; have := t.isLt; omega
  show (cfg0.win 8).cut (grid0.coords t) ((dat0 V c).after 8 t) = _
  rw [after0_8, outsAt0_w8]
  obtain ⟨-, -, -, -, -, -, -, -, -, -, -, -, -, -, -, -, e0, e1⟩ := idx_facts0 t
  funext y
  have hy0 : (y 0).val < 1 := (y 0).isLt
  have hy1 : (y 1).val < 128 := (y 1).isLt
  have hy : (cfg0.win 8).xinj (grid0.coords t) y = ix2 (⟨(y 0).val, hy0⟩ : Fin 1) (⟨(y 1).val, hy1⟩ : Fin 128) :=
    funext fun a => match a with | ⟨0, _⟩ => rfl | ⟨1, _⟩ => rfl
  rw [View.read_apply]
  show acc0_2 V c t.val t.isLt ((cfg0.win 8).xinj (grid0.coords t) y) = _
  rw [hy]
  refine (acc0_2_last V c t h9 ⟨(y 0).val, hy0⟩ ⟨(y 1).val, hy1⟩).trans (Eq.trans ?_ (cast_eq _ _).symm)
  unfold sqG0
  have hj : (⟨(y 1).val, hy1⟩ : Fin 128)
      = ⟨((((cfg0.win 8).blk t).view.emb y) 1).val, ((((cfg0.win 8).blk t).view.emb y) 1).isLt⟩ := by
    apply Fin.ext
    show (y 1).val = win0_8.index t (1 : Fin 2) * 128 + 1 * (y 1).val
    rw [e1]; omega
  rw [hj]

/-- The last point's one block of a statistics window is the whole [1,128] array. -/
theorem cover0_7_arr (i : S1x128.Idx) :
    ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 10 := N_0
  have h9 : 9 < cfg0.N := by rw [hN]; omega
  refine ⟨⟨9, h9⟩, (flush0_7 _).mpr rfl, ?_⟩
  obtain ⟨-, -, -, -, -, -, -, -, -, -, -, -, -, -, e0, e1, -⟩ := idx_facts0 ⟨9, h9⟩
  show i ∈ ((View.whole (Pipeline.arrRef spec0 7)).slice (win0_7.rect ⟨9, h9⟩)).set
  rw [View.set_slice_whole, Rect.mem_set_unit]
  intro a
  match a with
  | ⟨0, _⟩ =>
    show win0_7.index _ (0 : Fin 2) * 1 ≤ (i 0).val ∧ (i 0).val < win0_7.index _ (0 : Fin 2) * 1 + 1
    rw [e0]; omega
  | ⟨1, _⟩ =>
    show win0_7.index _ (1 : Fin 2) * 128 ≤ (i 1).val ∧ (i 1).val < win0_7.index _ (1 : Fin 2) * 128 + 128
    rw [e1]; omega
theorem cover0_8_arr (i : S1x128.Idx) :
    ∃ t : Fin cfg0.N, (cfg0.win 8).flush t = true ∧ i ∈ ((cfg0.win 8).blk t).view.set := by
  have hi0 : (i 0).val < 1 := (i 0).isLt
  have hi1 : (i 1).val < 128 := (i 1).isLt
  have hN : cfg0.N = 10 := N_0
  have h9 : 9 < cfg0.N := by rw [hN]; omega
  refine ⟨⟨9, h9⟩, (flush0_8 _).mpr rfl, ?_⟩
  obtain ⟨-, -, -, -, -, -, -, -, -, -, -, -, -, -, -, -, e0, e1⟩ := idx_facts0 ⟨9, h9⟩
  show i ∈ ((View.whole (Pipeline.arrRef spec0 8)).slice (win0_8.rect ⟨9, h9⟩)).set
  rw [View.set_slice_whole, Rect.mem_set_unit]
  intro a
  match a with
  | ⟨0, _⟩ =>
    show win0_8.index _ (0 : Fin 2) * 1 ≤ (i 0).val ∧ (i 0).val < win0_8.index _ (0 : Fin 2) * 1 + 1
    rw [e0]; omega
  | ⟨1, _⟩ =>
    show win0_8.index _ (1 : Fin 2) * 128 ≤ (i 1).val ∧ (i 1).val < win0_8.index _ (1 : Fin 2) * 128 + 128
    rw [e1]; omega

/-- THE FIRST STATISTICS ARRAY after the region: the column sums, over all 50000 rows, of the rectified
    pre-activations. -/
theorem arrAt0_7 (c : Dev nD) : (dat0 V c).arrAt 7 cfg0.N =
    sumG0 (xa0_0 V c) (xa0_1 V c) (xa0_2 V c) (xa0_3 V c) (xa0_4 V c) (xa0_5 V c) :=
  (dat0 V c).arrAt_eq_of_cover 7 _ (flushed0_7_eq V c) cover0_7_arr

/-- THE SECOND STATISTICS ARRAY after the region: the column sums of their squares. -/
theorem arrAt0_8 (c : Dev nD) : (dat0 V c).arrAt 8 cfg0.N =
    sqG0 (xa0_0 V c) (xa0_1 V c) (xa0_2 V c) (xa0_3 V c) (xa0_4 V c) (xa0_5 V c) :=
  (dat0 V c).arrAt_eq_of_cover 8 _ (flushed0_8_eq V c) cover0_8_arr

/-- THE INPUT ARRAYS after the region: as entered (an input window is never written back). -/
theorem arrAt0_in (c : Dev nD) (w : Fin cfg0.W) (hw : w.val < 6) : (dat0 V c).arrAt w cfg0.N = V c (Pipeline.arrRef spec0 w) := by
  have hin : (cfg0.win w).isOut = false := by
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => exact absurd hw (by show ¬(6 : ℕ) < 6; omega)
    | ⟨7, _⟩ => exact absurd hw (by show ¬(7 : ℕ) < 6; omega)
    | ⟨8, _⟩ => exact absurd hw (by show ¬(8 : ℕ) < 6; omega)
  exact ((dat0 V c).arrAt_in w hin _).trans (A_eq0 V c w)

end Region0Value

end Cert.KernelIdeal.Gen

end
-- ==== Proof.KI.NormG.lean ====
/- Batch normalisation of an [n,128] array by per-column statistics and affine parameters, as ONE function of whole
   arrays, for any float instance: at (r, j)
       gamma(0,j) * (x(r,j) - mean(0,j)) * rsqrt(var(0,j) + eps) + beta(0,j),
   the four parameters held as [1,128] rows, eps the f32 word 0x3727C5AC, the operations associated as written.
   Independent of the region: every normalisation region of the program computes this function on its own arrays. -/
import Idealize.ShloMosaic.Lib.Pipeline.Value
import Idealize.ShloMosaic.Lib.ValueIdx

noncomputable section

namespace Cert.KernelIdeal.Gen

open Idealize.ShloMosaic Idealize.ShloMosaic.ValueIdx

variable {F : FTy → Type} [FloatOps F]

/-- The index (0, j) of a [1,128] row under column j of an index of an [n,128] array. -/
abbrev rowUnder {n : Nat} (i : (⟨2, ![n, 128]⟩ : Shape).Idx) : (⟨2, ![1, 128]⟩ : Shape).Idx := ix2 (0 : Fin 1) (i 1)

/-- The normalisation of x by the rows mean, var, gamma, beta. -/
def normOf {n : Nat} (x : (⟨2, ![n, 128]⟩ : Shape).Idx → F .f32) (mean var gamma beta : (⟨2, ![1, 128]⟩ : Shape).Idx → F .f32) :
    (⟨2, ![n, 128]⟩ : Shape).Idx → F .f32 := fun i =>
  FloatOps.addf
    (FloatOps.mulf (FloatOps.mulf (gamma (rowUnder i)) (FloatOps.subf (x i) (mean (rowUnder i))))
      (FloatOps.rsqrt (FloatOps.addf (var (rowUnder i)) (Scalar.ofBits .f32 0x3727C5AC#32))))
    (beta (rowUnder i))

/-- Two normalisations agree at two indices when their five operands agree there. -/
theorem normOf_congr {n m : Nat} {x : (⟨2, ![n, 128]⟩ : Shape).Idx → F .f32} {x' : (⟨2, ![m, 128]⟩ : Shape).Idx → F .f32}
    {mean var gamma beta mean' var' gamma' beta' : (⟨2, ![1, 128]⟩ : Shape).Idx → F .f32}
    {i : (⟨2, ![n, 128]⟩ : Shape).Idx} {i' : (⟨2, ![m, 128]⟩ : Shape).Idx}
    (hx : x i = x' i') (hm : mean (rowUnder i) = mean' (rowUnder i')) (hv : var (rowUnder i) = var' (rowUnder i'))
    (hg : gamma (rowUnder i) = gamma' (rowUnder i')) (hb : beta (rowUnder i) = beta' (rowUnder i')) :
    normOf x mean var gamma beta i = normOf x' mean' var' gamma' beta' i' := by
  unfold normOf; rw [hx, hm, hv, hg, hb]

/-- The whole [50000,128] array of normalised pre-activations. -/
abbrev normG (pr : (⟨2, ![50000, 128]⟩ : Shape).Idx → F .f32) (mean var gamma beta : (⟨2, ![1, 128]⟩ : Shape).Idx → F .f32) :
    (⟨2, ![50000, 128]⟩ : Shape).Idx → F .f32 :=
  normOf (n := 50000) pr mean var gamma beta

/-- At the extended reals the normalisation is the textbook expression. -/
theorem normG_apply_ideal (pr : (⟨2, ![50000, 128]⟩ : Shape).Idx → EReal) (mean var gamma beta : (⟨2, ![1, 128]⟩ : Shape).Idx → EReal)
    (i : (⟨2, ![50000, 128]⟩ : Shape).Idx) :
    normG (F := Ideal) pr mean var gamma beta i
      = gamma (ix2 (0 : Fin 1) (i 1)) * (pr i - mean (ix2 (0 : Fin 1) (i 1)))
          * Ideal.rsqrt (var (ix2 (0 : Fin 1) (i 1)) + Ideal.ofBits .f32 0x3727C5AC#32) + beta (ix2 (0 : Fin 1) (i 1)) := rfl

/-- A [1,128] row broadcast along n rows reads, at (r, j), the row's entry (0, j). -/
theorem broadcastTo_row_apply {α : Type} {n : Nat} (v : (⟨2, ![1, 128]⟩ : Shape).Idx → α)
    (h : (⟨2, ![1, 128]⟩ : Shape).Broadcasts ⟨2, ![n, 128]⟩) (j : (⟨2, ![n, 128]⟩ : Shape).Idx) :
    broadcastTo ⟨2, ![n, 128]⟩ v h j = v (rowUnder j) :=
  broadcastTo_apply v h j (rowUnder j) fun a => by
    match a with
    | ⟨0, _⟩ => rfl
    | ⟨1, _⟩ => rfl

/-- A rectangle at offsets (0, 0). -/
theorem zero_off2 : (![0, 0] : Fin 2 → Nat) = fun _ => 0 := funext fun a => by fin_cases a <;> rfl

end Cert.KernelIdeal.Gen

end
-- ==== Proof.KI.R1Value.lean ====
/- What the batch-normalisation region (pipeline 1) leaves in its arrays, as whole-array functions of the contents V
   the region is entered with. The output array [50000,128] ends at the normalised pre-activations
       normG pr mean var gamma beta (r, j) = gamma(0,j) * (pr(r,j) - mean(0,j)) * rsqrt(var(0,j) + eps) + beta(0,j),
   every operation the float instance's own, eps the word 0x3727C5AC: point t writes back rows 5000 t .. 5000 t + 4999,
   which is block t of that one function, and the ten blocks cover the array (row r lies in block r / 5000).
   The five input arrays end as they were entered. -/
import proofs.«421328_j30846455120312_1_alg».proof.Proof.KI.R1
import proofs.«421328_j30846455120312_1_alg».proof.Proof.KI.NormG
import Idealize.ShloMosaic.Lib.Pipeline.Value
import Idealize.ShloMosaic.Lib.ValueIdx

noncomputable section

namespace Cert.KernelIdeal.Gen

open Idealize.ShloMosaic Idealize.ShloMosaic.TcCoe Idealize.SL.Sem
open Idealize.ShloMosaic.Pipeline (Dat)
open Idealize.ShloMosaic.ValueIdx

variable {F : FTy → Type} [FloatOps F]

/-! ## The body's payload, element by element -/

/-- The payload of the body's one store is the normalisation of its loaded tile by its loaded rows. -/
theorem k1_pay1_eq (v0 v5 : Vec F S1x128 .f32) (v7 : Vec F S5000x128 .f32) (v9 v17 : Vec F S1x128 .f32) :
    k1_pay1 v0 v5 v7 v9 v17 = normOf (n := 5000) v7 v9 v0 v5 v17 := by
  funext j
  unfold k1_pay1 normOf
  simp only [shapeCast_self]
  show FloatOps.addf (FloatOps.mulf (FloatOps.mulf (broadcastTo S5000x128 v5 _ j) (FloatOps.subf (v7 j) (broadcastTo S5000x128 v9 _ j)))
      (broadcastTo S5000x128 (rsqrt (addf v0 (broadcast S1x128 (Scalar.ofBits .f32 0x3727C5AC#32)))) _ j)) (broadcastTo S5000x128 v17 _ j) = _
  simp only [broadcastTo_row_apply]
  rfl

/-- So the output block the body leaves is the normalisation of the five input blocks (window order: tile, mean,
    variance, scale, shift). -/
theorem out1_5_eq (x0 : Vec F S5000x128 .f32) (x1 x2 x3 x4 : Vec F S1x128 .f32) :
    out1_5 x0 x1 x2 x3 x4 = normOf (n := 5000) x0 x1 x2 x3 x4 := by
  unfold out1_5
  rw [View.canon_unit_zero zero_off2]
  simp only [View.ld_unit_zero (S := S5000x128) zero_off2, View.ld_unit_zero (S := S1x128) zero_off2]
  exact k1_pay1_eq x2 x3 x0 x1 x4

/-! ## From blocks to the array -/

section Region1
variable (V : (c : Dev nD) → (b : Ref sig .tc) → Buf (Elt F) ((c : Thread nD τ).loc b))

/-- The printed index maps over the grid: the tile windows (0 in, 5 out) are at row block t, column block 0; the four
    row windows stay at block (0, 0). -/
theorem idx_facts1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

set_option maxHeartbeats 1000000 in
/-- What point t writes back is block t of the normalisation of the arrays as the region finds them. -/
theorem flushed1_5_eq (c : Dev nD) (t : Fin cfg1.N) :
    (dat1 V c).flushed 5 t = ((cfg1.win 5).blk t).view.read (Elt F)
      (normG (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5, out1_5_eq]
  obtain ⟨e50, e51, e00, e01, e10, e11, e20, e21, e30, e31, e40, e41⟩ := idx_facts1 t
  refine funext fun (j : S5000x128.Idx) => ?_
  have hj0 : (j 0).val < 5000 := (j 0).isLt
  have hj1 : (j 1).val < 128 := (j 1).isLt
  -- the tile's element and the output's element are the same element of the array
  have h0 : ((cfg1.win 0).blk t).view.emb j = ((cfg1.win 5).blk t).view.emb j := by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * (j 1).val = win1_5.index t (1 : Fin 2) * 128 + 1 * (j 1).val; omega
  -- a row window's element (0, j1) is the row array's element under the output element's column
  have h1 : ((cfg1.win 1).blk t).view.emb (rowUnder j) = rowUnder (n := 50000) (((cfg1.win 5).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have h2 : ((cfg1.win 2).blk t).view.emb (rowUnder j) = rowUnder (n := 50000) (((cfg1.win 5).blk t).view.emb j) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have h3 : ((cfg1.win 3).blk t).view.emb (rowUnder j) = rowUnder (n := 50000) (((cfg1.win 5).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : ((cfg1.win 4).blk t).view.emb (rowUnder j) = rowUnder (n := 50000) (((cfg1.win 5).blk t).view.emb j) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  -- so each operand of the block's normalisation is the array's operand at the output's element
  exact normOf_congr (x := iblk1 V c 0 t) (x' := V c (Pipeline.arrRef spec1 0)) (i := j) (i' := ((cfg1.win 5).blk t).view.emb j)
    (congrArg (V c (Pipeline.arrRef spec1 0)) h0) (congrArg (V c (Pipeline.arrRef spec1 1)) h1)
    (congrArg (V c (Pipeline.arrRef spec1 2)) h2) (congrArg (V c (Pipeline.arrRef spec1 3)) h3)
    (congrArg (V c (Pipeline.arrRef spec1 4)) h4)

/-- An index of the output array is in point t's block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Every index of the output array lies in the block of the point its row falls in: row r in block r / 5000. -/
theorem cover1_5_arr (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk1_5]
  obtain ⟨e50, e51, -⟩ := idx_facts1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- THE OUTPUT ARRAY after the region: the normalisation of the five input arrays as the region finds them. -/
theorem arrAt1_5 (c : Dev nD) : (dat1 V c).arrAt 5 cfg1.N =
    normG (V c (Pipeline.arrRef spec1 0)) (V c (Pipeline.arrRef spec1 1)) (V c (Pipeline.arrRef spec1 2))
      (V c (Pipeline.arrRef spec1 3)) (V c (Pipeline.arrRef spec1 4)) :=
  (dat1 V c).arrAt_eq_of_cover 5 _ (fun t _ => flushed1_5_eq V c t) cover1_5_arr

/-- THE INPUT ARRAYS after the region: as entered. -/
theorem arrAt1_in (c : Dev nD) (w : Fin cfg1.W) (hw : w ≠ 5) : (dat1 V c).arrAt w cfg1.N = V c (Pipeline.arrRef spec1 w) := by
  have hin : (cfg1.win w).isOut = false := by
    match w with
    | ⟨0, _⟩ => rfl
    | ⟨1, _⟩ => rfl
    | ⟨2, _⟩ => rfl
    | ⟨3, _⟩ => rfl
    | ⟨4, _⟩ => rfl
    | ⟨5, _⟩ => exact absurd rfl hw
  exact ((dat1 V c).arrAt_in w hin _).trans (A_eq1 V c w)

end Region1

end Cert.KernelIdeal.Gen

end
-- ==== Proof.MathOneHot.lean ====
/-
  THE SEGMENT SUM AS A ONE-HOT CONTRACTION (extended reals; imports no program).

  The reference sums the rows of a [50000, C] array `h` into 64 segments by an accumulating scatter: row `n` is
  added into row `seg n` of a [64, C] operand, the index `seg n` read as a SIGNED 32-bit word and not clamped, a row
  whose index is negative or at least 64 dropped. At the exact values that scatter holds, at `(g, j)`, the operand there
  plus the sum of the rows landing on `g`. This file shows that this is the contraction of `h` along its row axis with
  the one-hot matrix `[seg n = g]`:

      result (g, j) = operand (g, j) + ∑ n : Fin 50000, (if seg n = word g then 1 else 0) * h (n, j),

  for EVERY `seg`: a dropped row's index is the word of no `g < 64`, so it contributes nothing on either side.

  The road: the scatter's dimension numbers (one index per row along operand axis 0; the update's axis 1 is the window,
  going to operand axis 1) are read at an update index `(n, c)` by four small lemmas (`start0`, `start1`, `window0`,
  `window1`), which give the landing index in closed form (`resultIdx?_seg`: it is `(g, j)` exactly when
  `seg n` read signed is `g` and `c = j`); the filtered sum over update indices then splits by coordinates and
  collapses along the column.

  The statements are over ANY dimension-number record with these four fields, for any column count `C`, so that they
  apply to a program's own record with the four equations closed by `rfl`.

  The contraction has a name, `segSum seg h`, and a second reading: the 50000 rows are 10 tiles of 5000, and the
  contraction is the sum over the tiles of each tile's own contraction (`tileSum`), accumulated tile by tile from zero
  (`segSumUpTo`, `segSumUpTo_ten`). That is the order in which a kernel walking the tiles builds it.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section
open scoped BigOperators
namespace Cert.MathOneHot
open Idealize.ShloMosaic Idealize.ShloMosaic.ValueIdx

variable {C : Nat}

theorem siIdx0 (d : ScatterDims ⟨2, ![64, C]⟩ ⟨2, ![50000, 1]⟩ ⟨2, ![50000, C]⟩)
    (huw : d.updateWindowDims = [1]) (hiw : d.insertedWindowDims = [0])
    (hsd : d.scatterDimsToOperandDims = [0]) (hiv : d.indexVectorDim = 1)
    (n : Fin 50000) (c : Fin C) (k : Fin d.scatterDimsToOperandDims.length) :
    d.siIdx (ix2 n c) k = ix2 n 0 := by
  obtain ⟨uw, iw, sd, iv, wf⟩ := d
  simp only at huw hiw hsd hiv
  subst huw hiw hsd hiv
  funext b
  match b with
  | ⟨0, _⟩ =>
    unfold ScatterDims.siIdx
    simp only
    rw [dif_neg (by decide)]
    unfold ScatterDims.siCoord
    apply Fin.ext
    simp only [Fin.coe_cast]
    rfl
  | ⟨1, _⟩ =>
    unfold ScatterDims.siIdx
    simp only
    rw [dif_pos trivial]
    apply Fin.ext
    have h1 : k.val < 1 := k.isLt
    show k.val = 0
    omega

theorem start0 (d : ScatterDims ⟨2, ![64, C]⟩ ⟨2, ![50000, 1]⟩ ⟨2, ![50000, C]⟩)
    (huw : d.updateWindowDims = [1]) (hiw : d.insertedWindowDims = [0])
    (hsd : d.scatterDimsToOperandDims = [0]) (hiv : d.indexVectorDim = 1)
    (seg : IVec ⟨2, ![50000, 1]⟩ 32) (n : Fin 50000) (c : Fin C) :
    d.start (ix2 n c) seg 0 = (seg (ix2 n 0)).toInt := by
  unfold ScatterDims.start
  have h0 : (0 : Fin 2) ∈ d.scatterDimsToOperandDims := by rw [hsd]; simp
  rw [dif_pos h0, siIdx0 d huw hiw hsd hiv]

theorem start1 (d : ScatterDims ⟨2, ![64, C]⟩ ⟨2, ![50000, 1]⟩ ⟨2, ![50000, C]⟩)
    (hsd : d.scatterDimsToOperandDims = [0])
    (seg : IVec ⟨2, ![50000, 1]⟩ 32) (n : Fin 50000) (c : Fin C) :
    d.start (ix2 n c) seg 1 = 0 := by
  unfold ScatterDims.start
  have h0 : ¬ (1 : Fin 2) ∈ d.scatterDimsToOperandDims := by rw [hsd]; simp
  rw [dif_neg h0]

theorem window0 (d : ScatterDims ⟨2, ![64, C]⟩ ⟨2, ![50000, 1]⟩ ⟨2, ![50000, C]⟩)
    (hiw : d.insertedWindowDims = [0])
    (n : Fin 50000) (c : Fin C) :
    d.window (ix2 n c) 0 = 0 := by
  unfold ScatterDims.window
  have h0 : ¬ (0 : Fin 2) ∈ d.sKept := by
    show ¬ (0 : Fin 2) ∈ Shape.kept _ d.insertedWindowDims
    rw [hiw]
    show ¬ (0 : Fin 2) ∈ ([1] : List (Fin 2))
    decide
  rw [dif_neg h0]

theorem window1 (d : ScatterDims ⟨2, ![64, C]⟩ ⟨2, ![50000, 1]⟩ ⟨2, ![50000, C]⟩)
    (huw : d.updateWindowDims = [1]) (hiw : d.insertedWindowDims = [0])
    (n : Fin 50000) (c : Fin C) :
    d.window (ix2 n c) 1 = c.val := by
  obtain ⟨uw, iw, sd, iv, wf⟩ := d
  simp only at huw hiw
  subst huw hiw
  unfold ScatterDims.window
  simp only [ScatterDims.sKept]
  split
  · rfl
  · rename_i h
    exact absurd (show (1 : Fin 2) ∈ ([1] : List (Fin 2)) from List.mem_singleton.2 rfl) h

/-- A 32-bit word read signed is the small natural `g` exactly when it is the word of `g`. -/
theorem toInt_eq_natCast_iff (w : BitVec 32) (g : Nat) (hg : g < 64) : w.toInt = (g : Int) ↔ w = BitVec.ofNat 32 g := by
  have hw := w.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

/-- The landing index of update `(n, c)`: row `seg n` read signed, column `c`, when the row is inside `[0, 64)`. -/
theorem resultIdx?_seg (d : ScatterDims ⟨2, ![64, C]⟩ ⟨2, ![50000, 1]⟩ ⟨2, ![50000, C]⟩)
    (huw : d.updateWindowDims = [1]) (hiw : d.insertedWindowDims = [0])
    (hsd : d.scatterDimsToOperandDims = [0]) (hiv : d.indexVectorDim = 1)
    (seg : IVec ⟨2, ![50000, 1]⟩ 32) (n : Fin 50000) (c : Fin C) (g : Fin 64) (j : Fin C) :
    d.resultIdx? (ix2 n c) seg = some (ix2 g j) ↔ (seg (ix2 n 0)).toInt = (g.val : Int) ∧ c = j := by
  unfold ScatterDims.resultIdx?
  have hs0 := start0 d huw hiw hsd hiv seg n c
  have hs1 := start1 d hsd seg n c
  have hw0 := window0 d hiw n c
  have hw1 := window1 d huw hiw n c
  have hg := g.isLt
  have hc := c.isLt
  split
  · rename_i h
    rw [Option.some.injEq]
    have h0 := h 0
    rw [hs0, hw0] at h0
    constructor
    · intro e
      have e0 : (d.start (ix2 n c) seg 0 + ↑(d.window (ix2 n c) 0)).toNat = g.val := congrArg (fun f => (f 0).val) e
      have e1 : (d.start (ix2 n c) seg 1 + ↑(d.window (ix2 n c) 1)).toNat = j.val := congrArg (fun f => (f 1).val) e
      rw [hs0, hw0] at e0
      rw [hs1, hw1] at e1
      refine ⟨by omega, Fin.ext (by omega)⟩
    · rintro ⟨e0, rfl⟩
      funext a
      match a with
      | ⟨0, _⟩ =>
        apply Fin.ext
        show (d.start (ix2 n c) seg 0 + ↑(d.window (ix2 n c) 0)).toNat = g.val
        rw [hs0, hw0]; omega
      | ⟨1, _⟩ =>
        apply Fin.ext
        show (d.start (ix2 n c) seg 1 + ↑(d.window (ix2 n c) 1)).toNat = c.val
        rw [hs1, hw1]; omega
  · rename_i h
    constructor
    · intro e; cases e
    · rintro ⟨e0, rfl⟩
      exfalso
      apply h
      intro a
      match a with
      | ⟨0, _⟩ =>
        show 0 ≤ d.start (ix2 n c) seg 0 + ↑(d.window (ix2 n c) 0) ∧ d.start (ix2 n c) seg 0 + ↑(d.window (ix2 n c) 0) < ((64 : Nat) : Int)
        rw [hs0, hw0]; omega
      | ⟨1, _⟩ =>
        show 0 ≤ d.start (ix2 n c) seg 1 + ↑(d.window (ix2 n c) 1) ∧ d.start (ix2 n c) seg 1 + ↑(d.window (ix2 n c) 1) < ((C : Nat) : Int)
        rw [hs1, hw1]; omega

/-- A one-hot factor times a value is the value where the factor is one and zero elsewhere. -/
theorem ite_one_zero_mul (p : Prop) [Decidable p] (x : EReal) : (if p then (1 : EReal) else 0) * x = if p then x else 0 := by
  split
  · rw [one_mul]
  · rw [zero_mul]

/-- THE SEGMENT SUM AS A ONE-HOT CONTRACTION. The host's accumulating scatter of the rows of `h` (50000 rows of `C`
    columns) into a 64-row operand at the row indices `seg` (one signed index per row, not clamped: a row whose index
    is negative or 64 or more is dropped) holds at `(g, j)` the operand there plus the sum over all rows `n` of
    `[seg n = g] · h (n, j)`. For every `seg`: a dropped row's index is the word of no `g` below 64. -/
theorem hostScatterAdd_segment (d : ScatterDims ⟨2, ![64, C]⟩ ⟨2, ![50000, 1]⟩ ⟨2, ![50000, C]⟩)
    (huw : d.updateWindowDims = [1]) (hiw : d.insertedWindowDims = [0])
    (hsd : d.scatterDimsToOperandDims = [0]) (hiv : d.indexVectorDim = 1)
    (x : (⟨2, ![64, C]⟩ : Shape).Idx → EReal) (seg : IVec ⟨2, ![50000, 1]⟩ 32)
    (h : (⟨2, ![50000, C]⟩ : Shape).Idx → EReal) (g : Fin 64) (j : Fin C) :
    Ideal.hostScatterAdd d x seg h (ix2 g j) =
      x (ix2 g j) + ∑ n : Fin 50000, (if seg (ix2 n 0) = BitVec.ofNat 32 g.val then (1 : EReal) else 0) * h (ix2 n j) := by
  unfold Ideal.hostScatterAdd
  refine congrArg (x (ix2 g j) + ·) ?_
  rw [Finset.sum_filter, sum_idx2]
  refine Finset.sum_congr rfl fun n _ => ?_
  rw [ite_one_zero_mul]
  simp only [resultIdx?_seg d huw hiw hsd hiv seg n _ g j, toInt_eq_natCast_iff _ _ g.isLt]
  by_cases hp : seg (ix2 n 0) = BitVec.ofNat 32 g.val
  · simp only [hp, true_and, if_true]
    rw [Finset.sum_ite_eq']
    simp only [Finset.mem_univ, if_true]
  · simp only [hp, false_and, if_false, Finset.sum_const_zero]

/-- The same into the zero operand the reference scatters into: the one-hot contraction alone. -/
theorem hostScatterAdd_segment_zero (d : ScatterDims ⟨2, ![64, C]⟩ ⟨2, ![50000, 1]⟩ ⟨2, ![50000, C]⟩)
    (huw : d.updateWindowDims = [1]) (hiw : d.insertedWindowDims = [0])
    (hsd : d.scatterDimsToOperandDims = [0]) (hiv : d.indexVectorDim = 1)
    (seg : IVec ⟨2, ![50000, 1]⟩ 32)
    (h : (⟨2, ![50000, C]⟩ : Shape).Idx → EReal) (g : Fin 64) (j : Fin C) :
    Ideal.hostScatterAdd d (fun _ => 0) seg h (ix2 g j) =
      ∑ n : Fin 50000, (if seg (ix2 n 0) = BitVec.ofNat 32 g.val then (1 : EReal) else 0) * h (ix2 n j) := by
  rw [hostScatterAdd_segment d huw hiw hsd hiv, zero_add]

/-- The counts: scattering a column of ones counts the rows of each segment. -/
theorem hostScatterAdd_segment_ones (d : ScatterDims ⟨2, ![64, C]⟩ ⟨2, ![50000, 1]⟩ ⟨2, ![50000, C]⟩)
    (huw : d.updateWindowDims = [1]) (hiw : d.insertedWindowDims = [0])
    (hsd : d.scatterDimsToOperandDims = [0]) (hiv : d.indexVectorDim = 1)
    (seg : IVec ⟨2, ![50000, 1]⟩ 32) (g : Fin 64) (j : Fin C) :
    Ideal.hostScatterAdd d (fun _ => 0) seg (fun _ => 1) (ix2 g j) =
      ∑ n : Fin 50000, (if seg (ix2 n 0) = BitVec.ofNat 32 g.val then (1 : EReal) else 0) := by
  rw [hostScatterAdd_segment_zero d huw hiw hsd hiv]
  exact Finset.sum_congr rfl fun n _ => mul_one _

/-! ## The contraction by name, and tile by tile -/

/-- THE SEGMENT SUMS of a [50000, C] array `h` under the row indices `seg`: at `(g, j)`, the sum over the rows `n` of
    `[seg n = g] · h (n, j)`. -/
def segSum (seg : IVec ⟨2, ![50000, 1]⟩ 32) (h : (⟨2, ![50000, C]⟩ : Shape).Idx → EReal) :
    (⟨2, ![64, C]⟩ : Shape).Idx → EReal :=
  fun i => ∑ n : Fin 50000, (if seg (ix2 n 0) = BitVec.ofNat 32 (i 0).val then (1 : EReal) else 0) * h (ix2 n (i 1))

theorem segSum_apply (seg : IVec ⟨2, ![50000, 1]⟩ 32) (h : (⟨2, ![50000, C]⟩ : Shape).Idx → EReal) (g : Fin 64) (j : Fin C) :
    segSum seg h (ix2 g j) = ∑ n : Fin 50000, (if seg (ix2 n 0) = BitVec.ofNat 32 g.val then (1 : EReal) else 0) * h (ix2 n j) := rfl

/-- The reference's scatter into zeros IS the segment sums, as whole arrays. -/
theorem hostScatterAdd_zero_eq_segSum (d : ScatterDims ⟨2, ![64, C]⟩ ⟨2, ![50000, 1]⟩ ⟨2, ![50000, C]⟩)
    (huw : d.updateWindowDims = [1]) (hiw : d.insertedWindowDims = [0])
    (hsd : d.scatterDimsToOperandDims = [0]) (hiv : d.indexVectorDim = 1)
    (seg : IVec ⟨2, ![50000, 1]⟩ 32) (h : (⟨2, ![50000, C]⟩ : Shape).Idx → EReal) :
    Ideal.hostScatterAdd d (fun _ => 0) seg h = segSum seg h := by
  funext i
  obtain ⟨g, j, rfl⟩ : ∃ g j, i = ix2 g j := ⟨i 0, i 1, eq_ix2 i⟩
  exact hostScatterAdd_segment_zero d huw hiw hsd hiv seg h g j

/-- Row `r` of tile `t` is row `5000 t + r` of the array. -/
def tileRow (t : Nat) (ht : t < 10) (r : Fin 5000) : Fin 50000 := ⟨5000 * t + r.val, by have := r.isLt; omega⟩

/-- Tile `t`'s own contraction: the sum over its 5000 rows. -/
def tileSum (seg : IVec ⟨2, ![50000, 1]⟩ 32) (h : (⟨2, ![50000, C]⟩ : Shape).Idx → EReal) (t : Nat) (ht : t < 10) :
    (⟨2, ![64, C]⟩ : Shape).Idx → EReal :=
  fun i => ∑ r : Fin 5000, (if seg (ix2 (tileRow t ht r) 0) = BitVec.ofNat 32 (i 0).val then (1 : EReal) else 0) * h (ix2 (tileRow t ht r) (i 1))

/-- The contraction over the first `k` tiles, accumulated from zero one tile at a time. -/
def segSumUpTo (seg : IVec ⟨2, ![50000, 1]⟩ 32) (h : (⟨2, ![50000, C]⟩ : Shape).Idx → EReal) :
    (k : Nat) → k ≤ 10 → (⟨2, ![64, C]⟩ : Shape).Idx → EReal
  | 0, _ => fun _ => 0
  | k + 1, hk => fun i => segSumUpTo seg h k (Nat.le_of_succ_le hk) i + tileSum seg h k hk i

theorem segSumUpTo_zero (seg : IVec ⟨2, ![50000, 1]⟩ 32) (h : (⟨2, ![50000, C]⟩ : Shape).Idx → EReal) (h0 : 0 ≤ 10)
    (i : (⟨2, ![64, C]⟩ : Shape).Idx) : segSumUpTo seg h 0 h0 i = 0 := rfl

theorem segSumUpTo_succ (seg : IVec ⟨2, ![50000, 1]⟩ 32) (h : (⟨2, ![50000, C]⟩ : Shape).Idx → EReal) (k : Nat) (hk : k + 1 ≤ 10)
    (i : (⟨2, ![64, C]⟩ : Shape).Idx) :
    segSumUpTo seg h (k + 1) hk i = segSumUpTo seg h k (Nat.le_of_succ_le hk) i + tileSum seg h k hk i := rfl

/-- A sum over the 50000 rows is the sum over the 10 tiles of the sums over each tile's 5000 rows. -/
theorem sum_rows_eq_sum_tiles {M : Type*} [AddCommMonoid M] (f : Fin 50000 → M) :
    ∑ n : Fin 50000, f n = ∑ t : Fin 10, ∑ r : Fin 5000, f (tileRow t.val t.isLt r) := by
  rw [← Equiv.sum_comp (finProdFinEquiv (m := 10) (n := 5000)) f, Fintype.sum_prod_type]
  refine Finset.sum_congr rfl fun t _ => Finset.sum_congr rfl fun r _ => congrArg f (Fin.ext ?_)
  show r.val + 5000 * t.val = 5000 * t.val + r.val
  omega

/-- The accumulation over the first `k` tiles is the sum of their contractions. -/
theorem segSumUpTo_eq_sum (seg : IVec ⟨2, ![50000, 1]⟩ 32) (h : (⟨2, ![50000, C]⟩ : Shape).Idx → EReal)
    (i : (⟨2, ![64, C]⟩ : Shape).Idx) :
    ∀ (k : Nat) (hk : k ≤ 10), segSumUpTo seg h k hk i = ∑ t : Fin k, tileSum seg h t.val (Nat.lt_of_lt_of_le t.isLt hk) i
  | 0, _ => by rw [segSumUpTo_zero]; exact (Finset.sum_empty).symm
  | k + 1, hk => by
    rw [segSumUpTo_succ, segSumUpTo_eq_sum seg h i k (Nat.le_of_succ_le hk), Fin.sum_univ_castSucc]
    rfl

/-- After all ten tiles the accumulation is the segment sums. -/
theorem segSumUpTo_ten (seg : IVec ⟨2, ![50000, 1]⟩ 32) (h : (⟨2, ![50000, C]⟩ : Shape).Idx → EReal) (h10 : 10 ≤ 10) :
    segSumUpTo seg h 10 h10 = segSum seg h := by
  funext i
  rw [segSumUpTo_eq_sum seg h i 10 h10]
  unfold segSum
  rw [sum_rows_eq_sum_tiles]
  rfl

end Cert.MathOneHot
-- ==== Proof.KI.R24Value.lean ====
/- What the readout region (pipeline 24) leaves in its arrays, at the exact values, as whole-array functions of the
   contents V the region is entered with.

   The region walks the 50000 node rows in 10 tiles of 5000. Its inputs are the [50000,1] column of segment words and
   four [50000,128] feature arrays; its outputs are four [64,128] arrays and one [64,1] array. At each tile the body
   forms the one-hot block  onehot (r, g) = [seg r = word g]  (a word comparison widened to 0 / 1, converted exactly,
   the format change the identity) and adds to each of five accumulators the contraction of that block along the
   5000 rows with the tile of one feature array, or, for the fifth, with a column of ones; the accumulators start from
   zero at the first tile and are copied to the outputs at the last. So, after the region,

       output k (g, j) = ∑ n : Fin 50000, [seg n = word g] · feature k (n, j)        (k = 1 … 4)
       counts   (g, 0) = ∑ n : Fin 50000, [seg n = word g] · 1,

   the segment sums `Cert.MathOneHot.segSum`. The proof: each payload read at an index (the contraction by the
   one-axis re-indexing of its sum); a tile's block read through its window is the array at row 5000 t + r; the
   accumulator after tile n is the accumulation over the first n + 1 tiles, by induction on the tile; the one write-back,
   at the last tile, covers each output array. The five input arrays end as they were entered. -/
import proofs.«421328_j30846455120312_1_alg».proof.Proof.KI.R24
import proofs.«421328_j30846455120312_1_alg».proof.Proof.MathOneHot
import Idealize.ShloMosaic.Lib.Pipeline.Value
import Idealize.ShloMosaic.Lib.ValueIdx
import Idealize.ShloMosaic.Lib.IdealHost
import Idealize.ShloMosaic.PureOps.Ideal.Laws

-- deciding the index maps over the ten tiles, and unifying blocks of 5000 rows with their literal shapes, recurse deeply
set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx
open Cert.MathOneHot
open scoped BigOperators

/-! ## The body's payloads, element by element -/

/-- The comparison bit of two words, widened and read as a signed integer, is 1 where they are equal and 0 elsewhere. -/
theorem onehot_word24 (a b : BitVec 32) :
    ((((IntOp.cmpi .eq a b).setWidth 32).toInt : ℝ) : EReal) = if a = b then 1 else 0 := by
  by_cases h : a = b
  · subst h
    simp [IntOp.cmpi]
  · have hb : (a == b) = false := beq_eq_false_iff_ne.mpr h
    simp [IntOp.cmpi, hb, h]

/-- The one-hot block of the body at the exact values: at (r, g) it is 1 where row r's segment word is the word of g. -/
theorem k24_pay9_apply (v3 : Vec Ideal S5000x1 .i32) (r : Fin 5000) (g : Fin 64) :
    k24_pay9 (F := Ideal) v3 (ix2 r g) = if v3 (ix2 r 0) = BitVec.ofNat 32 g.val then (1 : EReal) else 0 := by
  unfold k24_pay9
  simp only [shapeCast_self]
  show ((((IntOp.cmpi .eq (broadcastTo S5000x64 v3 broadcasts_S5000x1_S5000x64 (ix2 r g))
      (iota .tc S5000x64 32 [1] iota_S5000x64_d1_w32 (ix2 r g))).setWidth 32).toInt : ℝ) : EReal) = _
  rw [broadcastTo_apply v3 broadcasts_S5000x1_S5000x64 (ix2 r g) (ix2 r 0) (fun a => by
    match a with
    | ⟨0, _⟩ => rfl
    | ⟨1, _⟩ => rfl), iota_single_apply, onehot_word24]

/-- The column of ones the counts contract with, at the exact values. -/
theorem k24_pay10_apply (i : S5000x1.Idx) : k24_pay10 (F := Ideal) i = (1 : EReal) := by
  unfold k24_pay10
  exact Ideal.ofBits_one_bf16

/-! ## The contraction along the rows -/

theorem lhs24a_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs24a_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide),
    dif_pos (show (1 : Fin S5000x64.rank) ∈ dot_S5000x64_S5000x128_S64x128_0_0_1_1_n_n.lhsNonContracting by decide)]
  rfl
theorem rhs24a_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs24a_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide),
    dif_pos (show (1 : Fin S5000x128.rank) ∈ dot_S5000x64_S5000x128_S64x128_0_0_1_1_n_n.rhsNonContracting by decide)]
  rfl

/-- The feature contraction into the zero accumulator, at (g, j): the sum over the 5000 rows of left (r, g) times
    right (r, j). -/
theorem matmul24a_apply (L : FVec Ideal S5000x64 .bf16) (R : FVec Ideal S5000x128 .bf16) (g : Fin 64) (j : Fin 128) :
    matmul dot_S5000x64_S5000x128_S64x128_0_0_1_1_n_n none L R (constant S64x128 .f32 0x00000000#32) (ix2 g j)
      = ∑ r : Fin 5000, L (ix2 r g) * R (ix2 r j) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g j)
      ((contrEquiv1 dot_S5000x64_S5000x128_S64x128_0_0_1_1_n_n 5000 rfl rfl).symm k) = ix2 k g := funext fun a => Fin.ext (by
    match a with
    | ⟨0, _⟩ => exact (lhs24a_0 _ _).trans hk
    | ⟨1, _⟩ => exact lhs24a_1 _ _)
  have er : dot_S5000x64_S5000x128_S64x128_0_0_1_1_n_n.rhsIdx (ix2 g j)
      ((contrEquiv1 dot_S5000x64_S5000x128_S64x128_0_0_1_1_n_n 5000 rfl rfl).symm k) = ix2 k j := funext fun a => Fin.ext (by
    match a with
    | ⟨0, _⟩ => exact (rhs24a_0 _ _).trans hk
    | ⟨1, _⟩ => exact rhs24a_1 _ _)
  rw [el, er]

/-- One point's contribution to a feature accumulator, at the exact values: the accumulator plus the contraction of
    the one-hot block with the feature block along the 5000 rows. -/
theorem k24_pay11_apply (v3 : Vec Ideal S5000x1 .i32) (v12 : Vec Ideal S64x128 .f32) (v13 : Vec Ideal S5000x128 .f32)
    (g : Fin 64) (j : Fin 128) :
    k24_pay11 (F := Ideal) v3 v12 v13 (ix2 g j) =
      v12 (ix2 g j) + ∑ r : Fin 5000, (if v3 (ix2 r 0) = BitVec.ofNat 32 g.val then (1 : EReal) else 0) * v13 (ix2 r j) := by
  unfold k24_pay11
  simp only [shapeCast_self]
  show v12 (ix2 g j) + matmul dot_S5000x64_S5000x128_S64x128_0_0_1_1_n_n none (k24_pay9 (F := Ideal) v3)
      (truncf .bf16 v13 bitsLt_bf16_f32) (constant S64x128 .f32 0x00000000#32) (ix2 g j) = _
  rw [matmul24a_apply]
  refine congrArg (v12 (ix2 g j) + ·) (Finset.sum_congr rfl fun r _ => ?_)
  rw [k24_pay9_apply]
  rfl

theorem k24_pay12_apply (v3 : Vec Ideal S5000x1 .i32) (v21 : Vec Ideal S64x128 .f32) (v22 : Vec Ideal S5000x128 .f32)
    (g : Fin 64) (j : Fin 128) :
    k24_pay12 (F := Ideal) v3 v21 v22 (ix2 g j) =
      v21 (ix2 g j) + ∑ r : Fin 5000, (if v3 (ix2 r 0) = BitVec.ofNat 32 g.val then (1 : EReal) else 0) * v22 (ix2 r j) := by
  unfold k24_pay12
  simp only [shapeCast_self]
  show v21 (ix2 g j) + matmul dot_S5000x64_S5000x128_S64x128_0_0_1_1_n_n none (k24_pay9 (F := Ideal) v3)
      (truncf .bf16 v22 bitsLt_bf16_f32) (constant S64x128 .f32 0x00000000#32) (ix2 g j) = _
  rw [matmul24a_apply]
  refine congrArg (v21 (ix2 g j) + ·) (Finset.sum_congr rfl fun r _ => ?_)
  rw [k24_pay9_apply]
  rfl

theorem k24_pay1_apply (v3 : Vec Ideal S5000x1 .i32) (v30 : Vec Ideal S64x128 .f32) (v31 : Vec Ideal S5000x128 .f32)
    (g : Fin 64) (j : Fin 128) :
    k24_pay1 (F := Ideal) (k24_pay9 v3) v30 (k24_pay13 v31) (ix2 g j) =
      v30 (ix2 g j) + ∑ r : Fin 5000, (if v3 (ix2 r 0) = BitVec.ofNat 32 g.val then (1 : EReal) else 0) * v31 (ix2 r j) := by
  unfold k24_pay1 k24_pay13
  simp only [shapeCast_self]
  show v30 (ix2 g j) + matmul dot_S5000x64_S5000x128_S64x128_0_0_1_1_n_n none (k24_pay9 (F := Ideal) v3)
      (truncf .bf16 v31 bitsLt_bf16_f32) (constant S64x128 .f32 0x00000000#32) (ix2 g j) = _
  rw [matmul24a_apply]
  refine congrArg (v30 (ix2 g j) + ·) (Finset.sum_congr rfl fun r _ => ?_)
  rw [k24_pay9_apply]
  rfl

theorem k24_pay2_apply (v3 : Vec Ideal S5000x1 .i32) (v39 : Vec Ideal S64x128 .f32) (v40 : Vec Ideal S5000x128 .f32)
    (g : Fin 64) (j : Fin 128) :
    k24_pay2 (F := Ideal) (k24_pay9 v3) v39 v40 (ix2 g j) =
      v39 (ix2 g j) + ∑ r : Fin 5000, (if v3 (ix2 r 0) = BitVec.ofNat 32 g.val then (1 : EReal) else 0) * v40 (ix2 r j) := by
  unfold k24_pay2
  simp only [shapeCast_self]
  show v39 (ix2 g j) + matmul dot_S5000x64_S5000x128_S64x128_0_0_1_1_n_n none (k24_pay9 (F := Ideal) v3)
      (truncf .bf16 v40 bitsLt_bf16_f32) (constant S64x128 .f32 0x00000000#32) (ix2 g j) = _
  rw [matmul24a_apply]
  refine congrArg (v39 (ix2 g j) + ·) (Finset.sum_congr rfl fun r _ => ?_)
  rw [k24_pay9_apply]
  rfl

/-! The counts contract the one-hot block with a column of ones: [5000,64] with [5000,1] along the rows into [64,1]. -/

theorem lhs24b_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhs24b_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide),
    dif_pos (show (1 : Fin S5000x64.rank) ∈ dot_S5000x64_S5000x1_S64x1_0_0_1_1_n_n.lhsNonContracting by decide)]
  rfl
theorem rhs24b_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem rhs24b_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide),
    dif_pos (show (1 : Fin S5000x1.rank) ∈ dot_S5000x64_S5000x1_S64x1_0_0_1_1_n_n.rhsNonContracting by decide)]
  rfl

theorem matmul24b_apply (L : FVec Ideal S5000x64 .bf16) (R : FVec Ideal S5000x1 .bf16) (g : Fin 64) (j : Fin 1) :
    matmul dot_S5000x64_S5000x1_S64x1_0_0_1_1_n_n none L R (constant S64x1 .f32 0x00000000#32) (ix2 g j)
      = ∑ r : Fin 5000, L (ix2 r g) * R (ix2 r j) := by
  simp only [matmul]
  rw [Ideal.matmul_constant_zero_apply, ← Equiv.sum_comp (contrEquiv1 dot_S5000x64_S5000x1_S64x1_0_0_1_1_n_n 5000 rfl rfl).symm]
  refine Finset.sum_congr rfl fun k _ => ?_
  have hk := contrEquiv1_symm_val dot_S5000x64_S5000x1_S64x1_0_0_1_1_n_n 5000 rfl rfl k
  have el : dot_S5000x64_S5000x1_S64x1_0_0_1_1_n_n.lhsIdx (ix2 g j)
      ((contrEquiv1 dot_S5000x64_S5000x1_S64x1_0_0_1_1_n_n 5000 rfl rfl).symm k) = ix2 k g := funext fun a => Fin.ext (by
    match a with
    | ⟨0, _⟩ => exact (lhs24b_0 _ _).trans hk
    | ⟨1, _⟩ => exact lhs24b_1 _ _)
  have er : dot_S5000x64_S5000x1_S64x1_0_0_1_1_n_n.rhsIdx (ix2 g j)
      ((contrEquiv1 dot_S5000x64_S5000x1_S64x1_0_0_1_1_n_n 5000 rfl rfl).symm k) = ix2 k j := funext fun a => Fin.ext (by
    match a with
    | ⟨0, _⟩ => exact (rhs24b_0 _ _).trans hk
    | ⟨1, _⟩ => exact rhs24b_1 _ _)
  rw [el, er]

theorem k24_pay3_apply (v3 : Vec Ideal S5000x1 .i32) (v48 : Vec Ideal S64x1 .f32) (g : Fin 64) (j : Fin 1) :
    k24_pay3 (F := Ideal) (k24_pay9 v3) k24_pay10 v48 (ix2 g j) =
      v48 (ix2 g j) + ∑ r : Fin 5000, (if v3 (ix2 r 0) = BitVec.ofNat 32 g.val then (1 : EReal) else 0) * 1 := by
  unfold k24_pay3
  simp only [shapeCast_self]
  show v48 (ix2 g j) + matmul dot_S5000x64_S5000x1_S64x1_0_0_1_1_n_n none (k24_pay9 (F := Ideal) v3)
      (k24_pay10 (F := Ideal)) (constant S64x1 .f32 0x00000000#32) (ix2 g j) = _
  rw [matmul24b_apply]
  refine congrArg (v48 (ix2 g j) + ·) (Finset.sum_congr rfl fun r _ => ?_)
  rw [k24_pay9_apply, k24_pay10_apply]

/-! The blocks the accumulators start from are zero. -/

theorem k24_pay4_apply (i : S64x128.Idx) : k24_pay4 (F := Ideal) i = 0 := by
  unfold k24_pay4; simp only [shapeCast_self]; exact Ideal.ofBits_zero_f32
theorem k24_pay5_apply (i : S64x128.Idx) : k24_pay5 (F := Ideal) i = 0 := by
  unfold k24_pay5; simp only [shapeCast_self]; exact Ideal.ofBits_zero_f32
theorem k24_pay6_apply (i : S64x128.Idx) : k24_pay6 (F := Ideal) i = 0 := by
  unfold k24_pay6; simp only [shapeCast_self]; exact Ideal.ofBits_zero_f32
theorem k24_pay7_apply (i : S64x128.Idx) : k24_pay7 (F := Ideal) i = 0 := by
  unfold k24_pay7; simp only [shapeCast_self]; exact Ideal.ofBits_zero_f32
theorem k24_pay8_apply (i : S64x1.Idx) : k24_pay8 (F := Ideal) i = 0 := by
  unfold k24_pay8; simp only [shapeCast_self]; exact Ideal.ofBits_zero_f32

/-! ## From blocks to the arrays -/

section Region24
-- the TensorCore's buffer contents when the region is entered, at the exact values
variable (V : (c : Dev nD) → (b : Ref sig .tc) → Buf (Elt Ideal) ((c : Thread nD τ).loc b))

/-- The segment words, one per node row, -/
noncomputable abbrev seg24 (c : Dev nD) : Vec Ideal S50000x1 .i32 := V c (Pipeline.arrRef spec24 0)
/-- and the four feature arrays, as the region finds them. -/
noncomputable abbrev feat24_1 (c : Dev nD) : Vec Ideal S50000x128 .f32 := V c (Pipeline.arrRef spec24 1)
noncomputable abbrev feat24_2 (c : Dev nD) : Vec Ideal S50000x128 .f32 := V c (Pipeline.arrRef spec24 2)
noncomputable abbrev feat24_3 (c : Dev nD) : Vec Ideal S50000x128 .f32 := V c (Pipeline.arrRef spec24 3)
noncomputable abbrev feat24_4 (c : Dev nD) : Vec Ideal S50000x128 .f32 := V c (Pipeline.arrRef spec24 4)
/-- The column of ones the counts contract with. -/
abbrev ones24 : S50000x1.Idx → EReal := fun _ => 1

/-- A point of the grid is one of the ten tiles. -/
theorem lt10_24 (t : Fin cfg24.N) : t.val < 10 := by
  have hN : cfg24.N = 10 := N_24
  have h := t.isLt
  omega

/-- The printed index maps over the grid: the five input windows are at row block t, column block 0; the five output
    windows stay at block (0, 0). -/
theorem idx_facts24 : ∀ t : Fin cfg24.N,
    win24_0.index t (0 : Fin 2) = t.val ∧ win24_0.index t (1 : Fin 2) = 0
    ∧ win24_1.index t (0 : Fin 2) = t.val ∧ win24_1.index t (1 : Fin 2) = 0
    ∧ win24_2.index t (0 : Fin 2) = t.val ∧ win24_2.index t (1 : Fin 2) = 0
    ∧ win24_3.index t (0 : Fin 2) = t.val ∧ win24_3.index t (1 : Fin 2) = 0
    ∧ win24_4.index t (0 : Fin 2) = t.val ∧ win24_4.index t (1 : Fin 2) = 0
    ∧ win24_5.index t (0 : Fin 2) = 0 ∧ win24_5.index t (1 : Fin 2) = 0
    ∧ win24_6.index t (0 : Fin 2) = 0 ∧ win24_6.index t (1 : Fin 2) = 0
    ∧ win24_7.index t (0 : Fin 2) = 0 ∧ win24_7.index t (1 : Fin 2) = 0
    ∧ win24_8.index t (0 : Fin 2) = 0 ∧ win24_8.index t (1 : Fin 2) = 0
    ∧ win24_9.index t (0 : Fin 2) = 0 ∧ win24_9.index t (1 : Fin 2) = 0 :=
  (by decide +kernel : ∀ t : Fin grid24.N, _)

/-- Row r of tile t's block of segment words is row 5000 t + r of the column. -/
theorem segBlk24_apply (c : Dev nD) (t : Fin cfg24.N) (r : Fin 5000) :
    (iblk24 V c 0 t : Vec Ideal S5000x1 .i32) (ix2 r 0) = seg24 V c (ix2 (tileRow t.val (lt10_24 t) r) 0) := by
  obtain ⟨e0, e1, -⟩ := idx_facts24 t
  unfold iblk24
  rw [View.read_apply]
  refine congrArg (V c (Pipeline.arrRef spec24 0)) (funext fun a => Fin.ext ?_)
  match a with
  | ⟨0, _⟩ => show win24_0.index t (0 : Fin 2) * 5000 + 1 * r.val = 5000 * t.val + r.val; omega
  | ⟨1, _⟩ => show win24_0.index t (1 : Fin 2) * 1 + 1 * 0 = 0; omega

/-- Element (r, j) of tile t's block of feature array 1 is element (5000 t + r, j) of the array. -/
theorem featBlk24_1_apply (c : Dev nD) (t : Fin cfg24.N) (r : Fin 5000) (j : Fin 128) :
    (iblk24 V c 1 t : Vec Ideal S5000x128 .f32) (ix2 r j) = feat24_1 V c (ix2 (tileRow t.val (lt10_24 t) r) j) := by
  obtain ⟨-, -, e0, e1, -⟩ := idx_facts24 t
  unfold iblk24
  rw [View.read_apply]
  refine congrArg (V c (Pipeline.arrRef spec24 1)) (funext fun a => Fin.ext ?_)
  match a with
  | ⟨0, _⟩ => show win24_1.index t (0 : Fin 2) * 5000 + 1 * r.val = 5000 * t.val + r.val; omega
  | ⟨1, _⟩ => show win24_1.index t (1 : Fin 2) * 128 + 1 * j.val = j.val; omega

/-- Tile t's contraction of its one-hot block with its block of feature array 1 is the tile's share of the segment sums. -/
theorem tile24_1 (c : Dev nD) (t : Fin cfg24.N) (g : Fin 64) (j : Fin 128) :
    (∑ r : Fin 5000, (if (iblk24 V c 0 t : Vec Ideal S5000x1 .i32) (ix2 r 0) = BitVec.ofNat 32 g.val then (1 : EReal) else 0)
        * (iblk24 V c 1 t : Vec Ideal S5000x128 .f32) (ix2 r j))
      = tileSum (seg24 V c) (feat24_1 V c) t.val (lt10_24 t) (ix2 g j) := by
  show _ = ∑ r : Fin 5000, (if seg24 V c (ix2 (tileRow t.val (lt10_24 t) r) 0) = BitVec.ofNat 32 g.val then (1 : EReal) else 0)
      * feat24_1 V c (ix2 (tileRow t.val (lt10_24 t) r) j)
  refine Finset.sum_congr rfl fun r _ => ?_
  rw [segBlk24_apply, featBlk24_1_apply]

/-- Element (r, j) of tile t's block of feature array 2 is element (5000 t + r, j) of the array. -/
theorem featBlk24_2_apply (c : Dev nD) (t : Fin cfg24.N) (r : Fin 5000) (j : Fin 128) :
    (iblk24 V c 2 t : Vec Ideal S5000x128 .f32) (ix2 r j) = feat24_2 V c (ix2 (tileRow t.val (lt10_24 t) r) j) := by
  obtain ⟨-, -, -, -, e0, e1, -⟩ := idx_facts24 t
  unfold iblk24
  rw [View.read_apply]
  refine congrArg (V c (Pipeline.arrRef spec24 2)) (funext fun a => Fin.ext ?_)
  match a with
  | ⟨0, _⟩ => show win24_2.index t (0 : Fin 2) * 5000 + 1 * r.val = 5000 * t.val + r.val; omega
  | ⟨1, _⟩ => show win24_2.index t (1 : Fin 2) * 128 + 1 * j.val = j.val; omega

/-- Tile t's contraction of its one-hot block with its block of feature array 2 is the tile's share of the segment sums. -/
theorem tile24_2 (c : Dev nD) (t : Fin cfg24.N) (g : Fin 64) (j : Fin 128) :
    (∑ r : Fin 5000, (if (iblk24 V c 0 t : Vec Ideal S5000x1 .i32) (ix2 r 0) = BitVec.ofNat 32 g.val then (1 : EReal) else 0)
        * (iblk24 V c 2 t : Vec Ideal S5000x128 .f32) (ix2 r j))
      = tileSum (seg24 V c) (feat24_2 V c) t.val (lt10_24 t) (ix2 g j) := by
  show _ = ∑ r : Fin 5000, (if seg24 V c (ix2 (tileRow t.val (lt10_24 t) r) 0) = BitVec.ofNat 32 g.val then (1 : EReal) else 0)
      * feat24_2 V c (ix2 (tileRow t.val (lt10_24 t) r) j)
  refine Finset.sum_congr rfl fun r _ => ?_
  rw [segBlk24_apply, featBlk24_2_apply]

/-- Element (r, j) of tile t's block of feature array 3 is element (5000 t + r, j) of the array. -/
theorem featBlk24_3_apply (c : Dev nD) (t : Fin cfg24.N) (r : Fin 5000) (j : Fin 128) :
    (iblk24 V c 3 t : Vec Ideal S5000x128 .f32) (ix2 r j) = feat24_3 V c (ix2 (tileRow t.val (lt10_24 t) r) j) := by
  obtain ⟨-, -, -, -, -, -, e0, e1, -⟩ := idx_facts24 t
  unfold iblk24
  rw [View.read_apply]
  refine congrArg (V c (Pipeline.arrRef spec24 3)) (funext fun a => Fin.ext ?_)
  match a with
  | ⟨0, _⟩ => show win24_3.index t (0 : Fin 2) * 5000 + 1 * r.val = 5000 * t.val + r.val; omega
  | ⟨1, _⟩ => show win24_3.index t (1 : Fin 2) * 128 + 1 * j.val = j.val; omega

/-- Tile t's contraction of its one-hot block with its block of feature array 3 is the tile's share of the segment sums. -/
theorem tile24_3 (c : Dev nD) (t : Fin cfg24.N) (g : Fin 64) (j : Fin 128) :
    (∑ r : Fin 5000, (if (iblk24 V c 0 t : Vec Ideal S5000x1 .i32) (ix2 r 0) = BitVec.ofNat 32 g.val then (1 : EReal) else 0)
        * (iblk24 V c 3 t : Vec Ideal S5000x128 .f32) (ix2 r j))
      = tileSum (seg24 V c) (feat24_3 V c) t.val (lt10_24 t) (ix2 g j) := by
  show _ = ∑ r : Fin 5000, (if seg24 V c (ix2 (tileRow t.val (lt10_24 t) r) 0) = BitVec.ofNat 32 g.val then (1 : EReal) else 0)
      * feat24_3 V c (ix2 (tileRow t.val (lt10_24 t) r) j)
  refine Finset.sum_congr rfl fun r _ => ?_
  rw [segBlk24_apply, featBlk24_3_apply]

/-- Element (r, j) of tile t's block of feature array 4 is element (5000 t + r, j) of the array. -/
theorem featBlk24_4_apply (c : Dev nD) (t : Fin cfg24.N) (r : Fin 5000) (j : Fin 128) :
    (iblk24 V c 4 t : Vec Ideal S5000x128 .f32) (ix2 r j) = feat24_4 V c (ix2 (tileRow t.val (lt10_24 t) r) j) := by
  obtain ⟨-, -, -, -, -, -, -, -, e0, e1, -⟩ := idx_facts24 t
  unfold iblk24
  rw [View.read_apply]
  refine congrArg (V c (Pipeline.arrRef spec24 4)) (funext fun a => Fin.ext ?_)
  match a with
  | ⟨0, _⟩ => show win24_4.index t (0 : Fin 2) * 5000 + 1 * r.val = 5000 * t.val + r.val; omega
  | ⟨1, _⟩ => show win24_4.index t (1 : Fin 2) * 128 + 1 * j.val = j.val; omega

/-- Tile t's contraction of its one-hot block with its block of feature array 4 is the tile's share of the segment sums. -/
theorem tile24_4 (c : Dev nD) (t : Fin cfg24.N) (g : Fin 64) (j : Fin 128) :
    (∑ r : Fin 5000, (if (iblk24 V c 0 t : Vec Ideal S5000x1 .i32) (ix2 r 0) = BitVec.ofNat 32 g.val then (1 : EReal) else 0)
        * (iblk24 V c 4 t : Vec Ideal S5000x128 .f32) (ix2 r j))
      = tileSum (seg24 V c) (feat24_4 V c) t.val (lt10_24 t) (ix2 g j) := by
  show _ = ∑ r : Fin 5000, (if seg24 V c (ix2 (tileRow t.val (lt10_24 t) r) 0) = BitVec.ofNat 32 g.val then (1 : EReal) else 0)
      * feat24_4 V c (ix2 (tileRow t.val (lt10_24 t) r) j)
  refine Finset.sum_congr rfl fun r _ => ?_
  rw [segBlk24_apply, featBlk24_4_apply]

/-- Tile t's contraction of its one-hot block with the column of ones is the tile's share of the counts. -/
theorem tile24_5 (c : Dev nD) (t : Fin cfg24.N) (g : Fin 64) (j : Fin 1) :
    (∑ r : Fin 5000, (if (iblk24 V c 0 t : Vec Ideal S5000x1 .i32) (ix2 r 0) = BitVec.ofNat 32 g.val then (1 : EReal) else 0) * 1)
      = tileSum (seg24 V c) ones24 t.val (lt10_24 t) (ix2 g j) := by
  show _ = ∑ r : Fin 5000, (if seg24 V c (ix2 (tileRow t.val (lt10_24 t) r) 0) = BitVec.ofNat 32 g.val then (1 : EReal) else 0) * 1
  refine Finset.sum_congr rfl fun r _ => ?_
  rw [segBlk24_apply]

/-! ## The accumulators after each tile -/

/-- After tile n the accumulation runs over n + 1 tiles, at most ten. -/
theorem succ_le24 {n : ℕ} (hn : n < cfg24.N) : n + 1 ≤ 10 := by
  have hN : cfg24.N = 10 := N_24
  omega

/-- Accumulator 1 after tile n: the accumulation of feature array 1's segment sums over the first n + 1 tiles. -/
theorem acc24_1 (c : Dev nD) : ∀ (n : ℕ) (hn : n < cfg24.N),
    (outsAt24 V c n hn).2.2.2.2.2.1 = segSumUpTo (seg24 V c) (feat24_1 V c) (n + 1) (succ_le24 hn)
  | 0, hn => by
    show k24_pay11 (F := Ideal) (iblk24 V c 0 ⟨0, hn⟩) (k24_pay4 (F := Ideal)) (iblk24 V c 1 ⟨0, hn⟩) = _
    funext i
    obtain ⟨g, j, rfl⟩ : ∃ g j, i = ix2 g j := ⟨i 0, i 1, eq_ix2 i⟩
    refine (k24_pay11_apply _ _ _ g j).trans ?_
    rw [k24_pay4_apply, segSumUpTo_succ _ _ 0, segSumUpTo_zero]
    exact congrArg (0 + ·) (tile24_1 V c ⟨0, hn⟩ g j)
  | n + 1, hn => by
    show k24_pay11 (F := Ideal) (iblk24 V c 0 ⟨n + 1, hn⟩) (outsAt24 V c n (Nat.lt_of_succ_lt hn)).2.2.2.2.2.1 (iblk24 V c 1 ⟨n + 1, hn⟩) = _
    rw [acc24_1 c n (Nat.lt_of_succ_lt hn)]
    funext i
    obtain ⟨g, j, rfl⟩ : ∃ g j, i = ix2 g j := ⟨i 0, i 1, eq_ix2 i⟩
    refine (k24_pay11_apply _ _ _ g j).trans ?_
    rw [segSumUpTo_succ _ _ (n + 1)]
    exact congrArg (segSumUpTo (seg24 V c) (feat24_1 V c) (n + 1) (succ_le24 (Nat.lt_of_succ_lt hn)) (ix2 g j) + ·) (tile24_1 V c ⟨n + 1, hn⟩ g j)

/-- Accumulator 2 after tile n: the accumulation of feature array 2's segment sums over the first n + 1 tiles. -/
theorem acc24_2 (c : Dev nD) : ∀ (n : ℕ) (hn : n < cfg24.N),
    (outsAt24 V c n hn).2.2.2.2.2.2.1 = segSumUpTo (seg24 V c) (feat24_2 V c) (n + 1) (succ_le24 hn)
  | 0, hn => by
    show k24_pay12 (F := Ideal) (iblk24 V c 0 ⟨0, hn⟩) (k24_pay5 (F := Ideal)) (iblk24 V c 2 ⟨0, hn⟩) = _
    funext i
    obtain ⟨g, j, rfl⟩ : ∃ g j, i = ix2 g j := ⟨i 0, i 1, eq_ix2 i⟩
    refine (k24_pay12_apply _ _ _ g j).trans ?_
    rw [k24_pay5_apply, segSumUpTo_succ _ _ 0, segSumUpTo_zero]
    exact congrArg (0 + ·) (tile24_2 V c ⟨0, hn⟩ g j)
  | n + 1, hn => by
    show k24_pay12 (F := Ideal) (iblk24 V c 0 ⟨n + 1, hn⟩) (outsAt24 V c n (Nat.lt_of_succ_lt hn)).2.2.2.2.2.2.1 (iblk24 V c 2 ⟨n + 1, hn⟩) = _
    rw [acc24_2 c n (Nat.lt_of_succ_lt hn)]
    funext i
    obtain ⟨g, j, rfl⟩ : ∃ g j, i = ix2 g j := ⟨i 0, i 1, eq_ix2 i⟩
    refine (k24_pay12_apply _ _ _ g j).trans ?_
    rw [segSumUpTo_succ _ _ (n + 1)]
    exact congrArg (segSumUpTo (seg24 V c) (feat24_2 V c) (n + 1) (succ_le24 (Nat.lt_of_succ_lt hn)) (ix2 g j) + ·) (tile24_2 V c ⟨n + 1, hn⟩ g j)

/-- Accumulator 3 after tile n: the accumulation of feature array 3's segment sums over the first n + 1 tiles. -/
theorem acc24_3 (c : Dev nD) : ∀ (n : ℕ) (hn : n < cfg24.N),
    (outsAt24 V c n hn).2.2.2.2.2.2.2.1 = segSumUpTo (seg24 V c) (feat24_3 V c) (n + 1) (succ_le24 hn)
  | 0, hn => by
    show k24_pay1 (F := Ideal) (k24_pay9 (iblk24 V c 0 ⟨0, hn⟩)) (k24_pay6 (F := Ideal)) (k24_pay13 (iblk24 V c 3 ⟨0, hn⟩)) = _
    funext i
    obtain ⟨g, j, rfl⟩ : ∃ g j, i = ix2 g j := ⟨i 0, i 1, eq_ix2 i⟩
    refine (k24_pay1_apply _ _ _ g j).trans ?_
    rw [k24_pay6_apply, segSumUpTo_succ _ _ 0, segSumUpTo_zero]
    exact congrArg (0 + ·) (tile24_3 V c ⟨0, hn⟩ g j)
  | n + 1, hn => by
    show k24_pay1 (F := Ideal) (k24_pay9 (iblk24 V c 0 ⟨n + 1, hn⟩)) (outsAt24 V c n (Nat.lt_of_succ_lt hn)).2.2.2.2.2.2.2.1 (k24_pay13 (iblk24 V c 3 ⟨n + 1, hn⟩)) = _
    rw [acc24_3 c n (Nat.lt_of_succ_lt hn)]
    funext i
    obtain ⟨g, j, rfl⟩ : ∃ g j, i = ix2 g j := ⟨i 0, i 1, eq_ix2 i⟩
    refine (k24_pay1_apply _ _ _ g j).trans ?_
    rw [segSumUpTo_succ _ _ (n + 1)]
    exact congrArg (segSumUpTo (seg24 V c) (feat24_3 V c) (n + 1) (succ_le24 (Nat.lt_of_succ_lt hn)) (ix2 g j) + ·) (tile24_3 V c ⟨n + 1, hn⟩ g j)

/-- Accumulator 4 after tile n: the accumulation of feature array 4's segment sums over the first n + 1 tiles. -/
theorem acc24_4 (c : Dev nD) : ∀ (n : ℕ) (hn : n < cfg24.N),
    (outsAt24 V c n hn).2.2.2.2.2.2.2.2.1 = segSumUpTo (seg24 V c) (feat24_4 V c) (n + 1) (succ_le24 hn)
  | 0, hn => by
    show k24_pay2 (F := Ideal) (k24_pay9 (iblk24 V c 0 ⟨0, hn⟩)) (k24_pay7 (F := Ideal)) (iblk24 V c 4 ⟨0, hn⟩) = _
    funext i
    obtain ⟨g, j, rfl⟩ : ∃ g j, i = ix2 g j := ⟨i 0, i 1, eq_ix2 i⟩
    refine (k24_pay2_apply _ _ _ g j).trans ?_
    rw [k24_pay7_apply, segSumUpTo_succ _ _ 0, segSumUpTo_zero]
    exact congrArg (0 + ·) (tile24_4 V c ⟨0, hn⟩ g j)
  | n + 1, hn => by
    show k24_pay2 (F := Ideal) (k24_pay9 (iblk24 V c 0 ⟨n + 1, hn⟩)) (outsAt24 V c n (Nat.lt_of_succ_lt hn)).2.2.2.2.2.2.2.2.1 (iblk24 V c 4 ⟨n + 1, hn⟩) = _
    rw [acc24_4 c n (Nat.lt_of_succ_lt hn)]
    funext i
    obtain ⟨g, j, rfl⟩ : ∃ g j, i = ix2 g j := ⟨i 0, i 1, eq_ix2 i⟩
    refine (k24_pay2_apply _ _ _ g j).trans ?_
    rw [segSumUpTo_succ _ _ (n + 1)]
    exact congrArg (segSumUpTo (seg24 V c) (feat24_4 V c) (n + 1) (succ_le24 (Nat.lt_of_succ_lt hn)) (ix2 g j) + ·) (tile24_4 V c ⟨n + 1, hn⟩ g j)

/-- Accumulator 5 after tile n: the accumulation of the counts over the first n + 1 tiles. -/
theorem acc24_5 (c : Dev nD) : ∀ (n : ℕ) (hn : n < cfg24.N),
    (outsAt24 V c n hn).2.2.2.2.2.2.2.2.2 = segSumUpTo (seg24 V c) ones24 (n + 1) (succ_le24 hn)
  | 0, hn => by
    show k24_pay3 (F := Ideal) (k24_pay9 (iblk24 V c 0 ⟨0, hn⟩)) k24_pay10 (k24_pay8 (F := Ideal)) = _
    funext i
    obtain ⟨g, j, rfl⟩ : ∃ g j, i = ix2 g j := ⟨i 0, i 1, eq_ix2 i⟩
    refine (k24_pay3_apply _ _ g j).trans ?_
    rw [k24_pay8_apply, segSumUpTo_succ _ _ 0, segSumUpTo_zero]
    exact congrArg (0 + ·) (tile24_5 V c ⟨0, hn⟩ g j)
  | n + 1, hn => by
    show k24_pay3 (F := Ideal) (k24_pay9 (iblk24 V c 0 ⟨n + 1, hn⟩)) k24_pay10 (outsAt24 V c n (Nat.lt_of_succ_lt hn)).2.2.2.2.2.2.2.2.2 = _
    rw [acc24_5 c n (Nat.lt_of_succ_lt hn)]
    funext i
    obtain ⟨g, j, rfl⟩ : ∃ g j, i = ix2 g j := ⟨i 0, i 1, eq_ix2 i⟩
    refine (k24_pay3_apply _ _ g j).trans ?_
    rw [segSumUpTo_succ _ _ (n + 1)]
    exact congrArg (segSumUpTo (seg24 V c) ones24 (n + 1) (succ_le24 (Nat.lt_of_succ_lt hn)) (ix2 g j) + ·) (tile24_5 V c ⟨n + 1, hn⟩ g j)

/-- The accumulation over all ten tiles is the segment sums. -/
theorem segSumUpTo24_full {C : ℕ} (seg : IVec ⟨2, ![50000, 1]⟩ 32) (h : (⟨2, ![50000, C]⟩ : Shape).Idx → EReal)
    (k : ℕ) (hk : k ≤ 10) (e : k = 10) : segSumUpTo seg h k hk = segSum seg h := by
  subst e
  exact segSumUpTo_ten seg h hk

/-! ## The one write-back, and the arrays after the region -/

/-- What the last tile writes back through window 5 is the whole array of segment sums: the block is the array. -/
theorem flushed24_5_eq (c : Dev nD) (t : Fin cfg24.N) (hf : (cfg24.win 5).flush t = true) :
    (dat24 V c).flushed 5 t = ((cfg24.win 5).blk t).view.read (Elt Ideal) (segSum (seg24 V c) (feat24_1 V c)) := by
  have h9 : t.val + 1 = 10 := by
    have h1 := (flush24_5 t).mp hf
    have h2 := lt10_24 t
    omega
  obtain ⟨-, -, -, -, -, -, -, -, -, -, e0, e1, -⟩ := idx_facts24 t
  show (cfg24.win 5).cut (grid24.coords t) ((dat24 V c).after 5 t) = _
  rw [after24_5, (outsAt24_out_eq V c t.val t.isLt).1, acc24_1 V c t.val t.isLt, segSumUpTo24_full _ _ _ _ h9]
  have hz' : (fun a => win24_5.index t a * main_v570_0.ty.shape.size a) = fun _ => 0 := funext fun a => by
    match a with
    | ⟨0, _⟩ => show win24_5.index t (0 : Fin 2) * 64 = 0; omega
    | ⟨1, _⟩ => show win24_5.index t (1 : Fin 2) * 128 = 0; omega
  exact (Memref.read_access_unit_zero (Elt Ideal) main_v570_0 hz' (fun a => by rw [congrFun hz' a]; simp) (segSum (seg24 V c) (feat24_1 V c))).symm

/-- An index of output array 1 is in point t's block iff each coordinate is in the block's range on its axis. -/
theorem mem_blk24_5 (t : Fin cfg24.N) (i : S64x128.Idx) :
    i ∈ ((cfg24.win 5).blk t).view.set ↔ ∀ a : Fin 2, win24_5.index t a * S64x128.size a ≤ (i a).val ∧ (i a).val < win24_5.index t a * S64x128.size a + S64x128.size a := by
  show i ∈ ((View.whole main_v570_0).slice (win24_5.rect t)).set ↔ _
  rw [View.set_slice_whole, Rect.mem_set_unit]
  exact Iff.rfl

/-- The last tile's block covers the array. -/
theorem cover24_5_arr (i : S64x128.Idx) :
    ∃ t : Fin cfg24.N, (cfg24.win 5).flush t = true ∧ i ∈ ((cfg24.win 5).blk t).view.set := by
  have hi0 : (i 0).val < 64 := (i 0).isLt
  have hi1 : (i 1).val < 128 := (i 1).isLt
  have hN : cfg24.N = 10 := N_24
  refine ⟨⟨9, by rw [hN]; omega⟩, (flush24_5 _).mpr rfl, ?_⟩
  rw [mem_blk24_5]
  obtain ⟨-, -, -, -, -, -, -, -, -, -, e0, e1, -⟩ := idx_facts24 ⟨9, by rw [hN]; omega⟩
  intro a
  match a with
  | ⟨0, _⟩ =>
    show win24_5.index _ (0 : Fin 2) * 64 ≤ (i 0).val ∧ (i 0).val < win24_5.index _ (0 : Fin 2) * 64 + 64
    rw [e0]; omega
  | ⟨1, _⟩ =>
    show win24_5.index _ (1 : Fin 2) * 128 ≤ (i 1).val ∧ (i 1).val < win24_5.index _ (1 : Fin 2) * 128 + 128
    rw [e1]; omega

/-- OUTPUT ARRAY 1 after the region: the segment sums of feature array 1. -/
theorem arrAt24_5 (c : Dev nD) : (dat24 V c).arrAt 5 cfg24.N = segSum (seg24 V c) (feat24_1 V c) :=
  (dat24 V c).arrAt_eq_of_cover 5 _ (flushed24_5_eq V c) cover24_5_arr

/-- What the last tile writes back through window 6 is the whole array of segment sums: the block is the array. -/
theorem flushed24_6_eq (c : Dev nD) (t : Fin cfg24.N) (hf : (cfg24.win 6).flush t = true) :
    (dat24 V c).flushed 6 t = ((cfg24.win 6).blk t).view.read (Elt Ideal) (segSum (seg24 V c) (feat24_2 V c)) := by
  have h9 : t.val + 1 = 10 := by
    have h1 := (flush24_6 t).mp hf
    have h2 := lt10_24 t
    omega
  obtain ⟨-, -, -, -, -, -, -, -, -, -, -, -, e0, e1, -⟩ := idx_facts24 t
  show (cfg24.win 6).cut (grid24.coords t) ((dat24 V c).after 6 t) = _
  rw [after24_6, (outsAt24_out_eq V c t.val t.isLt).2.1, acc24_2 V c t.val t.isLt, segSumUpTo24_full _ _ _ _ h9]
  have hz' : (fun a => win24_6.index t a * main_v570_1.ty.shape.size a) = fun _ => 0 := funext fun a => by
    match a with
    | ⟨0, _⟩ => show win24_6.index t (0 : Fin 2) * 64 = 0; omega
    | ⟨1, _⟩ => show win24_6.index t (1 : Fin 2) * 128 = 0; omega
  exact (Memref.read_access_unit_zero (Elt Ideal) main_v570_1 hz' (fun a => by rw [congrFun hz' a]; simp) (segSum (seg24 V c) (feat24_2 V c))).symm

/-- An index of output array 2 is in point t's block iff each coordinate is in the block's range on its axis. -/
theorem mem_blk24_6 (t : Fin cfg24.N) (i : S64x128.Idx) :
    i ∈ ((cfg24.win 6).blk t).view.set ↔ ∀ a : Fin 2, win24_6.index t a * S64x128.size a ≤ (i a).val ∧ (i a).val < win24_6.index t a * S64x128.size a + S64x128.size a := by
  show i ∈ ((View.whole main_v570_1).slice (win24_6.rect t)).set ↔ _
  rw [View.set_slice_whole, Rect.mem_set_unit]
  exact Iff.rfl

/-- The last tile's block covers the array. -/
theorem cover24_6_arr (i : S64x128.Idx) :
    ∃ t : Fin cfg24.N, (cfg24.win 6).flush t = true ∧ i ∈ ((cfg24.win 6).blk t).view.set := by
  have hi0 : (i 0).val < 64 := (i 0).isLt
  have hi1 : (i 1).val < 128 := (i 1).isLt
  have hN : cfg24.N = 10 := N_24
  refine ⟨⟨9, by rw [hN]; omega⟩, (flush24_6 _).mpr rfl, ?_⟩
  rw [mem_blk24_6]
  obtain ⟨-, -, -, -, -, -, -, -, -, -, -, -, e0, e1, -⟩ := idx_facts24 ⟨9, by rw [hN]; omega⟩
  intro a
  match a with
  | ⟨0, _⟩ =>
    show win24_6.index _ (0 : Fin 2) * 64 ≤ (i 0).val ∧ (i 0).val < win24_6.index _ (0 : Fin 2) * 64 + 64
    rw [e0]; omega
  | ⟨1, _⟩ =>
    show win24_6.index _ (1 : Fin 2) * 128 ≤ (i 1).val ∧ (i 1).val < win24_6.index _ (1 : Fin 2) * 128 + 128
    rw [e1]; omega

/-- OUTPUT ARRAY 2 after the region: the segment sums of feature array 2. -/
theorem arrAt24_6 (c : Dev nD) : (dat24 V c).arrAt 6 cfg24.N = segSum (seg24 V c) (feat24_2 V c) :=
  (dat24 V c).arrAt_eq_of_cover 6 _ (flushed24_6_eq V c) cover24_6_arr

/-- What the last tile writes back through window 7 is the whole array of segment sums: the block is the array. -/
theorem flushed24_7_eq (c : Dev nD) (t : Fin cfg24.N) (hf : (cfg24.win 7).flush t = true) :
    (dat24 V c).flushed 7 t = ((cfg24.win 7).blk t).view.read (Elt Ideal) (segSum (seg24 V c) (feat24_3 V c)) := by
  have h9 : t.val + 1 = 10 := by
    have h1 := (flush24_7 t).mp hf
    have h2 := lt10_24 t
    omega
  obtain ⟨-, -, -, -, -, -, -, -, -, -, -, -, -, -, e0, e1, -⟩ := idx_facts24 t
  show (cfg24.win 7).cut (grid24.coords t) ((dat24 V c).after 7 t) = _
  rw [after24_7, (outsAt24_out_eq V c t.val t.isLt).2.2.1, acc24_3 V c t.val t.isLt, segSumUpTo24_full _ _ _ _ h9]
  have hz' : (fun a => win24_7.index t a * main_v570_2.ty.shape.size a) = fun _ => 0 := funext fun a => by
    match a with
    | ⟨0, _⟩ => show win24_7.index t (0 : Fin 2) * 64 = 0; omega
    | ⟨1, _⟩ => show win24_7.index t (1 : Fin 2) * 128 = 0; omega
  exact (Memref.read_access_unit_zero (Elt Ideal) main_v570_2 hz' (fun a => by rw [congrFun hz' a]; simp) (segSum (seg24 V c) (feat24_3 V c))).symm

/-- An index of output array 3 is in point t's block iff each coordinate is in the block's range on its axis. -/
theorem mem_blk24_7 (t : Fin cfg24.N) (i : S64x128.Idx) :
    i ∈ ((cfg24.win 7).blk t).view.set ↔ ∀ a : Fin 2, win24_7.index t a * S64x128.size a ≤ (i a).val ∧ (i a).val < win24_7.index t a * S64x128.size a + S64x128.size a := by
  show i ∈ ((View.whole main_v570_2).slice (win24_7.rect t)).set ↔ _
  rw [View.set_slice_whole, Rect.mem_set_unit]
  exact Iff.rfl

/-- The last tile's block covers the array. -/
theorem cover24_7_arr (i : S64x128.Idx) :
    ∃ t : Fin cfg24.N, (cfg24.win 7).flush t = true ∧ i ∈ ((cfg24.win 7).blk t).view.set := by
  have hi0 : (i 0).val < 64 := (i 0).isLt
  have hi1 : (i 1).val < 128 := (i 1).isLt
  have hN : cfg24.N = 10 := N_24
  refine ⟨⟨9, by rw [hN]; omega⟩, (flush24_7 _).mpr rfl, ?_⟩
  rw [mem_blk24_7]
  obtain ⟨-, -, -, -, -, -, -, -, -, -, -, -, -, -, e0, e1, -⟩ := idx_facts24 ⟨9, by rw [hN]; omega⟩
  intro a
  match a with
  | ⟨0, _⟩ =>
    show win24_7.index _ (0 : Fin 2) * 64 ≤ (i 0).val ∧ (i 0).val < win24_7.index _ (0 : Fin 2) * 64 + 64
    rw [e0]; omega
  | ⟨1, _⟩ =>
    show win24_7.index _ (1 : Fin 2) * 128 ≤ (i 1).val ∧ (i 1).val < win24_7.index _ (1 : Fin 2) * 128 + 128
    rw [e1]; omega

/-- OUTPUT ARRAY 3 after the region: the segment sums of feature array 3. -/
theorem arrAt24_7 (c : Dev nD) : (dat24 V c).arrAt 7 cfg24.N = segSum (seg24 V c) (feat24_3 V c) :=
  (dat24 V c).arrAt_eq_of_cover 7 _ (flushed24_7_eq V c) cover24_7_arr

/-- What the last tile writes back through window 8 is the whole array of segment sums: the block is the array. -/
theorem flushed24_8_eq (c : Dev nD) (t : Fin cfg24.N) (hf : (cfg24.win 8).flush t = true) :
    (dat24 V c).flushed 8 t = ((cfg24.win 8).blk t).view.read (Elt Ideal) (segSum (seg24 V c) (feat24_4 V c)) := by
  have h9 : t.val + 1 = 10 := by
    have h1 := (flush24_8 t).mp hf
    have h2 := lt10_24 t
    omega
  obtain ⟨-, -, -, -, -, -, -, -, -, -, -, -, -, -, -, -, e0, e1, -⟩ := idx_facts24 t
  show (cfg24.win 8).cut (grid24.coords t) ((dat24 V c).after 8 t) = _
  rw [after24_8, (outsAt24_out_eq V c t.val t.isLt).2.2.2.1, acc24_4 V c t.val t.isLt, segSumUpTo24_full _ _ _ _ h9]
  have hz' : (fun a => win24_8.index t a * main_v570_3.ty.shape.size a) = fun _ => 0 := funext fun a => by
    match a with
    | ⟨0, _⟩ => show win24_8.index t (0 : Fin 2) * 64 = 0; omega
    | ⟨1, _⟩ => show win24_8.index t (1 : Fin 2) * 128 = 0; omega
  exact (Memref.read_access_unit_zero (Elt Ideal) main_v570_3 hz' (fun a => by rw [congrFun hz' a]; simp) (segSum (seg24 V c) (feat24_4 V c))).symm

/-- An index of output array 4 is in point t's block iff each coordinate is in the block's range on its axis. -/
theorem mem_blk24_8 (t : Fin cfg24.N) (i : S64x128.Idx) :
    i ∈ ((cfg24.win 8).blk t).view.set ↔ ∀ a : Fin 2, win24_8.index t a * S64x128.size a ≤ (i a).val ∧ (i a).val < win24_8.index t a * S64x128.size a + S64x128.size a := by
  show i ∈ ((View.whole main_v570_3).slice (win24_8.rect t)).set ↔ _
  rw [View.set_slice_whole, Rect.mem_set_unit]
  exact Iff.rfl

/-- The last tile's block covers the array. -/
theorem cover24_8_arr (i : S64x128.Idx) :
    ∃ t : Fin cfg24.N, (cfg24.win 8).flush t = true ∧ i ∈ ((cfg24.win 8).blk t).view.set := by
  have hi0 : (i 0).val < 64 := (i 0).isLt
  have hi1 : (i 1).val < 128 := (i 1).isLt
  have hN : cfg24.N = 10 := N_24
  refine ⟨⟨9, by rw [hN]; omega⟩, (flush24_8 _).mpr rfl, ?_⟩
  rw [mem_blk24_8]
  obtain ⟨-, -, -, -, -, -, -, -, -, -, -, -, -, -, -, -, e0, e1, -⟩ := idx_facts24 ⟨9, by rw [hN]; omega⟩
  intro a
  match a with
  | ⟨0, _⟩ =>
    show win24_8.index _ (0 : Fin 2) * 64 ≤ (i 0).val ∧ (i 0).val < win24_8.index _ (0 : Fin 2) * 64 + 64
    rw [e0]; omega
  | ⟨1, _⟩ =>
    show win24_8.index _ (1 : Fin 2) * 128 ≤ (i 1).val ∧ (i 1).val < win24_8.index _ (1 : Fin 2) * 128 + 128
    rw [e1]; omega

/-- OUTPUT ARRAY 4 after the region: the segment sums of feature array 4. -/
theorem arrAt24_8 (c : Dev nD) : (dat24 V c).arrAt 8 cfg24.N = segSum (seg24 V c) (feat24_4 V c) :=
  (dat24 V c).arrAt_eq_of_cover 8 _ (flushed24_8_eq V c) cover24_8_arr

/-- What the last tile writes back through window 9 is the whole array of segment sums: the block is the array. -/
theorem flushed24_9_eq (c : Dev nD) (t : Fin cfg24.N) (hf : (cfg24.win 9).flush t = true) :
    (dat24 V c).flushed 9 t = ((cfg24.win 9).blk t).view.read (Elt Ideal) (segSum (seg24 V c) ones24) := by
  have h9 : t.val + 1 = 10 := by
    have h1 := (flush24_9 t).mp hf
    have h2 := lt10_24 t
    omega
  obtain ⟨-, -, -, -, -, -, -, -, -, -, -, -, -, -, -, -, -, -, e0, e1⟩ := idx_facts24 t
  show (cfg24.win 9).cut (grid24.coords t) ((dat24 V c).after 9 t) = _
  rw [after24_9, (outsAt24_out_eq V c t.val t.isLt).2.2.2.2, acc24_5 V c t.val t.isLt, segSumUpTo24_full _ _ _ _ h9]
  have hz' : (fun a => win24_9.index t a * main_v570_4.ty.shape.size a) = fun _ => 0 := funext fun a => by
    match a with
    | ⟨0, _⟩ => show win24_9.index t (0 : Fin 2) * 64 = 0; omega
    | ⟨1, _⟩ => show win24_9.index t (1 : Fin 2) * 1 = 0; omega
  exact (Memref.read_access_unit_zero (Elt Ideal) main_v570_4 hz' (fun a => by rw [congrFun hz' a]; simp) (segSum (seg24 V c) ones24)).symm

/-- An index of output array 5 is in point t's block iff each coordinate is in the block's range on its axis. -/
theorem mem_blk24_9 (t : Fin cfg24.N) (i : S64x1.Idx) :
    i ∈ ((cfg24.win 9).blk t).view.set ↔ ∀ a : Fin 2, win24_9.index t a * S64x1.size a ≤ (i a).val ∧ (i a).val < win24_9.index t a * S64x1.size a + S64x1.size a := by
  show i ∈ ((View.whole main_v570_4).slice (win24_9.rect t)).set ↔ _
  rw [View.set_slice_whole, Rect.mem_set_unit]
  exact Iff.rfl

/-- The last tile's block covers the array. -/
theorem cover24_9_arr (i : S64x1.Idx) :
    ∃ t : Fin cfg24.N, (cfg24.win 9).flush t = true ∧ i ∈ ((cfg24.win 9).blk t).view.set := by
  have hi0 : (i 0).val < 64 := (i 0).isLt
  have hi1 : (i 1).val < 1 := (i 1).isLt
  have hN : cfg24.N = 10 := N_24
  refine ⟨⟨9, by rw [hN]; omega⟩, (flush24_9 _).mpr rfl, ?_⟩
  rw [mem_blk24_9]
  obtain ⟨-, -, -, -, -, -, -, -, -, -, -, -, -, -, -, -, -, -, e0, e1⟩ := idx_facts24 ⟨9, by rw [hN]; omega⟩
  intro a
  match a with
  | ⟨0, _⟩ =>
    show win24_9.index _ (0 : Fin 2) * 64 ≤ (i 0).val ∧ (i 0).val < win24_9.index _ (0 : Fin 2) * 64 + 64
    rw [e0]; omega
  | ⟨1, _⟩ =>
    show win24_9.index _ (1 : Fin 2) * 1 ≤ (i 1).val ∧ (i 1).val < win24_9.index _ (1 : Fin 2) * 1 + 1
    rw [e1]; omega

/-- OUTPUT ARRAY 5 after the region: the segment counts. -/
theorem arrAt24_9 (c : Dev nD) : (dat24 V c).arrAt 9 cfg24.N = segSum (seg24 V c) ones24 :=
  (dat24 V c).arrAt_eq_of_cover 9 _ (flushed24_9_eq V c) cover24_9_arr

/-- THE INPUT ARRAYS after the region: as entered. -/
theorem arrAt24_in (c : Dev nD) (w : Fin cfg24.W) (hw : w.val < 5) : (dat24 V c).arrAt w cfg24.N = V c (Pipeline.arrRef spec24 w) := by
  have hin : (cfg24.win w).isOut = false := by
    match w with
    | ⟨0, _⟩ => rfl
    | ⟨1, _⟩ => rfl
    | ⟨2, _⟩ => rfl
    | ⟨3, _⟩ => rfl
    | ⟨4, _⟩ => rfl
    | ⟨5, _⟩ => exact absurd hw (Nat.lt_irrefl 5)
    | ⟨6, _⟩ => exact absurd hw (by show ¬(6 < 5); omega)
    | ⟨7, _⟩ => exact absurd hw (by show ¬(7 < 5); omega)
    | ⟨8, _⟩ => exact absurd hw (by show ¬(8 < 5); omega)
    | ⟨9, _⟩ => exact absurd hw (by show ¬(9 < 5); omega)
  exact ((dat24 V c).arrAt_in w hin _).trans (A_eq24 V c w)

end Region24

end Cert.KernelIdeal.Gen

end
-- ==== Proof.Spec.lean ====
/-
  The specification: a heterogeneous GraphSAGE network — three relations, four layers — with mean
  aggregation over incoming edges, PReLU, batch normalisation over the 50000 nodes, and a mean-pool
  readout over 64 graphs, written as ONE function of the 21 argument arrays over the extended reals.

  Every stage is stated index by index, in the arrangement of the plain formulation:
    x₀   = rows of an embedding table                      (a gather)
    msg  = rows of x at the edges' sources                 (a gather)
    nsum = messages added up at the edges' targets         (an accumulating scatter)
    deg  = ones added up at the edges' targets
    nmean = nsum / max(deg, 1)
    lin  = x·W_self + nmean·W_neigh + b
    pr   = lin where lin > 0, a·lin elsewhere
    out  = γ·(pr − mean)·rsqrt(var + ε) + β,  mean and var the column mean and the (biased) column variance of pr
  and the readout adds the four layers' rows up per graph, divides by max(count, 1) and lays the three
  relations side by side.  The two whole-array index operations (gather, accumulating scatter) are the library's,
  applied to dimension records and index arrays that are parameters; everything else is pointwise or a finite sum.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-! ## Shapes -/

abbrev S50000 : Shape := ⟨1, ![50000]⟩
abbrev S50000x1 : Shape := ⟨2, ![50000, 1]⟩
abbrev S400000x1 : Shape := ⟨2, ![400000, 1]⟩
abbrev S3x400000 : Shape := ⟨2, ![3, 400000]⟩
abbrev S3x50000 : Shape := ⟨2, ![3, 50000]⟩
abbrev S257x64 : Shape := ⟨2, ![257, 64]⟩
abbrev S3x64x128 : Shape := ⟨3, ![3, 64, 128]⟩
abbrev S3x128 : Shape := ⟨2, ![3, 128]⟩
abbrev S3x3x128x128 : Shape := ⟨4, ![3, 3, 128, 128]⟩
abbrev S3x3x128 : Shape := ⟨3, ![3, 3, 128]⟩
/-- Node features of width `D`. -/
abbrev SNx (D : Nat) : Shape := ⟨2, ![50000, D]⟩
/-- Edge messages of width `D`. -/
abbrev SEx (D : Nat) : Shape := ⟨2, ![400000, D]⟩
abbrev S50000x64 : Shape := SNx 64
abbrev S50000x128 : Shape := SNx 128
abbrev S50000x512 : Shape := SNx 512
abbrev S64x512 : Shape := ⟨2, ![64, 512]⟩
abbrev S64x1 : Shape := ⟨2, ![64, 1]⟩
abbrev S64x1536 : Shape := ⟨2, ![64, 1536]⟩

/-! ## The three float literals (kept as their binary32 words; MathBN evaluates them) -/

/-- `1.0`. -/
abbrev oneF : EReal := Ideal.ofBits .f32 0x3F800000#32
/-- `50000.0`, the number of nodes. -/
abbrev nF : EReal := Ideal.ofBits .f32 0x47435000#32
/-- The batch normalisation's `ε` (the binary32 nearest `1e-5`). -/
abbrev epsF : EReal := Ideal.ofBits .f32 0x3727C5AC#32

/-! ## Index arrays -/

/-- A negative index counts from the end, once: `i < 0 ? i + n : i`. -/
def wrapIdx (n i : BitVec 32) : BitVec 32 := Scalar.select (IntOp.cmpi .slt i 0#32) (IntOp.addi i n) i

/-- A node's row in a 257-row table, as a column of start indices. -/
def nodeIdx (v : IVec S50000 32) : IVec S50000x1 32 := fun j => wrapIdx 257#32 (v (ix1 (j 0)))

/-- Relation `rel`'s edge sources (rows of the node features, wrapped), as a column of start indices. -/
def srcIdx (src : IVec S3x400000 32) (rel : Fin 3) : IVec S400000x1 32 := fun j => wrapIdx 50000#32 (src (ix2 rel (j 0)))

/-- Row `rel` of a `[3, E]` index array as a column `[E, 1]` (edge targets; graph ids), unchanged. -/
def rowIdx {E : Nat} (a : IVec ⟨2, ![3, E]⟩ 32) (rel : Fin 3) : IVec ⟨2, ![E, 1]⟩ 32 := fun j => a (ix2 rel (j 0))

/-! ## One relation of one layer -/

/-- The embedding lookup. -/
def embed (gE : GatherDims S257x64 S50000x1 S50000x64) (tbl : S257x64.Idx → EReal) (idx : IVec S50000 32) :
    S50000x64.Idx → EReal :=
  Host.gather gE tbl (nodeIdx idx)

section layer
variable {D : Nat}

/-- The messages: the features' rows at the edges' sources. -/
def msg (gd : GatherDims (SNx D) S400000x1 (SEx D)) (x : (SNx D).Idx → EReal) (src : IVec S3x400000 32) (rel : Fin 3) :
    (SEx D).Idx → EReal :=
  Host.gather gd x (srcIdx src rel)

/-- The messages added up at the edges' targets, from zero. -/
def nsum (sd : ScatterDims (SNx D) S400000x1 (SEx D)) (dst : IVec S3x400000 32) (rel : Fin 3) (m : (SEx D).Idx → EReal) :
    (SNx D).Idx → EReal :=
  Ideal.hostScatterAdd sd (fun _ => 0) (rowIdx dst rel) m

/-- The in-degrees: ones added up at the edges' targets, from zero. -/
def deg (sd1 : ScatterDims S50000x1 S400000x1 S400000x1) (dst : IVec S3x400000 32) (rel : Fin 3) : S50000x1.Idx → EReal :=
  Ideal.hostScatterAdd sd1 (fun _ => 0) (rowIdx dst rel) (fun _ => oneF)

/-- The mean over incoming edges; a node without any keeps the zero sum. -/
def nmean (ns : (SNx D).Idx → EReal) (dg : S50000x1.Idx → EReal) : (SNx D).Idx → EReal :=
  fun j => Ideal.div (ns j) (max (dg (ix2 (j 0) 0)) oneF)

/-- The two linear maps and the bias. -/
def lin (x nm : (SNx D).Idx → EReal) (ws wn : Fin D → Fin 128 → EReal) (b : Fin 128 → EReal) : S50000x128.Idx → EReal :=
  fun j => ((∑ k : Fin D, x (ix2 (j 0) k) * ws k (j 1)) + (∑ k : Fin D, nm (ix2 (j 0) k) * wn k (j 1))) + b (j 1)

end layer

/-- PReLU with a slope per column. -/
def prelu (l : S50000x128.Idx → EReal) (a : Fin 128 → EReal) : S50000x128.Idx → EReal :=
  fun j => Scalar.select (Ideal.cmp .ogt (l j) 0) (l j) (a (j 1) * l j)

/-- A column's sum over the nodes. -/
def colSum (p : S50000x128.Idx → EReal) : Fin 128 → EReal := fun c => ∑ r : Fin 50000, p (ix2 r c)

/-- A column's mean over the nodes. -/
def colMean (p : S50000x128.Idx → EReal) : Fin 128 → EReal := fun c => Ideal.div (colSum p c) nF

/-- A column's biased variance over the nodes: the mean of the squared deviations. -/
def colVar (p : S50000x128.Idx → EReal) : Fin 128 → EReal :=
  fun c => Ideal.div (∑ r : Fin 50000, (p (ix2 r c) - colMean p c) * (p (ix2 r c) - colMean p c)) nF

/-- Normalisation by given column statistics `mu`, `var`. -/
def normBy (p : S50000x128.Idx → EReal) (mu var g be : Fin 128 → EReal) : S50000x128.Idx → EReal :=
  fun j => g (j 1) * (p j - mu (j 1)) * Ideal.rsqrt (var (j 1) + epsF) + be (j 1)

/-- Batch normalisation over the nodes. -/
def bnorm (p : S50000x128.Idx → EReal) (g be : Fin 128 → EReal) : S50000x128.Idx → EReal :=
  normBy p (colMean p) (colVar p) g be

/-- One relation of one layer, before the normalisation: aggregate, transform, PReLU. -/
def sagePre {D : Nat} (gd : GatherDims (SNx D) S400000x1 (SEx D)) (sd : ScatterDims (SNx D) S400000x1 (SEx D))
    (sd1 : ScatterDims S50000x1 S400000x1 S400000x1) (x : (SNx D).Idx → EReal) (src dst : IVec S3x400000 32) (rel : Fin 3)
    (ws wn : Fin D → Fin 128 → EReal) (b a : Fin 128 → EReal) : S50000x128.Idx → EReal :=
  prelu (lin x (nmean (nsum sd dst rel (msg gd x src rel)) (deg sd1 dst rel)) ws wn b) a

/-- One relation of one layer. -/
def sage {D : Nat} (gd : GatherDims (SNx D) S400000x1 (SEx D)) (sd : ScatterDims (SNx D) S400000x1 (SEx D))
    (sd1 : ScatterDims S50000x1 S400000x1 S400000x1) (x : (SNx D).Idx → EReal) (src dst : IVec S3x400000 32) (rel : Fin 3)
    (ws wn : Fin D → Fin 128 → EReal) (b a g be : Fin 128 → EReal) : S50000x128.Idx → EReal :=
  bnorm (sagePre gd sd sd1 x src dst rel ws wn b a) g be

/-! ## The readout -/

/-- Four `[50000, 128]` arrays side by side. -/
def hcat (a b c d : S50000x128.Idx → EReal) : S50000x512.Idx → EReal := fun j =>
  if h0 : (j 1).val < 128 then a (ix2 (j 0) ⟨(j 1).val, h0⟩)
  else if h1 : (j 1).val < 256 then b (ix2 (j 0) ⟨(j 1).val - 128, by omega⟩)
  else if h2 : (j 1).val < 384 then c (ix2 (j 0) ⟨(j 1).val - 256, by omega⟩)
  else d (ix2 (j 0) ⟨(j 1).val - 384, by have := idx2_lt1 j; omega⟩)

/-- The rows added up per graph, from zero. -/
def gsum (r512 : ScatterDims S64x512 S50000x1 S50000x512) (seg : IVec S3x50000 32) (rel : Fin 3)
    (hc : S50000x512.Idx → EReal) : S64x512.Idx → EReal :=
  Ideal.hostScatterAdd r512 (fun _ => 0) (rowIdx seg rel) hc

/-- The graphs' node counts: ones added up per graph, from zero. -/
def gcnt (r1 : ScatterDims S64x1 S50000x1 S50000x1) (seg : IVec S3x50000 32) (rel : Fin 3) : S64x1.Idx → EReal :=
  Ideal.hostScatterAdd r1 (fun _ => 0) (rowIdx seg rel) (fun _ => oneF)

/-- The mean over a graph's nodes; an empty graph keeps the zero sum. -/
def gmean (gs : S64x512.Idx → EReal) (gc : S64x1.Idx → EReal) : S64x512.Idx → EReal :=
  fun j => Ideal.div (gs j) (max (gc (ix2 (j 0) 0)) oneF)

/-- Three `[64, 512]` arrays side by side. -/
def vcat (a b c : S64x512.Idx → EReal) : S64x1536.Idx → EReal := fun j =>
  if h0 : (j 1).val < 512 then a (ix2 (j 0) ⟨(j 1).val, h0⟩)
  else if h1 : (j 1).val < 1024 then b (ix2 (j 0) ⟨(j 1).val - 512, by omega⟩)
  else c (ix2 (j 0) ⟨(j 1).val - 1024, by have := idx2_lt1 j; omega⟩)

/-! ## The whole network -/

/-- The dimension records of the gathers and accumulating scatters. -/
structure Dims where
  gE : GatherDims S257x64 S50000x1 S50000x64
  g64 : GatherDims (SNx 64) S400000x1 (SEx 64)
  s64 : ScatterDims (SNx 64) S400000x1 (SEx 64)
  s1 : ScatterDims S50000x1 S400000x1 S400000x1
  g128 : GatherDims (SNx 128) S400000x1 (SEx 128)
  s128 : ScatterDims (SNx 128) S400000x1 (SEx 128)
  r512 : ScatterDims S64x512 S50000x1 S50000x512
  r1 : ScatterDims S64x1 S50000x1 S50000x1

/-- The 21 argument arrays, in the order of the entry point's parameters. -/
structure Args where
  hIdx : IVec S50000 32
  pIdx : IVec S50000 32
  hpIdx : IVec S50000 32
  src : IVec S3x400000 32
  dst : IVec S3x400000 32
  seg : IVec S3x50000 32
  embH : S257x64.Idx → EReal
  embP : S257x64.Idx → EReal
  embHP : S257x64.Idx → EReal
  W1s : S3x64x128.Idx → EReal
  W1n : S3x64x128.Idx → EReal
  b1 : S3x128.Idx → EReal
  a1 : S3x128.Idx → EReal
  g1 : S3x128.Idx → EReal
  be1 : S3x128.Idx → EReal
  Ws : S3x3x128x128.Idx → EReal
  Wn : S3x3x128x128.Idx → EReal
  b : S3x3x128.Idx → EReal
  a : S3x3x128.Idx → EReal
  g : S3x3x128.Idx → EReal
  be : S3x3x128.Idx → EReal

/-- Relation `rel`'s embedding table. -/
def Args.tbl (A : Args) (rel : Fin 3) : S257x64.Idx → EReal :=
  match rel with | ⟨0, _⟩ => A.embH | ⟨1, _⟩ => A.embP | ⟨2, _⟩ => A.embHP

/-- Relation `rel`'s node ids. -/
def Args.nid (A : Args) (rel : Fin 3) : IVec S50000 32 :=
  match rel with | ⟨0, _⟩ => A.hIdx | ⟨1, _⟩ => A.pIdx | ⟨2, _⟩ => A.hpIdx

/-- The input features of relation `rel`. -/
def x0 (Dm : Dims) (A : Args) (rel : Fin 3) : S50000x64.Idx → EReal := embed Dm.gE (A.tbl rel) (A.nid rel)

/-- Layer 1 before its normalisation. -/
def p1 (Dm : Dims) (A : Args) (rel : Fin 3) : S50000x128.Idx → EReal :=
  sagePre Dm.g64 Dm.s64 Dm.s1 (x0 Dm A rel) A.src A.dst rel (fun k c => A.W1s (ix3 rel k c)) (fun k c => A.W1n (ix3 rel k c))
    (fun c => A.b1 (ix2 rel c)) (fun c => A.a1 (ix2 rel c))

/-- Layer 1. -/
def h1 (Dm : Dims) (A : Args) (rel : Fin 3) : S50000x128.Idx → EReal :=
  bnorm (p1 Dm A rel) (fun c => A.g1 (ix2 rel c)) (fun c => A.be1 (ix2 rel c))

/-- One of layers 2 to 4 (`l = 0, 1, 2`) on features `x`, before its normalisation. -/
def pNext (Dm : Dims) (A : Args) (l : Fin 3) (x : S50000x128.Idx → EReal) (rel : Fin 3) : S50000x128.Idx → EReal :=
  sagePre Dm.g128 Dm.s128 Dm.s1 x A.src A.dst rel (fun k c => A.Ws (ix4 l rel k c)) (fun k c => A.Wn (ix4 l rel k c))
    (fun c => A.b (ix3 l rel c)) (fun c => A.a (ix3 l rel c))

/-- One of layers 2 to 4 (`l = 0, 1, 2`) on features `x`. -/
def hNext (Dm : Dims) (A : Args) (l : Fin 3) (x : S50000x128.Idx → EReal) (rel : Fin 3) : S50000x128.Idx → EReal :=
  bnorm (pNext Dm A l x rel) (fun c => A.g (ix3 l rel c)) (fun c => A.be (ix3 l rel c))

def h2 (Dm : Dims) (A : Args) (rel : Fin 3) : S50000x128.Idx → EReal := hNext Dm A 0 (h1 Dm A rel) rel
def h3 (Dm : Dims) (A : Args) (rel : Fin 3) : S50000x128.Idx → EReal := hNext Dm A 1 (h2 Dm A rel) rel
def h4 (Dm : Dims) (A : Args) (rel : Fin 3) : S50000x128.Idx → EReal := hNext Dm A 2 (h3 Dm A rel) rel

/-- Relation `rel`'s graph vectors: the four layers, mean-pooled per graph. -/
def vec (Dm : Dims) (A : Args) (rel : Fin 3) : S64x512.Idx → EReal :=
  gmean (gsum Dm.r512 A.seg rel (hcat (h1 Dm A rel) (h2 Dm A rel) (h3 Dm A rel) (h4 Dm A rel))) (gcnt Dm.r1 A.seg rel)

/-- The result: `[64, 1536]`, the three relations side by side. -/
def result (Dm : Dims) (A : Args) : S64x1536.Idx → EReal := vcat (vec Dm A 0) (vec Dm A 1) (vec Dm A 2)

end Cert.Spec
-- ==== Proof.MathBN.lean ====
/-
  The real-number and extended-real laws that join the two formulations of one layer of the network, and the
  propagation of finiteness through the specification's stages.

  Over the extended reals a float is a real number or one of the two infinities; sums and products of real
  numbers are real, but the algebraic laws that rearrange a computation (distributivity, cancelling) may fail at
  the infinities.  Three laws are needed:

  * MEAN AGGREGATION.  Dividing by a real `d ≥ 1` is multiplying by `1/d`, at the infinities too; an in-degree
    (ones added up) is a natural number, so `max(deg, 1)` is such a `d`.
  * VARIANCE.  For REAL samples `p` over `N > 0` indices, `E[p²] − E[p]² = E[(p − E[p])²]`.
  * FINITENESS.  Every stage of the specification maps arrays of reals to arrays of reals: the linear maps and the
    PReLU obviously; the batch normalisation because the biased variance of reals is a real `≥ 0`, so that
    `var + ε > 0` and its reciprocal square root is real.
-/
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Tactic.NormNum
import Mathlib.Tactic.Ring
import Mathlib.Tactic.FieldSimp
import Mathlib.Tactic.Positivity
import proofs.«421328_j30846455120312_1_alg».proof.Proof.Spec

noncomputable section

open scoped BigOperators
open Idealize.ShloMosaic Idealize.ShloMosaic.ValueIdx

namespace Cert.MathBN

open Cert.Spec

/-! ## Real values among the extended reals -/

/-- An extended real that is a real number. -/
abbrev IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type*} (s : Finset ι) (f : ι → EReal) (h : ∀ i ∈ s, IsReal (f i)) : IsReal (∑ i ∈ s, f i) :=
  Finset.sum_induction f IsReal (fun _ _ => IsReal.add) IsReal.zero h

theorem IsReal.select (c : BitVec 1) {x y : EReal} (hx : IsReal x) (hy : IsReal y) : IsReal (Scalar.select c x y) := by
  unfold Scalar.select; split
  · exact hx
  · exact hy

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

theorem IsReal.div_coe {x : EReal} (hx : IsReal x) {y : ℝ} (hy : y ≠ 0) : IsReal (Ideal.div x (y : EReal)) := by
  obtain ⟨a, rfl⟩ := hx; exact ⟨a / y, div_coe_coe a hy⟩

/-- The reciprocal square root of a positive real is real. -/
theorem isReal_rsqrt {x : ℝ} (hx : 0 < x) : IsReal (Ideal.rsqrt (x : EReal)) := by
  rw [Ideal.rsqrt_coe, if_neg (not_lt.2 hx.le), if_neg hx.ne']; exact ⟨_, rfl⟩

/-! ## The float literals -/

theorem oneF_eq : oneF = ((1 : ℝ) : EReal) := by
  simp [Ideal.ofBits, Ideal.ieee]
  norm_cast
  norm_num

theorem oneF_eq_one : oneF = 1 := by rw [oneF_eq, EReal.coe_one]

theorem nF_eq : nF = ((50000 : ℝ) : EReal) := by
  simp [Ideal.ofBits, Ideal.ieee]
  norm_cast
  norm_num

/-- `ε` is a positive real. -/
theorem epsF_pos : ∃ e : ℝ, 0 < e ∧ epsF = (e : EReal) := by
  refine ⟨(10995116 : ℝ) * (1 / 2 ^ 40), by positivity, ?_⟩
  simp [Ideal.ofBits, Ideal.ieee]

/-- The variance's divisor `N − ddof` at `ddof = 0` (the integer zero converted) is `N`. -/
theorem nF_sub_ddof : nF - (((0#32 : BitVec 32).toInt : ℝ) : EReal) = nF := by
  simp

/-- The variance's guard `N − ddof > 0` holds. -/
theorem nF_guard : Ideal.cmp .ogt (nF - (((0#32 : BitVec 32).toInt : ℝ) : EReal)) 0 = 1#1 := by
  rw [nF_sub_ddof, nF_eq]
  have h : (0 : EReal) < ((50000 : ℝ) : EReal) := EReal.coe_pos.2 (by norm_num)
  simp [Ideal.cmp, h]

/-! ## Mean aggregation -/

/-- Multiplying by the reciprocal of a nonzero real is dividing by it, at the infinities too. -/
theorem mul_inv_eq_div (x : EReal) {d : ℝ} (hd : d ≠ 0) : x * Ideal.div 1 (d : EReal) = Ideal.div x (d : EReal) := by
  rw [Ideal.div_coe hd, Ideal.div_coe hd, one_mul]

/-- The larger of a real and one is a real `≥ 1`. -/
theorem max_oneF {dg : EReal} (h : IsReal dg) : ∃ d : ℝ, 1 ≤ d ∧ max dg oneF = (d : EReal) := by
  obtain ⟨r, rfl⟩ := h
  refine ⟨max r 1, le_max_right _ _, ?_⟩
  rw [oneF_eq]; exact (EReal.coe_strictMono.monotone.map_max).symm

/-- The mean-aggregation law: the sum times the reciprocal of `max(deg, 1)` is the sum divided by it. -/
theorem mean_law (x : EReal) {dg : EReal} (h : IsReal dg) :
    x * Ideal.div oneF (max dg oneF) = Ideal.div x (max dg oneF) := by
  obtain ⟨d, hd1, hd⟩ := max_oneF h
  rw [hd, oneF_eq_one]
  exact mul_inv_eq_div x (by linarith)

/-- Ones added up from zero are a natural number. -/
theorem count_nat {s si su : Shape} (d : ScatterDims s si su) {w : Nat} (idx : IVec si w) (i : s.Idx) :
    ∃ n : ℕ, Ideal.hostScatterAdd d (fun _ => 0) idx (fun _ => oneF) i = ((n : ℝ) : EReal) := by
  refine ⟨(Finset.univ.filter fun j => d.resultIdx? j idx = some i).card, ?_⟩
  unfold Ideal.hostScatterAdd
  rw [zero_add, oneF_eq_one, Finset.sum_const, nsmul_one, EReal.coe_natCast]

theorem count_real {s si su : Shape} (d : ScatterDims s si su) {w : Nat} (idx : IVec si w) (i : s.Idx) :
    IsReal (Ideal.hostScatterAdd d (fun _ => 0) idx (fun _ => oneF) i) := by
  obtain ⟨n, hn⟩ := count_nat d idx i; exact ⟨n, hn⟩

/-- The mean-aggregation law at the specification's stage: the neighbour sum times the reciprocal of
    `max(deg, 1)` IS the specification's neighbour mean (no finiteness of the sum needed). -/
theorem nmean_eq_mul {D : Nat} (ns : (SNx D).Idx → EReal) (sd1 : ScatterDims S50000x1 S400000x1 S400000x1)
    (dst : IVec S3x400000 32) (rel : Fin 3) (j : (SNx D).Idx) :
    ns j * Ideal.div oneF (max (deg sd1 dst rel (ix2 (j 0) 0)) oneF) = nmean ns (deg sd1 dst rel) j :=
  mean_law (ns j) (count_real sd1 _ _)

/-- The same at the readout: the graph sum times the reciprocal of `max(count, 1)` IS the graph mean. -/
theorem gmean_eq_mul (gs : S64x512.Idx → EReal) (r1 : ScatterDims S64x1 S50000x1 S50000x1) (seg : IVec S3x50000 32)
    (rel : Fin 3) (j : S64x512.Idx) :
    gs j * Ideal.div oneF (max (gcnt r1 seg rel (ix2 (j 0) 0)) oneF) = gmean gs (gcnt r1 seg rel) j :=
  mean_law (gs j) (count_real r1 _ _)

/-! ## The variance identity -/

/-- Over the reals: the mean of the squares minus the square of the mean is the mean of the squared deviations. -/
theorem var_identity_real {N : ℕ} (hN : 0 < N) (p : Fin N → ℝ) :
    (∑ r, p r * p r) / N - ((∑ r, p r) / N) * ((∑ r, p r) / N)
      = (∑ r, (p r - (∑ r, p r) / N) * (p r - (∑ r, p r) / N)) / N := by
  have hN' : (N : ℝ) ≠ 0 := by exact_mod_cast hN.ne'
  set m : ℝ := (∑ r, p r) / N with hm
  have hS : ∑ r, p r = N * m := by rw [hm]; field_simp
  have h1 : ∑ r, (p r - m) * (p r - m) = (∑ r, p r * p r) - 2 * m * (∑ r, p r) + N * (m * m) := by
    have : ∀ r, (p r - m) * (p r - m) = p r * p r - 2 * m * p r + m * m := fun r => by ring
    simp only [this, Finset.sum_add_distrib, Finset.sum_sub_distrib, ← Finset.mul_sum, Finset.sum_const, Finset.card_univ,
      Fintype.card_fin, nsmul_eq_mul]
    ring
  rw [h1, hS]; field_simp; ring

/-- The same over the extended reals, in the two formulations' own order of operations, for real samples:
    `sq/N − (s/N)·(s/N)` with `s = ∑ p`, `sq = ∑ p·p`, against `(∑ (p − s/N)·(p − s/N)) / N`. -/
theorem var_law (p : Fin 50000 → EReal) (hp : ∀ r, IsReal (p r)) :
    Ideal.div (∑ r, p r * p r) nF - Ideal.div (∑ r, p r) nF * Ideal.div (∑ r, p r) nF
      = Ideal.div (∑ r, (p r - Ideal.div (∑ r, p r) nF) * (p r - Ideal.div (∑ r, p r) nF)) nF := by
  choose q hq using hp
  have hpq : p = fun r => (q r : EReal) := funext hq
  subst hpq
  have h5 : (50000 : ℝ) ≠ 0 := by norm_num
  have key := var_identity_real (N := 50000) (by norm_num) q
  rw [nF_eq]
  simp only [← EReal.coe_mul, ← coe_sum, div_coe_coe _ h5, ← EReal.coe_sub]
  rw [EReal.coe_eq_coe_iff]
  simpa using key

/-- The biased variance of real samples about a real centre is a real `≥ 0`. -/
theorem var_nonneg (p : Fin 50000 → EReal) (hp : ∀ r, IsReal (p r)) {m : EReal} (hm : IsReal m) :
    ∃ v : ℝ, 0 ≤ v ∧ Ideal.div (∑ r, (p r - m) * (p r - m)) nF = (v : EReal) := by
  choose q hq using hp
  obtain ⟨μ, rfl⟩ := hm
  have h5 : (50000 : ℝ) ≠ 0 := by norm_num
  refine ⟨(∑ r, (q r - μ) * (q r - μ)) / 50000, ?_, ?_⟩
  · exact div_nonneg (Finset.sum_nonneg fun r _ => mul_self_nonneg _) (by norm_num)
  · simp only [hq, nF_eq, ← EReal.coe_mul, ← coe_sum, div_coe_coe _ h5, ← EReal.coe_sub]

/-! ## Finiteness through the stages of the specification -/

theorem gather_real {s si t : Shape} (d : GatherDims s si t) (x : s.Idx → EReal) {w : Nat} (idx : IVec si w)
    (hx : ∀ i, IsReal (x i)) (j : t.Idx) : IsReal (Host.gather d x idx j) := hx _

theorem scatterAdd_real {s si su : Shape} (d : ScatterDims s si su) (x : s.Idx → EReal) {w : Nat} (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

theorem nmean_real {D : Nat} (ns : (SNx D).Idx → EReal) (dg : S50000x1.Idx → EReal) (hns : ∀ i, IsReal (ns i))
    (hdg : ∀ i, IsReal (dg i)) (j : (SNx D).Idx) : IsReal (nmean ns dg j) := by
  unfold nmean
  obtain ⟨d, hd1, hd⟩ := max_oneF (hdg (ix2 (j 0) 0))
  rw [hd]; exact (hns j).div_coe (by linarith)

theorem lin_real {D : Nat} (x nm : (SNx D).Idx → EReal) (ws wn : Fin D → Fin 128 → EReal) (b : Fin 128 → EReal)
    (hx : ∀ i, IsReal (x i)) (hnm : ∀ i, IsReal (nm i)) (hws : ∀ k c, IsReal (ws k c)) (hwn : ∀ k c, IsReal (wn k c))
    (hb : ∀ c, IsReal (b c)) (j : S50000x128.Idx) : IsReal (lin x nm ws wn b j) := by
  unfold lin
  exact ((IsReal.sum _ _ fun k _ => (hx _).mul (hws _ _)).add (IsReal.sum _ _ fun k _ => (hnm _).mul (hwn _ _))).add (hb _)

theorem prelu_real (l : S50000x128.Idx → EReal) (a : Fin 128 → EReal) (hl : ∀ i, IsReal (l i)) (ha : ∀ c, IsReal (a c))
    (j : S50000x128.Idx) : IsReal (prelu l a j) := by
  unfold prelu; exact IsReal.select _ (hl j) ((ha _).mul (hl j))

theorem sagePre_real {D : Nat} (gd : GatherDims (SNx D) S400000x1 (SEx D)) (sd : ScatterDims (SNx D) S400000x1 (SEx D))
    (sd1 : ScatterDims S50000x1 S400000x1 S400000x1) (x : (SNx D).Idx → EReal) (src dst : IVec S3x400000 32) (rel : Fin 3)
    (ws wn : Fin D → Fin 128 → EReal) (b a : Fin 128 → EReal)
    (hx : ∀ i, IsReal (x i)) (hws : ∀ k c, IsReal (ws k c)) (hwn : ∀ k c, IsReal (wn k c))
    (hb : ∀ c, IsReal (b c)) (ha : ∀ c, IsReal (a c)) (j : S50000x128.Idx) :
    IsReal (sagePre gd sd sd1 x src dst rel ws wn b a j) := by
  unfold sagePre
  refine prelu_real _ _ (fun i => lin_real _ _ _ _ _ hx (fun i' => nmean_real _ _ (fun i'' => ?_) (fun i'' => ?_) i') hws hwn hb i) ha j
  · exact scatterAdd_real _ _ _ _ (fun _ => IsReal.zero) (fun e => gather_real _ _ _ hx e) i''
  · exact count_real _ _ i''

theorem colSum_real (p : S50000x128.Idx → EReal) (hp : ∀ i, IsReal (p i)) (c : Fin 128) : IsReal (colSum p c) :=
  IsReal.sum _ _ fun r _ => hp _

theorem colMean_real (p : S50000x128.Idx → EReal) (hp : ∀ i, IsReal (p i)) (c : Fin 128) : IsReal (colMean p c) := by
  unfold colMean; rw [nF_eq]; exact (colSum_real p hp c).div_coe (by norm_num)

/-- The column variance of a real array is a real `≥ 0`. -/
theorem colVar_nonneg (p : S50000x128.Idx → EReal) (hp : ∀ i, IsReal (p i)) (c : Fin 128) :
    ∃ v : ℝ, 0 ≤ v ∧ colVar p c = (v : EReal) :=
  var_nonneg (fun r => p (ix2 r c)) (fun r => hp _) (colMean_real p hp c)

/-- The variance identity at a column of the specification: the other formulation's
    `sq/N − mean·mean` IS the specification's column variance, for a real array. -/
theorem colVar_eq (p : S50000x128.Idx → EReal) (hp : ∀ i, IsReal (p i)) (c : Fin 128) :
    Ideal.div (∑ r : Fin 50000, p (ix2 r c) * p (ix2 r c)) nF - colMean p c * colMean p c = colVar p c :=
  var_law (fun r => p (ix2 r c)) (fun r => hp _)

theorem normBy_real (p : S50000x128.Idx → EReal) (mu var g be : Fin 128 → EReal) (hp : ∀ i, IsReal (p i))
    (hmu : ∀ c, IsReal (mu c)) (hvar : ∀ c, ∃ v : ℝ, 0 ≤ v ∧ var c = (v : EReal)) (hg : ∀ c, IsReal (g c))
    (hbe : ∀ c, IsReal (be c)) (j : S50000x128.Idx) : IsReal (normBy p mu var g be j) := by
  unfold normBy
  obtain ⟨v, hv0, hv⟩ := hvar (j 1)
  obtain ⟨e, he0, he⟩ := epsF_pos
  have hr : IsReal (Ideal.rsqrt (var (j 1) + epsF)) := by
    rw [hv, he, ← EReal.coe_add]; exact isReal_rsqrt (by linarith)
  exact (((hg _).mul ((hp j).sub (hmu _))).mul hr).add (hbe _)

theorem bnorm_real (p : S50000x128.Idx → EReal) (g be : Fin 128 → EReal) (hp : ∀ i, IsReal (p i))
    (hg : ∀ c, IsReal (g c)) (hbe : ∀ c, IsReal (be c)) (j : S50000x128.Idx) : IsReal (bnorm p g be j) :=
  normBy_real p _ _ g be hp (colMean_real p hp) (colVar_nonneg p hp) hg hbe j

/-- Every float argument array holds reals only. -/
structure ArgsReal (A : Args) : Prop where
  embH : ∀ i, IsReal (A.embH i)
  embP : ∀ i, IsReal (A.embP i)
  embHP : ∀ i, IsReal (A.embHP i)
  W1s : ∀ i, IsReal (A.W1s i)
  W1n : ∀ i, IsReal (A.W1n i)
  b1 : ∀ i, IsReal (A.b1 i)
  a1 : ∀ i, IsReal (A.a1 i)
  g1 : ∀ i, IsReal (A.g1 i)
  be1 : ∀ i, IsReal (A.be1 i)
  Ws : ∀ i, IsReal (A.Ws i)
  Wn : ∀ i, IsReal (A.Wn i)
  b : ∀ i, IsReal (A.b i)
  a : ∀ i, IsReal (A.a i)
  g : ∀ i, IsReal (A.g i)
  be : ∀ i, IsReal (A.be i)

section network
variable (Dm : Dims) {A : Args} (hA : ArgsReal A)
include hA

theorem x0_real (rel : Fin 3) (i : S50000x64.Idx) : IsReal (x0 Dm A rel i) := by
  unfold x0 embed
  refine gather_real _ _ _ (fun i' => ?_) i
  unfold Args.tbl
  match rel with
  | ⟨0, _⟩ => exact hA.embH i'
  | ⟨1, _⟩ => exact hA.embP i'
  | ⟨2, _⟩ => exact hA.embHP i'

theorem p1_real (rel : Fin 3) (i : S50000x128.Idx) : IsReal (p1 Dm A rel i) := by
  unfold p1
  exact sagePre_real _ _ _ _ _ _ _ _ _ _ _ (x0_real Dm hA rel) (fun _ _ => hA.W1s _) (fun _ _ => hA.W1n _) (fun _ => hA.b1 _)
    (fun _ => hA.a1 _) i

theorem h1_real (rel : Fin 3) (i : S50000x128.Idx) : IsReal (h1 Dm A rel i) := by
  unfold h1
  exact bnorm_real _ _ _ (p1_real Dm hA rel) (fun _ => hA.g1 _) (fun _ => hA.be1 _) i

theorem pNext_real (l : Fin 3) (x : S50000x128.Idx → EReal) (hx : ∀ i, IsReal (x i)) (rel : Fin 3) (i : S50000x128.Idx) :
    IsReal (pNext Dm A l x rel i) := by
  unfold pNext
  exact sagePre_real _ _ _ _ _ _ _ _ _ _ _ hx (fun _ _ => hA.Ws _) (fun _ _ => hA.Wn _) (fun _ => hA.b _) (fun _ => hA.a _) i

theorem hNext_real (l : Fin 3) (x : S50000x128.Idx → EReal) (hx : ∀ i, IsReal (x i)) (rel : Fin 3) (i : S50000x128.Idx) :
    IsReal (hNext Dm A l x rel i) := by
  unfold hNext
  exact bnorm_real _ _ _ (pNext_real Dm hA l x hx rel) (fun _ => hA.g _) (fun _ => hA.be _) i

theorem h2_real (rel : Fin 3) (i : S50000x128.Idx) : IsReal (h2 Dm A rel i) :=
  hNext_real Dm hA 0 _ (h1_real Dm hA rel) rel i

theorem h3_real (rel : Fin 3) (i : S50000x128.Idx) : IsReal (h3 Dm A rel i) :=
  hNext_real Dm hA 1 _ (h2_real Dm hA rel) rel i

theorem h4_real (rel : Fin 3) (i : S50000x128.Idx) : IsReal (h4 Dm A rel i) :=
  hNext_real Dm hA 2 _ (h3_real Dm hA rel) rel i

end network

end Cert.MathBN
-- ==== Proof.KI.ValueMath.lean ====
/-
  The readout of one relation, over the extended reals (no program is imported).

  One relation's graph vectors are the four layers' node features, summed per graph and divided by the graph's node
  count (at least one). The specification lays the four [50000, 128] feature arrays side by side into one
  [50000, 512] array, adds its rows up per graph with one accumulating scatter, and divides by `max(count, 1)`.
  The other formulation keeps the four layers apart: it contracts each [50000, 128] array with the one-hot matrix
  `[seg n = g]` into a [64, 128] array, contracts a column of ones the same way into the counts, multiplies each
  array by `1 / max(count, 1)`, and only then lays the four [64, 128] arrays side by side. Three facts join them:

  * the accumulating scatter by segment ids is the one-hot contraction, for every array of ids (an id outside
    `[0, 64)` is the word of no graph and contributes to neither side);
  * a column of the side-by-side array is a column of one of its four blocks, so the contraction of the side-by-side
    array is the side-by-side array of the contractions;
  * a count is a natural number, so `max(count, 1)` is a real `≥ 1`, and multiplying by its reciprocal is dividing
    by it, whatever the sum (the infinities included).

  The side-by-side arrangements of the program (a concatenation along the columns of a list of arrays) are read at an
  index through the piece whose span holds the column; they are the specification's `vcat` and this file's `gcat`.

  Last, "every float argument holds reals only", given as a conjunction over the fifteen float arguments, is the
  hypothesis record the finiteness lemmas take.
-/
import proofs.«421328_j30846455120312_1_alg».proof.Proof.Spec
import proofs.«421328_j30846455120312_1_alg».proof.Proof.MathBN
import proofs.«421328_j30846455120312_1_alg».proof.Proof.MathOneHot
import Idealize.ShloMosaic.Lib.Pipeline.Value

noncomputable section

open scoped BigOperators
open Idealize.ShloMosaic Idealize.ShloMosaic.ValueIdx

namespace Cert.ValueMath

open Cert.Spec

abbrev S64x128 : Shape := ⟨2, ![64, 128]⟩

/-! ## Arrays side by side, read at a column -/

/-- Four [64, 128] arrays side by side. -/
def gcat (a b c d : S64x128.Idx → EReal) : S64x512.Idx → EReal := fun j =>
  if h0 : (j 1).val < 128 then a (ix2 (j 0) ⟨(j 1).val, h0⟩)
  else if h1 : (j 1).val < 256 then b (ix2 (j 0) ⟨(j 1).val - 128, by omega⟩)
  else if h2 : (j 1).val < 384 then c (ix2 (j 0) ⟨(j 1).val - 256, by omega⟩)
  else d (ix2 (j 0) ⟨(j 1).val - 384, by have := idx2_lt1 j; omega⟩)

theorem gcat_apply0 (a b c d : S64x128.Idx → EReal) (g : Fin 64) (k : Fin 512) (h0 : k.val < 128) :
    gcat a b c d (ix2 g k) = a (ix2 g ⟨k.val, h0⟩) := dif_pos h0

theorem gcat_apply1 (a b c d : S64x128.Idx → EReal) (g : Fin 64) (k : Fin 512) (h0 : ¬ k.val < 128) (h1 : k.val < 256) :
    gcat a b c d (ix2 g k) = b (ix2 g ⟨k.val - 128, by omega⟩) := (dif_neg h0).trans (dif_pos h1)

theorem gcat_apply2 (a b c d : S64x128.Idx → EReal) (g : Fin 64) (k : Fin 512) (h0 : ¬ k.val < 128) (h1 : ¬ k.val < 256)
    (h2 : k.val < 384) :
    gcat a b c d (ix2 g k) = c (ix2 g ⟨k.val - 256, by omega⟩) := (dif_neg h0).trans ((dif_neg h1).trans (dif_pos h2))

theorem gcat_apply3 (a b c d : S64x128.Idx → EReal) (g : Fin 64) (k : Fin 512) (h0 : ¬ k.val < 128) (h1 : ¬ k.val < 256)
    (h2 : ¬ k.val < 384) :
    gcat a b c d (ix2 g k) = d (ix2 g ⟨k.val - 384, by have := k.isLt; omega⟩) :=
  (dif_neg h0).trans ((dif_neg h1).trans (dif_neg h2))

theorem hcat_apply0 (a b c d : S50000x128.Idx → EReal) (g : Fin 50000) (k : Fin 512) (h0 : k.val < 128) :
    hcat a b c d (ix2 g k) = a (ix2 g ⟨k.val, h0⟩) := dif_pos h0

theorem hcat_apply1 (a b c d : S50000x128.Idx → EReal) (g : Fin 50000) (k : Fin 512) (h0 : ¬ k.val < 128) (h1 : k.val < 256) :
    hcat a b c d (ix2 g k) = b (ix2 g ⟨k.val - 128, by omega⟩) := (dif_neg h0).trans (dif_pos h1)

theorem hcat_apply2 (a b c d : S50000x128.Idx → EReal) (g : Fin 50000) (k : Fin 512) (h0 : ¬ k.val < 128) (h1 : ¬ k.val < 256)
    (h2 : k.val < 384) :
    hcat a b c d (ix2 g k) = c (ix2 g ⟨k.val - 256, by omega⟩) := (dif_neg h0).trans ((dif_neg h1).trans (dif_pos h2))

theorem hcat_apply3 (a b c d : S50000x128.Idx → EReal) (g : Fin 50000) (k : Fin 512) (h0 : ¬ k.val < 128) (h1 : ¬ k.val < 256)
    (h2 : ¬ k.val < 384) :
    hcat a b c d (ix2 g k) = d (ix2 g ⟨k.val - 384, by have := k.isLt; omega⟩) :=
  (dif_neg h0).trans ((dif_neg h1).trans (dif_neg h2))

/-- Three [64, 512] arrays side by side, read at a column of each block. -/
theorem vcat_apply0 (a b c : S64x512.Idx → EReal) (g : Fin 64) (k : Fin 1536) (h0 : k.val < 512) :
    vcat a b c (ix2 g k) = a (ix2 g ⟨k.val, h0⟩) := dif_pos h0

theorem vcat_apply1 (a b c : S64x512.Idx → EReal) (g : Fin 64) (k : Fin 1536) (h0 : ¬ k.val < 512) (h1 : k.val < 1024) :
    vcat a b c (ix2 g k) = b (ix2 g ⟨k.val - 512, by omega⟩) := (dif_neg h0).trans (dif_pos h1)

theorem vcat_apply2 (a b c : S64x512.Idx → EReal) (g : Fin 64) (k : Fin 1536) (h0 : ¬ k.val < 512) (h1 : ¬ k.val < 1024) :
    vcat a b c (ix2 g k) = c (ix2 g ⟨k.val - 1024, by have := k.isLt; omega⟩) := (dif_neg h0).trans (dif_neg h1)

/-- Off the concatenation axis (the columns) an index of a piece has the row of the whole index. -/
theorem row_of_piece {n m M : Nat} (g : Fin n) (k' : Fin m) (k : Fin M) (b : Fin 2)
    (hb : b.cast (rfl : (2 : Nat) = 2) ≠ (1 : Fin 2)) : ((ix2 g k') b).val = ((ix2 g k) (b.cast rfl)).val := by
  match b with
  | ⟨0, _⟩ => rfl
  | ⟨1, _⟩ => exact absurd rfl hb

/-- The four-way concatenation of [64, 128] arrays along the columns is `gcat`. -/
theorem concat4_eq (a b c d : S64x128.Idx → EReal)
    (h : Shape.Concatenates [S64x128, S64x128, S64x128, S64x128] S64x512 1) :
    concatenate S64x512 1 [⟨S64x128, a⟩, ⟨S64x128, b⟩, ⟨S64x128, c⟩, ⟨S64x128, d⟩] h = gcat a b c d := by
  funext j
  obtain ⟨g, k, rfl⟩ : ∃ g k, j = ix2 g k := ⟨j 0, j 1, eq_ix2 j⟩
  by_cases h0 : k.val < 128
  · rw [gcat_apply0 _ _ _ _ g k h0]
    refine concatenate_apply_piece 1 [⟨S64x128, a⟩, ⟨S64x128, b⟩, ⟨S64x128, c⟩, ⟨S64x128, d⟩] h (ix2 g k) 0 (Nat.succ_pos _)
      S64x128 a rfl rfl 0 rfl _ (row_of_piece g _ k) ?_
    show 0 + k.val = k.val
    omega
  by_cases h1 : k.val < 256
  · rw [gcat_apply1 _ _ _ _ g k h0 h1]
    refine concatenate_apply_piece 1 [⟨S64x128, a⟩, ⟨S64x128, b⟩, ⟨S64x128, c⟩, ⟨S64x128, d⟩] h (ix2 g k) 1 (by show 1 < 4; omega)
      S64x128 b rfl rfl 128 rfl _ (row_of_piece g _ k) ?_
    show 128 + (k.val - 128) = k.val
    omega
  by_cases h2 : k.val < 384
  · rw [gcat_apply2 _ _ _ _ g k h0 h1 h2]
    refine concatenate_apply_piece 1 [⟨S64x128, a⟩, ⟨S64x128, b⟩, ⟨S64x128, c⟩, ⟨S64x128, d⟩] h (ix2 g k) 2 (by show 2 < 4; omega)
      S64x128 c rfl rfl 256 rfl _ (row_of_piece g _ k) ?_
    show 256 + (k.val - 256) = k.val
    omega
  · rw [gcat_apply3 _ _ _ _ g k h0 h1 h2]
    refine concatenate_apply_piece 1 [⟨S64x128, a⟩, ⟨S64x128, b⟩, ⟨S64x128, c⟩, ⟨S64x128, d⟩] h (ix2 g k) 3 (by show 3 < 4; omega)
      S64x128 d rfl rfl 384 rfl _ (row_of_piece g _ k) ?_
    show 384 + (k.val - 384) = k.val
    omega

/-- The three-way concatenation of [64, 512] arrays along the columns is the specification's `vcat`. -/
theorem concat3_eq (a b c : S64x512.Idx → EReal)
    (h : Shape.Concatenates [S64x512, S64x512, S64x512] S64x1536 1) :
    concatenate S64x1536 1 [⟨S64x512, a⟩, ⟨S64x512, b⟩, ⟨S64x512, c⟩] h = vcat a b c := by
  funext j
  obtain ⟨g, k, rfl⟩ : ∃ g k, j = ix2 g k := ⟨j 0, j 1, eq_ix2 j⟩
  by_cases h0 : k.val < 512
  · rw [vcat_apply0 _ _ _ g k h0]
    refine concatenate_apply_piece 1 [⟨S64x512, a⟩, ⟨S64x512, b⟩, ⟨S64x512, c⟩] h (ix2 g k) 0 (Nat.succ_pos _)
      S64x512 a rfl rfl 0 rfl _ (row_of_piece g _ k) ?_
    show 0 + k.val = k.val
    omega
  by_cases h1 : k.val < 1024
  · rw [vcat_apply1 _ _ _ g k h0 h1]
    refine concatenate_apply_piece 1 [⟨S64x512, a⟩, ⟨S64x512, b⟩, ⟨S64x512, c⟩] h (ix2 g k) 1 (by show 1 < 3; omega)
      S64x512 b rfl rfl 512 rfl _ (row_of_piece g _ k) ?_
    show 512 + (k.val - 512) = k.val
    omega
  · rw [vcat_apply2 _ _ _ g k h0 h1]
    refine concatenate_apply_piece 1 [⟨S64x512, a⟩, ⟨S64x512, b⟩, ⟨S64x512, c⟩] h (ix2 g k) 2 (by show 2 < 3; omega)
      S64x512 c rfl rfl 1024 rfl _ (row_of_piece g _ k) ?_
    show 1024 + (k.val - 1024) = k.val
    omega

/-! ## The readout -/

/-- A graph's node count is a natural number. -/
theorem gcnt_nat (r1 : ScatterDims S64x1 S50000x1 S50000x1) (seg : IVec S3x50000 32) (rel : Fin 3) :
    ∀ j, ∃ n : ℕ, gcnt r1 seg rel j = ((n : ℝ) : EReal) := fun j => MathBN.count_nat r1 _ j

/-- The counts as the one-hot sums. -/
theorem gcnt_apply (r1 : ScatterDims S64x1 S50000x1 S50000x1)
    (h1 : r1.updateWindowDims = [1] ∧ r1.insertedWindowDims = [0] ∧ r1.scatterDimsToOperandDims = [0] ∧ r1.indexVectorDim = 1)
    (seg : IVec S3x50000 32) (rel : Fin 3) (g : Fin 64) :
    gcnt r1 seg rel (ix2 g 0)
      = ∑ n : Fin 50000, (if rowIdx seg rel (ix2 n 0) = BitVec.ofNat 32 g.val then (1 : EReal) else 0) := by
  unfold gcnt
  rw [MathBN.oneF_eq_one]
  exact MathOneHot.hostScatterAdd_segment_ones r1 h1.1 h1.2.1 h1.2.2.1 h1.2.2.2 (rowIdx seg rel) g 0

/-- The per-graph sums as the one-hot contraction. -/
theorem gsum_apply (r512 : ScatterDims S64x512 S50000x1 S50000x512)
    (h512 : r512.updateWindowDims = [1] ∧ r512.insertedWindowDims = [0] ∧ r512.scatterDimsToOperandDims = [0] ∧ r512.indexVectorDim = 1)
    (seg : IVec S3x50000 32) (rel : Fin 3) (hc : S50000x512.Idx → EReal) (g : Fin 64) (k : Fin 512) :
    gsum r512 seg rel hc (ix2 g k)
      = ∑ n : Fin 50000, (if rowIdx seg rel (ix2 n 0) = BitVec.ofNat 32 g.val then (1 : EReal) else 0) * hc (ix2 n k) :=
  MathOneHot.hostScatterAdd_segment_zero r512 h512.1 h512.2.1 h512.2.2.1 h512.2.2.2 (rowIdx seg rel) hc g k

/-- ONE RELATION'S GRAPH VECTORS. The four one-hot contractions `G1 … G4` of the four layers' features, each times the
    reciprocal of `max(count, 1)`, laid side by side, are the specification's mean over each graph's nodes of the four
    layers laid side by side. No hypothesis on the features or on the segment ids. -/
theorem vec_eq (r512 : ScatterDims S64x512 S50000x1 S50000x512) (r1 : ScatterDims S64x1 S50000x1 S50000x1)
    (h512 : r512.updateWindowDims = [1] ∧ r512.insertedWindowDims = [0] ∧ r512.scatterDimsToOperandDims = [0] ∧ r512.indexVectorDim = 1)
    (h1 : r1.updateWindowDims = [1] ∧ r1.insertedWindowDims = [0] ∧ r1.scatterDimsToOperandDims = [0] ∧ r1.indexVectorDim = 1)
    (seg : IVec S3x50000 32) (rel : Fin 3) (x1 x2 x3 x4 : S50000x128.Idx → EReal)
    (G1 G2 G3 G4 : S64x128.Idx → EReal) (cnt : S64x1.Idx → EReal)
    (hG1 : ∀ (g : Fin 64) (j : Fin 128), G1 (ix2 g j)
      = ∑ n : Fin 50000, (if rowIdx seg rel (ix2 n 0) = BitVec.ofNat 32 g.val then (1 : EReal) else 0) * x1 (ix2 n j))
    (hG2 : ∀ (g : Fin 64) (j : Fin 128), G2 (ix2 g j)
      = ∑ n : Fin 50000, (if rowIdx seg rel (ix2 n 0) = BitVec.ofNat 32 g.val then (1 : EReal) else 0) * x2 (ix2 n j))
    (hG3 : ∀ (g : Fin 64) (j : Fin 128), G3 (ix2 g j)
      = ∑ n : Fin 50000, (if rowIdx seg rel (ix2 n 0) = BitVec.ofNat 32 g.val then (1 : EReal) else 0) * x3 (ix2 n j))
    (hG4 : ∀ (g : Fin 64) (j : Fin 128), G4 (ix2 g j)
      = ∑ n : Fin 50000, (if rowIdx seg rel (ix2 n 0) = BitVec.ofNat 32 g.val then (1 : EReal) else 0) * x4 (ix2 n j))
    (hcnt : ∀ g : Fin 64, cnt (ix2 g 0)
      = ∑ n : Fin 50000, (if rowIdx seg rel (ix2 n 0) = BitVec.ofNat 32 g.val then (1 : EReal) else 0)) :
    gcat (fun i => G1 i * Ideal.div oneF (max (cnt (ix2 (i 0) 0)) oneF))
        (fun i => G2 i * Ideal.div oneF (max (cnt (ix2 (i 0) 0)) oneF))
        (fun i => G3 i * Ideal.div oneF (max (cnt (ix2 (i 0) 0)) oneF))
        (fun i => G4 i * Ideal.div oneF (max (cnt (ix2 (i 0) 0)) oneF))
      = gmean (gsum r512 seg rel (hcat x1 x2 x3 x4)) (gcnt r1 seg rel) := by
  funext j
  obtain ⟨g, k, rfl⟩ : ∃ g k, j = ix2 g k := ⟨j 0, j 1, eq_ix2 j⟩
  rw [← MathBN.gmean_eq_mul, gsum_apply r512 h512]
  have hc : cnt (ix2 g 0) = gcnt r1 seg rel (ix2 g 0) := (hcnt g).trans (gcnt_apply r1 h1 seg rel g).symm
  show _ = _ * Ideal.div oneF (max (gcnt r1 seg rel (ix2 g 0)) oneF)
  rw [← hc]
  by_cases h0 : k.val < 128
  · rw [gcat_apply0 _ _ _ _ g k h0]
    show G1 (ix2 g ⟨k.val, h0⟩) * Ideal.div oneF (max (cnt (ix2 g 0)) oneF) = _
    rw [hG1]
    simp only [hcat_apply0 _ _ _ _ _ k h0]
  by_cases h1' : k.val < 256
  · rw [gcat_apply1 _ _ _ _ g k h0 h1']
    show G2 (ix2 g ⟨k.val - 128, _⟩) * Ideal.div oneF (max (cnt (ix2 g 0)) oneF) = _
    rw [hG2]
    simp only [hcat_apply1 _ _ _ _ _ k h0 h1']
  by_cases h2 : k.val < 384
  · rw [gcat_apply2 _ _ _ _ g k h0 h1' h2]
    show G3 (ix2 g ⟨k.val - 256, _⟩) * Ideal.div oneF (max (cnt (ix2 g 0)) oneF) = _
    rw [hG3]
    simp only [hcat_apply2 _ _ _ _ _ k h0 h1' h2]
  · rw [gcat_apply3 _ _ _ _ g k h0 h1' h2]
    show G4 (ix2 g ⟨k.val - 384, _⟩) * Ideal.div oneF (max (cnt (ix2 g 0)) oneF) = _
    rw [hG4]
    simp only [hcat_apply3 _ _ _ _ _ k h0 h1' h2]

/-- The contraction of the side-by-side array is the side-by-side array of the contractions. -/
theorem segSum_hcat (sg : IVec S50000x1 32) (x1 x2 x3 x4 : S50000x128.Idx → EReal) :
    MathOneHot.segSum sg (hcat x1 x2 x3 x4)
      = gcat (MathOneHot.segSum sg x1) (MathOneHot.segSum sg x2) (MathOneHot.segSum sg x3) (MathOneHot.segSum sg x4) := by
  funext j
  obtain ⟨g, k, rfl⟩ : ∃ g k, j = ix2 g k := ⟨j 0, j 1, eq_ix2 j⟩
  rw [MathOneHot.segSum_apply]
  by_cases h0 : k.val < 128
  · rw [gcat_apply0 _ _ _ _ g k h0, MathOneHot.segSum_apply]
    simp only [hcat_apply0 _ _ _ _ _ k h0]
  by_cases h1 : k.val < 256
  · rw [gcat_apply1 _ _ _ _ g k h0 h1, MathOneHot.segSum_apply]
    simp only [hcat_apply1 _ _ _ _ _ k h0 h1]
  by_cases h2 : k.val < 384
  · rw [gcat_apply2 _ _ _ _ g k h0 h1 h2, MathOneHot.segSum_apply]
    simp only [hcat_apply2 _ _ _ _ _ k h0 h1 h2]
  · rw [gcat_apply3 _ _ _ _ g k h0 h1 h2, MathOneHot.segSum_apply]
    simp only [hcat_apply3 _ _ _ _ _ k h0 h1 h2]

/-- The same with the contractions by name: the four segment sums of the layers' features and the segment sums of a
    column of ones, under segment ids `sg` that are relation `rel`'s row of the [3, 50000] id array. -/
theorem vec_eq_segSum (r512 : ScatterDims S64x512 S50000x1 S50000x512) (r1 : ScatterDims S64x1 S50000x1 S50000x1)
    (h512 : r512.updateWindowDims = [1] ∧ r512.insertedWindowDims = [0] ∧ r512.scatterDimsToOperandDims = [0] ∧ r512.indexVectorDim = 1)
    (h1 : r1.updateWindowDims = [1] ∧ r1.insertedWindowDims = [0] ∧ r1.scatterDimsToOperandDims = [0] ∧ r1.indexVectorDim = 1)
    (seg : IVec S3x50000 32) (rel : Fin 3) (sg : IVec S50000x1 32) (hsg : sg = rowIdx seg rel)
    (x1 x2 x3 x4 : S50000x128.Idx → EReal) :
    gcat (fun i => MathOneHot.segSum sg x1 i
            * Ideal.div oneF (max (MathOneHot.segSum (C := 1) sg (fun _ => (1 : EReal)) (ix2 (i 0) 0)) oneF))
        (fun i => MathOneHot.segSum sg x2 i
            * Ideal.div oneF (max (MathOneHot.segSum (C := 1) sg (fun _ => (1 : EReal)) (ix2 (i 0) 0)) oneF))
        (fun i => MathOneHot.segSum sg x3 i
            * Ideal.div oneF (max (MathOneHot.segSum (C := 1) sg (fun _ => (1 : EReal)) (ix2 (i 0) 0)) oneF))
        (fun i => MathOneHot.segSum sg x4 i
            * Ideal.div oneF (max (MathOneHot.segSum (C := 1) sg (fun _ => (1 : EReal)) (ix2 (i 0) 0)) oneF))
      = gmean (gsum r512 seg rel (hcat x1 x2 x3 x4)) (gcnt r1 seg rel) := by
  subst hsg
  refine vec_eq r512 r1 h512 h1 seg rel x1 x2 x3 x4 _ _ _ _ _ (fun g j => rfl) (fun g j => rfl) (fun g j => rfl)
    (fun g j => rfl) (fun g => ?_)
  rw [MathOneHot.segSum_apply]
  exact Finset.sum_congr rfl fun n _ => mul_one _

/-! ## The arguments hold reals -/

/-- The specification's argument record from the 21 argument arrays, in the entry point's order. -/
def mkArgs (a0 a1 a2 : IVec S50000 32) (a3 a4 : IVec S3x400000 32) (a5 : IVec S3x50000 32)
    (a6 a7 a8 : S257x64.Idx → EReal) (a9 a10 : S3x64x128.Idx → EReal) (a11 a12 a13 a14 : S3x128.Idx → EReal)
    (a15 a16 : S3x3x128x128.Idx → EReal) (a17 a18 a19 a20 : S3x3x128.Idx → EReal) : Args :=
  { hIdx := a0, pIdx := a1, hpIdx := a2, src := a3, dst := a4, seg := a5, embH := a6, embP := a7, embHP := a8,
    W1s := a9, W1n := a10, b1 := a11, a1 := a12, g1 := a13, be1 := a14, Ws := a15, Wn := a16, b := a17, a := a18,
    g := a19, be := a20 }

/-- "Each of the fifteen float arguments holds reals only", as a conjunction in the arguments' order, is the
    hypothesis record of the finiteness lemmas. -/
theorem argsReal_mk (a0 a1 a2 : IVec S50000 32) (a3 a4 : IVec S3x400000 32) (a5 : IVec S3x50000 32)
    (a6 a7 a8 : S257x64.Idx → EReal) (a9 a10 : S3x64x128.Idx → EReal) (a11 a12 a13 a14 : S3x128.Idx → EReal)
    (a15 a16 : S3x3x128x128.Idx → EReal) (a17 a18 a19 a20 : S3x3x128.Idx → EReal)
    (h : (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a11 i = (r : EReal))
      ∧ (∀ i, ∃ r : ℝ, a12 i = (r : EReal)) ∧ (∀ i, ∃ r : ℝ, a13 i = (r : EReal)) ∧ (∀ i, ∃ r : ℝ, a14 i = (r : EReal))
      ∧ (∀ i, ∃ r : ℝ, a15 i = (r : EReal)) ∧ (∀ i, ∃ r : ℝ, a16 i = (r : EReal)) ∧ (∀ i, ∃ r : ℝ, a17 i = (r : EReal))
      ∧ (∀ i, ∃ r : ℝ, a18 i = (r : EReal)) ∧ (∀ i, ∃ r : ℝ, a19 i = (r : EReal)) ∧ (∀ i, ∃ r : ℝ, a20 i = (r : EReal))) :
    MathBN.ArgsReal (mkArgs a0 a1 a2 a3 a4 a5 a6 a7 a8 a9 a10 a11 a12 a13 a14 a15 a16 a17 a18 a19 a20) := by
  obtain ⟨h6, h7, h8, h9, h10, h11, h12, h13, h14, h15, h16, h17, h18, h19, h20⟩ := h
  exact ⟨h6, h7, h8, h9, h10, h11, h12, h13, h14, h15, h16, h17, h18, h19, h20⟩

end Cert.ValueMath
-- ==== Proof.KI.ValueArgs.lean ====
/-
  The 21 argument arrays of the kernel program at one core, as the specification's argument record.
-/
import proofs.«421328_j30846455120312_1_alg».proof.KernelIdeal
import proofs.«421328_j30846455120312_1_alg».proof.Proof.Spec
import proofs.«421328_j30846455120312_1_alg».proof.Proof.KI.ValueMath
import Idealize.ShloMosaic.PureOps.Ideal

noncomputable section

namespace Cert.KernelIdeal.Gen

open Idealize.ShloMosaic Idealize.ShloMosaic.TcCoe
open Idealize.SL Idealize.SL.Sem

/-- The argument arrays of core `c` in the memory `m`, in the entry point's order. -/
abbrev argsOf (m : (ℓ : Loc nD τ sig) → Buf (Elt Ideal) ℓ) (c : Dev nD) : Cert.Spec.Args :=
  Cert.ValueMath.mkArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))

end Cert.KernelIdeal.Gen
-- ==== Proof.KI.ValueChains.lean ====
/-
  Reading the host's index and weight chains at an index: a row of a [3, E] integer array laid out as a column
  [E, 1] (by slice, reshape and broadcast, or by slice and two reshapes), the negative-index wrap, a [3, a, b]
  stack's member, a [3, 3, a, b] stack's member of a member, a [3, n] table's row as a [1, n] row, and the two
  broadcasts (a scalar to any shape, a column along the columns). Shapes are literal; the side conditions of the
  slices, reshapes and broadcasts are arbitrary proofs, so each lemma applies to whichever record a program prints.
-/
import Idealize.ShloMosaic.PureOps.Ideal
import Idealize.ShloMosaic.Lib.Pipeline.Value
import Idealize.ShloMosaic.Lib.ValueIdx
import Idealize.ShloMosaic.Lib.ValueLayout
import Idealize.ShloMosaic.Lib.IdealHost

noncomputable section

namespace Cert.Chains

open Idealize.ShloMosaic Idealize.ShloMosaic.ValueIdx

variable {α : Type}

/-- Row `r` of a [3, E] array, cut out as [1, E]: at (u, e) the array at (r, e). -/
theorem slice_row {E : Nat} (r : Fin 3) (A : (⟨2, ![3, E]⟩ : Shape).Idx → α)
    (h : (⟨2, ![3, E]⟩ : Shape).Slices ![r.val, 0] ⟨2, ![1, E]⟩) (u : Fin 1) (e : Fin E) :
    extractStridedSlice ⟨2, ![1, E]⟩ ![r.val, 0] A h (ix2 u e) = A (ix2 r e) :=
  slice2_axis0_apply r.val A h u e r (by have := u.isLt; omega)

/-- Row `r` of a [3, E] array as a vector [E]. -/
theorem row_vec {E : Nat} (r : Fin 3) (A : (⟨2, ![3, E]⟩ : Shape).Idx → α)
    (h : (⟨2, ![3, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] A h) hc (ix1 e) = A (ix2 r e) := by
  rw [shapeCast_1a_a_apply, slice_row]

/-- A vector [E] broadcast to a column [E, 1]: at j the vector at j's row. -/
theorem col_of_vec {E : Nat} (v : (⟨1, ![E]⟩ : Shape).Idx → α)
    (hb : (⟨1, ![E]⟩ : Shape).BroadcastsInDim ⟨2, ![E, 1]⟩ ![0]) (j : (⟨2, ![E, 1]⟩ : Shape).Idx) :
    broadcastInDim ⟨2, ![E, 1]⟩ ![0] hb v j = v (ix1 (j 0)) :=
  broadcastInDim_apply _ hb v j _ (fun a => by
    match a with
    | ⟨0, _⟩ =>
      have h2 : (j 0).val < E := (j 0).isLt
      show (j 0).val = if E = 1 then 0 else (j 0).val
      split
      · omega
      · rfl)

/-- A vector [E] reshaped to a column [E, 1]: at j the vector at j's row. -/
theorem col_of_vec_cast {E : Nat} (v : (⟨1, ![E]⟩ : Shape).Idx → α)
    (hc : (⟨1, ![E]⟩ : Shape).ShapeCasts ⟨2, ![E, 1]⟩) (j : (⟨2, ![E, 1]⟩ : Shape).Idx) :
    shapeCast ⟨2, ![E, 1]⟩ v hc j = v (ix1 (j 0)) :=
  shapeCast_apply v hc j _ (by
    rw [Shape.rowMajor_val_two, Shape.rowMajor_val_one]
    have h1 : (j 1).val < 1 := (j 1).isLt
    show (j 0).val = (j 0).val * 1 + (j 1).val
    omega)

/-- A scalar broadcast to any shape. -/
theorem bcast_scalar {T : Shape} (h : (⟨0, ![]⟩ : Shape).BroadcastsInDim T ![]) (x : (⟨0, ![]⟩ : Shape).Idx → α) (j : T.Idx) :
    broadcastInDim T ![] h x j = x ix0 := broadcastInDim_scalar_apply h x j

/-- A column [n, 1] broadcast along D columns: at j the column at j's row. -/
theorem bcast_col {n D : Nat} (v : (⟨2, ![n, 1]⟩ : Shape).Idx → α)
    (hb : (⟨2, ![n, 1]⟩ : Shape).BroadcastsInDim ⟨2, ![n, D]⟩ ![0, 1]) (j : (⟨2, ![n, D]⟩ : Shape).Idx) :
    broadcastInDim ⟨2, ![n, D]⟩ ![0, 1] hb v j = v (ix2 (j 0) 0) :=
  broadcastInDim_apply _ hb v j _ (fun a => by
    match a with
    | ⟨0, _⟩ =>
      have h2 : (j 0).val < n := (j 0).isLt
      show (j 0).val = if n = 1 then 0 else (j 0).val
      split
      · omega
      · rfl
    | ⟨1, _⟩ =>
      show (0 : Nat) = if (1 : Nat) = 1 then 0 else (j 1).val
      rfl)

/-- Member `r` of a [3, a, b] stack as an [a, b] matrix. -/
theorem member3 {a b : Nat} (r : Fin 3) (A : (⟨3, ![3, a, b]⟩ : Shape).Idx → α)
    (h : (⟨3, ![3, a, b]⟩ : Shape).Slices ![r.val, 0, 0] ⟨3, ![1, a, b]⟩)
    (hc : (⟨3, ![1, a, b]⟩ : Shape).ShapeCasts ⟨2, ![a, b]⟩) (k : Fin a) (c : Fin b) :
    shapeCast ⟨2, ![a, b]⟩ (extractStridedSlice ⟨3, ![1, a, b]⟩ ![r.val, 0, 0] A h) hc (ix2 k c) = A (ix3 r k c) := by
  rw [shapeCast_1ab_ab_apply]
  exact extractStridedSlice_apply _ A h _ _ (fun ax => by
    match ax with
    | ⟨0, _⟩ => exact (Nat.add_zero _).symm
    | ⟨1, _⟩ => exact (Nat.zero_add _).symm
    | ⟨2, _⟩ => exact (Nat.zero_add _).symm)

/-- Member `l` of a [3, 3, a, b] stack as a [3, a, b] stack. -/
theorem member4 {a b : Nat} (l : Fin 3) (A : (⟨4, ![3, 3, a, b]⟩ : Shape).Idx → α)
    (h : (⟨4, ![3, 3, a, b]⟩ : Shape).Slices ![l.val, 0, 0, 0] ⟨4, ![1, 3, a, b]⟩)
    (hc : (⟨4, ![1, 3, a, b]⟩ : Shape).ShapeCasts ⟨3, ![3, a, b]⟩) (r : Fin 3) (k : Fin a) (c : Fin b) :
    shapeCast ⟨3, ![3, a, b]⟩ (extractStridedSlice ⟨4, ![1, 3, a, b]⟩ ![l.val, 0, 0, 0] A h) hc (ix3 r k c) = A (ix4 l r k c) := by
  rw [shapeCast_1abc_abc_apply]
  exact extractStridedSlice_apply _ A h _ _ (fun ax => by
    match ax with
    | ⟨0, _⟩ => exact (Nat.add_zero _).symm
    | ⟨1, _⟩ => exact (Nat.zero_add _).symm
    | ⟨2, _⟩ => exact (Nat.zero_add _).symm
    | ⟨3, _⟩ => exact (Nat.zero_add _).symm)

/-- Member `l` of a [3, 3, n] stack as a [3, n] table. -/
theorem member3t {n : Nat} (l : Fin 3) (A : (⟨3, ![3, 3, n]⟩ : Shape).Idx → α)
    (h : (⟨3, ![3, 3, n]⟩ : Shape).Slices ![l.val, 0, 0] ⟨3, ![1, 3, n]⟩)
    (hc : (⟨3, ![1, 3, n]⟩ : Shape).ShapeCasts ⟨2, ![3, n]⟩) (r : Fin 3) (c : Fin n) :
    shapeCast ⟨2, ![3, n]⟩ (extractStridedSlice ⟨3, ![1, 3, n]⟩ ![l.val, 0, 0] A h) hc (ix2 r c) = A (ix3 l r c) :=
  member3 l A h hc r c

/-- Row `r` of a [3, n] table as a [1, n] row (slice, reshape to a vector, reshape back to a row). -/
theorem row_row {n : Nat} (r : Fin 3) (A : (⟨2, ![3, n]⟩ : Shape).Idx → α)
    (h : (⟨2, ![3, n]⟩ : Shape).Slices ![r.val, 0] ⟨2, ![1, n]⟩)
    (hc : (⟨2, ![1, n]⟩ : Shape).ShapeCasts ⟨1, ![n]⟩) (hc' : (⟨1, ![n]⟩ : Shape).ShapeCasts ⟨2, ![1, n]⟩)
    (u : Fin 1) (c : Fin n) :
    shapeCast ⟨2, ![1, n]⟩ (shapeCast ⟨1, ![n]⟩ (extractStridedSlice ⟨2, ![1, n]⟩ ![r.val, 0] A h) hc) hc' (ix2 u c) = A (ix2 r c) := by
  rw [shapeCast_a_1a_apply, row_vec]

end Cert.Chains
-- ==== Proof.KI.ValueReads.lean ====
/-
  The host chains of one relation of one layer, read into the specification's terms: the negative-index wrap and the
  edge columns, the aggregation (gather at the sources, accumulating scatter at the targets, times the reciprocal of
  max(degree, 1)), the reciprocal degree itself and the embedding lookup. Each statement's left side is the whole-array
  term a host stretch evaluates to, over arbitrary side-condition proofs; the right side is the specification's stage.
-/
import proofs.«421328_j30846455120312_1_alg».proof.Proof.Spec
import proofs.«421328_j30846455120312_1_alg».proof.Proof.KI.ValueChains
import Idealize.ShloMosaic.PureOps.Ideal.Laws

set_option maxRecDepth 65536

noncomputable section

namespace Cert.Reads

open scoped BigOperators
open Idealize.ShloMosaic Idealize.ShloMosaic.ValueIdx Cert.Spec

abbrev S_ : Shape := ⟨0, ![]⟩
abbrev SE : Shape := ⟨1, ![400000]⟩
abbrev S1xE : Shape := ⟨2, ![1, 400000]⟩

/-- Row `rel` of a [3, E] index array as a column: slice, reshape, broadcast. -/
theorem rowIdx_read {E : Nat} (a : IVec ⟨2, ![3, E]⟩ 32) (rel : Fin 3)
    (hs : (⟨2, ![3, E]⟩ : Shape).Slices ![rel.val, 0] ⟨2, ![1, E]⟩) (hc : (⟨2, ![1, E]⟩ : Shape).ShapeCasts ⟨1, ![E]⟩)
    (hb : (⟨1, ![E]⟩ : Shape).BroadcastsInDim ⟨2, ![E, 1]⟩ ![0]) :
    broadcastInDim ⟨2, ![E, 1]⟩ ![0] hb (shapeCast ⟨1, ![E]⟩ (extractStridedSlice ⟨2, ![1, E]⟩ ![rel.val, 0] a hs) hc)
      = rowIdx a rel := by
  funext j
  rw [Cert.Chains.col_of_vec]
  exact Cert.Chains.row_vec rel a hs hc (j 0)

/-- The same by two reshapes (the graph ids). -/
theorem rowIdx_read_cast {E : Nat} (a : IVec ⟨2, ![3, E]⟩ 32) (rel : Fin 3)
    (hs : (⟨2, ![3, E]⟩ : Shape).Slices ![rel.val, 0] ⟨2, ![1, E]⟩) (hc : (⟨2, ![1, E]⟩ : Shape).ShapeCasts ⟨1, ![E]⟩)
    (hc' : (⟨1, ![E]⟩ : Shape).ShapeCasts ⟨2, ![E, 1]⟩) :
    shapeCast ⟨2, ![E, 1]⟩ (shapeCast ⟨1, ![E]⟩ (extractStridedSlice ⟨2, ![1, E]⟩ ![rel.val, 0] a hs) hc) hc'
      = rowIdx a rel := by
  funext j
  rw [Cert.Chains.col_of_vec_cast]
  exact Cert.Chains.row_vec rel a hs hc (j 0)

/-- Relation `rel`'s wrapped edge sources as a column. -/
theorem srcIdx_read (src : IVec S3x400000 32) (rel : Fin 3)
    (hs : S3x400000.Slices ![rel.val, 0] S1xE) (hc : S1xE.ShapeCasts SE)
    (hb : SE.BroadcastsInDim S400000x1 ![0]) (hz0 hz5 : S_.BroadcastsInDim SE ![]) :
    broadcastInDim S400000x1 ![0] hb
        (select (cmpi .slt (shapeCast SE (extractStridedSlice S1xE ![rel.val, 0] src hs) hc)
            (broadcastInDim SE ![] hz0 (constantI S_ 32 0#32)))
          (addi (shapeCast SE (extractStridedSlice S1xE ![rel.val, 0] src hs) hc)
            (broadcastInDim SE ![] hz5 (constantI S_ 32 50000#32)))
          (shapeCast SE (extractStridedSlice S1xE ![rel.val, 0] src hs) hc))
      = srcIdx src rel := by
  funext j
  rw [Cert.Chains.col_of_vec]
  have e : shapeCast SE (extractStridedSlice S1xE ![rel.val, 0] src hs) hc (ix1 (j 0)) = src (ix2 rel (j 0)) :=
    Cert.Chains.row_vec rel src hs hc (j 0)
  show Scalar.select
      (IntOp.cmpi .slt (shapeCast SE (extractStridedSlice S1xE ![rel.val, 0] src hs) hc (ix1 (j 0)))
        (broadcastInDim SE ![] hz0 (constantI S_ 32 0#32) (ix1 (j 0))))
      (IntOp.addi (shapeCast SE (extractStridedSlice S1xE ![rel.val, 0] src hs) hc (ix1 (j 0)))
        (broadcastInDim SE ![] hz5 (constantI S_ 32 50000#32) (ix1 (j 0))))
      (shapeCast SE (extractStridedSlice S1xE ![rel.val, 0] src hs) hc (ix1 (j 0)))
    = wrapIdx 50000#32 (src (ix2 rel (j 0)))
  rw [e, Cert.Chains.bcast_scalar, Cert.Chains.bcast_scalar]
  rfl

/-- A node's wrapped row in a 257-row table as a column. -/
theorem nodeIdx_read (v : IVec S50000 32) (hb : S50000.BroadcastsInDim S50000x1 ![0]) (hz0 hz5 : S_.BroadcastsInDim S50000 ![]) :
    broadcastInDim S50000x1 ![0] hb
        (select (cmpi .slt v (broadcastInDim S50000 ![] hz0 (constantI S_ 32 0#32)))
          (addi v (broadcastInDim S50000 ![] hz5 (constantI S_ 32 257#32))) v)
      = nodeIdx v := by
  funext j
  rw [Cert.Chains.col_of_vec]
  show Scalar.select (IntOp.cmpi .slt _ _) (IntOp.addi _ _) _ = _
  rw [Cert.Chains.bcast_scalar, Cert.Chains.bcast_scalar]
  rfl

/-- The zero array a scatter accumulates into. -/
theorem zeros_read {T : Shape} (hz : S_.BroadcastsInDim T ![]) :
    broadcastInDim T ![] hz (constant (F := Ideal) S_ .f32 0#32) = fun _ => (0 : EReal) := by
  funext j
  rw [Cert.Chains.bcast_scalar, constant_apply, Ideal.ofBits_zero_f32]

/-- The array of ones. -/
theorem ones_read {T : Shape} (hz : S_.BroadcastsInDim T ![]) :
    broadcastInDim T ![] hz (constant (F := Ideal) S_ .f32 0x3F800000#32) = fun _ => oneF := by
  funext j
  rw [Cert.Chains.bcast_scalar, constant_apply]

/-- The embedding lookup. -/
theorem embed_read (gE : GatherDims S257x64 S50000x1 S50000x64) (tbl : S257x64.Idx → EReal) (v : IVec S50000 32)
    (hb : S50000.BroadcastsInDim S50000x1 ![0]) (hz0 hz5 : S_.BroadcastsInDim S50000 ![]) :
    Host.gather gE tbl (broadcastInDim S50000x1 ![0] hb
        (select (cmpi .slt v (broadcastInDim S50000 ![] hz0 (constantI S_ 32 0#32)))
          (addi v (broadcastInDim S50000 ![] hz5 (constantI S_ 32 257#32))) v))
      = embed gE tbl v := by
  rw [nodeIdx_read]; rfl

/-- The reciprocal of max(degree, 1), as a column. -/
theorem invdeg_read (sd1 : ScatterDims S50000x1 S400000x1 S400000x1) (dst : IVec S3x400000 32) (rel : Fin 3)
    (hs : S3x400000.Slices ![rel.val, 0] S1xE) (hc : S1xE.ShapeCasts SE) (hb : SE.BroadcastsInDim S400000x1 ![0])
    (hz : S_.BroadcastsInDim S50000x1 ![]) (ho : S_.BroadcastsInDim S400000x1 ![]) (h1 h1' : S_.BroadcastsInDim S50000x1 ![]) :
    Host.divf (broadcastInDim S50000x1 ![] h1' (constant (F := Ideal) S_ .f32 0x3F800000#32))
        (maximumf
          (Host.scatterAdd sd1 (broadcastInDim S50000x1 ![] hz (constant (F := Ideal) S_ .f32 0#32))
            (broadcastInDim S400000x1 ![0] hb (shapeCast SE (extractStridedSlice S1xE ![rel.val, 0] dst hs) hc))
            (broadcastInDim S400000x1 ![] ho (constant (F := Ideal) S_ .f32 0x3F800000#32)))
          (broadcastInDim S50000x1 ![] h1 (constant (F := Ideal) S_ .f32 0x3F800000#32)))
      = fun j => Ideal.div oneF (max (deg sd1 dst rel j) oneF) := by
  have e : Host.scatterAdd sd1 (broadcastInDim S50000x1 ![] hz (constant (F := Ideal) S_ .f32 0#32))
      (broadcastInDim S400000x1 ![0] hb (shapeCast SE (extractStridedSlice S1xE ![rel.val, 0] dst hs) hc))
      (broadcastInDim S400000x1 ![] ho (constant (F := Ideal) S_ .f32 0x3F800000#32)) = deg sd1 dst rel :=
    congr (congr (congrArg (Ideal.hostScatterAdd sd1) (zeros_read hz)) (rowIdx_read dst rel hs hc hb)) (ones_read ho)
  funext j
  have e1 : broadcastInDim S50000x1 ![] h1' (constant (F := Ideal) S_ .f32 0x3F800000#32) j = oneF :=
    congrFun (ones_read h1') j
  rw [hostDivf_apply, maximumf_apply, e1, congrFun e j]

/-- The aggregation at an index: the messages' sum at the node times the node's reciprocal degree. -/
theorem nm_read {D : Nat} (gd : GatherDims (SNx D) S400000x1 (SEx D)) (sd : ScatterDims (SNx D) S400000x1 (SEx D))
    (X : (SNx D).Idx → EReal) (src dst : IVec S3x400000 32) (rel : Fin 3) (INV : S50000x1.Idx → EReal)
    (hsd : S3x400000.Slices ![rel.val, 0] S1xE) (hcd : S1xE.ShapeCasts SE) (hbd : SE.BroadcastsInDim S400000x1 ![0])
    (hss : S3x400000.Slices ![rel.val, 0] S1xE) (hcs : S1xE.ShapeCasts SE) (hbs : SE.BroadcastsInDim S400000x1 ![0])
    (hz0 hz5 : S_.BroadcastsInDim SE ![]) (hz : S_.BroadcastsInDim (SNx D) ![])
    (hbc : S50000x1.BroadcastsInDim (SNx D) ![0, 1]) (i : (SNx D).Idx) :
    mulf
        (Host.scatterAdd sd (broadcastInDim (SNx D) ![] hz (constant (F := Ideal) S_ .f32 0#32))
          (broadcastInDim S400000x1 ![0] hbd (shapeCast SE (extractStridedSlice S1xE ![rel.val, 0] dst hsd) hcd))
          (Host.gather gd X (broadcastInDim S400000x1 ![0] hbs
            (select (cmpi .slt (shapeCast SE (extractStridedSlice S1xE ![rel.val, 0] src hss) hcs)
                (broadcastInDim SE ![] hz0 (constantI S_ 32 0#32)))
              (addi (shapeCast SE (extractStridedSlice S1xE ![rel.val, 0] src hss) hcs)
                (broadcastInDim SE ![] hz5 (constantI S_ 32 50000#32)))
              (shapeCast SE (extractStridedSlice S1xE ![rel.val, 0] src hss) hcs)))))
        (broadcastInDim (SNx D) ![0, 1] hbc INV) i
      = nsum sd dst rel (msg gd X src rel) i * INV (ix2 (i 0) 0) := by
  rw [mulf_apply, Cert.Chains.bcast_col, zeros_read hz, rowIdx_read dst rel hsd hcd hbd, srcIdx_read src rel hss hcs hbs hz0 hz5]
  rfl

/-- `nm_read` with every operand given up to an equation: for use against a stretch's evaluated term, whose operands
    are another boundary's contents. -/
theorem nm_read' {D : Nat} (gdt gd : GatherDims (SNx D) S400000x1 (SEx D)) (hgd : gd = gdt)
    (sdt sd : ScatterDims (SNx D) S400000x1 (SEx D)) (hsd : sd = sdt)
    (Xt X : (SNx D).Idx → EReal) (hX : Xt = X) (srct src : IVec S3x400000 32) (hsrc : srct = src)
    (dstt dst : IVec S3x400000 32) (hdst : dstt = dst) (rel : Fin 3)
    (INVt : S50000x1.Idx → EReal) (dg : S50000x1.Idx → EReal) (hINV : INVt = fun j => Ideal.div oneF (max (dg j) oneF))
    (hsd' : S3x400000.Slices ![rel.val, 0] S1xE) (hcd : S1xE.ShapeCasts SE) (hbd : SE.BroadcastsInDim S400000x1 ![0])
    (hss : S3x400000.Slices ![rel.val, 0] S1xE) (hcs : S1xE.ShapeCasts SE) (hbs : SE.BroadcastsInDim S400000x1 ![0])
    (hz0 hz5 : S_.BroadcastsInDim SE ![]) (hz : S_.BroadcastsInDim (SNx D) ![])
    (hbc : S50000x1.BroadcastsInDim (SNx D) ![0, 1]) (i : (SNx D).Idx) :
    mulf
        (Host.scatterAdd sdt (broadcastInDim (SNx D) ![] hz (constant (F := Ideal) S_ .f32 0#32))
          (broadcastInDim S400000x1 ![0] hbd (shapeCast SE (extractStridedSlice S1xE ![rel.val, 0] dstt hsd') hcd))
          (Host.gather gdt Xt (broadcastInDim S400000x1 ![0] hbs
            (select (cmpi .slt (shapeCast SE (extractStridedSlice S1xE ![rel.val, 0] srct hss) hcs)
                (broadcastInDim SE ![] hz0 (constantI S_ 32 0#32)))
              (addi (shapeCast SE (extractStridedSlice S1xE ![rel.val, 0] srct hss) hcs)
                (broadcastInDim SE ![] hz5 (constantI S_ 32 50000#32)))
              (shapeCast SE (extractStridedSlice S1xE ![rel.val, 0] srct hss) hcs)))))
        (broadcastInDim (SNx D) ![0, 1] hbc INVt) i
      = nsum sd dst rel (msg gd X src rel) i * Ideal.div oneF (max (dg (ix2 (i 0) 0)) oneF) := by
  subst hgd hsd hX hsrc hdst hINV
  exact nm_read gd sd Xt srct dstt rel _ hsd' hcd hbd hss hcs hbs hz0 hz5 hz hbc i

end Cert.Reads
-- ==== Proof.KI.ValueHead.lean ====
/-
  The beginning of @main at the ideal instance (items 0 and 1 of the run's table), read off the fold of buffer
  contents: the other two relations' input features are the specification's embedding lookups (a gather of the table's
  rows at the node ids, a negative id counted from the end), and each relation's reciprocal-degree column is one over
  the larger of the in-degree (ones added up at the edges' targets) and one.
-/
import proofs.«421328_j30846455120312_1_alg».proof.Proof.KI.RunTable
import proofs.«421328_j30846455120312_1_alg».proof.Proof.KI.ValueArgs
import proofs.«421328_j30846455120312_1_alg».proof.Proof.KI.ValueReads
import Idealize.ShloMosaic.Lib.StableHlo.Run

set_option maxRecDepth 16384

noncomputable section

namespace Cert.KernelIdeal.Gen

open Idealize.ShloMosaic Idealize.ShloMosaic.TcCoe Idealize.ShloMosaic.ValueIdx
open Idealize.SL Idealize.SL.Sem

variable [Halves (F := Ideal)]
variable (m : (ℓ : Loc nD τ sig) → Buf (Elt Ideal) ℓ) (ρ : Dev nD → PrngReg)

/-! ## The input features of relations 1 and 2 -/

/-- After item 1 the buffer `main_v13` holds relation 1's input features. -/
theorem head_x1 (c : Dev nD) (Dm : Cert.Spec.Dims) (hgE : Dm.gE = gather_S257x64_S50000x1_S50000x64_1_0_n_n_0_1_164) :
    (W2 m ρ c (Proc.devRef .tc main_v13) : (Cert.Spec.SNx 64).Idx → EReal)
      = Cert.Spec.x0 Dm (argsOf m c) (⟨1, by decide⟩ : Fin 3) := by
  show StableHlo.after main_part1_ops0 (StableHlo.after main_part0_ops0 (W0 m ρ c)) (Proc.devRef .tc main_v13) = _
  after_results_simp
  unfold Cert.Spec.x0
  rw [hgE]
  exact Cert.Reads.embed_read _ _ _ _ _ _

/-- After item 1 the buffer `main_v20` holds relation 2's input features. -/
theorem head_x2 (c : Dev nD) (Dm : Cert.Spec.Dims) (hgE : Dm.gE = gather_S257x64_S50000x1_S50000x64_1_0_n_n_0_1_164) :
    (W2 m ρ c (Proc.devRef .tc main_v20) : (Cert.Spec.SNx 64).Idx → EReal)
      = Cert.Spec.x0 Dm (argsOf m c) (⟨2, by decide⟩ : Fin 3) := by
  show StableHlo.after main_part1_ops0 (StableHlo.after main_part0_ops0 (W0 m ρ c)) (Proc.devRef .tc main_v20) = _
  after_results_simp
  unfold Cert.Spec.x0
  rw [hgE]
  exact Cert.Reads.embed_read _ _ _ _ _ _

/-! ## The reciprocal degrees -/

/-- After item 1 the buffer `main_v30` holds relation 0's reciprocal of max(degree, 1). -/
theorem head_inv0 (c : Dev nD) (Dm : Cert.Spec.Dims) (hs1 : Dm.s1 = scatter_S50000x1_S400000x1_S400000x1_1_0_0_1) :
    (W2 m ρ c (Proc.devRef .tc main_v30) : Cert.Spec.S50000x1.Idx → EReal)
      = fun j' => Ideal.div Cert.Spec.oneF
          (max (Cert.Spec.deg Dm.s1 (argsOf m c).dst (⟨0, by decide⟩ : Fin 3) j') Cert.Spec.oneF) := by
  show StableHlo.after main_part1_ops0 (StableHlo.after main_part0_ops0 (W0 m ρ c)) (Proc.devRef .tc main_v30) = _
  after_results_simp
  rw [hs1]
  exact Cert.Reads.invdeg_read _ _ (⟨0, by decide⟩ : Fin 3) _ _ _ _ _ _ _

/-- After item 1 the buffer `main_v40` holds relation 1's reciprocal of max(degree, 1). -/
theorem head_inv1 (c : Dev nD) (Dm : Cert.Spec.Dims) (hs1 : Dm.s1 = scatter_S50000x1_S400000x1_S400000x1_1_0_0_1) :
    (W2 m ρ c (Proc.devRef .tc main_v40) : Cert.Spec.S50000x1.Idx → EReal)
      = fun j' => Ideal.div Cert.Spec.oneF
          (max (Cert.Spec.deg Dm.s1 (argsOf m c).dst (⟨1, by decide⟩ : Fin 3) j') Cert.Spec.oneF) := by
  show StableHlo.after main_part1_ops0 (StableHlo.after main_part0_ops0 (W0 m ρ c)) (Proc.devRef .tc main_v40) = _
  after_results_simp
  rw [hs1]
  exact Cert.Reads.invdeg_read _ _ (⟨1, by decide⟩ : Fin 3) _ _ _ _ _ _ _

/-- After item 1 the buffer `main_v50` holds relation 2's reciprocal of max(degree, 1). -/
theorem head_inv2 (c : Dev nD) (Dm : Cert.Spec.Dims) (hs1 : Dm.s1 = scatter_S50000x1_S400000x1_S400000x1_1_0_0_1) :
    (W2 m ρ c (Proc.devRef .tc main_v50) : Cert.Spec.S50000x1.Idx → EReal)
      = fun j' => Ideal.div Cert.Spec.oneF
          (max (Cert.Spec.deg Dm.s1 (argsOf m c).dst (⟨2, by decide⟩ : Fin 3) j') Cert.Spec.oneF) := by
  show StableHlo.after main_part1_ops0 (StableHlo.after main_part0_ops0 (W0 m ρ c)) (Proc.devRef .tc main_v50) = _
  after_results_simp
  rw [hs1]
  exact Cert.Reads.invdeg_read _ _ (⟨2, by decide⟩ : Fin 3) _ _ _ _ _ _ _

end Cert.KernelIdeal.Gen
-- ==== Proof.KI.ValueMathDense.lean ====
/-
  One dense stage of the network in its two formulations, joined.

  The specification takes the neighbour sum divided by `max(deg, 1)`, applies the two linear maps and the bias, the
  parametric rectifier written as a select on "greater than zero", and normalises each column by its mean and by the
  mean of its squared deviations.  The other formulation multiplies the neighbour sum by the reciprocal of
  `max(deg, 1)`, writes the rectifier as an `if` on "positive", keeps the column sums `s` and the column sums of
  squares `sq` of the rectified values, and normalises by `mean = s/N` and `var = sq/N − mean·mean`.

  The two agree: the reciprocal law needs nothing of the neighbour sum (the degree is a natural number); the rectifier
  is the same function; the variance identity needs the rectified values REAL, which they are when the features, the
  neighbour sums, the weights, the bias and the slopes are.
-/
import proofs.«421328_j30846455120312_1_alg».proof.Proof.Spec
import proofs.«421328_j30846455120312_1_alg».proof.Proof.MathBN

noncomputable section

open scoped BigOperators
open Idealize.ShloMosaic Idealize.ShloMosaic.ValueIdx

namespace Cert.ValueMathDense

open Cert.Spec Cert.MathBN

/-! ## The mean aggregation -/

/-- The neighbour sum times the reciprocal of `max(deg, 1)` is the specification's neighbour mean, for a real degree. -/
theorem nmean_mul_inv' {D : ℕ} (ns : (SNx D).Idx → EReal) (dg : S50000x1.Idx → EReal) (hdg : ∀ j, IsReal (dg j)) :
    (fun j : (SNx D).Idx => ns j * Ideal.div oneF (max (dg (ix2 (j 0) 0)) oneF)) = Spec.nmean ns dg :=
  funext fun j => mean_law (ns j) (hdg _)

/-- The same for a degree that is a natural number at every node. -/
theorem nmean_mul_inv {D : ℕ} (ns : (SNx D).Idx → EReal) (dg : S50000x1.Idx → EReal)
    (hdg : ∀ j, ∃ n : ℕ, dg j = ((n : ℝ) : EReal)) :
    (fun j : (SNx D).Idx => ns j * Ideal.div oneF (max (dg (ix2 (j 0) 0)) oneF)) = Spec.nmean ns dg :=
  nmean_mul_inv' ns dg fun j => by obtain ⟨n, hn⟩ := hdg j; exact ⟨n, hn⟩

/-- The in-degree is a natural number. -/
theorem deg_nat (sd1 : ScatterDims S50000x1 S400000x1 S400000x1) (dst : IVec S3x400000 32) (rel : Fin 3) :
    ∀ j, ∃ n : ℕ, Spec.deg sd1 dst rel j = ((n : ℝ) : EReal) := fun j => by
  unfold Spec.deg; exact count_nat _ _ _

theorem deg_real (sd1 : ScatterDims S50000x1 S400000x1 S400000x1) (dst : IVec S3x400000 32) (rel : Fin 3) (j : S50000x1.Idx) :
    IsReal (Spec.deg sd1 dst rel j) := by
  obtain ⟨n, hn⟩ := deg_nat sd1 dst rel j; exact ⟨n, hn⟩

/-! ## The normalisation from the column sums -/

/-- Normalising a REAL array by `mean = s/N` and `var = sq/N − mean·mean`, `s` and `sq` its column sums and column
    sums of squares, is the specification's batch normalisation. -/
theorem bnorm_of_sums (p : S50000x128.Idx → EReal) (hp : ∀ i, ∃ r : ℝ, p i = (r : EReal)) (g be : Fin 128 → EReal) :
    (fun j : S50000x128.Idx =>
        g (j 1) * (p j - Ideal.div (∑ r : Fin 50000, p (ix2 r (j 1))) nF)
          * Ideal.rsqrt ((Ideal.div (∑ r : Fin 50000, p (ix2 r (j 1)) * p (ix2 r (j 1))) nF
              - Ideal.div (∑ r : Fin 50000, p (ix2 r (j 1))) nF * Ideal.div (∑ r : Fin 50000, p (ix2 r (j 1))) nF) + epsF)
          + be (j 1))
      = Spec.bnorm p g be := by
  funext j
  show g (j 1) * (p j - colMean p (j 1))
      * Ideal.rsqrt ((Ideal.div (∑ r : Fin 50000, p (ix2 r (j 1)) * p (ix2 r (j 1))) nF - colMean p (j 1) * colMean p (j 1)) + epsF)
      + be (j 1) = _
  rw [colVar_eq p hp (j 1)]
  rfl

/-! ## Finiteness, array by array -/

theorem embed_real (gE : GatherDims S257x64 S50000x1 S50000x64) (tbl : S257x64.Idx → EReal) (idx : IVec S50000 32)
    (h : ∀ i, ∃ r : ℝ, tbl i = (r : EReal)) : ∀ i, ∃ r : ℝ, Spec.embed gE tbl idx i = (r : EReal) := fun i => by
  unfold Spec.embed; exact gather_real _ _ _ h i

/-! ## The rectifier, and the whole stage -/

/-- A select on "greater than zero" is the `if` on "positive". -/
theorem select_ogt (z w : EReal) : Scalar.select (Ideal.cmp .ogt z 0) z w = if z > 0 then z else w := by
  show (if BitVec.ofBool (decide ((0 : EReal) < z)) = 1#1 then z else w) = _
  by_cases h : (0 : EReal) < z
  · rw [if_pos (show z > 0 from h), if_pos (by rw [decide_eq_true h]; rfl)]
  · rw [if_neg (show ¬ z > 0 from h), if_neg (by rw [decide_eq_false h]; decide)]

section dense
variable {D : ℕ}

/-- The pre-activation of row `r`, column `j`, the weights as `[D,128]` arrays and the bias as a `[1,128]` row. -/
def zK (x nm : (SNx D).Idx → EReal) (ws wn : (⟨2, ![D, 128]⟩ : Shape).Idx → EReal)
    (b : (⟨2, ![1, 128]⟩ : Shape).Idx → EReal) (r : Fin 50000) (j : Fin 128) : EReal :=
  (∑ k : Fin D, x (ix2 r k) * ws (ix2 k j)) + (∑ k : Fin D, nm (ix2 r k) * wn (ix2 k j)) + b (ix2 (0 : Fin 1) j)

/-- Its parametric rectifier as an `if`: itself where positive, else the column's slope times it. -/
def prK (x nm : (SNx D).Idx → EReal) (ws wn : (⟨2, ![D, 128]⟩ : Shape).Idx → EReal)
    (b a : (⟨2, ![1, 128]⟩ : Shape).Idx → EReal) (r : Fin 50000) (j : Fin 128) : EReal :=
  if zK x nm ws wn b r j > 0 then zK x nm ws wn b r j else a (ix2 (0 : Fin 1) j) * zK x nm ws wn b r j

/-- The specification's stage before the normalisation, on arrays in those shapes. -/
abbrev preSpec (x nm : (SNx D).Idx → EReal) (ws wn : (⟨2, ![D, 128]⟩ : Shape).Idx → EReal)
    (b a : (⟨2, ![1, 128]⟩ : Shape).Idx → EReal) : S50000x128.Idx → EReal :=
  Spec.prelu (Spec.lin x nm (fun k c => ws (ix2 k c)) (fun k c => wn (ix2 k c)) (fun c => b (ix2 (0 : Fin 1) c)))
    (fun c => a (ix2 (0 : Fin 1) c))

/-- The `if` form is the specification's rectified linear stage at `(r, j)`. -/
theorem prK_eq (x nm : (SNx D).Idx → EReal) (ws wn : (⟨2, ![D, 128]⟩ : Shape).Idx → EReal)
    (b a : (⟨2, ![1, 128]⟩ : Shape).Idx → EReal) (r : Fin 50000) (j : Fin 128) :
    prK x nm ws wn b a r j = preSpec x nm ws wn b a (ix2 r j) := by
  unfold prK preSpec Spec.prelu
  rw [select_ogt]
  rfl

/-- An array that holds the `if` form everywhere IS the specification's rectified linear stage. -/
theorem pr_eq (x nm : (SNx D).Idx → EReal) (ws wn : (⟨2, ![D, 128]⟩ : Shape).Idx → EReal)
    (b a : (⟨2, ![1, 128]⟩ : Shape).Idx → EReal) (prA : S50000x128.Idx → EReal)
    (hpr : ∀ r j, prA (ix2 r j) = prK x nm ws wn b a r j) : prA = preSpec x nm ws wn b a := by
  funext i
  obtain ⟨r, j, rfl⟩ : ∃ (r : Fin 50000) (j : Fin 128), i = ix2 r j := ⟨i 0, i 1, eq_ix2 i⟩
  rw [hpr, prK_eq]

theorem preSpec_real (x nm : (SNx D).Idx → EReal) (ws wn : (⟨2, ![D, 128]⟩ : Shape).Idx → EReal)
    (b a : (⟨2, ![1, 128]⟩ : Shape).Idx → EReal) (hx : ∀ i, IsReal (x i)) (hnm : ∀ i, IsReal (nm i))
    (hws : ∀ i, IsReal (ws i)) (hwn : ∀ i, IsReal (wn i)) (hb : ∀ i, IsReal (b i)) (ha : ∀ i, IsReal (a i))
    (i : S50000x128.Idx) : IsReal (preSpec x nm ws wn b a i) :=
  prelu_real _ _ (fun i' => lin_real _ _ _ _ _ hx hnm (fun _ _ => hws _) (fun _ _ => hwn _) (fun _ => hb _) i')
    (fun _ => ha _) i

/-- THE DENSE STAGE.  Features `x`, neighbour sums `ns` and degree `dg` real; `nmA` the neighbour sum times the reciprocal
    of `max(dg, 1)`; `prA` the rectified pre-activations in the `if` form over `x`, `nmA`; `meanA = s/N` and
    `varA = sq/N − meanA·meanA` from the column sums of `prA` and of its squares (rows `[1,128]`).  Then normalising
    `prA` by `meanA`, `varA`, `gA`, `beA` is the specification's batch-normalised stage on `x` and the neighbour MEAN. -/
theorem dense_eq (x ns : (SNx D).Idx → EReal) (dg : S50000x1.Idx → EReal) (nmA : (SNx D).Idx → EReal)
    (wsA wnA : (⟨2, ![D, 128]⟩ : Shape).Idx → EReal) (bA aA gA beA meanA varA : (⟨2, ![1, 128]⟩ : Shape).Idx → EReal)
    (prA : S50000x128.Idx → EReal)
    (hnm : ∀ i, nmA i = ns i * Ideal.div oneF (max (dg (ix2 (i 0) 0)) oneF))
    (hpr : ∀ r j, prA (ix2 r j) = prK x nmA wsA wnA bA aA r j)
    (hmean : ∀ j : Fin 128, meanA (ix2 (0 : Fin 1) j) = Ideal.div (∑ r : Fin 50000, prA (ix2 r j)) nF)
    (hvar : ∀ j : Fin 128, varA (ix2 (0 : Fin 1) j)
      = Ideal.div (∑ r : Fin 50000, prA (ix2 r j) * prA (ix2 r j)) nF - meanA (ix2 (0 : Fin 1) j) * meanA (ix2 (0 : Fin 1) j))
    (hx : ∀ i, IsReal (x i)) (hns : ∀ i, IsReal (ns i)) (hdg : ∀ i, IsReal (dg i))
    (hws : ∀ i, IsReal (wsA i)) (hwn : ∀ i, IsReal (wnA i)) (hb : ∀ i, IsReal (bA i)) (ha : ∀ i, IsReal (aA i))
    (i : S50000x128.Idx) :
    gA (ix2 (0 : Fin 1) (i 1)) * (prA i - meanA (ix2 (0 : Fin 1) (i 1)))
        * Ideal.rsqrt (varA (ix2 (0 : Fin 1) (i 1)) + Ideal.ofBits .f32 0x3727C5AC#32) + beA (ix2 (0 : Fin 1) (i 1))
      = Spec.bnorm (preSpec x (Spec.nmean ns dg) wsA wnA bA aA) (fun c => gA (ix2 (0 : Fin 1) c))
          (fun c => beA (ix2 (0 : Fin 1) c)) i := by
  have hnmA : nmA = Spec.nmean ns dg := funext fun i' => (hnm i').trans (mean_law _ (hdg _))
  subst hnmA
  have hP : prA = preSpec x (Spec.nmean ns dg) wsA wnA bA aA := pr_eq _ _ _ _ _ _ _ hpr
  subst hP
  have hreal : ∀ i', IsReal (preSpec x (Spec.nmean ns dg) wsA wnA bA aA i') :=
    preSpec_real _ _ _ _ _ _ hx (fun i' => nmean_real _ _ hns hdg i') hws hwn hb ha
  obtain ⟨r, j, rfl⟩ : ∃ (r : Fin 50000) (j : Fin 128), i = ix2 r j := ⟨i 0, i 1, eq_ix2 i⟩
  show gA (ix2 (0 : Fin 1) j) * (preSpec x (Spec.nmean ns dg) wsA wnA bA aA (ix2 r j) - meanA (ix2 (0 : Fin 1) j))
      * Ideal.rsqrt (varA (ix2 (0 : Fin 1) j) + epsF) + beA (ix2 (0 : Fin 1) j) = _
  rw [hvar j, hmean j]
  exact congrFun (bnorm_of_sums _ hreal (fun c => gA (ix2 (0 : Fin 1) c)) (fun c => beA (ix2 (0 : Fin 1) c))) (ix2 r j)

/-- … and its values are real when `gA` and `beA` are too. -/
theorem dense_real (x ns : (SNx D).Idx → EReal) (dg : S50000x1.Idx → EReal)
    (wsA wnA : (⟨2, ![D, 128]⟩ : Shape).Idx → EReal) (bA aA gA beA : (⟨2, ![1, 128]⟩ : Shape).Idx → EReal)
    (hx : ∀ i, IsReal (x i)) (hns : ∀ i, IsReal (ns i)) (hdg : ∀ i, IsReal (dg i))
    (hws : ∀ i, IsReal (wsA i)) (hwn : ∀ i, IsReal (wnA i)) (hb : ∀ i, IsReal (bA i)) (ha : ∀ i, IsReal (aA i))
    (hg : ∀ i, IsReal (gA i)) (hbe : ∀ i, IsReal (beA i)) (i : S50000x128.Idx) :
    IsReal (Spec.bnorm (preSpec x (Spec.nmean ns dg) wsA wnA bA aA) (fun c => gA (ix2 (0 : Fin 1) c))
      (fun c => beA (ix2 (0 : Fin 1) c)) i) :=
  bnorm_real _ _ _ (preSpec_real _ _ _ _ _ _ hx (fun i' => nmean_real _ _ hns hdg i') hws hwn hb ha) (fun _ => hg _)
    (fun _ => hbe _) i

end dense

end Cert.ValueMathDense
-- ==== Proof.KI.ValueTailMath.lean ====
/-
  One relation's graph vectors as the host computes them after a readout region, over the extended reals (no program
  is imported): the reciprocal of `max(count, 1)` as a quotient of a column of ones by a maximum with a column of ones,
  each of the four [64, 128] arrays of segment sums times that reciprocal broadcast along its columns, and the four
  products side by side. When the column of graph ids is the relation's row of the id array and the four feature
  arrays are the specification's four layers, that side-by-side array is the specification's graph vectors of the
  relation: the readout's three facts (the scatter by ids is the one-hot contraction; a column of the side-by-side
  array is a column of one block; multiplying by the reciprocal of a count of at least one is dividing by it) are
  cited, here only the host's operations are read at an index.
-/
import proofs.«421328_j30846455120312_1_alg».proof.Proof.KI.ValueMath
import proofs.«421328_j30846455120312_1_alg».proof.Proof.KI.ValueChains
import Idealize.ShloMosaic.Lib.IdealHost

noncomputable section

open scoped BigOperators
open Idealize.ShloMosaic Idealize.ShloMosaic.ValueIdx

namespace Cert.ValueTail

open Cert.Spec Cert.ValueMath

/-- A column of ones over the nodes. -/
abbrev ones : S50000x1.Idx → EReal := fun _ => 1

/-- The scalar `1.0` as a rank-0 array. -/
abbrev oneS : (⟨0, ![]⟩ : Shape).Idx → EReal := constant (F := Ideal) ⟨0, ![]⟩ .f32 0x3F800000#32

/-- The reciprocal of `max(count, 1)`, as the host computes it: a column of ones divided by the larger of the count
    and a column of ones. -/
def invCnt (hb hb' : (⟨0, ![]⟩ : Shape).BroadcastsInDim S64x1 ![]) (cnt : S64x1.Idx → EReal) : S64x1.Idx → EReal :=
  Host.divf (F := Ideal) (φ := .f32) (broadcastInDim S64x1 ![] hb' oneS) (maximumf (F := Ideal) (φ := .f32) cnt (broadcastInDim S64x1 ![] hb oneS))

theorem invCnt_apply (hb hb' : (⟨0, ![]⟩ : Shape).BroadcastsInDim S64x1 ![]) (cnt : S64x1.Idx → EReal) (i : S64x1.Idx) :
    invCnt hb hb' cnt i = Ideal.div oneF (max (cnt i) oneF) := by
  unfold invCnt
  rw [hostDivf_apply, Cert.Chains.bcast_scalar, maximumf_apply, Cert.Chains.bcast_scalar]
  rfl

/-- One block of one relation's graph vectors, as the host computes it: the segment sums times the reciprocal column
    broadcast along the 128 columns. -/
def scaled (hc : S64x1.BroadcastsInDim S64x128 ![0, 1]) (G : S64x128.Idx → EReal) (inv : S64x1.Idx → EReal) : S64x128.Idx → EReal :=
  mulf (F := Ideal) (φ := .f32) G (broadcastInDim S64x128 ![0, 1] hc inv)

theorem scaled_apply (hc : S64x1.BroadcastsInDim S64x128 ![0, 1]) (G : S64x128.Idx → EReal) (inv : S64x1.Idx → EReal) (i : S64x128.Idx) :
    scaled hc G inv i = G i * inv (ix2 (i 0) 0) := by
  unfold scaled
  rw [mulf_apply, Cert.Chains.bcast_col]

/-- ONE RELATION. The four layers' segment sums, each times the reciprocal of `max(count, 1)`, side by side, are the
    specification's graph vectors of the relation — for the column of graph ids that is the relation's row of the
    id array and the four feature arrays that are the specification's four layers. -/
theorem relvec_eq (Dm : Dims) (A : Args) (rel : Fin 3)
    (hr512 : Dm.r512.updateWindowDims = [1] ∧ Dm.r512.insertedWindowDims = [0] ∧ Dm.r512.scatterDimsToOperandDims = [0] ∧ Dm.r512.indexVectorDim = 1)
    (hr1 : Dm.r1.updateWindowDims = [1] ∧ Dm.r1.insertedWindowDims = [0] ∧ Dm.r1.scatterDimsToOperandDims = [0] ∧ Dm.r1.indexVectorDim = 1)
    (segc : IVec S50000x1 32) (hseg : ∀ j, segc j = rowIdx A.seg rel j)
    (x1 x2 x3 x4 : S50000x128.Idx → EReal)
    (hx1 : x1 = h1 Dm A rel) (hx2 : x2 = h2 Dm A rel) (hx3 : x3 = h3 Dm A rel) (hx4 : x4 = h4 Dm A rel)
    (G1 G2 G3 G4 : S64x128.Idx → EReal) (cnt : S64x1.Idx → EReal)
    (hG1 : G1 = MathOneHot.segSum segc x1) (hG2 : G2 = MathOneHot.segSum segc x2)
    (hG3 : G3 = MathOneHot.segSum segc x3) (hG4 : G4 = MathOneHot.segSum segc x4)
    (hcnt : cnt = MathOneHot.segSum segc ones)
    (hb hb' : (⟨0, ![]⟩ : Shape).BroadcastsInDim S64x1 ![])
    (hc1 hc2 hc3 hc4 : S64x1.BroadcastsInDim S64x128 ![0, 1])
    (hcat : Shape.Concatenates [S64x128, S64x128, S64x128, S64x128] S64x512 1) :
    concatenate S64x512 1 [⟨S64x128, scaled hc1 G1 (invCnt hb hb' cnt)⟩, ⟨S64x128, scaled hc2 G2 (invCnt hb hb' cnt)⟩,
        ⟨S64x128, scaled hc3 G3 (invCnt hb hb' cnt)⟩, ⟨S64x128, scaled hc4 G4 (invCnt hb hb' cnt)⟩] hcat
      = vec Dm A rel := by
  obtain rfl : segc = rowIdx A.seg rel := funext hseg
  subst hx1 hx2 hx3 hx4 hG1 hG2 hG3 hG4 hcnt
  rw [concat4_eq]
  have hs : ∀ (hc : S64x1.BroadcastsInDim S64x128 ![0, 1]) (G : S64x128.Idx → EReal),
      scaled hc G (invCnt hb hb' (MathOneHot.segSum (rowIdx A.seg rel) ones))
        = fun i => G i * Ideal.div oneF (max (MathOneHot.segSum (rowIdx A.seg rel) ones (ix2 (i 0) 0)) oneF) := by
    intro hc G; funext i; rw [scaled_apply, invCnt_apply]
  rw [hs, hs, hs, hs]
  unfold vec
  exact vec_eq Dm.r512 Dm.r1 hr512 hr1 A.seg rel _ _ _ _ _ _ _ _ _
    (fun g j => MathOneHot.segSum_apply _ _ g j) (fun g j => MathOneHot.segSum_apply _ _ g j)
    (fun g j => MathOneHot.segSum_apply _ _ g j) (fun g j => MathOneHot.segSum_apply _ _ g j)
    (fun g => by rw [MathOneHot.segSum_apply]; simp only [mul_one])

end Cert.ValueTail
-- ==== Proof.KI.ValueTail.lean ====
/-
  The end of @main at the ideal instance: the three readout regions and the host stretches around them (items 57 to 64
  of the run's table), read off the fold of buffer contents. Per relation: the column of graph ids is the relation's
  row of the id argument (a slice and two reshapes); the readout region leaves the segment sums of the relation's four
  layers and of a column of ones (taken as hypotheses `ReadoutVals<K>`, for any entry contents); the host divides a
  column of ones by the larger of the counts and a column of ones, multiplies each of the four arrays of sums by that
  reciprocal broadcast along the columns and lays the four products side by side: the specification's graph vectors
  of the relation, when the four feature arrays the region was entered at are the specification's four layers. The
  last operation lays the three relations' vectors side by side: the specification's result.
-/
import proofs.«421328_j30846455120312_1_alg».proof.Proof.KI.RunTable
import proofs.«421328_j30846455120312_1_alg».proof.Proof.KI.ValueArgs
import proofs.«421328_j30846455120312_1_alg».proof.Proof.KI.ValueTailMath
import Idealize.ShloMosaic.Lib.StableHlo.Run

set_option maxRecDepth 16384

noncomputable section

namespace Cert.KernelIdeal.Gen

open Idealize.ShloMosaic Idealize.ShloMosaic.TcCoe Idealize.ShloMosaic.ValueIdx
open Idealize.SL Idealize.SL.Sem

variable [Halves (F := Ideal)]
variable (m : (ℓ : Loc nD τ sig) → Buf (Elt Ideal) ℓ) (ρ : Dev nD → PrngReg)

/-! ## What the run takes of the three readout regions -/

/-- What the run takes of readout region 24's values: after the region, whatever the contents `V` it was entered at, its
    four [64, 128] output arrays hold the segment sums of its four feature arrays by its column of graph ids, and its
    [64, 1] output array the segment sums of a column of ones. -/
def ReadoutVals24 : Prop := ∀ (V : (c : Dev nD) → (b : Ref sig .tc) → Buf (Elt Ideal) ((c : Thread nD τ).loc b)) (c : Dev nD),
  ((Halves.h24 V).dat c).arrAt 5 cfg24.N = Cert.MathOneHot.segSum (V c (Pipeline.arrRef spec24 0) : Vec Ideal S50000x1 .i32) (V c (Pipeline.arrRef spec24 1) : Vec Ideal S50000x128 .f32)
  ∧ ((Halves.h24 V).dat c).arrAt 6 cfg24.N = Cert.MathOneHot.segSum (V c (Pipeline.arrRef spec24 0) : Vec Ideal S50000x1 .i32) (V c (Pipeline.arrRef spec24 2) : Vec Ideal S50000x128 .f32)
  ∧ ((Halves.h24 V).dat c).arrAt 7 cfg24.N = Cert.MathOneHot.segSum (V c (Pipeline.arrRef spec24 0) : Vec Ideal S50000x1 .i32) (V c (Pipeline.arrRef spec24 3) : Vec Ideal S50000x128 .f32)
  ∧ ((Halves.h24 V).dat c).arrAt 8 cfg24.N = Cert.MathOneHot.segSum (V c (Pipeline.arrRef spec24 0) : Vec Ideal S50000x1 .i32) (V c (Pipeline.arrRef spec24 4) : Vec Ideal S50000x128 .f32)
  ∧ ((Halves.h24 V).dat c).arrAt 9 cfg24.N = Cert.MathOneHot.segSum (V c (Pipeline.arrRef spec24 0) : Vec Ideal S50000x1 .i32) Cert.ValueTail.ones

/-- What the run takes of readout region 25's values: after the region, whatever the contents `V` it was entered at, its
    four [64, 128] output arrays hold the segment sums of its four feature arrays by its column of graph ids, and its
    [64, 1] output array the segment sums of a column of ones. -/
def ReadoutVals25 : Prop := ∀ (V : (c : Dev nD) → (b : Ref sig .tc) → Buf (Elt Ideal) ((c : Thread nD τ).loc b)) (c : Dev nD),
  ((Halves.h25 V).dat c).arrAt 5 cfg25.N = Cert.MathOneHot.segSum (V c (Pipeline.arrRef spec25 0) : Vec Ideal S50000x1 .i32) (V c (Pipeline.arrRef spec25 1) : Vec Ideal S50000x128 .f32)
  ∧ ((Halves.h25 V).dat c).arrAt 6 cfg25.N = Cert.MathOneHot.segSum (V c (Pipeline.arrRef spec25 0) : Vec Ideal S50000x1 .i32) (V c (Pipeline.arrRef spec25 2) : Vec Ideal S50000x128 .f32)
  ∧ ((Halves.h25 V).dat c).arrAt 7 cfg25.N = Cert.MathOneHot.segSum (V c (Pipeline.arrRef spec25 0) : Vec Ideal S50000x1 .i32) (V c (Pipeline.arrRef spec25 3) : Vec Ideal S50000x128 .f32)
  ∧ ((Halves.h25 V).dat c).arrAt 8 cfg25.N = Cert.MathOneHot.segSum (V c (Pipeline.arrRef spec25 0) : Vec Ideal S50000x1 .i32) (V c (Pipeline.arrRef spec25 4) : Vec Ideal S50000x128 .f32)
  ∧ ((Halves.h25 V).dat c).arrAt 9 cfg25.N = Cert.MathOneHot.segSum (V c (Pipeline.arrRef spec25 0) : Vec Ideal S50000x1 .i32) Cert.ValueTail.ones

/-- What the run takes of readout region 26's values: after the region, whatever the contents `V` it was entered at, its
    four [64, 128] output arrays hold the segment sums of its four feature arrays by its column of graph ids, and its
    [64, 1] output array the segment sums of a column of ones. -/
def ReadoutVals26 : Prop := ∀ (V : (c : Dev nD) → (b : Ref sig .tc) → Buf (Elt Ideal) ((c : Thread nD τ).loc b)) (c : Dev nD),
  ((Halves.h26 V).dat c).arrAt 5 cfg26.N = Cert.MathOneHot.segSum (V c (Pipeline.arrRef spec26 0) : Vec Ideal S50000x1 .i32) (V c (Pipeline.arrRef spec26 1) : Vec Ideal S50000x128 .f32)
  ∧ ((Halves.h26 V).dat c).arrAt 6 cfg26.N = Cert.MathOneHot.segSum (V c (Pipeline.arrRef spec26 0) : Vec Ideal S50000x1 .i32) (V c (Pipeline.arrRef spec26 2) : Vec Ideal S50000x128 .f32)
  ∧ ((Halves.h26 V).dat c).arrAt 7 cfg26.N = Cert.MathOneHot.segSum (V c (Pipeline.arrRef spec26 0) : Vec Ideal S50000x1 .i32) (V c (Pipeline.arrRef spec26 3) : Vec Ideal S50000x128 .f32)
  ∧ ((Halves.h26 V).dat c).arrAt 8 cfg26.N = Cert.MathOneHot.segSum (V c (Pipeline.arrRef spec26 0) : Vec Ideal S50000x1 .i32) (V c (Pipeline.arrRef spec26 4) : Vec Ideal S50000x128 .f32)
  ∧ ((Halves.h26 V).dat c).arrAt 9 cfg26.N = Cert.MathOneHot.segSum (V c (Pipeline.arrRef spec26 0) : Vec Ideal S50000x1 .i32) Cert.ValueTail.ones

/-! ## Buffers the items leave alone -/

/-- A buffer none of items 57 to 60 writes holds after item 60 what it held before item 57. -/
theorem keep57_61 (c : Dev nD) (b : Ref sig .tc) (h2 : b ∉ (main_part10_ops2_W : List (Ref sig .tc)))
    (hs : ∀ w, Pipeline.arrRef spec24 w ≠ b) (h3 : b ∉ (main_part10_ops3_W : List (Ref sig .tc)))
    (h0 : b ∉ (main_part11_ops0_W : List (Ref sig .tc))) :
    W61 m ρ c (Proc.devRef .tc b) = W57 m ρ c (Proc.devRef .tc b) :=
  (StableHlo.after_of_writes_sub main_part11_ops0 _ main_part11_ops0_writes h0).trans
    ((StableHlo.after_of_writes_sub main_part10_ops3 _ main_part10_ops3_writes h3).trans
      ((W59_of_ne m ρ c b hs).trans (StableHlo.after_of_writes_sub main_part10_ops2 _ main_part10_ops2_writes h2)))

/-- A buffer neither item 61 nor item 62 writes holds after item 62 what it held before item 61. -/
theorem keep61_63 (c : Dev nD) (b : Ref sig .tc) (hs : ∀ w, Pipeline.arrRef spec25 w ≠ b)
    (h1 : b ∉ (main_part11_ops1_W : List (Ref sig .tc))) :
    W63 m ρ c (Proc.devRef .tc b) = W61 m ρ c (Proc.devRef .tc b) :=
  (StableHlo.after_of_writes_sub main_part11_ops1 _ main_part11_ops1_writes h1).trans (W62_of_ne m ρ c b hs)

/-! ## Relation 0: items 57 to 60 -/

/-- The column of graph ids region 24 is entered at: row 0 of the id argument. -/
theorem W58_seg (c : Dev nD) (j : S50000x1.Idx) :
    (W58 m ρ c (Proc.devRef .tc main_v569) : Vec Ideal S50000x1 .i32) j = Cert.Spec.rowIdx (argsOf m c).seg 0 j := by
  show StableHlo.after main_part10_ops2 (W57 m ρ c) (Proc.devRef .tc main_v569) j = _
  after_results_simp
  exact ((Cert.Chains.col_of_vec_cast _ _ j).trans (Cert.Chains.row_vec 0 _ _ _ _)).trans
    (congrFun (W57_args m ρ c main_arg5 (by decide)) (ix2 0 (j 0)))

/-! ### Region 24's outputs after item 58 -/

theorem W59_out0 (hR : ReadoutVals24) (c : Dev nD) :
    (W59 m ρ c (Proc.devRef .tc main_v570_0) : S64x128.Idx → EReal)
      = Cert.MathOneHot.segSum (W58 m ρ c (Proc.devRef .tc main_v569) : Vec Ideal S50000x1 .i32) (W58 m ρ c (Proc.devRef .tc main_v90) : Vec Ideal S50000x128 .f32) :=
  (W59_arr m ρ c 5).trans (hR (V58 m ρ) c).1

theorem W59_out1 (hR : ReadoutVals24) (c : Dev nD) :
    (W59 m ρ c (Proc.devRef .tc main_v570_1) : S64x128.Idx → EReal)
      = Cert.MathOneHot.segSum (W58 m ρ c (Proc.devRef .tc main_v569) : Vec Ideal S50000x1 .i32) (W58 m ρ c (Proc.devRef .tc main_v222) : Vec Ideal S50000x128 .f32) :=
  (W59_arr m ρ c 6).trans (hR (V58 m ρ) c).2.1

theorem W59_out2 (hR : ReadoutVals24) (c : Dev nD) :
    (W59 m ρ c (Proc.devRef .tc main_v570_2) : S64x128.Idx → EReal)
      = Cert.MathOneHot.segSum (W58 m ρ c (Proc.devRef .tc main_v569) : Vec Ideal S50000x1 .i32) (W58 m ρ c (Proc.devRef .tc main_v354) : Vec Ideal S50000x128 .f32) :=
  (W59_arr m ρ c 7).trans (hR (V58 m ρ) c).2.2.1

theorem W59_out3 (hR : ReadoutVals24) (c : Dev nD) :
    (W59 m ρ c (Proc.devRef .tc main_v570_3) : S64x128.Idx → EReal)
      = Cert.MathOneHot.segSum (W58 m ρ c (Proc.devRef .tc main_v569) : Vec Ideal S50000x1 .i32) (W58 m ρ c (Proc.devRef .tc main_v486) : Vec Ideal S50000x128 .f32) :=
  (W59_arr m ρ c 8).trans (hR (V58 m ρ) c).2.2.2.1

theorem W59_out4 (hR : ReadoutVals24) (c : Dev nD) :
    (W59 m ρ c (Proc.devRef .tc main_v570_4) : S64x1.Idx → EReal)
      = Cert.MathOneHot.segSum (W58 m ρ c (Proc.devRef .tc main_v569) : Vec Ideal S50000x1 .i32) Cert.ValueTail.ones :=
  (W59_arr m ρ c 9).trans (hR (V58 m ρ) c).2.2.2.2

/-- The first relation's [64, 512] array after item 60, as the host's operations give it from region 24's outputs. -/
theorem W61_tree (c : Dev nD) :
    W61 m ρ c (Proc.devRef .tc main_v583)
      = concatenate S64x512 1 [⟨S64x128, Cert.ValueTail.scaled bcast_S64x1_S64x128_0_1 (W59 m ρ c (Proc.devRef .tc main_v570_0)) (Cert.ValueTail.invCnt bcast_S_S64x1 bcast_S_S64x1 (W59 m ρ c (Proc.devRef .tc main_v570_4)))⟩,
        ⟨S64x128, Cert.ValueTail.scaled bcast_S64x1_S64x128_0_1 (W59 m ρ c (Proc.devRef .tc main_v570_1)) (Cert.ValueTail.invCnt bcast_S_S64x1 bcast_S_S64x1 (W59 m ρ c (Proc.devRef .tc main_v570_4)))⟩,
        ⟨S64x128, Cert.ValueTail.scaled bcast_S64x1_S64x128_0_1 (W59 m ρ c (Proc.devRef .tc main_v570_2)) (Cert.ValueTail.invCnt bcast_S_S64x1 bcast_S_S64x1 (W59 m ρ c (Proc.devRef .tc main_v570_4)))⟩,
        ⟨S64x128, Cert.ValueTail.scaled bcast_S64x1_S64x128_0_1 (W59 m ρ c (Proc.devRef .tc main_v570_3)) (Cert.ValueTail.invCnt bcast_S_S64x1 bcast_S_S64x1 (W59 m ρ c (Proc.devRef .tc main_v570_4)))⟩] concatenates_S64x128_S64x128_S64x128_S64x128_S64x512_d1 := by
  show StableHlo.after main_part11_ops0 (StableHlo.after main_part10_ops3 (W59 m ρ c)) (Proc.devRef .tc main_v583) = _
  after_results_simp
  rfl

/-- RELATION 0: after item 60 the buffer `main_v583` holds the specification's graph vectors of relation 0. -/
theorem W61_vec (c : Dev nD) (Dm : Cert.Spec.Dims)
    (hr512 : Dm.r512.updateWindowDims = [1] ∧ Dm.r512.insertedWindowDims = [0] ∧ Dm.r512.scatterDimsToOperandDims = [0] ∧ Dm.r512.indexVectorDim = 1)
    (hr1 : Dm.r1.updateWindowDims = [1] ∧ Dm.r1.insertedWindowDims = [0] ∧ Dm.r1.scatterDimsToOperandDims = [0] ∧ Dm.r1.indexVectorDim = 1)
    (hR : ReadoutVals24)
    (hx1 : (W57 m ρ c (Proc.devRef .tc main_v90) : Cert.Spec.S50000x128.Idx → EReal) = Cert.Spec.h1 Dm (argsOf m c) 0)
    (hx2 : (W57 m ρ c (Proc.devRef .tc main_v222) : Cert.Spec.S50000x128.Idx → EReal) = Cert.Spec.h2 Dm (argsOf m c) 0)
    (hx3 : (W57 m ρ c (Proc.devRef .tc main_v354) : Cert.Spec.S50000x128.Idx → EReal) = Cert.Spec.h3 Dm (argsOf m c) 0)
    (hx4 : (W57 m ρ c (Proc.devRef .tc main_v486) : Cert.Spec.S50000x128.Idx → EReal) = Cert.Spec.h4 Dm (argsOf m c) 0) :
    (W61 m ρ c (Proc.devRef .tc main_v583) : Cert.Spec.S64x512.Idx → EReal) = Cert.Spec.vec Dm (argsOf m c) 0 :=
  (W61_tree m ρ c).trans (Cert.ValueTail.relvec_eq Dm (argsOf m c) 0 hr512 hr1
    (W58 m ρ c (Proc.devRef .tc main_v569)) (W58_seg m ρ c)
    (W58 m ρ c (Proc.devRef .tc main_v90)) (W58 m ρ c (Proc.devRef .tc main_v222))
    (W58 m ρ c (Proc.devRef .tc main_v354)) (W58 m ρ c (Proc.devRef .tc main_v486))
    ((StableHlo.after_of_writes_sub main_part10_ops2 _ main_part10_ops2_writes (by decide)).trans hx1)
    ((StableHlo.after_of_writes_sub main_part10_ops2 _ main_part10_ops2_writes (by decide)).trans hx2)
    ((StableHlo.after_of_writes_sub main_part10_ops2 _ main_part10_ops2_writes (by decide)).trans hx3)
    ((StableHlo.after_of_writes_sub main_part10_ops2 _ main_part10_ops2_writes (by decide)).trans hx4)
    (W59 m ρ c (Proc.devRef .tc main_v570_0)) (W59 m ρ c (Proc.devRef .tc main_v570_1))
    (W59 m ρ c (Proc.devRef .tc main_v570_2)) (W59 m ρ c (Proc.devRef .tc main_v570_3))
    (W59 m ρ c (Proc.devRef .tc main_v570_4))
    (W59_out0 m ρ hR c) (W59_out1 m ρ hR c) (W59_out2 m ρ hR c) (W59_out3 m ρ hR c) (W59_out4 m ρ hR c)
    _ _ _ _ _ _ _)

/-! ## Relation 1: items 60 to 62 -/

/-- The column of graph ids region 25 is entered at: row 1 of the id argument. -/
theorem W61_seg (c : Dev nD) (j : S50000x1.Idx) :
    (W61 m ρ c (Proc.devRef .tc main_v586) : Vec Ideal S50000x1 .i32) j = Cert.Spec.rowIdx (argsOf m c).seg 1 j := by
  show StableHlo.after main_part11_ops0 (W60 m ρ c) (Proc.devRef .tc main_v586) j = _
  after_results_simp
  exact ((Cert.Chains.col_of_vec_cast _ _ j).trans (Cert.Chains.row_vec 1 _ _ _ _)).trans
    (congrFun (W60_args m ρ c main_arg5 (by decide)) (ix2 1 (j 0)))

/-! ### Region 25's outputs after item 61 -/

theorem W62_out0 (hR : ReadoutVals25) (c : Dev nD) :
    (W62 m ρ c (Proc.devRef .tc main_v587_0) : S64x128.Idx → EReal)
      = Cert.MathOneHot.segSum (W61 m ρ c (Proc.devRef .tc main_v586) : Vec Ideal S50000x1 .i32) (W61 m ρ c (Proc.devRef .tc main_v130) : Vec Ideal S50000x128 .f32) :=
  (W62_arr m ρ c 5).trans (hR (V61 m ρ) c).1

theorem W62_out1 (hR : ReadoutVals25) (c : Dev nD) :
    (W62 m ρ c (Proc.devRef .tc main_v587_1) : S64x128.Idx → EReal)
      = Cert.MathOneHot.segSum (W61 m ρ c (Proc.devRef .tc main_v586) : Vec Ideal S50000x1 .i32) (W61 m ρ c (Proc.devRef .tc main_v262) : Vec Ideal S50000x128 .f32) :=
  (W62_arr m ρ c 6).trans (hR (V61 m ρ) c).2.1

theorem W62_out2 (hR : ReadoutVals25) (c : Dev nD) :
    (W62 m ρ c (Proc.devRef .tc main_v587_2) : S64x128.Idx → EReal)
      = Cert.MathOneHot.segSum (W61 m ρ c (Proc.devRef .tc main_v586) : Vec Ideal S50000x1 .i32) (W61 m ρ c (Proc.devRef .tc main_v394) : Vec Ideal S50000x128 .f32) :=
  (W62_arr m ρ c 7).trans (hR (V61 m ρ) c).2.2.1

theorem W62_out3 (hR : ReadoutVals25) (c : Dev nD) :
    (W62 m ρ c (Proc.devRef .tc main_v587_3) : S64x128.Idx → EReal)
      = Cert.MathOneHot.segSum (W61 m ρ c (Proc.devRef .tc main_v586) : Vec Ideal S50000x1 .i32) (W61 m ρ c (Proc.devRef .tc main_v526) : Vec Ideal S50000x128 .f32) :=
  (W62_arr m ρ c 8).trans (hR (V61 m ρ) c).2.2.2.1

theorem W62_out4 (hR : ReadoutVals25) (c : Dev nD) :
    (W62 m ρ c (Proc.devRef .tc main_v587_4) : S64x1.Idx → EReal)
      = Cert.MathOneHot.segSum (W61 m ρ c (Proc.devRef .tc main_v586) : Vec Ideal S50000x1 .i32) Cert.ValueTail.ones :=
  (W62_arr m ρ c 9).trans (hR (V61 m ρ) c).2.2.2.2

/-- The second relation's [64, 512] array after item 62, as the host's operations give it from region 25's outputs. -/
theorem W63_tree (c : Dev nD) :
    W63 m ρ c (Proc.devRef .tc main_v600)
      = concatenate S64x512 1 [⟨S64x128, Cert.ValueTail.scaled bcast_S64x1_S64x128_0_1 (W62 m ρ c (Proc.devRef .tc main_v587_0)) (Cert.ValueTail.invCnt bcast_S_S64x1 bcast_S_S64x1 (W62 m ρ c (Proc.devRef .tc main_v587_4)))⟩,
        ⟨S64x128, Cert.ValueTail.scaled bcast_S64x1_S64x128_0_1 (W62 m ρ c (Proc.devRef .tc main_v587_1)) (Cert.ValueTail.invCnt bcast_S_S64x1 bcast_S_S64x1 (W62 m ρ c (Proc.devRef .tc main_v587_4)))⟩,
        ⟨S64x128, Cert.ValueTail.scaled bcast_S64x1_S64x128_0_1 (W62 m ρ c (Proc.devRef .tc main_v587_2)) (Cert.ValueTail.invCnt bcast_S_S64x1 bcast_S_S64x1 (W62 m ρ c (Proc.devRef .tc main_v587_4)))⟩,
        ⟨S64x128, Cert.ValueTail.scaled bcast_S64x1_S64x128_0_1 (W62 m ρ c (Proc.devRef .tc main_v587_3)) (Cert.ValueTail.invCnt bcast_S_S64x1 bcast_S_S64x1 (W62 m ρ c (Proc.devRef .tc main_v587_4)))⟩] concatenates_S64x128_S64x128_S64x128_S64x128_S64x512_d1 := by
  show StableHlo.after main_part11_ops1 (W62 m ρ c) (Proc.devRef .tc main_v600) = _
  after_results_simp
  rfl

/-- RELATION 1: after item 62 the buffer `main_v600` holds the specification's graph vectors of relation 1. -/
theorem W63_vec (c : Dev nD) (Dm : Cert.Spec.Dims)
    (hr512 : Dm.r512.updateWindowDims = [1] ∧ Dm.r512.insertedWindowDims = [0] ∧ Dm.r512.scatterDimsToOperandDims = [0] ∧ Dm.r512.indexVectorDim = 1)
    (hr1 : Dm.r1.updateWindowDims = [1] ∧ Dm.r1.insertedWindowDims = [0] ∧ Dm.r1.scatterDimsToOperandDims = [0] ∧ Dm.r1.indexVectorDim = 1)
    (hR : ReadoutVals25)
    (hx1 : (W57 m ρ c (Proc.devRef .tc main_v130) : Cert.Spec.S50000x128.Idx → EReal) = Cert.Spec.h1 Dm (argsOf m c) 1)
    (hx2 : (W57 m ρ c (Proc.devRef .tc main_v262) : Cert.Spec.S50000x128.Idx → EReal) = Cert.Spec.h2 Dm (argsOf m c) 1)
    (hx3 : (W57 m ρ c (Proc.devRef .tc main_v394) : Cert.Spec.S50000x128.Idx → EReal) = Cert.Spec.h3 Dm (argsOf m c) 1)
    (hx4 : (W57 m ρ c (Proc.devRef .tc main_v526) : Cert.Spec.S50000x128.Idx → EReal) = Cert.Spec.h4 Dm (argsOf m c) 1) :
    (W63 m ρ c (Proc.devRef .tc main_v600) : Cert.Spec.S64x512.Idx → EReal) = Cert.Spec.vec Dm (argsOf m c) 1 :=
  (W63_tree m ρ c).trans (Cert.ValueTail.relvec_eq Dm (argsOf m c) 1 hr512 hr1
    (W61 m ρ c (Proc.devRef .tc main_v586)) (W61_seg m ρ c)
    (W61 m ρ c (Proc.devRef .tc main_v130)) (W61 m ρ c (Proc.devRef .tc main_v262))
    (W61 m ρ c (Proc.devRef .tc main_v394)) (W61 m ρ c (Proc.devRef .tc main_v526))
    ((keep57_61 m ρ c main_v130 (by decide) (by decide) (by decide) (by decide)).trans hx1)
    ((keep57_61 m ρ c main_v262 (by decide) (by decide) (by decide) (by decide)).trans hx2)
    ((keep57_61 m ρ c main_v394 (by decide) (by decide) (by decide) (by decide)).trans hx3)
    ((keep57_61 m ρ c main_v526 (by decide) (by decide) (by decide) (by decide)).trans hx4)
    (W62 m ρ c (Proc.devRef .tc main_v587_0)) (W62 m ρ c (Proc.devRef .tc main_v587_1))
    (W62 m ρ c (Proc.devRef .tc main_v587_2)) (W62 m ρ c (Proc.devRef .tc main_v587_3))
    (W62 m ρ c (Proc.devRef .tc main_v587_4))
    (W62_out0 m ρ hR c) (W62_out1 m ρ hR c) (W62_out2 m ρ hR c) (W62_out3 m ρ hR c) (W62_out4 m ρ hR c)
    _ _ _ _ _ _ _)

/-! ## Relation 2: items 62 to 64 -/

/-- The column of graph ids region 26 is entered at: row 2 of the id argument. -/
theorem W63_seg (c : Dev nD) (j : S50000x1.Idx) :
    (W63 m ρ c (Proc.devRef .tc main_v603) : Vec Ideal S50000x1 .i32) j = Cert.Spec.rowIdx (argsOf m c).seg 2 j := by
  show StableHlo.after main_part11_ops1 (W62 m ρ c) (Proc.devRef .tc main_v603) j = _
  after_results_simp
  exact ((Cert.Chains.col_of_vec_cast _ _ j).trans (Cert.Chains.row_vec 2 _ _ _ _)).trans
    (congrFun (W62_args m ρ c main_arg5 (by decide)) (ix2 2 (j 0)))

/-! ### Region 26's outputs after item 63 -/

theorem W64_out0 (hR : ReadoutVals26) (c : Dev nD) :
    (W64 m ρ c (Proc.devRef .tc main_v604_0) : S64x128.Idx → EReal)
      = Cert.MathOneHot.segSum (W63 m ρ c (Proc.devRef .tc main_v603) : Vec Ideal S50000x1 .i32) (W63 m ρ c (Proc.devRef .tc main_v170) : Vec Ideal S50000x128 .f32) :=
  (W64_arr m ρ c 5).trans (hR (V63 m ρ) c).1

theorem W64_out1 (hR : ReadoutVals26) (c : Dev nD) :
    (W64 m ρ c (Proc.devRef .tc main_v604_1) : S64x128.Idx → EReal)
      = Cert.MathOneHot.segSum (W63 m ρ c (Proc.devRef .tc main_v603) : Vec Ideal S50000x1 .i32) (W63 m ρ c (Proc.devRef .tc main_v302) : Vec Ideal S50000x128 .f32) :=
  (W64_arr m ρ c 6).trans (hR (V63 m ρ) c).2.1

theorem W64_out2 (hR : ReadoutVals26) (c : Dev nD) :
    (W64 m ρ c (Proc.devRef .tc main_v604_2) : S64x128.Idx → EReal)
      = Cert.MathOneHot.segSum (W63 m ρ c (Proc.devRef .tc main_v603) : Vec Ideal S50000x1 .i32) (W63 m ρ c (Proc.devRef .tc main_v434) : Vec Ideal S50000x128 .f32) :=
  (W64_arr m ρ c 7).trans (hR (V63 m ρ) c).2.2.1

theorem W64_out3 (hR : ReadoutVals26) (c : Dev nD) :
    (W64 m ρ c (Proc.devRef .tc main_v604_3) : S64x128.Idx → EReal)
      = Cert.MathOneHot.segSum (W63 m ρ c (Proc.devRef .tc main_v603) : Vec Ideal S50000x1 .i32) (W63 m ρ c (Proc.devRef .tc main_v566) : Vec Ideal S50000x128 .f32) :=
  (W64_arr m ρ c 8).trans (hR (V63 m ρ) c).2.2.2.1

theorem W64_out4 (hR : ReadoutVals26) (c : Dev nD) :
    (W64 m ρ c (Proc.devRef .tc main_v604_4) : S64x1.Idx → EReal)
      = Cert.MathOneHot.segSum (W63 m ρ c (Proc.devRef .tc main_v603) : Vec Ideal S50000x1 .i32) Cert.ValueTail.ones :=
  (W64_arr m ρ c 9).trans (hR (V63 m ρ) c).2.2.2.2

/-- The result buffer after the last item: the first two relations' arrays as item 63 leaves them and the third's as
    the host's operations give it from region 26's outputs, side by side. -/
theorem W65_tree (c : Dev nD) :
    W65 m ρ c (Proc.devRef .tc main_v618)
      = concatenate S64x1536 1 [⟨S64x512, W64 m ρ c (Proc.devRef .tc main_v583)⟩, ⟨S64x512, W64 m ρ c (Proc.devRef .tc main_v600)⟩,
          ⟨S64x512, concatenate S64x512 1 [⟨S64x128, Cert.ValueTail.scaled bcast_S64x1_S64x128_0_1 (W64 m ρ c (Proc.devRef .tc main_v604_0)) (Cert.ValueTail.invCnt bcast_S_S64x1 bcast_S_S64x1 (W64 m ρ c (Proc.devRef .tc main_v604_4)))⟩,
        ⟨S64x128, Cert.ValueTail.scaled bcast_S64x1_S64x128_0_1 (W64 m ρ c (Proc.devRef .tc main_v604_1)) (Cert.ValueTail.invCnt bcast_S_S64x1 bcast_S_S64x1 (W64 m ρ c (Proc.devRef .tc main_v604_4)))⟩,
        ⟨S64x128, Cert.ValueTail.scaled bcast_S64x1_S64x128_0_1 (W64 m ρ c (Proc.devRef .tc main_v604_2)) (Cert.ValueTail.invCnt bcast_S_S64x1 bcast_S_S64x1 (W64 m ρ c (Proc.devRef .tc main_v604_4)))⟩,
        ⟨S64x128, Cert.ValueTail.scaled bcast_S64x1_S64x128_0_1 (W64 m ρ c (Proc.devRef .tc main_v604_3)) (Cert.ValueTail.invCnt bcast_S_S64x1 bcast_S_S64x1 (W64 m ρ c (Proc.devRef .tc main_v604_4)))⟩] concatenates_S64x128_S64x128_S64x128_S64x128_S64x512_d1⟩]
          concatenates_S64x512_S64x512_S64x512_S64x1536_d1 := by
  show StableHlo.after main_part11_ops2 (W64 m ρ c) (Proc.devRef .tc main_v618) = _
  after_results_simp
  try dsimp only [Matrix.cons_val]
  try after_results_simp
  rfl

/-- RELATION 2: the third block of the result is the specification's graph vectors of relation 2. -/
theorem W65_vec (c : Dev nD) (Dm : Cert.Spec.Dims)
    (hr512 : Dm.r512.updateWindowDims = [1] ∧ Dm.r512.insertedWindowDims = [0] ∧ Dm.r512.scatterDimsToOperandDims = [0] ∧ Dm.r512.indexVectorDim = 1)
    (hr1 : Dm.r1.updateWindowDims = [1] ∧ Dm.r1.insertedWindowDims = [0] ∧ Dm.r1.scatterDimsToOperandDims = [0] ∧ Dm.r1.indexVectorDim = 1)
    (hR : ReadoutVals26)
    (hx1 : (W57 m ρ c (Proc.devRef .tc main_v170) : Cert.Spec.S50000x128.Idx → EReal) = Cert.Spec.h1 Dm (argsOf m c) 2)
    (hx2 : (W57 m ρ c (Proc.devRef .tc main_v302) : Cert.Spec.S50000x128.Idx → EReal) = Cert.Spec.h2 Dm (argsOf m c) 2)
    (hx3 : (W57 m ρ c (Proc.devRef .tc main_v434) : Cert.Spec.S50000x128.Idx → EReal) = Cert.Spec.h3 Dm (argsOf m c) 2)
    (hx4 : (W57 m ρ c (Proc.devRef .tc main_v566) : Cert.Spec.S50000x128.Idx → EReal) = Cert.Spec.h4 Dm (argsOf m c) 2) :
    (concatenate S64x512 1 [⟨S64x128, Cert.ValueTail.scaled bcast_S64x1_S64x128_0_1 (W64 m ρ c (Proc.devRef .tc main_v604_0)) (Cert.ValueTail.invCnt bcast_S_S64x1 bcast_S_S64x1 (W64 m ρ c (Proc.devRef .tc main_v604_4)))⟩,
        ⟨S64x128, Cert.ValueTail.scaled bcast_S64x1_S64x128_0_1 (W64 m ρ c (Proc.devRef .tc main_v604_1)) (Cert.ValueTail.invCnt bcast_S_S64x1 bcast_S_S64x1 (W64 m ρ c (Proc.devRef .tc main_v604_4)))⟩,
        ⟨S64x128, Cert.ValueTail.scaled bcast_S64x1_S64x128_0_1 (W64 m ρ c (Proc.devRef .tc main_v604_2)) (Cert.ValueTail.invCnt bcast_S_S64x1 bcast_S_S64x1 (W64 m ρ c (Proc.devRef .tc main_v604_4)))⟩,
        ⟨S64x128, Cert.ValueTail.scaled bcast_S64x1_S64x128_0_1 (W64 m ρ c (Proc.devRef .tc main_v604_3)) (Cert.ValueTail.invCnt bcast_S_S64x1 bcast_S_S64x1 (W64 m ρ c (Proc.devRef .tc main_v604_4)))⟩] concatenates_S64x128_S64x128_S64x128_S64x128_S64x512_d1 : Cert.Spec.S64x512.Idx → EReal)
      = Cert.Spec.vec Dm (argsOf m c) 2 :=
  Cert.ValueTail.relvec_eq Dm (argsOf m c) 2 hr512 hr1
    (W63 m ρ c (Proc.devRef .tc main_v603)) (W63_seg m ρ c)
    (W63 m ρ c (Proc.devRef .tc main_v170)) (W63 m ρ c (Proc.devRef .tc main_v302))
    (W63 m ρ c (Proc.devRef .tc main_v434)) (W63 m ρ c (Proc.devRef .tc main_v566))
    (((keep61_63 m ρ c main_v170 (by decide) (by decide)).trans (keep57_61 m ρ c main_v170 (by decide) (by decide) (by decide) (by decide))).trans hx1)
    (((keep61_63 m ρ c main_v302 (by decide) (by decide)).trans (keep57_61 m ρ c main_v302 (by decide) (by decide) (by decide) (by decide))).trans hx2)
    (((keep61_63 m ρ c main_v434 (by decide) (by decide)).trans (keep57_61 m ρ c main_v434 (by decide) (by decide) (by decide) (by decide))).trans hx3)
    (((keep61_63 m ρ c main_v566 (by decide) (by decide)).trans (keep57_61 m ρ c main_v566 (by decide) (by decide) (by decide) (by decide))).trans hx4)
    (W64 m ρ c (Proc.devRef .tc main_v604_0)) (W64 m ρ c (Proc.devRef .tc main_v604_1))
    (W64 m ρ c (Proc.devRef .tc main_v604_2)) (W64 m ρ c (Proc.devRef .tc main_v604_3))
    (W64 m ρ c (Proc.devRef .tc main_v604_4))
    (W64_out0 m ρ hR c) (W64_out1 m ρ hR c) (W64_out2 m ρ hR c) (W64_out3 m ρ hR c) (W64_out4 m ρ hR c)
    _ _ _ _ _ _ _

/-! ## The result -/

/-- THE TAIL. If before item 57 the twelve layer-output buffers hold the specification's four layers of the three
    relations, and each readout region leaves the segment sums, then after the last item the result buffer holds the
    specification's result. -/
theorem tail_eq (c : Dev nD) (Dm : Cert.Spec.Dims)
    (hr512 : Dm.r512.updateWindowDims = [1] ∧ Dm.r512.insertedWindowDims = [0] ∧ Dm.r512.scatterDimsToOperandDims = [0] ∧ Dm.r512.indexVectorDim = 1)
    (hr1 : Dm.r1.updateWindowDims = [1] ∧ Dm.r1.insertedWindowDims = [0] ∧ Dm.r1.scatterDimsToOperandDims = [0] ∧ Dm.r1.indexVectorDim = 1)
    (hR24 : ReadoutVals24) (hR25 : ReadoutVals25) (hR26 : ReadoutVals26)
    (h1_0 : (W57 m ρ c (Proc.devRef .tc main_v90) : Cert.Spec.S50000x128.Idx → EReal) = Cert.Spec.h1 Dm (argsOf m c) 0)
    (h2_0 : (W57 m ρ c (Proc.devRef .tc main_v222) : Cert.Spec.S50000x128.Idx → EReal) = Cert.Spec.h2 Dm (argsOf m c) 0)
    (h3_0 : (W57 m ρ c (Proc.devRef .tc main_v354) : Cert.Spec.S50000x128.Idx → EReal) = Cert.Spec.h3 Dm (argsOf m c) 0)
    (h4_0 : (W57 m ρ c (Proc.devRef .tc main_v486) : Cert.Spec.S50000x128.Idx → EReal) = Cert.Spec.h4 Dm (argsOf m c) 0)
    (h1_1 : (W57 m ρ c (Proc.devRef .tc main_v130) : Cert.Spec.S50000x128.Idx → EReal) = Cert.Spec.h1 Dm (argsOf m c) 1)
    (h2_1 : (W57 m ρ c (Proc.devRef .tc main_v262) : Cert.Spec.S50000x128.Idx → EReal) = Cert.Spec.h2 Dm (argsOf m c) 1)
    (h3_1 : (W57 m ρ c (Proc.devRef .tc main_v394) : Cert.Spec.S50000x128.Idx → EReal) = Cert.Spec.h3 Dm (argsOf m c) 1)
    (h4_1 : (W57 m ρ c (Proc.devRef .tc main_v526) : Cert.Spec.S50000x128.Idx → EReal) = Cert.Spec.h4 Dm (argsOf m c) 1)
    (h1_2 : (W57 m ρ c (Proc.devRef .tc main_v170) : Cert.Spec.S50000x128.Idx → EReal) = Cert.Spec.h1 Dm (argsOf m c) 2)
    (h2_2 : (W57 m ρ c (Proc.devRef .tc main_v302) : Cert.Spec.S50000x128.Idx → EReal) = Cert.Spec.h2 Dm (argsOf m c) 2)
    (h3_2 : (W57 m ρ c (Proc.devRef .tc main_v434) : Cert.Spec.S50000x128.Idx → EReal) = Cert.Spec.h3 Dm (argsOf m c) 2)
    (h4_2 : (W57 m ρ c (Proc.devRef .tc main_v566) : Cert.Spec.S50000x128.Idx → EReal) = Cert.Spec.h4 Dm (argsOf m c) 2) :
    (W65 m ρ c (Proc.devRef .tc main_v618) : Cert.Spec.S64x1536.Idx → EReal) = Cert.Spec.result Dm (argsOf m c) := by
  have e0 : (W64 m ρ c (Proc.devRef .tc main_v583) : Cert.Spec.S64x512.Idx → EReal) = Cert.Spec.vec Dm (argsOf m c) 0 :=
    ((W64_of_ne m ρ c main_v583 (by decide)).trans (keep61_63 m ρ c main_v583 (by decide) (by decide))).trans
      (W61_vec m ρ c Dm hr512 hr1 hR24 h1_0 h2_0 h3_0 h4_0)
  have e1 : (W64 m ρ c (Proc.devRef .tc main_v600) : Cert.Spec.S64x512.Idx → EReal) = Cert.Spec.vec Dm (argsOf m c) 1 :=
    (W64_of_ne m ρ c main_v600 (by decide)).trans (W63_vec m ρ c Dm hr512 hr1 hR25 h1_1 h2_1 h3_1 h4_1)
  have e2 := W65_vec m ρ c Dm hr512 hr1 hR26 h1_2 h2_2 h3_2 h4_2
  refine (W65_tree m ρ c).trans ((Cert.ValueMath.concat3_eq _ _ _ _).trans ?_)
  unfold Cert.Spec.result
  rw [e0, e1, e2]

end Cert.KernelIdeal.Gen

end
-- ==== Proof.PreReal.lean ====
/-
  Every float argument array is real-valued under the precondition. The precondition is the conjunction, over the
  fifteen float arguments, of "all |x| < +∞"; an extended real whose absolute value max x (−x) lies strictly below +∞
  is neither +∞ nor −∞, hence the coercion of a real number. The conjunction is printed as a chain of one-bit `and`s
  over reductions by `and`; a reduction by `and` that came out 1 met a 1 at every index.
-/
import proofs.«421328_j30846455120312_1_alg».proof.Pre_finite_inputs
import proofs.«421328_j30846455120312_1_alg».proof.Proof.Gen.Pre_finite_inputs
import Idealize.ShloMosaic.PureOps.Ideal
import Idealize.ShloMosaic.Lib.ReduceAll
import Idealize.ShloMosaic.Lib.ValueIdx

noncomputable section
open Idealize.ShloMosaic

namespace Cert.PreReal

open Cert.Pre_finite_inputs

instance : Subsingleton S_.Idx := ⟨fun a b => funext fun d => d.elim0⟩

/-- "Every entry is a real number." -/
def IsReal {S : Shape} (a : S.Idx → EReal) : Prop := ∀ i, ∃ r : ℝ, a i = (r : EReal)

/-- An extended real whose absolute value is below +∞ is a real number. -/
theorem real_of_abs_lt (x : EReal) (h : max x (-x) < Ideal.ofBits .f32 0x7F800000#32) : ∃ r : ℝ, x = (r : EReal) := by
  have hinf : Ideal.ofBits .f32 0x7F800000#32 = (⊤ : EReal) := by
    simp [Ideal.ofBits, Ideal.ieee]
  rw [hinf] at h
  induction x using EReal.rec with
  | bot => simp at h
  | coe r => exact ⟨r, rfl⟩
  | top => simp at h

/-- `all (|a| < +∞)` read back: every entry of `a` is a real. -/
theorem real_of_all {S : Shape} {axes : List (Fin S.rank)} (hb : S_.BroadcastsInDim S (![] : Fin 0 → Fin S.rank)) (hr : S.ReducesTo axes S_) (hu : 0 < S_.numel)
    (a : FVec Ideal S .f32) (j : S_.Idx)
    (h : Host.reduce IntOp.andi (cmpf .olt (Host.absf a) (broadcastInDim S ![] hb (constant S_ .f32 0x7F800000#32))) (constantI S_ 1 1#1) hr hu j = 1#1) :
    IsReal a := by
  intro i
  have h1 := Host.reduce_andi_all _ _ hr hu j h i
  apply real_of_abs_lt
  simp only [cmpf, Host.absf, broadcastInDim, constant] at h1
  change Ideal.cmp .olt (max (a i) (-a i)) (Ideal.ofBits .f32 0x7F800000#32) = 1#1 at h1
  unfold Ideal.cmp at h1
  by_contra hlt
  simp [hlt] at h1

/-- The precondition, decoded: each of the fifteen float arguments is real-valued. -/
theorem reals_of_pre (a0 a1 a2 : IVec S50000 32) (a3 a4 : IVec S3x400000 32) (a5 : IVec S3x50000 32)
    (a6 a7 a8 : FVec Ideal S257x64 .f32) (a9 a10 : FVec Ideal S3x64x128 .f32) (a11 a12 a13 a14 : FVec Ideal S3x128 .f32)
    (a15 a16 : FVec Ideal S3x3x128x128 .f32) (a17 a18 a19 a20 : FVec Ideal S3x3x128 .f32)
    (h : fn (F := Ideal) a0 a1 a2 a3 a4 a5 a6 a7 a8 a9 a10 a11 a12 a13 a14 a15 a16 a17 a18 a19 a20 = fun _ => 1#1) :
    IsReal a6 ∧ IsReal a7 ∧ IsReal a8 ∧ IsReal a9 ∧ IsReal a10 ∧ IsReal a11 ∧ IsReal a12 ∧ IsReal a13 ∧ IsReal a14
      ∧ IsReal a15 ∧ IsReal a16 ∧ IsReal a17 ∧ IsReal a18 ∧ IsReal a19 ∧ IsReal a20 := by
  have h0 := congrFun h (fun d => d.elim0)
  simp only [fn, fn_part1, fn_part2, fn_part3, fn_part4, andi, IntOp.andi_eq_one] at h0
  obtain ⟨⟨⟨⟨⟨⟨⟨⟨⟨⟨⟨⟨⟨⟨h6, h7⟩, h8⟩, h9⟩, h10⟩, h11⟩, h12⟩, h13⟩, h14⟩, h15⟩, h16⟩, h17⟩, h18⟩, h19⟩, h20⟩ := h0
  exact ⟨real_of_all _ _ _ a6 _ h6, real_of_all _ _ _ a7 _ h7, real_of_all _ _ _ a8 _ h8, real_of_all _ _ _ a9 _ h9,
    real_of_all _ _ _ a10 _ h10, real_of_all _ _ _ a11 _ h11, real_of_all _ _ _ a12 _ h12, real_of_all _ _ _ a13 _ h13,
    real_of_all _ _ _ a14 _ h14, real_of_all _ _ _ a15 _ h15, real_of_all _ _ _ a16 _ h16, real_of_all _ _ _ a17 _ h17,
    real_of_all _ _ _ a18 _ h18, real_of_all _ _ _ a19 _ h19, real_of_all _ _ _ a20 _ h20⟩

end Cert.PreReal
end
-- ==== Proof.Ref.Run.lean ====
/- The reference program's run. @main is the straight line of its host operations (Ref/Ops.lean lists them, one list per
   printed window, each called function's operations in its call's place), so every weakly fair execution of it terminates
   with every buffer at the fold of the operations' results over the launch contents (the library's run of a straight line).
   The fold is exposed window by window (`val1` … `val18`: the contents after the first K windows), a buffer that a window
   does not write keeps its contents through it, and the 21 argument arrays are written by no window. -/
import proofs.«421328_j30846455120312_1_alg».proof.Proof.Ref.Ops
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 1312 operations, in order: the windows' lists one after the other. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17)))))))))))))))))

/-! ## Each window is the straight line of its list

By unfolding: a window's statements are its list's operations in order, a call's being the called function's body applied to
the call's operands and buffers (sequencing is by structural recursion on the program, so the nesting a call introduces and the
body's own return compute away). -/

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_part6_eq (c : Dev nD) : main_part6 (F := F) c = seq ops_part6 := rfl
set_option maxRecDepth 8192 in
theorem main_part7_eq (c : Dev nD) : main_part7 (F := F) c = seq ops_part7 := rfl
set_option maxRecDepth 8192 in
theorem main_part8_eq (c : Dev nD) : main_part8 (F := F) c = seq ops_part8 := rfl
set_option maxRecDepth 8192 in
theorem main_part9_eq (c : Dev nD) : main_part9 (F := F) c = seq ops_part9 := rfl
set_option maxRecDepth 8192 in
theorem main_part10_eq (c : Dev nD) : main_part10 (F := F) c = seq ops_part10 := rfl
set_option maxRecDepth 8192 in
theorem main_part11_eq (c : Dev nD) : main_part11 (F := F) c = seq ops_part11 := rfl
set_option maxRecDepth 8192 in
theorem main_part12_eq (c : Dev nD) : main_part12 (F := F) c = seq ops_part12 := rfl
set_option maxRecDepth 8192 in
theorem main_part13_eq (c : Dev nD) : main_part13 (F := F) c = seq ops_part13 := rfl
set_option maxRecDepth 8192 in
theorem main_part14_eq (c : Dev nD) : main_part14 (F := F) c = seq ops_part14 := rfl
set_option maxRecDepth 8192 in
theorem main_part15_eq (c : Dev nD) : main_part15 (F := F) c = seq ops_part15 := rfl
set_option maxRecDepth 8192 in
theorem main_part16_eq (c : Dev nD) : main_part16 (F := F) c = seq ops_part16 := rfl
set_option maxRecDepth 8192 in
theorem main_part17_eq (c : Dev nD) : main_part17 (F := F) c = seq ops_part17 := rfl

set_option maxRecDepth 8192 in
/-- @main runs its windows in order, and a line of concatenated lists is the lines one after the other. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c]
  rfl

/-! ## The side conditions of the straight line's run -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- Every operation touches device buffers only. -/
theorem ops_sub : (ops : List (HloOp τ sig (Elt F))).Forall fun op => op.bufs ⊆ tcRefs τ sig :=
  forall_append (ops_part0_sub) (forall_append (ops_part1_sub) (forall_append (ops_part2_sub) (forall_append (ops_part3_sub) (forall_append (ops_part4_sub) (forall_append (ops_part5_sub) (forall_append (ops_part6_sub) (forall_append (ops_part7_sub) (forall_append (ops_part8_sub) (forall_append (ops_part9_sub) (forall_append (ops_part10_sub) (forall_append (ops_part11_sub) (forall_append (ops_part12_sub) (forall_append (ops_part13_sub) (forall_append (ops_part14_sub) (forall_append (ops_part15_sub) (forall_append (ops_part16_sub) (ops_part17_sub)))))))))))))))))

/-- Every operation determines what it writes. -/
theorem ops_fresh : (ops : List (HloOp τ sig (Elt F))).Forall fun op => op.fresh = ∅ :=
  forall_append (ops_part0_fresh) (forall_append (ops_part1_fresh) (forall_append (ops_part2_fresh) (forall_append (ops_part3_fresh) (forall_append (ops_part4_fresh) (forall_append (ops_part5_fresh) (forall_append (ops_part6_fresh) (forall_append (ops_part7_fresh) (forall_append (ops_part8_fresh) (forall_append (ops_part9_fresh) (forall_append (ops_part10_fresh) (forall_append (ops_part11_fresh) (forall_append (ops_part12_fresh) (forall_append (ops_part13_fresh) (forall_append (ops_part14_fresh) (forall_append (ops_part15_fresh) (forall_append (ops_part16_fresh) (ops_part17_fresh)))))))))))))))))

/-! ## The fold, window by window -/

/-- The device's buffer contents after @main's first window. -/
def val1 (V0 : Valuation τ sig (Elt F)) : Valuation τ sig (Elt F) := after ops_part0 V0
/-- The device's buffer contents after @main's first 2 windows. -/
def val2 (V0 : Valuation τ sig (Elt F)) : Valuation τ sig (Elt F) := after ops_part1 (val1 V0)
/-- The device's buffer contents after @main's first 3 windows. -/
def val3 (V0 : Valuation τ sig (Elt F)) : Valuation τ sig (Elt F) := after ops_part2 (val2 V0)
/-- The device's buffer contents after @main's first 4 windows. -/
def val4 (V0 : Valuation τ sig (Elt F)) : Valuation τ sig (Elt F) := after ops_part3 (val3 V0)
/-- The device's buffer contents after @main's first 5 windows. -/
def val5 (V0 : Valuation τ sig (Elt F)) : Valuation τ sig (Elt F) := after ops_part4 (val4 V0)
/-- The device's buffer contents after @main's first 6 windows. -/
def val6 (V0 : Valuation τ sig (Elt F)) : Valuation τ sig (Elt F) := after ops_part5 (val5 V0)
/-- The device's buffer contents after @main's first 7 windows. -/
def val7 (V0 : Valuation τ sig (Elt F)) : Valuation τ sig (Elt F) := after ops_part6 (val6 V0)
/-- The device's buffer contents after @main's first 8 windows. -/
def val8 (V0 : Valuation τ sig (Elt F)) : Valuation τ sig (Elt F) := after ops_part7 (val7 V0)
/-- The device's buffer contents after @main's first 9 windows. -/
def val9 (V0 : Valuation τ sig (Elt F)) : Valuation τ sig (Elt F) := after ops_part8 (val8 V0)
/-- The device's buffer contents after @main's first 10 windows. -/
def val10 (V0 : Valuation τ sig (Elt F)) : Valuation τ sig (Elt F) := after ops_part9 (val9 V0)
/-- The device's buffer contents after @main's first 11 windows. -/
def val11 (V0 : Valuation τ sig (Elt F)) : Valuation τ sig (Elt F) := after ops_part10 (val10 V0)
/-- The device's buffer contents after @main's first 12 windows. -/
def val12 (V0 : Valuation τ sig (Elt F)) : Valuation τ sig (Elt F) := after ops_part11 (val11 V0)
/-- The device's buffer contents after @main's first 13 windows. -/
def val13 (V0 : Valuation τ sig (Elt F)) : Valuation τ sig (Elt F) := after ops_part12 (val12 V0)
/-- The device's buffer contents after @main's first 14 windows. -/
def val14 (V0 : Valuation τ sig (Elt F)) : Valuation τ sig (Elt F) := after ops_part13 (val13 V0)
/-- The device's buffer contents after @main's first 15 windows. -/
def val15 (V0 : Valuation τ sig (Elt F)) : Valuation τ sig (Elt F) := after ops_part14 (val14 V0)
/-- The device's buffer contents after @main's first 16 windows. -/
def val16 (V0 : Valuation τ sig (Elt F)) : Valuation τ sig (Elt F) := after ops_part15 (val15 V0)
/-- The device's buffer contents after @main's first 17 windows. -/
def val17 (V0 : Valuation τ sig (Elt F)) : Valuation τ sig (Elt F) := after ops_part16 (val16 V0)
/-- The device's buffer contents after @main's first 18 windows. -/
def val18 (V0 : Valuation τ sig (Elt F)) : Valuation τ sig (Elt F) := after ops_part17 (val17 V0)

/-- The fold over all of @main is the fold through the windows in order. -/
theorem after_ops (V0 : Valuation τ sig (Elt F)) : after ops V0 = val18 V0 := by
  simp only [ops, after_append]
  rfl

/-- A buffer the first window does not write keeps its contents through it. -/
theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h
/-- A buffer window 1 (counting from 0) does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- A buffer window 2 (counting from 0) does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
/-- A buffer window 3 (counting from 0) does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
/-- A buffer window 4 (counting from 0) does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
/-- A buffer window 5 (counting from 0) does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
/-- A buffer window 6 (counting from 0) does not write keeps its contents through it. -/
theorem val7_keep (V0 : Valuation τ sig (Elt F)) (r : Ref sig .tc) (h : r ∉ ops_part6_W) :
    val7 V0 (Proc.devRef .tc r) = val6 V0 (Proc.devRef .tc r) :=
  after_of_writes_sub ops_part6 _ ops_part6_writes h
/-- A buffer window 7 (counting from 0) does not write keeps its contents through it. -/
theorem val8_keep (V0 : Valuation τ sig (Elt F)) (r : Ref sig .tc) (h : r ∉ ops_part7_W) :
    val8 V0 (Proc.devRef .tc r) = val7 V0 (Proc.devRef .tc r) :=
  after_of_writes_sub ops_part7 _ ops_part7_writes h
/-- A buffer window 8 (counting from 0) does not write keeps its contents through it. -/
theorem val9_keep (V0 : Valuation τ sig (Elt F)) (r : Ref sig .tc) (h : r ∉ ops_part8_W) :
    val9 V0 (Proc.devRef .tc r) = val8 V0 (Proc.devRef .tc r) :=
  after_of_writes_sub ops_part8 _ ops_part8_writes h
/-- A buffer window 9 (counting from 0) does not write keeps its contents through it. -/
theorem val10_keep (V0 : Valuation τ sig (Elt F)) (r : Ref sig .tc) (h : r ∉ ops_part9_W) :
    val10 V0 (Proc.devRef .tc r) = val9 V0 (Proc.devRef .tc r) :=
  after_of_writes_sub ops_part9 _ ops_part9_writes h
/-- A buffer window 10 (counting from 0) does not write keeps its contents through it. -/
theorem val11_keep (V0 : Valuation τ sig (Elt F)) (r : Ref sig .tc) (h : r ∉ ops_part10_W) :
    val11 V0 (Proc.devRef .tc r) = val10 V0 (Proc.devRef .tc r) :=
  after_of_writes_sub ops_part10 _ ops_part10_writes h
/-- A buffer window 11 (counting from 0) does not write keeps its contents through it. -/
theorem val12_keep (V0 : Valuation τ sig (Elt F)) (r : Ref sig .tc) (h : r ∉ ops_part11_W) :
    val12 V0 (Proc.devRef .tc r) = val11 V0 (Proc.devRef .tc r) :=
  after_of_writes_sub ops_part11 _ ops_part11_writes h
/-- A buffer window 12 (counting from 0) does not write keeps its contents through it. -/
theorem val13_keep (V0 : Valuation τ sig (Elt F)) (r : Ref sig .tc) (h : r ∉ ops_part12_W) :
    val13 V0 (Proc.devRef .tc r) = val12 V0 (Proc.devRef .tc r) :=
  after_of_writes_sub ops_part12 _ ops_part12_writes h
/-- A buffer window 13 (counting from 0) does not write keeps its contents through it. -/
theorem val14_keep (V0 : Valuation τ sig (Elt F)) (r : Ref sig .tc) (h : r ∉ ops_part13_W) :
    val14 V0 (Proc.devRef .tc r) = val13 V0 (Proc.devRef .tc r) :=
  after_of_writes_sub ops_part13 _ ops_part13_writes h
/-- A buffer window 14 (counting from 0) does not write keeps its contents through it. -/
theorem val15_keep (V0 : Valuation τ sig (Elt F)) (r : Ref sig .tc) (h : r ∉ ops_part14_W) :
    val15 V0 (Proc.devRef .tc r) = val14 V0 (Proc.devRef .tc r) :=
  after_of_writes_sub ops_part14 _ ops_part14_writes h
/-- A buffer window 15 (counting from 0) does not write keeps its contents through it. -/
theorem val16_keep (V0 : Valuation τ sig (Elt F)) (r : Ref sig .tc) (h : r ∉ ops_part15_W) :
    val16 V0 (Proc.devRef .tc r) = val15 V0 (Proc.devRef .tc r) :=
  after_of_writes_sub ops_part15 _ ops_part15_writes h
/-- A buffer window 16 (counting from 0) does not write keeps its contents through it. -/
theorem val17_keep (V0 : Valuation τ sig (Elt F)) (r : Ref sig .tc) (h : r ∉ ops_part16_W) :
    val17 V0 (Proc.devRef .tc r) = val16 V0 (Proc.devRef .tc r) :=
  after_of_writes_sub ops_part16 _ ops_part16_writes h
/-- A buffer window 17 (counting from 0) does not write keeps its contents through it. -/
theorem val18_keep (V0 : Valuation τ sig (Elt F)) (r : Ref sig .tc) (h : r ∉ ops_part17_W) :
    val18 V0 (Proc.devRef .tc r) = val17 V0 (Proc.devRef .tc r) :=
  after_of_writes_sub ops_part17 _ ops_part17_writes h

/-- A buffer no window writes holds at the end what it held at the launch. -/
theorem val18_of_not_written (V0 : Valuation τ sig (Elt F)) (r : Ref sig .tc)
    (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) (h10 : r ∉ ops_part10_W) (h11 : r ∉ ops_part11_W) (h12 : r ∉ ops_part12_W) (h13 : r ∉ ops_part13_W) (h14 : r ∉ ops_part14_W) (h15 : r ∉ ops_part15_W) (h16 : r ∉ ops_part16_W) (h17 : r ∉ ops_part17_W) :
    val18 V0 (Proc.devRef .tc r) = V0 (Proc.devRef .tc r) :=
  (val18_keep V0 r h17).trans ((val17_keep V0 r h16).trans ((val16_keep V0 r h15).trans ((val15_keep V0 r h14).trans ((val14_keep V0 r h13).trans ((val13_keep V0 r h12).trans ((val12_keep V0 r h11).trans ((val11_keep V0 r h10).trans ((val10_keep V0 r h9).trans ((val9_keep V0 r h8).trans ((val8_keep V0 r h7).trans ((val7_keep V0 r h6).trans ((val6_keep V0 r h5).trans ((val5_keep V0 r h4).trans ((val4_keep V0 r h3).trans ((val3_keep V0 r h2).trans ((val2_keep V0 r h1).trans (val1_keep V0 r h0)))))))))))))))))

/-- An argument array is no operation's result: the fold leaves it as launched. -/
theorem after_ops_arg (V0 : Valuation τ sig (Elt F)) (r : Ref sig .tc)
    (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) (h9 : r ∉ ops_part9_W) (h10 : r ∉ ops_part10_W) (h11 : r ∉ ops_part11_W) (h12 : r ∉ ops_part12_W) (h13 : r ∉ ops_part13_W) (h14 : r ∉ ops_part14_W) (h15 : r ∉ ops_part15_W) (h16 : r ∉ ops_part16_W) (h17 : r ∉ ops_part17_W) :
    after ops V0 (Proc.devRef .tc r) = V0 (Proc.devRef .tc r) := by
  rw [after_ops]; exact val18_of_not_written V0 r h0 h1 h2 h3 h4 h5 h6 h7 h8 h9 h10 h11 h12 h13 h14 h15 h16 h17

/-! ## The run -/

set_option maxRecDepth 8192 in
/-- On every device, for any float values, from any memory with zero counters: every weakly fair execution of @main
    terminates with the result buffer at the operations' fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v909) = after ops (launchContents m c) (Proc.devRef .tc main_v909)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨h c main_v909,
      (h c main_arg0).trans (after_ops_arg (launchContents m c) main_arg0 (by decide) (by decide) (by decide) (by decide) (by decide) (by decide) (by decide) (by decide) (by decide) (by decide) (by decide) (by decide) (by decide) (by decide) (by decide) (by decide) (by decide) (by decide)),
      (h c main_arg1).trans (after_ops_arg (launchContents m c) main_arg1 (by decide) (by decide) (by decide) (by decide) (by decide) (by decide) (by decide) (by decide) (by decide) (by decide) (by decide) (by decide) (by decide) (by decide) (by decide) (by decide) (by decide) (by decide)),
      (h c main_arg2).trans (after_ops_arg (launchContents m c) main_arg2 (by decide) (by decide) (by decide) (by decide) (by decide) (by decide) (by decide) (by decide) (by decide) (by decide) (by decide) (by decide) (by decide) (by decide) (by decide) (by decide) (by decide) (by decide)),
      (h c main_arg3).trans (after_ops_arg (launchContents m c) main_arg3 (by decide) (by decide) (by decide) (by decide) (by decide) (by decide) (by decide) (by decide) (by decide) (by decide) (by decide) (by decide) (by decide) (by decide) (by decide) (by decide) (by decide) (by decide)),
      (h c main_arg4).trans (after_ops_arg (launchContents m c) main_arg4 (by decide) (by decide) (by decide) (by decide) (by decide) (by decide) (by decide) (by decide) (by decide) (by decide) (by decide) (by decide) (by decide) (by decide) (by decide) (by decide) (by decide) (by decide)),
      (h c main_arg5).trans (after_ops_arg (launchContents m c) main_arg5 (by decide) (by decide) (by decide) (by decide) (by decide) (by decide) (by decide) (by decide) (by decide) (by decide) (by decide) (by decide) (by decide) (by decide) (by decide) (by decide) (by decide) (by decide)),
      (h c main_arg6).trans (after_ops_arg (launchContents m c) main_arg6 (by decide) (by decide) (by decide) (by decide) (by decide) (by decide) (by decide) (by decide) (by decide) (by decide) (by decide) (by decide) (by decide) (by decide) (by decide) (by decide) (by decide) (by decide)),
      (h c main_arg7).trans (after_ops_arg (launchContents m c) main_arg7 (by decide) (by decide) (by decide) (by decide) (by decide) (by decide) (by decide) (by decide) (by decide) (by decide) (by decide) (by decide) (by decide) (by decide) (by decide) (by decide) (by decide) (by decide)),
      (h c main_arg8).trans (after_ops_arg (launchContents m c) main_arg8 (by decide) (by decide) (by decide) (by decide) (by decide) (by decide) (by decide) (by decide) (by decide) (by decide) (by decide) (by decide) (by decide) (by decide) (by decide) (by decide) (by decide) (by decide)),
      (h c main_arg9).trans (after_ops_arg (launchContents m c) main_arg9 (by decide) (by decide) (by decide) (by decide) (by decide) (by decide) (by decide) (by decide) (by decide) (by decide) (by decide) (by decide) (by decide) (by decide) (by decide) (by decide) (by decide) (by decide)),
      (h c main_arg10).trans (after_ops_arg (launchContents m c) main_arg10 (by decide) (by decide) (by decide) (by decide) (by decide) (by decide) (by decide) (by decide) (by decide) (by decide) (by decide) (by decide) (by decide) (by decide) (by decide) (by decide) (by decide) (by decide)),
      (h c main_arg11).trans (after_ops_arg (launchContents m c) main_arg11 (by decide) (by decide) (by decide) (by decide) (by decide) (by decide) (by decide) (by decide) (by decide) (by decide) (by decide) (by decide) (by decide) (by decide) (by decide) (by decide) (by decide) (by decide)),
      (h c main_arg12).trans (after_ops_arg (launchContents m c) main_arg12 (by decide) (by decide) (by decide) (by decide) (by decide) (by decide) (by decide) (by decide) (by decide) (by decide) (by decide) (by decide) (by decide) (by decide) (by decide) (by decide) (by decide) (by decide)),
      (h c main_arg13).trans (after_ops_arg (launchContents m c) main_arg13 (by decide) (by decide) (by decide) (by decide) (by decide) (by decide) (by decide) (by decide) (by decide) (by decide) (by decide) (by decide) (by decide) (by decide) (by decide) (by decide) (by decide) (by decide)),
      (h c main_arg14).trans (after_ops_arg (launchContents m c) main_arg14 (by decide) (by decide) (by decide) (by decide) (by decide) (by decide) (by decide) (by decide) (by decide) (by decide) (by decide) (by decide) (by decide) (by decide) (by decide) (by decide) (by decide) (by decide)),
      (h c main_arg15).trans (after_ops_arg (launchContents m c) main_arg15 (by decide) (by decide) (by decide) (by decide) (by decide) (by decide) (by decide) (by decide) (by decide) (by decide) (by decide) (by decide) (by decide) (by decide) (by decide) (by decide) (by decide) (by decide)),
      (h c main_arg16).trans (after_ops_arg (launchContents m c) main_arg16 (by decide) (by decide) (by decide) (by decide) (by decide) (by decide) (by decide) (by decide) (by decide) (by decide) (by decide) (by decide) (by decide) (by decide) (by decide) (by decide) (by decide) (by decide)),
      (h c main_arg17).trans (after_ops_arg (launchContents m c) main_arg17 (by decide) (by decide) (by decide) (by decide) (by decide) (by decide) (by decide) (by decide) (by decide) (by decide) (by decide) (by decide) (by decide) (by decide) (by decide) (by decide) (by decide) (by decide)),
      (h c main_arg18).trans (after_ops_arg (launchContents m c) main_arg18 (by decide) (by decide) (by decide) (by decide) (by decide) (by decide) (by decide) (by decide) (by decide) (by decide) (by decide) (by decide) (by decide) (by decide) (by decide) (by decide) (by decide) (by decide)),
      (h c main_arg19).trans (after_ops_arg (launchContents m c) main_arg19 (by decide) (by decide) (by decide) (by decide) (by decide) (by decide) (by decide) (by decide) (by decide) (by decide) (by decide) (by decide) (by decide) (by decide) (by decide) (by decide) (by decide) (by decide)),
      (h c main_arg20).trans (after_ops_arg (launchContents m c) main_arg20 (by decide) (by decide) (by decide) (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.Ref.Bridge.lean ====
/-
  The reference's whole-array stages read as the specification's stages. Every lemma here is over arbitrary
  arrays and arbitrary witnesses of the shape relations, at the extended reals: a stage of the printed program
  (a chain of broadcasts, slices, reshapes and pointwise operations around the library's gather, accumulating
  scatter, matrix product and column sum) equals the specification's stage, read index by index.
-/
import proofs.«421328_j30846455120312_1_alg».proof.Proof.Spec
import proofs.«421328_j30846455120312_1_alg».proof.Proof.MathBN
import Idealize.ShloMosaic.PureOps
import Idealize.ShloMosaic.Lib.IdealHost
import Idealize.ShloMosaic.Lib.KernelVsHost
import Idealize.ShloMosaic.Lib.Pipeline.Value
import Idealize.ShloMosaic.Lib.StackMember

noncomputable section

open scoped BigOperators
open Idealize.ShloMosaic Idealize.ShloMosaic.ValueIdx

namespace Cert.RefBridge

open Cert.Spec

abbrev S_ : Shape := ⟨0, ![]⟩

/-! ## Layout operations at an index -/

section layout
variable {α : Type}

/-- Row r of a [R, E] array, as a vector: the slice [r:r+1, :] reshaped to [E]. -/
theorem row2_apply {R E : Nat} (a : (⟨2, ![R, E]⟩ : Shape).Idx → α) (r : Fin R)
    (hs : (⟨2, ![R, E]⟩ : Shape).Slices ![r.val, 0] ⟨2, ![1, E]⟩) (hc : (⟨2, ![1, E]⟩ : Shape).ShapeCasts ⟨1, ![E]⟩)
    (e : Fin E) :
    shapeCast ⟨1, ![E]⟩ (extractStridedSlice ⟨2, ![1, E]⟩ ![r.val, 0] a hs) hc (ix1 e) = a (ix2 r e) := by
  rw [shapeCast_apply _ hc (ix1 e) (ix2 (0 : Fin 1) e)
    (by rw [Shape.rowMajor_val_two, Shape.rowMajor_val_one]; show (0 : ℕ) * E + e.val = e.val; omega)]
  exact extractStridedSlice_apply _ a hs _ (ix2 r e) (by
    intro x
    match x with
    | ⟨0, _⟩ => simp
    | ⟨1, _⟩ => simp)

/-- Block r of a [R, A, B] array, as a matrix: the slice [r:r+1, :, :] reshaped to [A, B]. -/
theorem row3_apply {R A B : Nat} (x : (⟨3, ![R, A, B]⟩ : Shape).Idx → α) (r : Fin R)
    (hs : (⟨3, ![R, A, B]⟩ : Shape).Slices ![r.val, 0, 0] ⟨3, ![1, A, B]⟩)
    (hc : (⟨3, ![1, A, B]⟩ : Shape).ShapeCasts ⟨2, ![A, B]⟩) (a : Fin A) (b : Fin B) :
    shapeCast ⟨2, ![A, B]⟩ (extractStridedSlice ⟨3, ![1, A, B]⟩ ![r.val, 0, 0] x hs) hc (ix2 a b) = x (ix3 r a b) := by
  rw [shapeCast_apply _ hc (ix2 a b) (ix3 (0 : Fin 1) a b)
    (by rw [Shape.rowMajor_val_three, Shape.rowMajor_val_two]; show ((0 : ℕ) * A + a.val) * B + b.val = a.val * B + b.val; simp)]
  exact extractStridedSlice_apply _ x hs _ (ix3 r a b) (by
    intro y
    match y with
    | ⟨0, _⟩ => simp
    | ⟨1, _⟩ => simp
    | ⟨2, _⟩ => simp)

/-- Block r of a [R, A, B, C] array: the slice [r:r+1, :, :, :] reshaped to [A, B, C]. -/
theorem row4_apply {R A B C : Nat} (x : (⟨4, ![R, A, B, C]⟩ : Shape).Idx → α) (r : Fin R)
    (hs : (⟨4, ![R, A, B, C]⟩ : Shape).Slices ![r.val, 0, 0, 0] ⟨4, ![1, A, B, C]⟩)
    (hc : (⟨4, ![1, A, B, C]⟩ : Shape).ShapeCasts ⟨3, ![A, B, C]⟩) (a : Fin A) (b : Fin B) (c : Fin C) :
    shapeCast ⟨3, ![A, B, C]⟩ (extractStridedSlice ⟨4, ![1, A, B, C]⟩ ![r.val, 0, 0, 0] x hs) hc (ix3 a b c)
      = x (ix4 r a b c) := by
  rw [shapeCast_apply _ hc (ix3 a b c) (ix4 (0 : Fin 1) a b c)
    (by rw [Shape.rowMajor_val_four, Shape.rowMajor_val_three]; show (((0 : ℕ) * A + a.val) * B + b.val) * C + c.val = (a.val * B + b.val) * C + c.val; simp)]
  exact extractStridedSlice_apply _ x hs _ (ix4 r a b c) (by
    intro y
    match y with
    | ⟨0, _⟩ => simp
    | ⟨1, _⟩ => simp
    | ⟨2, _⟩ => simp
    | ⟨3, _⟩ => simp)

/-- A vector as a column [E, 1]. -/
theorem col_apply {E : Nat} (v : (⟨1, ![E]⟩ : Shape).Idx → α)
    (hb : (⟨1, ![E]⟩ : Shape).BroadcastsInDim ⟨2, ![E, 1]⟩ ![0]) (j : (⟨2, ![E, 1]⟩ : Shape).Idx) :
    broadcastInDim ⟨2, ![E, 1]⟩ ![0] hb v j = v (ix1 (j 0)) := by
  refine broadcastInDim_apply ![0] hb v j (ix1 (j 0)) ?_
  intro a
  match a with
  | ⟨0, _⟩ =>
    show (j 0).val = if E = 1 then 0 else (j 0).val
    split_ifs with h
    · have := idx2_lt0 j; omega
    · rfl

/-- A vector [C] laid along the rows of [N, C]: first as the one row [1, C], then down the N rows. -/
theorem bcastRow_apply {N C : Nat} (v : (⟨1, ![C]⟩ : Shape).Idx → α)
    (h0 : (⟨1, ![C]⟩ : Shape).BroadcastsInDim ⟨2, ![1, C]⟩ ![1])
    (h1 : (⟨2, ![1, C]⟩ : Shape).BroadcastsInDim ⟨2, ![N, C]⟩ ![0, 1]) (j : (⟨2, ![N, C]⟩ : Shape).Idx) :
    broadcastInDim ⟨2, ![N, C]⟩ ![0, 1] h1 (broadcastInDim ⟨2, ![1, C]⟩ ![1] h0 v) j = v (ix1 (j 1)) := by
  refine (broadcastInDim_apply ![0, 1] h1 (broadcastInDim ⟨2, ![1, C]⟩ ![1] h0 v) j (ix2 (0 : Fin 1) (j 1)) (by
    intro a
    match a with
    | ⟨0, _⟩ =>
      show (0 : ℕ) = if (1 : ℕ) = 1 then 0 else _
      simp
    | ⟨1, _⟩ =>
      show (j 1).val = if C = 1 then 0 else (j 1).val
      split_ifs with h
      · have := idx2_lt1 j; omega
      · rfl)).trans ?_
  refine broadcastInDim_apply ![1] h0 v _ (ix1 (j 1)) ?_
  intro a
  match a with
  | ⟨0, _⟩ =>
    show (j 1).val = if C = 1 then 0 else (j 1).val
    split_ifs with h
    · have := idx2_lt1 j; omega
    · rfl

/-- A column [N, 1] laid across the D columns of [N, D]. -/
theorem bcastCol_apply {N D : Nat} (y : (⟨2, ![N, 1]⟩ : Shape).Idx → α)
    (h : (⟨2, ![N, 1]⟩ : Shape).BroadcastsInDim ⟨2, ![N, D]⟩ ![0, 1]) (j : (⟨2, ![N, D]⟩ : Shape).Idx) :
    broadcastInDim ⟨2, ![N, D]⟩ ![0, 1] h y j = y (ix2 (j 0) 0) := by
  refine broadcastInDim_apply ![0, 1] h y j (ix2 (j 0) 0) ?_
  intro a
  match a with
  | ⟨0, _⟩ =>
    show (j 0).val = if N = 1 then 0 else (j 0).val
    split_ifs with hN
    · have := idx2_lt0 j; omega
    · rfl
  | ⟨1, _⟩ =>
    show (0 : ℕ) = if (1 : ℕ) = 1 then 0 else _
    simp

end layout

/-! ## The index columns -/

/-- The printed wrap of the node ids (compare with zero, add 257, select) as a column is the specification's. -/
theorem nodeIdx_eq (v : IVec S50000 32) (hb0 : S_.BroadcastsInDim S50000 ![])
    (hb1 : S50000.BroadcastsInDim S50000x1 ![0]) :
    broadcastInDim S50000x1 ![0] hb1
      (select (cmpi .slt v (broadcastInDim S50000 ![] hb0 (constantI S_ 32 0#32)))
        (addi v (broadcastInDim S50000 ![] hb0 (constantI S_ 32 257#32))) v)
      = nodeIdx v := by
  funext j
  rw [col_apply _ hb1 j]
  rfl

/-- Row rel of a [3, E] index array as a column is the specification's. -/
theorem rowIdx_eq {E : Nat} (a : IVec ⟨2, ![3, E]⟩ 32) (rel : Fin 3)
    (hs : (⟨2, ![3, E]⟩ : Shape).Slices ![rel.val, 0] ⟨2, ![1, E]⟩) (hc : (⟨2, ![1, E]⟩ : Shape).ShapeCasts ⟨1, ![E]⟩)
    (hb : (⟨1, ![E]⟩ : Shape).BroadcastsInDim ⟨2, ![E, 1]⟩ ![0]) :
    broadcastInDim ⟨2, ![E, 1]⟩ ![0] hb (shapeCast ⟨1, ![E]⟩ (extractStridedSlice ⟨2, ![1, E]⟩ ![rel.val, 0] a hs) hc)
      = rowIdx a rel := by
  funext j
  rw [col_apply _ hb j, row2_apply a rel hs hc (j 0)]
  rfl

/-- The printed wrap of relation rel's edge sources (slice, reshape, compare with zero, add 50000, select) as a
    column is the specification's. -/
theorem srcIdx_eq (src : IVec S3x400000 32) (rel : Fin 3)
    (hs : S3x400000.Slices ![rel.val, 0] ⟨2, ![1, 400000]⟩)
    (hc : (⟨2, ![1, 400000]⟩ : Shape).ShapeCasts ⟨1, ![400000]⟩)
    (hb0 : S_.BroadcastsInDim ⟨1, ![400000]⟩ ![])
    (hb1 : (⟨1, ![400000]⟩ : Shape).BroadcastsInDim S400000x1 ![0]) :
    broadcastInDim S400000x1 ![0] hb1
      (select
        (cmpi .slt (shapeCast ⟨1, ![400000]⟩ (extractStridedSlice ⟨2, ![1, 400000]⟩ ![rel.val, 0] src hs) hc)
          (broadcastInDim ⟨1, ![400000]⟩ ![] hb0 (constantI S_ 32 0#32)))
        (addi (shapeCast ⟨1, ![400000]⟩ (extractStridedSlice ⟨2, ![1, 400000]⟩ ![rel.val, 0] src hs) hc)
          (broadcastInDim ⟨1, ![400000]⟩ ![] hb0 (constantI S_ 32 50000#32)))
        (shapeCast ⟨1, ![400000]⟩ (extractStridedSlice ⟨2, ![1, 400000]⟩ ![rel.val, 0] src hs) hc))
      = srcIdx src rel := by
  funext j
  rw [col_apply _ hb1 j]
  show Scalar.select (IntOp.cmpi .slt (shapeCast _ _ hc (ix1 (j 0))) 0#32)
      (IntOp.addi (shapeCast _ _ hc (ix1 (j 0))) 50000#32) (shapeCast _ _ hc (ix1 (j 0))) = _
  rw [row2_apply src rel hs hc (j 0)]
  rfl

/-! ## The accumulating scatters from zero, and the mean over what was gathered -/

/-- A zero splat, as printed, is the zero array. -/
theorem zeros_eq {T : Shape} (h : S_.BroadcastsInDim T ![]) :
    (broadcastInDim T ![] h (constant (F := Ideal) S_ .f32 0x00000000#32) : T.Idx → EReal) = fun _ => 0 := by
  funext j
  show Ideal.ofBits .f32 0x00000000#32 = 0
  exact Ideal.ofBits_zero_f32

/-- A splat of ones, as printed. -/
theorem ones_eq {T : Shape} (h : S_.BroadcastsInDim T ![]) :
    (broadcastInDim T ![] h (constant (F := Ideal) S_ .f32 0x3F800000#32) : T.Idx → EReal) = fun _ => oneF := by
  funext j; rfl

/-- The host's accumulating scatter into a printed zero splat is the extended reals' from zero. -/
theorem scatter0_eq {s si su : Shape} (sd : ScatterDims s si su) (h : S_.BroadcastsInDim s ![]) (idx : IVec si 32)
    (upd : su.Idx → EReal) :
    Host.scatterAdd (F := Ideal) (φ := .f32) sd (broadcastInDim s ![] h (constant (F := Ideal) S_ .f32 0x00000000#32)) idx upd
      = Ideal.hostScatterAdd sd (fun _ => 0) idx upd := by
  rw [zeros_eq h]; rfl

/-- The sum over a row's incoming edges divided by max(count, 1), as printed, is the specification's mean. -/
theorem nmean_eq {D : Nat} (ns : (SNx D).Idx → EReal) (dg : S50000x1.Idx → EReal)
    (h1 : S_.BroadcastsInDim S50000x1 ![]) (hb : S50000x1.BroadcastsInDim (SNx D) ![0, 1]) :
    Host.divf (F := Ideal) (φ := .f32) ns
        (broadcastInDim (SNx D) ![0, 1] hb
          (maximumf (F := Ideal) (φ := .f32) dg (broadcastInDim S50000x1 ![] h1 (constant (F := Ideal) S_ .f32 0x3F800000#32))))
      = nmean ns dg := by
  funext j
  rw [hostDivf_apply, bcastCol_apply _ hb j]
  rfl

/-- The pooled sum divided by max(count, 1), as printed, is the specification's pooled mean. -/
theorem gmean_eq (gs : S64x512.Idx → EReal) (gc : S64x1.Idx → EReal)
    (h1 : S_.BroadcastsInDim S64x1 ![]) (hb : S64x1.BroadcastsInDim S64x512 ![0, 1]) :
    Host.divf (F := Ideal) (φ := .f32) gs
        (broadcastInDim S64x512 ![0, 1] hb
          (maximumf (F := Ideal) (φ := .f32) gc (broadcastInDim S64x1 ![] h1 (constant (F := Ideal) S_ .f32 0x3F800000#32))))
      = gmean gs gc := by
  funext j
  rw [hostDivf_apply, bcastCol_apply _ hb j]
  rfl

/-! ## The dense stage -/

/-- The two matrix products and the bias row, as printed, are the specification's linear stage. -/
theorem lin_eq {D : Nat} (dd : DotDims (SNx D) ⟨2, ![D, 128]⟩ S50000x128) (hdd : dd = DotDims.plain 50000 D 128)
    (x nm : (SNx D).Idx → EReal) (ws wn : (⟨2, ![D, 128]⟩ : Shape).Idx → EReal) (b : (⟨1, ![128]⟩ : Shape).Idx → EReal)
    (h0 : (⟨1, ![128]⟩ : Shape).BroadcastsInDim ⟨2, ![1, 128]⟩ ![1])
    (h1 : (⟨2, ![1, 128]⟩ : Shape).BroadcastsInDim S50000x128 ![0, 1]) :
    addf (F := Ideal) (φ := .f32)
        (addf (F := Ideal) (φ := .f32) (Host.dotGeneral (F := Ideal) (φ₁ := .f32) (φ₂ := .f32) dd none x ws)
          (Host.dotGeneral (F := Ideal) (φ₁ := .f32) (φ₂ := .f32) dd none nm wn))
        (broadcastInDim S50000x128 ![0, 1] h1 (broadcastInDim ⟨2, ![1, 128]⟩ ![1] h0 b))
      = lin x nm (fun k c => ws (ix2 k c)) (fun k c => wn (ix2 k c)) (fun c => b (ix1 c)) := by
  subst hdd
  funext j
  rw [addf_apply, addf_apply, bcastRow_apply b h0 h1 j]
  obtain ⟨a, c, rfl⟩ : ∃ (a : Fin 50000) (c : Fin 128), j = ix2 a c := ⟨j 0, j 1, eq_ix2 j⟩
  rw [StackMember.dotGeneral_plain_apply none x ws a c, StackMember.dotGeneral_plain_apply none nm wn a c]
  rfl

/-- The printed PReLU (compare with zero, multiply by the slope row, select) is the specification's. -/
theorem prelu_eq (l : S50000x128.Idx → EReal) (a : (⟨1, ![128]⟩ : Shape).Idx → EReal)
    (hz : S_.BroadcastsInDim S50000x128 ![])
    (h0 : (⟨1, ![128]⟩ : Shape).BroadcastsInDim ⟨2, ![1, 128]⟩ ![1])
    (h1 : (⟨2, ![1, 128]⟩ : Shape).BroadcastsInDim S50000x128 ![0, 1]) :
    select (cmpf (F := Ideal) (φ := .f32) .ogt l (broadcastInDim S50000x128 ![] hz (constant (F := Ideal) S_ .f32 0x00000000#32))) l
        (mulf (F := Ideal) (φ := .f32) (broadcastInDim S50000x128 ![0, 1] h1 (broadcastInDim ⟨2, ![1, 128]⟩ ![1] h0 a)) l)
      = prelu l (fun c => a (ix1 c)) := by
  funext j
  rw [select_apply, cmpf_apply, mulf_apply, bcastRow_apply a h0 h1 j]
  show Scalar.select (Ideal.cmp .ogt (l j) (Ideal.ofBits .f32 0x00000000#32)) (l j) (a (ix1 (j 1)) * l j) = _
  rw [Ideal.ofBits_zero_f32]
  rfl

/-- The host's column sum from a printed zero, read at a column. -/
theorem colSum_read (p : S50000x128.Idx → EReal) (hr : S50000x128.ReducesTo [0] ⟨1, ![128]⟩) (hu : 0 < S_.numel)
    (c : (⟨1, ![128]⟩ : Shape).Idx) :
    Host.reduceAdd (F := Ideal) (φ := .f32) p (constant (F := Ideal) S_ .f32 0x00000000#32) hr hu c = colSum p (c 0) := by
  have h : S50000x128.Reduces [0] ⟨1, ![128]⟩ := ⟨hr.1, Nat.one_pos, hr.2⟩
  rw [hostReduceAdd_apply, Ideal.hostReduceAdd_single hr h]
  show Ideal.ofBits .f32 0x00000000#32 + _ = _
  rw [Ideal.ofBits_zero_f32, zero_add]
  unfold colSum
  refine Finset.sum_congr rfl fun r _ => ?_
  refine congrArg p (funext fun a => Fin.ext ?_)
  match a with
  | ⟨0, _⟩ => rfl
  | ⟨1, _⟩ => rfl

/-- The same, at a column given by its number. -/
theorem colSum_read' (p : S50000x128.Idx → EReal) (hr : S50000x128.ReducesTo [0] ⟨1, ![128]⟩) (hu : 0 < S_.numel)
    (c : Fin 128) :
    Host.reduceAdd (F := Ideal) (φ := .f32) p (constant (F := Ideal) S_ .f32 0x00000000#32) hr hu (ix1 c) = colSum p c := by
  have h : S50000x128.Reduces [0] ⟨1, ![128]⟩ := ⟨hr.1, Nat.one_pos, hr.2⟩
  rw [hostReduceAdd_apply, Ideal.hostReduceAdd_single hr h]
  show Ideal.ofBits .f32 0x00000000#32 + _ = _
  rw [Ideal.ofBits_zero_f32, zero_add]
  unfold colSum
  refine Finset.sum_congr rfl fun r _ => ?_
  refine congrArg p (funext fun a => Fin.ext ?_)
  match a with
  | ⟨0, _⟩ => rfl
  | ⟨1, _⟩ => rfl

/-- The printed column mean (column sum over the node count) is the specification's. -/
theorem colMean_eq (p : S50000x128.Idx → EReal) (hr : S50000x128.ReducesTo [0] ⟨1, ![128]⟩) (hu : 0 < S_.numel)
    (hn : S_.BroadcastsInDim ⟨1, ![128]⟩ ![]) :
    Host.divf (F := Ideal) (φ := .f32)
        (Host.reduceAdd (F := Ideal) (φ := .f32) p (constant (F := Ideal) S_ .f32 0x00000000#32) hr hu)
        (broadcastInDim ⟨1, ![128]⟩ ![] hn (constant (F := Ideal) S_ .f32 0x47435000#32))
      = fun c => colMean p (c 0) := by
  funext c
  rw [hostDivf_apply, colSum_read p hr hu c]
  rfl

/-- The printed normalisation by given column statistics is the specification's. -/
theorem normBy_eq (p : S50000x128.Idx → EReal) (mu var g be : (⟨1, ![128]⟩ : Shape).Idx → EReal)
    (h0 : (⟨1, ![128]⟩ : Shape).BroadcastsInDim ⟨2, ![1, 128]⟩ ![1])
    (h1 : (⟨2, ![1, 128]⟩ : Shape).BroadcastsInDim S50000x128 ![0, 1])
    (he : S_.BroadcastsInDim ⟨1, ![128]⟩ ![]) :
    addf (F := Ideal) (φ := .f32)
        (mulf (F := Ideal) (φ := .f32)
          (mulf (F := Ideal) (φ := .f32) (broadcastInDim S50000x128 ![0, 1] h1 (broadcastInDim ⟨2, ![1, 128]⟩ ![1] h0 g))
            (subf (F := Ideal) (φ := .f32) p (broadcastInDim S50000x128 ![0, 1] h1 (broadcastInDim ⟨2, ![1, 128]⟩ ![1] h0 mu))))
          (broadcastInDim S50000x128 ![0, 1] h1 (broadcastInDim ⟨2, ![1, 128]⟩ ![1] h0
            (Host.rsqrt (F := Ideal) (φ := .f32)
              (addf (F := Ideal) (φ := .f32) var (broadcastInDim ⟨1, ![128]⟩ ![] he (constant (F := Ideal) S_ .f32 0x3727C5AC#32)))))))
        (broadcastInDim S50000x128 ![0, 1] h1 (broadcastInDim ⟨2, ![1, 128]⟩ ![1] h0 be))
      = normBy p (fun c => mu (ix1 c)) (fun c => var (ix1 c)) (fun c => g (ix1 c)) (fun c => be (ix1 c)) := by
  funext j
  rw [addf_apply, mulf_apply, mulf_apply, subf_apply, bcastRow_apply g h0 h1 j, bcastRow_apply mu h0 h1 j,
    bcastRow_apply be h0 h1 j, bcastRow_apply _ h0 h1 j]
  rfl

set_option maxRecDepth 16384 in
/-- The printed column mean laid over the rows (the column sum as one row, over the node count, down the rows)
    reads the specification's column mean. -/
theorem meanBc_apply (p : S50000x128.Idx → EReal) (hr : S50000x128.ReducesTo [0] ⟨1, ![128]⟩) (hu : 0 < S_.numel)
    (hn1 : S_.BroadcastsInDim ⟨2, ![1, 128]⟩ ![])
    (h0 : (⟨1, ![128]⟩ : Shape).BroadcastsInDim ⟨2, ![1, 128]⟩ ![1])
    (h1 : (⟨2, ![1, 128]⟩ : Shape).BroadcastsInDim S50000x128 ![0, 1]) (j : S50000x128.Idx) :
    broadcastInDim S50000x128 ![0, 1] h1
        (Host.divf (F := Ideal) (φ := .f32)
          (broadcastInDim ⟨2, ![1, 128]⟩ ![1] h0
            (Host.reduceAdd (F := Ideal) (φ := .f32) p (constant (F := Ideal) S_ .f32 0x00000000#32) hr hu))
          (broadcastInDim ⟨2, ![1, 128]⟩ ![] hn1 (constant (F := Ideal) S_ .f32 0x47435000#32))) j
      = colMean p (j 1) := by
  obtain ⟨r, c, rfl⟩ : ∃ (r : Fin 50000) (c : Fin 128), j = ix2 r c := ⟨j 0, j 1, eq_ix2 j⟩
  show _ = colMean p c
  refine (broadcastInDim_apply ![0, 1] h1 _ (ix2 r c) (ix2 (0 : Fin 1) c) (by
    intro a
    match a with
    | ⟨0, _⟩ =>
      show (0 : ℕ) = if (1 : ℕ) = 1 then 0 else _
      simp
    | ⟨1, _⟩ =>
      show c.val = if (128 : ℕ) = 1 then 0 else c.val
      simp)).trans ?_
  have e : broadcastInDim ⟨2, ![1, 128]⟩ ![1] h0
      (Host.reduceAdd (F := Ideal) (φ := .f32) p (constant (F := Ideal) S_ .f32 0x00000000#32) hr hu) (ix2 (0 : Fin 1) c)
        = colSum p c := by
    have e1 := broadcastInDim_apply ![1] h0
      (Host.reduceAdd (F := Ideal) (φ := .f32) p (constant (F := Ideal) S_ .f32 0x00000000#32) hr hu)
      (ix2 (0 : Fin 1) c) (ix1 c) (by
        intro a
        match a with
        | ⟨0, _⟩ => rfl)
    exact e1.trans (colSum_read' p hr hu c)
  refine (hostDivf_apply _ _ _).trans ?_
  rw [e]
  rfl

set_option maxRecDepth 16384 in
/-- The printed column variance over a given row-broadcast mean M (the mean of the squared deviations from M,
    behind the guard that the count less the correction is positive) is the specification's. -/
theorem colVar_core (p M : S50000x128.Idx → EReal) (hM : ∀ j, M j = colMean p (j 1))
    (hr : S50000x128.ReducesTo [0] ⟨1, ![128]⟩) (hu : 0 < S_.numel) (hn : S_.BroadcastsInDim ⟨1, ![128]⟩ ![]) :
    select
        (broadcastInDim ⟨1, ![128]⟩ ![] hn
          (cmpf (F := Ideal) (φ := .f32) .ogt
            (subf (F := Ideal) (φ := .f32) (constant (F := Ideal) S_ .f32 0x47435000#32) (sitofp (F := Ideal) .f32 (constantI S_ 32 0#32)))
            (constant (F := Ideal) S_ .f32 0x00000000#32)))
        (Host.divf (F := Ideal) (φ := .f32)
          (Host.reduceAdd (F := Ideal) (φ := .f32)
            (mulf (F := Ideal) (φ := .f32) (subf (F := Ideal) (φ := .f32) p M) (subf (F := Ideal) (φ := .f32) p M))
            (constant (F := Ideal) S_ .f32 0x00000000#32) hr hu)
          (broadcastInDim ⟨1, ![128]⟩ ![] hn
            (subf (F := Ideal) (φ := .f32) (constant (F := Ideal) S_ .f32 0x47435000#32) (sitofp (F := Ideal) .f32 (constantI S_ 32 0#32)))))
        (broadcastInDim ⟨1, ![128]⟩ ![] hn (constant (F := Ideal) S_ .f32 0x7FC00000#32))
      = fun c => colVar p (c 0) := by
  funext c
  rw [select_apply]
  show Scalar.select (Ideal.cmp .ogt (nF - (((0#32 : BitVec 32).toInt : ℝ) : EReal)) (Ideal.ofBits .f32 0x00000000#32)) _ _ = _
  rw [Ideal.ofBits_zero_f32, Cert.MathBN.nF_guard, select_one, hostDivf_apply, colSum_read _ hr hu c]
  show Ideal.div _ (nF - (((0#32 : BitVec 32).toInt : ℝ) : EReal)) = _
  rw [Cert.MathBN.nF_sub_ddof]
  unfold colVar colSum
  refine congrArg (fun s => Ideal.div s nF) ?_
  refine Finset.sum_congr rfl fun r _ => ?_
  rw [mulf_apply, subf_apply, hM]

/-! ## The readout's concatenations -/

/-- Four [50000, 128] arrays concatenated along the columns, as printed, are the specification's. -/
theorem hcat_eq (a b c d : S50000x128.Idx → EReal)
    (h : Shape.Concatenates [S50000x128, S50000x128, S50000x128, S50000x128] S50000x512 1) :
    concatenate S50000x512 1 [⟨S50000x128, a⟩, ⟨S50000x128, b⟩, ⟨S50000x128, c⟩, ⟨S50000x128, d⟩] h = hcat a b c d := by
  funext j
  unfold hcat
  have hj := idx2_lt1 j
  split_ifs with h0 h1 h2
  · exact concatenate_apply_piece (t := S50000x512) 1 [⟨S50000x128, a⟩, ⟨S50000x128, b⟩, ⟨S50000x128, c⟩, ⟨S50000x128, d⟩] h j 0 (by simp) S50000x128 a rfl rfl 0 (by simp) (ix2 (j 0) ⟨(j 1).val, h0⟩)
      (by intro x hx; match x with | ⟨0, _⟩ => rfl | ⟨1, _⟩ => exact absurd rfl hx) (by show 0 + (j 1).val = (j 1).val; omega)
  · exact concatenate_apply_piece (t := S50000x512) 1 [⟨S50000x128, a⟩, ⟨S50000x128, b⟩, ⟨S50000x128, c⟩, ⟨S50000x128, d⟩] h j 1 (by simp) S50000x128 b rfl rfl 128 (by simp) (ix2 (j 0) ⟨(j 1).val - 128, by omega⟩)
      (by intro x hx; match x with | ⟨0, _⟩ => rfl | ⟨1, _⟩ => exact absurd rfl hx) (by show 128 + ((j 1).val - 128) = (j 1).val; omega)
  · exact concatenate_apply_piece (t := S50000x512) 1 [⟨S50000x128, a⟩, ⟨S50000x128, b⟩, ⟨S50000x128, c⟩, ⟨S50000x128, d⟩] h j 2 (by simp) S50000x128 c rfl rfl 256 (by simp) (ix2 (j 0) ⟨(j 1).val - 256, by omega⟩)
      (by intro x hx; match x with | ⟨0, _⟩ => rfl | ⟨1, _⟩ => exact absurd rfl hx) (by show 256 + ((j 1).val - 256) = (j 1).val; omega)
  · exact concatenate_apply_piece (t := S50000x512) 1 [⟨S50000x128, a⟩, ⟨S50000x128, b⟩, ⟨S50000x128, c⟩, ⟨S50000x128, d⟩] h j 3 (by simp) S50000x128 d rfl rfl 384 (by simp) (ix2 (j 0) ⟨(j 1).val - 384, by omega⟩)
      (by intro x hx; match x with | ⟨0, _⟩ => rfl | ⟨1, _⟩ => exact absurd rfl hx) (by show 384 + ((j 1).val - 384) = (j 1).val; omega)

/-- Three [64, 512] arrays concatenated along the columns, as printed, are the specification's. -/
theorem vcat_eq (a b c : S64x512.Idx → EReal) (h : Shape.Concatenates [S64x512, S64x512, S64x512] S64x1536 1) :
    concatenate S64x1536 1 [⟨S64x512, a⟩, ⟨S64x512, b⟩, ⟨S64x512, c⟩] h = vcat a b c := by
  funext j
  unfold vcat
  have hj := idx2_lt1 j
  split_ifs with h0 h1
  · exact concatenate_apply_piece (t := S64x1536) 1 [⟨S64x512, a⟩, ⟨S64x512, b⟩, ⟨S64x512, c⟩] h j 0 (by simp) S64x512 a rfl rfl 0 (by simp) (ix2 (j 0) ⟨(j 1).val, h0⟩)
      (by intro x hx; match x with | ⟨0, _⟩ => rfl | ⟨1, _⟩ => exact absurd rfl hx) (by show 0 + (j 1).val = (j 1).val; omega)
  · exact concatenate_apply_piece (t := S64x1536) 1 [⟨S64x512, a⟩, ⟨S64x512, b⟩, ⟨S64x512, c⟩] h j 1 (by simp) S64x512 b rfl rfl 512 (by simp) (ix2 (j 0) ⟨(j 1).val - 512, by omega⟩)
      (by intro x hx; match x with | ⟨0, _⟩ => rfl | ⟨1, _⟩ => exact absurd rfl hx) (by show 512 + ((j 1).val - 512) = (j 1).val; omega)
  · exact concatenate_apply_piece (t := S64x1536) 1 [⟨S64x512, a⟩, ⟨S64x512, b⟩, ⟨S64x512, c⟩] h j 2 (by simp) S64x512 c rfl rfl 1024 (by simp) (ix2 (j 0) ⟨(j 1).val - 1024, by omega⟩)
      (by intro x hx; match x with | ⟨0, _⟩ => rfl | ⟨1, _⟩ => exact absurd rfl hx) (by show 1024 + ((j 1).val - 1024) = (j 1).val; omega)

end Cert.RefBridge

end
-- ==== Proof.Ref.Result.lean ====
/-
  The reference's result. After the whole line of the reference's operations, run from the launch contents, the
  result buffer holds the specification's result at the 21 argument arrays as they stand in memory: the evaluation
  of the line window by window (Ref/Eval.lean) ends in the printed term of the final concatenation, and that term
  is the specification's result (Ref/Value.lean).
-/
import proofs.«421328_j30846455120312_1_alg».proof.Proof.Ref.Eval
import proofs.«421328_j30846455120312_1_alg».proof.Proof.Ref.Value
import proofs.«421328_j30846455120312_1_alg».proof.Proof.KI.ValueMath

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The arguments read off a valuation are the arguments read off the memory it was launched from. -/
theorem argsOfV_launch (m : (ℓ : Loc nD τ sig) → Buf (Elt Ideal) ℓ) (c : Dev nD) :
    argsOfV (launchContents m c)
      = Cert.ValueMath.mkArgs (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17))
          (m ((c.tc : Thread nD τ).loc main_arg18)) (m ((c.tc : Thread nD τ).loc main_arg19))
          (m ((c.tc : Thread nD τ).loc main_arg20)) := rfl

/-- The reference's result buffer, after its whole line of operations from the launch contents, is the
    specification's result at the 21 argument arrays. -/
theorem result_eq (Dm : Cert.Spec.Dims) (hD : DimsOK Dm) (m : (ℓ : Loc nD τ sig) → Buf (Elt Ideal) ℓ) (c : Dev nD) :
    after ops (launchContents m c) (Proc.devRef .tc main_v909)
      = Cert.Spec.result Dm
          (Cert.ValueMath.mkArgs (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16)) (m ((c.tc : Thread nD τ).loc main_arg17))
            (m ((c.tc : Thread nD τ).loc main_arg18)) (m ((c.tc : Thread nD τ).loc main_arg19))
            (m ((c.tc : Thread nD τ).loc main_arg20))) := by
  rw [← argsOfV_launch m c]
  exact (out_eq (F := Ideal) (launchContents m c)).trans (e_main_v909 (launchContents m c) Dm hD)

end Cert.ReferenceIdeal.RefRun

end
-- ==== Proof.lean ====
/-
  The certificate's assembly. The kernel program is twenty-seven pipelined regions among host stretches: per relation
  and layer a region that computes PReLU(x·W_self + mean-aggregate·W_neigh + b) tile by tile together with its column
  sums and sums of squares, a host stretch that turns these into mean and variance as E[p²] − (E p)², and a region that
  normalises; after the four layers, per relation, a region that pools the nodes of each graph by a one-hot product.
  The three frames come from the runs of the programs with the result dropped. At the exact reals both results are
  the specification's function of the arguments (`Cert.Spec.result`): on the kernel's side by the mean-aggregation law
  x·(1/d) = x/d for a count d ≥ 1, the variance identity E[p²] − (E p)² = E[(p − E p)²] for real-valued p (every entry
  stays real layer by layer, from the precondition), and the one-hot sum equal to the host's accumulating scatter by
  graph id; on the reference's side stage by stage. Memories that agree on the arguments give the same argument record.
-/
import proofs.«421328_j30846455120312_1_alg».proof.Defs
import proofs.«421328_j30846455120312_1_alg».proof.Proof.Gen.Kernel
import proofs.«421328_j30846455120312_1_alg».proof.Proof.Gen.KernelIdeal
import proofs.«421328_j30846455120312_1_alg».proof.Proof.Gen.ReferenceIdeal
import proofs.«421328_j30846455120312_1_alg».proof.Proof.Gen.Pre_finite_inputs
import proofs.«421328_j30846455120312_1_alg».proof.Proof.K.Run
import proofs.«421328_j30846455120312_1_alg».proof.Proof.K.Halves
import proofs.«421328_j30846455120312_1_alg».proof.Proof.KI.Run
import proofs.«421328_j30846455120312_1_alg».proof.Proof.KI.Halves
import proofs.«421328_j30846455120312_1_alg».proof.Proof.KI.Value
import proofs.«421328_j30846455120312_1_alg».proof.Proof.Ref.Run
import proofs.«421328_j30846455120312_1_alg».proof.Proof.Ref.Result
import Idealize.ShloMosaic.Adequacy
import Idealize.ShloMosaic.Init

noncomputable section

namespace Cert.Proof

open Idealize.ShloMosaic Idealize.SL.Sem

/-- The word-level program runs and keeps its arguments: the run of its segments with the result dropped. -/
theorem frame_k : Cert.frame_Kernel := fun m ρ _ =>
  (θ_run Cert.Kernel.defs _ _).mono (fun _ h c => (h c).2) (Cert.Kernel.Gen.run_main (F := Bits) m ρ)

/-- The same at the exact reals. -/
theorem frame_ki : Cert.frame_KernelIdeal := fun m ρ _ =>
  (θ_run Cert.KernelIdeal.defs _ _).mono (fun _ h c => (h c).2) (Cert.KernelIdeal.Gen.run_main (F := Ideal) m ρ)

/-- The reference is a host program: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The dimension records of the gathers and scatters, as the reference prints them; the kernel program prints the
    same records for the operations it shares. -/
def dims : Cert.Spec.Dims where
  gE := Cert.ReferenceIdeal.gather_S257x64_S50000x1_S50000x64_1_0_n_n_0_1_164
  g64 := Cert.ReferenceIdeal.gather_S50000x64_S400000x1_S400000x64_1_0_n_n_0_1_164
  s64 := Cert.ReferenceIdeal.scatter_S50000x64_S400000x1_S400000x64_1_0_0_1
  s1 := Cert.ReferenceIdeal.scatter_S50000x1_S400000x1_S400000x1_1_0_0_1
  g128 := Cert.ReferenceIdeal.gather_S50000x128_S400000x1_S400000x128_1_0_n_n_0_1_1128
  s128 := Cert.ReferenceIdeal.scatter_S50000x128_S400000x1_S400000x128_1_0_0_1
  r512 := Cert.ReferenceIdeal.scatter_S64x512_S50000x1_S50000x512_1_0_0_1
  r1 := Cert.ReferenceIdeal.scatter_S64x1_S50000x1_S50000x1_1_0_0_1

theorem dimsOK : Cert.ReferenceIdeal.RefRun.DimsOK dims := ⟨rfl, rfl, rfl, rfl, rfl, rfl, rfl, rfl⟩

/-- Both programs, run from memories that agree on the arguments, end at the specification's function of them. -/
theorem algebraic : Cert.algebraic_KernelIdeal_ReferenceIdeal := by
  intro m ρ m' ρ' hpre hagree
  refine ⟨fun c => Cert.KernelIdeal.Gen.Wlast m ρ c (Proc.devRef .tc Cert.KernelIdeal.main_v618),
    Cert.KernelIdeal.Gen.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRun.result_eq dims dimsOK m' c]
  refine Eq.trans ?_ (Cert.KernelIdeal.Gen.result_eq m ρ dims rfl rfl rfl rfl rfl rfl ⟨rfl, rfl, rfl, rfl⟩ ⟨rfl, rfl, rfl, rfl⟩ hpre c).symm
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
